-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x64 : Shape := ⟨2, ![1024, 64]⟩
abbrev S64x1024 : Shape := ⟨2, ![64, 1024]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S1024x64 .f32) (main_arg1 : FVec F S64x1024 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Pre_finite_inputs_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) (main_arg1 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S1024x64 : Shape := ⟨2, ![1024, 64]⟩
abbrev S64x1024 : Shape := ⟨2, ![64, 1024]⟩
abbrev S1024x1024 : Shape := ⟨2, ![1024, 1024]⟩
abbrev S8x64x1024 : Shape := ⟨3, ![8, 64, 1024]⟩
abbrev S7x64x1024 : Shape := ⟨3, ![7, 64, 1024]⟩
abbrev S2x8x4 : Shape := ⟨3, ![2, 8, 4]⟩
abbrev S2x7x4 : Shape := ⟨3, ![2, 7, 4]⟩
abbrev S_ : Shape := ⟨0, ![]⟩
abbrev S1x1x1 : Shape := ⟨3, ![1, 1, 1]⟩
abbrev S1x16x1024 : Shape := ⟨3, ![1, 16, 1024]⟩
abbrev S16x1024 : Shape := ⟨2, ![16, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S64x1024, .f32⟩
  | .hbm, ⟨2, _⟩ => ⟨S1024x1024, .f32⟩
  | .local _ .vmem, ⟨0, _⟩ => ⟨S1024x64, .f32⟩
  | .local _ .vmem, ⟨1, _⟩ => ⟨S64x1024, .f32⟩
  | .local _ .vmem, ⟨2, _⟩ => ⟨S1024x1024, .f32⟩
  | .local _ .vmem, ⟨3, _⟩ => ⟨S8x64x1024, .f32⟩
  | .local _ .vmem, ⟨4, _⟩ => ⟨S7x64x1024, .f32⟩
  | _, _ => ⟨S1024x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 243 → Bool
  | ⟨i, _⟩ => dmaSemScopedAt i

abbrev sig : RefSig :=
  (ofTc nBuf bufTy 1 243 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_49 : BitVec 32 := 1#32
  let v94 : BitVec 32 := Scalar.muli v62 c1_i32_49
  let v95 : BitVec 32 := Scalar.addi c0_i32_50 v94
  v95.toNat
def k0_dev2 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_52 : BitVec 32 := 1#32
  let v96 : BitVec 32 := Scalar.muli v86 c1_i32_52
  let v97 : BitVec 32 := Scalar.addi c0_i32_53 v96
  v97.toNat
def k0_off1 (d0 : Dev nD) (c8_i32_55 : BitVec 32) (c0_i32_56 : BitVec 32) (c0_i32_63 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let v98 : BitVec 32 := Scalar.addi v38 c8_i32_55
  let v99 : BitVec 32 := Scalar.addi v98 c0_i32_56
  let c16_i32_57 : BitVec 32 := 16#32
  let c0_i32_58 : BitVec 32 := 0#32
  let v100 : BitVec 1 := Scalar.cmpi .eq c16_i32_57 c0_i32_58
  let c1_i32_59 : BitVec 32 := 1#32
  let v101 : BitVec 32 := Scalar.select v100 c1_i32_59 c16_i32_57
  let v102 : BitVec 32 := Scalar.remsi v99 v101
  let c0_i32_61 : BitVec 32 := 0#32
  let v104 : BitVec 1 := Scalar.cmpi .slt v102 c0_i32_61
  let c0_i32_62 : BitVec 32 := 0#32
  let v105 : BitVec 1 := Scalar.cmpi .slt v101 c0_i32_62
  let v106 : BitVec 1 := Scalar.xori v104 v105
  let c0_i32_60 : BitVec 32 := 0#32
  let v103 : BitVec 1 := Scalar.cmpi .ne v102 c0_i32_60
  let v107 : BitVec 1 := Scalar.andi v106 v103
  let v108 : BitVec 32 := Scalar.addi v102 v101
  let v109 : BitVec 32 := Scalar.select v107 v108 v102
  let c64_i32 : BitVec 32 := 64#32
  let v110 : BitVec 32 := Scalar.muli v109 c64_i32
  let v111 : BitVec 32 := Scalar.addi v110 c0_i32_63
  let c0_i32_75 : BitVec 32 := 0#32
  ![v111.toNat, 0]
def k0_off1_at (r : Fin 60) : BitVec 32 × BitVec 32 × BitVec 32 :=
  if r.val < 30 then
    if r.val < 15 then
      if r.val < 7 then
        if r.val < 3 then
          if r.val < 1 then
            (8#32, 0#32, 0#32)
          else
            if r.val < 2 then
              (8#32, 0#32, 16#32)
            else
              (8#32, 0#32, 32#32)
        else
          if r.val < 5 then
            if r.val < 4 then
              (8#32, 0#32, 48#32)
            else
              (8#32, 1#32, 0#32)
          else
            if r.val < 6 then
              (8#32, 1#32, 16#32)
            else
              (8#32, 1#32, 32#32)
      else
        if r.val < 11 then
          if r.val < 9 then
            if r.val < 8 then
              (8#32, 1#32, 48#32)
            else
              (8#32, 2#32, 0#32)
          else
            if r.val < 10 then
              (8#32, 2#32, 16#32)
            else
              (8#32, 2#32, 32#32)
        else
          if r.val < 13 then
            if r.val < 12 then
              (8#32, 2#32, 48#32)
            else
              (8#32, 3#32, 0#32)
          else
            if r.val < 14 then
              (8#32, 3#32, 16#32)
            else
              (8#32, 3#32, 32#32)
    else
      if r.val < 22 then
        if r.val < 18 then
          if r.val < 16 then
            (8#32, 3#32, 48#32)
          else
            if r.val < 17 then
              (8#32, 4#32, 0#32)
            else
              (8#32, 4#32, 16#32)
        else
          if r.val < 20 then
            if r.val < 19 then
              (8#32, 4#32, 32#32)
            else
              (8#32, 4#32, 48#32)
          else
            if r.val < 21 then
              (8#32, 5#32, 0#32)
            else
              (8#32, 5#32, 16#32)
      else
        if r.val < 26 then
          if r.val < 24 then
            if r.val < 23 then
              (8#32, 5#32, 32#32)
            else
              (8#32, 5#32, 48#32)
          else
            if r.val < 25 then
              (8#32, 6#32, 0#32)
            else
              (8#32, 6#32, 16#32)
        else
          if r.val < 28 then
            if r.val < 27 then
              (8#32, 6#32, 32#32)
            else
              (8#32, 6#32, 48#32)
          else
            if r.val < 29 then
              (8#32, 7#32, 0#32)
            else
              (8#32, 7#32, 16#32)
  else
    if r.val < 45 then
      if r.val < 37 then
        if r.val < 33 then
          if r.val < 31 then
            (8#32, 7#32, 32#32)
          else
            if r.val < 32 then
              (8#32, 7#32, 48#32)
            else
              (1#32, 0#32, 0#32)
        else
          if r.val < 35 then
            if r.val < 34 then
              (1#32, 0#32, 16#32)
            else
              (1#32, 0#32, 32#32)
          else
            if r.val < 36 then
              (1#32, 0#32, 48#32)
            else
              (1#32, 1#32, 0#32)
      else
        if r.val < 41 then
          if r.val < 39 then
            if r.val < 38 then
              (1#32, 1#32, 16#32)
            else
              (1#32, 1#32, 32#32)
          else
            if r.val < 40 then
              (1#32, 1#32, 48#32)
            else
              (1#32, 2#32, 0#32)
        else
          if r.val < 43 then
            if r.val < 42 then
              (1#32, 2#32, 16#32)
            else
              (1#32, 2#32, 32#32)
          else
            if r.val < 44 then
              (1#32, 2#32, 48#32)
            else
              (1#32, 3#32, 0#32)
    else
      if r.val < 52 then
        if r.val < 48 then
          if r.val < 46 then
            (1#32, 3#32, 16#32)
          else
            if r.val < 47 then
              (1#32, 3#32, 32#32)
            else
              (1#32, 3#32, 48#32)
        else
          if r.val < 50 then
            if r.val < 49 then
              (1#32, 4#32, 0#32)
            else
              (1#32, 4#32, 16#32)
          else
            if r.val < 51 then
              (1#32, 4#32, 32#32)
            else
              (1#32, 4#32, 48#32)
      else
        if r.val < 56 then
          if r.val < 54 then
            if r.val < 53 then
              (1#32, 5#32, 0#32)
            else
              (1#32, 5#32, 16#32)
          else
            if r.val < 55 then
              (1#32, 5#32, 32#32)
            else
              (1#32, 5#32, 48#32)
        else
          if r.val < 58 then
            if r.val < 57 then
              (1#32, 6#32, 0#32)
            else
              (1#32, 6#32, 16#32)
          else
            if r.val < 59 then
              (1#32, 6#32, 32#32)
            else
              (1#32, 6#32, 48#32)
def k0_dev3 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_71 : BitVec 32 := 1#32
  let v112 : BitVec 32 := Scalar.muli v62 c1_i32_71
  let v113 : BitVec 32 := Scalar.addi c0_i32_72 v112
  v113.toNat
def k0_off2 (d0 : Dev nD) (c0_i32_78 : BitVec 32) (c0_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c8_i32_76 : BitVec 32 := 8#32
  let v121 : BitVec 32 := Scalar.addi v38 c8_i32_76
  let c1_i32_77 : BitVec 32 := 1#32
  let v122 : BitVec 32 := Scalar.subi v121 c1_i32_77
  let v123 : BitVec 32 := Scalar.subi v122 c0_i32_78
  let c16_i32_79 : BitVec 32 := 16#32
  let c0_i32_80 : BitVec 32 := 0#32
  let v124 : BitVec 1 := Scalar.cmpi .eq c16_i32_79 c0_i32_80
  let c1_i32_81 : BitVec 32 := 1#32
  let v125 : BitVec 32 := Scalar.select v124 c1_i32_81 c16_i32_79
  let v126 : BitVec 32 := Scalar.remsi v123 v125
  let c0_i32_83 : BitVec 32 := 0#32
  let v128 : BitVec 1 := Scalar.cmpi .slt v126 c0_i32_83
  let c0_i32_84 : BitVec 32 := 0#32
  let v129 : BitVec 1 := Scalar.cmpi .slt v125 c0_i32_84
  let v130 : BitVec 1 := Scalar.xori v128 v129
  let c0_i32_82 : BitVec 32 := 0#32
  let v127 : BitVec 1 := Scalar.cmpi .ne v126 c0_i32_82
  let v131 : BitVec 1 := Scalar.andi v130 v127
  let v132 : BitVec 32 := Scalar.addi v126 v125
  let v133 : BitVec 32 := Scalar.select v131 v132 v126
  let c64_i32_85 : BitVec 32 := 64#32
  let v134 : BitVec 32 := Scalar.muli v133 c64_i32_85
  let v135 : BitVec 32 := Scalar.addi v134 c0_i32_86
  let c0_i32_98 : BitVec 32 := 0#32
  ![v135.toNat, 0]
def k0_dev4 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_94 : BitVec 32 := 1#32
  let v136 : BitVec 32 := Scalar.muli v86 c1_i32_94
  let v137 : BitVec 32 := Scalar.addi c0_i32_95 v136
  v137.toNat
def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_116 : BitVec 32 := 1#32
  let v159 : BitVec 32 := Scalar.muli v62 c1_i32_116
  let v160 : BitVec 32 := Scalar.addi c0_i32_117 v159
  v160.toNat
def k0_dev6 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_139 : BitVec 32 := 1#32
  let v183 : BitVec 32 := Scalar.muli v86 c1_i32_139
  let v184 : BitVec 32 := Scalar.addi c0_i32_140 v183
  v184.toNat
def k0_dev7 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_160 : BitVec 32 := 1#32
  let v206 : BitVec 32 := Scalar.muli v62 c1_i32_160
  let v207 : BitVec 32 := Scalar.addi c0_i32_161 v206
  v207.toNat
def k0_dev8 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_183 : BitVec 32 := 1#32
  let v230 : BitVec 32 := Scalar.muli v86 c1_i32_183
  let v231 : BitVec 32 := Scalar.addi c0_i32_184 v230
  v231.toNat
def k0_dev9 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_203 : BitVec 32 := 1#32
  let v253 : BitVec 32 := Scalar.muli v62 c1_i32_203
  let v254 : BitVec 32 := Scalar.addi c0_i32_204 v253
  v254.toNat
def k0_dev10 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_226 : BitVec 32 := 1#32
  let v277 : BitVec 32 := Scalar.muli v86 c1_i32_226
  let v278 : BitVec 32 := Scalar.addi c0_i32_227 v277
  v278.toNat
def k0_off3 (d0 : Dev nD) (c0_i32_233 : BitVec 32) (c0_i32_255 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c8_i32_231 : BitVec 32 := 8#32
  let v286 : BitVec 32 := Scalar.addi v38 c8_i32_231
  let c1_i32_232 : BitVec 32 := 1#32
  let v287 : BitVec 32 := Scalar.addi v286 c1_i32_232
  let v288 : BitVec 32 := Scalar.addi v287 c0_i32_233
  let c16_i32_248 : BitVec 32 := 16#32
  let c0_i32_249 : BitVec 32 := 0#32
  let v297 : BitVec 1 := Scalar.cmpi .eq c16_i32_248 c0_i32_249
  let c1_i32_250 : BitVec 32 := 1#32
  let v298 : BitVec 32 := Scalar.select v297 c1_i32_250 c16_i32_248
  let v299 : BitVec 32 := Scalar.remsi v288 v298
  let c0_i32_252 : BitVec 32 := 0#32
  let v301 : BitVec 1 := Scalar.cmpi .slt v299 c0_i32_252
  let c0_i32_253 : BitVec 32 := 0#32
  let v302 : BitVec 1 := Scalar.cmpi .slt v298 c0_i32_253
  let v303 : BitVec 1 := Scalar.xori v301 v302
  let c0_i32_251 : BitVec 32 := 0#32
  let v300 : BitVec 1 := Scalar.cmpi .ne v299 c0_i32_251
  let v304 : BitVec 1 := Scalar.andi v303 v300
  let v305 : BitVec 32 := Scalar.addi v299 v298
  let v306 : BitVec 32 := Scalar.select v304 v305 v299
  let c64_i32_254 : BitVec 32 := 64#32
  let v307 : BitVec 32 := Scalar.muli v306 c64_i32_254
  let v308 : BitVec 32 := Scalar.addi v307 c0_i32_255
  let v309 : Index := Scalar.indexCast v308
  let c0_256 : Index := 0#32
  ![v309.toNat, 0]
def k0_dev11 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_286 : BitVec 32 := 1#32
  let v343 : BitVec 32 := Scalar.muli v62 c1_i32_286
  let v344 : BitVec 32 := Scalar.addi c0_i32_287 v343
  v344.toNat
def k0_off4 (d0 : Dev nD) (c0_i32_293 : BitVec 32) (c0_i32_315 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c8_i32_291 : BitVec 32 := 8#32
  let v352 : BitVec 32 := Scalar.addi v38 c8_i32_291
  let c2_i32_292 : BitVec 32 := 2#32
  let v353 : BitVec 32 := Scalar.subi v352 c2_i32_292
  let v354 : BitVec 32 := Scalar.subi v353 c0_i32_293
  let c16_i32_308 : BitVec 32 := 16#32
  let c0_i32_309 : BitVec 32 := 0#32
  let v363 : BitVec 1 := Scalar.cmpi .eq c16_i32_308 c0_i32_309
  let c1_i32_310 : BitVec 32 := 1#32
  let v364 : BitVec 32 := Scalar.select v363 c1_i32_310 c16_i32_308
  let v365 : BitVec 32 := Scalar.remsi v354 v364
  let c0_i32_312 : BitVec 32 := 0#32
  let v367 : BitVec 1 := Scalar.cmpi .slt v365 c0_i32_312
  let c0_i32_313 : BitVec 32 := 0#32
  let v368 : BitVec 1 := Scalar.cmpi .slt v364 c0_i32_313
  let v369 : BitVec 1 := Scalar.xori v367 v368
  let c0_i32_311 : BitVec 32 := 0#32
  let v366 : BitVec 1 := Scalar.cmpi .ne v365 c0_i32_311
  let v370 : BitVec 1 := Scalar.andi v369 v366
  let v371 : BitVec 32 := Scalar.addi v365 v364
  let v372 : BitVec 32 := Scalar.select v370 v371 v365
  let c64_i32_314 : BitVec 32 := 64#32
  let v373 : BitVec 32 := Scalar.muli v372 c64_i32_314
  let v374 : BitVec 32 := Scalar.addi v373 c0_i32_315
  let v375 : Index := Scalar.indexCast v374
  let c0_316 : Index := 0#32
  ![v375.toNat, 0]
def k0_dev12 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_347 : BitVec 32 := 1#32
  let v410 : BitVec 32 := Scalar.muli v86 c1_i32_347
  let v411 : BitVec 32 := Scalar.addi c0_i32_348 v410
  v411.toNat
def k0_dev13 (d0 : Dev nD) : Nat :=
  let c0_i32_407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_406 : BitVec 32 := 1#32
  let v476 : BitVec 32 := Scalar.muli v62 c1_i32_406
  let v477 : BitVec 32 := Scalar.addi c0_i32_407 v476
  v477.toNat
def k0_dev14 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_467 : BitVec 32 := 1#32
  let v543 : BitVec 32 := Scalar.muli v86 c1_i32_467
  let v544 : BitVec 32 := Scalar.addi c0_i32_468 v543
  v544.toNat
def k0_dev15 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_526 : BitVec 32 := 1#32
  let v609 : BitVec 32 := Scalar.muli v62 c1_i32_526
  let v610 : BitVec 32 := Scalar.addi c0_i32_527 v609
  v610.toNat
def k0_dev16 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_587 : BitVec 32 := 1#32
  let v676 : BitVec 32 := Scalar.muli v86 c1_i32_587
  let v677 : BitVec 32 := Scalar.addi c0_i32_588 v676
  v677.toNat
def k0_dev17 (d0 : Dev nD) : Nat :=
  let c0_i32_647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_646 : BitVec 32 := 1#32
  let v742 : BitVec 32 := Scalar.muli v62 c1_i32_646
  let v743 : BitVec 32 := Scalar.addi c0_i32_647 v742
  v743.toNat
def k0_dev18 (d0 : Dev nD) : Nat :=
  let c0_i32_708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_707 : BitVec 32 := 1#32
  let v809 : BitVec 32 := Scalar.muli v86 c1_i32_707
  let v810 : BitVec 32 := Scalar.addi c0_i32_708 v809
  v810.toNat
def k0_dev19 (d0 : Dev nD) : Nat :=
  let c0_i32_855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_854 : BitVec 32 := 1#32
  let v915 : BitVec 32 := Scalar.muli v62 c1_i32_854
  let v916 : BitVec 32 := Scalar.addi c0_i32_855 v915
  v916.toNat
def k0_dev20 (d0 : Dev nD) : Nat :=
  let c0_i32_916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_915 : BitVec 32 := 1#32
  let v982 : BitVec 32 := Scalar.muli v86 c1_i32_915
  let v983 : BitVec 32 := Scalar.addi c0_i32_916 v982
  v983.toNat
def k0_dev21 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_975 : BitVec 32 := 1#32
  let v1048 : BitVec 32 := Scalar.muli v62 c1_i32_975
  let v1049 : BitVec 32 := Scalar.addi c0_i32_976 v1048
  v1049.toNat
def k0_dev22 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_1036 : BitVec 32 := 1#32
  let v1115 : BitVec 32 := Scalar.muli v86 c1_i32_1036
  let v1116 : BitVec 32 := Scalar.addi c0_i32_1037 v1115
  v1116.toNat
def k0_dev23 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_1096 : BitVec 32 := 1#32
  let v1181 : BitVec 32 := Scalar.muli v62 c1_i32_1096
  let v1182 : BitVec 32 := Scalar.addi c0_i32_1097 v1181
  v1182.toNat
def k0_dev24 (d0 : Dev nD) : Nat :=
  let c0_i32_1158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_1157 : BitVec 32 := 1#32
  let v1248 : BitVec 32 := Scalar.muli v86 c1_i32_1157
  let v1249 : BitVec 32 := Scalar.addi c0_i32_1158 v1248
  v1249.toNat
def k0_dev25 (d0 : Dev nD) : Nat :=
  let c0_i32_1218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_1217 : BitVec 32 := 1#32
  let v1314 : BitVec 32 := Scalar.muli v62 c1_i32_1217
  let v1315 : BitVec 32 := Scalar.addi c0_i32_1218 v1314
  v1315.toNat
def k0_dev26 (d0 : Dev nD) : Nat :=
  let c0_i32_1279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_1278 : BitVec 32 := 1#32
  let v1381 : BitVec 32 := Scalar.muli v86 c1_i32_1278
  let v1382 : BitVec 32 := Scalar.addi c0_i32_1279 v1381
  v1382.toNat
def k0_dev27 (d0 : Dev nD) : Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_1425 : BitVec 32 := 1#32
  let v1487 : BitVec 32 := Scalar.muli v62 c1_i32_1425
  let v1488 : BitVec 32 := Scalar.addi c0_i32_1426 v1487
  v1488.toNat
def k0_dev28 (d0 : Dev nD) : Nat :=
  let c0_i32_1487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_1486 : BitVec 32 := 1#32
  let v1554 : BitVec 32 := Scalar.muli v86 c1_i32_1486
  let v1555 : BitVec 32 := Scalar.addi c0_i32_1487 v1554
  v1555.toNat
def k0_dev29 (d0 : Dev nD) : Nat :=
  let c0_i32_1547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_1546 : BitVec 32 := 1#32
  let v1620 : BitVec 32 := Scalar.muli v62 c1_i32_1546
  let v1621 : BitVec 32 := Scalar.addi c0_i32_1547 v1620
  v1621.toNat
def k0_dev30 (d0 : Dev nD) : Nat :=
  let c0_i32_1608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_1607 : BitVec 32 := 1#32
  let v1687 : BitVec 32 := Scalar.muli v86 c1_i32_1607
  let v1688 : BitVec 32 := Scalar.addi c0_i32_1608 v1687
  v1688.toNat
def k0_dev31 (d0 : Dev nD) : Nat :=
  let c0_i32_1668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_1667 : BitVec 32 := 1#32
  let v1753 : BitVec 32 := Scalar.muli v62 c1_i32_1667
  let v1754 : BitVec 32 := Scalar.addi c0_i32_1668 v1753
  v1754.toNat
def k0_dev32 (d0 : Dev nD) : Nat :=
  let c0_i32_1729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_1728 : BitVec 32 := 1#32
  let v1820 : BitVec 32 := Scalar.muli v86 c1_i32_1728
  let v1821 : BitVec 32 := Scalar.addi c0_i32_1729 v1820
  v1821.toNat
def k0_dev33 (d0 : Dev nD) : Nat :=
  let c0_i32_1789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_1788 : BitVec 32 := 1#32
  let v1886 : BitVec 32 := Scalar.muli v62 c1_i32_1788
  let v1887 : BitVec 32 := Scalar.addi c0_i32_1789 v1886
  v1887.toNat
def k0_dev34 (d0 : Dev nD) : Nat :=
  let c0_i32_1850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_1849 : BitVec 32 := 1#32
  let v1953 : BitVec 32 := Scalar.muli v86 c1_i32_1849
  let v1954 : BitVec 32 := Scalar.addi c0_i32_1850 v1953
  v1954.toNat
def k0_dev35 (d0 : Dev nD) : Nat :=
  let c0_i32_1997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_1996 : BitVec 32 := 1#32
  let v2059 : BitVec 32 := Scalar.muli v62 c1_i32_1996
  let v2060 : BitVec 32 := Scalar.addi c0_i32_1997 v2059
  v2060.toNat
def k0_dev36 (d0 : Dev nD) : Nat :=
  let c0_i32_2058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_2057 : BitVec 32 := 1#32
  let v2126 : BitVec 32 := Scalar.muli v86 c1_i32_2057
  let v2127 : BitVec 32 := Scalar.addi c0_i32_2058 v2126
  v2127.toNat
def k0_dev37 (d0 : Dev nD) : Nat :=
  let c0_i32_2118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_2117 : BitVec 32 := 1#32
  let v2192 : BitVec 32 := Scalar.muli v62 c1_i32_2117
  let v2193 : BitVec 32 := Scalar.addi c0_i32_2118 v2192
  v2193.toNat
def k0_dev38 (d0 : Dev nD) : Nat :=
  let c0_i32_2179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_2178 : BitVec 32 := 1#32
  let v2259 : BitVec 32 := Scalar.muli v86 c1_i32_2178
  let v2260 : BitVec 32 := Scalar.addi c0_i32_2179 v2259
  v2260.toNat
def k0_dev39 (d0 : Dev nD) : Nat :=
  let c0_i32_2239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_2238 : BitVec 32 := 1#32
  let v2325 : BitVec 32 := Scalar.muli v62 c1_i32_2238
  let v2326 : BitVec 32 := Scalar.addi c0_i32_2239 v2325
  v2326.toNat
def k0_dev40 (d0 : Dev nD) : Nat :=
  let c0_i32_2300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_2299 : BitVec 32 := 1#32
  let v2392 : BitVec 32 := Scalar.muli v86 c1_i32_2299
  let v2393 : BitVec 32 := Scalar.addi c0_i32_2300 v2392
  v2393.toNat
def k0_dev41 (d0 : Dev nD) : Nat :=
  let c0_i32_2360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_2359 : BitVec 32 := 1#32
  let v2458 : BitVec 32 := Scalar.muli v62 c1_i32_2359
  let v2459 : BitVec 32 := Scalar.addi c0_i32_2360 v2458
  v2459.toNat
def k0_dev42 (d0 : Dev nD) : Nat :=
  let c0_i32_2421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_2420 : BitVec 32 := 1#32
  let v2525 : BitVec 32 := Scalar.muli v86 c1_i32_2420
  let v2526 : BitVec 32 := Scalar.addi c0_i32_2421 v2525
  v2526.toNat
def k0_dev43 (d0 : Dev nD) : Nat :=
  let c0_i32_2567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_2566 : BitVec 32 := 1#32
  let v2631 : BitVec 32 := Scalar.muli v62 c1_i32_2566
  let v2632 : BitVec 32 := Scalar.addi c0_i32_2567 v2631
  v2632.toNat
def k0_dev44 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_2627 : BitVec 32 := 1#32
  let v2698 : BitVec 32 := Scalar.muli v86 c1_i32_2627
  let v2699 : BitVec 32 := Scalar.addi c0_i32_2628 v2698
  v2699.toNat
def k0_dev45 (d0 : Dev nD) : Nat :=
  let c0_i32_2688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_2687 : BitVec 32 := 1#32
  let v2764 : BitVec 32 := Scalar.muli v62 c1_i32_2687
  let v2765 : BitVec 32 := Scalar.addi c0_i32_2688 v2764
  v2765.toNat
def k0_dev46 (d0 : Dev nD) : Nat :=
  let c0_i32_2749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_2748 : BitVec 32 := 1#32
  let v2831 : BitVec 32 := Scalar.muli v86 c1_i32_2748
  let v2832 : BitVec 32 := Scalar.addi c0_i32_2749 v2831
  v2832.toNat
def k0_dev47 (d0 : Dev nD) : Nat :=
  let c0_i32_2809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_2808 : BitVec 32 := 1#32
  let v2897 : BitVec 32 := Scalar.muli v62 c1_i32_2808
  let v2898 : BitVec 32 := Scalar.addi c0_i32_2809 v2897
  v2898.toNat
def k0_dev48 (d0 : Dev nD) : Nat :=
  let c0_i32_2870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_2869 : BitVec 32 := 1#32
  let v2964 : BitVec 32 := Scalar.muli v86 c1_i32_2869
  let v2965 : BitVec 32 := Scalar.addi c0_i32_2870 v2964
  v2965.toNat
def k0_dev49 (d0 : Dev nD) : Nat :=
  let c0_i32_2930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_2929 : BitVec 32 := 1#32
  let v3030 : BitVec 32 := Scalar.muli v62 c1_i32_2929
  let v3031 : BitVec 32 := Scalar.addi c0_i32_2930 v3030
  v3031.toNat
def k0_dev50 (d0 : Dev nD) : Nat :=
  let c0_i32_2991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_2990 : BitVec 32 := 1#32
  let v3097 : BitVec 32 := Scalar.muli v86 c1_i32_2990
  let v3098 : BitVec 32 := Scalar.addi c0_i32_2991 v3097
  v3098.toNat
def k0_dev51 (d0 : Dev nD) : Nat :=
  let c0_i32_3137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_3136 : BitVec 32 := 1#32
  let v3203 : BitVec 32 := Scalar.muli v62 c1_i32_3136
  let v3204 : BitVec 32 := Scalar.addi c0_i32_3137 v3203
  v3204.toNat
def k0_dev52 (d0 : Dev nD) : Nat :=
  let c0_i32_3198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_3197 : BitVec 32 := 1#32
  let v3270 : BitVec 32 := Scalar.muli v86 c1_i32_3197
  let v3271 : BitVec 32 := Scalar.addi c0_i32_3198 v3270
  v3271.toNat
def k0_dev53 (d0 : Dev nD) : Nat :=
  let c0_i32_3258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_3257 : BitVec 32 := 1#32
  let v3336 : BitVec 32 := Scalar.muli v62 c1_i32_3257
  let v3337 : BitVec 32 := Scalar.addi c0_i32_3258 v3336
  v3337.toNat
def k0_dev54 (d0 : Dev nD) : Nat :=
  let c0_i32_3319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_3318 : BitVec 32 := 1#32
  let v3403 : BitVec 32 := Scalar.muli v86 c1_i32_3318
  let v3404 : BitVec 32 := Scalar.addi c0_i32_3319 v3403
  v3404.toNat
def k0_dev55 (d0 : Dev nD) : Nat :=
  let c0_i32_3379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_3378 : BitVec 32 := 1#32
  let v3469 : BitVec 32 := Scalar.muli v62 c1_i32_3378
  let v3470 : BitVec 32 := Scalar.addi c0_i32_3379 v3469
  v3470.toNat
def k0_dev56 (d0 : Dev nD) : Nat :=
  let c0_i32_3440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_3439 : BitVec 32 := 1#32
  let v3536 : BitVec 32 := Scalar.muli v86 c1_i32_3439
  let v3537 : BitVec 32 := Scalar.addi c0_i32_3440 v3536
  v3537.toNat
def k0_dev57 (d0 : Dev nD) : Nat :=
  let c0_i32_3500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_3499 : BitVec 32 := 1#32
  let v3602 : BitVec 32 := Scalar.muli v62 c1_i32_3499
  let v3603 : BitVec 32 := Scalar.addi c0_i32_3500 v3602
  v3603.toNat
def k0_dev58 (d0 : Dev nD) : Nat :=
  let c0_i32_3561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_3560 : BitVec 32 := 1#32
  let v3669 : BitVec 32 := Scalar.muli v86 c1_i32_3560
  let v3670 : BitVec 32 := Scalar.addi c0_i32_3561 v3669
  v3670.toNat
def k0_dev59 (d0 : Dev nD) : Nat :=
  let c0_i32_3708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_3707 : BitVec 32 := 1#32
  let v3775 : BitVec 32 := Scalar.muli v62 c1_i32_3707
  let v3776 : BitVec 32 := Scalar.addi c0_i32_3708 v3775
  v3776.toNat
def k0_dev60 (d0 : Dev nD) : Nat :=
  let c0_i32_3768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_3767 : BitVec 32 := 1#32
  let v3841 : BitVec 32 := Scalar.muli v62 c1_i32_3767
  let v3842 : BitVec 32 := Scalar.addi c0_i32_3768 v3841
  v3842.toNat
def k0_dev61 (d0 : Dev nD) : Nat :=
  let c0_i32_3828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_3827 : BitVec 32 := 1#32
  let v3907 : BitVec 32 := Scalar.muli v62 c1_i32_3827
  let v3908 : BitVec 32 := Scalar.addi c0_i32_3828 v3907
  v3908.toNat
def k0_dev62 (d0 : Dev nD) : Nat :=
  let c0_i32_3888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_3887 : BitVec 32 := 1#32
  let v3973 : BitVec 32 := Scalar.muli v62 c1_i32_3887
  let v3974 : BitVec 32 := Scalar.addi c0_i32_3888 v3973
  v3974.toNat
def k0_off5 (d0 : Dev nD) (c0_i32_4062 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_4055 : BitVec 32 := 16#32
  let c0_i32_4056 : BitVec 32 := 0#32
  let v4108 : BitVec 1 := Scalar.cmpi .eq c16_i32_4055 c0_i32_4056
  let c1_i32_4057 : BitVec 32 := 1#32
  let v4109 : BitVec 32 := Scalar.select v4108 c1_i32_4057 c16_i32_4055
  let v4110 : BitVec 32 := Scalar.remsi v38 v4109
  let c0_i32_4059 : BitVec 32 := 0#32
  let v4112 : BitVec 1 := Scalar.cmpi .slt v4110 c0_i32_4059
  let c0_i32_4060 : BitVec 32 := 0#32
  let v4113 : BitVec 1 := Scalar.cmpi .slt v4109 c0_i32_4060
  let v4114 : BitVec 1 := Scalar.xori v4112 v4113
  let c0_i32_4058 : BitVec 32 := 0#32
  let v4111 : BitVec 1 := Scalar.cmpi .ne v4110 c0_i32_4058
  let v4115 : BitVec 1 := Scalar.andi v4114 v4111
  let v4116 : BitVec 32 := Scalar.addi v4110 v4109
  let v4117 : BitVec 32 := Scalar.select v4115 v4116 v4110
  let c64_i32_4061 : BitVec 32 := 64#32
  let v4118 : BitVec 32 := Scalar.muli v4117 c64_i32_4061
  let v4119 : BitVec 32 := Scalar.addi v4118 c0_i32_4062
  let v4120 : Index := Scalar.indexCast v4119
  let c0_4063 : Index := 0#32
  ![v4120.toNat, 0]
def k0_off6 (d0 : Dev nD) (c0_i32_4077 : BitVec 32) (c0_i32_4093 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let v4150 : BitVec 32 := Scalar.subi v38 c0_i32_4077
  let c16_i32_4086 : BitVec 32 := 16#32
  let c0_i32_4087 : BitVec 32 := 0#32
  let v4163 : BitVec 1 := Scalar.cmpi .eq c16_i32_4086 c0_i32_4087
  let c1_i32_4088 : BitVec 32 := 1#32
  let v4164 : BitVec 32 := Scalar.select v4163 c1_i32_4088 c16_i32_4086
  let v4165 : BitVec 32 := Scalar.remsi v4150 v4164
  let c0_i32_4090 : BitVec 32 := 0#32
  let v4167 : BitVec 1 := Scalar.cmpi .slt v4165 c0_i32_4090
  let c0_i32_4091 : BitVec 32 := 0#32
  let v4168 : BitVec 1 := Scalar.cmpi .slt v4164 c0_i32_4091
  let v4169 : BitVec 1 := Scalar.xori v4167 v4168
  let c0_i32_4089 : BitVec 32 := 0#32
  let v4166 : BitVec 1 := Scalar.cmpi .ne v4165 c0_i32_4089
  let v4170 : BitVec 1 := Scalar.andi v4169 v4166
  let v4171 : BitVec 32 := Scalar.addi v4165 v4164
  let v4172 : BitVec 32 := Scalar.select v4170 v4171 v4165
  let c64_i32_4092 : BitVec 32 := 64#32
  let v4173 : BitVec 32 := Scalar.muli v4172 c64_i32_4092
  let v4174 : BitVec 32 := Scalar.addi v4173 c0_i32_4093
  let c0_i32_4102 : BitVec 32 := 0#32
  ![v4174.toNat, 0]
def k0_dev63 (d0 : Dev nD) : Nat :=
  let c0_i32_4101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_4100 : BitVec 32 := 1#32
  let v4175 : BitVec 32 := Scalar.muli v86 c1_i32_4100
  let v4176 : BitVec 32 := Scalar.addi c0_i32_4101 v4175
  v4176.toNat
def k0_off7 (d0 : Dev nD) (c0_i32_4104 : BitVec 32) (c0_i32_4120 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let v4183 : BitVec 32 := Scalar.addi v38 c0_i32_4104
  let c16_i32_4113 : BitVec 32 := 16#32
  let c0_i32_4114 : BitVec 32 := 0#32
  let v4196 : BitVec 1 := Scalar.cmpi .eq c16_i32_4113 c0_i32_4114
  let c1_i32_4115 : BitVec 32 := 1#32
  let v4197 : BitVec 32 := Scalar.select v4196 c1_i32_4115 c16_i32_4113
  let v4198 : BitVec 32 := Scalar.remsi v4183 v4197
  let c0_i32_4117 : BitVec 32 := 0#32
  let v4200 : BitVec 1 := Scalar.cmpi .slt v4198 c0_i32_4117
  let c0_i32_4118 : BitVec 32 := 0#32
  let v4201 : BitVec 1 := Scalar.cmpi .slt v4197 c0_i32_4118
  let v4202 : BitVec 1 := Scalar.xori v4200 v4201
  let c0_i32_4116 : BitVec 32 := 0#32
  let v4199 : BitVec 1 := Scalar.cmpi .ne v4198 c0_i32_4116
  let v4203 : BitVec 1 := Scalar.andi v4202 v4199
  let v4204 : BitVec 32 := Scalar.addi v4198 v4197
  let v4205 : BitVec 32 := Scalar.select v4203 v4204 v4198
  let c64_i32_4119 : BitVec 32 := 64#32
  let v4206 : BitVec 32 := Scalar.muli v4205 c64_i32_4119
  let v4207 : BitVec 32 := Scalar.addi v4206 c0_i32_4120
  let c0_i32_4129 : BitVec 32 := 0#32
  ![v4207.toNat, 0]
def k0_dev64 (d0 : Dev nD) : Nat :=
  let c0_i32_4128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_4127 : BitVec 32 := 1#32
  let v4208 : BitVec 32 := Scalar.muli v62 c1_i32_4127
  let v4209 : BitVec 32 := Scalar.addi c0_i32_4128 v4208
  v4209.toNat
def k0_dev65 (d0 : Dev nD) : Nat :=
  let c0_i32_4253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_4252 : BitVec 32 := 1#32
  let v4369 : BitVec 32 := Scalar.muli v86 c1_i32_4252
  let v4370 : BitVec 32 := Scalar.addi c0_i32_4253 v4369
  v4370.toNat
def k0_dev66 (d0 : Dev nD) : Nat :=
  let c0_i32_4280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_4279 : BitVec 32 := 1#32
  let v4402 : BitVec 32 := Scalar.muli v62 c1_i32_4279
  let v4403 : BitVec 32 := Scalar.addi c0_i32_4280 v4402
  v4403.toNat
def k0_dev67 (d0 : Dev nD) : Nat :=
  let c0_i32_4405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_4404 : BitVec 32 := 1#32
  let v4563 : BitVec 32 := Scalar.muli v86 c1_i32_4404
  let v4564 : BitVec 32 := Scalar.addi c0_i32_4405 v4563
  v4564.toNat
def k0_dev68 (d0 : Dev nD) : Nat :=
  let c0_i32_4432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_4431 : BitVec 32 := 1#32
  let v4596 : BitVec 32 := Scalar.muli v62 c1_i32_4431
  let v4597 : BitVec 32 := Scalar.addi c0_i32_4432 v4596
  v4597.toNat
def k0_dev69 (d0 : Dev nD) : Nat :=
  let c0_i32_4557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_4556 : BitVec 32 := 1#32
  let v4757 : BitVec 32 := Scalar.muli v86 c1_i32_4556
  let v4758 : BitVec 32 := Scalar.addi c0_i32_4557 v4757
  v4758.toNat
def k0_dev70 (d0 : Dev nD) : Nat :=
  let c0_i32_4584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_4583 : BitVec 32 := 1#32
  let v4790 : BitVec 32 := Scalar.muli v62 c1_i32_4583
  let v4791 : BitVec 32 := Scalar.addi c0_i32_4584 v4790
  v4791.toNat
def k0_off8 (d0 : Dev nD) (c0_i32_4632 : BitVec 32) (c0_i32_4648 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_4631 : BitVec 32 := 1#32
  let v4818 : BitVec 32 := Scalar.subi v38 c1_i32_4631
  let v4819 : BitVec 32 := Scalar.subi v4818 c0_i32_4632
  let c16_i32_4641 : BitVec 32 := 16#32
  let c0_i32_4642 : BitVec 32 := 0#32
  let v4832 : BitVec 1 := Scalar.cmpi .eq c16_i32_4641 c0_i32_4642
  let c1_i32_4643 : BitVec 32 := 1#32
  let v4833 : BitVec 32 := Scalar.select v4832 c1_i32_4643 c16_i32_4641
  let v4834 : BitVec 32 := Scalar.remsi v4819 v4833
  let c0_i32_4645 : BitVec 32 := 0#32
  let v4836 : BitVec 1 := Scalar.cmpi .slt v4834 c0_i32_4645
  let c0_i32_4646 : BitVec 32 := 0#32
  let v4837 : BitVec 1 := Scalar.cmpi .slt v4833 c0_i32_4646
  let v4838 : BitVec 1 := Scalar.xori v4836 v4837
  let c0_i32_4644 : BitVec 32 := 0#32
  let v4835 : BitVec 1 := Scalar.cmpi .ne v4834 c0_i32_4644
  let v4839 : BitVec 1 := Scalar.andi v4838 v4835
  let v4840 : BitVec 32 := Scalar.addi v4834 v4833
  let v4841 : BitVec 32 := Scalar.select v4839 v4840 v4834
  let c64_i32_4647 : BitVec 32 := 64#32
  let v4842 : BitVec 32 := Scalar.muli v4841 c64_i32_4647
  let v4843 : BitVec 32 := Scalar.addi v4842 c0_i32_4648
  let c0_i32_4657 : BitVec 32 := 0#32
  ![v4843.toNat, 0]
def k0_dev71 (d0 : Dev nD) : Nat :=
  let c0_i32_4683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_4682 : BitVec 32 := 1#32
  let v4875 : BitVec 32 := Scalar.muli v86 c1_i32_4682
  let v4876 : BitVec 32 := Scalar.addi c0_i32_4683 v4875
  v4876.toNat
def k0_dev72 (d0 : Dev nD) : Nat :=
  let c0_i32_4738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_4737 : BitVec 32 := 1#32
  let v4940 : BitVec 32 := Scalar.muli v62 c1_i32_4737
  let v4941 : BitVec 32 := Scalar.addi c0_i32_4738 v4940
  v4941.toNat
def k0_dev73 (d0 : Dev nD) : Nat :=
  let c0_i32_4793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_4792 : BitVec 32 := 1#32
  let v5005 : BitVec 32 := Scalar.muli v86 c1_i32_4792
  let v5006 : BitVec 32 := Scalar.addi c0_i32_4793 v5005
  v5006.toNat
def k0_dev74 (d0 : Dev nD) : Nat :=
  let c0_i32_4848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_4847 : BitVec 32 := 1#32
  let v5070 : BitVec 32 := Scalar.muli v62 c1_i32_4847
  let v5071 : BitVec 32 := Scalar.addi c0_i32_4848 v5070
  v5071.toNat
def k0_dev75 (d0 : Dev nD) : Nat :=
  let c0_i32_4903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_4902 : BitVec 32 := 1#32
  let v5135 : BitVec 32 := Scalar.muli v86 c1_i32_4902
  let v5136 : BitVec 32 := Scalar.addi c0_i32_4903 v5135
  v5136.toNat
def k0_dev76 (d0 : Dev nD) : Nat :=
  let c0_i32_4958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_4957 : BitVec 32 := 1#32
  let v5200 : BitVec 32 := Scalar.muli v62 c1_i32_4957
  let v5201 : BitVec 32 := Scalar.addi c0_i32_4958 v5200
  v5201.toNat
def k0_dev77 (d0 : Dev nD) : Nat :=
  let c0_i32_5013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_5012 : BitVec 32 := 1#32
  let v5265 : BitVec 32 := Scalar.muli v86 c1_i32_5012
  let v5266 : BitVec 32 := Scalar.addi c0_i32_5013 v5265
  v5266.toNat
def k0_dev78 (d0 : Dev nD) : Nat :=
  let c0_i32_5068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_5067 : BitVec 32 := 1#32
  let v5330 : BitVec 32 := Scalar.muli v62 c1_i32_5067
  let v5331 : BitVec 32 := Scalar.addi c0_i32_5068 v5330
  v5331.toNat
def k0_dev79 (d0 : Dev nD) : Nat :=
  let c0_i32_5195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_5194 : BitVec 32 := 1#32
  let v5427 : BitVec 32 := Scalar.muli v86 c1_i32_5194
  let v5428 : BitVec 32 := Scalar.addi c0_i32_5195 v5427
  v5428.toNat
def k0_dev80 (d0 : Dev nD) : Nat :=
  let c0_i32_5250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_5249 : BitVec 32 := 1#32
  let v5492 : BitVec 32 := Scalar.muli v62 c1_i32_5249
  let v5493 : BitVec 32 := Scalar.addi c0_i32_5250 v5492
  v5493.toNat
def k0_dev81 (d0 : Dev nD) : Nat :=
  let c0_i32_5305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_5304 : BitVec 32 := 1#32
  let v5557 : BitVec 32 := Scalar.muli v86 c1_i32_5304
  let v5558 : BitVec 32 := Scalar.addi c0_i32_5305 v5557
  v5558.toNat
def k0_dev82 (d0 : Dev nD) : Nat :=
  let c0_i32_5360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_5359 : BitVec 32 := 1#32
  let v5622 : BitVec 32 := Scalar.muli v62 c1_i32_5359
  let v5623 : BitVec 32 := Scalar.addi c0_i32_5360 v5622
  v5623.toNat
def k0_dev83 (d0 : Dev nD) : Nat :=
  let c0_i32_5415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_5414 : BitVec 32 := 1#32
  let v5687 : BitVec 32 := Scalar.muli v86 c1_i32_5414
  let v5688 : BitVec 32 := Scalar.addi c0_i32_5415 v5687
  v5688.toNat
def k0_dev84 (d0 : Dev nD) : Nat :=
  let c0_i32_5470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_5469 : BitVec 32 := 1#32
  let v5752 : BitVec 32 := Scalar.muli v62 c1_i32_5469
  let v5753 : BitVec 32 := Scalar.addi c0_i32_5470 v5752
  v5753.toNat
def k0_dev85 (d0 : Dev nD) : Nat :=
  let c0_i32_5525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_5524 : BitVec 32 := 1#32
  let v5817 : BitVec 32 := Scalar.muli v86 c1_i32_5524
  let v5818 : BitVec 32 := Scalar.addi c0_i32_5525 v5817
  v5818.toNat
def k0_dev86 (d0 : Dev nD) : Nat :=
  let c0_i32_5580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_5579 : BitVec 32 := 1#32
  let v5882 : BitVec 32 := Scalar.muli v62 c1_i32_5579
  let v5883 : BitVec 32 := Scalar.addi c0_i32_5580 v5882
  v5883.toNat
def k0_dev87 (d0 : Dev nD) : Nat :=
  let c0_i32_5707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_5706 : BitVec 32 := 1#32
  let v5979 : BitVec 32 := Scalar.muli v86 c1_i32_5706
  let v5980 : BitVec 32 := Scalar.addi c0_i32_5707 v5979
  v5980.toNat
def k0_dev88 (d0 : Dev nD) : Nat :=
  let c0_i32_5762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_5761 : BitVec 32 := 1#32
  let v6044 : BitVec 32 := Scalar.muli v62 c1_i32_5761
  let v6045 : BitVec 32 := Scalar.addi c0_i32_5762 v6044
  v6045.toNat
def k0_dev89 (d0 : Dev nD) : Nat :=
  let c0_i32_5817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_5816 : BitVec 32 := 1#32
  let v6109 : BitVec 32 := Scalar.muli v86 c1_i32_5816
  let v6110 : BitVec 32 := Scalar.addi c0_i32_5817 v6109
  v6110.toNat
def k0_dev90 (d0 : Dev nD) : Nat :=
  let c0_i32_5872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_5871 : BitVec 32 := 1#32
  let v6174 : BitVec 32 := Scalar.muli v62 c1_i32_5871
  let v6175 : BitVec 32 := Scalar.addi c0_i32_5872 v6174
  v6175.toNat
def k0_dev91 (d0 : Dev nD) : Nat :=
  let c0_i32_5927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_5926 : BitVec 32 := 1#32
  let v6239 : BitVec 32 := Scalar.muli v86 c1_i32_5926
  let v6240 : BitVec 32 := Scalar.addi c0_i32_5927 v6239
  v6240.toNat
def k0_dev92 (d0 : Dev nD) : Nat :=
  let c0_i32_5982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_5981 : BitVec 32 := 1#32
  let v6304 : BitVec 32 := Scalar.muli v62 c1_i32_5981
  let v6305 : BitVec 32 := Scalar.addi c0_i32_5982 v6304
  v6305.toNat
def k0_dev93 (d0 : Dev nD) : Nat :=
  let c0_i32_6037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_6036 : BitVec 32 := 1#32
  let v6369 : BitVec 32 := Scalar.muli v86 c1_i32_6036
  let v6370 : BitVec 32 := Scalar.addi c0_i32_6037 v6369
  v6370.toNat
def k0_dev94 (d0 : Dev nD) : Nat :=
  let c0_i32_6092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_6091 : BitVec 32 := 1#32
  let v6434 : BitVec 32 := Scalar.muli v62 c1_i32_6091
  let v6435 : BitVec 32 := Scalar.addi c0_i32_6092 v6434
  v6435.toNat
def k0_dev95 (d0 : Dev nD) : Nat :=
  let c0_i32_6219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_6218 : BitVec 32 := 1#32
  let v6531 : BitVec 32 := Scalar.muli v86 c1_i32_6218
  let v6532 : BitVec 32 := Scalar.addi c0_i32_6219 v6531
  v6532.toNat
def k0_dev96 (d0 : Dev nD) : Nat :=
  let c0_i32_6274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_6273 : BitVec 32 := 1#32
  let v6596 : BitVec 32 := Scalar.muli v62 c1_i32_6273
  let v6597 : BitVec 32 := Scalar.addi c0_i32_6274 v6596
  v6597.toNat
def k0_dev97 (d0 : Dev nD) : Nat :=
  let c0_i32_6329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_6328 : BitVec 32 := 1#32
  let v6661 : BitVec 32 := Scalar.muli v86 c1_i32_6328
  let v6662 : BitVec 32 := Scalar.addi c0_i32_6329 v6661
  v6662.toNat
def k0_dev98 (d0 : Dev nD) : Nat :=
  let c0_i32_6384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_6383 : BitVec 32 := 1#32
  let v6726 : BitVec 32 := Scalar.muli v62 c1_i32_6383
  let v6727 : BitVec 32 := Scalar.addi c0_i32_6384 v6726
  v6727.toNat
def k0_dev99 (d0 : Dev nD) : Nat :=
  let c0_i32_6439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_6438 : BitVec 32 := 1#32
  let v6791 : BitVec 32 := Scalar.muli v86 c1_i32_6438
  let v6792 : BitVec 32 := Scalar.addi c0_i32_6439 v6791
  v6792.toNat
def k0_dev100 (d0 : Dev nD) : Nat :=
  let c0_i32_6494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_6493 : BitVec 32 := 1#32
  let v6856 : BitVec 32 := Scalar.muli v62 c1_i32_6493
  let v6857 : BitVec 32 := Scalar.addi c0_i32_6494 v6856
  v6857.toNat
def k0_dev101 (d0 : Dev nD) : Nat :=
  let c0_i32_6549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_6548 : BitVec 32 := 1#32
  let v6921 : BitVec 32 := Scalar.muli v86 c1_i32_6548
  let v6922 : BitVec 32 := Scalar.addi c0_i32_6549 v6921
  v6922.toNat
def k0_dev102 (d0 : Dev nD) : Nat :=
  let c0_i32_6604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_6603 : BitVec 32 := 1#32
  let v6986 : BitVec 32 := Scalar.muli v62 c1_i32_6603
  let v6987 : BitVec 32 := Scalar.addi c0_i32_6604 v6986
  v6987.toNat
def k0_dev103 (d0 : Dev nD) : Nat :=
  let c0_i32_6731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_6730 : BitVec 32 := 1#32
  let v7083 : BitVec 32 := Scalar.muli v86 c1_i32_6730
  let v7084 : BitVec 32 := Scalar.addi c0_i32_6731 v7083
  v7084.toNat
def k0_dev104 (d0 : Dev nD) : Nat :=
  let c0_i32_6786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_6785 : BitVec 32 := 1#32
  let v7148 : BitVec 32 := Scalar.muli v62 c1_i32_6785
  let v7149 : BitVec 32 := Scalar.addi c0_i32_6786 v7148
  v7149.toNat
def k0_dev105 (d0 : Dev nD) : Nat :=
  let c0_i32_6841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_6840 : BitVec 32 := 1#32
  let v7213 : BitVec 32 := Scalar.muli v86 c1_i32_6840
  let v7214 : BitVec 32 := Scalar.addi c0_i32_6841 v7213
  v7214.toNat
def k0_dev106 (d0 : Dev nD) : Nat :=
  let c0_i32_6896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_6895 : BitVec 32 := 1#32
  let v7278 : BitVec 32 := Scalar.muli v62 c1_i32_6895
  let v7279 : BitVec 32 := Scalar.addi c0_i32_6896 v7278
  v7279.toNat
def k0_dev107 (d0 : Dev nD) : Nat :=
  let c0_i32_6951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_6950 : BitVec 32 := 1#32
  let v7343 : BitVec 32 := Scalar.muli v86 c1_i32_6950
  let v7344 : BitVec 32 := Scalar.addi c0_i32_6951 v7343
  v7344.toNat
def k0_dev108 (d0 : Dev nD) : Nat :=
  let c0_i32_7006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_7005 : BitVec 32 := 1#32
  let v7408 : BitVec 32 := Scalar.muli v62 c1_i32_7005
  let v7409 : BitVec 32 := Scalar.addi c0_i32_7006 v7408
  v7409.toNat
def k0_dev109 (d0 : Dev nD) : Nat :=
  let c0_i32_7061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_7060 : BitVec 32 := 1#32
  let v7473 : BitVec 32 := Scalar.muli v86 c1_i32_7060
  let v7474 : BitVec 32 := Scalar.addi c0_i32_7061 v7473
  v7474.toNat
def k0_dev110 (d0 : Dev nD) : Nat :=
  let c0_i32_7116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_7115 : BitVec 32 := 1#32
  let v7538 : BitVec 32 := Scalar.muli v62 c1_i32_7115
  let v7539 : BitVec 32 := Scalar.addi c0_i32_7116 v7538
  v7539.toNat
def k0_dev111 (d0 : Dev nD) : Nat :=
  let c0_i32_7243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_7242 : BitVec 32 := 1#32
  let v7635 : BitVec 32 := Scalar.muli v86 c1_i32_7242
  let v7636 : BitVec 32 := Scalar.addi c0_i32_7243 v7635
  v7636.toNat
def k0_dev112 (d0 : Dev nD) : Nat :=
  let c0_i32_7298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_7297 : BitVec 32 := 1#32
  let v7700 : BitVec 32 := Scalar.muli v62 c1_i32_7297
  let v7701 : BitVec 32 := Scalar.addi c0_i32_7298 v7700
  v7701.toNat
def k0_dev113 (d0 : Dev nD) : Nat :=
  let c0_i32_7353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_7352 : BitVec 32 := 1#32
  let v7765 : BitVec 32 := Scalar.muli v86 c1_i32_7352
  let v7766 : BitVec 32 := Scalar.addi c0_i32_7353 v7765
  v7766.toNat
def k0_dev114 (d0 : Dev nD) : Nat :=
  let c0_i32_7408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_7407 : BitVec 32 := 1#32
  let v7830 : BitVec 32 := Scalar.muli v62 c1_i32_7407
  let v7831 : BitVec 32 := Scalar.addi c0_i32_7408 v7830
  v7831.toNat
def k0_dev115 (d0 : Dev nD) : Nat :=
  let c0_i32_7463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_7462 : BitVec 32 := 1#32
  let v7895 : BitVec 32 := Scalar.muli v86 c1_i32_7462
  let v7896 : BitVec 32 := Scalar.addi c0_i32_7463 v7895
  v7896.toNat
def k0_dev116 (d0 : Dev nD) : Nat :=
  let c0_i32_7518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_7517 : BitVec 32 := 1#32
  let v7960 : BitVec 32 := Scalar.muli v62 c1_i32_7517
  let v7961 : BitVec 32 := Scalar.addi c0_i32_7518 v7960
  v7961.toNat
def k0_dev117 (d0 : Dev nD) : Nat :=
  let c0_i32_7573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_7572 : BitVec 32 := 1#32
  let v8025 : BitVec 32 := Scalar.muli v86 c1_i32_7572
  let v8026 : BitVec 32 := Scalar.addi c0_i32_7573 v8025
  v8026.toNat
def k0_dev118 (d0 : Dev nD) : Nat :=
  let c0_i32_7628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c4_i32_20 : BitVec 32 := 4#32
  let v50 : BitVec 1 := Scalar.cmpi .slt v49 c4_i32_20
  let c4_i32_21 : BitVec 32 := 4#32
  let v51 : BitVec 32 := Scalar.muli c4_i32_21 v49
  let c8_i32_22 : BitVec 32 := 8#32
  let v52 : BitVec 1 := Scalar.cmpi .slt v49 c8_i32_22
  let c29_i32 : BitVec 32 := 29#32
  let c4_i32_23 : BitVec 32 := 4#32
  let v53 : BitVec 32 := Scalar.muli c4_i32_23 v49
  let v54 : BitVec 32 := Scalar.subi c29_i32 v53
  let c12_i32 : BitVec 32 := 12#32
  let v55 : BitVec 1 := Scalar.cmpi .slt v49 c12_i32
  let c4_i32_24 : BitVec 32 := 4#32
  let v56 : BitVec 32 := Scalar.muli c4_i32_24 v49
  let c30_i32 : BitVec 32 := 30#32
  let v57 : BitVec 32 := Scalar.subi v56 c30_i32
  let c63_i32 : BitVec 32 := 63#32
  let c4_i32_25 : BitVec 32 := 4#32
  let v58 : BitVec 32 := Scalar.muli c4_i32_25 v49
  let v59 : BitVec 32 := Scalar.subi c63_i32 v58
  let v60 : BitVec 32 := Scalar.select v55 v57 v59
  let v61 : BitVec 32 := Scalar.select v52 v54 v60
  let v62 : BitVec 32 := Scalar.select v50 v51 v61
  let c1_i32_7627 : BitVec 32 := 1#32
  let v8090 : BitVec 32 := Scalar.muli v62 c1_i32_7627
  let v8091 : BitVec 32 := Scalar.addi c0_i32_7628 v8090
  v8091.toNat
def k0_dev119 (d0 : Dev nD) : Nat :=
  let c0_i32_7755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_7754 : BitVec 32 := 1#32
  let v8187 : BitVec 32 := Scalar.muli v86 c1_i32_7754
  let v8188 : BitVec 32 := Scalar.addi c0_i32_7755 v8187
  v8188.toNat
def k0_dev120 (d0 : Dev nD) : Nat :=
  let c0_i32_7810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_7809 : BitVec 32 := 1#32
  let v8252 : BitVec 32 := Scalar.muli v86 c1_i32_7809
  let v8253 : BitVec 32 := Scalar.addi c0_i32_7810 v8252
  v8253.toNat
def k0_dev121 (d0 : Dev nD) : Nat :=
  let c0_i32_7865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_7864 : BitVec 32 := 1#32
  let v8317 : BitVec 32 := Scalar.muli v86 c1_i32_7864
  let v8318 : BitVec 32 := Scalar.addi c0_i32_7865 v8317
  v8318.toNat
def k0_dev122 (d0 : Dev nD) : Nat :=
  let c0_i32_7920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_26 : BitVec 32 := 1#32
  let v63 : BitVec 32 := Scalar.addi v38 c1_i32_26
  let c16_i32_27 : BitVec 32 := 16#32
  let c0_i32_28 : BitVec 32 := 0#32
  let v64 : BitVec 1 := Scalar.cmpi .eq c16_i32_27 c0_i32_28
  let c1_i32_29 : BitVec 32 := 1#32
  let v65 : BitVec 32 := Scalar.select v64 c1_i32_29 c16_i32_27
  let v66 : BitVec 32 := Scalar.remsi v63 v65
  let c0_i32_31 : BitVec 32 := 0#32
  let v68 : BitVec 1 := Scalar.cmpi .slt v66 c0_i32_31
  let c0_i32_32 : BitVec 32 := 0#32
  let v69 : BitVec 1 := Scalar.cmpi .slt v65 c0_i32_32
  let v70 : BitVec 1 := Scalar.xori v68 v69
  let c0_i32_30 : BitVec 32 := 0#32
  let v67 : BitVec 1 := Scalar.cmpi .ne v66 c0_i32_30
  let v71 : BitVec 1 := Scalar.andi v70 v67
  let v72 : BitVec 32 := Scalar.addi v66 v65
  let v73 : BitVec 32 := Scalar.select v71 v72 v66
  let c4_i32_33 : BitVec 32 := 4#32
  let v74 : BitVec 1 := Scalar.cmpi .slt v73 c4_i32_33
  let c4_i32_34 : BitVec 32 := 4#32
  let v75 : BitVec 32 := Scalar.muli c4_i32_34 v73
  let c8_i32_35 : BitVec 32 := 8#32
  let v76 : BitVec 1 := Scalar.cmpi .slt v73 c8_i32_35
  let c29_i32_37 : BitVec 32 := 29#32
  let c4_i32_36 : BitVec 32 := 4#32
  let v77 : BitVec 32 := Scalar.muli c4_i32_36 v73
  let v78 : BitVec 32 := Scalar.subi c29_i32_37 v77
  let c12_i32_38 : BitVec 32 := 12#32
  let v79 : BitVec 1 := Scalar.cmpi .slt v73 c12_i32_38
  let c4_i32_39 : BitVec 32 := 4#32
  let v80 : BitVec 32 := Scalar.muli c4_i32_39 v73
  let c30_i32_40 : BitVec 32 := 30#32
  let v81 : BitVec 32 := Scalar.subi v80 c30_i32_40
  let c63_i32_42 : BitVec 32 := 63#32
  let c4_i32_41 : BitVec 32 := 4#32
  let v82 : BitVec 32 := Scalar.muli c4_i32_41 v73
  let v83 : BitVec 32 := Scalar.subi c63_i32_42 v82
  let v84 : BitVec 32 := Scalar.select v79 v81 v83
  let v85 : BitVec 32 := Scalar.select v76 v78 v84
  let v86 : BitVec 32 := Scalar.select v74 v75 v85
  let c1_i32_7919 : BitVec 32 := 1#32
  let v8382 : BitVec 32 := Scalar.muli v86 c1_i32_7919
  let v8383 : BitVec 32 := Scalar.addi c0_i32_7920 v8382
  v8383.toNat
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x1024_S1024x1024_0_0 : ∀ a, (![0, 0] : Fin 2 → Nat) a + S1024x1024.size a ≤ S1024x1024.size a
  h_S1024x1024 : 0 < S1024x1024.numel
  hamt_1 : (1#32 : BitVec 32).msb = false
  hamt_2 : (2#32 : BitVec 32).msb = false
  inb_S2x8x4_S1x1x1_0_0_0 : ∀ a, (![0, 0, 0] : Fin 3 → Nat) a + S1x1x1.size a ≤ S2x8x4.size a
  squeezes_S1x1x1_S_ : S1x1x1.Squeezes S_
  inb_S2x8x4_S1x1x1_1_0_0 : ∀ a, (![1, 0, 0] : Fin 3 → Nat) a + S1x1x1.size a ≤ S2x8x4.size a
  inb_S8x64x1024_S1x16x1024_0_0_0 : ∀ a, (![0, 0, 0] : Fin 3 → Nat) a + S1x16x1024.size a ≤ S8x64x1024.size a
  squeezes_S1x16x1024_S16x1024 : S1x16x1024.Squeezes S16x1024
  inb_S2x7x4_S1x1x1_0_0_0 : ∀ a, (![0, 0, 0] : Fin 3 → Nat) a + S1x1x1.size a ≤ S2x7x4.size a
  inb_S2x7x4_S1x1x1_1_0_0 : ∀ a, (![1, 0, 0] : Fin 3 → Nat) a + S1x1x1.size a ≤ S2x7x4.size a
  inb_S7x64x1024_S1x16x1024_0_0_0 : ∀ a, (![0, 0, 0] : Fin 3 → Nat) a + S1x16x1024.size a ≤ S7x64x1024.size a
  inb_S2x8x4_S1x1x1_0_0_1 : ∀ a, (![0, 0, 1] : Fin 3 → Nat) a + S1x1x1.size a ≤ S2x8x4.size a
  inb_S2x8x4_S1x1x1_1_0_1 : ∀ a, (![1, 0, 1] : Fin 3 → Nat) a + S1x1x1.size a ≤ S2x8x4.size a
  inb_S8x64x1024_S1x16x1024_0_16_0 : ∀ a, (![0, 16, 0] : Fin 3 → Nat) a + S1x16x1024.size a ≤ S8x64x1024.size a
  inb_S2x7x4_S1x1x1_0_0_1 : ∀ a, (![0, 0, 1] : Fin 3 → Nat) a + S1x1x1.size a ≤ S2x7x4.size a
  inb_S2x7x4_S1x1x1_1_0_1 : ∀ a, (![1, 0, 1] : Fin 3 → Nat) a + S1x1x1.size a ≤ S2x7x4.size a
  inb_S7x64x1024_S1x16x1024_0_16_0 : ∀ a, (![0, 16, 0] : Fin 3 → Nat) a + S1x16x1024.size a ≤ S7x64x1024.size a
  inb_S2x8x4_S1x1x1_0_0_2 : ∀ a, (![0, 0, 2] : Fin 3 → Nat) a + S1x1x1.size a ≤ S2x8x4.size a
  inb_S2x8x4_S1x1x1_1_0_2 : ∀ a, (![1, 0, 2] : Fin 3 → Nat) a + S1x1x1.size a ≤ S2x8x4.size a
  inb_S8x64x1024_S1x16x1024_0_32_0 : ∀ a, (![0, 32, 0] : Fin 3 → Nat) a + S1x16x1024.size a ≤ S8x64x1024.size a
  inb_S2x7x4_S1x1x1_0_0_2 : ∀ a, (![0, 0, 2] : Fin 3 → Nat) a + S1x1x1.size a ≤ S2x7x4.size a
  inb_S2x7x4_S1x1x1_1_0_2 : ∀ a, (![1, 0, 2] : Fin 3 → Nat) a + S1x1x1.size a ≤ S2x7x4.size a
  inb_S7x64x1024_S1x16x1024_0_32_0 : ∀ a, (![0, 32, 0] : Fin 3 → Nat) a + S1x16x1024.size a ≤ S7x64x1024.size a
  inb_S2x8x4_S1x1x1_0_0_3 : ∀ a, (![0, 0, 3] : Fin 3 → Nat) a + S1x1x1.size a ≤ S2x8x4.size a
  inb_S2x8x4_S1x1x1_1_0_3 : ∀ a, (![1, 0, 3] : Fin 3 → Nat) a + S1x1x1.size a ≤ S2x8x4.size a
  inb_S8x64x1024_S1x16x1024_0_48_0 : ∀ a, (![0, 48, 0] : Fin 3 → Nat) a + S1x16x1024.size a ≤ S8x64x1024.size a
  inb_S2x7x4_S1x1x1_0_0_3 : ∀ a, (![0, 0, 3] : Fin 3 → Nat) a + S1x1x1.size a ≤ S2x7x4.size a
  inb_S2x7x4_S1x1x1_1_0_3 : ∀ a, (![1, 0, 3] : Fin 3 → Nat) a + S1x1x1.size a ≤ S2x7x4.size a
  inb_S7x64x1024_S1x16x1024_0_48_0 : ∀ a, (![0, 48, 0] : Fin 3 → Nat) a + S1x16x1024.size a ≤ S7x64x1024.size a
  h_S16x1024 : 0 < S16x1024.numel
  shapeCasts_S16x1024_S16x1024 : S16x1024.ShapeCasts S16x1024
  h_S1x16x1024 : 0 < S1x16x1024.numel
  shapeCasts_S1x16x1024_S16x1024 : S1x16x1024.ShapeCasts S16x1024
  inb_S2x8x4_S1x1x1_0_1_0 : ∀ a, (![0, 1, 0] : Fin 3 → Nat) a + S1x1x1.size a ≤ S2x8x4.size a
  inb_S2x8x4_S1x1x1_1_1_0 : ∀ a, (![1, 1, 0] : Fin 3 → Nat) a + S1x1x1.size a ≤ S2x8x4.size a
  inb_S8x64x1024_S1x16x1024_1_0_0 : ∀ a, (![1, 0, 0] : Fin 3 → Nat) a + S1x16x1024.size a ≤ S8x64x1024.size a
  inb_S2x7x4_S1x1x1_0_1_0 : ∀ a, (![0, 1, 0] : Fin 3 → Nat) a + S1x1x1.size a ≤ S2x7x4.size a
  inb_S2x7x4_S1x1x1_1_1_0 : ∀ a, (![1, 1, 0] : Fin 3 → Nat) a + S1x1x1.size a ≤ S2x7x4.size a
  inb_S7x64x1024_S1x16x1024_1_0_0 : ∀ a, (![1, 0, 0] : Fin 3 → Nat) a + S1x16x1024.size a ≤ S7x64x1024.size a
  inb_S2x8x4_S1x1x1_0_1_1 : ∀ a, (![0, 1, 1] : Fin 3 → Nat) a + S1x1x1.size a ≤ S2x8x4.size a
  inb_S2x8x4_S1x1x1_1_1_1 : ∀ a, (![1, 1, 1] : Fin 3 → Nat) a + S1x1x1.size a ≤ S2x8x4.size a
  inb_S8x64x1024_S1x16x1024_1_16_0 : ∀ a, (![1, 16, 0] : Fin 3 → Nat) a + S1x16x1024.size a ≤ S8x64x1024.size a
  inb_S2x7x4_S1x1x1_0_1_1 : ∀ a, (![0, 1, 1] : Fin 3 → Nat) a + S1x1x1.size a ≤ S2x7x4.size a
  inb_S2x7x4_S1x1x1_1_1_1 : ∀ a, (![1, 1, 1] : Fin 3 → Nat) a + S1x1x1.size a ≤ S2x7x4.size a
  inb_S7x64x1024_S1x16x1024_1_16_0 : ∀ a, (![1, 16, 0] : Fin 3 → Nat) a + S1x16x1024.size a ≤ S7x64x1024.size a
  inb_S2x8x4_S1x1x1_0_1_2 : ∀ a, (![0, 1, 2] : Fin 3 → Nat) a + S1x1x1.size a ≤ S2x8x4.size a
  inb_S2x8x4_S1x1x1_1_1_2 : ∀ a, (![1, 1, 2] : Fin 3 → Nat) a + S1x1x1.size a ≤ S2x8x4.size a
  inb_S8x64x1024_S1x16x1024_1_32_0 : ∀ a, (![1, 32, 0] : Fin 3 → Nat) a + S1x16x1024.size a ≤ S8x64x1024.size a
  inb_S2x7x4_S1x1x1_0_1_2 : ∀ a, (![0, 1, 2] : Fin 3 → Nat) a + S1x1x1.size a ≤ S2x7x4.size a
  inb_S2x7x4_S1x1x1_1_1_2 : ∀ a, (![1, 1, 2] : Fin 3 → Nat) a + S1x1x1.size a ≤ S2x7x4.size a
  inb_S7x64x1024_S1x16x1024_1_32_0 : ∀ a, (![1, 32, 0] : Fin 3 → Nat) a + S1x16x1024.size a ≤ S7x64x1024.size a
  inb_S2x8x4_S1x1x1_0_1_3 : ∀ a, (![0, 1, 3] : Fin 3 → Nat) a + S1x1x1.size a ≤ S2x8x4.size a
  inb_S2x8x4_S1x1x1_1_1_3 : ∀ a, (![1, 1, 3] : Fin 3 → Nat) a + S1x1x1.size a ≤ S2x8x4.size a
  inb_S8x64x1024_S1x16x1024_1_48_0 : ∀ a, (![1, 48, 0] : Fin 3 → Nat) a + S1x16x1024.size a ≤ S8x64x1024.size a
  inb_S2x7x4_S1x1x1_0_1_3 : ∀ a, (![0, 1, 3] : Fin 3 → Nat) a + S1x1x1.size a ≤ S2x7x4.size a
  inb_S2x7x4_S1x1x1_1_1_3 : ∀ a, (![1, 1, 3] : Fin 3 → Nat) a + S1x1x1.size a ≤ S2x7x4.size a
  inb_S7x64x1024_S1x16x1024_1_48_0 : ∀ a, (![1, 48, 0] : Fin 3 → Nat) a + S1x16x1024.size a ≤ S7x64x1024.size a
  inb_S2x8x4_S1x1x1_0_2_0 : ∀ a, (![0, 2, 0] : Fin 3 → Nat) a + S1x1x1.size a ≤ S2x8x4.size a
  inb_S2x8x4_S1x1x1_1_2_0 : ∀ a, (![1, 2, 0] : Fin 3 → Nat) a + S1x1x1.size a ≤ S2x8x4.size a
  inb_S8x64x1024_S1x16x1024_2_0_0 : ∀ a, (![2, 0, 0] : Fin 3 → Nat) a + S1x16x1024.size a ≤ S8x64x1024.size a
  inb_S2x7x4_S1x1x1_0_2_0 : ∀ a, (![0, 2, 0] : Fin 3 → Nat) a + S1x1x1.size a ≤ S2x7x4.size a
  inb_S2x7x4_S1x1x1_1_2_0 : ∀ a, (![1, 2, 0] : Fin 3 → Nat) a + S1x1x1.size a ≤ S2x7x4.size a
  inb_S7x64x1024_S1x16x1024_2_0_0 : ∀ a, (![2, 0, 0] : Fin 3 → Nat) a + S1x16x1024.size a ≤ S7x64x1024.size a
  inb_S2x8x4_S1x1x1_0_2_1 : ∀ a, (![0, 2, 1] : Fin 3 → Nat) a + S1x1x1.size a ≤ S2x8x4.size a
  inb_S2x8x4_S1x1x1_1_2_1 : ∀ a, (![1, 2, 1] : Fin 3 → Nat) a + S1x1x1.size a ≤ S2x8x4.size a
  inb_S8x64x1024_S1x16x1024_2_16_0 : ∀ a, (![2, 16, 0] : Fin 3 → Nat) a + S1x16x1024.size a ≤ S8x64x1024.size a
  inb_S2x7x4_S1x1x1_0_2_1 : ∀ a, (![0, 2, 1] : Fin 3 → Nat) a + S1x1x1.size a ≤ S2x7x4.size a
  inb_S2x7x4_S1x1x1_1_2_1 : ∀ a, (![1, 2, 1] : Fin 3 → Nat) a + S1x1x1.size a ≤ S2x7x4.size a
  inb_S7x64x1024_S1x16x1024_2_16_0 : ∀ a, (![2, 16, 0] : Fin 3 → Nat) a + S1x16x1024.size a ≤ S7x64x1024.size a
  inb_S2x8x4_S1x1x1_0_2_2 : ∀ a, (![0, 2, 2] : Fin 3 → Nat) a + S1x1x1.size a ≤ S2x8x4.size a
  inb_S2x8x4_S1x1x1_1_2_2 : ∀ a, (![1, 2, 2] : Fin 3 → Nat) a + S1x1x1.size a ≤ S2x8x4.size a
  inb_S8x64x1024_S1x16x1024_2_32_0 : ∀ a, (![2, 32, 0] : Fin 3 → Nat) a + S1x16x1024.size a ≤ S8x64x1024.size a
  inb_S2x7x4_S1x1x1_0_2_2 : ∀ a, (![0, 2, 2] : Fin 3 → Nat) a + S1x1x1.size a ≤ S2x7x4.size a
  inb_S2x7x4_S1x1x1_1_2_2 : ∀ a, (![1, 2, 2] : Fin 3 → Nat) a + S1x1x1.size a ≤ S2x7x4.size a
  inb_S7x64x1024_S1x16x1024_2_32_0 : ∀ a, (![2, 32, 0] : Fin 3 → Nat) a + S1x16x1024.size a ≤ S7x64x1024.size a
  inb_S2x8x4_S1x1x1_0_2_3 : ∀ a, (![0, 2, 3] : Fin 3 → Nat) a + S1x1x1.size a ≤ S2x8x4.size a
  inb_S2x8x4_S1x1x1_1_2_3 : ∀ a, (![1, 2, 3] : Fin 3 → Nat) a + S1x1x1.size a ≤ S2x8x4.size a
  inb_S8x64x1024_S1x16x1024_2_48_0 : ∀ a, (![2, 48, 0] : Fin 3 → Nat) a + S1x16x1024.size a ≤ S8x64x1024.size a
  inb_S2x7x4_S1x1x1_0_2_3 : ∀ a, (![0, 2, 3] : Fin 3 → Nat) a + S1x1x1.size a ≤ S2x7x4.size a
  inb_S2x7x4_S1x1x1_1_2_3 : ∀ a, (![1, 2, 3] : Fin 3 → Nat) a + S1x1x1.size a ≤ S2x7x4.size a
  inb_S7x64x1024_S1x16x1024_2_48_0 : ∀ a, (![2, 48, 0] : Fin 3 → Nat) a + S1x16x1024.size a ≤ S7x64x1024.size a
  inb_S2x8x4_S1x1x1_0_3_0 : ∀ a, (![0, 3, 0] : Fin 3 → Nat) a + S1x1x1.size a ≤ S2x8x4.size a
  inb_S2x8x4_S1x1x1_1_3_0 : ∀ a, (![1, 3, 0] : Fin 3 → Nat) a + S1x1x1.size a ≤ S2x8x4.size a
  inb_S8x64x1024_S1x16x1024_3_0_0 : ∀ a, (![3, 0, 0] : Fin 3 → Nat) a + S1x16x1024.size a ≤ S8x64x1024.size a
  inb_S2x7x4_S1x1x1_0_3_0 : ∀ a, (![0, 3, 0] : Fin 3 → Nat) a + S1x1x1.size a ≤ S2x7x4.size a
  inb_S2x7x4_S1x1x1_1_3_0 : ∀ a, (![1, 3, 0] : Fin 3 → Nat) a + S1x1x1.size a ≤ S2x7x4.size a
  inb_S7x64x1024_S1x16x1024_3_0_0 : ∀ a, (![3, 0, 0] : Fin 3 → Nat) a + S1x16x1024.size a ≤ S7x64x1024.size a
  inb_S2x8x4_S1x1x1_0_3_1 : ∀ a, (![0, 3, 1] : Fin 3 → Nat) a + S1x1x1.size a ≤ S2x8x4.size a
  inb_S2x8x4_S1x1x1_1_3_1 : ∀ a, (![1, 3, 1] : Fin 3 → Nat) a + S1x1x1.size a ≤ S2x8x4.size a
  inb_S8x64x1024_S1x16x1024_3_16_0 : ∀ a, (![3, 16, 0] : Fin 3 → Nat) a + S1x16x1024.size a ≤ S8x64x1024.size a
  inb_S2x7x4_S1x1x1_0_3_1 : ∀ a, (![0, 3, 1] : Fin 3 → Nat) a + S1x1x1.size a ≤ S2x7x4.size a
  inb_S2x7x4_S1x1x1_1_3_1 : ∀ a, (![1, 3, 1] : Fin 3 → Nat) a + S1x1x1.size a ≤ S2x7x4.size a
  inb_S7x64x1024_S1x16x1024_3_16_0 : ∀ a, (![3, 16, 0] : Fin 3 → Nat) a + S1x16x1024.size a ≤ S7x64x1024.size a
  inb_S2x8x4_S1x1x1_0_3_2 : ∀ a, (![0, 3, 2] : Fin 3 → Nat) a + S1x1x1.size a ≤ S2x8x4.size a
  inb_S2x8x4_S1x1x1_1_3_2 : ∀ a, (![1, 3, 2] : Fin 3 → Nat) a + S1x1x1.size a ≤ S2x8x4.size a
  inb_S8x64x1024_S1x16x1024_3_32_0 : ∀ a, (![3, 32, 0] : Fin 3 → Nat) a + S1x16x1024.size a ≤ S8x64x1024.size a
  inb_S2x7x4_S1x1x1_0_3_2 : ∀ a, (![0, 3, 2] : Fin 3 → Nat) a + S1x1x1.size a ≤ S2x7x4.size a
  inb_S2x7x4_S1x1x1_1_3_2 : ∀ a, (![1, 3, 2] : Fin 3 → Nat) a + S1x1x1.size a ≤ S2x7x4.size a
  inb_S7x64x1024_S1x16x1024_3_32_0 : ∀ a, (![3, 32, 0] : Fin 3 → Nat) a + S1x16x1024.size a ≤ S7x64x1024.size a
  inb_S2x8x4_S1x1x1_0_3_3 : ∀ a, (![0, 3, 3] : Fin 3 → Nat) a + S1x1x1.size a ≤ S2x8x4.size a
  inb_S2x8x4_S1x1x1_1_3_3 : ∀ a, (![1, 3, 3] : Fin 3 → Nat) a + S1x1x1.size a ≤ S2x8x4.size a
  inb_S8x64x1024_S1x16x1024_3_48_0 : ∀ a, (![3, 48, 0] : Fin 3 → Nat) a + S1x16x1024.size a ≤ S8x64x1024.size a
  inb_S2x7x4_S1x1x1_0_3_3 : ∀ a, (![0, 3, 3] : Fin 3 → Nat) a + S1x1x1.size a ≤ S2x7x4.size a
  inb_S2x7x4_S1x1x1_1_3_3 : ∀ a, (![1, 3, 3] : Fin 3 → Nat) a + S1x1x1.size a ≤ S2x7x4.size a
  inb_S7x64x1024_S1x16x1024_3_48_0 : ∀ a, (![3, 48, 0] : Fin 3 → Nat) a + S1x16x1024.size a ≤ S7x64x1024.size a
  inb_S2x8x4_S1x1x1_0_4_0 : ∀ a, (![0, 4, 0] : Fin 3 → Nat) a + S1x1x1.size a ≤ S2x8x4.size a
  inb_S2x8x4_S1x1x1_1_4_0 : ∀ a, (![1, 4, 0] : Fin 3 → Nat) a + S1x1x1.size a ≤ S2x8x4.size a
  inb_S8x64x1024_S1x16x1024_4_0_0 : ∀ a, (![4, 0, 0] : Fin 3 → Nat) a + S1x16x1024.size a ≤ S8x64x1024.size a
  inb_S2x7x4_S1x1x1_0_4_0 : ∀ a, (![0, 4, 0] : Fin 3 → Nat) a + S1x1x1.size a ≤ S2x7x4.size a
  inb_S2x7x4_S1x1x1_1_4_0 : ∀ a, (![1, 4, 0] : Fin 3 → Nat) a + S1x1x1.size a ≤ S2x7x4.size a
  inb_S7x64x1024_S1x16x1024_4_0_0 : ∀ a, (![4, 0, 0] : Fin 3 → Nat) a + S1x16x1024.size a ≤ S7x64x1024.size a
  inb_S2x8x4_S1x1x1_0_4_1 : ∀ a, (![0, 4, 1] : Fin 3 → Nat) a + S1x1x1.size a ≤ S2x8x4.size a
  inb_S2x8x4_S1x1x1_1_4_1 : ∀ a, (![1, 4, 1] : Fin 3 → Nat) a + S1x1x1.size a ≤ S2x8x4.size a
  inb_S8x64x1024_S1x16x1024_4_16_0 : ∀ a, (![4, 16, 0] : Fin 3 → Nat) a + S1x16x1024.size a ≤ S8x64x1024.size a
  inb_S2x7x4_S1x1x1_0_4_1 : ∀ a, (![0, 4, 1] : Fin 3 → Nat) a + S1x1x1.size a ≤ S2x7x4.size a
  inb_S2x7x4_S1x1x1_1_4_1 : ∀ a, (![1, 4, 1] : Fin 3 → Nat) a + S1x1x1.size a ≤ S2x7x4.size a
  inb_S7x64x1024_S1x16x1024_4_16_0 : ∀ a, (![4, 16, 0] : Fin 3 → Nat) a + S1x16x1024.size a ≤ S7x64x1024.size a
  inb_S2x8x4_S1x1x1_0_4_2 : ∀ a, (![0, 4, 2] : Fin 3 → Nat) a + S1x1x1.size a ≤ S2x8x4.size a
  inb_S2x8x4_S1x1x1_1_4_2 : ∀ a, (![1, 4, 2] : Fin 3 → Nat) a + S1x1x1.size a ≤ S2x8x4.size a
  inb_S8x64x1024_S1x16x1024_4_32_0 : ∀ a, (![4, 32, 0] : Fin 3 → Nat) a + S1x16x1024.size a ≤ S8x64x1024.size a
  inb_S2x7x4_S1x1x1_0_4_2 : ∀ a, (![0, 4, 2] : Fin 3 → Nat) a + S1x1x1.size a ≤ S2x7x4.size a
  inb_S2x7x4_S1x1x1_1_4_2 : ∀ a, (![1, 4, 2] : Fin 3 → Nat) a + S1x1x1.size a ≤ S2x7x4.size a
  inb_S7x64x1024_S1x16x1024_4_32_0 : ∀ a, (![4, 32, 0] : Fin 3 → Nat) a + S1x16x1024.size a ≤ S7x64x1024.size a
  inb_S2x8x4_S1x1x1_0_4_3 : ∀ a, (![0, 4, 3] : Fin 3 → Nat) a + S1x1x1.size a ≤ S2x8x4.size a
  inb_S2x8x4_S1x1x1_1_4_3 : ∀ a, (![1, 4, 3] : Fin 3 → Nat) a + S1x1x1.size a ≤ S2x8x4.size a
  inb_S8x64x1024_S1x16x1024_4_48_0 : ∀ a, (![4, 48, 0] : Fin 3 → Nat) a + S1x16x1024.size a ≤ S8x64x1024.size a
  inb_S2x7x4_S1x1x1_0_4_3 : ∀ a, (![0, 4, 3] : Fin 3 → Nat) a + S1x1x1.size a ≤ S2x7x4.size a
  inb_S2x7x4_S1x1x1_1_4_3 : ∀ a, (![1, 4, 3] : Fin 3 → Nat) a + S1x1x1.size a ≤ S2x7x4.size a
  inb_S7x64x1024_S1x16x1024_4_48_0 : ∀ a, (![4, 48, 0] : Fin 3 → Nat) a + S1x16x1024.size a ≤ S7x64x1024.size a
  inb_S2x8x4_S1x1x1_0_5_0 : ∀ a, (![0, 5, 0] : Fin 3 → Nat) a + S1x1x1.size a ≤ S2x8x4.size a
  inb_S2x8x4_S1x1x1_1_5_0 : ∀ a, (![1, 5, 0] : Fin 3 → Nat) a + S1x1x1.size a ≤ S2x8x4.size a
  inb_S8x64x1024_S1x16x1024_5_0_0 : ∀ a, (![5, 0, 0] : Fin 3 → Nat) a + S1x16x1024.size a ≤ S8x64x1024.size a
  inb_S2x7x4_S1x1x1_0_5_0 : ∀ a, (![0, 5, 0] : Fin 3 → Nat) a + S1x1x1.size a ≤ S2x7x4.size a
  inb_S2x7x4_S1x1x1_1_5_0 : ∀ a, (![1, 5, 0] : Fin 3 → Nat) a + S1x1x1.size a ≤ S2x7x4.size a
  inb_S7x64x1024_S1x16x1024_5_0_0 : ∀ a, (![5, 0, 0] : Fin 3 → Nat) a + S1x16x1024.size a ≤ S7x64x1024.size a
  inb_S2x8x4_S1x1x1_0_5_1 : ∀ a, (![0, 5, 1] : Fin 3 → Nat) a + S1x1x1.size a ≤ S2x8x4.size a
  inb_S2x8x4_S1x1x1_1_5_1 : ∀ a, (![1, 5, 1] : Fin 3 → Nat) a + S1x1x1.size a ≤ S2x8x4.size a
  inb_S8x64x1024_S1x16x1024_5_16_0 : ∀ a, (![5, 16, 0] : Fin 3 → Nat) a + S1x16x1024.size a ≤ S8x64x1024.size a
  inb_S2x7x4_S1x1x1_0_5_1 : ∀ a, (![0, 5, 1] : Fin 3 → Nat) a + S1x1x1.size a ≤ S2x7x4.size a
  inb_S2x7x4_S1x1x1_1_5_1 : ∀ a, (![1, 5, 1] : Fin 3 → Nat) a + S1x1x1.size a ≤ S2x7x4.size a
  inb_S7x64x1024_S1x16x1024_5_16_0 : ∀ a, (![5, 16, 0] : Fin 3 → Nat) a + S1x16x1024.size a ≤ S7x64x1024.size a
  inb_S2x8x4_S1x1x1_0_5_2 : ∀ a, (![0, 5, 2] : Fin 3 → Nat) a + S1x1x1.size a ≤ S2x8x4.size a
  inb_S2x8x4_S1x1x1_1_5_2 : ∀ a, (![1, 5, 2] : Fin 3 → Nat) a + S1x1x1.size a ≤ S2x8x4.size a
  inb_S8x64x1024_S1x16x1024_5_32_0 : ∀ a, (![5, 32, 0] : Fin 3 → Nat) a + S1x16x1024.size a ≤ S8x64x1024.size a
  inb_S2x7x4_S1x1x1_0_5_2 : ∀ a, (![0, 5, 2] : Fin 3 → Nat) a + S1x1x1.size a ≤ S2x7x4.size a
  inb_S2x7x4_S1x1x1_1_5_2 : ∀ a, (![1, 5, 2] : Fin 3 → Nat) a + S1x1x1.size a ≤ S2x7x4.size a
  inb_S7x64x1024_S1x16x1024_5_32_0 : ∀ a, (![5, 32, 0] : Fin 3 → Nat) a + S1x16x1024.size a ≤ S7x64x1024.size a
  inb_S2x8x4_S1x1x1_0_5_3 : ∀ a, (![0, 5, 3] : Fin 3 → Nat) a + S1x1x1.size a ≤ S2x8x4.size a
  inb_S2x8x4_S1x1x1_1_5_3 : ∀ a, (![1, 5, 3] : Fin 3 → Nat) a + S1x1x1.size a ≤ S2x8x4.size a
  inb_S8x64x1024_S1x16x1024_5_48_0 : ∀ a, (![5, 48, 0] : Fin 3 → Nat) a + S1x16x1024.size a ≤ S8x64x1024.size a
  inb_S2x7x4_S1x1x1_0_5_3 : ∀ a, (![0, 5, 3] : Fin 3 → Nat) a + S1x1x1.size a ≤ S2x7x4.size a
  inb_S2x7x4_S1x1x1_1_5_3 : ∀ a, (![1, 5, 3] : Fin 3 → Nat) a + S1x1x1.size a ≤ S2x7x4.size a
  inb_S7x64x1024_S1x16x1024_5_48_0 : ∀ a, (![5, 48, 0] : Fin 3 → Nat) a + S1x16x1024.size a ≤ S7x64x1024.size a
  inb_S2x8x4_S1x1x1_0_6_0 : ∀ a, (![0, 6, 0] : Fin 3 → Nat) a + S1x1x1.size a ≤ S2x8x4.size a
  inb_S2x8x4_S1x1x1_1_6_0 : ∀ a, (![1, 6, 0] : Fin 3 → Nat) a + S1x1x1.size a ≤ S2x8x4.size a
  inb_S8x64x1024_S1x16x1024_6_0_0 : ∀ a, (![6, 0, 0] : Fin 3 → Nat) a + S1x16x1024.size a ≤ S8x64x1024.size a
  inb_S2x7x4_S1x1x1_0_6_0 : ∀ a, (![0, 6, 0] : Fin 3 → Nat) a + S1x1x1.size a ≤ S2x7x4.size a
  inb_S2x7x4_S1x1x1_1_6_0 : ∀ a, (![1, 6, 0] : Fin 3 → Nat) a + S1x1x1.size a ≤ S2x7x4.size a
  inb_S7x64x1024_S1x16x1024_6_0_0 : ∀ a, (![6, 0, 0] : Fin 3 → Nat) a + S1x16x1024.size a ≤ S7x64x1024.size a
  inb_S2x8x4_S1x1x1_0_6_1 : ∀ a, (![0, 6, 1] : Fin 3 → Nat) a + S1x1x1.size a ≤ S2x8x4.size a
  inb_S2x8x4_S1x1x1_1_6_1 : ∀ a, (![1, 6, 1] : Fin 3 → Nat) a + S1x1x1.size a ≤ S2x8x4.size a
  inb_S8x64x1024_S1x16x1024_6_16_0 : ∀ a, (![6, 16, 0] : Fin 3 → Nat) a + S1x16x1024.size a ≤ S8x64x1024.size a
  inb_S2x7x4_S1x1x1_0_6_1 : ∀ a, (![0, 6, 1] : Fin 3 → Nat) a + S1x1x1.size a ≤ S2x7x4.size a
  inb_S2x7x4_S1x1x1_1_6_1 : ∀ a, (![1, 6, 1] : Fin 3 → Nat) a + S1x1x1.size a ≤ S2x7x4.size a
  inb_S7x64x1024_S1x16x1024_6_16_0 : ∀ a, (![6, 16, 0] : Fin 3 → Nat) a + S1x16x1024.size a ≤ S7x64x1024.size a
  inb_S2x8x4_S1x1x1_0_6_2 : ∀ a, (![0, 6, 2] : Fin 3 → Nat) a + S1x1x1.size a ≤ S2x8x4.size a
  inb_S2x8x4_S1x1x1_1_6_2 : ∀ a, (![1, 6, 2] : Fin 3 → Nat) a + S1x1x1.size a ≤ S2x8x4.size a
  inb_S8x64x1024_S1x16x1024_6_32_0 : ∀ a, (![6, 32, 0] : Fin 3 → Nat) a + S1x16x1024.size a ≤ S8x64x1024.size a
  inb_S2x7x4_S1x1x1_0_6_2 : ∀ a, (![0, 6, 2] : Fin 3 → Nat) a + S1x1x1.size a ≤ S2x7x4.size a
  inb_S2x7x4_S1x1x1_1_6_2 : ∀ a, (![1, 6, 2] : Fin 3 → Nat) a + S1x1x1.size a ≤ S2x7x4.size a
  inb_S7x64x1024_S1x16x1024_6_32_0 : ∀ a, (![6, 32, 0] : Fin 3 → Nat) a + S1x16x1024.size a ≤ S7x64x1024.size a
  inb_S2x8x4_S1x1x1_0_6_3 : ∀ a, (![0, 6, 3] : Fin 3 → Nat) a + S1x1x1.size a ≤ S2x8x4.size a
  inb_S2x8x4_S1x1x1_1_6_3 : ∀ a, (![1, 6, 3] : Fin 3 → Nat) a + S1x1x1.size a ≤ S2x8x4.size a
  inb_S8x64x1024_S1x16x1024_6_48_0 : ∀ a, (![6, 48, 0] : Fin 3 → Nat) a + S1x16x1024.size a ≤ S8x64x1024.size a
  inb_S2x7x4_S1x1x1_0_6_3 : ∀ a, (![0, 6, 3] : Fin 3 → Nat) a + S1x1x1.size a ≤ S2x7x4.size a
  inb_S2x7x4_S1x1x1_1_6_3 : ∀ a, (![1, 6, 3] : Fin 3 → Nat) a + S1x1x1.size a ≤ S2x7x4.size a
  inb_S7x64x1024_S1x16x1024_6_48_0 : ∀ a, (![6, 48, 0] : Fin 3 → Nat) a + S1x16x1024.size a ≤ S7x64x1024.size a
  inb_S2x8x4_S1x1x1_0_7_0 : ∀ a, (![0, 7, 0] : Fin 3 → Nat) a + S1x1x1.size a ≤ S2x8x4.size a
  inb_S2x8x4_S1x1x1_1_7_0 : ∀ a, (![1, 7, 0] : Fin 3 → Nat) a + S1x1x1.size a ≤ S2x8x4.size a
  inb_S8x64x1024_S1x16x1024_7_0_0 : ∀ a, (![7, 0, 0] : Fin 3 → Nat) a + S1x16x1024.size a ≤ S8x64x1024.size a
  inb_S2x8x4_S1x1x1_0_7_1 : ∀ a, (![0, 7, 1] : Fin 3 → Nat) a + S1x1x1.size a ≤ S2x8x4.size a
  inb_S2x8x4_S1x1x1_1_7_1 : ∀ a, (![1, 7, 1] : Fin 3 → Nat) a + S1x1x1.size a ≤ S2x8x4.size a
  inb_S8x64x1024_S1x16x1024_7_16_0 : ∀ a, (![7, 16, 0] : Fin 3 → Nat) a + S1x16x1024.size a ≤ S8x64x1024.size a
  inb_S2x8x4_S1x1x1_0_7_2 : ∀ a, (![0, 7, 2] : Fin 3 → Nat) a + S1x1x1.size a ≤ S2x8x4.size a
  inb_S2x8x4_S1x1x1_1_7_2 : ∀ a, (![1, 7, 2] : Fin 3 → Nat) a + S1x1x1.size a ≤ S2x8x4.size a
  inb_S8x64x1024_S1x16x1024_7_32_0 : ∀ a, (![7, 32, 0] : Fin 3 → Nat) a + S1x16x1024.size a ≤ S8x64x1024.size a
  inb_S2x8x4_S1x1x1_0_7_3 : ∀ a, (![0, 7, 3] : Fin 3 → Nat) a + S1x1x1.size a ≤ S2x8x4.size a
  inb_S2x8x4_S1x1x1_1_7_3 : ∀ a, (![1, 7, 3] : Fin 3 → Nat) a + S1x1x1.size a ≤ S2x8x4.size a
  inb_S8x64x1024_S1x16x1024_7_48_0 : ∀ a, (![7, 48, 0] : Fin 3 → Nat) a + S1x16x1024.size a ≤ S8x64x1024.size a
  dot_S1024x64_S64x1024_S1024x1024_1_0_0_1_n_n_wf : DotDims.WF S1024x64 S64x1024 S1024x1024 [1] [0] [0] [1] [] []
  hcc0_scratch2 : 3 + S2x8x4.numel ≤ 243
  hcc0_scratch3 : 67 + S2x7x4.numel ≤ 243
  hcc0_scratch4 : 123 + S2x8x4.numel ≤ 243
  hcc0_scratch5 : 187 + S2x7x4.numel ≤ 243
  k0_dev1_lt : ∀ d0 : Dev nD, (k0_dev1 d0) < nD
  k0_dev2_lt : ∀ d0 : Dev nD, (k0_dev2 d0) < nD
  k0_off1_inb : ∀ d0 : Dev nD, ∀ (r : Fin 60), ∀ a, (k0_off1 d0 (k0_off1_at r).1 (k0_off1_at r).2.1 (k0_off1_at r).2.2) a + S16x1024.size a ≤ S1024x1024.size a
  k0_dev3_lt : ∀ d0 : Dev nD, (k0_dev3 d0) < nD
  k0_off2_inb : ∀ d0 : Dev nD, ∀ (r₁ : Fin 7) (r₂ : Fin 4), ∀ a, (k0_off2 d0 (BitVec.ofNat 32 r₁.val) (BitVec.ofNat 32 (16 * r₂.val))) a + S16x1024.size a ≤ S1024x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off3_inb : ∀ d0 : Dev nD, ∀ (r₁ : Fin 8) (r₂ : Fin 4), ∀ a, (k0_off3 d0 (BitVec.ofNat 32 r₁.val) (BitVec.ofNat 32 (16 * r₂.val))) a + S16x1024.size a ≤ S1024x1024.size a
  k0_dev11_lt : ∀ d0 : Dev nD, (k0_dev11 d0) < nD
  k0_off4_inb : ∀ d0 : Dev nD, ∀ (r₁ : Fin 7) (r₂ : Fin 4), ∀ a, (k0_off4 d0 (BitVec.ofNat 32 r₁.val) (BitVec.ofNat 32 (16 * r₂.val))) a + S16x1024.size a ≤ S1024x1024.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off5_inb : ∀ d0 : Dev nD, ∀ (r : Fin 4), ∀ a, (k0_off5 d0 (BitVec.ofNat 32 (16 * r.val))) a + S16x1024.size a ≤ S1024x1024.size a
  k0_off6_inb : ∀ d0 : Dev nD, ∀ (r₁ : Fin 8) (r₂ : Fin 4), ∀ a, (k0_off6 d0 (BitVec.ofNat 32 r₁.val) (BitVec.ofNat 32 (16 * r₂.val))) a + S16x1024.size a ≤ S1024x1024.size a
  k0_dev63_lt : ∀ d0 : Dev nD, (k0_dev63 d0) < nD
  k0_off7_inb : ∀ d0 : Dev nD, ∀ (r₁ : Fin 7) (r₂ : Fin 4), ∀ a, (k0_off7 d0 (BitVec.ofNat 32 r₁.val) (BitVec.ofNat 32 (16 * r₂.val))) a + S16x1024.size a ≤ S1024x1024.size a
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_off8_inb : ∀ d0 : Dev nD, ∀ (r₁ : Fin 8) (r₂ : Fin 4), ∀ a, (k0_off8 d0 (BitVec.ofNat 32 r₁.val) (BitVec.ofNat 32 (16 * r₂.val))) a + S16x1024.size a ≤ S1024x1024.size a
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_dev99_lt : ∀ d0 : Dev nD, (k0_dev99 d0) < nD
  k0_dev100_lt : ∀ d0 : Dev nD, (k0_dev100 d0) < nD
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_dev104_lt : ∀ d0 : Dev nD, (k0_dev104 d0) < nD
  k0_dev105_lt : ∀ d0 : Dev nD, (k0_dev105 d0) < nD
  k0_dev106_lt : ∀ d0 : Dev nD, (k0_dev106 d0) < nD
  k0_dev107_lt : ∀ d0 : Dev nD, (k0_dev107 d0) < nD
  k0_dev108_lt : ∀ d0 : Dev nD, (k0_dev108 d0) < nD
  k0_dev109_lt : ∀ d0 : Dev nD, (k0_dev109 d0) < nD
  k0_dev110_lt : ∀ d0 : Dev nD, (k0_dev110 d0) < nD
  k0_dev111_lt : ∀ d0 : Dev nD, (k0_dev111 d0) < nD
  k0_dev112_lt : ∀ d0 : Dev nD, (k0_dev112 d0) < nD
  k0_dev113_lt : ∀ d0 : Dev nD, (k0_dev113 d0) < nD
  k0_dev114_lt : ∀ d0 : Dev nD, (k0_dev114 d0) < nD
  k0_dev115_lt : ∀ d0 : Dev nD, (k0_dev115 d0) < nD
  k0_dev116_lt : ∀ d0 : Dev nD, (k0_dev116 d0) < nD
  k0_dev117_lt : ∀ d0 : Dev nD, (k0_dev117 d0) < nD
  k0_dev118_lt : ∀ d0 : Dev nD, (k0_dev118 d0) < nD
  k0_dev119_lt : ∀ d0 : Dev nD, (k0_dev119 d0) < nD
  k0_dev120_lt : ∀ d0 : Dev nD, (k0_dev120 d0) < nD
  k0_dev121_lt : ∀ d0 : Dev nD, (k0_dev121 d0) < nD
  k0_dev122_lt : ∀ d0 : Dev nD, (k0_dev122 d0) < nD
  hstage0_0 : ∀ j, (stage0_0 j).IsWhole
  hstage0_1 : ∀ j, (stage0_1 j).IsWhole
  hstage0_2 : ∀ j, (stage0_2 j).IsWhole

variable [Facts₀]

abbrev cc0_scratch2 : DmaSems sig S2x8x4 := SemArray.consecutive 3 S2x8x4 hcc0_scratch2
abbrev cc0_scratch3 : DmaSems sig S2x7x4 := SemArray.consecutive 67 S2x7x4 hcc0_scratch3
abbrev cc0_scratch4 : DmaSems sig S2x8x4 := SemArray.consecutive 123 S2x8x4 hcc0_scratch4
abbrev cc0_scratch5 : DmaSems sig S2x7x4 := SemArray.consecutive 187 S2x7x4 hcc0_scratch5
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.Ring.lean ====
/-
  The ring the sixteen devices form. Device `i` sits at coordinates `(i / 4, i % 4)` of a 4 x 4 torus; the ring
  walks column 0 downwards, column 1 upwards, column 2 downwards and column 3 upwards, so that consecutive positions
  are torus neighbours. `posOf` is a device's position on that walk, `devAt` the device at a position; they are
  inverse bijections, and a device's two neighbours are the devices one position before and after it (mod 16).
-/
import proofs.«900799_g7700000000000800_dist_gemm_ar_m1024_k1024_n1024_f32_gelu_v7x_i16_1_alg».proof.KernelIdeal

namespace Cert.KernelIdeal.Hand

open Idealize.ShloMosaic

/-- Position on the ring of device `c`. -/
def posOf (c : Dev nD) : Fin 16 :=
  ⟨(if c.val % 4 = 0 then c.val / 4 else if c.val % 4 = 1 then 7 - c.val / 4
      else if c.val % 4 = 2 then 8 + c.val / 4 else 15 - c.val / 4) % 16, Nat.mod_lt _ (by decide)⟩

/-- The device at ring position `p`. -/
def devAt (p : Fin 16) : Dev nD :=
  ⟨(if p.val < 4 then 4 * p.val else if p.val < 8 then 29 - 4 * p.val
      else if p.val < 12 then 4 * p.val - 30 else 63 - 4 * p.val) % 16, Nat.mod_lt _ (by decide)⟩

theorem devAt_posOf (c : Dev nD) : devAt (posOf c) = c := by revert c; decide
theorem posOf_devAt (p : Fin 16) : posOf (devAt p) = p := by revert p; decide

/-- The neighbour one position before `c` on the ring (the kernel's `left`). -/
def lft (c : Dev nD) : Dev nD := devAt (posOf c - 1)
/-- The neighbour one position after `c` on the ring (the kernel's `right`). -/
def rgt (c : Dev nD) : Dev nD := devAt (posOf c + 1)

theorem lft_rgt (c : Dev nD) : lft (rgt c) = c := by revert c; decide
theorem rgt_lft (c : Dev nD) : rgt (lft c) = c := by revert c; decide
theorem lft_ne_rgt (c : Dev nD) : lft c ≠ rgt c := by revert c; decide
theorem lft_ne_self (c : Dev nD) : lft c ≠ c := by revert c; decide
theorem rgt_ne_self (c : Dev nD) : rgt c ≠ c := by revert c; decide
theorem posOf_lft (c : Dev nD) : posOf (lft c) = posOf c - 1 := by revert c; decide
theorem posOf_rgt (c : Dev nD) : posOf (rgt c) = posOf c + 1 := by revert c; decide

/-- First row of chunk `k` (64 rows each) counted from the device's own position: chunk `(posOf c + a) % 16`. -/
def chunkRow (c : Dev nD) (a : Nat) : Nat := 64 * (((posOf c).val + a) % 16)

theorem chunkRow_le (c : Dev nD) (a : Nat) : chunkRow c a + 64 ≤ 1024 := by
  unfold chunkRow; have := Nat.mod_lt ((posOf c).val + a) (by decide : 0 < 16); omega

end Cert.KernelIdeal.Hand
-- ==== Proof.Common.lean ====
/-
  Common definitions for the ring all-reduce: the pieces of the buffers that travel (a strip is 16 rows of a 64-row
  chunk), the semaphore cells, and the values the protocol moves.

  Each device first holds its partial product `part c = x_c · w_c` (1024 x 1024). Chunks are numbered by their
  distance `a` from the device's own ring position. In the reduce phase the chunks at distance 8..15 travel left and
  the chunks at distance 1..7 travel right, each hop adding the hop's own partial product; after eight (seven) hops
  the chunk at distance 0 of each device holds the sum over all sixteen devices, to which GELU is applied; in the
  gather phase the finished chunks travel right (eight hops) and left (seven hops).
-/
import proofs.«900799_g7700000000000800_dist_gemm_ar_m1024_k1024_n1024_f32_gelu_v7x_i16_1_alg».proof.Proof.Ring
import proofs.«900799_g7700000000000800_dist_gemm_ar_m1024_k1024_n1024_f32_gelu_v7x_i16_1_alg».proof.Proof.Gen.KernelIdeal
import proofs.«900799_g7700000000000800_dist_gemm_ar_m1024_k1024_n1024_f32_gelu_v7x_i16_1_alg».proof.Proof.Gen.KernelIdeal.Skeleton
import proofs.«900799_g7700000000000800_dist_gemm_ar_m1024_k1024_n1024_f32_gelu_v7x_i16_1_alg».proof.Proof.Gen.KernelIdeal.Launch
import proofs.«900799_g7700000000000800_dist_gemm_ar_m1024_k1024_n1024_f32_gelu_v7x_i16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The buffers and their strips -/

abbrev xM : Memref sig .tc .vmem S1024x64 .f32 := Memref.whole cc0_stg0_0
abbrev wM : Memref sig .tc .vmem S64x1024 .f32 := Memref.whole cc0_stg1_0
abbrev oM : Memref sig .tc .vmem S1024x1024 .f32 := Memref.whole cc0_stg2_0
abbrev lM : Memref sig .tc .vmem S8x64x1024 .f32 := Memref.whole cc0_scratch0
abbrev rM : Memref sig .tc .vmem S7x64x1024 .f32 := Memref.whole cc0_scratch1

theorem oRow_inb (row : ℕ) (h : row + 16 ≤ 1024) : ∀ a, (![row, 0] : Fin 2 → Nat) a + S16x1024.size a ≤ S1024x1024.size a := by
  intro a; fin_cases a
  · show row + 16 ≤ 1024; exact h
  · show 0 + 1024 ≤ 1024; omega

/-- Sixteen rows of the output buffer from row `row`. -/
abbrev oRect (row : ℕ) (h : row + 16 ≤ 1024) : Rect S1024x1024 := Rect.unit (s := S1024x1024) ![row, 0] S16x1024.size (oRow_inb row h)
abbrev oP (row : ℕ) (h : row + 16 ≤ 1024) : Memref sig .tc .vmem S16x1024 .f32 := (oM).slice (oRect row h) (fun _ => rfl)

theorem stripRow_le (c : Dev nD) (a : ℕ) (j : Fin 4) : chunkRow c a + 16 * j.val + 16 ≤ 1024 := by
  have := chunkRow_le c a; have := j.isLt; omega

/-- Strip `j` of the chunk at distance `a` from device `c`'s own position, in the output buffer. -/
abbrev oS (c : Dev nD) (a : ℕ) (j : Fin 4) : Memref sig .tc .vmem S16x1024 .f32 := oP (chunkRow c a + 16 * j.val) (stripRow_le c a j)

theorem lSlot_inb (s : Fin 8) (j : Fin 4) : ∀ a, (![s.val, 16 * j.val, 0] : Fin 3 → Nat) a + S1x16x1024.size a ≤ S8x64x1024.size a := by
  intro a; have := s.isLt; have := j.isLt; fin_cases a
  · show s.val + 1 ≤ 8; omega
  · show 16 * j.val + 16 ≤ 64; omega
  · show 0 + 1024 ≤ 1024; omega
theorem rSlot_inb (s : Fin 7) (j : Fin 4) : ∀ a, (![s.val, 16 * j.val, 0] : Fin 3 → Nat) a + S1x16x1024.size a ≤ S7x64x1024.size a := by
  intro a; have := s.isLt; have := j.isLt; fin_cases a
  · show s.val + 1 ≤ 7; omega
  · show 16 * j.val + 16 ≤ 64; omega
  · show 0 + 1024 ≤ 1024; omega

/-- Slot `s`, strip `j` of the buffer that receives the chunks travelling left (right). -/
abbrev lS (s : Fin 8) (j : Fin 4) : Memref sig .tc .vmem S16x1024 .f32 :=
  ((lM).slice (Rect.unit (s := S8x64x1024) ![s.val, 16 * j.val, 0] S1x16x1024.size (lSlot_inb s j)) (fun _ => rfl)).squeeze S16x1024 squeezes_S1x16x1024_S16x1024
abbrev rS (s : Fin 7) (j : Fin 4) : Memref sig .tc .vmem S16x1024 .f32 :=
  ((rM).slice (Rect.unit (s := S7x64x1024) ![s.val, 16 * j.val, 0] S1x16x1024.size (rSlot_inb s j)) (fun _ => rfl)).squeeze S16x1024 squeezes_S1x16x1024_S16x1024

/-! ## The semaphore cells -/

theorem sem8_inb (d : Fin 2) (s : Fin 8) (j : Fin 4) : ∀ a, (![d.val, s.val, j.val] : Fin 3 → Nat) a + S1x1x1.size a ≤ S2x8x4.size a := by
  intro a; have := d.isLt; have := s.isLt; have := j.isLt; fin_cases a
  · show d.val + 1 ≤ 2; omega
  · show s.val + 1 ≤ 8; omega
  · show j.val + 1 ≤ 4; omega
theorem sem7_inb (d : Fin 2) (s : Fin 7) (j : Fin 4) : ∀ a, (![d.val, s.val, j.val] : Fin 3 → Nat) a + S1x1x1.size a ≤ S2x7x4.size a := by
  intro a; have := d.isLt; have := s.isLt; have := j.isLt; fin_cases a
  · show d.val + 1 ≤ 2; omega
  · show s.val + 1 ≤ 7; omega
  · show j.val + 1 ≤ 4; omega

/-- Entry `[d, s, j]` of a semaphore array of eight (seven) steps: `d = 0` the departure's, `d = 1` the arrival's. -/
abbrev sem8 (A : DmaSems sig S2x8x4) (d : Fin 2) (s : Fin 8) (j : Fin 4) : DmaSem sig :=
  ((A.slice (Rect.unit (s := S2x8x4) ![d.val, s.val, j.val] S1x1x1.size (sem8_inb d s j))).squeeze S_ squeezes_S1x1x1_S_).sem
abbrev sem7 (A : DmaSems sig S2x7x4) (d : Fin 2) (s : Fin 7) (j : Fin 4) : DmaSem sig :=
  ((A.slice (Rect.unit (s := S2x7x4) ![d.val, s.val, j.val] S1x1x1.size (sem7_inb d s j))).squeeze S_ squeezes_S1x1x1_S_).sem

/-- The runtime's barrier semaphore. -/
abbrev barS : Sem sig := (SemArray.scalar (sig.barrier 0 rfl) : Sems sig S_).sem

abbrev barCell (c : Dev nD) : GSem nD τ sig := ((c : Thread nD τ), .reg barS)
/-- The four families of transfer cells on device `c`: reduce leftwards / rightwards, gather rightwards / leftwards. -/
abbrev rlCell (c : Dev nD) (d : Fin 2) (s : Fin 8) (j : Fin 4) : GSem nD τ sig := ((c : Thread nD τ), .dma (sem8 cc0_scratch2 d s j))
abbrev rrCell (c : Dev nD) (d : Fin 2) (s : Fin 7) (j : Fin 4) : GSem nD τ sig := ((c : Thread nD τ), .dma (sem7 cc0_scratch3 d s j))
abbrev grCell (c : Dev nD) (d : Fin 2) (s : Fin 8) (j : Fin 4) : GSem nD τ sig := ((c : Thread nD τ), .dma (sem8 cc0_scratch4 d s j))
abbrev glCell (c : Dev nD) (d : Fin 2) (s : Fin 7) (j : Fin 4) : GSem nD τ sig := ((c : Thread nD τ), .dma (sem7 cc0_scratch5 d s j))

/-- The credit of one strip's transfer. -/
abbrev N16 : ℕ := (oP 0 (by decide) : Memref sig .tc .vmem S16x1024 .f32).view.dmaCredit

/-! ## The values -/

/-- The staged blocks of the two arguments on device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Device `c`'s partial product. -/
def part (c : Dev nD) : (cc0_stg2_0 : Ref sig .tc).ty.Contents (Elt F) := k0_pay1 (xstg m ρ c) (wstg m ρ c)

/-- Strip `j` of the chunk at distance `a` from `c`'s position, of `c`'s partial product. -/
def partS (c : Dev nD) (a : ℕ) (j : Fin 4) : S16x1024.Idx → Elt F .f32 := (oS c a j).view.read (Elt F) (part m ρ c)

/-- The sum of two strips, entry by entry. -/
def addS (u v : S16x1024.Idx → Elt F .f32) : S16x1024.Idx → Elt F .f32 := addf u v

/-- What device `c` sends LEFT at step `s`: the chunk at distance `8 + s`, summed over `c` and the `s` devices after it. -/
def accL : (s : ℕ) → (c : Dev nD) → (j : Fin 4) → S16x1024.Idx → Elt F .f32
  | 0, c, j => partS m ρ c 8 j
  | s + 1, c, j => addS (partS m ρ c (8 + (s + 1)) j) (accL s (rgt c) j)

/-- What device `c` sends RIGHT at step `s`: the chunk at distance `7 - s`, summed over `c` and the `s` devices before it. -/
def accR : (s : ℕ) → (c : Dev nD) → (j : Fin 4) → S16x1024.Idx → Elt F .f32
  | 0, c, j => partS m ρ c 7 j
  | s + 1, c, j => addS (partS m ρ c (7 - (s + 1)) j) (accR s (lft c) j)

/-- The chunk at `c`'s own position summed over all sixteen devices, in the order the kernel adds: own, then the seven
    before it, then the eight after it. -/
def tot (c : Dev nD) (j : Fin 4) : S16x1024.Idx → Elt F .f32 :=
  addS (addS (partS m ρ c 0 j) (accR m ρ 6 (lft c) j)) (accL m ρ 7 (rgt c) j)

/-- GELU of a strip, as the kernel computes it. -/
def geluS (v : S16x1024.Idx → Elt F .f32) : S16x1024.Idx → Elt F .f32 := k0_pay65 (k0_pay63 v) (k0_pay64 v)

/-- The finished strip `j` of the chunk that belongs to the device at ring position `p`. -/
def fin (p : Fin 16) (j : Fin 4) : S16x1024.Idx → Elt F .f32 := geluS (tot m ρ (devAt p) j)

/-! ## The schedule: one round; the barrier cell has two duties, every transfer cell one -/

abbrev f8 (n : ℕ) : Fin 8 := ⟨n % 8, Nat.mod_lt _ (by decide)⟩
abbrev f7 (n : ℕ) : Fin 7 := ⟨n % 7, Nat.mod_lt _ (by decide)⟩
abbrev f4 (n : ℕ) : Fin 4 := ⟨n % 4, Nat.mod_lt _ (by decide)⟩

/-- What the neighbour BEFORE `c` hands `c` with its barrier signal: its buffer for the chunks travelling left. -/
def barF (c : Dev nD) : sProp 𝕄 := iprop(∃ f, ((lft c : Thread nD τ).loc cc0_scratch0) ↦{fullShare} f)
/-- What the neighbour AFTER `c` hands `c`: its buffer for the chunks travelling right. -/
def barT (c : Dev nD) : sProp 𝕄 := iprop(∃ f, ((rgt c : Thread nD τ).loc cc0_scratch1) ↦{fullShare} f)

/-- The arrival on `c` of the left-travelling step `s`: the landed strip, and the strip of the sender's output buffer it was
    read from (now `c`'s to write: the gather phase sends the finished chunk back into it). -/
def rlArr (c : Dev nD) (s : Fin 8) (j : Fin 4) : sProp 𝕄 :=
  iprop(owns (c : Thread nD τ) (lS s j) fullShare (accL m ρ s.val (rgt c) j) ∗ owns (rgt c : Thread nD τ) (oS (rgt c) (8 + s.val) j) fullShare (accL m ρ s.val (rgt c) j))
def rrArr (c : Dev nD) (s : Fin 7) (j : Fin 4) : sProp 𝕄 :=
  iprop(owns (c : Thread nD τ) (rS s j) fullShare (accR m ρ s.val (lft c) j) ∗ owns (lft c : Thread nD τ) (oS (lft c) (7 - s.val) j) fullShare (accR m ρ s.val (lft c) j))

/-- The share of its own finished chunk a device lends each of its two first gather transfers. -/
def shG (left : Bool) (s : ℕ) : PosShare TreeShare := if s = 0 then (if left then fullShare.left else fullShare.right) else fullShare

/-- Gather, travelling right: the departure returns the source strip; the arrival is the finished strip landed. -/
def grDep (c : Dev nD) (s : Fin 8) (j : Fin 4) : sProp 𝕄 :=
  owns (c : Thread nD τ) (oS c (16 - s.val) j) (shG false s.val) (fin m ρ (posOf c - ⟨s.val % 16, Nat.mod_lt _ (by decide)⟩) j)
def grArr (c : Dev nD) (s : Fin 8) (j : Fin 4) : sProp 𝕄 :=
  owns (c : Thread nD τ) (oS c (15 - s.val) j) fullShare (fin m ρ (posOf c - 1 - ⟨s.val % 16, Nat.mod_lt _ (by decide)⟩) j)
def glDep (c : Dev nD) (s : Fin 7) (j : Fin 4) : sProp 𝕄 :=
  owns (c : Thread nD τ) (oS c s.val j) (shG true s.val) (fin m ρ (posOf c + ⟨s.val % 16, Nat.mod_lt _ (by decide)⟩) j)
def glArr (c : Dev nD) (s : Fin 7) (j : Fin 4) : sProp 𝕄 :=
  owns (c : Thread nD τ) (oS c (1 + s.val) j) fullShare (fin m ρ (posOf c + 1 + ⟨s.val % 16, Nat.mod_lt _ (by decide)⟩) j)

/-- The payload of DMA semaphore number `n` of device `c` (3 .. 66 reduce-left, 67 .. 122 reduce-right, 123 .. 186
    gather-right, 187 .. 242 gather-left; within a family the departures first, then the arrivals). -/
def payAt (c : Dev nD) (n : ℕ) : sProp 𝕄 :=
  if n < 3 then iprop(emp)
  else if n < 35 then iprop(emp)
  else if n < 67 then rlArr m ρ c (f8 ((n - 35) / 4)) (f4 (n - 35))
  else if n < 95 then iprop(emp)
  else if n < 123 then rrArr m ρ c (f7 ((n - 95) / 4)) (f4 (n - 95))
  else if n < 155 then grDep m ρ c (f8 ((n - 123) / 4)) (f4 (n - 123))
  else if n < 187 then grArr m ρ c (f8 ((n - 155) / 4)) (f4 (n - 155))
  else if n < 215 then glDep m ρ c (f7 ((n - 187) / 4)) (f4 (n - 187))
  else if n < 243 then glArr m ρ c (f7 ((n - 215) / 4)) (f4 (n - 215))
  else iprop(emp)

def ringRd : Rounds.Schedule (GSem nD τ sig) Bool 𝕄 where
  duties g r := if r = 0 ∧ g.1.2 = .tc then
      (match g.2 with
        | .reg b => if b = barS then Finset.univ else ∅
        | .dma q => if 3 ≤ q.val then {false} else ∅)
    else ∅
  unitless _ := False
  amount g _ _ := match g.2 with | .reg _ => 1 | .dma _ => N16
  payload g _ d := match g.2 with
    | .reg b => if b = barS then (if d then barT g.1.1 else barF g.1.1) else iprop(emp)
    | .dma q => payAt m ρ g.1.1 q.val
  amount_pos g _ _ _ := by
    cases g.2 with
    | reg _ => exact Nat.one_pos
    | dma _ => exact View.dmaCredit_pos _ (by decide)

end Cert.KernelIdeal.Hand

end
-- ==== Proof.Iface.lean ====
/-
  What the launch and the body agree on: the cells of the ring as one finite family, the payments a device makes
  and what it therefore owes at each moment, the levels that order the waits, the ghost state a device's body starts
  from, and the proof data of the one pipeline point.

  Levels. A device waits on its barrier cell (level 1) after both its signals, on a departure cell (level 0, paid
  by its own transfer) and on its arrival cells, each of which is paid by a neighbour's transfer. Every device runs the
  same text, and in that text every transfer's arrival is waited for AFTER the transfer is started; so giving an arrival
  cell the position in the text of the wait on it, every wait sits below all the arrivals the waiter has yet to pay.
-/
import proofs.«900799_g7700000000000800_dist_gemm_ar_m1024_k1024_n1024_f32_gelu_v7x_i16_1_alg».proof.Proof.Common
import Idealize.ShloMosaic.Lib.ValueIdx
import Mathlib.Tactic.DeriveFintype

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device, numbered: 0 the barrier cell, `1 + k` DMA semaphore `3 + k` -/

abbrev csem (k : Fin 241) : SemLoc sig :=
  if k.val = 0 then .reg barS else .dma (⟨k.val + 2, by have := k.isLt; show k.val + 2 < 243; omega⟩ : DmaSem sig)
abbrev kcell (ck : Dev nD × Fin 241) : GSem nD τ sig := ((ck.1 : Thread nD τ), csem ck.2)

/-! ## The payments a device makes, and what it owes -/

/-- The two barrier signals and the 120 transfers' arrivals. -/
inductive Pay : Type
  | barL | barR
  | rl (s : Fin 8) (j : Fin 4) | rr (s : Fin 7) (j : Fin 4)
  | gr (s : Fin 8) (j : Fin 4) | gl (s : Fin 7) (j : Fin 4)
  deriving DecidableEq, Fintype

/-- The cell a payment of device `c` credits: reduce-left and gather-left land on the neighbour before `c`,
    reduce-right and gather-right on the neighbour after it. -/
def Pay.cell (c : Dev nD) : Pay → GSem nD τ sig
  | .barL => barCell (lft c) | .barR => barCell (rgt c)
  | .rl s j => rlCell (lft c) 1 s j | .rr s j => rrCell (rgt c) 1 s j
  | .gr s j => grCell (rgt c) 1 s j | .gl s j => glCell (lft c) 1 s j
def Pay.amt : Pay → ℕ
  | .barL => 1 | .barR => 1 | _ => N16

/-- What `c` owes while the payments in `S` are still to come. -/
def owedOf (c : Dev nD) (S : Finset Pay) : CellTallies nD τ sig Unit := ∑ p ∈ S, tallyAt (p.cell c) () p.amt

theorem owedOf_erase (c : Dev nD) (S : Finset Pay) (p : Pay) (h : p ∈ S) :
    owedOf c S = owedOf c (S.erase p) + tallyAt (p.cell c) () p.amt := by
  unfold owedOf; rw [Finset.sum_erase_add _ _ h]

/-! ## Levels -/

/-- The level of the cell with DMA semaphore number `n` (all devices alike): departures 0; an arrival 2 plus the position
    of the wait on it in the kernel's text. -/
def lvN (n : ℕ) : ℕ :=
  if n < 35 then 0
  else if n < 67 then (let s := (n - 35) / 4; let j := (n - 35) % 4; 2 + (if s < 7 then 40 * (s + 1) + 8 * j else 320 + 8 * j + 1))
  else if n < 95 then 0
  else if n < 123 then (let s := (n - 95) / 4; let j := (n - 95) % 4; 2 + (if s < 6 then 40 * (s + 1) + 8 * j + 2 else 320 + 8 * j))
  else if n < 155 then 0
  else if n < 187 then (let s := (n - 155) / 4; let j := (n - 155) % 4; 2 + (if s < 7 then 360 + 40 * s + 8 * j else 640 + 8 * j + 1))
  else if n < 215 then 0
  else (let s := (n - 215) / 4; let j := (n - 215) % 4; 2 + (if s < 6 then 360 + 40 * s + 8 * j + 2 else 640 + 8 * j))

def L (g : GSem nD τ sig) : Finset Unit := if g.1.2 = .tc then {()} else ∅
def lv (g : GSem nD τ sig) (_ : Unit) : ℕ := match g.2 with | .reg _ => 1 | .dma q => lvN q.val

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

/-- Every cell's invariant, under the names `K` the launch allocated them at, and that every cell is at round 0: persistent,
    every device holds all of it. -/
def records (K : Dev nD × Fin 241 → ℕ) : sProp 𝕄 :=
  iprop((bigSep Finset.univ fun ck : Dev nD × Fin 241 => cellInv ER (ringRd m ρ) (K ck) (kcell ck))
    ∗ bigSep Finset.univ fun ck : Dev nD × Fin 241 => reached ER (kcell ck) 0)

instance records_persistent (K : Dev nD × Fin 241 → ℕ) : BI.Persistent (records m ρ K) := by unfold records; infer_instance

/-- The owner's position on each of its 241 cells: round 0, nothing taken. -/
def posOwn (c : Dev nD) : sProp 𝕄 := bigSep Finset.univ fun k : Fin 241 => atPos ER (kcell (c, k)) 0 ∅ 0

/-- The tokens of the duties `c` pays: the neighbours' barrier duties, and for each of its 120 transfers the departure duty
    of its own cell and the arrival duty of the neighbour's. -/
def payToks (c : Dev nD) : sProp 𝕄 :=
  iprop(dutyTok ER (barCell (lft c)) 0 true ∗ dutyTok ER (barCell (rgt c)) 0 false
    ∗ (bigSep Finset.univ fun sj : Fin 8 × Fin 4 => iprop(dutyTok ER (rlCell c 0 sj.1 sj.2) 0 false ∗ dutyTok ER (rlCell (lft c) 1 sj.1 sj.2) 0 false))
    ∗ (bigSep Finset.univ fun sj : Fin 7 × Fin 4 => iprop(dutyTok ER (rrCell c 0 sj.1 sj.2) 0 false ∗ dutyTok ER (rrCell (rgt c) 1 sj.1 sj.2) 0 false))
    ∗ (bigSep Finset.univ fun sj : Fin 8 × Fin 4 => iprop(dutyTok ER (grCell c 0 sj.1 sj.2) 0 false ∗ dutyTok ER (grCell (rgt c) 1 sj.1 sj.2) 0 false))
    ∗ (bigSep Finset.univ fun sj : Fin 7 × Fin 4 => iprop(dutyTok ER (glCell c 0 sj.1 sj.2) 0 false ∗ dutyTok ER (glCell (lft c) 1 sj.1 sj.2) 0 false)))

/-- The credit tokens of what the neighbours owe `c`: two barrier units and each arrival's strip credit. -/
def creds (c : Dev nD) : sProp 𝕄 :=
  iprop(cred (tallyAt (barCell c) () 2)
    ∗ (bigSep Finset.univ fun sj : Fin 8 × Fin 4 => cred (tallyAt (rlCell c 1 sj.1 sj.2) () N16))
    ∗ (bigSep Finset.univ fun sj : Fin 7 × Fin 4 => cred (tallyAt (rrCell c 1 sj.1 sj.2) () N16))
    ∗ (bigSep Finset.univ fun sj : Fin 8 × Fin 4 => cred (tallyAt (grCell c 1 sj.1 sj.2) () N16))
    ∗ (bigSep Finset.univ fun sj : Fin 7 × Fin 4 => cred (tallyAt (glCell c 1 sj.1 sj.2) () N16)))

def ghost (K : Dev nD × Fin 241 → ℕ) (c : Dev nD) : sProp 𝕄 := iprop(records m ρ K ∗ posOwn c ∗ payToks c)

/-- What device `c`'s body starts from, besides its buffers. -/
def start (c : Dev nD) : sProp 𝕄 := iprop((∃ K, ghost m ρ K c) ∗ creds c ∗ levAts L lv)

/-- The two receive buffers, whole, at some contents. -/
def scratch (c : Dev nD) : sProp 𝕄 :=
  iprop((∃ f, ((c : Thread nD τ).loc cc0_scratch0) ↦{fullShare} f) ∗ (∃ f, ((c : Thread nD τ).loc cc0_scratch1) ↦{fullShare} f))

/-- Every one of the device's 240 transfer semaphores at zero. -/
def semsZero (c : Dev nD) : sProp 𝕄 := bigSep (Finset.univ.filter fun k : Fin 241 => k.val ≠ 0) fun k => semVal (kcell (c, k)) 0

def Φ₀ (c : Dev nD) : sProp 𝕄 := iprop(start m ρ c ∗ scratch c)
def Φ₁ (c : Dev nD) : sProp 𝕄 := iprop(scratch c ∗ semsZero c)

/-! ## The result and the proof data -/

/-- The whole result, the same on every device: row `r` belongs to the chunk of ring position `r / 64`, strip `r % 64 / 16`. -/
def outFinal : (cc0_stg2_0 : Ref sig .tc).ty.Contents (Elt F) := fun i =>
  fin m ρ ⟨(i 0).val / 64 % 16, Nat.mod_lt _ (by decide)⟩ ⟨(i 0).val % 64 / 16 % 4, Nat.mod_lt _ (by decide)⟩
    (ValueIdx.ix2 (⟨(i 0).val % 16, Nat.mod_lt _ (by decide)⟩ : Fin 16) (⟨(i 1).val % 1024, Nat.mod_lt _ (by decide)⟩ : Fin 1024))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outFinal m ρ
  Φ t := match t with
    | ⟨0, _⟩ => Φ₀ m ρ c
    | ⟨_ + 1, _⟩ => Φ₁ c
  q _ := fullShare
  owed t := match t with
    | ⟨0, _⟩ => owedOf c Finset.univ
    | ⟨_ + 1, _⟩ => 0

abbrev 𝒱₀ : Variants := Variants.none

end Cert.KernelIdeal.Hand

end
-- ==== Proof.Sched.lean ====
/-
  The schedule of the ring all-reduce read off cell by cell: which duties each semaphore cell has in its one round,
  how many units each duty brings, what it hands over, and what is left in a cell's round when no duty has been taken.

  The DMA semaphores of a device are numbered consecutively: entry `[d, s, j]` of an array of shape `2 x 8 x 4` laid
  from `base` is number `base + 32 d + 4 s + j`, and of shape `2 x 7 x 4` number `base + 28 d + 4 s + j`. The payload
  of a transfer cell is looked up by that number, so each lemma below is the number's arithmetic.
-/
import proofs.«900799_g7700000000000800_dist_gemm_ar_m1024_k1024_n1024_f32_gelu_v7x_i16_1_alg».proof.Proof.Common

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Every payload may sit in an invariant -/

instance payAt_storable (c : Dev nD) (n : ℕ) : BI.Storable (upEmb : UEmb _ 𝕄) (payAt (F := F) m ρ c n) := by
  unfold payAt rlArr rrArr grDep grArr glDep glArr
  (repeat' split) <;> infer_instance

instance ringRd_payload_storable (g : GSem nD τ sig) (r : ℕ) (d : Bool) :
    BI.Storable (upEmb : UEmb _ 𝕄) ((ringRd (F := F) m ρ).payload g r d) := by
  show BI.Storable upEmb (match g.2 with
    | .reg b => if b = barS then (if d then barT g.1.1 else barF g.1.1) else iprop(emp)
    | .dma q => payAt m ρ g.1.1 q.val)
  split
  · unfold barT barF
    (repeat' split) <;> infer_instance
  · infer_instance

/-! ## The semaphore numbers -/

theorem sem8_val_rl (d : Fin 2) (s : Fin 8) (j : Fin 4) : (sem8 cc0_scratch2 d s j).val = 3 + 32 * d.val + 4 * s.val + j.val := by
  fin_cases d <;> fin_cases s <;> fin_cases j <;> rfl
theorem sem7_val_rr (d : Fin 2) (s : Fin 7) (j : Fin 4) : (sem7 cc0_scratch3 d s j).val = 67 + 28 * d.val + 4 * s.val + j.val := by
  fin_cases d <;> fin_cases s <;> fin_cases j <;> rfl
theorem sem8_val_gr (d : Fin 2) (s : Fin 8) (j : Fin 4) : (sem8 cc0_scratch4 d s j).val = 123 + 32 * d.val + 4 * s.val + j.val := by
  fin_cases d <;> fin_cases s <;> fin_cases j <;> rfl
theorem sem7_val_gl (d : Fin 2) (s : Fin 7) (j : Fin 4) : (sem7 cc0_scratch5 d s j).val = 187 + 28 * d.val + 4 * s.val + j.val := by
  fin_cases d <;> fin_cases s <;> fin_cases j <;> rfl

/-! ## The duties: the barrier cell has both, a transfer cell one, and only in round 0 -/

section Sched
variable (c : Dev nD)

theorem duties_bar : (ringRd (F := F) m ρ).duties (barCell c) 0 = Finset.univ := by
  dsimp only [ringRd]; rw [if_pos ⟨rfl, rfl⟩]; exact if_pos rfl
theorem duties_rl (d : Fin 2) (s : Fin 8) (j : Fin 4) : (ringRd (F := F) m ρ).duties (rlCell c d s j) 0 = {false} := by
  dsimp only [ringRd]; rw [if_pos ⟨rfl, rfl⟩]; exact if_pos (by rw [sem8_val_rl]; omega)
theorem duties_rr (d : Fin 2) (s : Fin 7) (j : Fin 4) : (ringRd (F := F) m ρ).duties (rrCell c d s j) 0 = {false} := by
  dsimp only [ringRd]; rw [if_pos ⟨rfl, rfl⟩]; exact if_pos (by rw [sem7_val_rr]; omega)
theorem duties_gr (d : Fin 2) (s : Fin 8) (j : Fin 4) : (ringRd (F := F) m ρ).duties (grCell c d s j) 0 = {false} := by
  dsimp only [ringRd]; rw [if_pos ⟨rfl, rfl⟩]; exact if_pos (by rw [sem8_val_gr]; omega)
theorem duties_gl (d : Fin 2) (s : Fin 7) (j : Fin 4) : (ringRd (F := F) m ρ).duties (glCell c d s j) 0 = {false} := by
  dsimp only [ringRd]; rw [if_pos ⟨rfl, rfl⟩]; exact if_pos (by rw [sem7_val_gl]; omega)
theorem duties_later (g : GSem nD τ sig) : ∀ r, 1 ≤ r → (ringRd (F := F) m ρ).duties g r = ∅ :=
  fun r hr => by dsimp only [ringRd]; rw [if_neg fun h => by omega]

/-! ## The amounts: one unit per barrier signal, a strip's credit per transfer -/

theorem amount_bar (d : Bool) : (ringRd (F := F) m ρ).amount (barCell c) 0 d = 1 := rfl
theorem amount_rl (d : Fin 2) (s : Fin 8) (j : Fin 4) (d' : Bool) : (ringRd (F := F) m ρ).amount (rlCell c d s j) 0 d' = N16 := rfl
theorem amount_rr (d : Fin 2) (s : Fin 7) (j : Fin 4) (d' : Bool) : (ringRd (F := F) m ρ).amount (rrCell c d s j) 0 d' = N16 := rfl
theorem amount_gr (d : Fin 2) (s : Fin 8) (j : Fin 4) (d' : Bool) : (ringRd (F := F) m ρ).amount (grCell c d s j) 0 d' = N16 := rfl
theorem amount_gl (d : Fin 2) (s : Fin 7) (j : Fin 4) (d' : Bool) : (ringRd (F := F) m ρ).amount (glCell c d s j) 0 d' = N16 := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_rl (d : Fin 2) (s : Fin 8) (j : Fin 4) : (ringRd (F := F) m ρ).expect (rlCell c d s j) 0 = N16 := by
  unfold Schedule.expect Schedule.amountOf; rw [duties_rl, Finset.sum_singleton, amount_rl]
theorem expect_rr (d : Fin 2) (s : Fin 7) (j : Fin 4) : (ringRd (F := F) m ρ).expect (rrCell c d s j) 0 = N16 := by
  unfold Schedule.expect Schedule.amountOf; rw [duties_rr, Finset.sum_singleton, amount_rr]
theorem expect_gr (d : Fin 2) (s : Fin 8) (j : Fin 4) : (ringRd (F := F) m ρ).expect (grCell c d s j) 0 = N16 := by
  unfold Schedule.expect Schedule.amountOf; rw [duties_gr, Finset.sum_singleton, amount_gr]
theorem expect_gl (d : Fin 2) (s : Fin 7) (j : Fin 4) : (ringRd (F := F) m ρ).expect (glCell c d s j) 0 = N16 := by
  unfold Schedule.expect Schedule.amountOf; rw [duties_gl, Finset.sum_singleton, amount_gl]

/-! ## The payloads -/

/-- Reading a step and a strip back off `4 s + j`. -/
theorem f8_read (b : ℕ) (s : Fin 8) (j : Fin 4) : f8 ((b + 4 * s.val + j.val - b) / 4) = s := by
  apply Fin.ext; show (b + 4 * s.val + j.val - b) / 4 % 8 = s.val; have := s.isLt; have := j.isLt; omega
theorem f7_read (b : ℕ) (s : Fin 7) (j : Fin 4) : f7 ((b + 4 * s.val + j.val - b) / 4) = s := by
  apply Fin.ext; show (b + 4 * s.val + j.val - b) / 4 % 7 = s.val; have := s.isLt; have := j.isLt; omega
theorem f4_read (b s : ℕ) (j : Fin 4) : f4 (b + 4 * s + j.val - b) = j := by
  apply Fin.ext; show (b + 4 * s + j.val - b) % 4 = j.val; have := j.isLt; omega

theorem payload_bar_false : (ringRd (F := F) m ρ).payload (barCell c) 0 false = barF c := by
  dsimp only [ringRd]; rw [if_pos rfl]; exact if_neg Bool.false_ne_true
theorem payload_bar_true : (ringRd (F := F) m ρ).payload (barCell c) 0 true = barT c := by
  dsimp only [ringRd]; rw [if_pos rfl, if_pos rfl]

/-- The payload of the transfer cell numbered `n` on device `c`. -/
theorem payload_dma (q : DmaSem sig) (r : ℕ) (d : Bool) :
    (ringRd (F := F) m ρ).payload (((c : Thread nD τ), .dma q) : GSem nD τ sig) r d = payAt m ρ c q.val := rfl

theorem payAt_rl_dep (s : Fin 8) (j : Fin 4) : payAt (F := F) m ρ c (3 + 4 * s.val + j.val) = iprop(emp) := by
  have := s.isLt; have := j.isLt
  unfold payAt; rw [if_neg (by omega), if_pos (by omega)]
theorem payAt_rl_arr (s : Fin 8) (j : Fin 4) : payAt (F := F) m ρ c (35 + 4 * s.val + j.val) = rlArr m ρ c s j := by
  have := s.isLt; have := j.isLt
  unfold payAt; rw [if_neg (by omega), if_neg (by omega), if_pos (by omega), f8_read, f4_read]
theorem payAt_rr_dep (s : Fin 7) (j : Fin 4) : payAt (F := F) m ρ c (67 + 4 * s.val + j.val) = iprop(emp) := by
  have := s.isLt; have := j.isLt
  unfold payAt; rw [if_neg (by omega), if_neg (by omega), if_neg (by omega), if_pos (by omega)]
theorem payAt_rr_arr (s : Fin 7) (j : Fin 4) : payAt (F := F) m ρ c (95 + 4 * s.val + j.val) = rrArr m ρ c s j := by
  have := s.isLt; have := j.isLt
  unfold payAt; rw [if_neg (by omega), if_neg (by omega), if_neg (by omega), if_neg (by omega), if_pos (by omega), f7_read, f4_read]
theorem payAt_gr_dep (s : Fin 8) (j : Fin 4) : payAt (F := F) m ρ c (123 + 4 * s.val + j.val) = grDep m ρ c s j := by
  have := s.isLt; have := j.isLt
  unfold payAt; rw [if_neg (by omega), if_neg (by omega), if_neg (by omega), if_neg (by omega), if_neg (by omega), if_pos (by omega), f8_read, f4_read]
theorem payAt_gr_arr (s : Fin 8) (j : Fin 4) : payAt (F := F) m ρ c (155 + 4 * s.val + j.val) = grArr m ρ c s j := by
  have := s.isLt; have := j.isLt
  unfold payAt; rw [if_neg (by omega), if_neg (by omega), if_neg (by omega), if_neg (by omega), if_neg (by omega), if_neg (by omega), if_pos (by omega),
    f8_read, f4_read]
theorem payAt_gl_dep (s : Fin 7) (j : Fin 4) : payAt (F := F) m ρ c (187 + 4 * s.val + j.val) = glDep m ρ c s j := by
  have := s.isLt; have := j.isLt
  unfold payAt; rw [if_neg (by omega), if_neg (by omega), if_neg (by omega), if_neg (by omega), if_neg (by omega), if_neg (by omega), if_neg (by omega),
    if_pos (by omega), f7_read, f4_read]
theorem payAt_gl_arr (s : Fin 7) (j : Fin 4) : payAt (F := F) m ρ c (215 + 4 * s.val + j.val) = glArr m ρ c s j := by
  have := s.isLt; have := j.isLt
  unfold payAt; rw [if_neg (by omega), if_neg (by omega), if_neg (by omega), if_neg (by omega), if_neg (by omega), if_neg (by omega), if_neg (by omega),
    if_neg (by omega), if_pos (by omega), f7_read, f4_read]

theorem payload_rl_dep (s : Fin 8) (j : Fin 4) : (ringRd (F := F) m ρ).payload (rlCell c 0 s j) 0 false = iprop(emp) := by
  rw [payload_dma, sem8_val_rl, ← payAt_rl_dep m ρ c s j]; rfl
theorem payload_rl_arr (s : Fin 8) (j : Fin 4) : (ringRd (F := F) m ρ).payload (rlCell c 1 s j) 0 false = rlArr m ρ c s j := by
  rw [payload_dma, sem8_val_rl, ← payAt_rl_arr m ρ c s j]; rfl
theorem payload_rr_dep (s : Fin 7) (j : Fin 4) : (ringRd (F := F) m ρ).payload (rrCell c 0 s j) 0 false = iprop(emp) := by
  rw [payload_dma, sem7_val_rr, ← payAt_rr_dep m ρ c s j]; rfl
theorem payload_rr_arr (s : Fin 7) (j : Fin 4) : (ringRd (F := F) m ρ).payload (rrCell c 1 s j) 0 false = rrArr m ρ c s j := by
  rw [payload_dma, sem7_val_rr, ← payAt_rr_arr m ρ c s j]; rfl
theorem payload_gr_dep (s : Fin 8) (j : Fin 4) : (ringRd (F := F) m ρ).payload (grCell c 0 s j) 0 false = grDep m ρ c s j := by
  rw [payload_dma, sem8_val_gr, ← payAt_gr_dep m ρ c s j]; rfl
theorem payload_gr_arr (s : Fin 8) (j : Fin 4) : (ringRd (F := F) m ρ).payload (grCell c 1 s j) 0 false = grArr m ρ c s j := by
  rw [payload_dma, sem8_val_gr, ← payAt_gr_arr m ρ c s j]; rfl
theorem payload_gl_dep (s : Fin 7) (j : Fin 4) : (ringRd (F := F) m ρ).payload (glCell c 0 s j) 0 false = glDep m ρ c s j := by
  rw [payload_dma, sem7_val_gl, ← payAt_gl_dep m ρ c s j]; rfl
theorem payload_gl_arr (s : Fin 7) (j : Fin 4) : (ringRd (F := F) m ρ).payload (glCell c 1 s j) 0 false = glArr m ρ c s j := by
  rw [payload_dma, sem7_val_gl, ← payAt_gl_arr m ρ c s j]; rfl

/-! ## What is left of a cell's round when no duty has been taken -/

theorem rest_bar : bigSep ((ringRd (F := F) m ρ).duties (barCell c) 0 \ ∅) (fun d => (ringRd (F := F) m ρ).payload (barCell c) 0 d) = iprop(barF c ∗ barT c) := by
  rw [Finset.sdiff_empty, duties_bar, bigSep_univ_eq_bigSepL [false, true] (by decide) (by decide), bigSepL_cons_cons, bigSepL_singleton,
    payload_bar_false, payload_bar_true]
  rfl
theorem rest_rl_dep (s : Fin 8) (j : Fin 4) : bigSep ((ringRd (F := F) m ρ).duties (rlCell c 0 s j) 0 \ ∅) (fun d => (ringRd (F := F) m ρ).payload (rlCell c 0 s j) 0 d) = iprop(emp) := by
  rw [Finset.sdiff_empty, duties_rl, bigSep_singleton, payload_rl_dep]
theorem rest_rl_arr (s : Fin 8) (j : Fin 4) : bigSep ((ringRd (F := F) m ρ).duties (rlCell c 1 s j) 0 \ ∅) (fun d => (ringRd (F := F) m ρ).payload (rlCell c 1 s j) 0 d) = rlArr m ρ c s j := by
  rw [Finset.sdiff_empty, duties_rl, bigSep_singleton, payload_rl_arr]
theorem rest_rr_dep (s : Fin 7) (j : Fin 4) : bigSep ((ringRd (F := F) m ρ).duties (rrCell c 0 s j) 0 \ ∅) (fun d => (ringRd (F := F) m ρ).payload (rrCell c 0 s j) 0 d) = iprop(emp) := by
  rw [Finset.sdiff_empty, duties_rr, bigSep_singleton, payload_rr_dep]
theorem rest_rr_arr (s : Fin 7) (j : Fin 4) : bigSep ((ringRd (F := F) m ρ).duties (rrCell c 1 s j) 0 \ ∅) (fun d => (ringRd (F := F) m ρ).payload (rrCell c 1 s j) 0 d) = rrArr m ρ c s j := by
  rw [Finset.sdiff_empty, duties_rr, bigSep_singleton, payload_rr_arr]
theorem rest_gr_dep (s : Fin 8) (j : Fin 4) : bigSep ((ringRd (F := F) m ρ).duties (grCell c 0 s j) 0 \ ∅) (fun d => (ringRd (F := F) m ρ).payload (grCell c 0 s j) 0 d) = grDep m ρ c s j := by
  rw [Finset.sdiff_empty, duties_gr, bigSep_singleton, payload_gr_dep]
theorem rest_gr_arr (s : Fin 8) (j : Fin 4) : bigSep ((ringRd (F := F) m ρ).duties (grCell c 1 s j) 0 \ ∅) (fun d => (ringRd (F := F) m ρ).payload (grCell c 1 s j) 0 d) = grArr m ρ c s j := by
  rw [Finset.sdiff_empty, duties_gr, bigSep_singleton, payload_gr_arr]
theorem rest_gl_dep (s : Fin 7) (j : Fin 4) : bigSep ((ringRd (F := F) m ρ).duties (glCell c 0 s j) 0 \ ∅) (fun d => (ringRd (F := F) m ρ).payload (glCell c 0 s j) 0 d) = glDep m ρ c s j := by
  rw [Finset.sdiff_empty, duties_gl, bigSep_singleton, payload_gl_dep]
theorem rest_gl_arr (s : Fin 7) (j : Fin 4) : bigSep ((ringRd (F := F) m ρ).duties (glCell c 1 s j) 0 \ ∅) (fun d => (ringRd (F := F) m ρ).payload (glCell c 1 s j) 0 d) = glArr m ρ c s j := by
  rw [Finset.sdiff_empty, duties_gl, bigSep_singleton, payload_gl_arr]

end Sched

end Cert.KernelIdeal.Hand

end
-- ==== Proof.LaunchK.lean ====
/-
  The launch of the ring all-reduce. Every device's 241 semaphore cells (its barrier cell and its 240 transfer
  cells) are funded with the one-round schedule; the duty tokens minted for a device's own cells are dealt round the
  ring to the neighbours that pay those duties; what the neighbours owe a device at launch is exactly two barrier
  units and one strip's credit on each of its arrival cells; the pipeline's own staging cells sit at level 0, below
  every cell a device owes. From the body obligation of one device at a symbolic place, the whole mesh's run follows,
  with the result array read back as the kernel's value and the two argument arrays unchanged.
-/
import proofs.«900799_g7700000000000800_dist_gemm_ar_m1024_k1024_n1024_f32_gelu_v7x_i16_1_alg».proof.Proof.Iface
import proofs.«900799_g7700000000000800_dist_gemm_ar_m1024_k1024_n1024_f32_gelu_v7x_i16_1_alg».proof.Proof.Sched

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, the cells, the tokens minted at launch -/

/-- The 240 transfer semaphores: cell `1 + k` of the numbering. -/
abbrev osem (k : Fin 240) : SemLoc sig := csem k.succ

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 241 → SemLoc sig) := by
  intro a b h
  by_cases ha : a.val = 0 <;> by_cases hb : b.val = 0
  · exact Fin.ext (ha.trans hb.symm)
  · dsimp only [csem] at h; rw [if_pos ha, if_neg hb] at h; cases h
  · dsimp only [csem] at h; rw [if_neg ha, if_pos hb] at h; cases h
  · dsimp only [csem] at h; rw [if_neg ha, if_neg hb] at h
    have h' := congrArg (fun s : SemLoc sig => match s with | .dma q => q.val | .reg _ => 0) h
    exact Fin.ext (Nat.add_right_cancel h')

theorem kcell_injective : Function.Injective (kcell : Dev nD × Fin 241 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def ringCells : Finset (GSem nD τ sig) := Finset.univ.map ⟨kcell, kcell_injective⟩

/-- The duty tokens minted: duty `false` of every cell, and duty `true` of every barrier cell. -/
abbrev tokOf (x : (Dev nD × Fin 241) ⊕ Dev nD) : GSem nD τ sig × ℕ × Bool := match x with
  | .inl ck => (kcell ck, 0, false)
  | .inr c => (barCell c, 0, true)

theorem tokOf_injective : Function.Injective tokOf := by
  rintro (a | a) (b | b) h
  · exact congrArg Sum.inl (kcell_injective (congrArg (fun x : GSem nD τ sig × ℕ × Bool => x.1) h))
  · exact absurd (congrArg (fun x : GSem nD τ sig × ℕ × Bool => x.2.2) h) (show ¬ (false = true) from by decide)
  · exact absurd (congrArg (fun x : GSem nD τ sig × ℕ × Bool => x.2.2) h) (show ¬ (true = false) from by decide)
  · exact congrArg Sum.inr (congrArg (fun x : GSem nD τ sig × ℕ × Bool => x.1.1.1) h)

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Fin 241 => dutyTok ER (kcell (c, k)) 0 false) ∗ dutyTok ER (barCell c) 0 true)

/-- What the launch element deals device `c`. -/
def G (c : Dev nD) : sProp 𝕄 :=
  iprop((bigSep Finset.univ fun k : Fin 241 => roundState ER (ringRd m ρ) (kcell (c, k)) 0)
    ∗ (bigSep Finset.univ fun k : Fin 241 => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 241 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_sum, bigSep_univ_prod]; exact (bigSep_sep _ _ _).symm
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and every cell's invariant allocated -/

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem semsZero_eq (c : Dev nD) :
    (semsZero c : sProp 𝕄) = Pipeline.ownSems0 (Ix := Unit) (Name := ℕ) (U := UU) (Lvl := ℕ) (Val := Elt F) (τ := τ) osem c := by
  unfold semsZero Pipeline.ownSems0
  rw [show (Finset.univ.filter fun k : Fin 241 => k.val ≠ 0) = Finset.univ.map ⟨Fin.succ, Fin.succ_injective _⟩ from by
    ext k
    rw [Finset.mem_filter, Finset.mem_map]
    constructor
    · rintro ⟨-, hk⟩
      have hk' : k ≠ 0 := fun h => hk (congrArg Fin.val h)
      exact ⟨k.pred hk', Finset.mem_univ _, Fin.succ_pred k hk'⟩
    · rintro ⟨j, -, rfl⟩
      exact ⟨Finset.mem_univ _, Nat.succ_ne_zero _⟩, bigSep_map]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 241 => semVal (kcell (c, k)) 0 : sProp 𝕄) := by
  rw [unscopedSems0_eq, bigSep_fin_succ]
  iintro ⟨HS, HB⟩
  isplitl [HB]; · iexact HB
  unfold Pipeline.ownSems0; iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 241 => iprop(∃ κ : ℕ, cellInv ER (ringRd m ρ) κ (kcell (c, k))))
          ∗ (bigSep Finset.univ fun k : Fin 241 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 241 => semVal (kcell (c, k)) 0) ∗ bigSep Finset.univ fun k : Fin 241 => roundState ER (ringRd m ρ) (kcell (c, k)) 0)
      ⊢ (|={Set.univ}=> bigSep Finset.univ fun k : Fin 241 => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## A device's 241 cells, family by family -/

/-- The families: the barrier cell; then reduce-left, reduce-right, gather-right, gather-left, each entry
    `(d, s, j)` of its semaphore array. -/
abbrev CI : Type := Unit ⊕ (Fin 2 × Fin 8 × Fin 4) ⊕ (Fin 2 × Fin 7 × Fin 4) ⊕ (Fin 2 × Fin 8 × Fin 4) ⊕ (Fin 2 × Fin 7 × Fin 4)

def ciTo : CI → Fin 241
  | .inl _ => 0
  | .inr (.inl (d, s, j)) => ⟨1 + 32 * d.val + 4 * s.val + j.val, by have := d.isLt; have := s.isLt; have := j.isLt; omega⟩
  | .inr (.inr (.inl (d, s, j))) => ⟨65 + 28 * d.val + 4 * s.val + j.val, by have := d.isLt; have := s.isLt; have := j.isLt; omega⟩
  | .inr (.inr (.inr (.inl (d, s, j)))) => ⟨121 + 32 * d.val + 4 * s.val + j.val, by have := d.isLt; have := s.isLt; have := j.isLt; omega⟩
  | .inr (.inr (.inr (.inr (d, s, j)))) => ⟨185 + 28 * d.val + 4 * s.val + j.val, by have := d.isLt; have := s.isLt; have := j.isLt; omega⟩

abbrev f2 (n : ℕ) : Fin 2 := ⟨n % 2, Nat.mod_lt _ (by decide)⟩

def ciOf (k : Fin 241) : CI :=
  if k.val = 0 then .inl ()
  else if k.val < 65 then .inr (.inl (f2 ((k.val - 1) / 32), f8 ((k.val - 1) % 32 / 4), f4 (k.val - 1)))
  else if k.val < 121 then .inr (.inr (.inl (f2 ((k.val - 65) / 28), f7 ((k.val - 65) % 28 / 4), f4 (k.val - 65))))
  else if k.val < 185 then .inr (.inr (.inr (.inl (f2 ((k.val - 121) / 32), f8 ((k.val - 121) % 32 / 4), f4 (k.val - 121)))))
  else .inr (.inr (.inr (.inr (f2 ((k.val - 185) / 28), f7 ((k.val - 185) % 28 / 4), f4 (k.val - 185)))))

theorem ciTo_ciOf : ∀ k : Fin 241, ciTo (ciOf k) = k := by decide

theorem ciTo_bijective : Function.Bijective ciTo :=
  (Fintype.bijective_iff_surjective_and_card ciTo).mpr ⟨fun k => ⟨ciOf k, ciTo_ciOf k⟩, by simp⟩

def cellEquiv : CI ≃ Fin 241 := Equiv.ofBijective ciTo ciTo_bijective

private theorem kcell_bar (c : Dev nD) : kcell (c, cellEquiv (.inl ())) = barCell c := rfl
private theorem kcell_rl (c : Dev nD) (x : Fin 2 × Fin 8 × Fin 4) : kcell (c, cellEquiv (.inr (.inl x))) = rlCell c x.1 x.2.1 x.2.2 := by
  obtain ⟨d, s, j⟩ := x
  have h : csem (ciTo (.inr (.inl (d, s, j)))) = .dma (sem8 cc0_scratch2 d s j) := by revert d s j; decide
  exact congrArg (Prod.mk (c : Thread nD τ)) h
private theorem kcell_rr (c : Dev nD) (x : Fin 2 × Fin 7 × Fin 4) : kcell (c, cellEquiv (.inr (.inr (.inl x)))) = rrCell c x.1 x.2.1 x.2.2 := by
  obtain ⟨d, s, j⟩ := x
  have h : csem (ciTo (.inr (.inr (.inl (d, s, j))))) = .dma (sem7 cc0_scratch3 d s j) := by revert d s j; decide
  exact congrArg (Prod.mk (c : Thread nD τ)) h
private theorem kcell_gr (c : Dev nD) (x : Fin 2 × Fin 8 × Fin 4) : kcell (c, cellEquiv (.inr (.inr (.inr (.inl x))))) = grCell c x.1 x.2.1 x.2.2 := by
  obtain ⟨d, s, j⟩ := x
  have h : csem (ciTo (.inr (.inr (.inr (.inl (d, s, j)))))) = .dma (sem8 cc0_scratch4 d s j) := by revert d s j; decide
  exact congrArg (Prod.mk (c : Thread nD τ)) h
private theorem kcell_gl (c : Dev nD) (x : Fin 2 × Fin 7 × Fin 4) : kcell (c, cellEquiv (.inr (.inr (.inr (.inr x))))) = glCell c x.1 x.2.1 x.2.2 := by
  obtain ⟨d, s, j⟩ := x
  have h : csem (ciTo (.inr (.inr (.inr (.inr (d, s, j)))))) = .dma (sem7 cc0_scratch5 d s j) := by revert d s j; decide
  exact congrArg (Prod.mk (c : Thread nD τ)) h

theorem bigSep_fin2_prod {β : Type} [Fintype β] (Ψ : Fin 2 × β → sProp 𝕄) :
    bigSep Finset.univ Ψ = iprop((bigSep Finset.univ fun b => Ψ (0, b)) ∗ bigSep Finset.univ fun b => Ψ (1, b)) := by
  rw [bigSep_univ_prod, bigSep_univ_two]

/-- A conjunction over a device's cells, family by family, departures and arrivals apart. -/
theorem bigSep_cells (c : Dev nD) (Φ : GSem nD τ sig → sProp 𝕄) :
    (bigSep Finset.univ fun k : Fin 241 => Φ (kcell (c, k)))
      = iprop(Φ (barCell c)
        ∗ ((bigSep Finset.univ fun x : Fin 8 × Fin 4 => Φ (rlCell c 0 x.1 x.2)) ∗ (bigSep Finset.univ fun x : Fin 8 × Fin 4 => Φ (rlCell c 1 x.1 x.2)))
        ∗ ((bigSep Finset.univ fun x : Fin 7 × Fin 4 => Φ (rrCell c 0 x.1 x.2)) ∗ (bigSep Finset.univ fun x : Fin 7 × Fin 4 => Φ (rrCell c 1 x.1 x.2)))
        ∗ ((bigSep Finset.univ fun x : Fin 8 × Fin 4 => Φ (grCell c 0 x.1 x.2)) ∗ (bigSep Finset.univ fun x : Fin 8 × Fin 4 => Φ (grCell c 1 x.1 x.2)))
        ∗ ((bigSep Finset.univ fun x : Fin 7 × Fin 4 => Φ (glCell c 0 x.1 x.2)) ∗ (bigSep Finset.univ fun x : Fin 7 × Fin 4 => Φ (glCell c 1 x.1 x.2)))) := by
  rw [bigSep_univ_equiv cellEquiv, bigSep_univ_sum, bigSep_univ_sum, bigSep_univ_sum, bigSep_univ_sum, bigSep_univ_of_subsingleton ()]
  simp only [kcell_bar, kcell_rl, kcell_rr, kcell_gr, kcell_gl]
  rw [bigSep_fin2_prod (fun x : Fin 2 × Fin 8 × Fin 4 => Φ (rlCell c x.1 x.2.1 x.2.2)),
    bigSep_fin2_prod (fun x : Fin 2 × Fin 7 × Fin 4 => Φ (rrCell c x.1 x.2.1 x.2.2)),
    bigSep_fin2_prod (fun x : Fin 2 × Fin 8 × Fin 4 => Φ (grCell c x.1 x.2.1 x.2.2)),
    bigSep_fin2_prod (fun x : Fin 2 × Fin 7 × Fin 4 => Φ (glCell c x.1 x.2.1 x.2.2))]
  rfl

/-! ## The tokens dealt round the ring -/

/-- One step round the ring, as a permutation of the devices. -/
def ringE : Dev nD ≃ Dev nD := ⟨rgt, lft, lft_rgt, rgt_lft⟩

theorem bigSep_rgt (Φ : Dev nD → sProp 𝕄) : bigSep Finset.univ Φ = bigSep Finset.univ fun c => Φ (rgt c) := bigSep_univ_equiv ringE Φ
theorem bigSep_lft (Φ : Dev nD → sProp 𝕄) : bigSep Finset.univ Φ = bigSep Finset.univ fun c => Φ (lft c) := bigSep_univ_equiv ringE.symm Φ

/-- A device's own tokens, family by family. -/
def ownToks (c : Dev nD) : sProp 𝕄 :=
  iprop(dutyTok ER (barCell c) 0 true ∗ dutyTok ER (barCell c) 0 false
    ∗ ((bigSep Finset.univ fun x : Fin 8 × Fin 4 => dutyTok ER (rlCell c 0 x.1 x.2) 0 false) ∗ (bigSep Finset.univ fun x : Fin 8 × Fin 4 => dutyTok ER (rlCell c 1 x.1 x.2) 0 false))
    ∗ ((bigSep Finset.univ fun x : Fin 7 × Fin 4 => dutyTok ER (rrCell c 0 x.1 x.2) 0 false) ∗ (bigSep Finset.univ fun x : Fin 7 × Fin 4 => dutyTok ER (rrCell c 1 x.1 x.2) 0 false))
    ∗ ((bigSep Finset.univ fun x : Fin 8 × Fin 4 => dutyTok ER (grCell c 0 x.1 x.2) 0 false) ∗ (bigSep Finset.univ fun x : Fin 8 × Fin 4 => dutyTok ER (grCell c 1 x.1 x.2) 0 false))
    ∗ ((bigSep Finset.univ fun x : Fin 7 × Fin 4 => dutyTok ER (glCell c 0 x.1 x.2) 0 false) ∗ (bigSep Finset.univ fun x : Fin 7 × Fin 4 => dutyTok ER (glCell c 1 x.1 x.2) 0 false)))

theorem toks_split (c : Dev nD) : (toks c : sProp 𝕄) ⊢ ownToks c := by
  unfold toks ownToks
  rw [bigSep_cells c (fun g => (dutyTok ER g 0 false : sProp 𝕄))]
  iintro ⟨⟨H0, H1, H2, H3, H4⟩, Ht⟩
  isplitl [Ht]; · iexact Ht
  isplitl [H0]; · iexact H0
  isplitl [H1]; · iexact H1
  isplitl [H2]; · iexact H2
  isplitl [H3]; · iexact H3
  iexact H4

/-- The barrier cell's `true` token goes to the neighbour after its owner, its `false` token to the neighbour before; a
    departure cell's token stays; an arrival cell's token goes to the neighbour whose transfer lands there. -/
theorem toks_around : (bigSep Finset.univ fun c : Dev nD => (toks c : sProp 𝕄)) ⊢ bigSep Finset.univ fun c : Dev nD => payToks c := by
  refine (bigSep_mono fun c _ => toks_split c).trans ?_
  unfold ownToks payToks
  simp only [bigSep_sep']
  rw [bigSep_lft (fun c : Dev nD => (dutyTok ER (barCell c) 0 true : sProp 𝕄)),
    bigSep_rgt (fun c : Dev nD => (dutyTok ER (barCell c) 0 false : sProp 𝕄)),
    bigSep_lft (fun c : Dev nD => (bigSep Finset.univ fun x : Fin 8 × Fin 4 => dutyTok ER (rlCell c 1 x.1 x.2) 0 false : sProp 𝕄)),
    bigSep_rgt (fun c : Dev nD => (bigSep Finset.univ fun x : Fin 7 × Fin 4 => dutyTok ER (rrCell c 1 x.1 x.2) 0 false : sProp 𝕄)),
    bigSep_rgt (fun c : Dev nD => (bigSep Finset.univ fun x : Fin 8 × Fin 4 => dutyTok ER (grCell c 1 x.1 x.2) 0 false : sProp 𝕄)),
    bigSep_lft (fun c : Dev nD => (bigSep Finset.univ fun x : Fin 7 × Fin 4 => dutyTok ER (glCell c 1 x.1 x.2) 0 false : sProp 𝕄))]
  exact BI.Entails.refl _

/-! ## The global step: from every device's pieces to every device's ghost state -/

theorem ghost_intro (K : Dev nD × Fin 241 → ℕ) (c : Dev nD) : iprop(records m ρ K ∗ posOwn c ∗ payToks c) ⊢ G' m ρ c := by
  unfold G' ghost
  iintro H
  iexists K
  iexact H

theorem regroup :
    (bigSep Finset.univ fun c : Dev nD => iprop((bigSep Finset.univ fun k : Fin 241 => iprop(∃ κ : ℕ, cellInv ER (ringRd m ρ) κ (kcell (c, k))))
          ∗ (bigSep Finset.univ fun k : Fin 241 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 241 => iprop(∃ κ : ℕ, cellInv ER (ringRd m ρ) κ (kcell ck))),
    bigSep_congr (s := Finset.univ) (fun (c : Dev nD) _ => bigSep_sep' Finset.univ (fun k : Fin 241 => (atPos ER (kcell (c, k)) 0 ∅ 0 : sProp 𝕄)) (fun k => reached ER (kcell (c, k)) 0)),
    bigSep_sep', ← bigSep_univ_prod (fun ck : Dev nD × Fin 241 => (reached ER (kcell ck) 0 : sProp 𝕄))]
  iintro ⟨HI, ⟨Hat, #HR⟩, Htok⟩
  ihave HK := (BI.bigSep_exists_pi Finset.univ (fun (ck : Dev nD × Fin 241) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (posOwn c : sProp 𝕄)) payToks).symm)
    isplitl [Hat]; · unfold posOwn; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit: what the neighbours owe a device -/

/-- The payments, family by family. -/
def payEquiv : (Unit ⊕ Unit ⊕ (Fin 8 × Fin 4) ⊕ (Fin 7 × Fin 4) ⊕ (Fin 8 × Fin 4) ⊕ (Fin 7 × Fin 4)) ≃ Pay where
  toFun
    | .inl _ => .barL
    | .inr (.inl _) => .barR
    | .inr (.inr (.inl x)) => .rl x.1 x.2
    | .inr (.inr (.inr (.inl x))) => .rr x.1 x.2
    | .inr (.inr (.inr (.inr (.inl x)))) => .gr x.1 x.2
    | .inr (.inr (.inr (.inr (.inr x)))) => .gl x.1 x.2
  invFun
    | .barL => .inl ()
    | .barR => .inr (.inl ())
    | .rl s j => .inr (.inr (.inl (s, j)))
    | .rr s j => .inr (.inr (.inr (.inl (s, j))))
    | .gr s j => .inr (.inr (.inr (.inr (.inl (s, j)))))
    | .gl s j => .inr (.inr (.inr (.inr (.inr (s, j)))))
  left_inv := by rintro (_ | _ | ⟨s, j⟩ | ⟨s, j⟩ | ⟨s, j⟩ | ⟨s, j⟩) <;> rfl
  right_inv := by rintro (_ | _ | _ | _ | _ | _) <;> rfl

theorem bigSep_mono_univ {I : Type} [Fintype I] {Φ Ψ : I → sProp 𝕄} (h : ∀ i, Φ i ⊢ Ψ i) :
    bigSep Finset.univ Φ ⊢ bigSep Finset.univ Ψ := bigSep_mono fun i _ => h i

theorem bigSep_pay (Ψ : Pay → sProp 𝕄) : bigSep Finset.univ Ψ = iprop(Ψ .barL ∗ Ψ .barR
    ∗ (bigSep Finset.univ fun x : Fin 8 × Fin 4 => Ψ (.rl x.1 x.2)) ∗ (bigSep Finset.univ fun x : Fin 7 × Fin 4 => Ψ (.rr x.1 x.2))
    ∗ (bigSep Finset.univ fun x : Fin 8 × Fin 4 => Ψ (.gr x.1 x.2)) ∗ (bigSep Finset.univ fun x : Fin 7 × Fin 4 => Ψ (.gl x.1 x.2))) := by
  rw [bigSep_univ_equiv payEquiv, bigSep_univ_sum, bigSep_univ_sum, bigSep_univ_sum, bigSep_univ_sum, bigSep_univ_sum,
    bigSep_univ_of_subsingleton (), bigSep_univ_of_subsingleton ()]
  rfl

/-- What the neighbours owe device `c` at launch is two barrier units and a strip's credit on each arrival cell. -/
theorem creds_intro (c : Dev nD) : (Pipeline.launchCred (fun d : Dev nD => owedOf d Finset.univ) c : sProp 𝕄) ⊢ creds c := by
  have h : (fun d : Dev nD => owedOf d Finset.univ)
      = fun d => ∑ p ∈ (Finset.univ : Finset Pay), (fun (p : Pay) (d : Dev nD) => (tallyAt (p.cell d) () p.amt : CellTallies nD τ sig Unit)) p d := rfl
  rw [h, Pipeline.launchCred_sum, bigSep_pay]
  unfold creds
  show iprop(Pipeline.launchCred (fun d : Dev nD => (tallyAt (((lft d).tc : Thread nD τ), SemLoc.reg barS) () 1 : CellTallies nD τ sig Unit)) c
      ∗ Pipeline.launchCred (fun d : Dev nD => (tallyAt (((rgt d).tc : Thread nD τ), SemLoc.reg barS) () 1 : CellTallies nD τ sig Unit)) c
      ∗ (bigSep Finset.univ fun x : Fin 8 × Fin 4 => Pipeline.launchCred (fun d : Dev nD => (tallyAt (((lft d).tc : Thread nD τ), SemLoc.dma (sem8 cc0_scratch2 1 x.1 x.2)) () N16 : CellTallies nD τ sig Unit)) c)
      ∗ (bigSep Finset.univ fun x : Fin 7 × Fin 4 => Pipeline.launchCred (fun d : Dev nD => (tallyAt (((rgt d).tc : Thread nD τ), SemLoc.dma (sem7 cc0_scratch3 1 x.1 x.2)) () N16 : CellTallies nD τ sig Unit)) c)
      ∗ (bigSep Finset.univ fun x : Fin 8 × Fin 4 => Pipeline.launchCred (fun d : Dev nD => (tallyAt (((rgt d).tc : Thread nD τ), SemLoc.dma (sem8 cc0_scratch4 1 x.1 x.2)) () N16 : CellTallies nD τ sig Unit)) c)
      ∗ (bigSep Finset.univ fun x : Fin 7 × Fin 4 => Pipeline.launchCred (fun d : Dev nD => (tallyAt (((lft d).tc : Thread nD τ), SemLoc.dma (sem7 cc0_scratch5 1 x.1 x.2)) () N16 : CellTallies nD τ sig Unit)) c) : sProp 𝕄) ⊢ _
  iintro ⟨HbL, HbR, Hrl, Hrr, Hgr, Hgl⟩
  isplitl [HbL HbR]
  · ihave H1 := (Pipeline.launchCred_tallyAt (Name := ℕ) (U := UU) (Lvl := ℕ) (Val := Elt F) (SemLoc.reg barS) lft rgt lft_rgt rgt_lft () 1 c) $$ HbL
    ihave H2 := (Pipeline.launchCred_tallyAt (Name := ℕ) (U := UU) (Lvl := ℕ) (Val := Elt F) (SemLoc.reg barS) rgt lft rgt_lft lft_rgt () 1 c) $$ HbR
    rw [← tallyAt_add (barCell c) () 1 1]
    iapply (cred_add _ _).2
    isplitl [H1] <;> iassumption
  isplitl [Hrl]
  · iapply (bigSep_mono_univ fun (x : Fin 8 × Fin 4) => Pipeline.launchCred_tallyAt (Name := ℕ) (U := UU) (Lvl := ℕ) (Val := Elt F) (SemLoc.dma (sem8 cc0_scratch2 1 x.1 x.2)) lft rgt lft_rgt rgt_lft () N16 c)
    iexact Hrl
  isplitl [Hrr]
  · iapply (bigSep_mono_univ fun (x : Fin 7 × Fin 4) => Pipeline.launchCred_tallyAt (Name := ℕ) (U := UU) (Lvl := ℕ) (Val := Elt F) (SemLoc.dma (sem7 cc0_scratch3 1 x.1 x.2)) rgt lft rgt_lft lft_rgt () N16 c)
    iexact Hrr
  isplitl [Hgr]
  · iapply (bigSep_mono_univ fun (x : Fin 8 × Fin 4) => Pipeline.launchCred_tallyAt (Name := ℕ) (U := UU) (Lvl := ℕ) (Val := Elt F) (SemLoc.dma (sem8 cc0_scratch4 1 x.1 x.2)) rgt lft rgt_lft lft_rgt () N16 c)
    iexact Hgr
  · iapply (bigSep_mono_univ fun (x : Fin 7 × Fin 4) => Pipeline.launchCred_tallyAt (Name := ℕ) (U := UU) (Lvl := ℕ) (Val := Elt F) (SemLoc.dma (sem7 cc0_scratch5 1 x.1 x.2)) lft rgt lft_rgt rgt_lft () N16 c)
    iexact Hgl

/-! ## The pipeline's staging cells sit below everything a device owes -/

theorem L_pay (c : Dev nD) (p : Pay) : L (p.cell c) = {()} := by cases p <;> exact if_pos rfl

theorem lv_pay_pos (c : Dev nD) (p : Pay) : 0 < lv (p.cell c) () := by
  cases p with
  | barL => exact Nat.one_pos
  | barR => exact Nat.one_pos
  | rl s j => show 0 < lvN (sem8 cc0_scratch2 1 s j).val; revert s j; decide
  | rr s j => show 0 < lvN (sem7 cc0_scratch3 1 s j).val; revert s j; decide
  | gr s j => show 0 < lvN (sem8 cc0_scratch4 1 s j).val; revert s j; decide
  | gl s j => show 0 < lvN (sem7 cc0_scratch5 1 s j).val; revert s j; decide

theorem mayWait_stage (c : Dev nD) (q : DmaSem sig) (hq : lvN q.val = 0) (O : CellTallies nD τ sig Unit) (hO : O = owedOf c Finset.univ ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    obtain ⟨p, -, hp⟩ := Pipeline.sum_pos_exists (show 0 < (∑ p ∈ (Finset.univ : Finset Pay), (tallyAt (p.cell c) () p.amt : CellTallies nD τ sig Unit)) g i from hg)
    obtain ⟨rfl, rfl⟩ := Pipeline.tallyAt_pos hp
    refine ⟨by rw [L_pay]; exact Finset.mem_singleton_self _, ?_⟩
    show lvN q.val < lv (p.cell c) ()
    rw [hq]; exact lv_pay_pos c p
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## Entering and leaving the one pipeline point -/

theorem start_intro (c : Dev nD) :
    iprop(Pipeline.unscopedRestP Pipeline.Prefetch.none cfg0.spec c (fun b => m ((c : Thread nD τ).loc b)) ∗ levAts L lv
        ∗ Pipeline.launchCred (fun d : Dev nD => owedOf d Finset.univ) c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ← semsZero_eq]
  unfold Φ₁ scratch
  iintro ⟨Hr, Hz⟩
  isplitr; · iempintro
  isplitl [Hz]; · iexact Hz
  iexact Hr

/-! ## The arrays after the run -/

/-- The result array's one block is the whole array, written back after the one point: it ends as what the body left. -/
theorem final_out (c : Dev nD) : (dats m ρ 0 c).arrAt (2 : Fin 3) cfg0.N = outFinal m ρ := by
  rw [show cfg0.N = (t0_0 : Fin cfg0.N).val + 1 from rfl, (dats m ρ 0 c).arrAt_succ (2 : Fin 3) t0_0, if_pos (flush0_2 _)]
  have hz : (fun a => (win0_2.index t0_0) a * main_v1.ty.shape.size a) = fun _ => 0 := funext fun a => by fin_cases a <;> rfl
  rw [Memref.write_access_unit_zero_univ (Elt F) main_v1 hz]
  rfl

/-- The argument arrays are inputs: they hold what they held. -/
theorem final_x (c : Dev nD) : (dats m ρ 0 c).arrAt (0 : Fin 3) cfg0.N = m ((c : Thread nD τ).loc main_arg0) :=
  (dats (F := F) m ρ 0 c).arrAt_in (0 : Fin 3) rfl _
theorem final_w (c : Dev nD) : (dats m ρ 0 c).arrAt (1 : Fin 3) cfg0.N = m ((c : Thread nD τ).loc main_arg1) :=
  (dats (F := F) m ρ 0 c).arrAt_in (1 : Fin 3) rfl _

/-! ## The run -/

set_option maxRecDepth 8000 in
/-- At the compiled mesh of sixteen devices, for any float values, from any memory with zero counters: given one device's
    body obligation at a symbolic place, every weakly fair execution of @main terminates, every device's result array ends
    as the all-reduced, activated product, and the two argument arrays hold what they held. -/
theorem run (hbody : ∀ c, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outFinal m ρ
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := fun d => owedOf d Finset.univ) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 (2 : Fin 3)).trans (final_out m ρ c), ((h c).1 (0 : Fin 3)).trans (final_x m ρ c), ((h c).1 (1 : Fin 3)).trans (final_w m ρ c)⟩)

/-- info: 'Cert.KernelIdeal.Hand.run' depends on axioms: [propext, Classical.choice, Quot.sound] -/
#guard_msgs in #print axioms run

end Cert.KernelIdeal.Hand

end
-- ==== Proof.DevArith.lean ====
/-
  Closed forms for the integer arithmetic of the ring kernel: which device each signal and each remote copy
  addresses, and at which row of the 1024 x 1024 buffer each 16-row strip it touches begins.

  The kernel computes both from the device's logical id with 32-bit signed division, remainder, comparison and
  selection. On the sixteen devices that word arithmetic agrees with the ring of the devices (`posOf`, `devAt`): an addressed device
  is always the neighbour one position before (`lft`) or after (`rgt`) the device on the ring, and a strip's first row
  is `chunkRow c a + 16 * j`, the `j`-th strip of the chunk `a` positions after the device's own. Each statement
  ranges over finitely many cases (sixteen devices, at most eight ring steps, four strips) and is decided by
  evaluating both sides in every case.
-/
import proofs.«900799_g7700000000000800_dist_gemm_ar_m1024_k1024_n1024_f32_gelu_v7x_i16_1_alg».proof.Proof.Ring
import proofs.«900799_g7700000000000800_dist_gemm_ar_m1024_k1024_n1024_f32_gelu_v7x_i16_1_alg».proof.Proof.Gen.KernelIdeal

set_option Elab.async false

namespace Cert.KernelIdeal.Hand

open Idealize.ShloMosaic

/-! ## The addressed device

For each site `N` of the program, `devN_val` is the equation between numbers and `devN_eq` the same equation between
devices, for whatever proof of the bound the device was built with. In program order: the two barrier signals go
to the left and the right neighbour; in the reduce-scatter each strip of a step is sent left, then right, and the
last step only left; in the all-gather each strip of a step is sent right, then left, and the last step only right. -/

theorem dev1_val (c : Dev nD) : k0_dev1 c = (lft c).val := by revert c; decide +kernel
theorem dev1_eq (c : Dev nD) (h : k0_dev1 c < nD) : (⟨k0_dev1 c, h⟩ : Dev nD) = lft c := Fin.ext (dev1_val c)
theorem dev2_val (c : Dev nD) : k0_dev2 c = (rgt c).val := by revert c; decide +kernel
theorem dev2_eq (c : Dev nD) (h : k0_dev2 c < nD) : (⟨k0_dev2 c, h⟩ : Dev nD) = rgt c := Fin.ext (dev2_val c)
theorem dev3_val (c : Dev nD) : k0_dev3 c = (lft c).val := by revert c; decide +kernel
theorem dev3_eq (c : Dev nD) (h : k0_dev3 c < nD) : (⟨k0_dev3 c, h⟩ : Dev nD) = lft c := Fin.ext (dev3_val c)
theorem dev4_val (c : Dev nD) : k0_dev4 c = (rgt c).val := by revert c; decide +kernel
theorem dev4_eq (c : Dev nD) (h : k0_dev4 c < nD) : (⟨k0_dev4 c, h⟩ : Dev nD) = rgt c := Fin.ext (dev4_val c)
theorem dev5_val (c : Dev nD) : k0_dev5 c = (lft c).val := by revert c; decide +kernel
theorem dev5_eq (c : Dev nD) (h : k0_dev5 c < nD) : (⟨k0_dev5 c, h⟩ : Dev nD) = lft c := Fin.ext (dev5_val c)
theorem dev6_val (c : Dev nD) : k0_dev6 c = (rgt c).val := by revert c; decide +kernel
theorem dev6_eq (c : Dev nD) (h : k0_dev6 c < nD) : (⟨k0_dev6 c, h⟩ : Dev nD) = rgt c := Fin.ext (dev6_val c)
theorem dev7_val (c : Dev nD) : k0_dev7 c = (lft c).val := by revert c; decide +kernel
theorem dev7_eq (c : Dev nD) (h : k0_dev7 c < nD) : (⟨k0_dev7 c, h⟩ : Dev nD) = lft c := Fin.ext (dev7_val c)
theorem dev8_val (c : Dev nD) : k0_dev8 c = (rgt c).val := by revert c; decide +kernel
theorem dev8_eq (c : Dev nD) (h : k0_dev8 c < nD) : (⟨k0_dev8 c, h⟩ : Dev nD) = rgt c := Fin.ext (dev8_val c)
theorem dev9_val (c : Dev nD) : k0_dev9 c = (lft c).val := by revert c; decide +kernel
theorem dev9_eq (c : Dev nD) (h : k0_dev9 c < nD) : (⟨k0_dev9 c, h⟩ : Dev nD) = lft c := Fin.ext (dev9_val c)
theorem dev10_val (c : Dev nD) : k0_dev10 c = (rgt c).val := by revert c; decide +kernel
theorem dev10_eq (c : Dev nD) (h : k0_dev10 c < nD) : (⟨k0_dev10 c, h⟩ : Dev nD) = rgt c := Fin.ext (dev10_val c)
theorem dev11_val (c : Dev nD) : k0_dev11 c = (lft c).val := by revert c; decide +kernel
theorem dev11_eq (c : Dev nD) (h : k0_dev11 c < nD) : (⟨k0_dev11 c, h⟩ : Dev nD) = lft c := Fin.ext (dev11_val c)
theorem dev12_val (c : Dev nD) : k0_dev12 c = (rgt c).val := by revert c; decide +kernel
theorem dev12_eq (c : Dev nD) (h : k0_dev12 c < nD) : (⟨k0_dev12 c, h⟩ : Dev nD) = rgt c := Fin.ext (dev12_val c)
theorem dev13_val (c : Dev nD) : k0_dev13 c = (lft c).val := by revert c; decide +kernel
theorem dev13_eq (c : Dev nD) (h : k0_dev13 c < nD) : (⟨k0_dev13 c, h⟩ : Dev nD) = lft c := Fin.ext (dev13_val c)
theorem dev14_val (c : Dev nD) : k0_dev14 c = (rgt c).val := by revert c; decide +kernel
theorem dev14_eq (c : Dev nD) (h : k0_dev14 c < nD) : (⟨k0_dev14 c, h⟩ : Dev nD) = rgt c := Fin.ext (dev14_val c)
theorem dev15_val (c : Dev nD) : k0_dev15 c = (lft c).val := by revert c; decide +kernel
theorem dev15_eq (c : Dev nD) (h : k0_dev15 c < nD) : (⟨k0_dev15 c, h⟩ : Dev nD) = lft c := Fin.ext (dev15_val c)
theorem dev16_val (c : Dev nD) : k0_dev16 c = (rgt c).val := by revert c; decide +kernel
theorem dev16_eq (c : Dev nD) (h : k0_dev16 c < nD) : (⟨k0_dev16 c, h⟩ : Dev nD) = rgt c := Fin.ext (dev16_val c)
theorem dev17_val (c : Dev nD) : k0_dev17 c = (lft c).val := by revert c; decide +kernel
theorem dev17_eq (c : Dev nD) (h : k0_dev17 c < nD) : (⟨k0_dev17 c, h⟩ : Dev nD) = lft c := Fin.ext (dev17_val c)
theorem dev18_val (c : Dev nD) : k0_dev18 c = (rgt c).val := by revert c; decide +kernel
theorem dev18_eq (c : Dev nD) (h : k0_dev18 c < nD) : (⟨k0_dev18 c, h⟩ : Dev nD) = rgt c := Fin.ext (dev18_val c)
theorem dev19_val (c : Dev nD) : k0_dev19 c = (lft c).val := by revert c; decide +kernel
theorem dev19_eq (c : Dev nD) (h : k0_dev19 c < nD) : (⟨k0_dev19 c, h⟩ : Dev nD) = lft c := Fin.ext (dev19_val c)
theorem dev20_val (c : Dev nD) : k0_dev20 c = (rgt c).val := by revert c; decide +kernel
theorem dev20_eq (c : Dev nD) (h : k0_dev20 c < nD) : (⟨k0_dev20 c, h⟩ : Dev nD) = rgt c := Fin.ext (dev20_val c)
theorem dev21_val (c : Dev nD) : k0_dev21 c = (lft c).val := by revert c; decide +kernel
theorem dev21_eq (c : Dev nD) (h : k0_dev21 c < nD) : (⟨k0_dev21 c, h⟩ : Dev nD) = lft c := Fin.ext (dev21_val c)
theorem dev22_val (c : Dev nD) : k0_dev22 c = (rgt c).val := by revert c; decide +kernel
theorem dev22_eq (c : Dev nD) (h : k0_dev22 c < nD) : (⟨k0_dev22 c, h⟩ : Dev nD) = rgt c := Fin.ext (dev22_val c)
theorem dev23_val (c : Dev nD) : k0_dev23 c = (lft c).val := by revert c; decide +kernel
theorem dev23_eq (c : Dev nD) (h : k0_dev23 c < nD) : (⟨k0_dev23 c, h⟩ : Dev nD) = lft c := Fin.ext (dev23_val c)
theorem dev24_val (c : Dev nD) : k0_dev24 c = (rgt c).val := by revert c; decide +kernel
theorem dev24_eq (c : Dev nD) (h : k0_dev24 c < nD) : (⟨k0_dev24 c, h⟩ : Dev nD) = rgt c := Fin.ext (dev24_val c)
theorem dev25_val (c : Dev nD) : k0_dev25 c = (lft c).val := by revert c; decide +kernel
theorem dev25_eq (c : Dev nD) (h : k0_dev25 c < nD) : (⟨k0_dev25 c, h⟩ : Dev nD) = lft c := Fin.ext (dev25_val c)
theorem dev26_val (c : Dev nD) : k0_dev26 c = (rgt c).val := by revert c; decide +kernel
theorem dev26_eq (c : Dev nD) (h : k0_dev26 c < nD) : (⟨k0_dev26 c, h⟩ : Dev nD) = rgt c := Fin.ext (dev26_val c)
theorem dev27_val (c : Dev nD) : k0_dev27 c = (lft c).val := by revert c; decide +kernel
theorem dev27_eq (c : Dev nD) (h : k0_dev27 c < nD) : (⟨k0_dev27 c, h⟩ : Dev nD) = lft c := Fin.ext (dev27_val c)
theorem dev28_val (c : Dev nD) : k0_dev28 c = (rgt c).val := by revert c; decide +kernel
theorem dev28_eq (c : Dev nD) (h : k0_dev28 c < nD) : (⟨k0_dev28 c, h⟩ : Dev nD) = rgt c := Fin.ext (dev28_val c)
theorem dev29_val (c : Dev nD) : k0_dev29 c = (lft c).val := by revert c; decide +kernel
theorem dev29_eq (c : Dev nD) (h : k0_dev29 c < nD) : (⟨k0_dev29 c, h⟩ : Dev nD) = lft c := Fin.ext (dev29_val c)
theorem dev30_val (c : Dev nD) : k0_dev30 c = (rgt c).val := by revert c; decide +kernel
theorem dev30_eq (c : Dev nD) (h : k0_dev30 c < nD) : (⟨k0_dev30 c, h⟩ : Dev nD) = rgt c := Fin.ext (dev30_val c)
theorem dev31_val (c : Dev nD) : k0_dev31 c = (lft c).val := by revert c; decide +kernel
theorem dev31_eq (c : Dev nD) (h : k0_dev31 c < nD) : (⟨k0_dev31 c, h⟩ : Dev nD) = lft c := Fin.ext (dev31_val c)
theorem dev32_val (c : Dev nD) : k0_dev32 c = (rgt c).val := by revert c; decide +kernel
theorem dev32_eq (c : Dev nD) (h : k0_dev32 c < nD) : (⟨k0_dev32 c, h⟩ : Dev nD) = rgt c := Fin.ext (dev32_val c)
theorem dev33_val (c : Dev nD) : k0_dev33 c = (lft c).val := by revert c; decide +kernel
theorem dev33_eq (c : Dev nD) (h : k0_dev33 c < nD) : (⟨k0_dev33 c, h⟩ : Dev nD) = lft c := Fin.ext (dev33_val c)
theorem dev34_val (c : Dev nD) : k0_dev34 c = (rgt c).val := by revert c; decide +kernel
theorem dev34_eq (c : Dev nD) (h : k0_dev34 c < nD) : (⟨k0_dev34 c, h⟩ : Dev nD) = rgt c := Fin.ext (dev34_val c)
theorem dev35_val (c : Dev nD) : k0_dev35 c = (lft c).val := by revert c; decide +kernel
theorem dev35_eq (c : Dev nD) (h : k0_dev35 c < nD) : (⟨k0_dev35 c, h⟩ : Dev nD) = lft c := Fin.ext (dev35_val c)
theorem dev36_val (c : Dev nD) : k0_dev36 c = (rgt c).val := by revert c; decide +kernel
theorem dev36_eq (c : Dev nD) (h : k0_dev36 c < nD) : (⟨k0_dev36 c, h⟩ : Dev nD) = rgt c := Fin.ext (dev36_val c)
theorem dev37_val (c : Dev nD) : k0_dev37 c = (lft c).val := by revert c; decide +kernel
theorem dev37_eq (c : Dev nD) (h : k0_dev37 c < nD) : (⟨k0_dev37 c, h⟩ : Dev nD) = lft c := Fin.ext (dev37_val c)
theorem dev38_val (c : Dev nD) : k0_dev38 c = (rgt c).val := by revert c; decide +kernel
theorem dev38_eq (c : Dev nD) (h : k0_dev38 c < nD) : (⟨k0_dev38 c, h⟩ : Dev nD) = rgt c := Fin.ext (dev38_val c)
theorem dev39_val (c : Dev nD) : k0_dev39 c = (lft c).val := by revert c; decide +kernel
theorem dev39_eq (c : Dev nD) (h : k0_dev39 c < nD) : (⟨k0_dev39 c, h⟩ : Dev nD) = lft c := Fin.ext (dev39_val c)
theorem dev40_val (c : Dev nD) : k0_dev40 c = (rgt c).val := by revert c; decide +kernel
theorem dev40_eq (c : Dev nD) (h : k0_dev40 c < nD) : (⟨k0_dev40 c, h⟩ : Dev nD) = rgt c := Fin.ext (dev40_val c)
theorem dev41_val (c : Dev nD) : k0_dev41 c = (lft c).val := by revert c; decide +kernel
theorem dev41_eq (c : Dev nD) (h : k0_dev41 c < nD) : (⟨k0_dev41 c, h⟩ : Dev nD) = lft c := Fin.ext (dev41_val c)
theorem dev42_val (c : Dev nD) : k0_dev42 c = (rgt c).val := by revert c; decide +kernel
theorem dev42_eq (c : Dev nD) (h : k0_dev42 c < nD) : (⟨k0_dev42 c, h⟩ : Dev nD) = rgt c := Fin.ext (dev42_val c)
theorem dev43_val (c : Dev nD) : k0_dev43 c = (lft c).val := by revert c; decide +kernel
theorem dev43_eq (c : Dev nD) (h : k0_dev43 c < nD) : (⟨k0_dev43 c, h⟩ : Dev nD) = lft c := Fin.ext (dev43_val c)
theorem dev44_val (c : Dev nD) : k0_dev44 c = (rgt c).val := by revert c; decide +kernel
theorem dev44_eq (c : Dev nD) (h : k0_dev44 c < nD) : (⟨k0_dev44 c, h⟩ : Dev nD) = rgt c := Fin.ext (dev44_val c)
theorem dev45_val (c : Dev nD) : k0_dev45 c = (lft c).val := by revert c; decide +kernel
theorem dev45_eq (c : Dev nD) (h : k0_dev45 c < nD) : (⟨k0_dev45 c, h⟩ : Dev nD) = lft c := Fin.ext (dev45_val c)
theorem dev46_val (c : Dev nD) : k0_dev46 c = (rgt c).val := by revert c; decide +kernel
theorem dev46_eq (c : Dev nD) (h : k0_dev46 c < nD) : (⟨k0_dev46 c, h⟩ : Dev nD) = rgt c := Fin.ext (dev46_val c)
theorem dev47_val (c : Dev nD) : k0_dev47 c = (lft c).val := by revert c; decide +kernel
theorem dev47_eq (c : Dev nD) (h : k0_dev47 c < nD) : (⟨k0_dev47 c, h⟩ : Dev nD) = lft c := Fin.ext (dev47_val c)
theorem dev48_val (c : Dev nD) : k0_dev48 c = (rgt c).val := by revert c; decide +kernel
theorem dev48_eq (c : Dev nD) (h : k0_dev48 c < nD) : (⟨k0_dev48 c, h⟩ : Dev nD) = rgt c := Fin.ext (dev48_val c)
theorem dev49_val (c : Dev nD) : k0_dev49 c = (lft c).val := by revert c; decide +kernel
theorem dev49_eq (c : Dev nD) (h : k0_dev49 c < nD) : (⟨k0_dev49 c, h⟩ : Dev nD) = lft c := Fin.ext (dev49_val c)
theorem dev50_val (c : Dev nD) : k0_dev50 c = (rgt c).val := by revert c; decide +kernel
theorem dev50_eq (c : Dev nD) (h : k0_dev50 c < nD) : (⟨k0_dev50 c, h⟩ : Dev nD) = rgt c := Fin.ext (dev50_val c)
theorem dev51_val (c : Dev nD) : k0_dev51 c = (lft c).val := by revert c; decide +kernel
theorem dev51_eq (c : Dev nD) (h : k0_dev51 c < nD) : (⟨k0_dev51 c, h⟩ : Dev nD) = lft c := Fin.ext (dev51_val c)
theorem dev52_val (c : Dev nD) : k0_dev52 c = (rgt c).val := by revert c; decide +kernel
theorem dev52_eq (c : Dev nD) (h : k0_dev52 c < nD) : (⟨k0_dev52 c, h⟩ : Dev nD) = rgt c := Fin.ext (dev52_val c)
theorem dev53_val (c : Dev nD) : k0_dev53 c = (lft c).val := by revert c; decide +kernel
theorem dev53_eq (c : Dev nD) (h : k0_dev53 c < nD) : (⟨k0_dev53 c, h⟩ : Dev nD) = lft c := Fin.ext (dev53_val c)
theorem dev54_val (c : Dev nD) : k0_dev54 c = (rgt c).val := by revert c; decide +kernel
theorem dev54_eq (c : Dev nD) (h : k0_dev54 c < nD) : (⟨k0_dev54 c, h⟩ : Dev nD) = rgt c := Fin.ext (dev54_val c)
theorem dev55_val (c : Dev nD) : k0_dev55 c = (lft c).val := by revert c; decide +kernel
theorem dev55_eq (c : Dev nD) (h : k0_dev55 c < nD) : (⟨k0_dev55 c, h⟩ : Dev nD) = lft c := Fin.ext (dev55_val c)
theorem dev56_val (c : Dev nD) : k0_dev56 c = (rgt c).val := by revert c; decide +kernel
theorem dev56_eq (c : Dev nD) (h : k0_dev56 c < nD) : (⟨k0_dev56 c, h⟩ : Dev nD) = rgt c := Fin.ext (dev56_val c)
theorem dev57_val (c : Dev nD) : k0_dev57 c = (lft c).val := by revert c; decide +kernel
theorem dev57_eq (c : Dev nD) (h : k0_dev57 c < nD) : (⟨k0_dev57 c, h⟩ : Dev nD) = lft c := Fin.ext (dev57_val c)
theorem dev58_val (c : Dev nD) : k0_dev58 c = (rgt c).val := by revert c; decide +kernel
theorem dev58_eq (c : Dev nD) (h : k0_dev58 c < nD) : (⟨k0_dev58 c, h⟩ : Dev nD) = rgt c := Fin.ext (dev58_val c)
theorem dev59_val (c : Dev nD) : k0_dev59 c = (lft c).val := by revert c; decide +kernel
theorem dev59_eq (c : Dev nD) (h : k0_dev59 c < nD) : (⟨k0_dev59 c, h⟩ : Dev nD) = lft c := Fin.ext (dev59_val c)
theorem dev60_val (c : Dev nD) : k0_dev60 c = (lft c).val := by revert c; decide +kernel
theorem dev60_eq (c : Dev nD) (h : k0_dev60 c < nD) : (⟨k0_dev60 c, h⟩ : Dev nD) = lft c := Fin.ext (dev60_val c)
theorem dev61_val (c : Dev nD) : k0_dev61 c = (lft c).val := by revert c; decide +kernel
theorem dev61_eq (c : Dev nD) (h : k0_dev61 c < nD) : (⟨k0_dev61 c, h⟩ : Dev nD) = lft c := Fin.ext (dev61_val c)
theorem dev62_val (c : Dev nD) : k0_dev62 c = (lft c).val := by revert c; decide +kernel
theorem dev62_eq (c : Dev nD) (h : k0_dev62 c < nD) : (⟨k0_dev62 c, h⟩ : Dev nD) = lft c := Fin.ext (dev62_val c)
theorem dev63_val (c : Dev nD) : k0_dev63 c = (rgt c).val := by revert c; decide +kernel
theorem dev63_eq (c : Dev nD) (h : k0_dev63 c < nD) : (⟨k0_dev63 c, h⟩ : Dev nD) = rgt c := Fin.ext (dev63_val c)
theorem dev64_val (c : Dev nD) : k0_dev64 c = (lft c).val := by revert c; decide +kernel
theorem dev64_eq (c : Dev nD) (h : k0_dev64 c < nD) : (⟨k0_dev64 c, h⟩ : Dev nD) = lft c := Fin.ext (dev64_val c)
theorem dev65_val (c : Dev nD) : k0_dev65 c = (rgt c).val := by revert c; decide +kernel
theorem dev65_eq (c : Dev nD) (h : k0_dev65 c < nD) : (⟨k0_dev65 c, h⟩ : Dev nD) = rgt c := Fin.ext (dev65_val c)
theorem dev66_val (c : Dev nD) : k0_dev66 c = (lft c).val := by revert c; decide +kernel
theorem dev66_eq (c : Dev nD) (h : k0_dev66 c < nD) : (⟨k0_dev66 c, h⟩ : Dev nD) = lft c := Fin.ext (dev66_val c)
theorem dev67_val (c : Dev nD) : k0_dev67 c = (rgt c).val := by revert c; decide +kernel
theorem dev67_eq (c : Dev nD) (h : k0_dev67 c < nD) : (⟨k0_dev67 c, h⟩ : Dev nD) = rgt c := Fin.ext (dev67_val c)
theorem dev68_val (c : Dev nD) : k0_dev68 c = (lft c).val := by revert c; decide +kernel
theorem dev68_eq (c : Dev nD) (h : k0_dev68 c < nD) : (⟨k0_dev68 c, h⟩ : Dev nD) = lft c := Fin.ext (dev68_val c)
theorem dev69_val (c : Dev nD) : k0_dev69 c = (rgt c).val := by revert c; decide +kernel
theorem dev69_eq (c : Dev nD) (h : k0_dev69 c < nD) : (⟨k0_dev69 c, h⟩ : Dev nD) = rgt c := Fin.ext (dev69_val c)
theorem dev70_val (c : Dev nD) : k0_dev70 c = (lft c).val := by revert c; decide +kernel
theorem dev70_eq (c : Dev nD) (h : k0_dev70 c < nD) : (⟨k0_dev70 c, h⟩ : Dev nD) = lft c := Fin.ext (dev70_val c)
theorem dev71_val (c : Dev nD) : k0_dev71 c = (rgt c).val := by revert c; decide +kernel
theorem dev71_eq (c : Dev nD) (h : k0_dev71 c < nD) : (⟨k0_dev71 c, h⟩ : Dev nD) = rgt c := Fin.ext (dev71_val c)
theorem dev72_val (c : Dev nD) : k0_dev72 c = (lft c).val := by revert c; decide +kernel
theorem dev72_eq (c : Dev nD) (h : k0_dev72 c < nD) : (⟨k0_dev72 c, h⟩ : Dev nD) = lft c := Fin.ext (dev72_val c)
theorem dev73_val (c : Dev nD) : k0_dev73 c = (rgt c).val := by revert c; decide +kernel
theorem dev73_eq (c : Dev nD) (h : k0_dev73 c < nD) : (⟨k0_dev73 c, h⟩ : Dev nD) = rgt c := Fin.ext (dev73_val c)
theorem dev74_val (c : Dev nD) : k0_dev74 c = (lft c).val := by revert c; decide +kernel
theorem dev74_eq (c : Dev nD) (h : k0_dev74 c < nD) : (⟨k0_dev74 c, h⟩ : Dev nD) = lft c := Fin.ext (dev74_val c)
theorem dev75_val (c : Dev nD) : k0_dev75 c = (rgt c).val := by revert c; decide +kernel
theorem dev75_eq (c : Dev nD) (h : k0_dev75 c < nD) : (⟨k0_dev75 c, h⟩ : Dev nD) = rgt c := Fin.ext (dev75_val c)
theorem dev76_val (c : Dev nD) : k0_dev76 c = (lft c).val := by revert c; decide +kernel
theorem dev76_eq (c : Dev nD) (h : k0_dev76 c < nD) : (⟨k0_dev76 c, h⟩ : Dev nD) = lft c := Fin.ext (dev76_val c)
theorem dev77_val (c : Dev nD) : k0_dev77 c = (rgt c).val := by revert c; decide +kernel
theorem dev77_eq (c : Dev nD) (h : k0_dev77 c < nD) : (⟨k0_dev77 c, h⟩ : Dev nD) = rgt c := Fin.ext (dev77_val c)
theorem dev78_val (c : Dev nD) : k0_dev78 c = (lft c).val := by revert c; decide +kernel
theorem dev78_eq (c : Dev nD) (h : k0_dev78 c < nD) : (⟨k0_dev78 c, h⟩ : Dev nD) = lft c := Fin.ext (dev78_val c)
theorem dev79_val (c : Dev nD) : k0_dev79 c = (rgt c).val := by revert c; decide +kernel
theorem dev79_eq (c : Dev nD) (h : k0_dev79 c < nD) : (⟨k0_dev79 c, h⟩ : Dev nD) = rgt c := Fin.ext (dev79_val c)
theorem dev80_val (c : Dev nD) : k0_dev80 c = (lft c).val := by revert c; decide +kernel
theorem dev80_eq (c : Dev nD) (h : k0_dev80 c < nD) : (⟨k0_dev80 c, h⟩ : Dev nD) = lft c := Fin.ext (dev80_val c)
theorem dev81_val (c : Dev nD) : k0_dev81 c = (rgt c).val := by revert c; decide +kernel
theorem dev81_eq (c : Dev nD) (h : k0_dev81 c < nD) : (⟨k0_dev81 c, h⟩ : Dev nD) = rgt c := Fin.ext (dev81_val c)
theorem dev82_val (c : Dev nD) : k0_dev82 c = (lft c).val := by revert c; decide +kernel
theorem dev82_eq (c : Dev nD) (h : k0_dev82 c < nD) : (⟨k0_dev82 c, h⟩ : Dev nD) = lft c := Fin.ext (dev82_val c)
theorem dev83_val (c : Dev nD) : k0_dev83 c = (rgt c).val := by revert c; decide +kernel
theorem dev83_eq (c : Dev nD) (h : k0_dev83 c < nD) : (⟨k0_dev83 c, h⟩ : Dev nD) = rgt c := Fin.ext (dev83_val c)
theorem dev84_val (c : Dev nD) : k0_dev84 c = (lft c).val := by revert c; decide +kernel
theorem dev84_eq (c : Dev nD) (h : k0_dev84 c < nD) : (⟨k0_dev84 c, h⟩ : Dev nD) = lft c := Fin.ext (dev84_val c)
theorem dev85_val (c : Dev nD) : k0_dev85 c = (rgt c).val := by revert c; decide +kernel
theorem dev85_eq (c : Dev nD) (h : k0_dev85 c < nD) : (⟨k0_dev85 c, h⟩ : Dev nD) = rgt c := Fin.ext (dev85_val c)
theorem dev86_val (c : Dev nD) : k0_dev86 c = (lft c).val := by revert c; decide +kernel
theorem dev86_eq (c : Dev nD) (h : k0_dev86 c < nD) : (⟨k0_dev86 c, h⟩ : Dev nD) = lft c := Fin.ext (dev86_val c)
theorem dev87_val (c : Dev nD) : k0_dev87 c = (rgt c).val := by revert c; decide +kernel
theorem dev87_eq (c : Dev nD) (h : k0_dev87 c < nD) : (⟨k0_dev87 c, h⟩ : Dev nD) = rgt c := Fin.ext (dev87_val c)
theorem dev88_val (c : Dev nD) : k0_dev88 c = (lft c).val := by revert c; decide +kernel
theorem dev88_eq (c : Dev nD) (h : k0_dev88 c < nD) : (⟨k0_dev88 c, h⟩ : Dev nD) = lft c := Fin.ext (dev88_val c)
theorem dev89_val (c : Dev nD) : k0_dev89 c = (rgt c).val := by revert c; decide +kernel
theorem dev89_eq (c : Dev nD) (h : k0_dev89 c < nD) : (⟨k0_dev89 c, h⟩ : Dev nD) = rgt c := Fin.ext (dev89_val c)
theorem dev90_val (c : Dev nD) : k0_dev90 c = (lft c).val := by revert c; decide +kernel
theorem dev90_eq (c : Dev nD) (h : k0_dev90 c < nD) : (⟨k0_dev90 c, h⟩ : Dev nD) = lft c := Fin.ext (dev90_val c)
theorem dev91_val (c : Dev nD) : k0_dev91 c = (rgt c).val := by revert c; decide +kernel
theorem dev91_eq (c : Dev nD) (h : k0_dev91 c < nD) : (⟨k0_dev91 c, h⟩ : Dev nD) = rgt c := Fin.ext (dev91_val c)
theorem dev92_val (c : Dev nD) : k0_dev92 c = (lft c).val := by revert c; decide +kernel
theorem dev92_eq (c : Dev nD) (h : k0_dev92 c < nD) : (⟨k0_dev92 c, h⟩ : Dev nD) = lft c := Fin.ext (dev92_val c)
theorem dev93_val (c : Dev nD) : k0_dev93 c = (rgt c).val := by revert c; decide +kernel
theorem dev93_eq (c : Dev nD) (h : k0_dev93 c < nD) : (⟨k0_dev93 c, h⟩ : Dev nD) = rgt c := Fin.ext (dev93_val c)
theorem dev94_val (c : Dev nD) : k0_dev94 c = (lft c).val := by revert c; decide +kernel
theorem dev94_eq (c : Dev nD) (h : k0_dev94 c < nD) : (⟨k0_dev94 c, h⟩ : Dev nD) = lft c := Fin.ext (dev94_val c)
theorem dev95_val (c : Dev nD) : k0_dev95 c = (rgt c).val := by revert c; decide +kernel
theorem dev95_eq (c : Dev nD) (h : k0_dev95 c < nD) : (⟨k0_dev95 c, h⟩ : Dev nD) = rgt c := Fin.ext (dev95_val c)
theorem dev96_val (c : Dev nD) : k0_dev96 c = (lft c).val := by revert c; decide +kernel
theorem dev96_eq (c : Dev nD) (h : k0_dev96 c < nD) : (⟨k0_dev96 c, h⟩ : Dev nD) = lft c := Fin.ext (dev96_val c)
theorem dev97_val (c : Dev nD) : k0_dev97 c = (rgt c).val := by revert c; decide +kernel
theorem dev97_eq (c : Dev nD) (h : k0_dev97 c < nD) : (⟨k0_dev97 c, h⟩ : Dev nD) = rgt c := Fin.ext (dev97_val c)
theorem dev98_val (c : Dev nD) : k0_dev98 c = (lft c).val := by revert c; decide +kernel
theorem dev98_eq (c : Dev nD) (h : k0_dev98 c < nD) : (⟨k0_dev98 c, h⟩ : Dev nD) = lft c := Fin.ext (dev98_val c)
theorem dev99_val (c : Dev nD) : k0_dev99 c = (rgt c).val := by revert c; decide +kernel
theorem dev99_eq (c : Dev nD) (h : k0_dev99 c < nD) : (⟨k0_dev99 c, h⟩ : Dev nD) = rgt c := Fin.ext (dev99_val c)
theorem dev100_val (c : Dev nD) : k0_dev100 c = (lft c).val := by revert c; decide +kernel
theorem dev100_eq (c : Dev nD) (h : k0_dev100 c < nD) : (⟨k0_dev100 c, h⟩ : Dev nD) = lft c := Fin.ext (dev100_val c)
theorem dev101_val (c : Dev nD) : k0_dev101 c = (rgt c).val := by revert c; decide +kernel
theorem dev101_eq (c : Dev nD) (h : k0_dev101 c < nD) : (⟨k0_dev101 c, h⟩ : Dev nD) = rgt c := Fin.ext (dev101_val c)
theorem dev102_val (c : Dev nD) : k0_dev102 c = (lft c).val := by revert c; decide +kernel
theorem dev102_eq (c : Dev nD) (h : k0_dev102 c < nD) : (⟨k0_dev102 c, h⟩ : Dev nD) = lft c := Fin.ext (dev102_val c)
theorem dev103_val (c : Dev nD) : k0_dev103 c = (rgt c).val := by revert c; decide +kernel
theorem dev103_eq (c : Dev nD) (h : k0_dev103 c < nD) : (⟨k0_dev103 c, h⟩ : Dev nD) = rgt c := Fin.ext (dev103_val c)
theorem dev104_val (c : Dev nD) : k0_dev104 c = (lft c).val := by revert c; decide +kernel
theorem dev104_eq (c : Dev nD) (h : k0_dev104 c < nD) : (⟨k0_dev104 c, h⟩ : Dev nD) = lft c := Fin.ext (dev104_val c)
theorem dev105_val (c : Dev nD) : k0_dev105 c = (rgt c).val := by revert c; decide +kernel
theorem dev105_eq (c : Dev nD) (h : k0_dev105 c < nD) : (⟨k0_dev105 c, h⟩ : Dev nD) = rgt c := Fin.ext (dev105_val c)
theorem dev106_val (c : Dev nD) : k0_dev106 c = (lft c).val := by revert c; decide +kernel
theorem dev106_eq (c : Dev nD) (h : k0_dev106 c < nD) : (⟨k0_dev106 c, h⟩ : Dev nD) = lft c := Fin.ext (dev106_val c)
theorem dev107_val (c : Dev nD) : k0_dev107 c = (rgt c).val := by revert c; decide +kernel
theorem dev107_eq (c : Dev nD) (h : k0_dev107 c < nD) : (⟨k0_dev107 c, h⟩ : Dev nD) = rgt c := Fin.ext (dev107_val c)
theorem dev108_val (c : Dev nD) : k0_dev108 c = (lft c).val := by revert c; decide +kernel
theorem dev108_eq (c : Dev nD) (h : k0_dev108 c < nD) : (⟨k0_dev108 c, h⟩ : Dev nD) = lft c := Fin.ext (dev108_val c)
theorem dev109_val (c : Dev nD) : k0_dev109 c = (rgt c).val := by revert c; decide +kernel
theorem dev109_eq (c : Dev nD) (h : k0_dev109 c < nD) : (⟨k0_dev109 c, h⟩ : Dev nD) = rgt c := Fin.ext (dev109_val c)
theorem dev110_val (c : Dev nD) : k0_dev110 c = (lft c).val := by revert c; decide +kernel
theorem dev110_eq (c : Dev nD) (h : k0_dev110 c < nD) : (⟨k0_dev110 c, h⟩ : Dev nD) = lft c := Fin.ext (dev110_val c)
theorem dev111_val (c : Dev nD) : k0_dev111 c = (rgt c).val := by revert c; decide +kernel
theorem dev111_eq (c : Dev nD) (h : k0_dev111 c < nD) : (⟨k0_dev111 c, h⟩ : Dev nD) = rgt c := Fin.ext (dev111_val c)
theorem dev112_val (c : Dev nD) : k0_dev112 c = (lft c).val := by revert c; decide +kernel
theorem dev112_eq (c : Dev nD) (h : k0_dev112 c < nD) : (⟨k0_dev112 c, h⟩ : Dev nD) = lft c := Fin.ext (dev112_val c)
theorem dev113_val (c : Dev nD) : k0_dev113 c = (rgt c).val := by revert c; decide +kernel
theorem dev113_eq (c : Dev nD) (h : k0_dev113 c < nD) : (⟨k0_dev113 c, h⟩ : Dev nD) = rgt c := Fin.ext (dev113_val c)
theorem dev114_val (c : Dev nD) : k0_dev114 c = (lft c).val := by revert c; decide +kernel
theorem dev114_eq (c : Dev nD) (h : k0_dev114 c < nD) : (⟨k0_dev114 c, h⟩ : Dev nD) = lft c := Fin.ext (dev114_val c)
theorem dev115_val (c : Dev nD) : k0_dev115 c = (rgt c).val := by revert c; decide +kernel
theorem dev115_eq (c : Dev nD) (h : k0_dev115 c < nD) : (⟨k0_dev115 c, h⟩ : Dev nD) = rgt c := Fin.ext (dev115_val c)
theorem dev116_val (c : Dev nD) : k0_dev116 c = (lft c).val := by revert c; decide +kernel
theorem dev116_eq (c : Dev nD) (h : k0_dev116 c < nD) : (⟨k0_dev116 c, h⟩ : Dev nD) = lft c := Fin.ext (dev116_val c)
theorem dev117_val (c : Dev nD) : k0_dev117 c = (rgt c).val := by revert c; decide +kernel
theorem dev117_eq (c : Dev nD) (h : k0_dev117 c < nD) : (⟨k0_dev117 c, h⟩ : Dev nD) = rgt c := Fin.ext (dev117_val c)
theorem dev118_val (c : Dev nD) : k0_dev118 c = (lft c).val := by revert c; decide +kernel
theorem dev118_eq (c : Dev nD) (h : k0_dev118 c < nD) : (⟨k0_dev118 c, h⟩ : Dev nD) = lft c := Fin.ext (dev118_val c)
theorem dev119_val (c : Dev nD) : k0_dev119 c = (rgt c).val := by revert c; decide +kernel
theorem dev119_eq (c : Dev nD) (h : k0_dev119 c < nD) : (⟨k0_dev119 c, h⟩ : Dev nD) = rgt c := Fin.ext (dev119_val c)
theorem dev120_val (c : Dev nD) : k0_dev120 c = (rgt c).val := by revert c; decide +kernel
theorem dev120_eq (c : Dev nD) (h : k0_dev120 c < nD) : (⟨k0_dev120 c, h⟩ : Dev nD) = rgt c := Fin.ext (dev120_val c)
theorem dev121_val (c : Dev nD) : k0_dev121 c = (rgt c).val := by revert c; decide +kernel
theorem dev121_eq (c : Dev nD) (h : k0_dev121 c < nD) : (⟨k0_dev121 c, h⟩ : Dev nD) = rgt c := Fin.ext (dev121_val c)
theorem dev122_val (c : Dev nD) : k0_dev122 c = (rgt c).val := by revert c; decide +kernel
theorem dev122_eq (c : Dev nD) (h : k0_dev122 c < nD) : (⟨k0_dev122 c, h⟩ : Dev nD) = rgt c := Fin.ext (dev122_val c)

/-! ## The first row of a strip

`chunkRow c a` is the first row of the chunk `a` positions after the device's own on the ring, and a chunk is cut
in four strips of sixteen rows. Every slice of the 1024 x 1024 buffer begins in column 0, at the row given here. The
distance `a` moves one chunk per ring step `s`: away from the device in one direction of the ring, towards it in the
other. -/

/-- The three literal arguments of the `r`-th use of the first offset function: a base distance (8 or 1), the ring
step, and the strip's row inside its chunk. -/
theorem off1_at_eq (r : Fin 60) :
    k0_off1_at r = (BitVec.ofNat 32 (if r.val < 32 then 8 else 1),
      BitVec.ofNat 32 (if r.val < 32 then r.val / 4 else (r.val - 32) / 4), BitVec.ofNat 32 (16 * (r.val % 4))) := by
  revert r; decide +kernel

/-- Over the table of its uses: the chunk at distance `8 + s` (the first 32 rows of the table, `s = r / 4`) or
`1 + s` (the other 28, `s = (r - 32) / 4`), strip `r % 4`. -/
theorem off1_eq (c : Dev nD) (r : Fin 60) :
    k0_off1 c (k0_off1_at r).1 (k0_off1_at r).2.1 (k0_off1_at r).2.2
      = ![chunkRow c (if r.val < 32 then 8 + r.val / 4 else 1 + (r.val - 32) / 4) + 16 * (r.val % 4), 0] := by
  funext a; fin_cases a <;> (revert c r; decide +kernel)

/-- The same with the base distance 8 spelled out: step `s` of eight, strip `j`. -/
theorem off1_eq_far (c : Dev nD) (s : Fin 8) (j : Fin 4) :
    k0_off1 c 8#32 (BitVec.ofNat 32 s.val) (BitVec.ofNat 32 (16 * j.val)) = ![chunkRow c (8 + s.val) + 16 * j.val, 0] := by
  funext a; fin_cases a <;> (revert c s j; decide +kernel)

/-- The same with the base distance 1 spelled out: step `s` of seven, strip `j`. -/
theorem off1_eq_near (c : Dev nD) (s : Fin 7) (j : Fin 4) :
    k0_off1 c 1#32 (BitVec.ofNat 32 s.val) (BitVec.ofNat 32 (16 * j.val)) = ![chunkRow c (1 + s.val) + 16 * j.val, 0] := by
  funext a; fin_cases a <;> (revert c s j; decide +kernel)

theorem off2_eq (c : Dev nD) (s : Fin 7) (j : Fin 4) :
    k0_off2 c (BitVec.ofNat 32 s.val) (BitVec.ofNat 32 (16 * j.val)) = ![chunkRow c (7 - s.val) + 16 * j.val, 0] := by
  funext a; fin_cases a <;> (revert c s j; decide +kernel)

theorem off3_eq (c : Dev nD) (s : Fin 8) (j : Fin 4) :
    k0_off3 c (BitVec.ofNat 32 s.val) (BitVec.ofNat 32 (16 * j.val)) = ![chunkRow c (9 + s.val) + 16 * j.val, 0] := by
  funext a; fin_cases a <;> (revert c s j; decide +kernel)

theorem off4_eq (c : Dev nD) (s : Fin 7) (j : Fin 4) :
    k0_off4 c (BitVec.ofNat 32 s.val) (BitVec.ofNat 32 (16 * j.val)) = ![chunkRow c (6 - s.val) + 16 * j.val, 0] := by
  funext a; fin_cases a <;> (revert c s j; decide +kernel)

/-- The device's own chunk. -/
theorem off5_eq (c : Dev nD) (j : Fin 4) :
    k0_off5 c (BitVec.ofNat 32 (16 * j.val)) = ![chunkRow c 0 + 16 * j.val, 0] := by
  funext a; fin_cases a <;> (revert c j; decide +kernel)

theorem off6_eq (c : Dev nD) (s : Fin 8) (j : Fin 4) :
    k0_off6 c (BitVec.ofNat 32 s.val) (BitVec.ofNat 32 (16 * j.val)) = ![chunkRow c (16 - s.val) + 16 * j.val, 0] := by
  funext a; fin_cases a <;> (revert c s j; decide +kernel)

theorem off7_eq (c : Dev nD) (s : Fin 7) (j : Fin 4) :
    k0_off7 c (BitVec.ofNat 32 s.val) (BitVec.ofNat 32 (16 * j.val)) = ![chunkRow c s.val + 16 * j.val, 0] := by
  funext a; fin_cases a <;> (revert c s j; decide +kernel)

theorem off8_eq (c : Dev nD) (s : Fin 8) (j : Fin 4) :
    k0_off8 c (BitVec.ofNat 32 s.val) (BitVec.ofNat 32 (16 * j.val)) = ![chunkRow c (15 - s.val) + 16 * j.val, 0] := by
  funext a; fin_cases a <;> (revert c s j; decide +kernel)

end Cert.KernelIdeal.Hand
-- ==== Proof.FamReduce.lean ====
/-
  Step lemmas for the reduce phase of the ring all-reduce, one per kind of effect, each for an arbitrary device, ring
  step and strip.

  A transfer to a neighbour pays two duties at once: the departure duty of the sender's own cell, whose payload is
  nothing, and the arrival duty of the neighbour's cell, whose payload is the landed strip together with the sender's
  source strip (the receiver is the next to write that strip of the sender's buffer). A wait on one of the device's own
  cells takes the strip's credit off the counter and hands the owner the cell's payload.
-/
import proofs.«900799_g7700000000000800_dist_gemm_ar_m1024_k1024_n1024_f32_gelu_v7x_i16_1_alg».proof.Proof.Iface
import proofs.«900799_g7700000000000800_dist_gemm_ar_m1024_k1024_n1024_f32_gelu_v7x_i16_1_alg».proof.Proof.Sched
import proofs.«900799_g7700000000000800_dist_gemm_ar_m1024_k1024_n1024_f32_gelu_v7x_i16_1_alg».proof.Proof.DevArith

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 241 → ℕ)

/-! ## The cells by number -/

/-- Every cell's invariant and its round-0 fact can be read off the records. -/
theorem records_inv (ck : Dev nD × Fin 241) : records m ρ K ⊢ cellInv ER (ringRd m ρ) (K ck) (kcell ck) := by
  unfold records; exact (BI.Entails.trans BI.sep_and BI.and_elimL).trans (BI.bigSep_elim (Finset.mem_univ ck))
theorem records_reached (ck : Dev nD × Fin 241) : records m ρ K ⊢ reached ER (kcell ck) 0 := by
  unfold records; exact (BI.Entails.trans BI.sep_and BI.and_elimR).trans (BI.bigSep_elim (Finset.mem_univ ck))

/-- The numbers of the four families' cells among a device's 241. -/
def rlIdx (d : Fin 2) (s : Fin 8) (j : Fin 4) : Fin 241 := ⟨1 + 32 * d.val + 4 * s.val + j.val, by have := d.isLt; have := s.isLt; have := j.isLt; omega⟩
def rrIdx (d : Fin 2) (s : Fin 7) (j : Fin 4) : Fin 241 := ⟨65 + 28 * d.val + 4 * s.val + j.val, by have := d.isLt; have := s.isLt; have := j.isLt; omega⟩
def grIdx (d : Fin 2) (s : Fin 8) (j : Fin 4) : Fin 241 := ⟨121 + 32 * d.val + 4 * s.val + j.val, by have := d.isLt; have := s.isLt; have := j.isLt; omega⟩
def glIdx (d : Fin 2) (s : Fin 7) (j : Fin 4) : Fin 241 := ⟨185 + 28 * d.val + 4 * s.val + j.val, by have := d.isLt; have := s.isLt; have := j.isLt; omega⟩

omit [FloatOps F] in
theorem kcell_bar (c : Dev nD) : kcell (c, 0) = barCell c := rfl
omit [FloatOps F] in
theorem kcell_rl (c : Dev nD) (d : Fin 2) (s : Fin 8) (j : Fin 4) : kcell (c, rlIdx d s j) = rlCell c d s j := by
  have := d.isLt; have := s.isLt; have := j.isLt
  show ((c : Thread nD τ), csem (rlIdx d s j)) = ((c : Thread nD τ), SemLoc.dma (sem8 cc0_scratch2 d s j))
  unfold csem rlIdx; rw [if_neg (by show ¬ (1 + 32 * d.val + 4 * s.val + j.val = 0); omega)]
  congr 2; apply Fin.ext; rw [sem8_val_rl]; show 1 + 32 * d.val + 4 * s.val + j.val + 2 = _; omega
omit [FloatOps F] in
theorem kcell_rr (c : Dev nD) (d : Fin 2) (s : Fin 7) (j : Fin 4) : kcell (c, rrIdx d s j) = rrCell c d s j := by
  have := d.isLt; have := s.isLt; have := j.isLt
  show ((c : Thread nD τ), csem (rrIdx d s j)) = ((c : Thread nD τ), SemLoc.dma (sem7 cc0_scratch3 d s j))
  unfold csem rrIdx; rw [if_neg (by show ¬ (65 + 28 * d.val + 4 * s.val + j.val = 0); omega)]
  congr 2; apply Fin.ext; rw [sem7_val_rr]; show 65 + 28 * d.val + 4 * s.val + j.val + 2 = _; omega
omit [FloatOps F] in
theorem kcell_gr (c : Dev nD) (d : Fin 2) (s : Fin 8) (j : Fin 4) : kcell (c, grIdx d s j) = grCell c d s j := by
  have := d.isLt; have := s.isLt; have := j.isLt
  show ((c : Thread nD τ), csem (grIdx d s j)) = ((c : Thread nD τ), SemLoc.dma (sem8 cc0_scratch4 d s j))
  unfold csem grIdx; rw [if_neg (by show ¬ (121 + 32 * d.val + 4 * s.val + j.val = 0); omega)]
  congr 2; apply Fin.ext; rw [sem8_val_gr]; show 121 + 32 * d.val + 4 * s.val + j.val + 2 = _; omega
omit [FloatOps F] in
theorem kcell_gl (c : Dev nD) (d : Fin 2) (s : Fin 7) (j : Fin 4) : kcell (c, glIdx d s j) = glCell c d s j := by
  have := d.isLt; have := s.isLt; have := j.isLt
  show ((c : Thread nD τ), csem (glIdx d s j)) = ((c : Thread nD τ), SemLoc.dma (sem7 cc0_scratch5 d s j))
  unfold csem glIdx; rw [if_neg (by show ¬ (185 + 28 * d.val + 4 * s.val + j.val = 0); omega)]
  congr 2; apply Fin.ext; rw [sem7_val_gl]; show 185 + 28 * d.val + 4 * s.val + j.val + 2 = _; omega

theorem inv_rl (c : Dev nD) (d : Fin 2) (s : Fin 8) (j : Fin 4) : records m ρ K ⊢ cellInv ER (ringRd m ρ) (K (c, rlIdx d s j)) (rlCell c d s j) := by
  have h := records_inv m ρ K (c, rlIdx d s j); rwa [kcell_rl] at h
theorem reached_rl (c : Dev nD) (d : Fin 2) (s : Fin 8) (j : Fin 4) : records m ρ K ⊢ reached ER (rlCell c d s j) 0 := by
  have h := records_reached m ρ K (c, rlIdx d s j); rwa [kcell_rl] at h
theorem inv_rr (c : Dev nD) (d : Fin 2) (s : Fin 7) (j : Fin 4) : records m ρ K ⊢ cellInv ER (ringRd m ρ) (K (c, rrIdx d s j)) (rrCell c d s j) := by
  have h := records_inv m ρ K (c, rrIdx d s j); rwa [kcell_rr] at h
theorem reached_rr (c : Dev nD) (d : Fin 2) (s : Fin 7) (j : Fin 4) : records m ρ K ⊢ reached ER (rrCell c d s j) 0 := by
  have h := records_reached m ρ K (c, rrIdx d s j); rwa [kcell_rr] at h

/-- Every strip's transfer carries the same credit. -/
theorem credit_lS (s : Fin 8) (j : Fin 4) : (lS s j : Memref sig .tc .vmem S16x1024 .f32).view.dmaCredit = N16 := rfl
theorem credit_rS (s : Fin 7) (j : Fin 4) : (rS s j : Memref sig .tc .vmem S16x1024 .f32).view.dmaCredit = N16 := rfl
theorem credit_oS (c : Dev nD) (a : ℕ) (j : Fin 4) : (oS c a j : Memref sig .tc .vmem S16x1024 .f32).view.dmaCredit = N16 := rfl

/-! ## A strip sent to a neighbour -/

/-- A strip `src` of device `c`, holding `X`, sent into the strip `dst` of device `c'`, which `c` holds at some contents:
the departure duty of `c`'s cell is paid with nothing, the arrival duty of `c'`'s cell with the landed strip and the
source strip, both at `X`. -/
theorem wp_send_strip (c c' : Dev nD) (src dst : Memref sig .tc .vmem S16x1024 .f32) (sS sem : DmaSem sig)
    (κ₁ κ₂ : ℕ) {O₀ : CellTallies nD τ sig Unit} (O : CellTallies nD τ sig Unit) (N : ℕ) (W : Waits sig Unit)
    (X : S16x1024.Idx → Elt F .f32)
    (hd₁ : false ∈ (ringRd m ρ).duties (((c : Thread nD τ), .dma sS) : GSem nD τ sig) 0)
    (hd₂ : false ∈ (ringRd m ρ).duties (((c' : Thread nD τ), .dma sem) : GSem nD τ sig) 0)
    (hN : dst.view.dmaCredit = N)
    (hk₁ : (ringRd m ρ).amount (((c : Thread nD τ), .dma sS) : GSem nD τ sig) 0 false = N)
    (hk₂ : (ringRd m ρ).amount (((c' : Thread nD τ), .dma sem) : GSem nD τ sig) 0 false = N)
    (hO : O₀ = O + tallyAt (((c' : Thread nD τ), .dma sem) : GSem nD τ sig) () N)
    (hpay₁ : (emp : sProp 𝕄) ⊢ (ringRd m ρ).payload (((c : Thread nD τ), .dma sS) : GSem nD τ sig) 0 false)
    (hpay₂ : iprop(owns (c' : Thread nD τ) dst fullShare X ∗ owns (c : Thread nD τ) src fullShare X)
      ⊢ (ringRd m ρ).payload (((c' : Thread nD τ), .dma sem) : GSem nD τ sig) 0 false)
    {hsc : (dst : Memref sig (Dev.tc c' : Thread nD τ).2.kind .vmem S16x1024 .f32).view.ref.isScScratch = false}
    {hsrc : src.view.WordExact} {hdst : dst.view.WordExact}
    {hsem : DmaTarget.Typed .vmem (.dma sem) (.remote (Dev.tc c' : Thread nD τ) dst (.dma sS) hsc)}
    {α : Type} {Q : α → sProp 𝕄} {k : PUnit → Prog (TpuEff nD τ sig (Elt F) Λ₀ .tc) α} :
    iprop(cellInv ER (ringRd m ρ) κ₁ (((c : Thread nD τ), .dma sS) : GSem nD τ sig)
        ∗ cellInv ER (ringRd m ρ) κ₂ (((c' : Thread nD τ), .dma sem) : GSem nD τ sig)
        ∗ owns (c : Thread nD τ) src fullShare X
        ∗ (∃ f, dst.view.loc (c' : Thread nD τ) ↦[dst.view.set]{fullShare} f)
        ∗ owes (c : Thread nD τ) O₀ W
        ∗ dutyTok ER (((c : Thread nD τ), .dma sS) : GSem nD τ sig) 0 false ∗ reached ER (((c : Thread nD τ), .dma sS) : GSem nD τ sig) 0
        ∗ dutyTok ER (((c' : Thread nD τ), .dma sem) : GSem nD τ sig) 0 false ∗ reached ER (((c' : Thread nD τ), .dma sem) : GSem nD τ sig) 0)
      ⊢ iprop(((cred (tallyAt (((c : Thread nD τ), .dma sS) : GSem nD τ sig) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sem) hsrc hdst hsem) k) Q) := by
  iintro ⟨HI₁, HI₂, Hsrc, ⟨%fd, Hdst⟩, HO, Ht₁, Hr₁, Ht₂, Hr₂⟩
  ihave Hsrc' := (show owns (c : Thread nD τ) src fullShare X
      ⊢ iprop(∃ f, ⌜src.view.read (Elt F) f = X⌝ ∗ (src.view.loc (c : Thread nD τ) ↦[src.view.set]{fullShare} f)) from .rfl) $$ Hsrc
  icases Hsrc' with ⟨%fs, %hfs, Hsrc⟩
  iapply (Rounds.wp_send_landing_pointsTo 𝒱₀ ER (ringRd m ρ) (c : Thread nD τ) none
      (c' := (c' : Thread nD τ)) (src := src) (dst := dst) (q := fullShare)
      (κ₁ := κ₁) (κ₂ := κ₂) (r₁ := 0) (r₂ := 0) (d₁ := false) (d₂ := false)
      hd₁ hd₂ () () N hN hk₁ hk₂ O hO (W := W) hpay₁
      (by
        have e1 : dst.view.read (Elt F) (dst.view.write (Elt F) fd (src.view.read (Elt F) fs) Finset.univ) = X := by
          rw [View.read_write_univ, hfs]
        refine BI.Entails.trans ?_ hpay₂
        exact BI.sep_mono ((owns_intro (c' : Thread nD τ) dst fullShare _).trans (Entails.of_eq (by rw [e1])))
          ((owns_intro (c : Thread nD τ) src fullShare fs).trans (Entails.of_eq (by rw [hfs])))))
    $$ [HI₁ HI₂ Hsrc Hdst HO Ht₁ Hr₁ Ht₂ Hr₂]
  isplitl [HI₁]; · iexact HI₁
  isplitl [HI₂]; · iexact HI₂
  isplitl [Hsrc]; · iexact Hsrc
  isplitl [Hdst]; · iexact Hdst
  isplitl [HO]; · iexact HO
  isplitl [Ht₁]; · iexact Ht₁
  isplitl [Hr₁]; · iexact Hr₁
  isplitl [Ht₂]; · iexact Ht₂
  iexact Hr₂

/-- Device `c` sends strip `j` of the chunk at distance `8 + s`, holding what it has summed so far, into slot `s` of its
left neighbour's buffer. Afterwards it no longer owes that arrival. Here the source strip is written by its row. -/
theorem wp_rl_send_canon (c : Dev nD) (s : Fin 8) (j : Fin 4) (n : Dev nD) (hn : n = lft c) (S : Finset Pay) (hS : Pay.rl s j ∈ S)
    (W : Waits sig Unit) {V : S16x1024.Idx → Elt F .f32} (hV : V = accL m ρ s.val c j)
    {hsc : (lS s j : Memref sig (Dev.tc n : Thread nD τ).2.kind .vmem S16x1024 .f32).view.ref.isScScratch = false}
    {hsrc : (oS c (8 + s.val) j : Memref sig .tc .vmem S16x1024 .f32).view.WordExact}
    {hdst : (lS s j : Memref sig .tc .vmem S16x1024 .f32).view.WordExact}
    {hsem : DmaTarget.Typed .vmem (.dma (sem8 cc0_scratch2 1 s j))
      (.remote (Dev.tc n : Thread nD τ) (lS s j : Memref sig .tc .vmem S16x1024 .f32) (.dma (sem8 cc0_scratch2 0 s j)) hsc)}
    {α : Type} {Q : α → sProp 𝕄} {k : PUnit → Prog (TpuEff nD τ sig (Elt F) Λ₀ .tc) α} :
    iprop(records m ρ K ∗ owns (c : Thread nD τ) (oS c (8 + s.val) j) fullShare V
        ∗ (∃ f, (lS s j : Memref sig .tc .vmem S16x1024 .f32).view.loc (lft c : Thread nD τ) ↦[(lS s j : Memref sig .tc .vmem S16x1024 .f32).view.set]{fullShare} f)
        ∗ owes (c : Thread nD τ) (owedOf c S) W
        ∗ dutyTok ER (rlCell c 0 s j) 0 false ∗ dutyTok ER (rlCell (lft c) 1 s j) 0 false)
      ⊢ iprop(((cred (tallyAt (rlCell c 0 s j) () N16) ∗ owes (c : Thread nD τ) (owedOf c (S.erase (.rl s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS c (8 + s.val) j) (.remote (Dev.tc n : Thread nD τ) (lS s j) (.dma (sem8 cc0_scratch2 0 s j)) hsc)
                (.dma (sem8 cc0_scratch2 1 s j)) hsrc hdst hsem) k) Q) := by
  subst hn; subst hV
  iintro ⟨#Hrec, Hsrc, Hdst, HO, Ht₁, Ht₂⟩
  iapply (wp_send_strip m ρ c (lft c) (oS c (8 + s.val) j) (lS s j) (sem8 cc0_scratch2 0 s j) (sem8 cc0_scratch2 1 s j)
      (K (c, rlIdx 0 s j)) (K (lft c, rlIdx 1 s j)) (owedOf c (S.erase (.rl s j))) N16 W (accL m ρ s.val c j)
      (by rw [duties_rl m ρ c 0 s j]; exact Finset.mem_singleton_self _)
      (by rw [duties_rl m ρ (lft c) 1 s j]; exact Finset.mem_singleton_self _)
      (credit_lS s j) (amount_rl m ρ c 0 s j false) (amount_rl m ρ (lft c) 1 s j false)
      (owedOf_erase c S (.rl s j) hS)
      (by rw [payload_rl_dep m ρ c s j])
      (by rw [payload_rl_arr m ρ (lft c) s j]; unfold rlArr; rw [rgt_lft]))
    $$ [Hsrc Hdst HO Ht₁ Ht₂]
  isplitr; · iapply (inv_rl m ρ K c 0 s j); iexact Hrec
  isplitr; · iapply (inv_rl m ρ K (lft c) 1 s j); iexact Hrec
  isplitl [Hsrc]; · iexact Hsrc
  isplitl [Hdst]; · iexact Hdst
  isplitl [HO]; · iexact HO
  isplitl [Ht₁]; · iexact Ht₁
  isplitr; · iapply (reached_rl m ρ K c 0 s j); iexact Hrec
  isplitl [Ht₂]; · iexact Ht₂
  iapply (reached_rl m ρ K (lft c) 1 s j); iexact Hrec

/-- The same with the source strip cut at any offset equal to the strip's: the form a use in the program has, where the
offset is computed from the device's id. -/
theorem wp_rl_send (c : Dev nD) (s : Fin 8) (j : Fin 4) (n : Dev nD) (hn : n = lft c)
    {off : Fin 2 → ℕ} (hoff : off = ![chunkRow c (8 + s.val) + 16 * j.val, 0])
    {hinb : ∀ a, off a + S16x1024.size a ≤ S1024x1024.size a}
    {hst : ∀ a, (Rect.unit (s := S1024x1024) off S16x1024.size hinb).stride a = 1}
    (S : Finset Pay) (hS : Pay.rl s j ∈ S)
    (W : Waits sig Unit) {V : S16x1024.Idx → Elt F .f32} (hV : V = accL m ρ s.val c j)
    {hsc : (lS s j : Memref sig (Dev.tc n : Thread nD τ).2.kind .vmem S16x1024 .f32).view.ref.isScScratch = false}
    {hsrc : ((oM).slice (Rect.unit (s := S1024x1024) off S16x1024.size hinb) hst : Memref sig .tc .vmem S16x1024 .f32).view.WordExact}
    {hdst : (lS s j : Memref sig .tc .vmem S16x1024 .f32).view.WordExact}
    {hsem : DmaTarget.Typed .vmem (.dma (sem8 cc0_scratch2 1 s j))
      (.remote (Dev.tc n : Thread nD τ) (lS s j : Memref sig .tc .vmem S16x1024 .f32) (.dma (sem8 cc0_scratch2 0 s j)) hsc)}
    {α : Type} {Q : α → sProp 𝕄} {k : PUnit → Prog (TpuEff nD τ sig (Elt F) Λ₀ .tc) α} :
    iprop(records m ρ K ∗ owns (c : Thread nD τ) (oS c (8 + s.val) j) fullShare V
        ∗ (∃ f, (lS s j : Memref sig .tc .vmem S16x1024 .f32).view.loc (lft c : Thread nD τ) ↦[(lS s j : Memref sig .tc .vmem S16x1024 .f32).view.set]{fullShare} f)
        ∗ owes (c : Thread nD τ) (owedOf c S) W
        ∗ dutyTok ER (rlCell c 0 s j) 0 false ∗ dutyTok ER (rlCell (lft c) 1 s j) 0 false)
      ⊢ iprop(((cred (tallyAt (rlCell c 0 s j) () N16) ∗ owes (c : Thread nD τ) (owedOf c (S.erase (.rl s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM).slice (Rect.unit (s := S1024x1024) off S16x1024.size hinb) hst : Memref sig .tc .vmem S16x1024 .f32)
                (.remote (Dev.tc n : Thread nD τ) (lS s j) (.dma (sem8 cc0_scratch2 0 s j)) hsc)
                (.dma (sem8 cc0_scratch2 1 s j)) hsrc hdst hsem) k) Q) := by
  subst hoff
  exact wp_rl_send_canon m ρ K c s j n hn S hS W hV

/-! ## A strip sent to the right neighbour -/

/-- Device `c` sends strip `j` of the chunk at distance `7 - s`, holding what it has summed so far, into slot `s` of its
right neighbour's buffer. Afterwards it no longer owes that arrival. Here the source strip is written by its row. -/
theorem wp_rr_send_canon (c : Dev nD) (s : Fin 7) (j : Fin 4) (n : Dev nD) (hn : n = rgt c) (S : Finset Pay) (hS : Pay.rr s j ∈ S)
    (W : Waits sig Unit) {V : S16x1024.Idx → Elt F .f32} (hV : V = accR m ρ s.val c j)
    {hsc : (rS s j : Memref sig (Dev.tc n : Thread nD τ).2.kind .vmem S16x1024 .f32).view.ref.isScScratch = false}
    {hsrc : (oS c (7 - s.val) j : Memref sig .tc .vmem S16x1024 .f32).view.WordExact}
    {hdst : (rS s j : Memref sig .tc .vmem S16x1024 .f32).view.WordExact}
    {hsem : DmaTarget.Typed .vmem (.dma (sem7 cc0_scratch3 1 s j))
      (.remote (Dev.tc n : Thread nD τ) (rS s j : Memref sig .tc .vmem S16x1024 .f32) (.dma (sem7 cc0_scratch3 0 s j)) hsc)}
    {α : Type} {Q : α → sProp 𝕄} {k : PUnit → Prog (TpuEff nD τ sig (Elt F) Λ₀ .tc) α} :
    iprop(records m ρ K ∗ owns (c : Thread nD τ) (oS c (7 - s.val) j) fullShare V
        ∗ (∃ f, (rS s j : Memref sig .tc .vmem S16x1024 .f32).view.loc (rgt c : Thread nD τ) ↦[(rS s j : Memref sig .tc .vmem S16x1024 .f32).view.set]{fullShare} f)
        ∗ owes (c : Thread nD τ) (owedOf c S) W
        ∗ dutyTok ER (rrCell c 0 s j) 0 false ∗ dutyTok ER (rrCell (rgt c) 1 s j) 0 false)
      ⊢ iprop(((cred (tallyAt (rrCell c 0 s j) () N16) ∗ owes (c : Thread nD τ) (owedOf c (S.erase (.rr s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS c (7 - s.val) j) (.remote (Dev.tc n : Thread nD τ) (rS s j) (.dma (sem7 cc0_scratch3 0 s j)) hsc)
                (.dma (sem7 cc0_scratch3 1 s j)) hsrc hdst hsem) k) Q) := by
  subst hn; subst hV
  iintro ⟨#Hrec, Hsrc, Hdst, HO, Ht₁, Ht₂⟩
  iapply (wp_send_strip m ρ c (rgt c) (oS c (7 - s.val) j) (rS s j) (sem7 cc0_scratch3 0 s j) (sem7 cc0_scratch3 1 s j)
      (K (c, rrIdx 0 s j)) (K (rgt c, rrIdx 1 s j)) (owedOf c (S.erase (.rr s j))) N16 W (accR m ρ s.val c j)
      (by rw [duties_rr m ρ c 0 s j]; exact Finset.mem_singleton_self _)
      (by rw [duties_rr m ρ (rgt c) 1 s j]; exact Finset.mem_singleton_self _)
      (credit_rS s j) (amount_rr m ρ c 0 s j false) (amount_rr m ρ (rgt c) 1 s j false)
      (owedOf_erase c S (.rr s j) hS)
      (by rw [payload_rr_dep m ρ c s j])
      (by rw [payload_rr_arr m ρ (rgt c) s j]; unfold rrArr; rw [lft_rgt]))
    $$ [Hsrc Hdst HO Ht₁ Ht₂]
  isplitr; · iapply (inv_rr m ρ K c 0 s j); iexact Hrec
  isplitr; · iapply (inv_rr m ρ K (rgt c) 1 s j); iexact Hrec
  isplitl [Hsrc]; · iexact Hsrc
  isplitl [Hdst]; · iexact Hdst
  isplitl [HO]; · iexact HO
  isplitl [Ht₁]; · iexact Ht₁
  isplitr; · iapply (reached_rr m ρ K c 0 s j); iexact Hrec
  isplitl [Ht₂]; · iexact Ht₂
  iapply (reached_rr m ρ K (rgt c) 1 s j); iexact Hrec

/-- The same with the source strip cut at any offset equal to the strip's. -/
theorem wp_rr_send (c : Dev nD) (s : Fin 7) (j : Fin 4) (n : Dev nD) (hn : n = rgt c)
    {off : Fin 2 → ℕ} (hoff : off = ![chunkRow c (7 - s.val) + 16 * j.val, 0])
    {hinb : ∀ a, off a + S16x1024.size a ≤ S1024x1024.size a}
    {hst : ∀ a, (Rect.unit (s := S1024x1024) off S16x1024.size hinb).stride a = 1}
    (S : Finset Pay) (hS : Pay.rr s j ∈ S)
    (W : Waits sig Unit) {V : S16x1024.Idx → Elt F .f32} (hV : V = accR m ρ s.val c j)
    {hsc : (rS s j : Memref sig (Dev.tc n : Thread nD τ).2.kind .vmem S16x1024 .f32).view.ref.isScScratch = false}
    {hsrc : ((oM).slice (Rect.unit (s := S1024x1024) off S16x1024.size hinb) hst : Memref sig .tc .vmem S16x1024 .f32).view.WordExact}
    {hdst : (rS s j : Memref sig .tc .vmem S16x1024 .f32).view.WordExact}
    {hsem : DmaTarget.Typed .vmem (.dma (sem7 cc0_scratch3 1 s j))
      (.remote (Dev.tc n : Thread nD τ) (rS s j : Memref sig .tc .vmem S16x1024 .f32) (.dma (sem7 cc0_scratch3 0 s j)) hsc)}
    {α : Type} {Q : α → sProp 𝕄} {k : PUnit → Prog (TpuEff nD τ sig (Elt F) Λ₀ .tc) α} :
    iprop(records m ρ K ∗ owns (c : Thread nD τ) (oS c (7 - s.val) j) fullShare V
        ∗ (∃ f, (rS s j : Memref sig .tc .vmem S16x1024 .f32).view.loc (rgt c : Thread nD τ) ↦[(rS s j : Memref sig .tc .vmem S16x1024 .f32).view.set]{fullShare} f)
        ∗ owes (c : Thread nD τ) (owedOf c S) W
        ∗ dutyTok ER (rrCell c 0 s j) 0 false ∗ dutyTok ER (rrCell (rgt c) 1 s j) 0 false)
      ⊢ iprop(((cred (tallyAt (rrCell c 0 s j) () N16) ∗ owes (c : Thread nD τ) (owedOf c (S.erase (.rr s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM).slice (Rect.unit (s := S1024x1024) off S16x1024.size hinb) hst : Memref sig .tc .vmem S16x1024 .f32)
                (.remote (Dev.tc n : Thread nD τ) (rS s j) (.dma (sem7 cc0_scratch3 0 s j)) hsc)
                (.dma (sem7 cc0_scratch3 1 s j)) hsrc hdst hsem) k) Q) := by
  subst hoff
  exact wp_rr_send_canon m ρ K c s j n hn S hS W hV

/-! ## Waiting on one of the device's own transfer cells

Every transfer cell has the one duty `false` in its one round, worth a strip's credit. The owner, holding that credit
in tokens and being at the round's start, waits for all of it and receives the duty's payload. -/

theorem duties_dma (c : Dev nD) (q : DmaSem sig) (hq : 3 ≤ q.val) :
    (ringRd (F := F) m ρ).duties (((c : Thread nD τ), .dma q) : GSem nD τ sig) 0 = {false} := by
  dsimp only [ringRd]; rw [if_pos ⟨rfl, rfl⟩]; exact if_pos hq
theorem expect_dma (c : Dev nD) (q : DmaSem sig) (hq : 3 ≤ q.val) :
    (ringRd (F := F) m ρ).expect (((c : Thread nD τ), .dma q) : GSem nD τ sig) 0 = N16 := by
  unfold Schedule.expect Schedule.amountOf; rw [duties_dma m ρ c q hq, Finset.sum_singleton]; rfl
theorem rest_dma (c : Dev nD) (q : DmaSem sig) (hq : 3 ≤ q.val) :
    bigSep ((ringRd (F := F) m ρ).duties (((c : Thread nD τ), .dma q) : GSem nD τ sig) 0 \ ∅)
        (fun d => (ringRd (F := F) m ρ).payload (((c : Thread nD τ), .dma q) : GSem nD τ sig) 0 d)
      = (ringRd (F := F) m ρ).payload (((c : Thread nD τ), .dma q) : GSem nD τ sig) 0 false := by
  rw [Finset.sdiff_empty, duties_dma m ρ c q hq, bigSep_singleton]

/-- The wait on the transfer cell of semaphore `q`, whose invariant has the name `κ`: any wait effect on `q` whose
destination carries a strip's credit. -/
theorem wp_wait_dma (c : Dev nD) (q : DmaSem sig) (hq : 3 ≤ q.val) (κ : ℕ) (O : CellTallies nD τ sig Unit) (W : Waits sig Unit)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(cellInv ER (ringRd m ρ) κ (((c : Thread nD τ), .dma q) : GSem nD τ sig)
        ∗ cred (tallyAt (((c : Thread nD τ), .dma q) : GSem nD τ sig) () N16) ∗ owes (c : Thread nD τ) O W
        ∗ MayWait (c : Thread nD τ) (.dma q) () O ∗ atPos ER (((c : Thread nD τ), .dma q) : GSem nD τ sig) 0 ∅ 0)
      ⊢ iprop(((owes (c : Thread nD τ) O (insert (SemLoc.dma q, ()) W) ∗ atPos ER (((c : Thread nD τ), .dma q) : GSem nD τ sig) 1 ∅ 0
              ∗ (ringRd m ρ).payload (((c : Thread nD τ), .dma q) : GSem nD τ sig) 0 false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  rw [← hamt]
  iintro ⟨HI, Hc, HO, Hm, Hat⟩ Hk
  iapply (Rounds.wp_wait_rest_token 𝒱₀ ER (ringRd m ρ) (c : Thread nD τ) none (κ := κ)
      (wpE_waitDma2_eq 𝒱₀ (c : Thread nD τ) none Set.univ) (Set.mem_univ _) () (O := O) (W := W) (R := 0) (m := 0) (T := ∅)
      (by rw [Nat.zero_add, hamt, expect_dma m ρ c q hq])) $$ [HI Hc HO Hm Hat]
  · isplitl [HI]; · iexact HI
    isplitl [Hc]; · iexact Hc
    isplitl [HO]; · iexact HO
    isplitl [Hm]; · iexact Hm
    iexact Hat
  iintro ⟨HO, Hat, -, Hpay⟩
  iapply Hk
  isplitl [HO]; · iexact HO
  isplitl [Hat]; · iexact Hat
  iapply (Entails.of_eq (rest_dma m ρ c q hq)); iexact Hpay

/-- The same from the records, the wait's level fact and a name `P` for the payload. -/
theorem wp_wait_named (c : Dev nD) (q : DmaSem sig) (hq : 3 ≤ q.val) (κ : ℕ) (O : CellTallies nD τ sig Unit) (W : Waits sig Unit)
    (P : sProp 𝕄) (hP : (ringRd m ρ).payload (((c : Thread nD τ), .dma q) : GSem nD τ sig) 0 false = P)
    (hinv : records m ρ K ⊢ cellInv ER (ringRd m ρ) κ (((c : Thread nD τ), .dma q) : GSem nD τ sig))
    (hmay : (levAts L lv : sProp 𝕄) ⊢ MayWait (c : Thread nD τ) (.dma q) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (((c : Thread nD τ), .dma q) : GSem nD τ sig) () N16) ∗ owes (c : Thread nD τ) O W
        ∗ levAts L lv ∗ atPos ER (((c : Thread nD τ), .dma q) : GSem nD τ sig) 0 ∅ 0)
      ⊢ iprop(((owes (c : Thread nD τ) O (insert (SemLoc.dma q, ()) W) ∗ atPos ER (((c : Thread nD τ), .dma q) : GSem nD τ sig) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hP
  iintro ⟨#Hrec, Hc, HO, #Hlev, Hat⟩
  iapply (wp_wait_dma m ρ c q hq κ O W hamt) $$ [Hc HO Hat]
  isplitr; · iapply hinv; iexact Hrec
  isplitl [Hc]; · iexact Hc
  isplitl [HO]; · iexact HO
  isplitr; · iapply hmay; iexact Hlev
  iexact Hat

theorem inv_gr (c : Dev nD) (d : Fin 2) (s : Fin 8) (j : Fin 4) : records m ρ K ⊢ cellInv ER (ringRd m ρ) (K (c, grIdx d s j)) (grCell c d s j) := by
  have h := records_inv m ρ K (c, grIdx d s j); rwa [kcell_gr] at h
theorem reached_gr (c : Dev nD) (d : Fin 2) (s : Fin 8) (j : Fin 4) : records m ρ K ⊢ reached ER (grCell c d s j) 0 := by
  have h := records_reached m ρ K (c, grIdx d s j); rwa [kcell_gr] at h
theorem inv_gl (c : Dev nD) (d : Fin 2) (s : Fin 7) (j : Fin 4) : records m ρ K ⊢ cellInv ER (ringRd m ρ) (K (c, glIdx d s j)) (glCell c d s j) := by
  have h := records_inv m ρ K (c, glIdx d s j); rwa [kcell_gl] at h
theorem reached_gl (c : Dev nD) (d : Fin 2) (s : Fin 7) (j : Fin 4) : records m ρ K ⊢ reached ER (glCell c d s j) 0 := by
  have h := records_reached m ρ K (c, glIdx d s j); rwa [kcell_gl] at h

/-! ### The eight kinds of transfer cell: departure (`d = 0`) and arrival (`d = 1`) of each family, with the payload by name -/

theorem wp_wait_rl_dep (c : Dev nD) (s : Fin 8) (j : Fin 4) (O : CellTallies nD τ sig Unit) (W : Waits sig Unit)
    (hmay : (levAts L lv : sProp 𝕄) ⊢ MayWait (c : Thread nD τ) (.dma (sem8 cc0_scratch2 0 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (rlCell c 0 s j) () N16) ∗ owes (c : Thread nD τ) O W
        ∗ levAts L lv ∗ atPos ER (rlCell c 0 s j) 0 ∅ 0)
      ⊢ iprop(((owes (c : Thread nD τ) O (insert (SemLoc.dma (sem8 cc0_scratch2 0 s j), ()) W) ∗ atPos ER (rlCell c 0 s j) 1 ∅ 0 ∗ iprop(emp))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch2 0 s j) src dst hs hd) k) Q) :=
  wp_wait_named m ρ K c (sem8 cc0_scratch2 0 s j) (by rw [sem8_val_rl]; omega) (K (c, rlIdx 0 s j)) O W _ (payload_rl_dep m ρ c s j) (inv_rl m ρ K c 0 s j) hmay hamt
theorem wp_wait_rl_arr (c : Dev nD) (s : Fin 8) (j : Fin 4) (O : CellTallies nD τ sig Unit) (W : Waits sig Unit)
    (hmay : (levAts L lv : sProp 𝕄) ⊢ MayWait (c : Thread nD τ) (.dma (sem8 cc0_scratch2 1 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (rlCell c 1 s j) () N16) ∗ owes (c : Thread nD τ) O W
        ∗ levAts L lv ∗ atPos ER (rlCell c 1 s j) 0 ∅ 0)
      ⊢ iprop(((owes (c : Thread nD τ) O (insert (SemLoc.dma (sem8 cc0_scratch2 1 s j), ()) W) ∗ atPos ER (rlCell c 1 s j) 1 ∅ 0 ∗ rlArr m ρ c s j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch2 1 s j) src dst hs hd) k) Q) :=
  wp_wait_named m ρ K c (sem8 cc0_scratch2 1 s j) (by rw [sem8_val_rl]; omega) (K (c, rlIdx 1 s j)) O W _ (payload_rl_arr m ρ c s j) (inv_rl m ρ K c 1 s j) hmay hamt
theorem wp_wait_rr_dep (c : Dev nD) (s : Fin 7) (j : Fin 4) (O : CellTallies nD τ sig Unit) (W : Waits sig Unit)
    (hmay : (levAts L lv : sProp 𝕄) ⊢ MayWait (c : Thread nD τ) (.dma (sem7 cc0_scratch3 0 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (rrCell c 0 s j) () N16) ∗ owes (c : Thread nD τ) O W
        ∗ levAts L lv ∗ atPos ER (rrCell c 0 s j) 0 ∅ 0)
      ⊢ iprop(((owes (c : Thread nD τ) O (insert (SemLoc.dma (sem7 cc0_scratch3 0 s j), ()) W) ∗ atPos ER (rrCell c 0 s j) 1 ∅ 0 ∗ iprop(emp))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch3 0 s j) src dst hs hd) k) Q) :=
  wp_wait_named m ρ K c (sem7 cc0_scratch3 0 s j) (by rw [sem7_val_rr]; omega) (K (c, rrIdx 0 s j)) O W _ (payload_rr_dep m ρ c s j) (inv_rr m ρ K c 0 s j) hmay hamt
theorem wp_wait_rr_arr (c : Dev nD) (s : Fin 7) (j : Fin 4) (O : CellTallies nD τ sig Unit) (W : Waits sig Unit)
    (hmay : (levAts L lv : sProp 𝕄) ⊢ MayWait (c : Thread nD τ) (.dma (sem7 cc0_scratch3 1 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (rrCell c 1 s j) () N16) ∗ owes (c : Thread nD τ) O W
        ∗ levAts L lv ∗ atPos ER (rrCell c 1 s j) 0 ∅ 0)
      ⊢ iprop(((owes (c : Thread nD τ) O (insert (SemLoc.dma (sem7 cc0_scratch3 1 s j), ()) W) ∗ atPos ER (rrCell c 1 s j) 1 ∅ 0 ∗ rrArr m ρ c s j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch3 1 s j) src dst hs hd) k) Q) :=
  wp_wait_named m ρ K c (sem7 cc0_scratch3 1 s j) (by rw [sem7_val_rr]; omega) (K (c, rrIdx 1 s j)) O W _ (payload_rr_arr m ρ c s j) (inv_rr m ρ K c 1 s j) hmay hamt
theorem wp_wait_gr_dep (c : Dev nD) (s : Fin 8) (j : Fin 4) (O : CellTallies nD τ sig Unit) (W : Waits sig Unit)
    (hmay : (levAts L lv : sProp 𝕄) ⊢ MayWait (c : Thread nD τ) (.dma (sem8 cc0_scratch4 0 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (grCell c 0 s j) () N16) ∗ owes (c : Thread nD τ) O W
        ∗ levAts L lv ∗ atPos ER (grCell c 0 s j) 0 ∅ 0)
      ⊢ iprop(((owes (c : Thread nD τ) O (insert (SemLoc.dma (sem8 cc0_scratch4 0 s j), ()) W) ∗ atPos ER (grCell c 0 s j) 1 ∅ 0 ∗ grDep m ρ c s j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch4 0 s j) src dst hs hd) k) Q) :=
  wp_wait_named m ρ K c (sem8 cc0_scratch4 0 s j) (by rw [sem8_val_gr]; omega) (K (c, grIdx 0 s j)) O W _ (payload_gr_dep m ρ c s j) (inv_gr m ρ K c 0 s j) hmay hamt
theorem wp_wait_gr_arr (c : Dev nD) (s : Fin 8) (j : Fin 4) (O : CellTallies nD τ sig Unit) (W : Waits sig Unit)
    (hmay : (levAts L lv : sProp 𝕄) ⊢ MayWait (c : Thread nD τ) (.dma (sem8 cc0_scratch4 1 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (grCell c 1 s j) () N16) ∗ owes (c : Thread nD τ) O W
        ∗ levAts L lv ∗ atPos ER (grCell c 1 s j) 0 ∅ 0)
      ⊢ iprop(((owes (c : Thread nD τ) O (insert (SemLoc.dma (sem8 cc0_scratch4 1 s j), ()) W) ∗ atPos ER (grCell c 1 s j) 1 ∅ 0 ∗ grArr m ρ c s j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch4 1 s j) src dst hs hd) k) Q) :=
  wp_wait_named m ρ K c (sem8 cc0_scratch4 1 s j) (by rw [sem8_val_gr]; omega) (K (c, grIdx 1 s j)) O W _ (payload_gr_arr m ρ c s j) (inv_gr m ρ K c 1 s j) hmay hamt
theorem wp_wait_gl_dep (c : Dev nD) (s : Fin 7) (j : Fin 4) (O : CellTallies nD τ sig Unit) (W : Waits sig Unit)
    (hmay : (levAts L lv : sProp 𝕄) ⊢ MayWait (c : Thread nD τ) (.dma (sem7 cc0_scratch5 0 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (glCell c 0 s j) () N16) ∗ owes (c : Thread nD τ) O W
        ∗ levAts L lv ∗ atPos ER (glCell c 0 s j) 0 ∅ 0)
      ⊢ iprop(((owes (c : Thread nD τ) O (insert (SemLoc.dma (sem7 cc0_scratch5 0 s j), ()) W) ∗ atPos ER (glCell c 0 s j) 1 ∅ 0 ∗ glDep m ρ c s j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch5 0 s j) src dst hs hd) k) Q) :=
  wp_wait_named m ρ K c (sem7 cc0_scratch5 0 s j) (by rw [sem7_val_gl]; omega) (K (c, glIdx 0 s j)) O W _ (payload_gl_dep m ρ c s j) (inv_gl m ρ K c 0 s j) hmay hamt
theorem wp_wait_gl_arr (c : Dev nD) (s : Fin 7) (j : Fin 4) (O : CellTallies nD τ sig Unit) (W : Waits sig Unit)
    (hmay : (levAts L lv : sProp 𝕄) ⊢ MayWait (c : Thread nD τ) (.dma (sem7 cc0_scratch5 1 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (glCell c 1 s j) () N16) ∗ owes (c : Thread nD τ) O W
        ∗ levAts L lv ∗ atPos ER (glCell c 1 s j) 0 ∅ 0)
      ⊢ iprop(((owes (c : Thread nD τ) O (insert (SemLoc.dma (sem7 cc0_scratch5 1 s j), ()) W) ∗ atPos ER (glCell c 1 s j) 1 ∅ 0 ∗ glArr m ρ c s j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch5 1 s j) src dst hs hd) k) Q) :=
  wp_wait_named m ρ K c (sem7 cc0_scratch5 1 s j) (by rw [sem7_val_gl]; omega) (K (c, glIdx 1 s j)) O W _ (payload_gl_arr m ρ c s j) (inv_gl m ρ K c 1 s j) hmay hamt

/-! ## Closing a cell after its wait

Past its one round a cell has no duty left; its owner, back at the start of round 1 with nothing taken, closes it and
holds its counter at zero. -/

theorem close_cell (c : Dev nD) (k : Fin 241) :
    iprop(records m ρ K ∗ atPos ER (kcell (c, k)) 1 ∅ 0) ⊢ iprop(|={Set.univ}=> semVal (kcell (c, k)) 0) := by
  iintro ⟨#Hrec, Hat⟩
  iapply (Rounds.cell_close ER (ringRd m ρ) (Set.mem_univ (K (c, k))) (fun h => h) (R := 0 + 1) (duties_later m ρ (kcell (c, k)))) $$ [Hat]
  isplitr; · iapply (records_inv m ρ K (c, k)); iexact Hrec
  iexact Hat
theorem close_rl (c : Dev nD) (d : Fin 2) (s : Fin 8) (j : Fin 4) :
    iprop(records m ρ K ∗ atPos ER (rlCell c d s j) 1 ∅ 0) ⊢ iprop(|={Set.univ}=> semVal (rlCell c d s j) 0) := by
  have h := close_cell m ρ K c (rlIdx d s j); rwa [kcell_rl] at h
theorem close_rr (c : Dev nD) (d : Fin 2) (s : Fin 7) (j : Fin 4) :
    iprop(records m ρ K ∗ atPos ER (rrCell c d s j) 1 ∅ 0) ⊢ iprop(|={Set.univ}=> semVal (rrCell c d s j) 0) := by
  have h := close_cell m ρ K c (rrIdx d s j); rwa [kcell_rr] at h
theorem close_gr (c : Dev nD) (d : Fin 2) (s : Fin 8) (j : Fin 4) :
    iprop(records m ρ K ∗ atPos ER (grCell c d s j) 1 ∅ 0) ⊢ iprop(|={Set.univ}=> semVal (grCell c d s j) 0) := by
  have h := close_cell m ρ K c (grIdx d s j); rwa [kcell_gr] at h
theorem close_gl (c : Dev nD) (d : Fin 2) (s : Fin 7) (j : Fin 4) :
    iprop(records m ρ K ∗ atPos ER (glCell c d s j) 1 ∅ 0) ⊢ iprop(|={Set.univ}=> semVal (glCell c d s j) 0) := by
  have h := close_cell m ρ K c (glIdx d s j); rwa [kcell_gl] at h

/-! ## The level facts of a wait

A device may wait on a cell while it still owes the payments in `S` if the cell sits strictly below the cell of every
payment in `S`. Levels depend only on the semaphore, not on the device, so the condition is a comparison of numbers. -/

omit [FloatOps F] in
theorem owedOf_pos {c : Dev nD} {S : Finset Pay} {g : GSem nD τ sig} {u : Unit} (h : 0 < owedOf c S g u) : ∃ p ∈ S, g = p.cell c := by
  unfold owedOf at h
  obtain ⟨p, hp, hpos⟩ := Pipeline.sum_pos_exists h
  rw [tallyAt_apply] at hpos
  by_cases hg : g = p.cell c ∧ u = ()
  · exact ⟨p, hp, hg.1⟩
  · rw [if_neg hg] at hpos; exact absurd hpos (Nat.lt_irrefl 0)

omit [FloatOps F] in
theorem L_cell (c : Dev nD) (p : Pay) : L (p.cell c) = {()} := by cases p <;> exact if_pos rfl

omit [FloatOps F] in
/-- The level fact of a wait on `X`'s semaphore by device `c` owing the payments in `S`. -/
theorem mayWait_of (c : Dev nD) (X : GSem nD τ sig) (S : Finset Pay) (h : ∀ p ∈ S, lv X () < lv (p.cell c) ()) :
    (levAts L lv : sProp 𝕄) ⊢ MayWait (c : Thread nD τ) X.2 () (owedOf c S) :=
  MayOwe.of_levAts (L := L) (lev := lv)
    (fun p hp => by rw [Finset.mem_singleton.mp hp, L_tc]; exact Finset.mem_singleton_self _)
    (fun g u hg => by obtain ⟨p, _, rfl⟩ := owedOf_pos hg; rw [L_cell]; exact Finset.mem_singleton_self _)
    (fun g u hg p hp => by
      obtain ⟨p', hp', rfl⟩ := owedOf_pos hg
      rw [Finset.mem_singleton.mp hp]; exact h p' hp')

/-- The level of the cell a payment credits, as a number. -/
def Pay.lvl : Pay → ℕ
  | .barL => 1 | .barR => 1
  | .rl s j => lvN (35 + 4 * s.val + j.val) | .rr s j => lvN (95 + 4 * s.val + j.val)
  | .gr s j => lvN (155 + 4 * s.val + j.val) | .gl s j => lvN (215 + 4 * s.val + j.val)

omit [FloatOps F] in
theorem lv_cell (c : Dev nD) (p : Pay) : lv (p.cell c) () = p.lvl := by
  cases p with
  | barL => rfl
  | barR => rfl
  | rl s j => show lvN (sem8 cc0_scratch2 1 s j).val = _; rw [sem8_val_rl]; rfl
  | rr s j => show lvN (sem7 cc0_scratch3 1 s j).val = _; rw [sem7_val_rr]; rfl
  | gr s j => show lvN (sem8 cc0_scratch4 1 s j).val = _; rw [sem8_val_gr]; rfl
  | gl s j => show lvN (sem7 cc0_scratch5 1 s j).val = _; rw [sem7_val_gl]; rfl

omit [FloatOps F] in
/-- The levels of a device's own cells, as numbers. -/
theorem lv_bar (c : Dev nD) : lv (barCell c) () = 1 := rfl
omit [FloatOps F] in
theorem lv_rl (c : Dev nD) (d : Fin 2) (s : Fin 8) (j : Fin 4) : lv (rlCell c d s j) () = lvN (3 + 32 * d.val + 4 * s.val + j.val) := by
  show lvN (sem8 cc0_scratch2 d s j).val = _; rw [sem8_val_rl]
omit [FloatOps F] in
theorem lv_rr (c : Dev nD) (d : Fin 2) (s : Fin 7) (j : Fin 4) : lv (rrCell c d s j) () = lvN (67 + 28 * d.val + 4 * s.val + j.val) := by
  show lvN (sem7 cc0_scratch3 d s j).val = _; rw [sem7_val_rr]
omit [FloatOps F] in
theorem lv_gr (c : Dev nD) (d : Fin 2) (s : Fin 8) (j : Fin 4) : lv (grCell c d s j) () = lvN (123 + 32 * d.val + 4 * s.val + j.val) := by
  show lvN (sem8 cc0_scratch4 d s j).val = _; rw [sem8_val_gr]
omit [FloatOps F] in
theorem lv_gl (c : Dev nD) (d : Fin 2) (s : Fin 7) (j : Fin 4) : lv (glCell c d s j) () = lvN (187 + 28 * d.val + 4 * s.val + j.val) := by
  show lvN (sem7 cc0_scratch5 d s j).val = _; rw [sem7_val_gl]

omit [FloatOps F] in
/-- The numeric form: the waited cell's level is `n`, and `n` is below the level of every payment still owed. -/
theorem mayWait_num (c : Dev nD) (X : GSem nD τ sig) (n : ℕ) (hX : lv X () = n) (S : Finset Pay) (h : ∀ p ∈ S, n < p.lvl) :
    (levAts L lv : sProp 𝕄) ⊢ MayWait (c : Thread nD τ) X.2 () (owedOf c S) :=
  mayWait_of c X S fun p hp => by rw [hX, lv_cell]; exact h p hp

omit [FloatOps F] in
/-- A statement about every payment is one about the two barrier signals and the four families. -/
theorem forall_pay (Pr : Pay → Prop) :
    (∀ p, Pr p) ↔ Pr .barL ∧ Pr .barR ∧ (∀ s j, Pr (.rl s j)) ∧ (∀ s j, Pr (.rr s j)) ∧ (∀ s j, Pr (.gr s j)) ∧ (∀ s j, Pr (.gl s j)) :=
  ⟨fun h => ⟨h _, h _, fun _ _ => h _, fun _ _ => h _, fun _ _ => h _, fun _ _ => h _⟩,
   fun h p => by
    cases p with
    | barL => exact h.1
    | barR => exact h.2.1
    | rl s j => exact h.2.2.1 s j
    | rr s j => exact h.2.2.2.1 s j
    | gr s j => exact h.2.2.2.2.1 s j
    | gl s j => exact h.2.2.2.2.2 s j⟩

end Cert.KernelIdeal.Hand

end
-- ==== Proof.Kit.lean ====
/-
  Small entailments the body's proof uses between its steps: one item taken out of, or put back into, a big separating
  conjunction; a device's own position on one of its cells, by the cell's name; the two buffers the barrier's round hands over; the partial product as what the matrix
  product's store leaves in the output buffer; and the body's obligation in the form the launch asks for.
-/
import proofs.«900799_g7700000000000800_dist_gemm_ar_m1024_k1024_n1024_f32_gelu_v7x_i16_1_alg».proof.Proof.Iface
import proofs.«900799_g7700000000000800_dist_gemm_ar_m1024_k1024_n1024_f32_gelu_v7x_i16_1_alg».proof.Proof.Sched
import proofs.«900799_g7700000000000800_dist_gemm_ar_m1024_k1024_n1024_f32_gelu_v7x_i16_1_alg».proof.Proof.FamReduce

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One item out of a big conjunction, and back -/

section Generic
variable {I : Type} [DecidableEq I]

/-- A big conjunction over a set is one of its items and the conjunction over the rest. -/
theorem take (S : Finset I) (i : I) (h : i ∈ S) (Φ : I → sProp 𝕄) :
    bigSep S Φ ⊢ iprop(Φ i ∗ bigSep (S.erase i) Φ) :=
  Entails.of_eq (bigSep_erase h)

/-- An item and a big conjunction over a set that lacks it are the conjunction over the set with it. -/
theorem put (S : Finset I) (i : I) (hi : i ∉ S) (Φ : I → sProp 𝕄) :
    iprop(Φ i ∗ bigSep S Φ) ⊢ bigSep (insert i S) Φ :=
  Entails.of_eq (bigSep_insert hi).symm

end Generic

/-- The owner's position on one of its cells, by the cell's number. -/
theorem pos_take (c : Dev nD) (S : Finset (Fin 241)) (k : Fin 241) (hk : k ∈ S) :
    (bigSep S fun k => (atPos ER (kcell (c, k)) 0 ∅ 0 : sProp 𝕄))
      ⊢ iprop(atPos ER (kcell (c, k)) 0 ∅ 0 ∗ bigSep (S.erase k) fun k => (atPos ER (kcell (c, k)) 0 ∅ 0 : sProp 𝕄)) :=
  Entails.of_eq (bigSep_erase hk)

/-! ### The tokens of the duties a device pays, one transfer at a time -/

theorem tok_rl_take (c : Dev nD) (S : Finset (Fin 8 × Fin 4)) (sj : Fin 8 × Fin 4) (h : sj ∈ S) :
    (bigSep S fun sj : Fin 8 × Fin 4 => (iprop(dutyTok ER (rlCell c 0 sj.1 sj.2) 0 false ∗ dutyTok ER (rlCell (lft c) 1 sj.1 sj.2) 0 false) : sProp 𝕄))
      ⊢ iprop((dutyTok ER (rlCell c 0 sj.1 sj.2) 0 false ∗ dutyTok ER (rlCell (lft c) 1 sj.1 sj.2) 0 false)
          ∗ bigSep (S.erase sj) fun sj : Fin 8 × Fin 4 => (iprop(dutyTok ER (rlCell c 0 sj.1 sj.2) 0 false ∗ dutyTok ER (rlCell (lft c) 1 sj.1 sj.2) 0 false) : sProp 𝕄)) :=
  Entails.of_eq (bigSep_erase h)

theorem tok_rr_take (c : Dev nD) (S : Finset (Fin 7 × Fin 4)) (sj : Fin 7 × Fin 4) (h : sj ∈ S) :
    (bigSep S fun sj : Fin 7 × Fin 4 => (iprop(dutyTok ER (rrCell c 0 sj.1 sj.2) 0 false ∗ dutyTok ER (rrCell (rgt c) 1 sj.1 sj.2) 0 false) : sProp 𝕄))
      ⊢ iprop((dutyTok ER (rrCell c 0 sj.1 sj.2) 0 false ∗ dutyTok ER (rrCell (rgt c) 1 sj.1 sj.2) 0 false)
          ∗ bigSep (S.erase sj) fun sj : Fin 7 × Fin 4 => (iprop(dutyTok ER (rrCell c 0 sj.1 sj.2) 0 false ∗ dutyTok ER (rrCell (rgt c) 1 sj.1 sj.2) 0 false) : sProp 𝕄)) :=
  Entails.of_eq (bigSep_erase h)

theorem tok_gr_take (c : Dev nD) (S : Finset (Fin 8 × Fin 4)) (sj : Fin 8 × Fin 4) (h : sj ∈ S) :
    (bigSep S fun sj : Fin 8 × Fin 4 => (iprop(dutyTok ER (grCell c 0 sj.1 sj.2) 0 false ∗ dutyTok ER (grCell (rgt c) 1 sj.1 sj.2) 0 false) : sProp 𝕄))
      ⊢ iprop((dutyTok ER (grCell c 0 sj.1 sj.2) 0 false ∗ dutyTok ER (grCell (rgt c) 1 sj.1 sj.2) 0 false)
          ∗ bigSep (S.erase sj) fun sj : Fin 8 × Fin 4 => (iprop(dutyTok ER (grCell c 0 sj.1 sj.2) 0 false ∗ dutyTok ER (grCell (rgt c) 1 sj.1 sj.2) 0 false) : sProp 𝕄)) :=
  Entails.of_eq (bigSep_erase h)

theorem tok_gl_take (c : Dev nD) (S : Finset (Fin 7 × Fin 4)) (sj : Fin 7 × Fin 4) (h : sj ∈ S) :
    (bigSep S fun sj : Fin 7 × Fin 4 => (iprop(dutyTok ER (glCell c 0 sj.1 sj.2) 0 false ∗ dutyTok ER (glCell (lft c) 1 sj.1 sj.2) 0 false) : sProp 𝕄))
      ⊢ iprop((dutyTok ER (glCell c 0 sj.1 sj.2) 0 false ∗ dutyTok ER (glCell (lft c) 1 sj.1 sj.2) 0 false)
          ∗ bigSep (S.erase sj) fun sj : Fin 7 × Fin 4 => (iprop(dutyTok ER (glCell c 0 sj.1 sj.2) 0 false ∗ dutyTok ER (glCell (lft c) 1 sj.1 sj.2) 0 false) : sProp 𝕄)) :=
  Entails.of_eq (bigSep_erase h)

/-! ### The credit of what the neighbours owe a device, one arrival at a time -/

theorem cred_rl_take (c : Dev nD) (S : Finset (Fin 8 × Fin 4)) (sj : Fin 8 × Fin 4) (h : sj ∈ S) :
    (bigSep S fun sj : Fin 8 × Fin 4 => (cred (tallyAt (rlCell c 1 sj.1 sj.2) () N16) : sProp 𝕄))
      ⊢ iprop(cred (tallyAt (rlCell c 1 sj.1 sj.2) () N16)
          ∗ bigSep (S.erase sj) fun sj : Fin 8 × Fin 4 => (cred (tallyAt (rlCell c 1 sj.1 sj.2) () N16) : sProp 𝕄)) :=
  Entails.of_eq (bigSep_erase h)

theorem cred_rr_take (c : Dev nD) (S : Finset (Fin 7 × Fin 4)) (sj : Fin 7 × Fin 4) (h : sj ∈ S) :
    (bigSep S fun sj : Fin 7 × Fin 4 => (cred (tallyAt (rrCell c 1 sj.1 sj.2) () N16) : sProp 𝕄))
      ⊢ iprop(cred (tallyAt (rrCell c 1 sj.1 sj.2) () N16)
          ∗ bigSep (S.erase sj) fun sj : Fin 7 × Fin 4 => (cred (tallyAt (rrCell c 1 sj.1 sj.2) () N16) : sProp 𝕄)) :=
  Entails.of_eq (bigSep_erase h)

theorem cred_gr_take (c : Dev nD) (S : Finset (Fin 8 × Fin 4)) (sj : Fin 8 × Fin 4) (h : sj ∈ S) :
    (bigSep S fun sj : Fin 8 × Fin 4 => (cred (tallyAt (grCell c 1 sj.1 sj.2) () N16) : sProp 𝕄))
      ⊢ iprop(cred (tallyAt (grCell c 1 sj.1 sj.2) () N16)
          ∗ bigSep (S.erase sj) fun sj : Fin 8 × Fin 4 => (cred (tallyAt (grCell c 1 sj.1 sj.2) () N16) : sProp 𝕄)) :=
  Entails.of_eq (bigSep_erase h)

theorem cred_gl_take (c : Dev nD) (S : Finset (Fin 7 × Fin 4)) (sj : Fin 7 × Fin 4) (h : sj ∈ S) :
    (bigSep S fun sj : Fin 7 × Fin 4 => (cred (tallyAt (glCell c 1 sj.1 sj.2) () N16) : sProp 𝕄))
      ⊢ iprop(cred (tallyAt (glCell c 1 sj.1 sj.2) () N16)
          ∗ bigSep (S.erase sj) fun sj : Fin 7 × Fin 4 => (cred (tallyAt (glCell c 1 sj.1 sj.2) () N16) : sProp 𝕄)) :=
  Entails.of_eq (bigSep_erase h)

/-! ## The barrier's round hands over the two neighbours' receive buffers -/

/-- The two payloads of the barrier cell's round. -/
theorem bar_payloads (c : Dev nD) :
    bigSep Finset.univ (fun d : Bool => (ringRd (F := F) m ρ).payload (barCell c) 0 d) = iprop(barF c ∗ barT c) := by
  rw [bigSep_univ_eq_bigSepL [false, true] (by decide) (by decide), bigSepL_cons_cons, bigSepL_singleton, payload_bar_false, payload_bar_true]
  rfl

/-- Opened: the buffer of the neighbour before for the chunks travelling left, and of the neighbour after for those
    travelling right, each whole and at some contents. -/
theorem bar_open (c : Dev nD) :
    bigSep Finset.univ (fun d : Bool => (ringRd (F := F) m ρ).payload (barCell c) 0 d)
      ⊢ iprop((∃ f, (Memref.whole cc0_scratch0 : Memref sig .tc .vmem S8x64x1024 .f32).view.loc (lft c : Thread nD τ) ↦{fullShare} f)
          ∗ (∃ f, (Memref.whole cc0_scratch1 : Memref sig .tc .vmem S7x64x1024 .f32).view.loc (rgt c : Thread nD τ) ↦{fullShare} f)) :=
  Entails.of_eq ((bar_payloads m ρ c).trans rfl)

/-! ## A device's own position on a cell, by the cell's name -/

theorem pos_take_rl (c : Dev nD) (S : Finset (Fin 241)) (d : Fin 2) (s : Fin 8) (j : Fin 4) (h : rlIdx d s j ∈ S) :
    (bigSep S fun k => (atPos ER (kcell (c, k)) 0 ∅ 0 : sProp 𝕄))
      ⊢ iprop(atPos ER (rlCell c d s j) 0 ∅ 0 ∗ bigSep (S.erase (rlIdx d s j)) fun k => (atPos ER (kcell (c, k)) 0 ∅ 0 : sProp 𝕄)) := by
  have h' := pos_take (F := F) c S (rlIdx d s j) h
  rwa [kcell_rl] at h'
theorem pos_take_rr (c : Dev nD) (S : Finset (Fin 241)) (d : Fin 2) (s : Fin 7) (j : Fin 4) (h : rrIdx d s j ∈ S) :
    (bigSep S fun k => (atPos ER (kcell (c, k)) 0 ∅ 0 : sProp 𝕄))
      ⊢ iprop(atPos ER (rrCell c d s j) 0 ∅ 0 ∗ bigSep (S.erase (rrIdx d s j)) fun k => (atPos ER (kcell (c, k)) 0 ∅ 0 : sProp 𝕄)) := by
  have h' := pos_take (F := F) c S (rrIdx d s j) h
  rwa [kcell_rr] at h'
theorem pos_take_gr (c : Dev nD) (S : Finset (Fin 241)) (d : Fin 2) (s : Fin 8) (j : Fin 4) (h : grIdx d s j ∈ S) :
    (bigSep S fun k => (atPos ER (kcell (c, k)) 0 ∅ 0 : sProp 𝕄))
      ⊢ iprop(atPos ER (grCell c d s j) 0 ∅ 0 ∗ bigSep (S.erase (grIdx d s j)) fun k => (atPos ER (kcell (c, k)) 0 ∅ 0 : sProp 𝕄)) := by
  have h' := pos_take (F := F) c S (grIdx d s j) h
  rwa [kcell_gr] at h'
theorem pos_take_gl (c : Dev nD) (S : Finset (Fin 241)) (d : Fin 2) (s : Fin 7) (j : Fin 4) (h : glIdx d s j ∈ S) :
    (bigSep S fun k => (atPos ER (kcell (c, k)) 0 ∅ 0 : sProp 𝕄))
      ⊢ iprop(atPos ER (glCell c d s j) 0 ∅ 0 ∗ bigSep (S.erase (glIdx d s j)) fun k => (atPos ER (kcell (c, k)) 0 ∅ 0 : sProp 𝕄)) := by
  have h' := pos_take (F := F) c S (glIdx d s j) h
  rwa [kcell_gl] at h'

/-! ## The partial product as what the matrix product's store leaves -/

theorem zeroOffsets2 : (![0, 0] : Fin 2 → ℕ) = fun _ => 0 := by funext a; fin_cases a <;> rfl

/-- What the store of the matrix product leaves in the output buffer, over whatever it held, is the device's partial
    product: the two loads read the staged blocks whole and the store writes the whole buffer. -/
theorem part_of_writes (c : Dev nD) (fo : Buf (Elt F) ((c : Thread nD τ).loc cc0_stg2_0)) :
    (Memref.whole cc0_stg2_0 : Memref sig .tc .vmem S1024x1024 .f32).view.writes (Elt F) fo
      [⟨Rect.unit ![0, 0] S1024x1024.size Facts₀.inb_S1024x1024_S1024x1024_0_0,
        k0_pay1 (View.readAt (Elt F) (Memref.whole cc0_stg0_0 : Memref sig .tc .vmem S1024x64 .f32).view (Rect.unit ![0, 0] S1024x64.size Facts₀.inb_S1024x64_S1024x64_0_0).toLoadRect (xstg m ρ c))
          (View.readAt (Elt F) (Memref.whole cc0_stg1_0 : Memref sig .tc .vmem S64x1024 .f32).view (Rect.unit ![0, 0] S64x1024.size Facts₀.inb_S64x1024_S64x1024_0_0).toLoadRect (wstg m ρ c))⟩]
      = part m ρ c := by
  have hx : View.readAt (Elt F) (Memref.whole cc0_stg0_0 : Memref sig .tc .vmem S1024x64 .f32).view
      (Rect.unit ![0, 0] S1024x64.size Facts₀.inb_S1024x64_S1024x64_0_0).toLoadRect (xstg m ρ c) = xstg m ρ c :=
    Memref.readAt_unit_zero (Elt F) cc0_stg0_0 zeroOffsets2 _ _
  have hw : View.readAt (Elt F) (Memref.whole cc0_stg1_0 : Memref sig .tc .vmem S64x1024 .f32).view
      (Rect.unit ![0, 0] S64x1024.size Facts₀.inb_S64x1024_S64x1024_0_0).toLoadRect (wstg m ρ c) = wstg m ρ c :=
    Memref.readAt_unit_zero (Elt F) cc0_stg1_0 zeroOffsets2 _ _
  rw [View.writes_singleton, hx, hw]
  exact Memref.write_access_unit_zero_univ (Elt F) cc0_stg2_0 zeroOffsets2 _ fo _

/-! ## The body's obligation, in the form the launch asks for -/

/-- A whole staging buffer at given contents. -/
abbrev stgAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 32768 in
/-- The body obligation of the pipeline's one point on device `c`, from the body's run stated over the device's own resources. -/
theorem body_obligation (c : Dev nD)
    (hsound : ∀ (K : Dev nD × Fin 241 → ℕ) (Kt : PUnit → sProp 𝕄) (W : Waits sig Unit)
      (fo : Buf (Elt F) ((c : Thread nD τ).loc cc0_stg2_0)) (fl : Buf (Elt F) ((c : Thread nD τ).loc cc0_scratch0)) (fr : Buf (Elt F) ((c : Thread nD τ).loc cc0_scratch1)),
      iprop(records m ρ K ∗ posOwn c ∗ payToks c ∗ creds c ∗ levAts L lv
        ∗ ((Memref.whole cc0_stg0_0 : Memref sig .tc .vmem S1024x64 .f32).view.loc (c : Thread nD τ) ↦{fullShare} xstg m ρ c)
        ∗ ((Memref.whole cc0_stg1_0 : Memref sig .tc .vmem S64x1024 .f32).view.loc (c : Thread nD τ) ↦{fullShare} wstg m ρ c)
        ∗ ((Memref.whole cc0_stg2_0 : Memref sig .tc .vmem S1024x1024 .f32).view.loc (c : Thread nD τ) ↦{fullShare} fo)
        ∗ ((Memref.whole cc0_scratch0 : Memref sig .tc .vmem S8x64x1024 .f32).view.loc (c : Thread nD τ) ↦{fullShare} fl)
        ∗ ((Memref.whole cc0_scratch1 : Memref sig .tc .vmem S7x64x1024 .f32).view.loc (c : Thread nD τ) ↦{fullShare} fr)
        ∗ owes (c : Thread nD τ) (owedOf c Finset.univ) W
        ∗ (iprop(scratch c ∗ semsZero c ∗ (∃ W', owes (c : Thread nD τ) 0 W')
            ∗ ((Memref.whole cc0_stg0_0 : Memref sig .tc .vmem S1024x64 .f32).view.loc (c : Thread nD τ) ↦{fullShare} xstg m ρ c)
            ∗ ((Memref.whole cc0_stg1_0 : Memref sig .tc .vmem S64x1024 .f32).view.loc (c : Thread nD τ) ↦{fullShare} wstg m ρ c)
            ∗ ((Memref.whole cc0_stg2_0 : Memref sig .tc .vmem S1024x1024 .f32).view.loc (c : Thread nD τ) ↦{fullShare} outFinal m ρ)) -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_stg2_0) (Memref.isWhole_whole _) (Memref.whole cc0_scratch0) (Memref.isWhole_whole _)
              (Memref.whole cc0_scratch1) (Memref.isWhole_whole _) cc0_scratch2 cc0_scratch3 cc0_scratch4 cc0_scratch5) Kt) :
    BodyObligation (dats (F := F) m ρ 0 c) (defs₀ (F := F)) 𝒱₀ () Set.univ := fun t => by
  rw [fin_N0 t]
  rw [bigSep_W0, bigSep_W0]
  simp only [owns_whole_eq]
  show iprop(Φ₀ m ρ c ∗ (dats m ρ 0 c).owesAt () t0_0.castSucc
      ∗ (∃ d, stgAt c cc0_stg0_0 ((dats m ρ 0 c).before (0 : Fin 3) t0_0 d))
      ∗ (∃ d, stgAt c cc0_stg1_0 ((dats m ρ 0 c).before (1 : Fin 3) t0_0 d))
      ∗ (∃ d, stgAt c cc0_stg2_0 ((dats m ρ 0 c).before (2 : Fin 3) t0_0 d)))
    ⊢ wp frame (wpE (defs₀ (F := F)) 𝒱₀ c none) Set.univ
        (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) cc0_scratch2 cc0_scratch3 cc0_scratch4 cc0_scratch5)
        (fun _ => iprop(Φ₁ c ∗ (dats m ρ 0 c).owesAt () t0_0.succ
          ∗ stgAt c cc0_stg0_0 (xstg m ρ c) ∗ stgAt c cc0_stg1_0 (wstg m ρ c) ∗ stgAt c cc0_stg2_0 (outFinal m ρ)))
  unfold Φ₀ start ghost scratch
  iintro ⟨⟨⟨⟨%K, Hrec, Hpos, Htok⟩, Hcred, Hlev⟩, ⟨%fl, Hl⟩, ⟨%fr, Hr⟩⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx; subst hw
  unfold Dat.owesAt Pipeline.owesWithin
  icases Ho with ⟨%W, %hW, HO⟩
  rw [show (dats m ρ 0 c).owed t0_0.castSucc = owedOf c Finset.univ from rfl]
  iapply (hsound K _ W g2 fl fr)
  isplitl [Hrec]; · iexact Hrec
  isplitl [Hpos]; · iexact Hpos
  isplitl [Htok]; · iexact Htok
  isplitl [Hcred]; · iexact Hcred
  isplitl [Hlev]; · iexact Hlev
  isplitl [Hx]; · iexact Hx
  isplitl [Hw]; · iexact Hw
  isplitl [Hout]; · iexact Hout
  isplitl [Hl]; · iexact Hl
  isplitl [Hr]; · iexact Hr
  isplitl [HO]; · iexact HO
  iintro ⟨Hscr, Hsz, ⟨%W', HO'⟩, Hx, Hw, Hout⟩
  unfold Φ₁
  isplitl [Hscr Hsz]
  · isplitl [Hscr]; · iexact Hscr
    iexact Hsz
  isplitl [HO']
  · iexists W'; isplitr; · (ipureintro; exact fun _ _ => Or.inl trivial)
    iexact HO'
  isplitl [Hx]
  · iexists _; isplitr; · (ipureintro; rfl)
    iexact Hx
  isplitl [Hw]
  · iexists _; isplitr; · (ipureintro; rfl)
    iexact Hw
  iexists _; isplitr; · (ipureintro; rfl)
  iexact Hout

end Cert.KernelIdeal.Hand

end
-- ==== Proof.FamGather.lean ====
/-
  The gather phase's transfers, one step lemma per direction, at a symbolic device and a symbolic step and strip.

  In the gather phase a device sends a finished strip to a ring neighbour, into the SAME rows of the neighbour's output
  buffer: the chunk `a` positions after a device is the chunk `a + 1` positions after the device before it. So the
  strip the sender reads at distance `16 - s` (`s`, leftwards) is the strip at distance `15 - s` (`1 + s`) of the
  receiver, which the receiver's arrival payload names. The source strip comes back with the departure.
-/
import proofs.«900799_g7700000000000800_dist_gemm_ar_m1024_k1024_n1024_f32_gelu_v7x_i16_1_alg».proof.Proof.FamReduce

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Strips of the output buffer under two names -/

/-- A slice of sixteen rows of the output buffer at an offset equal to `![row, 0]` is the strip from `row`. -/
theorem oM_slice_eq {off : Fin 2 → ℕ} (p : ∀ a, off a + S16x1024.size a ≤ S1024x1024.size a)
    (hs : ∀ a, (Rect.unit (s := S1024x1024) off S16x1024.size p).stride a = 1) {row : ℕ} (h : row + 16 ≤ 1024) (e : off = ![row, 0]) :
    (oM : Memref sig .tc .vmem S1024x1024 .f32).slice (Rect.unit (s := S1024x1024) off S16x1024.size p) hs = oP row h :=
  Memref.slice_unit_congr _ e _ _ _ _

theorem oP_congr {r r' : ℕ} (e : r = r') (h : r + 16 ≤ 1024) (h' : r' + 16 ≤ 1024) : oP r h = oP r' h' := by subst e; rfl

/-- Strips are named by the first row of their chunk. -/
theorem oS_congr {d d' : Dev nD} {a a' : ℕ} (e : chunkRow d a = chunkRow d' a') (j : Fin 4) : oS d a j = oS d' a' j :=
  oP_congr (by rw [e]) _ _

theorem posOf_rgt_val (c : Dev nD) : (posOf (rgt c)).val = ((posOf c).val + 1) % 16 := by revert c; decide
theorem posOf_lft_val (c : Dev nD) : (posOf (lft c)).val = ((posOf c).val + 15) % 16 := by revert c; decide

/-- The chunk `a` positions after the next device is the chunk `a + 1` positions after this one. -/
theorem chunkRow_rgt (c : Dev nD) (a : ℕ) : chunkRow (rgt c) a = chunkRow c (a + 1) := by
  unfold chunkRow; rw [posOf_rgt_val]; omega
theorem chunkRow_lft (c : Dev nD) (a : ℕ) : chunkRow (lft c) (a + 1) = chunkRow c a := by
  unfold chunkRow; rw [posOf_lft_val]; omega

/-- Gather rightwards, step `s`: the receiver's strip at distance `15 - s` is the sender's at distance `16 - s`. -/
theorem oS_gr_dst (c : Dev nD) (s : Fin 8) (j : Fin 4) : oS (rgt c) (15 - s.val) j = oS c (16 - s.val) j :=
  oS_congr (by have := s.isLt; rw [chunkRow_rgt]; congr 1; omega) j
/-- Gather leftwards, step `s`: the receiver's strip at distance `1 + s` is the sender's at distance `s`. -/
theorem oS_gl_dst (c : Dev nD) (s : Fin 7) (j : Fin 4) : oS (lft c) (1 + s.val) j = oS c s.val j :=
  oS_congr (by rw [Nat.add_comm 1 s.val, chunkRow_lft]) j

/-- The strip a reduce step leftwards was read from is the strip the gather step rightwards `7 - s'` writes. -/
theorem oS_rl_gr (d : Dev nD) (s' : Fin 8) (j : Fin 4) : oS d (8 + s'.val) j = oS d (15 - (7 - s'.val)) j :=
  oS_congr (by have := s'.isLt; congr 1; omega) j
/-- The same, by the gather's step `s`. -/
theorem oS_rl_gr' (d : Dev nD) (s : Fin 8) (j : Fin 4) : oS d (8 + (7 - s.val)) j = oS d (15 - s.val) j :=
  oS_congr (by have := s.isLt; congr 1; omega) j
/-- The strip a reduce step rightwards was read from is the strip the gather step leftwards `6 - s'` writes. -/
theorem oS_rr_gl (d : Dev nD) (s' : Fin 7) (j : Fin 4) : oS d (7 - s'.val) j = oS d (1 + (6 - s'.val)) j :=
  oS_congr (by have := s'.isLt; congr 1; omega) j
theorem oS_rr_gl' (d : Dev nD) (s : Fin 7) (j : Fin 4) : oS d (7 - (6 - s.val)) j = oS d (1 + s.val) j :=
  oS_congr (by have := s.isLt; congr 1; omega) j

/-! ## The records of a gather cell -/

/-- A gather cell's invariant and round-0 fact, out of the records. -/
theorem records_gr (K : Dev nD × Fin 241 → ℕ) (c : Dev nD) (d : Fin 2) (s : Fin 8) (j : Fin 4) :
    records m ρ K ⊢ iprop(cellInv ER (ringRd m ρ) (K (c, grIdx d s j)) (grCell c d s j) ∗ reached ER (grCell c d s j) 0) := by
  have h1 := records_inv m ρ K (c, grIdx d s j)
  have h2 := records_reached m ρ K (c, grIdx d s j)
  rw [kcell_gr] at h1 h2
  iintro #H
  isplitl
  · iapply h1; iexact H
  · iapply h2; iexact H
theorem records_gl (K : Dev nD × Fin 241 → ℕ) (c : Dev nD) (d : Fin 2) (s : Fin 7) (j : Fin 4) :
    records m ρ K ⊢ iprop(cellInv ER (ringRd m ρ) (K (c, glIdx d s j)) (glCell c d s j) ∗ reached ER (glCell c d s j) 0) := by
  have h1 := records_inv m ρ K (c, glIdx d s j)
  have h2 := records_reached m ρ K (c, glIdx d s j)
  rw [kcell_gl] at h1 h2
  iintro #H
  isplitl
  · iapply h1; iexact H
  · iapply h2; iexact H

/-! ## The two transfers -/

theorem fin16_gr : ∀ p x : Fin 16, p + 1 - 1 - x = p - x := by decide
theorem fin16_gl : ∀ p x : Fin 16, p - 1 + 1 + x = p + x := by decide

/-- Gather rightwards, step `s`, strip `j`: the sender gives its share of the finished strip (it comes back with the
    departure) and the receiver's strip, which lands finished in the receiver's arrival cell. -/
theorem wp_gr_send_at (K : Dev nD × Fin 241 → ℕ) (c : Dev nD) (s : Fin 8) (j : Fin 4) (n : Dev nD) (hn : n = rgt c)
    (S : Finset Pay) (hS : Pay.gr s j ∈ S) (W : Waits sig Unit)
    {V : S16x1024.Idx → Elt F .f32} (hV : V = fin m ρ (posOf c - ⟨s.val % 16, Nat.mod_lt _ (by decide)⟩) j)
    {hsc : (oS c (16 - s.val) j : Memref sig (Dev.tc n : Thread nD τ).2.kind .vmem S16x1024 .f32).view.ref.isScScratch = false}
    {hsrc : (oS c (16 - s.val) j : Memref sig .tc .vmem S16x1024 .f32).view.WordExact}
    {hdst : (oS c (16 - s.val) j : Memref sig .tc .vmem S16x1024 .f32).view.WordExact}
    {hsem : DmaTarget.Typed .vmem (.dma (sem8 cc0_scratch4 1 s j))
      (.remote (Dev.tc n : Thread nD τ) (oS c (16 - s.val) j : Memref sig .tc .vmem S16x1024 .f32) (.dma (sem8 cc0_scratch4 0 s j)) hsc)}
    {α : Type} {Q : α → sProp 𝕄} {k : PUnit → Prog (TpuEff nD τ sig (Elt F) Λ₀ .tc) α} :
    iprop(records m ρ K ∗ owns (c : Thread nD τ) (oS c (16 - s.val) j) (shG false s.val) V
        ∗ (∃ f, (oS (rgt c) (15 - s.val) j).view.loc (rgt c : Thread nD τ) ↦[(oS (rgt c) (15 - s.val) j).view.set]{fullShare} f)
        ∗ owes (c : Thread nD τ) (owedOf c S) W
        ∗ dutyTok ER (grCell c 0 s j) 0 false ∗ dutyTok ER (grCell (rgt c) 1 s j) 0 false)
      ⊢ iprop(((cred (tallyAt (grCell c 0 s j) () N16) ∗ owes (c : Thread nD τ) (owedOf c (S.erase (.gr s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS c (16 - s.val) j) (.remote (Dev.tc n : Thread nD τ) (oS c (16 - s.val) j) (.dma (sem8 cc0_scratch4 0 s j)) hsc)
                (.dma (sem8 cc0_scratch4 1 s j)) hsrc hdst hsem) k) Q) := by
  subst hn
  rw [oS_gr_dst c s j]
  iintro ⟨#Hrec, Hsrc, ⟨%fd, Hdst⟩, Howes, Ht1, Ht2⟩ Hk
  ihave H1 := records_gr m ρ K c 0 s j $$ Hrec
  icases H1 with ⟨Hg1, Hr1⟩
  ihave H2 := records_gr m ρ K (rgt c) 1 s j $$ Hrec
  icases H2 with ⟨Hg2, Hr2⟩
  ihave Hs' := (show owns (c : Thread nD τ) (oS c (16 - s.val) j) (shG false s.val) V
      ⊢ iprop(∃ g, ⌜(oS c (16 - s.val) j).view.read (Elt F) g = V⌝ ∗ (oS c (16 - s.val) j).view.loc (c : Thread nD τ) ↦[(oS c (16 - s.val) j).view.set]{shG false s.val} g) from .rfl) $$ Hsrc
  icases Hs' with ⟨%fs, %hfs, Hsrc⟩
  iapply (Rounds.wp_send_pointsTo 𝒱₀ ER (ringRd m ρ) (c : Thread nD τ) none
      (c' := (Dev.tc (rgt c) : Thread nD τ)) (src := oS c (16 - s.val) j) (dst := oS c (16 - s.val) j)
      (sS := .dma (sem8 cc0_scratch4 0 s j)) (sem := .dma (sem8 cc0_scratch4 1 s j))
      (q := shG false s.val) (fs := fs) (fd := fd) (κ₁ := K (c, grIdx 0 s j)) (κ₂ := K (rgt c, grIdx 1 s j)) (r₁ := 0) (r₂ := 0) (d₁ := false) (d₂ := false)
      (by rw [duties_gr]; exact Finset.mem_singleton_self _) (by rw [duties_gr]; exact Finset.mem_singleton_self _)
      () () N16 rfl (amount_gr m ρ c 0 s j false) (amount_gr m ρ (rgt c) 1 s j false)
      (owedOf c (S.erase (.gr s j))) (owedOf_erase c S (.gr s j) hS) (W := W)
      (by
        rw [payload_gr_dep]; unfold grDep owns
        iintro H; iexists fs; isplitr
        · ipureintro; exact hfs.trans hV
        · iexact H)
      (by
        rw [payload_gr_arr]; unfold grArr; rw [oS_gr_dst c s j]; unfold owns
        iintro H
        iexists (oS c (16 - s.val) j).view.write (Elt F) fd ((oS c (16 - s.val) j).view.read (Elt F) fs) Finset.univ
        isplitr
        · ipureintro; rw [View.read_write_univ, hfs, hV, posOf_rgt, fin16_gr]
        · iexact H)) $$ [Hg1 Hg2 Hsrc Hdst Howes Ht1 Hr1 Ht2 Hr2] [Hk]
  · isplitl [Hg1]; · iexact Hg1
    isplitl [Hg2]; · iexact Hg2
    isplitl [Hsrc]; · iexact Hsrc
    isplitl [Hdst]; · iexact Hdst
    isplitl [Howes]; · iexact Howes
    isplitl [Ht1]; · iexact Ht1
    isplitl [Hr1]; · iexact Hr1
    isplitl [Ht2]; · iexact Ht2
    iexact Hr2
  · iexact Hk

/-- Gather leftwards, step `s`, strip `j`: the same to the neighbour before. -/
theorem wp_gl_send_at (K : Dev nD × Fin 241 → ℕ) (c : Dev nD) (s : Fin 7) (j : Fin 4) (n : Dev nD) (hn : n = lft c)
    (S : Finset Pay) (hS : Pay.gl s j ∈ S) (W : Waits sig Unit)
    {V : S16x1024.Idx → Elt F .f32} (hV : V = fin m ρ (posOf c + ⟨s.val % 16, Nat.mod_lt _ (by decide)⟩) j)
    {hsc : (oS c s.val j : Memref sig (Dev.tc n : Thread nD τ).2.kind .vmem S16x1024 .f32).view.ref.isScScratch = false}
    {hsrc : (oS c s.val j : Memref sig .tc .vmem S16x1024 .f32).view.WordExact}
    {hdst : (oS c s.val j : Memref sig .tc .vmem S16x1024 .f32).view.WordExact}
    {hsem : DmaTarget.Typed .vmem (.dma (sem7 cc0_scratch5 1 s j))
      (.remote (Dev.tc n : Thread nD τ) (oS c s.val j : Memref sig .tc .vmem S16x1024 .f32) (.dma (sem7 cc0_scratch5 0 s j)) hsc)}
    {α : Type} {Q : α → sProp 𝕄} {k : PUnit → Prog (TpuEff nD τ sig (Elt F) Λ₀ .tc) α} :
    iprop(records m ρ K ∗ owns (c : Thread nD τ) (oS c s.val j) (shG true s.val) V
        ∗ (∃ f, (oS (lft c) (1 + s.val) j).view.loc (lft c : Thread nD τ) ↦[(oS (lft c) (1 + s.val) j).view.set]{fullShare} f)
        ∗ owes (c : Thread nD τ) (owedOf c S) W
        ∗ dutyTok ER (glCell c 0 s j) 0 false ∗ dutyTok ER (glCell (lft c) 1 s j) 0 false)
      ⊢ iprop(((cred (tallyAt (glCell c 0 s j) () N16) ∗ owes (c : Thread nD τ) (owedOf c (S.erase (.gl s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS c s.val j) (.remote (Dev.tc n : Thread nD τ) (oS c s.val j) (.dma (sem7 cc0_scratch5 0 s j)) hsc)
                (.dma (sem7 cc0_scratch5 1 s j)) hsrc hdst hsem) k) Q) := by
  subst hn
  rw [oS_gl_dst c s j]
  iintro ⟨#Hrec, Hsrc, ⟨%fd, Hdst⟩, Howes, Ht1, Ht2⟩ Hk
  ihave H1 := records_gl m ρ K c 0 s j $$ Hrec
  icases H1 with ⟨Hg1, Hr1⟩
  ihave H2 := records_gl m ρ K (lft c) 1 s j $$ Hrec
  icases H2 with ⟨Hg2, Hr2⟩
  ihave Hs' := (show owns (c : Thread nD τ) (oS c s.val j) (shG true s.val) V
      ⊢ iprop(∃ g, ⌜(oS c s.val j).view.read (Elt F) g = V⌝ ∗ (oS c s.val j).view.loc (c : Thread nD τ) ↦[(oS c s.val j).view.set]{shG true s.val} g) from .rfl) $$ Hsrc
  icases Hs' with ⟨%fs, %hfs, Hsrc⟩
  iapply (Rounds.wp_send_pointsTo 𝒱₀ ER (ringRd m ρ) (c : Thread nD τ) none
      (c' := (Dev.tc (lft c) : Thread nD τ)) (src := oS c s.val j) (dst := oS c s.val j)
      (sS := .dma (sem7 cc0_scratch5 0 s j)) (sem := .dma (sem7 cc0_scratch5 1 s j))
      (q := shG true s.val) (fs := fs) (fd := fd) (κ₁ := K (c, glIdx 0 s j)) (κ₂ := K (lft c, glIdx 1 s j)) (r₁ := 0) (r₂ := 0) (d₁ := false) (d₂ := false)
      (by rw [duties_gl]; exact Finset.mem_singleton_self _) (by rw [duties_gl]; exact Finset.mem_singleton_self _)
      () () N16 rfl (amount_gl m ρ c 0 s j false) (amount_gl m ρ (lft c) 1 s j false)
      (owedOf c (S.erase (.gl s j))) (owedOf_erase c S (.gl s j) hS) (W := W)
      (by
        rw [payload_gl_dep]; unfold glDep owns
        iintro H; iexists fs; isplitr
        · ipureintro; exact hfs.trans hV
        · iexact H)
      (by
        rw [payload_gl_arr]; unfold glArr; rw [oS_gl_dst c s j]; unfold owns
        iintro H
        iexists (oS c s.val j).view.write (Elt F) fd ((oS c s.val j).view.read (Elt F) fs) Finset.univ
        isplitr
        · ipureintro; rw [View.read_write_univ, hfs, hV, posOf_lft, fin16_gl]
        · iexact H)) $$ [Hg1 Hg2 Hsrc Hdst Howes Ht1 Hr1 Ht2 Hr2] [Hk]
  · isplitl [Hg1]; · iexact Hg1
    isplitl [Hg2]; · iexact Hg2
    isplitl [Hsrc]; · iexact Hsrc
    isplitl [Hdst]; · iexact Hdst
    isplitl [Howes]; · iexact Howes
    isplitl [Ht1]; · iexact Ht1
    isplitl [Hr1]; · iexact Hr1
    isplitl [Ht2]; · iexact Ht2
    iexact Hr2
  · iexact Hk

/-! ## The same over a slice at an offset the program computes, equal to the strip's -/

/-- `wp_gr_send_at` for the transfer as the program spells it: both ends the slice of sixteen rows of the output buffer at
    an offset `off` equal to the strip's, the device addressed `n` equal to the next one. -/
theorem wp_gr_send (K : Dev nD × Fin 241 → ℕ) (c : Dev nD) (s : Fin 8) (j : Fin 4) (n : Dev nD) (hn : n = rgt c)
    {off : Fin 2 → ℕ} (hoff : off = ![chunkRow c (16 - s.val) + 16 * j.val, 0])
    (S : Finset Pay) (hS : Pay.gr s j ∈ S) (W : Waits sig Unit)
    {V : S16x1024.Idx → Elt F .f32} (hV : V = fin m ρ (posOf c - ⟨s.val % 16, Nat.mod_lt _ (by decide)⟩) j)
    {p p' : ∀ a, off a + S16x1024.size a ≤ S1024x1024.size a}
    {hs : ∀ a, (Rect.unit (s := S1024x1024) off S16x1024.size p).stride a = 1} {hs' : ∀ a, (Rect.unit (s := S1024x1024) off S16x1024.size p').stride a = 1}
    {hsc : ((oM : Memref sig .tc .vmem S1024x1024 .f32).slice (Rect.unit (s := S1024x1024) off S16x1024.size p') hs' : Memref sig (Dev.tc n : Thread nD τ).2.kind .vmem S16x1024 .f32).view.ref.isScScratch = false}
    {hsrc : ((oM : Memref sig .tc .vmem S1024x1024 .f32).slice (Rect.unit (s := S1024x1024) off S16x1024.size p) hs).view.WordExact}
    {hdst : ((oM : Memref sig .tc .vmem S1024x1024 .f32).slice (Rect.unit (s := S1024x1024) off S16x1024.size p') hs').view.WordExact}
    {hsem : DmaTarget.Typed .vmem (.dma (sem8 cc0_scratch4 1 s j))
      (.remote (Dev.tc n : Thread nD τ) ((oM : Memref sig .tc .vmem S1024x1024 .f32).slice (Rect.unit (s := S1024x1024) off S16x1024.size p') hs') (.dma (sem8 cc0_scratch4 0 s j)) hsc)}
    {α : Type} {Q : α → sProp 𝕄} {k : PUnit → Prog (TpuEff nD τ sig (Elt F) Λ₀ .tc) α} :
    iprop(records m ρ K ∗ owns (c : Thread nD τ) (oS c (16 - s.val) j) (shG false s.val) V
        ∗ (∃ f, (oS (rgt c) (15 - s.val) j).view.loc (rgt c : Thread nD τ) ↦[(oS (rgt c) (15 - s.val) j).view.set]{fullShare} f)
        ∗ owes (c : Thread nD τ) (owedOf c S) W
        ∗ dutyTok ER (grCell c 0 s j) 0 false ∗ dutyTok ER (grCell (rgt c) 1 s j) 0 false)
      ⊢ iprop(((cred (tallyAt (grCell c 0 s j) () N16) ∗ owes (c : Thread nD τ) (owedOf c (S.erase (.gr s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM : Memref sig .tc .vmem S1024x1024 .f32).slice (Rect.unit (s := S1024x1024) off S16x1024.size p) hs)
                (.remote (Dev.tc n : Thread nD τ) ((oM : Memref sig .tc .vmem S1024x1024 .f32).slice (Rect.unit (s := S1024x1024) off S16x1024.size p') hs') (.dma (sem8 cc0_scratch4 0 s j)) hsc)
                (.dma (sem8 cc0_scratch4 1 s j)) hsrc hdst hsem) k) Q) := by
  subst hoff
  exact wp_gr_send_at m ρ K c s j n hn S hS W hV

theorem wp_gl_send (K : Dev nD × Fin 241 → ℕ) (c : Dev nD) (s : Fin 7) (j : Fin 4) (n : Dev nD) (hn : n = lft c)
    {off : Fin 2 → ℕ} (hoff : off = ![chunkRow c s.val + 16 * j.val, 0])
    (S : Finset Pay) (hS : Pay.gl s j ∈ S) (W : Waits sig Unit)
    {V : S16x1024.Idx → Elt F .f32} (hV : V = fin m ρ (posOf c + ⟨s.val % 16, Nat.mod_lt _ (by decide)⟩) j)
    {p p' : ∀ a, off a + S16x1024.size a ≤ S1024x1024.size a}
    {hs : ∀ a, (Rect.unit (s := S1024x1024) off S16x1024.size p).stride a = 1} {hs' : ∀ a, (Rect.unit (s := S1024x1024) off S16x1024.size p').stride a = 1}
    {hsc : ((oM : Memref sig .tc .vmem S1024x1024 .f32).slice (Rect.unit (s := S1024x1024) off S16x1024.size p') hs' : Memref sig (Dev.tc n : Thread nD τ).2.kind .vmem S16x1024 .f32).view.ref.isScScratch = false}
    {hsrc : ((oM : Memref sig .tc .vmem S1024x1024 .f32).slice (Rect.unit (s := S1024x1024) off S16x1024.size p) hs).view.WordExact}
    {hdst : ((oM : Memref sig .tc .vmem S1024x1024 .f32).slice (Rect.unit (s := S1024x1024) off S16x1024.size p') hs').view.WordExact}
    {hsem : DmaTarget.Typed .vmem (.dma (sem7 cc0_scratch5 1 s j))
      (.remote (Dev.tc n : Thread nD τ) ((oM : Memref sig .tc .vmem S1024x1024 .f32).slice (Rect.unit (s := S1024x1024) off S16x1024.size p') hs') (.dma (sem7 cc0_scratch5 0 s j)) hsc)}
    {α : Type} {Q : α → sProp 𝕄} {k : PUnit → Prog (TpuEff nD τ sig (Elt F) Λ₀ .tc) α} :
    iprop(records m ρ K ∗ owns (c : Thread nD τ) (oS c s.val j) (shG true s.val) V
        ∗ (∃ f, (oS (lft c) (1 + s.val) j).view.loc (lft c : Thread nD τ) ↦[(oS (lft c) (1 + s.val) j).view.set]{fullShare} f)
        ∗ owes (c : Thread nD τ) (owedOf c S) W
        ∗ dutyTok ER (glCell c 0 s j) 0 false ∗ dutyTok ER (glCell (lft c) 1 s j) 0 false)
      ⊢ iprop(((cred (tallyAt (glCell c 0 s j) () N16) ∗ owes (c : Thread nD τ) (owedOf c (S.erase (.gl s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM : Memref sig .tc .vmem S1024x1024 .f32).slice (Rect.unit (s := S1024x1024) off S16x1024.size p) hs)
                (.remote (Dev.tc n : Thread nD τ) ((oM : Memref sig .tc .vmem S1024x1024 .f32).slice (Rect.unit (s := S1024x1024) off S16x1024.size p') hs') (.dma (sem7 cc0_scratch5 0 s j)) hsc)
                (.dma (sem7 cc0_scratch5 1 s j)) hsrc hdst hsem) k) Q) := by
  subst hoff
  exact wp_gl_send_at m ρ K c s j n hn S hS W hV

end Cert.KernelIdeal.Hand

end
-- ==== Proof.FamLocal.lean ====
/-
  The local steps of the ring all-reduce and the cutting of its buffers into strips.

  A strip is 16 rows of a 64-row chunk. The output buffer (1024 rows) is its 16 chunks of 4 strips, numbered by the chunk's
  distance from the device's own ring position: position `(p + a) % 16` runs over all sixteen positions as `a` does, so the 64
  strips tile the buffer whatever `p` is. The two receive buffers (8 and 7 slots of 64 rows) are tiled by their 32 and 28
  strips; a strip of a receive buffer is read through a view with the unit slot axis dropped, which has the same elements.

  The steps: a load of a strip reads its contents; a store over a strip leaves the stored value; the receive-add of a
  strip (load both, store the sum over the first); GELU of a strip in place; the device's partial product written over the
  whole output buffer.
-/
import proofs.«900799_g7700000000000800_dist_gemm_ar_m1024_k1024_n1024_f32_gelu_v7x_i16_1_alg».proof.Proof.Iface
import proofs.«900799_g7700000000000800_dist_gemm_ar_m1024_k1024_n1024_f32_gelu_v7x_i16_1_alg».proof.Proof.DevArith
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The rectangle of slot `s`, strip `j` in the buffer that receives the chunks travelling left (`lRect`) or right (`rRect`),
    and of strip `j` of the chunk at distance `a` in the output buffer (`oR`). -/
abbrev lRect (s : Fin 8) (j : Fin 4) : Rect S8x64x1024 := Rect.unit (s := S8x64x1024) ![s.val, 16 * j.val, 0] S1x16x1024.size (lSlot_inb s j)
abbrev rRect (s : Fin 7) (j : Fin 4) : Rect S7x64x1024 := Rect.unit (s := S7x64x1024) ![s.val, 16 * j.val, 0] S1x16x1024.size (rSlot_inb s j)
abbrev oR (c : Dev nD) (a : ℕ) (j : Fin 4) : Rect S1024x1024 := oRect (chunkRow c a + 16 * j.val) (stripRow_le c a j)

omit [FloatOps F] in
theorem read_lS (s : Fin 8) (j : Fin 4) (g : (cc0_scratch0 : Ref sig .tc).ty.Contents (Elt F)) :
    shapeCast S16x1024 (((lM : Memref sig .tc .vmem S8x64x1024 .f32).access (lRect s j) : View sig .tc _ _ _).read (Elt F) g) shapeCasts_S1x16x1024_S16x1024
      = (lS s j : Memref sig .tc .vmem S16x1024 .f32).view.read (Elt F) g := rfl
omit [FloatOps F] in
theorem read_rS (s : Fin 7) (j : Fin 4) (g : (cc0_scratch1 : Ref sig .tc).ty.Contents (Elt F)) :
    shapeCast S16x1024 (((rM : Memref sig .tc .vmem S7x64x1024 .f32).access (rRect s j) : View sig .tc _ _ _).read (Elt F) g) shapeCasts_S1x16x1024_S16x1024
      = (rS s j : Memref sig .tc .vmem S16x1024 .f32).view.read (Elt F) g := rfl

omit [FloatOps F] in
theorem set_lS (s : Fin 8) (j : Fin 4) :
    (lS s j : Memref sig .tc .vmem S16x1024 .f32).view.set = ((lM : Memref sig .tc .vmem S8x64x1024 .f32).access (lRect s j) : View sig .tc _ _ _).set :=
  View.set_reshape _ _
omit [FloatOps F] in
theorem set_rS (s : Fin 7) (j : Fin 4) :
    (rS s j : Memref sig .tc .vmem S16x1024 .f32).view.set = ((rM : Memref sig .tc .vmem S7x64x1024 .f32).access (rRect s j) : View sig .tc _ _ _).set :=
  View.set_reshape _ _

theorem pay2_eq (X : S16x1024.Idx → Elt F .f32) (V : S1x16x1024.Idx → Elt F .f32) :
    k0_pay2 X V = addS X (shapeCast S16x1024 V shapeCasts_S1x16x1024_S16x1024) := by
  unfold k0_pay2 addS
  rw [shapeCast_self]

/-- The receive-add of one strip from the buffer of the chunks travelling left: the strip of the output buffer and the landed
    strip are read, and their sum is stored over the former. -/
theorem wp_addL_at (c : Dev nD) (a : ℕ) (s : Fin 8) (j : Fin 4)
    (pay : (S16x1024.Idx → Elt F .f32) → (S1x16x1024.Idx → Elt F .f32) → S16x1024.Idx → Elt F .f32) (hpay : ∀ u v, pay u v = k0_pay2 u v)
    {X Y : S16x1024.Idx → Elt F .f32}
    {hl1 : (oM : Memref sig .tc .vmem S1024x1024 .f32).view.LoadsAt (oR c a j).toLoadRect}
    {hl2 : (lM : Memref sig .tc .vmem S8x64x1024 .f32).view.LoadsAt (lRect s j).toLoadRect}
    {hl3 : (oM : Memref sig .tc .vmem S1024x1024 .f32).view.LoadsAt (oR c a j).toLoadRect}
    {hx : ((oM : Memref sig .tc .vmem S1024x1024 .f32).access (oR c a j) : View sig .tc _ _ _).Stores Finset.univ}
    {hm : (Finset.univ : Finset (oR c a j).shape.Idx) = Finset.univ ∨ ∀ b, (oR c a j).stride b = 1}
    {α : Type} {Q : α → sProp 𝕄} {k : PUnit → Prog (TpuEff nD τ sig (Elt F) Λ₀ .tc) α} :
    iprop(owns (c : Thread nD τ) (oS c a j) fullShare X ∗ owns (c : Thread nD τ) (lS s j) fullShare Y)
      ⊢ iprop(((owns (c : Thread nD τ) (oS c a j) fullShare (addS X Y) ∗ owns (c : Thread nD τ) (lS s j) fullShare Y)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (oR c a j).toLoadRect hl1) fun v1 =>
               .op (.load lM (lRect s j).toLoadRect hl2) fun v2 =>
               .op (.load oM (oR c a j).toLoadRect hl3) fun _ =>
               .op (.store oM (oR c a j) (pay v1 v2) Finset.univ hx hm) k) Q) := by
  unfold owns
  iintro ⟨⟨%f, %hf, Ho⟩, ⟨%g, %hg, Hl⟩⟩
  iintro Hk
  iapply (wp_load_rect 𝒱₀ (c : Thread nD τ) none Set.univ (m := oM) (r := oR c a j) (S := (oS c a j).view.set) (Finset.Subset.refl _)) $$ Ho; iintro Ho
  iapply (wp_load_rect 𝒱₀ (c : Thread nD τ) none Set.univ (m := lM) (r := lRect s j) (S := (lS s j).view.set) (Finset.subset_of_eq (set_lS s j).symm)) $$ Hl; iintro Hl
  iapply (wp_load_rect 𝒱₀ (c : Thread nD τ) none Set.univ (m := oM) (r := oR c a j) (S := (oS c a j).view.set) (Finset.Subset.refl _)) $$ Ho; iintro Ho
  iapply (wp_store 𝒱₀ (c : Thread nD τ) none Set.univ (m := oM) (r := oR c a j) (Mk := Finset.univ) (S := (oS c a j).view.set) (Finset.Subset.refl _)) $$ Ho; iintro Ho
  iapply Hk
  have e : (oS c a j : Memref sig .tc .vmem S16x1024 .f32).view.read (Elt F)
      (((oM : Memref sig .tc .vmem S1024x1024 .f32).access (oR c a j) : View sig .tc _ _ _).write (Elt F) f
        (pay (((oM : Memref sig .tc .vmem S1024x1024 .f32).access (oR c a j) : View sig .tc _ _ _).read (Elt F) f)
          (((lM : Memref sig .tc .vmem S8x64x1024 .f32).access (lRect s j) : View sig .tc _ _ _).read (Elt F) g)) Finset.univ) = addS X Y := by
    show ((oM : Memref sig .tc .vmem S1024x1024 .f32).access (oR c a j) : View sig .tc _ _ _).read (Elt F) _ = _
    rw [View.read_write_univ, hpay, pay2_eq, read_lS, hg]
    exact congrArg (fun u => addS u Y) hf
  isplitl [Ho]
  · iexists _
    isplitr
    · ipureintro; exact e
    · iexact Ho
  · iexists g
    isplitr
    · ipureintro; exact hg
    · iexact Hl

/-- The same at an offset given by an equation: the form that applies where the program computes the offset from the
    device's id, by a function proved equal to the strip's first row. -/
theorem wp_addL (c : Dev nD) (a : ℕ) (s : Fin 8) (j : Fin 4)
    (pay : (S16x1024.Idx → Elt F .f32) → (S1x16x1024.Idx → Elt F .f32) → S16x1024.Idx → Elt F .f32) (hpay : ∀ u v, pay u v = k0_pay2 u v)
    {off : Fin 2 → ℕ} (hoff : off = ![chunkRow c a + 16 * j.val, 0])
    {inb : ∀ b, off b + S16x1024.size b ≤ S1024x1024.size b}
    {X Y : S16x1024.Idx → Elt F .f32}
    {hl1 : (oM : Memref sig .tc .vmem S1024x1024 .f32).view.LoadsAt (Rect.unit (s := S1024x1024) off S16x1024.size inb).toLoadRect}
    {hl2 : (lM : Memref sig .tc .vmem S8x64x1024 .f32).view.LoadsAt (lRect s j).toLoadRect}
    {hl3 : (oM : Memref sig .tc .vmem S1024x1024 .f32).view.LoadsAt (Rect.unit (s := S1024x1024) off S16x1024.size inb).toLoadRect}
    {hx : ((oM : Memref sig .tc .vmem S1024x1024 .f32).access (Rect.unit (s := S1024x1024) off S16x1024.size inb) : View sig .tc _ _ _).Stores Finset.univ}
    {hm : (Finset.univ : Finset (Rect.unit (s := S1024x1024) off S16x1024.size inb).shape.Idx) = Finset.univ ∨ ∀ b, (Rect.unit (s := S1024x1024) off S16x1024.size inb).stride b = 1}
    {α : Type} {Q : α → sProp 𝕄} {k : PUnit → Prog (TpuEff nD τ sig (Elt F) Λ₀ .tc) α} :
    iprop(owns (c : Thread nD τ) (oS c a j) fullShare X ∗ owns (c : Thread nD τ) (lS s j) fullShare Y)
      ⊢ iprop(((owns (c : Thread nD τ) (oS c a j) fullShare (addS X Y) ∗ owns (c : Thread nD τ) (lS s j) fullShare Y)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S1024x1024) off S16x1024.size inb).toLoadRect hl1) fun v1 =>
               .op (.load lM (lRect s j).toLoadRect hl2) fun v2 =>
               .op (.load oM (Rect.unit (s := S1024x1024) off S16x1024.size inb).toLoadRect hl3) fun _ =>
               .op (.store oM (Rect.unit (s := S1024x1024) off S16x1024.size inb) (pay v1 v2) Finset.univ hx hm) k) Q) := by
  subst hoff
  exact wp_addL_at c a s j pay hpay

/-- The receive-add of one strip from the buffer of the chunks travelling right: the strip of the output buffer and the landed
    strip are read, and their sum is stored over the former. -/
theorem wp_addR_at (c : Dev nD) (a : ℕ) (s : Fin 7) (j : Fin 4)
    (pay : (S16x1024.Idx → Elt F .f32) → (S1x16x1024.Idx → Elt F .f32) → S16x1024.Idx → Elt F .f32) (hpay : ∀ u v, pay u v = k0_pay2 u v)
    {X Y : S16x1024.Idx → Elt F .f32}
    {hl1 : (oM : Memref sig .tc .vmem S1024x1024 .f32).view.LoadsAt (oR c a j).toLoadRect}
    {hl2 : (rM : Memref sig .tc .vmem S7x64x1024 .f32).view.LoadsAt (rRect s j).toLoadRect}
    {hl3 : (oM : Memref sig .tc .vmem S1024x1024 .f32).view.LoadsAt (oR c a j).toLoadRect}
    {hx : ((oM : Memref sig .tc .vmem S1024x1024 .f32).access (oR c a j) : View sig .tc _ _ _).Stores Finset.univ}
    {hm : (Finset.univ : Finset (oR c a j).shape.Idx) = Finset.univ ∨ ∀ b, (oR c a j).stride b = 1}
    {α : Type} {Q : α → sProp 𝕄} {k : PUnit → Prog (TpuEff nD τ sig (Elt F) Λ₀ .tc) α} :
    iprop(owns (c : Thread nD τ) (oS c a j) fullShare X ∗ owns (c : Thread nD τ) (rS s j) fullShare Y)
      ⊢ iprop(((owns (c : Thread nD τ) (oS c a j) fullShare (addS X Y) ∗ owns (c : Thread nD τ) (rS s j) fullShare Y)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (oR c a j).toLoadRect hl1) fun v1 =>
               .op (.load rM (rRect s j).toLoadRect hl2) fun v2 =>
               .op (.load oM (oR c a j).toLoadRect hl3) fun _ =>
               .op (.store oM (oR c a j) (pay v1 v2) Finset.univ hx hm) k) Q) := by
  unfold owns
  iintro ⟨⟨%f, %hf, Ho⟩, ⟨%g, %hg, Hl⟩⟩
  iintro Hk
  iapply (wp_load_rect 𝒱₀ (c : Thread nD τ) none Set.univ (m := oM) (r := oR c a j) (S := (oS c a j).view.set) (Finset.Subset.refl _)) $$ Ho; iintro Ho
  iapply (wp_load_rect 𝒱₀ (c : Thread nD τ) none Set.univ (m := rM) (r := rRect s j) (S := (rS s j).view.set) (Finset.subset_of_eq (set_rS s j).symm)) $$ Hl; iintro Hl
  iapply (wp_load_rect 𝒱₀ (c : Thread nD τ) none Set.univ (m := oM) (r := oR c a j) (S := (oS c a j).view.set) (Finset.Subset.refl _)) $$ Ho; iintro Ho
  iapply (wp_store 𝒱₀ (c : Thread nD τ) none Set.univ (m := oM) (r := oR c a j) (Mk := Finset.univ) (S := (oS c a j).view.set) (Finset.Subset.refl _)) $$ Ho; iintro Ho
  iapply Hk
  have e : (oS c a j : Memref sig .tc .vmem S16x1024 .f32).view.read (Elt F)
      (((oM : Memref sig .tc .vmem S1024x1024 .f32).access (oR c a j) : View sig .tc _ _ _).write (Elt F) f
        (pay (((oM : Memref sig .tc .vmem S1024x1024 .f32).access (oR c a j) : View sig .tc _ _ _).read (Elt F) f)
          (((rM : Memref sig .tc .vmem S7x64x1024 .f32).access (rRect s j) : View sig .tc _ _ _).read (Elt F) g)) Finset.univ) = addS X Y := by
    show ((oM : Memref sig .tc .vmem S1024x1024 .f32).access (oR c a j) : View sig .tc _ _ _).read (Elt F) _ = _
    rw [View.read_write_univ, hpay, pay2_eq, read_rS, hg]
    exact congrArg (fun u => addS u Y) hf
  isplitl [Ho]
  · iexists _
    isplitr
    · ipureintro; exact e
    · iexact Ho
  · iexists g
    isplitr
    · ipureintro; exact hg
    · iexact Hl

/-- The same at an offset given by an equation: the form that applies where the program computes the offset from the
    device's id, by a function proved equal to the strip's first row. -/
theorem wp_addR (c : Dev nD) (a : ℕ) (s : Fin 7) (j : Fin 4)
    (pay : (S16x1024.Idx → Elt F .f32) → (S1x16x1024.Idx → Elt F .f32) → S16x1024.Idx → Elt F .f32) (hpay : ∀ u v, pay u v = k0_pay2 u v)
    {off : Fin 2 → ℕ} (hoff : off = ![chunkRow c a + 16 * j.val, 0])
    {inb : ∀ b, off b + S16x1024.size b ≤ S1024x1024.size b}
    {X Y : S16x1024.Idx → Elt F .f32}
    {hl1 : (oM : Memref sig .tc .vmem S1024x1024 .f32).view.LoadsAt (Rect.unit (s := S1024x1024) off S16x1024.size inb).toLoadRect}
    {hl2 : (rM : Memref sig .tc .vmem S7x64x1024 .f32).view.LoadsAt (rRect s j).toLoadRect}
    {hl3 : (oM : Memref sig .tc .vmem S1024x1024 .f32).view.LoadsAt (Rect.unit (s := S1024x1024) off S16x1024.size inb).toLoadRect}
    {hx : ((oM : Memref sig .tc .vmem S1024x1024 .f32).access (Rect.unit (s := S1024x1024) off S16x1024.size inb) : View sig .tc _ _ _).Stores Finset.univ}
    {hm : (Finset.univ : Finset (Rect.unit (s := S1024x1024) off S16x1024.size inb).shape.Idx) = Finset.univ ∨ ∀ b, (Rect.unit (s := S1024x1024) off S16x1024.size inb).stride b = 1}
    {α : Type} {Q : α → sProp 𝕄} {k : PUnit → Prog (TpuEff nD τ sig (Elt F) Λ₀ .tc) α} :
    iprop(owns (c : Thread nD τ) (oS c a j) fullShare X ∗ owns (c : Thread nD τ) (rS s j) fullShare Y)
      ⊢ iprop(((owns (c : Thread nD τ) (oS c a j) fullShare (addS X Y) ∗ owns (c : Thread nD τ) (rS s j) fullShare Y)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S1024x1024) off S16x1024.size inb).toLoadRect hl1) fun v1 =>
               .op (.load rM (rRect s j).toLoadRect hl2) fun v2 =>
               .op (.load oM (Rect.unit (s := S1024x1024) off S16x1024.size inb).toLoadRect hl3) fun _ =>
               .op (.store oM (Rect.unit (s := S1024x1024) off S16x1024.size inb) (pay v1 v2) Finset.univ hx hm) k) Q) := by
  subst hoff
  exact wp_addR_at c a s j pay hpay

/-! ## One effect at a time -/

/-- A load of a strip of the output buffer reads the strip's contents. -/
theorem wp_loadO (c : Dev nD) (a : ℕ) (j : Fin 4) {off : Fin 2 → ℕ} (hoff : off = ![chunkRow c a + 16 * j.val, 0])
    {inb : ∀ b, off b + S16x1024.size b ≤ S1024x1024.size b} {q : PosShare TreeShare} {X : S16x1024.Idx → Elt F .f32}
    {hl : (oM : Memref sig .tc .vmem S1024x1024 .f32).view.LoadsAt (Rect.unit (s := S1024x1024) off S16x1024.size inb).toLoadRect}
    {α : Type} {Q : α → sProp 𝕄} {k : (S16x1024.Idx → Elt F .f32) → Prog (TpuEff nD τ sig (Elt F) Λ₀ .tc) α} :
    owns (c : Thread nD τ) (oS c a j) q X
      ⊢ iprop((owns (c : Thread nD τ) (oS c a j) q X -∗ wp frame (wpE (defs₀ (F := F)) 𝒱₀ (c : Thread nD τ) none) Set.univ (k X) Q)
          -∗ wp frame (wpE (defs₀ (F := F)) 𝒱₀ (c : Thread nD τ) none) Set.univ
              (.op (.load oM (Rect.unit (s := S1024x1024) off S16x1024.size inb).toLoadRect hl) k) Q) := by
  subst hoff
  unfold owns
  iintro ⟨%f, %hf, Ho⟩
  iintro Hk
  iapply (wp_load_rect 𝒱₀ (c : Thread nD τ) none Set.univ (m := oM) (r := oR c a j) (S := (oS c a j).view.set) (Finset.Subset.refl _)) $$ Ho; iintro Ho
  have e : ((oM : Memref sig .tc .vmem S1024x1024 .f32).access (oR c a j) : View sig .tc _ _ _).read (Elt F) f = X := hf
  rw [e]
  iapply Hk
  iexists f
  isplitr
  · ipureintro; exact hf
  · iexact Ho

/-- A store over a strip of the output buffer leaves the strip at the stored value. -/
theorem wp_storeO (c : Dev nD) (a : ℕ) (j : Fin 4) {off : Fin 2 → ℕ} (hoff : off = ![chunkRow c a + 16 * j.val, 0])
    {inb : ∀ b, off b + S16x1024.size b ≤ S1024x1024.size b} {X w : S16x1024.Idx → Elt F .f32}
    {hx : ((oM : Memref sig .tc .vmem S1024x1024 .f32).access (Rect.unit (s := S1024x1024) off S16x1024.size inb) : View sig .tc _ _ _).Stores Finset.univ}
    {hm : (Finset.univ : Finset (Rect.unit (s := S1024x1024) off S16x1024.size inb).shape.Idx) = Finset.univ ∨ ∀ b, (Rect.unit (s := S1024x1024) off S16x1024.size inb).stride b = 1}
    {α : Type} {Q : α → sProp 𝕄} {k : PUnit → Prog (TpuEff nD τ sig (Elt F) Λ₀ .tc) α} :
    owns (c : Thread nD τ) (oS c a j) fullShare X
      ⊢ iprop((owns (c : Thread nD τ) (oS c a j) fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S1024x1024) off S16x1024.size inb) w Finset.univ hx hm) k) Q) := by
  subst hoff
  unfold owns
  iintro ⟨%f, %hf, Ho⟩
  iintro Hk
  iapply (wp_store 𝒱₀ (c : Thread nD τ) none Set.univ (m := oM) (r := oR c a j) (Mk := Finset.univ) (S := (oS c a j).view.set) (Finset.Subset.refl _)) $$ Ho; iintro Ho
  iapply Hk
  iexists _
  isplitr
  · ipureintro
    exact View.read_write_univ (v := ((oM : Memref sig .tc .vmem S1024x1024 .f32).access (oR c a j) : View sig .tc _ _ _)) f w
  · iexact Ho

/-- A load of a landed strip reads a `1 x 16 x 1024` vector that, cast to `16 x 1024`, is the strip's contents. -/
theorem wp_loadL (c : Dev nD) (s : Fin 8) (j : Fin 4) {q : PosShare TreeShare} {Y : S16x1024.Idx → Elt F .f32}
    {hl : (lM : Memref sig .tc .vmem S8x64x1024 .f32).view.LoadsAt (lRect s j).toLoadRect}
    {α : Type} {Q : α → sProp 𝕄} {k : (S1x16x1024.Idx → Elt F .f32) → Prog (TpuEff nD τ sig (Elt F) Λ₀ .tc) α} :
    owns (c : Thread nD τ) (lS s j) q Y
      ⊢ iprop((∀ V, ⌜shapeCast S16x1024 V shapeCasts_S1x16x1024_S16x1024 = Y⌝ -∗ owns (c : Thread nD τ) (lS s j) q Y
              -∗ wp frame (wpE (defs₀ (F := F)) 𝒱₀ (c : Thread nD τ) none) Set.univ (k V) Q)
          -∗ wp frame (wpE (defs₀ (F := F)) 𝒱₀ (c : Thread nD τ) none) Set.univ
              (.op (.load lM (lRect s j).toLoadRect hl) k) Q) := by
  unfold owns
  iintro ⟨%g, %hg, Hl⟩
  iintro Hk
  iapply (wp_load_rect 𝒱₀ (c : Thread nD τ) none Set.univ (m := lM) (r := lRect s j) (S := (lS s j).view.set) (Finset.subset_of_eq (set_lS s j).symm)) $$ Hl; iintro Hl
  iapply Hk $$ %_ %((read_lS s j g).trans hg)
  iexists g
  isplitr
  · ipureintro; exact hg
  · iexact Hl

/-- A load of a landed strip reads a `1 x 16 x 1024` vector that, cast to `16 x 1024`, is the strip's contents. -/
theorem wp_loadR (c : Dev nD) (s : Fin 7) (j : Fin 4) {q : PosShare TreeShare} {Y : S16x1024.Idx → Elt F .f32}
    {hl : (rM : Memref sig .tc .vmem S7x64x1024 .f32).view.LoadsAt (rRect s j).toLoadRect}
    {α : Type} {Q : α → sProp 𝕄} {k : (S1x16x1024.Idx → Elt F .f32) → Prog (TpuEff nD τ sig (Elt F) Λ₀ .tc) α} :
    owns (c : Thread nD τ) (rS s j) q Y
      ⊢ iprop((∀ V, ⌜shapeCast S16x1024 V shapeCasts_S1x16x1024_S16x1024 = Y⌝ -∗ owns (c : Thread nD τ) (rS s j) q Y
              -∗ wp frame (wpE (defs₀ (F := F)) 𝒱₀ (c : Thread nD τ) none) Set.univ (k V) Q)
          -∗ wp frame (wpE (defs₀ (F := F)) 𝒱₀ (c : Thread nD τ) none) Set.univ
              (.op (.load rM (rRect s j).toLoadRect hl) k) Q) := by
  unfold owns
  iintro ⟨%g, %hg, Hl⟩
  iintro Hk
  iapply (wp_load_rect 𝒱₀ (c : Thread nD τ) none Set.univ (m := rM) (r := rRect s j) (S := (rS s j).view.set) (Finset.subset_of_eq (set_rS s j).symm)) $$ Hl; iintro Hl
  iapply Hk $$ %_ %((read_rS s j g).trans hg)
  iexists g
  isplitr
  · ipureintro; exact hg
  · iexact Hl

/-! ## The strips tile the buffers -/

omit [FloatOps F] in
theorem oR_disjoint (c : Dev nD) (t t' : Fin 16 × Fin 4) (h : t ≠ t') : Disjoint (oR c t.1.val t.2).set (oR c t'.1.val t'.2).set := by
  refine Rect.unit_disjoint (0 : Fin 2) ?_
  show chunkRow c t.1.val + 16 * t.2.val + 16 ≤ chunkRow c t'.1.val + 16 * t'.2.val ∨ chunkRow c t'.1.val + 16 * t'.2.val + 16 ≤ chunkRow c t.1.val + 16 * t.2.val
  unfold chunkRow
  have h1 := t.1.isLt; have h2 := t.2.isLt; have h1' := t'.1.isLt; have h2' := t'.2.isLt
  have hne : t.1.val ≠ t'.1.val ∨ t.2.val ≠ t'.2.val := by
    by_contra hc
    rcases not_or.mp hc with ⟨e1, e2⟩
    exact h (Prod.ext (Fin.ext (not_not.mp e1)) (Fin.ext (not_not.mp e2)))
  have hp := (posOf c).isLt
  omega

omit [FloatOps F] in
theorem oR_cover (c : Dev nD) : (Finset.univ : Finset (Fin 16 × Fin 4)).biUnion (fun t => (oR c t.1.val t.2).set) = Finset.univ := by
  ext x
  simp only [Finset.mem_biUnion, Finset.mem_univ, true_and, iff_true]
  have hx0 : (x 0).val < 1024 := (x 0).isLt
  have hx1 : (x 1).val < 1024 := (x 1).isLt
  have hp := (posOf c).isLt
  refine ⟨(⟨((x 0).val / 64 + 16 - (posOf c).val) % 16, Nat.mod_lt _ (by decide)⟩, ⟨(x 0).val % 64 / 16, by omega⟩), ?_⟩
  refine Rect.mem_set_unit.mpr ?_
  intro b; fin_cases b
  · show chunkRow c _ + 16 * _ ≤ (x 0).val ∧ (x 0).val < chunkRow c _ + 16 * _ + 16
    unfold chunkRow; dsimp only; omega
  · show 0 ≤ (x 1).val ∧ (x 1).val < 0 + 1024; omega

omit [FloatOps F] in
theorem lRect_disjoint (t t' : Fin 8 × Fin 4) (h : t ≠ t') : Disjoint (lRect t.1 t.2).set (lRect t'.1 t'.2).set := by
  have h1 := t.1.isLt; have h2 := t.2.isLt; have h1' := t'.1.isLt; have h2' := t'.2.isLt
  by_cases hs : t.1.val = t'.1.val
  · have hj : t.2.val ≠ t'.2.val := fun e => h (Prod.ext (Fin.ext hs) (Fin.ext e))
    refine Rect.unit_disjoint (1 : Fin 3) ?_
    show 16 * t.2.val + 16 ≤ 16 * t'.2.val ∨ 16 * t'.2.val + 16 ≤ 16 * t.2.val
    omega
  · refine Rect.unit_disjoint (0 : Fin 3) ?_
    show t.1.val + 1 ≤ t'.1.val ∨ t'.1.val + 1 ≤ t.1.val
    omega

omit [FloatOps F] in
theorem lRect_cover : (Finset.univ : Finset (Fin 8 × Fin 4)).biUnion (fun t => (lRect t.1 t.2).set) = Finset.univ := by
  ext x
  simp only [Finset.mem_biUnion, Finset.mem_univ, true_and, iff_true]
  have hx0 : (x 0).val < 8 := (x 0).isLt
  have hx1 : (x 1).val < 64 := (x 1).isLt
  have hx2 : (x 2).val < 1024 := (x 2).isLt
  refine ⟨(⟨(x 0).val, hx0⟩, ⟨(x 1).val / 16, by omega⟩), ?_⟩
  refine Rect.mem_set_unit.mpr ?_
  intro b; fin_cases b
  · show (x 0).val ≤ (x 0).val ∧ (x 0).val < (x 0).val + 1; omega
  · show 16 * ((x 1).val / 16) ≤ (x 1).val ∧ (x 1).val < 16 * ((x 1).val / 16) + 16; omega
  · show 0 ≤ (x 2).val ∧ (x 2).val < 0 + 1024; omega

omit [FloatOps F] in
theorem rRect_disjoint (t t' : Fin 7 × Fin 4) (h : t ≠ t') : Disjoint (rRect t.1 t.2).set (rRect t'.1 t'.2).set := by
  have h1 := t.1.isLt; have h2 := t.2.isLt; have h1' := t'.1.isLt; have h2' := t'.2.isLt
  by_cases hs : t.1.val = t'.1.val
  · have hj : t.2.val ≠ t'.2.val := fun e => h (Prod.ext (Fin.ext hs) (Fin.ext e))
    refine Rect.unit_disjoint (1 : Fin 3) ?_
    show 16 * t.2.val + 16 ≤ 16 * t'.2.val ∨ 16 * t'.2.val + 16 ≤ 16 * t.2.val
    omega
  · refine Rect.unit_disjoint (0 : Fin 3) ?_
    show t.1.val + 1 ≤ t'.1.val ∨ t'.1.val + 1 ≤ t.1.val
    omega

omit [FloatOps F] in
theorem rRect_cover : (Finset.univ : Finset (Fin 7 × Fin 4)).biUnion (fun t => (rRect t.1 t.2).set) = Finset.univ := by
  ext x
  simp only [Finset.mem_biUnion, Finset.mem_univ, true_and, iff_true]
  have hx0 : (x 0).val < 7 := (x 0).isLt
  have hx1 : (x 1).val < 64 := (x 1).isLt
  have hx2 : (x 2).val < 1024 := (x 2).isLt
  refine ⟨(⟨(x 0).val, hx0⟩, ⟨(x 1).val / 16, by omega⟩), ?_⟩
  refine Rect.mem_set_unit.mpr ?_
  intro b; fin_cases b
  · show (x 0).val ≤ (x 0).val ∧ (x 0).val < (x 0).val + 1; omega
  · show 16 * ((x 1).val / 16) ≤ (x 1).val ∧ (x 1).val < 16 * ((x 1).val / 16) + 16; omega
  · show 0 ≤ (x 2).val ∧ (x 2).val < 0 + 1024; omega

/-! ## A buffer whole and by strips -/

/-- The output buffer whole is its 64 strips, each owned at what it reads of the buffer's contents: chunk `a` counted from the
    device's own ring position, strip `j` of it. -/
theorem out_strips (c : Dev nD) (q : PosShare TreeShare) (f : (cc0_stg2_0 : Ref sig .tc).ty.Contents (Elt F)) :
    ((((c : Thread nD τ).loc cc0_stg2_0) ↦{q} f) : sProp 𝕄)
      = bigSep Finset.univ fun aj : Fin 16 × Fin 4 => owns (c : Thread nD τ) (oS c aj.1.val aj.2) q ((oS c aj.1.val aj.2).view.read (Elt F) f) := by
  have h := pointsTo_rects (Val := Elt F) (Ix := Unit) (Name := ℕ) (U := UU) (Lvl := ℕ) (c : Thread nD τ) (oM : Memref sig .tc .vmem S1024x1024 .f32) q
    (fun t : Fin 16 × Fin 4 => oR c t.1.val t.2) (fun _ _ => rfl) (oR_disjoint c) (oR_cover c) f
  rw [show (oM : Memref sig .tc .vmem S1024x1024 .f32).view.set = Finset.univ from View.set_whole _] at h
  exact h

/-- The same with each strip as the points-to of its elements. -/
theorem out_strips_pt (c : Dev nD) (q : PosShare TreeShare) (f : (cc0_stg2_0 : Ref sig .tc).ty.Contents (Elt F)) :
    ((((c : Thread nD τ).loc cc0_stg2_0) ↦{q} f) : sProp 𝕄)
      = bigSep Finset.univ fun aj : Fin 16 × Fin 4 => (oS c aj.1.val aj.2).view.loc (c : Thread nD τ) ↦[(oS c aj.1.val aj.2).view.set]{q} f := by
  rw [out_strips]
  exact bigSep_congr fun aj _ => owns_slice_read (c : Thread nD τ) (oM : Memref sig .tc .vmem S1024x1024 .f32) q (oR c aj.1.val aj.2) (fun _ => rfl) f

/-- Joining: 64 strips owned at the parts `Y` of contents `G` are the buffer whole at `G`. -/
theorem out_joinY (c : Dev nD) (q : PosShare TreeShare) (G : (cc0_stg2_0 : Ref sig .tc).ty.Contents (Elt F))
    (Y : Fin 16 × Fin 4 → S16x1024.Idx → Elt F .f32) (hY : ∀ aj, Y aj = (oS c aj.1.val aj.2).view.read (Elt F) G) :
    bigSep Finset.univ (fun aj : Fin 16 × Fin 4 => owns (c : Thread nD τ) (oS c aj.1.val aj.2) q (Y aj))
      ⊢ ((((c : Thread nD τ).loc cc0_stg2_0) ↦{q} G) : sProp 𝕄) := by
  rw [out_strips, bigSep_congr (fun aj _ => by rw [hY aj])]

omit [FloatOps F] in
theorem lS_view_set (t : Fin 8 × Fin 4) : (lS t.1 t.2 : Memref sig .tc .vmem S16x1024 .f32).view.set = (lRect t.1 t.2).set :=
  (set_lS t.1 t.2).trans (View.set_slice_whole _ _)

/-- The buffer receiving the chunks that travel left, whole, is its 32 strips, each owned at what it reads of the contents. -/
theorem l_split (c : Dev nD) (q : PosShare TreeShare) (f : (cc0_scratch0 : Ref sig .tc).ty.Contents (Elt F)) :
    ((((c : Thread nD τ).loc cc0_scratch0) ↦{q} f) : sProp 𝕄)
      ⊢ bigSep Finset.univ fun t : Fin 8 × Fin 4 => owns (c : Thread nD τ) (lS t.1 t.2) q ((lS t.1 t.2).view.read (Elt F) f) := by
  have h := pointsTo_rects (Val := Elt F) (Ix := Unit) (Name := ℕ) (U := UU) (Lvl := ℕ) (c : Thread nD τ) (lM : Memref sig .tc .vmem S8x64x1024 .f32) q
    (fun t : Fin 8 × Fin 4 => lRect t.1 t.2) (fun _ _ => rfl) lRect_disjoint lRect_cover f
  rw [show (lM : Memref sig .tc .vmem S8x64x1024 .f32).view.set = Finset.univ from View.set_whole _] at h
  rw [h]
  refine bigSep_mono fun t _ => ?_
  rw [owns_slice_read]
  have e := owns_intro (Val := Elt F) (Ix := Unit) (Name := ℕ) (U := UU) (Lvl := ℕ) (c : Thread nD τ) (lS t.1 t.2 : Memref sig .tc .vmem S16x1024 .f32) q f
  rw [set_lS] at e
  exact e

/-- Its strips, each owned at some contents, join to the buffer whole at some contents. -/
theorem l_join (c : Dev nD) (q : PosShare TreeShare) :
    bigSep Finset.univ (fun t : Fin 8 × Fin 4 => iprop(∃ Y, owns (c : Thread nD τ) (lS t.1 t.2) q Y))
      ⊢ (iprop(∃ f, (((c : Thread nD τ).loc cc0_scratch0) ↦{q} f)) : sProp 𝕄) := by
  have h1 : bigSep Finset.univ (fun t : Fin 8 × Fin 4 => iprop(∃ Y, owns (c : Thread nD τ) (lS t.1 t.2) q Y))
      ⊢ (bigSep Finset.univ (fun t : Fin 8 × Fin 4 => iprop(∃ f : Buf (Elt F) ((c : Thread nD τ).loc cc0_scratch0),
          (((c : Thread nD τ).loc cc0_scratch0) ↦[(lRect t.1 t.2).set]{q} f))) : sProp 𝕄) :=
    bigSep_mono fun t _ => by
      have e : (lS t.1 t.2 : Memref sig .tc .vmem S16x1024 .f32).view.set = (lRect t.1 t.2).set := lS_view_set t
      show iprop(∃ Y, owns (c : Thread nD τ) (lS t.1 t.2) q Y)
        ⊢ (iprop(∃ f : Buf (Elt F) ((c : Thread nD τ).loc cc0_scratch0), (((c : Thread nD τ).loc cc0_scratch0) ↦[(lRect t.1 t.2).set]{q} f)) : sProp 𝕄)
      rw [← e]
      unfold owns
      iintro ⟨%Y, %f, -, H⟩
      iexists f
      iexact H
  refine h1.trans ((bigSep_exists_pi Finset.univ _).trans ?_)
  iintro ⟨%fs, H⟩
  ihave H' := (pointsTo_biUnion_join Finset.univ (fun t : Fin 8 × Fin 4 => (lRect t.1 t.2).set) fs (fs default)
    (fun t _ t' _ h => lRect_disjoint t t' h)) $$ H
  icases H' with ⟨%g, -, H⟩
  iexists g
  rw [lRect_cover]
  iexact H

omit [FloatOps F] in
theorem rS_view_set (t : Fin 7 × Fin 4) : (rS t.1 t.2 : Memref sig .tc .vmem S16x1024 .f32).view.set = (rRect t.1 t.2).set :=
  (set_rS t.1 t.2).trans (View.set_slice_whole _ _)

/-- The buffer receiving the chunks that travel right, whole, is its 28 strips, each owned at what it reads of the contents. -/
theorem r_split (c : Dev nD) (q : PosShare TreeShare) (f : (cc0_scratch1 : Ref sig .tc).ty.Contents (Elt F)) :
    ((((c : Thread nD τ).loc cc0_scratch1) ↦{q} f) : sProp 𝕄)
      ⊢ bigSep Finset.univ fun t : Fin 7 × Fin 4 => owns (c : Thread nD τ) (rS t.1 t.2) q ((rS t.1 t.2).view.read (Elt F) f) := by
  have h := pointsTo_rects (Val := Elt F) (Ix := Unit) (Name := ℕ) (U := UU) (Lvl := ℕ) (c : Thread nD τ) (rM : Memref sig .tc .vmem S7x64x1024 .f32) q
    (fun t : Fin 7 × Fin 4 => rRect t.1 t.2) (fun _ _ => rfl) rRect_disjoint rRect_cover f
  rw [show (rM : Memref sig .tc .vmem S7x64x1024 .f32).view.set = Finset.univ from View.set_whole _] at h
  rw [h]
  refine bigSep_mono fun t _ => ?_
  rw [owns_slice_read]
  have e := owns_intro (Val := Elt F) (Ix := Unit) (Name := ℕ) (U := UU) (Lvl := ℕ) (c : Thread nD τ) (rS t.1 t.2 : Memref sig .tc .vmem S16x1024 .f32) q f
  rw [set_rS] at e
  exact e

/-- Its strips, each owned at some contents, join to the buffer whole at some contents. -/
theorem r_join (c : Dev nD) (q : PosShare TreeShare) :
    bigSep Finset.univ (fun t : Fin 7 × Fin 4 => iprop(∃ Y, owns (c : Thread nD τ) (rS t.1 t.2) q Y))
      ⊢ (iprop(∃ f, (((c : Thread nD τ).loc cc0_scratch1) ↦{q} f)) : sProp 𝕄) := by
  have h1 : bigSep Finset.univ (fun t : Fin 7 × Fin 4 => iprop(∃ Y, owns (c : Thread nD τ) (rS t.1 t.2) q Y))
      ⊢ (bigSep Finset.univ (fun t : Fin 7 × Fin 4 => iprop(∃ f : Buf (Elt F) ((c : Thread nD τ).loc cc0_scratch1),
          (((c : Thread nD τ).loc cc0_scratch1) ↦[(rRect t.1 t.2).set]{q} f))) : sProp 𝕄) :=
    bigSep_mono fun t _ => by
      have e : (rS t.1 t.2 : Memref sig .tc .vmem S16x1024 .f32).view.set = (rRect t.1 t.2).set := rS_view_set t
      show iprop(∃ Y, owns (c : Thread nD τ) (rS t.1 t.2) q Y)
        ⊢ (iprop(∃ f : Buf (Elt F) ((c : Thread nD τ).loc cc0_scratch1), (((c : Thread nD τ).loc cc0_scratch1) ↦[(rRect t.1 t.2).set]{q} f)) : sProp 𝕄)
      rw [← e]
      unfold owns
      iintro ⟨%Y, %f, -, H⟩
      iexists f
      iexact H
  refine h1.trans ((bigSep_exists_pi Finset.univ _).trans ?_)
  iintro ⟨%fs, H⟩
  ihave H' := (pointsTo_biUnion_join Finset.univ (fun t : Fin 7 × Fin 4 => (rRect t.1 t.2).set) fs (fs default)
    (fun t _ t' _ h => rRect_disjoint t t' h)) $$ H
  icases H' with ⟨%g, -, H⟩
  iexists g
  rw [rRect_cover]
  iexact H

/-! ## The statements the body's walk cites -/

/-- Owning a memref at known contents is, forgetting them, the points-to of its elements at some contents. -/
theorem owns_forget (d : Thread nD τ) {sp : Space} {sh : Shape} {e : EltTy} (M : Memref sig d.2.kind sp sh e) (X : sh.Idx → Elt F e) :
    (owns d M fullShare X : sProp 𝕄) ⊢ iprop(∃ g, M.view.loc d ↦[M.view.set]{fullShare} g) := by
  unfold owns
  iintro ⟨%g, -, H⟩
  iexists g
  iexact H

theorem out_split (c : Dev nD) (f : Buf (Elt F) ((c : Thread nD τ).loc cc0_stg2_0)) :
    (((Memref.whole cc0_stg2_0 : Memref sig .tc .vmem S1024x1024 .f32).view.loc (c : Thread nD τ) ↦{fullShare} f) : sProp 𝕄)
      ⊢ bigSep Finset.univ (fun aj : Fin 16 × Fin 4 => owns (c : Thread nD τ) (oS c aj.1.val aj.2) fullShare ((oS c aj.1.val aj.2).view.read (Elt F) f)) :=
  Entails.of_eq (out_strips c fullShare f)

theorem out_join (c : Dev nD) (Y : Fin 16 × Fin 4 → S16x1024.Idx → Elt F .f32) (X : (cc0_stg2_0 : Ref sig .tc).ty.Contents (Elt F))
    (h : ∀ aj : Fin 16 × Fin 4, (oS c aj.1.val aj.2).view.read (Elt F) X = Y aj) :
    bigSep Finset.univ (fun aj : Fin 16 × Fin 4 => owns (c : Thread nD τ) (oS c aj.1.val aj.2) fullShare (Y aj))
      ⊢ (((Memref.whole cc0_stg2_0 : Memref sig .tc .vmem S1024x1024 .f32).view.loc (c : Thread nD τ) ↦{fullShare} X) : sProp 𝕄) :=
  out_joinY c fullShare X Y fun aj => (h aj).symm

theorem lbuf_split (d : Dev nD) (f : Buf (Elt F) ((d : Thread nD τ).loc cc0_scratch0)) :
    (((Memref.whole cc0_scratch0 : Memref sig .tc .vmem S8x64x1024 .f32).view.loc (d : Thread nD τ) ↦{fullShare} f) : sProp 𝕄)
      ⊢ bigSep Finset.univ (fun sj : Fin 8 × Fin 4 => iprop(∃ g, (lS sj.1 sj.2).view.loc (d : Thread nD τ) ↦[(lS sj.1 sj.2).view.set]{fullShare} g)) :=
  (l_split d fullShare f).trans (bigSep_mono fun sj _ => owns_forget (d : Thread nD τ) (lS sj.1 sj.2) _)

theorem lbuf_join (d : Dev nD) :
    bigSep Finset.univ (fun sj : Fin 8 × Fin 4 => iprop(∃ g, (lS sj.1 sj.2).view.loc (d : Thread nD τ) ↦[(lS sj.1 sj.2).view.set]{fullShare} g))
      ⊢ (iprop(∃ f, (((d : Thread nD τ).loc cc0_scratch0) ↦{fullShare} f)) : sProp 𝕄) := by
  refine (bigSep_mono fun sj _ => ?_).trans (l_join d fullShare)
  show iprop(∃ g, (lS sj.1 sj.2).view.loc (d : Thread nD τ) ↦[(lS sj.1 sj.2).view.set]{fullShare} g)
    ⊢ (iprop(∃ Y, owns (d : Thread nD τ) (lS sj.1 sj.2) fullShare Y) : sProp 𝕄)
  iintro ⟨%g, H⟩
  iexists _
  iapply (owns_intro (d : Thread nD τ) (lS sj.1 sj.2) fullShare g)
  iexact H

theorem rbuf_split (d : Dev nD) (f : Buf (Elt F) ((d : Thread nD τ).loc cc0_scratch1)) :
    (((Memref.whole cc0_scratch1 : Memref sig .tc .vmem S7x64x1024 .f32).view.loc (d : Thread nD τ) ↦{fullShare} f) : sProp 𝕄)
      ⊢ bigSep Finset.univ (fun sj : Fin 7 × Fin 4 => iprop(∃ g, (rS sj.1 sj.2).view.loc (d : Thread nD τ) ↦[(rS sj.1 sj.2).view.set]{fullShare} g)) :=
  (r_split d fullShare f).trans (bigSep_mono fun sj _ => owns_forget (d : Thread nD τ) (rS sj.1 sj.2) _)

theorem rbuf_join (d : Dev nD) :
    bigSep Finset.univ (fun sj : Fin 7 × Fin 4 => iprop(∃ g, (rS sj.1 sj.2).view.loc (d : Thread nD τ) ↦[(rS sj.1 sj.2).view.set]{fullShare} g))
      ⊢ (iprop(∃ f, (((d : Thread nD τ).loc cc0_scratch1) ↦{fullShare} f)) : sProp 𝕄) := by
  refine (bigSep_mono fun sj _ => ?_).trans (r_join d fullShare)
  show iprop(∃ g, (rS sj.1 sj.2).view.loc (d : Thread nD τ) ↦[(rS sj.1 sj.2).view.set]{fullShare} g)
    ⊢ (iprop(∃ Y, owns (d : Thread nD τ) (rS sj.1 sj.2) fullShare Y) : sProp 𝕄)
  iintro ⟨%g, H⟩
  iexists _
  iapply (owns_intro (d : Thread nD τ) (rS sj.1 sj.2) fullShare g)
  iexact H

end Cert.KernelIdeal.Hand
end
-- ==== Proof.FamLocalB.lean ====
/-
  GELU of a strip of the output buffer in place, and the final result read strip by strip: the strip `j` of the chunk at
  distance `a` from a device's ring position is the finished strip of the device at position `posOf c + a`.
-/
import proofs.«900799_g7700000000000800_dist_gemm_ar_m1024_k1024_n1024_f32_gelu_v7x_i16_1_alg».proof.Proof.FamLocal

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## GELU of a strip, and the result read by strips -/

/-- GELU of one strip of the output buffer in place: the strip is loaded (twice, as the program does) and the function of what
    the first load read is stored over it. -/
theorem wp_gelu (c : Dev nD) (a : ℕ) (j : Fin 4)
    (pay : (S16x1024.Idx → Elt F .f32) → S16x1024.Idx → Elt F .f32) (hpay : ∀ u, pay u = geluS u)
    {off : Fin 2 → ℕ} (hoff : off = ![chunkRow c a + 16 * j.val, 0])
    {inb : ∀ b, off b + S16x1024.size b ≤ S1024x1024.size b}
    {X : S16x1024.Idx → Elt F .f32}
    {hl1 : (oM : Memref sig .tc .vmem S1024x1024 .f32).view.LoadsAt (Rect.unit (s := S1024x1024) off S16x1024.size inb).toLoadRect}
    {hl2 : (oM : Memref sig .tc .vmem S1024x1024 .f32).view.LoadsAt (Rect.unit (s := S1024x1024) off S16x1024.size inb).toLoadRect}
    {hx : ((oM : Memref sig .tc .vmem S1024x1024 .f32).access (Rect.unit (s := S1024x1024) off S16x1024.size inb) : View sig .tc _ _ _).Stores Finset.univ}
    {hm : (Finset.univ : Finset (Rect.unit (s := S1024x1024) off S16x1024.size inb).shape.Idx) = Finset.univ ∨ ∀ b, (Rect.unit (s := S1024x1024) off S16x1024.size inb).stride b = 1}
    {α : Type} {Q : α → sProp 𝕄} {k : PUnit → Prog (TpuEff nD τ sig (Elt F) Λ₀ .tc) α} :
    owns (c : Thread nD τ) (oS c a j) fullShare X
      ⊢ iprop((owns (c : Thread nD τ) (oS c a j) fullShare (geluS X)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S1024x1024) off S16x1024.size inb).toLoadRect hl1) fun v =>
               .op (.load oM (Rect.unit (s := S1024x1024) off S16x1024.size inb).toLoadRect hl2) fun _ =>
               .op (.store oM (Rect.unit (s := S1024x1024) off S16x1024.size inb) (pay v) Finset.univ hx hm) k) Q) := by
  iintro H Hk
  iapply (wp_loadO c a j hoff) $$ H; iintro H
  iapply (wp_loadO c a j hoff) $$ H; iintro H
  iapply (wp_storeO c a j hoff) $$ H; iintro H
  rw [hpay]
  iapply Hk
  iexact H

section Final
variable (m : (ℓ : Loc nD τ sig) → Buf (Elt F) ℓ) (ρ : Dev nD → PrngReg)

/-- The result read through the strip `j` of the chunk at distance `a` from device `c`'s position: the finished strip of the
    device at position `posOf c + a`. -/
theorem out_final_read (c : Dev nD) (aj : Fin 16 × Fin 4) :
    (oS c aj.1.val aj.2 : Memref sig .tc .vmem S16x1024 .f32).view.read (Elt F) (outFinal m ρ)
      = fin m ρ (posOf c + ⟨aj.1.val, aj.1.isLt⟩) aj.2 := by
  funext x
  show outFinal m ρ ((oR c aj.1.val aj.2).emb x) = _
  have hx0 : (x 0).val < 16 := (x 0).isLt
  have hx1 : (x 1).val < 1024 := (x 1).isLt
  have h1 := aj.1.isLt; have h2 := aj.2.isLt; have hp := (posOf c).isLt
  have e0 : (((oR c aj.1.val aj.2).emb x) 0).val = chunkRow c aj.1.val + 16 * aj.2.val + (x 0).val := by
    rw [Rect.emb_apply]; show chunkRow c aj.1.val + 16 * aj.2.val + 1 * (x 0).val = _; omega
  have e1 : (((oR c aj.1.val aj.2).emb x) 1).val = (x 1).val := by
    rw [Rect.emb_apply]; show 0 + 1 * (x 1).val = _; omega
  have key : ∀ (p p' : Fin 16) (j j' : Fin 4) (y y' : S16x1024.Idx), p = p' → j = j' → y = y' → fin m ρ p j y = fin m ρ p' j' y' := by
    intro p p' j j' y y' hp hj hy; rw [hp, hj, hy]
  unfold outFinal
  refine key _ _ _ _ _ _ (Fin.ext ?_) (Fin.ext ?_) (funext fun b => Fin.ext ?_)
  · show (((oR c aj.1.val aj.2).emb x) 0).val / 64 % 16 = ((posOf c).val + aj.1.val) % 16
    rw [e0]; unfold chunkRow; omega
  · show (((oR c aj.1.val aj.2).emb x) 0).val % 64 / 16 % 4 = aj.2.val
    rw [e0]; unfold chunkRow; omega
  · fin_cases b
    · show (((oR c aj.1.val aj.2).emb x) 0).val % 16 = (x 0).val
      rw [e0]; unfold chunkRow; omega
    · show (((oR c aj.1.val aj.2).emb x) 1).val % 1024 = (x 1).val
      rw [e1]; omega

end Final

end Cert.KernelIdeal.Hand
end
-- ==== Proof.Finish.lean ====
/-
  The end of a device's body, whatever the program's text: every transfer cell past its one round closes and its counter
  is the device's again at zero; the strips of the two receive buffers, each at some contents, are the buffers whole; the
  64 strips of the output buffer at their final values are the buffer at the result. And the strips the gather phase
  hands back, named by the chunk's distance from the device's position: an arrival brings the finished strip of the chunk
  at distance `15 - s` (travelling right) or `1 + s` (travelling left); a departure returns the strip it was read from,
  the two first ones the two halves of the device's own chunk (chunk 16 counted from a position is chunk 0 again).
-/
import proofs.«900799_g7700000000000800_dist_gemm_ar_m1024_k1024_n1024_f32_gelu_v7x_i16_1_alg».proof.Proof.FamLocalB
import proofs.«900799_g7700000000000800_dist_gemm_ar_m1024_k1024_n1024_f32_gelu_v7x_i16_1_alg».proof.Proof.FamReduce
import Idealize.ShloMosaic.Lib.StableHlo.CollectiveRules

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 241 → ℕ)

/-! ## The semaphores, the receive buffers and the output buffer at the end -/

/-- Every transfer cell of the device, past its one round, closes: its counter is the device's again, at zero. -/
theorem finish_sems (c : Dev nD) :
    iprop(records m ρ K ∗ bigSep (Finset.univ.filter fun k : Fin 241 => k.val ≠ 0) (fun k => atPos ER (kcell (c, k)) 1 ∅ 0))
      ⊢ (iprop(|={Set.univ}=> semsZero c) : sProp 𝕄) := by
  unfold semsZero
  refine (sep_mono_left (BI.bigSep_of_persistent (Finset.univ.filter fun k : Fin 241 => k.val ≠ 0) (records m ρ K))).trans ?_
  rw [← bigSep_sep']
  exact (bigSep_mono fun k _ => close_cell m ρ K c k).trans (bigSep_fupd _ _)

/-- The strips of the two receive buffers, each at some contents, are the two buffers whole at some contents. -/
theorem finish_scratch (c : Dev nD) :
    iprop(bigSep Finset.univ (fun sj : Fin 8 × Fin 4 => iprop(∃ Y, owns (c : Thread nD τ) (lS sj.1 sj.2) fullShare Y))
        ∗ bigSep Finset.univ (fun sj : Fin 7 × Fin 4 => iprop(∃ Y, owns (c : Thread nD τ) (rS sj.1 sj.2) fullShare Y)))
      ⊢ (scratch c : sProp 𝕄) := by
  unfold scratch
  exact BI.sep_mono (l_join c fullShare) (r_join c fullShare)

/-! ## A strip under another name -/

/-- Owning a memref is owning an equal one. -/
theorem owns_congr_mem (d : Thread nD τ) {sp : Space} {sh : Shape} {e : EltTy} {M M' : Memref sig d.2.kind sp sh e} (h : M = M')
    {q : PosShare TreeShare} {X : sh.Idx → Elt F e} : (owns d M q X : sProp 𝕄) ⊢ owns d M' q X := by
  subst h; exact .rfl

/-- The two halves of a memref owned at the same contents are the memref owned whole. -/
theorem owns_share_join (d : Thread nD τ) {sp : Space} {sh : Shape} {e : EltTy} (M : Memref sig d.2.kind sp sh e) (X : sh.Idx → Elt F e) :
    iprop(owns d M fullShare.left X ∗ owns d M fullShare.right X) ⊢ (owns d M fullShare X : sProp 𝕄) :=
  (owns_share d M (PosShare.mem_left_op_right fullShare) X).2

omit [FloatOps F] in
/-- Chunk 16 counted from a device's position is its own chunk again. -/
theorem oS_sixteen (c : Dev nD) (j : Fin 4) : (oS c 16 j : Memref sig .tc .vmem S16x1024 .f32) = oS c 0 j := by
  have e : chunkRow c 16 = chunkRow c 0 := by unfold chunkRow; omega
  unfold oS oP
  exact Memref.slice_unit_congr _ (by rw [e]) _ _ _ _

omit [FloatOps F] in
theorem pos_sub_one_sub (p : Fin 16) (s : Fin 8) : p - 1 - ⟨s.val % 16, Nat.mod_lt _ (by decide)⟩ = p + ⟨15 - s.val, by omega⟩ := by
  revert p s; decide
omit [FloatOps F] in
theorem pos_add_one_add (p : Fin 16) (s : Fin 7) : p + 1 + ⟨s.val % 16, Nat.mod_lt _ (by decide)⟩ = p + ⟨1 + s.val, by have := s.isLt; omega⟩ := by
  revert p s; decide
omit [FloatOps F] in
theorem pos_sub (p : Fin 16) (s : Fin 8) : p - ⟨s.val % 16, Nat.mod_lt _ (by decide)⟩ = p + ⟨(16 - s.val) % 16, Nat.mod_lt _ (by decide)⟩ := by
  revert p s; decide
omit [FloatOps F] in
theorem pos_add (p : Fin 16) (s : Fin 7) : p + ⟨s.val % 16, Nat.mod_lt _ (by decide)⟩ = p + ⟨s.val, by have := s.isLt; omega⟩ := by
  revert p s; decide

/-! ## What the gather phase hands back, by the chunk's distance -/

/-- The arrival of the right-travelling step `s` is the finished strip of the chunk at distance `15 - s`. -/
theorem grArr_eq (c : Dev nD) (s : Fin 8) (j : Fin 4) :
    grArr m ρ c s j = owns (c : Thread nD τ) (oS c (15 - s.val) j) fullShare (fin m ρ (posOf c + ⟨15 - s.val, by omega⟩) j) := by
  unfold grArr; rw [pos_sub_one_sub]

/-- The arrival of the left-travelling step `s` is the finished strip of the chunk at distance `1 + s`. -/
theorem glArr_eq (c : Dev nD) (s : Fin 7) (j : Fin 4) :
    glArr m ρ c s j = owns (c : Thread nD τ) (oS c (1 + s.val) j) fullShare (fin m ρ (posOf c + ⟨1 + s.val, by have := s.isLt; omega⟩) j) := by
  unfold glArr; rw [pos_add_one_add]

omit [FloatOps F] in
theorem pos_sub_succ (p : Fin 16) (s : Fin 8) (hs : s.val ≠ 0) : p - ⟨s.val % 16, Nat.mod_lt _ (by decide)⟩ = p + ⟨16 - s.val, by omega⟩ := by
  revert p s; decide

/-- The departures of the first gather transfers return the two halves of the device's own finished chunk; the later ones
    return the whole strip they were read from. -/
theorem grDep_zero (c : Dev nD) (j : Fin 4) :
    grDep m ρ c 0 j = owns (c : Thread nD τ) (oS c 0 j) fullShare.right (fin m ρ (posOf c + ⟨0, by decide⟩) j) := by
  unfold grDep
  rw [pos_sub, show shG false (0 : Fin 8).val = fullShare.right from rfl]
  show owns (c : Thread nD τ) (oS c 16 j) fullShare.right (fin m ρ (posOf c + ⟨0, by decide⟩) j) = _
  rw [oS_sixteen]
theorem glDep_zero (c : Dev nD) (j : Fin 4) :
    glDep m ρ c 0 j = owns (c : Thread nD τ) (oS c 0 j) fullShare.left (fin m ρ (posOf c + ⟨0, by decide⟩) j) := by
  unfold glDep
  rw [pos_add, show shG true (0 : Fin 7).val = fullShare.left from rfl]
  rfl
theorem grDep_succ (c : Dev nD) (s : Fin 8) (hs : s.val ≠ 0) (j : Fin 4) :
    grDep m ρ c s j = owns (c : Thread nD τ) (oS c (16 - s.val) j) fullShare (fin m ρ (posOf c + ⟨16 - s.val, by omega⟩) j) := by
  unfold grDep
  rw [pos_sub_succ _ _ hs, show shG false s.val = fullShare from if_neg hs]
theorem glDep_succ (c : Dev nD) (s : Fin 7) (hs : s.val ≠ 0) (j : Fin 4) :
    glDep m ρ c s j = owns (c : Thread nD τ) (oS c s.val j) fullShare (fin m ρ (posOf c + ⟨s.val, by have := s.isLt; omega⟩) j) := by
  unfold glDep
  rw [pos_add, show shG true s.val = fullShare from if_neg hs]

/-- The two first departures together return the device's own finished strip whole. -/
theorem own_chunk_join (c : Dev nD) (j : Fin 4) :
    iprop(glDep m ρ c 0 j ∗ grDep m ρ c 0 j) ⊢ owns (c : Thread nD τ) (oS c 0 j) fullShare (fin m ρ (posOf c + ⟨0, by decide⟩) j) := by
  rw [glDep_zero, grDep_zero]
  exact owns_share_join (c : Thread nD τ) (oS c 0 j) _

/-- The 64 strips of the output buffer at their final values are the buffer whole at the result. -/
theorem finish_out (c : Dev nD) :
    bigSep Finset.univ (fun aj : Fin 16 × Fin 4 => owns (c : Thread nD τ) (oS c aj.1.val aj.2) fullShare (fin m ρ (posOf c + ⟨aj.1.val, aj.1.isLt⟩) aj.2))
      ⊢ (((Memref.whole cc0_stg2_0 : Memref sig .tc .vmem S1024x1024 .f32).view.loc (c : Thread nD τ) ↦{fullShare} outFinal m ρ) : sProp 𝕄) :=
  out_join c _ (outFinal m ρ) (out_final_read m ρ c)

end Cert.KernelIdeal.Hand
end
-- ==== Proof.BlockDefs.lean ====
/-
  The big conjunctions the body's walk carries, each a family over a finite index set: what is still at home, still to
  be paid, still to be waited for; and what has come back. A step of the walk takes items out of some and puts items into
  others; every step lemma is stated over these families.
-/
import proofs.«900799_g7700000000000800_dist_gemm_ar_m1024_k1024_n1024_f32_gelu_v7x_i16_1_alg».proof.Proof.Kit
import proofs.«900799_g7700000000000800_dist_gemm_ar_m1024_k1024_n1024_f32_gelu_v7x_i16_1_alg».proof.Proof.FamGather
import proofs.«900799_g7700000000000800_dist_gemm_ar_m1024_k1024_n1024_f32_gelu_v7x_i16_1_alg».proof.Proof.FamLocalB
import proofs.«900799_g7700000000000800_dist_gemm_ar_m1024_k1024_n1024_f32_gelu_v7x_i16_1_alg».proof.Proof.Finish

noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- A strip value per (distance, strip). -/
abbrev StripV (F : FTy → Type) : Type := Fin 16 × Fin 4 → S16x1024.Idx → Elt F .f32

/-- The device's own output strips at values `V`. -/
abbrev outΦ (c : Dev nD) (V : StripV F) : Fin 16 × Fin 4 → sProp 𝕄 :=
  fun aj => owns (c : Thread nD τ) (oS c aj.1.val aj.2) fullShare (V aj)
/-- Right after the product: the strips of the partial product. -/
abbrev partV (c : Dev nD) : StripV F := fun aj => partS m ρ c aj.1.val aj.2
/-- At the end: the finished strips. -/
abbrev finV (c : Dev nD) : StripV F := fun aj => fin m ρ (posOf c + ⟨aj.1.val, aj.1.isLt⟩) aj.2

/-- The slots of device `d`'s left-travelling (right-travelling) receive buffer, at some contents: what a sender into `d` holds. -/
abbrev lΦ (d : Dev nD) : Fin 8 × Fin 4 → sProp 𝕄 :=
  fun sj => iprop(∃ g, (lS sj.1 sj.2 : Memref sig .tc .vmem S16x1024 .f32).view.loc (d : Thread nD τ) ↦[(lS sj.1 sj.2 : Memref sig .tc .vmem S16x1024 .f32).view.set]{fullShare} g)
abbrev rΦ (d : Dev nD) : Fin 7 × Fin 4 → sProp 𝕄 :=
  fun sj => iprop(∃ g, (rS sj.1 sj.2 : Memref sig .tc .vmem S16x1024 .f32).view.loc (d : Thread nD τ) ↦[(rS sj.1 sj.2 : Memref sig .tc .vmem S16x1024 .f32).view.set]{fullShare} g)
/-- The device's own receive-buffer slots once used: at some value. -/
abbrev lbΦ (c : Dev nD) : Fin 8 × Fin 4 → sProp 𝕄 := fun sj => iprop(∃ Y, owns (c : Thread nD τ) (lS sj.1 sj.2) fullShare Y)
abbrev rbΦ (c : Dev nD) : Fin 7 × Fin 4 → sProp 𝕄 := fun sj => iprop(∃ Y, owns (c : Thread nD τ) (rS sj.1 sj.2) fullShare Y)

/-- The token pairs of the transfers still to be started (as `payToks` spells them). -/
abbrev tokRlΦ (c : Dev nD) : Fin 8 × Fin 4 → sProp 𝕄 := fun sj => iprop(dutyTok ER (rlCell c 0 sj.1 sj.2) 0 false ∗ dutyTok ER (rlCell (lft c) 1 sj.1 sj.2) 0 false)
abbrev tokRrΦ (c : Dev nD) : Fin 7 × Fin 4 → sProp 𝕄 := fun sj => iprop(dutyTok ER (rrCell c 0 sj.1 sj.2) 0 false ∗ dutyTok ER (rrCell (rgt c) 1 sj.1 sj.2) 0 false)
abbrev tokGrΦ (c : Dev nD) : Fin 8 × Fin 4 → sProp 𝕄 := fun sj => iprop(dutyTok ER (grCell c 0 sj.1 sj.2) 0 false ∗ dutyTok ER (grCell (rgt c) 1 sj.1 sj.2) 0 false)
abbrev tokGlΦ (c : Dev nD) : Fin 7 × Fin 4 → sProp 𝕄 := fun sj => iprop(dutyTok ER (glCell c 0 sj.1 sj.2) 0 false ∗ dutyTok ER (glCell (lft c) 1 sj.1 sj.2) 0 false)

/-- The credits of the arrivals still to be waited for (as `creds` spells them). -/
abbrev arrRlΦ (c : Dev nD) : Fin 8 × Fin 4 → sProp 𝕄 := fun sj => cred (tallyAt (rlCell c 1 sj.1 sj.2) () N16)
abbrev arrRrΦ (c : Dev nD) : Fin 7 × Fin 4 → sProp 𝕄 := fun sj => cred (tallyAt (rrCell c 1 sj.1 sj.2) () N16)
abbrev arrGrΦ (c : Dev nD) : Fin 8 × Fin 4 → sProp 𝕄 := fun sj => cred (tallyAt (grCell c 1 sj.1 sj.2) () N16)
abbrev arrGlΦ (c : Dev nD) : Fin 7 × Fin 4 → sProp 𝕄 := fun sj => cred (tallyAt (glCell c 1 sj.1 sj.2) () N16)

/-- The credits of the departures started and not yet waited for. -/
abbrev depRlΦ (c : Dev nD) : Fin 8 × Fin 4 → sProp 𝕄 := fun sj => cred (tallyAt (rlCell c 0 sj.1 sj.2) () N16)
abbrev depRrΦ (c : Dev nD) : Fin 7 × Fin 4 → sProp 𝕄 := fun sj => cred (tallyAt (rrCell c 0 sj.1 sj.2) () N16)
abbrev depGrΦ (c : Dev nD) : Fin 8 × Fin 4 → sProp 𝕄 := fun sj => cred (tallyAt (grCell c 0 sj.1 sj.2) () N16)
abbrev depGlΦ (c : Dev nD) : Fin 7 × Fin 4 → sProp 𝕄 := fun sj => cred (tallyAt (glCell c 0 sj.1 sj.2) () N16)

/-- The owner's positions: cells not yet waited for (round 0) and cells done (round 1). -/
abbrev posΦ (c : Dev nD) : Fin 241 → sProp 𝕄 := fun k => atPos ER (kcell (c, k)) 0 ∅ 0
abbrev doneΦ (c : Dev nD) : Fin 241 → sProp 𝕄 := fun k => atPos ER (kcell (c, k)) 1 ∅ 0

/-- The neighbours' output strips a device holds between a reduce arrival and the gather send into them: of the neighbour
    AFTER it (index: the reduce-left step) and of the neighbour BEFORE it (the reduce-right step), at some value. -/
abbrev nbRΦ (c : Dev nD) : Fin 8 × Fin 4 → sProp 𝕄 :=
  fun sj => iprop(∃ g, (oS (rgt c) (8 + sj.1.val) sj.2).view.loc (rgt c : Thread nD τ) ↦[(oS (rgt c) (8 + sj.1.val) sj.2).view.set]{fullShare} g)
abbrev nbLΦ (c : Dev nD) : Fin 7 × Fin 4 → sProp 𝕄 :=
  fun sj => iprop(∃ g, (oS (lft c) (7 - sj.1.val) sj.2).view.loc (lft c : Thread nD τ) ↦[(oS (lft c) (7 - sj.1.val) sj.2).view.set]{fullShare} g)

/-- The closing side conditions of a step: membership in sets given by erasures and insertions of literals. -/
macro "imem" : tactic => `(tactic| (ipureintro; simp only [Finset.mem_erase, Finset.mem_insert, Finset.mem_univ, Finset.notMem_empty, and_true, not_or, ne_eq, Prod.mk.injEq, not_false_eq_true]; decide))

end Cert.KernelIdeal.Hand
end
-- ==== Proof.BlocksLocal.lean ====
/-
  Small steps of the body's walk over the families of big conjunctions: a device's output strip taken out of those it
  holds or put among the finished ones; a used strip of a receive buffer put among the used ones; the three ends (the
  output buffer at the result, the receive buffers whole, the transfer semaphores at zero); and the values the
  receive-adds and the GELU leave, by the definitions of the running sums.
-/
import proofs.«900799_g7700000000000800_dist_gemm_ar_m1024_k1024_n1024_f32_gelu_v7x_i16_1_alg».proof.Proof.BlockDefs

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 241 → ℕ)

/-! ## Output strips out of and into their conjunction -/

/-- One of the device's output strips, taken out of those it holds. -/
theorem blk_out_take (c : Dev nD) (a : Fin 16) (j : Fin 4) (V : StripV F) (So : Finset (Fin 16 × Fin 4)) :
    iprop(bigSep So (outΦ c V) ∗ ⌜(a, j) ∈ So⌝)
      ⊢ iprop(owns (c : Thread nD τ) (oS c a.val j) fullShare (V (a, j)) ∗ bigSep (So.erase (a, j)) (outΦ c V)) := by
  iintro ⟨H, %h⟩
  ihave H' := (take So (a, j) h (outΦ c V)) $$ H
  iexact H'

/-- A strip at its final value joins the finished ones. -/
theorem blk_fin_put (c : Dev nD) (a : Fin 16) (j : Fin 4) (Sf : Finset (Fin 16 × Fin 4)) :
    iprop(owns (c : Thread nD τ) (oS c a.val j) fullShare (finV m ρ c (a, j)) ∗ bigSep Sf (outΦ c (finV m ρ c)) ∗ ⌜(a, j) ∉ Sf⌝)
      ⊢ bigSep (insert (a, j) Sf) (outΦ c (finV m ρ c)) := by
  iintro ⟨H1, H2, %h⟩
  iapply (put Sf (a, j) h (outΦ c (finV m ρ c)))
  isplitl [H1]
  · iexact H1
  · iexact H2

/-- A strip at any value joins a conjunction of output strips at values `V` that agree with it there. -/
theorem blk_out_put (c : Dev nD) (a : Fin 16) (j : Fin 4) (V : StripV F) (So : Finset (Fin 16 × Fin 4)) :
    iprop(owns (c : Thread nD τ) (oS c a.val j) fullShare (V (a, j)) ∗ bigSep So (outΦ c V) ∗ ⌜(a, j) ∉ So⌝)
      ⊢ bigSep (insert (a, j) So) (outΦ c V) := by
  iintro ⟨H1, H2, %h⟩
  iapply (put So (a, j) h (outΦ c V))
  isplitl [H1]
  · iexact H1
  · iexact H2

/-- A used strip of a receive buffer, at whatever it holds, joins the used ones. -/
theorem blk_lb_put (c : Dev nD) (s : Fin 8) (j : Fin 4) (Y : S16x1024.Idx → Elt F .f32) (Sb : Finset (Fin 8 × Fin 4)) :
    iprop(owns (c : Thread nD τ) (lS s j) fullShare Y ∗ bigSep Sb (lbΦ c) ∗ ⌜(s, j) ∉ Sb⌝)
      ⊢ bigSep (insert (s, j) Sb) (lbΦ (F := F) c) := by
  iintro ⟨H1, H2, %h⟩
  iapply (put Sb (s, j) h (lbΦ (F := F) c))
  isplitl [H1]
  · iexists Y; iexact H1
  · iexact H2
theorem blk_rb_put (c : Dev nD) (s : Fin 7) (j : Fin 4) (Y : S16x1024.Idx → Elt F .f32) (Sb : Finset (Fin 7 × Fin 4)) :
    iprop(owns (c : Thread nD τ) (rS s j) fullShare Y ∗ bigSep Sb (rbΦ c) ∗ ⌜(s, j) ∉ Sb⌝)
      ⊢ bigSep (insert (s, j) Sb) (rbΦ (F := F) c) := by
  iintro ⟨H1, H2, %h⟩
  iapply (put Sb (s, j) h (rbΦ (F := F) c))
  isplitl [H1]
  · iexists Y; iexact H1
  · iexact H2

/-! ## The ends -/

theorem fin_out (c : Dev nD) :
    bigSep Finset.univ (outΦ c (finV m ρ c))
      ⊢ (((Memref.whole cc0_stg2_0 : Memref sig .tc .vmem S1024x1024 .f32).view.loc (c : Thread nD τ) ↦{fullShare} outFinal m ρ) : sProp 𝕄) :=
  finish_out m ρ c

theorem fin_scratch (c : Dev nD) : iprop(bigSep Finset.univ (lbΦ (F := F) c) ∗ bigSep Finset.univ (rbΦ (F := F) c)) ⊢ (scratch c : sProp 𝕄) :=
  finish_scratch c

omit [FloatOps F] in
theorem univ_erase_zero : (Finset.univ.erase (0 : Fin 241)) = Finset.univ.filter fun k : Fin 241 => k.val ≠ 0 := by
  ext k
  rw [Finset.mem_erase, Finset.mem_filter]
  constructor
  · rintro ⟨h, -⟩; exact ⟨Finset.mem_univ _, fun e => h (Fin.ext e)⟩
  · rintro ⟨-, h⟩; exact ⟨fun e => h (congrArg Fin.val e), Finset.mem_univ _⟩

theorem fin_done (c : Dev nD) :
    iprop(records m ρ K ∗ bigSep (Finset.univ.erase (0 : Fin 241)) (doneΦ (F := F) c)) ⊢ (iprop(|={Set.univ}=> semsZero c) : sProp 𝕄) := by
  rw [univ_erase_zero]
  exact finish_sems m ρ K c

/-! ## The values the adds and the GELU leave -/

theorem addL_val (c : Dev nD) (s : ℕ) (j : Fin 4) :
    addS (partS m ρ c (8 + (s + 1)) j) (accL m ρ s (rgt c) j) = accL m ρ (s + 1) c j := rfl
theorem addR_val (c : Dev nD) (s : ℕ) (j : Fin 4) :
    addS (partS m ρ c (7 - (s + 1)) j) (accR m ρ s (lft c) j) = accR m ρ (s + 1) c j := rfl
theorem tot_val (c : Dev nD) (j : Fin 4) :
    addS (addS (partS m ρ c 0 j) (accR m ρ 6 (lft c) j)) (accL m ρ 7 (rgt c) j) = tot m ρ c j := rfl
theorem tot_val' (c : Dev nD) (j : Fin 4) :
    addS (accR m ρ 7 c j) (accL m ρ 7 (rgt c) j) = tot m ρ c j := rfl
theorem gelu_val (c : Dev nD) (j : Fin 4) : geluS (tot m ρ c j) = fin m ρ (posOf c) j := by
  unfold fin; rw [devAt_posOf]
/-- The device's own finished strip as the final value at distance 0. -/
theorem gelu_val_fin (c : Dev nD) (j : Fin 4) : geluS (tot m ρ c j) = finV m ρ c ((0 : Fin 16), j) := by
  rw [gelu_val]; show fin m ρ (posOf c) j = fin m ρ (posOf c + ⟨0, _⟩) j
  congr 1; exact (Fin.add_zero _).symm

/-- Chunk 16 is the device's own chunk: the same strip of the partial product, -/
theorem partS_sixteen (c : Dev nD) (j : Fin 4) : partS m ρ c 16 j = partS m ρ c 0 j := by
  have e : chunkRow c 16 = chunkRow c 0 := by unfold chunkRow; omega
  have key : ∀ (r r' : ℕ) (h : r + 16 ≤ 1024) (h' : r' + 16 ≤ 1024), r = r' →
      (oP r h : Memref sig .tc .vmem S16x1024 .f32).view.read (Elt F) (part m ρ c) = (oP r' h' : Memref sig .tc .vmem S16x1024 .f32).view.read (Elt F) (part m ρ c) := by
    intro r r' h h' e; subst e; rfl
  exact key _ _ _ _ (by rw [e])
/-- and owned under either name. -/
theorem owns_sixteen (c : Dev nD) (j : Fin 4) {q : PosShare TreeShare} {X : S16x1024.Idx → Elt F .f32} :
    (owns (c : Thread nD τ) (oS c 16 j) q X : sProp 𝕄) ⊢ owns (c : Thread nD τ) (oS c 0 j) q X :=
  owns_congr_mem (c : Thread nD τ) (oS_sixteen c j)
theorem owns_sixteen' (c : Dev nD) (j : Fin 4) {q : PosShare TreeShare} {X : S16x1024.Idx → Elt F .f32} :
    (owns (c : Thread nD τ) (oS c 0 j) q X : sProp 𝕄) ⊢ owns (c : Thread nD τ) (oS c 16 j) q X :=
  owns_congr_mem (c : Thread nD τ) (oS_sixteen c j).symm

/-! ## A memref owned whole is its two halves -/

theorem owns_share_split (d : Thread nD τ) {sp : Space} {sh : Shape} {e : EltTy} (M : Memref sig d.2.kind sp sh e) (X : sh.Idx → Elt F e) :
    (owns d M fullShare X : sProp 𝕄) ⊢ iprop(owns d M fullShare.left X ∗ owns d M fullShare.right X) :=
  (owns_share d M (PosShare.mem_left_op_right fullShare) X).1

end Cert.KernelIdeal.Hand
end
-- ==== Proof.Order.lean ====
/-
  The payments in the order the kernel's text makes them. Every device runs the same text, so the order is one
  function `ord` on payments; what a device still owes when it has made the first `t` payments is `Rem t`, the payments
  numbered `t` and above. A payment numbered `t` takes `Rem t` to `Rem (t + 1)`, and a wait at level `n` is below everything
  owed as soon as every payment numbered `t` and above has a level above `n`: a statement about numbers only.
-/
import proofs.«900799_g7700000000000800_dist_gemm_ar_m1024_k1024_n1024_f32_gelu_v7x_i16_1_alg».proof.Proof.FamReduce

noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The position of a payment in the kernel's text: the two barrier signals, then the reduce phase step by step (per strip
    left then right; the last step left only), the first gather sends inside the own chunk's loop, then the gather phase. -/
def Pay.ord : Pay → ℕ
  | .barL => 0
  | .barR => 1
  | .rl s j => if s.val < 7 then 2 + 8 * s.val + 2 * j.val else 58 + j.val
  | .rr s j => 3 + 8 * s.val + 2 * j.val
  | .gr s j => if s.val = 0 then 62 + 2 * j.val else if s.val < 7 then 70 + 8 * (s.val - 1) + 2 * j.val else 118 + j.val
  | .gl s j => if s.val = 0 then 63 + 2 * j.val else 71 + 8 * (s.val - 1) + 2 * j.val

theorem Pay.ord_lt (p : Pay) : p.ord < 122 := by
  cases p with
  | barL => decide
  | barR => decide
  | rl s j => revert s j; decide
  | rr s j => revert s j; decide
  | gr s j => revert s j; decide
  | gl s j => revert s j; decide

theorem Pay.ord_injective : Function.Injective Pay.ord := by
  have key : ∀ p q : Pay, p.ord = q.ord → p = q := by
    intro p q
    cases p <;> cases q <;>
      (first
        | decide
        | (rename_i s j s' j'; revert s j s' j'; decide)
        | (rename_i s j; revert s j; decide))
  exact fun p q h => key p q h

/-- What is still owed after the first `t` payments. -/
def Rem (t : ℕ) : Finset Pay := Finset.univ.filter fun p => t ≤ p.ord

theorem mem_Rem {t : ℕ} {p : Pay} : p ∈ Rem t ↔ t ≤ p.ord := by simp [Rem]
theorem Rem_zero : Rem 0 = Finset.univ := by ext p; simp [mem_Rem]
theorem mem_Rem_self (p : Pay) : p ∈ Rem p.ord := mem_Rem.mpr le_rfl

/-- Making the payment numbered `t`. -/
theorem Rem_erase (t : ℕ) (p : Pay) (hp : p.ord = t) : (Rem t).erase p = Rem (t + 1) := by
  ext q
  simp only [Finset.mem_erase, mem_Rem]
  constructor
  · rintro ⟨hne, hle⟩
    have : q.ord ≠ t := fun h => hne (Pay.ord_injective (h.trans hp.symm))
    omega
  · intro h
    exact ⟨fun he => by subst he; omega, by omega⟩

/-- After the last payment nothing is owed. -/
theorem Rem_end : Rem 122 = ∅ := by
  ext p; simp only [mem_Rem, Finset.notMem_empty, iff_false, not_le]; exact p.ord_lt
theorem owedOf_empty (c : Dev nD) : owedOf c ∅ = 0 := by unfold owedOf; exact Finset.sum_empty

/-- A wait at level `n` after `t` payments: allowed when every later payment's cell lies above `n`. -/
theorem may_of_Rem (c : Dev nD) (X : GSem nD τ sig) (n : ℕ) (hX : lv X () = n) (t : ℕ) (h : ∀ p : Pay, t ≤ p.ord → n < p.lvl) :
    (levAts L lv : sProp 𝕄) ⊢ MayWait (c : Thread nD τ) X.2 () (owedOf c (Rem t)) :=
  mayWait_num c X n hX (Rem t) fun p hp => h p (mem_Rem.mp hp)

end Cert.KernelIdeal.Hand
end
-- ==== Proof.BlocksSend.lean ====
/-
  The sends of the walk as steps over the big conjunctions: a step takes the strip it sends, the slot or strip it writes
  on the neighbour and the transfer's two duty tokens out of the families that hold them, pays the arrival it owes, and puts the
  departure's credit into the family of departures still to be waited for. Which item is meant is an index; that the index
  lies in (or outside) the family's current set is the step's one pure premise.
-/
import proofs.«900799_g7700000000000800_dist_gemm_ar_m1024_k1024_n1024_f32_gelu_v7x_i16_1_alg».proof.Proof.BlockDefs
import proofs.«900799_g7700000000000800_dist_gemm_ar_m1024_k1024_n1024_f32_gelu_v7x_i16_1_alg».proof.Proof.Order

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The reduce phase's sends -/

/-- Reduce leftwards, step `s`, strip `j`, the strip still among the device's own output strips (at distance `a = 8 + s`). -/
theorem blk_rl_send0 (K : Dev nD × Fin 241 → ℕ) (c : Dev nD) (s : Fin 8) (j : Fin 4) (a : Fin 16) (t : ℕ) (n : Dev nD) (hn : n = lft c)
    {off : Fin 2 → ℕ} (hoff : off = ![chunkRow c (8 + s.val) + 16 * j.val, 0])
    (V : StripV F) (hV : V (a, j) = accL m ρ s.val c j)
    {So : Finset (Fin 16 × Fin 4)} {Sl St Sd : Finset (Fin 8 × Fin 4)} {W : Waits sig Unit}
    {hinb : ∀ a, off a + S16x1024.size a ≤ S1024x1024.size a}
    {hst : ∀ a, (Rect.unit (s := S1024x1024) off S16x1024.size hinb).stride a = 1}
    {hsc : (lS s j : Memref sig (Dev.tc n : Thread nD τ).2.kind .vmem S16x1024 .f32).view.ref.isScScratch = false}
    {hsrc : ((oM).slice (Rect.unit (s := S1024x1024) off S16x1024.size hinb) hst : Memref sig .tc .vmem S16x1024 .f32).view.WordExact}
    {hdst : (lS s j : Memref sig .tc .vmem S16x1024 .f32).view.WordExact}
    {hsem : DmaTarget.Typed .vmem (.dma (sem8 cc0_scratch2 1 s j))
      (.remote (Dev.tc n : Thread nD τ) (lS s j : Memref sig .tc .vmem S16x1024 .f32) (.dma (sem8 cc0_scratch2 0 s j)) hsc)}
    {α : Type} {Q : α → sProp 𝕄} {k : PUnit → Prog (TpuEff nD τ sig (Elt F) Λ₀ .tc) α} :
    iprop(records m ρ K ∗ levAts L lv
        ∗ bigSep So (outΦ c V) ∗ bigSep Sl (lΦ (lft c)) ∗ bigSep St (tokRlΦ c) ∗ bigSep Sd (depRlΦ c)
        ∗ owes (c : Thread nD τ) (owedOf c (Rem t)) W
        ∗ ⌜(a, j) ∈ So ∧ a.val = 8 + s.val ∧ (s, j) ∈ Sl ∧ (s, j) ∈ St ∧ (s, j) ∉ Sd ∧ (Pay.rl s j).ord = t⌝)
      ⊢ iprop(((bigSep (So.erase (a, j)) (outΦ c V) ∗ bigSep (Sl.erase (s, j)) (lΦ (lft c)) ∗ bigSep (St.erase (s, j)) (tokRlΦ c)
              ∗ bigSep (insert (s, j) Sd) (depRlΦ c) ∗ owes (c : Thread nD τ) (owedOf c (Rem (t + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM).slice (Rect.unit (s := S1024x1024) off S16x1024.size hinb) hst : Memref sig .tc .vmem S16x1024 .f32)
                (.remote (Dev.tc n : Thread nD τ) (lS s j) (.dma (sem8 cc0_scratch2 0 s j)) hsc)
                (.dma (sem8 cc0_scratch2 1 s j)) hsrc hdst hsem) k) Q) := by
  iintro ⟨#Hrec, #Hlev, Ho, Hl, Ht, Hd, HO, %h⟩ Hk
  obtain ⟨hao, hav, hsl, hst', hsd, hS⟩ := h
  rw [← Rem_erase t _ hS]
  have e : outΦ c V (a, j) = owns (c : Thread nD τ) (oS c (8 + s.val) j) fullShare (accL m ρ s.val c j) := by
    show owns (c : Thread nD τ) (oS c a.val j) fullShare (V (a, j)) = _
    rw [hav, hV]
  ihave Ho' := (take So (a, j) hao (outΦ c V)) $$ Ho
  icases Ho' with ⟨Hsrc0, Ho⟩
  ihave Hsrc := (Entails.of_eq e) $$ Hsrc0
  ihave Hl' := (take Sl (s, j) hsl (lΦ (lft c))) $$ Hl
  icases Hl' with ⟨Hdst, Hl⟩
  ihave Ht' := (tok_rl_take c St (s, j) hst') $$ Ht
  icases Ht' with ⟨⟨Ht1, Ht2⟩, Ht⟩
  iapply (wp_rl_send m ρ K c s j n hn hoff (Rem t) (mem_Rem.mpr (le_of_eq hS.symm)) W rfl) $$ [Hsrc Hdst HO Ht1 Ht2] [Hk Ho Hl Ht Hd]
  · isplitr; · iexact Hrec
    isplitl [Hsrc]; · iexact Hsrc
    isplitl [Hdst]; · iexact Hdst
    isplitl [HO]; · iexact HO
    isplitl [Ht1]; · iexact Ht1
    iexact Ht2
  · iintro ⟨Hc, HO⟩
    iapply Hk
    isplitl [Ho]; · iexact Ho
    isplitl [Hl]; · iexact Hl
    isplitl [Ht]; · iexact Ht
    isplitl [Hc Hd]
    · iapply (put Sd (s, j) hsd (depRlΦ c))
      isplitl [Hc]; · iexact Hc
      iexact Hd
    iexact HO

/-- The same with the strip sent held by itself. -/
theorem blk_rl_send (K : Dev nD × Fin 241 → ℕ) (c : Dev nD) (s : Fin 8) (j : Fin 4) (t : ℕ) (n : Dev nD) (hn : n = lft c)
    {off : Fin 2 → ℕ} (hoff : off = ![chunkRow c (8 + s.val) + 16 * j.val, 0])
    {Sl St Sd : Finset (Fin 8 × Fin 4)} {W : Waits sig Unit}
    {hinb : ∀ a, off a + S16x1024.size a ≤ S1024x1024.size a}
    {hst : ∀ a, (Rect.unit (s := S1024x1024) off S16x1024.size hinb).stride a = 1}
    {hsc : (lS s j : Memref sig (Dev.tc n : Thread nD τ).2.kind .vmem S16x1024 .f32).view.ref.isScScratch = false}
    {hsrc : ((oM).slice (Rect.unit (s := S1024x1024) off S16x1024.size hinb) hst : Memref sig .tc .vmem S16x1024 .f32).view.WordExact}
    {hdst : (lS s j : Memref sig .tc .vmem S16x1024 .f32).view.WordExact}
    {hsem : DmaTarget.Typed .vmem (.dma (sem8 cc0_scratch2 1 s j))
      (.remote (Dev.tc n : Thread nD τ) (lS s j : Memref sig .tc .vmem S16x1024 .f32) (.dma (sem8 cc0_scratch2 0 s j)) hsc)}
    {α : Type} {Q : α → sProp 𝕄} {k : PUnit → Prog (TpuEff nD τ sig (Elt F) Λ₀ .tc) α} :
    iprop(records m ρ K ∗ levAts L lv
        ∗ owns (c : Thread nD τ) (oS c (8 + s.val) j) fullShare (accL m ρ s.val c j)
        ∗ bigSep Sl (lΦ (lft c)) ∗ bigSep St (tokRlΦ c) ∗ bigSep Sd (depRlΦ c)
        ∗ owes (c : Thread nD τ) (owedOf c (Rem t)) W
        ∗ ⌜(s, j) ∈ Sl ∧ (s, j) ∈ St ∧ (s, j) ∉ Sd ∧ (Pay.rl s j).ord = t⌝)
      ⊢ iprop(((bigSep (Sl.erase (s, j)) (lΦ (lft c)) ∗ bigSep (St.erase (s, j)) (tokRlΦ c)
              ∗ bigSep (insert (s, j) Sd) (depRlΦ c) ∗ owes (c : Thread nD τ) (owedOf c (Rem (t + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM).slice (Rect.unit (s := S1024x1024) off S16x1024.size hinb) hst : Memref sig .tc .vmem S16x1024 .f32)
                (.remote (Dev.tc n : Thread nD τ) (lS s j) (.dma (sem8 cc0_scratch2 0 s j)) hsc)
                (.dma (sem8 cc0_scratch2 1 s j)) hsrc hdst hsem) k) Q) := by
  iintro ⟨#Hrec, #Hlev, Hsrc, Hl, Ht, Hd, HO, %h⟩ Hk
  obtain ⟨hsl, hst', hsd, hS⟩ := h
  rw [← Rem_erase t _ hS]
  ihave Hl' := (take Sl (s, j) hsl (lΦ (lft c))) $$ Hl
  icases Hl' with ⟨Hdst, Hl⟩
  ihave Ht' := (tok_rl_take c St (s, j) hst') $$ Ht
  icases Ht' with ⟨⟨Ht1, Ht2⟩, Ht⟩
  iapply (wp_rl_send m ρ K c s j n hn hoff (Rem t) (mem_Rem.mpr (le_of_eq hS.symm)) W rfl) $$ [Hsrc Hdst HO Ht1 Ht2] [Hk Hl Ht Hd]
  · isplitr; · iexact Hrec
    isplitl [Hsrc]; · iexact Hsrc
    isplitl [Hdst]; · iexact Hdst
    isplitl [HO]; · iexact HO
    isplitl [Ht1]; · iexact Ht1
    iexact Ht2
  · iintro ⟨Hc, HO⟩
    iapply Hk
    isplitl [Hl]; · iexact Hl
    isplitl [Ht]; · iexact Ht
    isplitl [Hc Hd]
    · iapply (put Sd (s, j) hsd (depRlΦ c))
      isplitl [Hc]; · iexact Hc
      iexact Hd
    iexact HO

/-- Reduce rightwards, step `s`, strip `j`, the strip still among the device's own output strips (at distance `a = 7 - s`). -/
theorem blk_rr_send0 (K : Dev nD × Fin 241 → ℕ) (c : Dev nD) (s : Fin 7) (j : Fin 4) (a : Fin 16) (t : ℕ) (n : Dev nD) (hn : n = rgt c)
    {off : Fin 2 → ℕ} (hoff : off = ![chunkRow c (7 - s.val) + 16 * j.val, 0])
    (V : StripV F) (hV : V (a, j) = accR m ρ s.val c j)
    {So : Finset (Fin 16 × Fin 4)} {Sl St Sd : Finset (Fin 7 × Fin 4)} {W : Waits sig Unit}
    {hinb : ∀ a, off a + S16x1024.size a ≤ S1024x1024.size a}
    {hst : ∀ a, (Rect.unit (s := S1024x1024) off S16x1024.size hinb).stride a = 1}
    {hsc : (rS s j : Memref sig (Dev.tc n : Thread nD τ).2.kind .vmem S16x1024 .f32).view.ref.isScScratch = false}
    {hsrc : ((oM).slice (Rect.unit (s := S1024x1024) off S16x1024.size hinb) hst : Memref sig .tc .vmem S16x1024 .f32).view.WordExact}
    {hdst : (rS s j : Memref sig .tc .vmem S16x1024 .f32).view.WordExact}
    {hsem : DmaTarget.Typed .vmem (.dma (sem7 cc0_scratch3 1 s j))
      (.remote (Dev.tc n : Thread nD τ) (rS s j : Memref sig .tc .vmem S16x1024 .f32) (.dma (sem7 cc0_scratch3 0 s j)) hsc)}
    {α : Type} {Q : α → sProp 𝕄} {k : PUnit → Prog (TpuEff nD τ sig (Elt F) Λ₀ .tc) α} :
    iprop(records m ρ K ∗ levAts L lv
        ∗ bigSep So (outΦ c V) ∗ bigSep Sl (rΦ (rgt c)) ∗ bigSep St (tokRrΦ c) ∗ bigSep Sd (depRrΦ c)
        ∗ owes (c : Thread nD τ) (owedOf c (Rem t)) W
        ∗ ⌜(a, j) ∈ So ∧ a.val = 7 - s.val ∧ (s, j) ∈ Sl ∧ (s, j) ∈ St ∧ (s, j) ∉ Sd ∧ (Pay.rr s j).ord = t⌝)
      ⊢ iprop(((bigSep (So.erase (a, j)) (outΦ c V) ∗ bigSep (Sl.erase (s, j)) (rΦ (rgt c)) ∗ bigSep (St.erase (s, j)) (tokRrΦ c)
              ∗ bigSep (insert (s, j) Sd) (depRrΦ c) ∗ owes (c : Thread nD τ) (owedOf c (Rem (t + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM).slice (Rect.unit (s := S1024x1024) off S16x1024.size hinb) hst : Memref sig .tc .vmem S16x1024 .f32)
                (.remote (Dev.tc n : Thread nD τ) (rS s j) (.dma (sem7 cc0_scratch3 0 s j)) hsc)
                (.dma (sem7 cc0_scratch3 1 s j)) hsrc hdst hsem) k) Q) := by
  iintro ⟨#Hrec, #Hlev, Ho, Hl, Ht, Hd, HO, %h⟩ Hk
  obtain ⟨hao, hav, hsl, hst', hsd, hS⟩ := h
  rw [← Rem_erase t _ hS]
  have e : outΦ c V (a, j) = owns (c : Thread nD τ) (oS c (7 - s.val) j) fullShare (accR m ρ s.val c j) := by
    show owns (c : Thread nD τ) (oS c a.val j) fullShare (V (a, j)) = _
    rw [hav, hV]
  ihave Ho' := (take So (a, j) hao (outΦ c V)) $$ Ho
  icases Ho' with ⟨Hsrc0, Ho⟩
  ihave Hsrc := (Entails.of_eq e) $$ Hsrc0
  ihave Hl' := (take Sl (s, j) hsl (rΦ (rgt c))) $$ Hl
  icases Hl' with ⟨Hdst, Hl⟩
  ihave Ht' := (tok_rr_take c St (s, j) hst') $$ Ht
  icases Ht' with ⟨⟨Ht1, Ht2⟩, Ht⟩
  iapply (wp_rr_send m ρ K c s j n hn hoff (Rem t) (mem_Rem.mpr (le_of_eq hS.symm)) W rfl) $$ [Hsrc Hdst HO Ht1 Ht2] [Hk Ho Hl Ht Hd]
  · isplitr; · iexact Hrec
    isplitl [Hsrc]; · iexact Hsrc
    isplitl [Hdst]; · iexact Hdst
    isplitl [HO]; · iexact HO
    isplitl [Ht1]; · iexact Ht1
    iexact Ht2
  · iintro ⟨Hc, HO⟩
    iapply Hk
    isplitl [Ho]; · iexact Ho
    isplitl [Hl]; · iexact Hl
    isplitl [Ht]; · iexact Ht
    isplitl [Hc Hd]
    · iapply (put Sd (s, j) hsd (depRrΦ c))
      isplitl [Hc]; · iexact Hc
      iexact Hd
    iexact HO

/-- The same with the strip sent held by itself. -/
theorem blk_rr_send (K : Dev nD × Fin 241 → ℕ) (c : Dev nD) (s : Fin 7) (j : Fin 4) (t : ℕ) (n : Dev nD) (hn : n = rgt c)
    {off : Fin 2 → ℕ} (hoff : off = ![chunkRow c (7 - s.val) + 16 * j.val, 0])
    {Sl St Sd : Finset (Fin 7 × Fin 4)} {W : Waits sig Unit}
    {hinb : ∀ a, off a + S16x1024.size a ≤ S1024x1024.size a}
    {hst : ∀ a, (Rect.unit (s := S1024x1024) off S16x1024.size hinb).stride a = 1}
    {hsc : (rS s j : Memref sig (Dev.tc n : Thread nD τ).2.kind .vmem S16x1024 .f32).view.ref.isScScratch = false}
    {hsrc : ((oM).slice (Rect.unit (s := S1024x1024) off S16x1024.size hinb) hst : Memref sig .tc .vmem S16x1024 .f32).view.WordExact}
    {hdst : (rS s j : Memref sig .tc .vmem S16x1024 .f32).view.WordExact}
    {hsem : DmaTarget.Typed .vmem (.dma (sem7 cc0_scratch3 1 s j))
      (.remote (Dev.tc n : Thread nD τ) (rS s j : Memref sig .tc .vmem S16x1024 .f32) (.dma (sem7 cc0_scratch3 0 s j)) hsc)}
    {α : Type} {Q : α → sProp 𝕄} {k : PUnit → Prog (TpuEff nD τ sig (Elt F) Λ₀ .tc) α} :
    iprop(records m ρ K ∗ levAts L lv
        ∗ owns (c : Thread nD τ) (oS c (7 - s.val) j) fullShare (accR m ρ s.val c j)
        ∗ bigSep Sl (rΦ (rgt c)) ∗ bigSep St (tokRrΦ c) ∗ bigSep Sd (depRrΦ c)
        ∗ owes (c : Thread nD τ) (owedOf c (Rem t)) W
        ∗ ⌜(s, j) ∈ Sl ∧ (s, j) ∈ St ∧ (s, j) ∉ Sd ∧ (Pay.rr s j).ord = t⌝)
      ⊢ iprop(((bigSep (Sl.erase (s, j)) (rΦ (rgt c)) ∗ bigSep (St.erase (s, j)) (tokRrΦ c)
              ∗ bigSep (insert (s, j) Sd) (depRrΦ c) ∗ owes (c : Thread nD τ) (owedOf c (Rem (t + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM).slice (Rect.unit (s := S1024x1024) off S16x1024.size hinb) hst : Memref sig .tc .vmem S16x1024 .f32)
                (.remote (Dev.tc n : Thread nD τ) (rS s j) (.dma (sem7 cc0_scratch3 0 s j)) hsc)
                (.dma (sem7 cc0_scratch3 1 s j)) hsrc hdst hsem) k) Q) := by
  iintro ⟨#Hrec, #Hlev, Hsrc, Hl, Ht, Hd, HO, %h⟩ Hk
  obtain ⟨hsl, hst', hsd, hS⟩ := h
  rw [← Rem_erase t _ hS]
  ihave Hl' := (take Sl (s, j) hsl (rΦ (rgt c))) $$ Hl
  icases Hl' with ⟨Hdst, Hl⟩
  ihave Ht' := (tok_rr_take c St (s, j) hst') $$ Ht
  icases Ht' with ⟨⟨Ht1, Ht2⟩, Ht⟩
  iapply (wp_rr_send m ρ K c s j n hn hoff (Rem t) (mem_Rem.mpr (le_of_eq hS.symm)) W rfl) $$ [Hsrc Hdst HO Ht1 Ht2] [Hk Hl Ht Hd]
  · isplitr; · iexact Hrec
    isplitl [Hsrc]; · iexact Hsrc
    isplitl [Hdst]; · iexact Hdst
    isplitl [HO]; · iexact HO
    isplitl [Ht1]; · iexact Ht1
    iexact Ht2
  · iintro ⟨Hc, HO⟩
    iapply Hk
    isplitl [Hl]; · iexact Hl
    isplitl [Ht]; · iexact Ht
    isplitl [Hc Hd]
    · iapply (put Sd (s, j) hsd (depRrΦ c))
      isplitl [Hc]; · iexact Hc
      iexact Hd
    iexact HO

/-! ## The gather's sends -/

/-- The neighbour's strip the gather step `s` rightwards writes, as the family of the neighbour's strips names it: by the
    reduce step `7 - s` that brought it. -/
theorem nbR_at (c : Dev nD) (s : Fin 8) (j : Fin 4) :
    nbRΦ (F := F) c ((⟨7 - s.val, by omega⟩ : Fin 8), j)
      = iprop(∃ f, (oS (rgt c) (15 - s.val) j).view.loc (rgt c : Thread nD τ) ↦[(oS (rgt c) (15 - s.val) j).view.set]{fullShare} f) := by
  show iprop(∃ g, (oS (rgt c) (8 + (7 - s.val)) j).view.loc (rgt c : Thread nD τ) ↦[(oS (rgt c) (8 + (7 - s.val)) j).view.set]{fullShare} g) = _
  rw [oS_rl_gr' (rgt c) s j]
theorem nbL_at (c : Dev nD) (s : Fin 7) (j : Fin 4) :
    nbLΦ (F := F) c ((⟨6 - s.val, by omega⟩ : Fin 7), j)
      = iprop(∃ f, (oS (lft c) (1 + s.val) j).view.loc (lft c : Thread nD τ) ↦[(oS (lft c) (1 + s.val) j).view.set]{fullShare} f) := by
  show iprop(∃ g, (oS (lft c) (7 - (6 - s.val)) j).view.loc (lft c : Thread nD τ) ↦[(oS (lft c) (7 - (6 - s.val)) j).view.set]{fullShare} g) = _
  rw [oS_rr_gl' (lft c) s j]

theorem nbR_take (c : Dev nD) (Sn : Finset (Fin 8 × Fin 4)) (s : Fin 8) (j : Fin 4) (h : ((⟨7 - s.val, by omega⟩ : Fin 8), j) ∈ Sn) :
    bigSep Sn (nbRΦ (F := F) c)
      ⊢ iprop((∃ f, (oS (rgt c) (15 - s.val) j).view.loc (rgt c : Thread nD τ) ↦[(oS (rgt c) (15 - s.val) j).view.set]{fullShare} f)
          ∗ bigSep (Sn.erase ((⟨7 - s.val, by omega⟩ : Fin 8), j)) (nbRΦ c)) := by
  have h' := take (F := F) Sn _ h (nbRΦ c)
  rwa [nbR_at] at h'
theorem nbL_take (c : Dev nD) (Sn : Finset (Fin 7 × Fin 4)) (s : Fin 7) (j : Fin 4) (h : ((⟨6 - s.val, by omega⟩ : Fin 7), j) ∈ Sn) :
    bigSep Sn (nbLΦ (F := F) c)
      ⊢ iprop((∃ f, (oS (lft c) (1 + s.val) j).view.loc (lft c : Thread nD τ) ↦[(oS (lft c) (1 + s.val) j).view.set]{fullShare} f)
          ∗ bigSep (Sn.erase ((⟨6 - s.val, by omega⟩ : Fin 7), j)) (nbLΦ c)) := by
  have h' := take (F := F) Sn _ h (nbLΦ c)
  rwa [nbL_at] at h'

/-- Gather rightwards, step `s`, strip `j`. -/
theorem blk_gr_send (K : Dev nD × Fin 241 → ℕ) (c : Dev nD) (s : Fin 8) (j : Fin 4) (t : ℕ) (n : Dev nD) (hn : n = rgt c)
    {off : Fin 2 → ℕ} (hoff : off = ![chunkRow c (16 - s.val) + 16 * j.val, 0])
    {V : S16x1024.Idx → Elt F .f32} (hV : V = fin m ρ (posOf c - ⟨s.val % 16, Nat.mod_lt _ (by decide)⟩) j)
    {Sn St Sd : Finset (Fin 8 × Fin 4)} {W : Waits sig Unit}
    {p p' : ∀ a, off a + S16x1024.size a ≤ S1024x1024.size a}
    {hs : ∀ a, (Rect.unit (s := S1024x1024) off S16x1024.size p).stride a = 1} {hs' : ∀ a, (Rect.unit (s := S1024x1024) off S16x1024.size p').stride a = 1}
    {hsc : ((oM : Memref sig .tc .vmem S1024x1024 .f32).slice (Rect.unit (s := S1024x1024) off S16x1024.size p') hs' : Memref sig (Dev.tc n : Thread nD τ).2.kind .vmem S16x1024 .f32).view.ref.isScScratch = false}
    {hsrc : ((oM : Memref sig .tc .vmem S1024x1024 .f32).slice (Rect.unit (s := S1024x1024) off S16x1024.size p) hs).view.WordExact}
    {hdst : ((oM : Memref sig .tc .vmem S1024x1024 .f32).slice (Rect.unit (s := S1024x1024) off S16x1024.size p') hs').view.WordExact}
    {hsem : DmaTarget.Typed .vmem (.dma (sem8 cc0_scratch4 1 s j))
      (.remote (Dev.tc n : Thread nD τ) ((oM : Memref sig .tc .vmem S1024x1024 .f32).slice (Rect.unit (s := S1024x1024) off S16x1024.size p') hs') (.dma (sem8 cc0_scratch4 0 s j)) hsc)}
    {α : Type} {Q : α → sProp 𝕄} {k : PUnit → Prog (TpuEff nD τ sig (Elt F) Λ₀ .tc) α} :
    iprop(records m ρ K ∗ levAts L lv
        ∗ owns (c : Thread nD τ) (oS c (16 - s.val) j) (shG false s.val) V
        ∗ bigSep Sn (nbRΦ c) ∗ bigSep St (tokGrΦ c) ∗ bigSep Sd (depGrΦ c)
        ∗ owes (c : Thread nD τ) (owedOf c (Rem t)) W
        ∗ ⌜((⟨7 - s.val, by omega⟩ : Fin 8), j) ∈ Sn ∧ (s, j) ∈ St ∧ (s, j) ∉ Sd ∧ (Pay.gr s j).ord = t⌝)
      ⊢ iprop(((bigSep (Sn.erase ((⟨7 - s.val, by omega⟩ : Fin 8), j)) (nbRΦ c) ∗ bigSep (St.erase (s, j)) (tokGrΦ c) ∗ bigSep (insert (s, j) Sd) (depGrΦ c)
              ∗ owes (c : Thread nD τ) (owedOf c (Rem (t + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM : Memref sig .tc .vmem S1024x1024 .f32).slice (Rect.unit (s := S1024x1024) off S16x1024.size p) hs)
                (.remote (Dev.tc n : Thread nD τ) ((oM : Memref sig .tc .vmem S1024x1024 .f32).slice (Rect.unit (s := S1024x1024) off S16x1024.size p') hs') (.dma (sem8 cc0_scratch4 0 s j)) hsc)
                (.dma (sem8 cc0_scratch4 1 s j)) hsrc hdst hsem) k) Q) := by
  iintro ⟨#Hrec, #Hlev, Hsrc, Hn, Ht, Hd, HO, %h⟩ Hk
  rw [← Rem_erase t (Pay.gr s j) h.2.2.2]
  ihave Hn' := (nbR_take c Sn s j h.1) $$ Hn
  icases Hn' with ⟨Hdst, Hn⟩
  ihave Ht' := (tok_gr_take c St (s, j) h.2.1) $$ Ht
  icases Ht' with ⟨⟨Ht1, Ht2⟩, Ht⟩
  iapply (wp_gr_send m ρ K c s j n hn hoff (Rem t) (mem_Rem.mpr (le_of_eq h.2.2.2.symm)) W hV) $$ [Hsrc Hdst HO Ht1 Ht2] [Hk Hn Ht Hd]
  · isplitr; · iexact Hrec
    isplitl [Hsrc]; · iexact Hsrc
    isplitl [Hdst]; · iexact Hdst
    isplitl [HO]; · iexact HO
    isplitl [Ht1]; · iexact Ht1
    iexact Ht2
  · iintro ⟨Hc, HO⟩
    iapply Hk
    isplitl [Hn]; · iexact Hn
    isplitl [Ht]; · iexact Ht
    isplitl [Hc Hd]
    · iapply (put Sd (s, j) h.2.2.1 (depGrΦ c))
      isplitl [Hc]; · iexact Hc
      iexact Hd
    iexact HO

/-- Gather leftwards, step `s`, strip `j`. -/
theorem blk_gl_send (K : Dev nD × Fin 241 → ℕ) (c : Dev nD) (s : Fin 7) (j : Fin 4) (t : ℕ) (n : Dev nD) (hn : n = lft c)
    {off : Fin 2 → ℕ} (hoff : off = ![chunkRow c s.val + 16 * j.val, 0])
    {V : S16x1024.Idx → Elt F .f32} (hV : V = fin m ρ (posOf c + ⟨s.val % 16, Nat.mod_lt _ (by decide)⟩) j)
    {Sn St Sd : Finset (Fin 7 × Fin 4)} {W : Waits sig Unit}
    {p p' : ∀ a, off a + S16x1024.size a ≤ S1024x1024.size a}
    {hs : ∀ a, (Rect.unit (s := S1024x1024) off S16x1024.size p).stride a = 1} {hs' : ∀ a, (Rect.unit (s := S1024x1024) off S16x1024.size p').stride a = 1}
    {hsc : ((oM : Memref sig .tc .vmem S1024x1024 .f32).slice (Rect.unit (s := S1024x1024) off S16x1024.size p') hs' : Memref sig (Dev.tc n : Thread nD τ).2.kind .vmem S16x1024 .f32).view.ref.isScScratch = false}
    {hsrc : ((oM : Memref sig .tc .vmem S1024x1024 .f32).slice (Rect.unit (s := S1024x1024) off S16x1024.size p) hs).view.WordExact}
    {hdst : ((oM : Memref sig .tc .vmem S1024x1024 .f32).slice (Rect.unit (s := S1024x1024) off S16x1024.size p') hs').view.WordExact}
    {hsem : DmaTarget.Typed .vmem (.dma (sem7 cc0_scratch5 1 s j))
      (.remote (Dev.tc n : Thread nD τ) ((oM : Memref sig .tc .vmem S1024x1024 .f32).slice (Rect.unit (s := S1024x1024) off S16x1024.size p') hs') (.dma (sem7 cc0_scratch5 0 s j)) hsc)}
    {α : Type} {Q : α → sProp 𝕄} {k : PUnit → Prog (TpuEff nD τ sig (Elt F) Λ₀ .tc) α} :
    iprop(records m ρ K ∗ levAts L lv
        ∗ owns (c : Thread nD τ) (oS c s.val j) (shG true s.val) V
        ∗ bigSep Sn (nbLΦ c) ∗ bigSep St (tokGlΦ c) ∗ bigSep Sd (depGlΦ c)
        ∗ owes (c : Thread nD τ) (owedOf c (Rem t)) W
        ∗ ⌜((⟨6 - s.val, by omega⟩ : Fin 7), j) ∈ Sn ∧ (s, j) ∈ St ∧ (s, j) ∉ Sd ∧ (Pay.gl s j).ord = t⌝)
      ⊢ iprop(((bigSep (Sn.erase ((⟨6 - s.val, by omega⟩ : Fin 7), j)) (nbLΦ c) ∗ bigSep (St.erase (s, j)) (tokGlΦ c) ∗ bigSep (insert (s, j) Sd) (depGlΦ c)
              ∗ owes (c : Thread nD τ) (owedOf c (Rem (t + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM : Memref sig .tc .vmem S1024x1024 .f32).slice (Rect.unit (s := S1024x1024) off S16x1024.size p) hs)
                (.remote (Dev.tc n : Thread nD τ) ((oM : Memref sig .tc .vmem S1024x1024 .f32).slice (Rect.unit (s := S1024x1024) off S16x1024.size p') hs') (.dma (sem7 cc0_scratch5 0 s j)) hsc)
                (.dma (sem7 cc0_scratch5 1 s j)) hsrc hdst hsem) k) Q) := by
  iintro ⟨#Hrec, #Hlev, Hsrc, Hn, Ht, Hd, HO, %h⟩ Hk
  rw [← Rem_erase t (Pay.gl s j) h.2.2.2]
  ihave Hn' := (nbL_take c Sn s j h.1) $$ Hn
  icases Hn' with ⟨Hdst, Hn⟩
  ihave Ht' := (tok_gl_take c St (s, j) h.2.1) $$ Ht
  icases Ht' with ⟨⟨Ht1, Ht2⟩, Ht⟩
  iapply (wp_gl_send m ρ K c s j n hn hoff (Rem t) (mem_Rem.mpr (le_of_eq h.2.2.2.symm)) W hV) $$ [Hsrc Hdst HO Ht1 Ht2] [Hk Hn Ht Hd]
  · isplitr; · iexact Hrec
    isplitl [Hsrc]; · iexact Hsrc
    isplitl [Hdst]; · iexact Hdst
    isplitl [HO]; · iexact HO
    isplitl [Ht1]; · iexact Ht1
    iexact Ht2
  · iintro ⟨Hc, HO⟩
    iapply Hk
    isplitl [Hn]; · iexact Hn
    isplitl [Ht]; · iexact Ht
    isplitl [Hc Hd]
    · iapply (put Sd (s, j) h.2.2.1 (depGlΦ c))
      isplitl [Hc]; · iexact Hc
      iexact Hd
    iexact HO

end Cert.KernelIdeal.Hand

end
-- ==== Proof.BlocksWait.lean ====
/-
  Waiting on one of a device's own transfer cells, as a step of the walk over the big conjunctions: the wait takes the
  cell's credit out of the credits still to be waited for and the owner's position out of the positions at round 0, and
  puts the position, now at round 1, among the cells that are done; what the cell's one duty hands over comes back as
  a resource of its own. A wait after the first `t` payments is allowed when the waited cell's level is below the level
  of every payment numbered `t` and above. There are eight kinds of cell, the departure and the arrival of each of the
  four families; they differ in the credit family, the cell's number and what the duty hands over.
-/
import proofs.«900799_g7700000000000800_dist_gemm_ar_m1024_k1024_n1024_f32_gelu_v7x_i16_1_alg».proof.Proof.BlockDefs
import proofs.«900799_g7700000000000800_dist_gemm_ar_m1024_k1024_n1024_f32_gelu_v7x_i16_1_alg».proof.Proof.Order

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 241 → ℕ)

/-- The level condition of a wait after `t` payments: a statement about every payment, closed family by family. -/
macro "imay" : tactic => `(tactic| (ipureintro; rw [forall_pay]; decide))

/-- A transfer's credit depends on the destination's shape and element type only: every strip of sixteen rows of
    1024 words in vector memory carries the same. -/
theorem credit_any (dst : Memref sig .tc .vmem S16x1024 .f32) : dst.view.dmaCredit = N16 := rfl

/-! ## The wait on any transfer cell -/

/-- The wait on the transfer cell of semaphore `q`, which is the device's cell number `kq`; its credit is item `i` of the
    family `credΦ`, its duty hands over `P`, and its level is `n`. -/
theorem blk_wait {I : Type} [DecidableEq I] (c : Dev nD) (q : DmaSem sig) (hq : 3 ≤ q.val) (kq : Fin 241)
    (hcell : kcell (c, kq) = (((c : Thread nD τ), SemLoc.dma q) : GSem nD τ sig))
    (credΦ : I → sProp 𝕄) (i : I) (hcred : credΦ i = cred (tallyAt (((c : Thread nD τ), SemLoc.dma q) : GSem nD τ sig) () N16))
    (P : sProp 𝕄) (hP : (ringRd m ρ).payload (((c : Thread nD τ), SemLoc.dma q) : GSem nD τ sig) 0 false = P)
    (n : ℕ) (hn : lvN q.val = n) (t : ℕ)
    {Sc : Finset I} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sc credΦ ∗ bigSep Sp (posΦ c) ∗ bigSep Sdone (doneΦ c)
        ∗ owes (c : Thread nD τ) (owedOf c (Rem t)) W
        ∗ ⌜i ∈ Sc ∧ kq ∈ Sp ∧ kq ∉ Sdone⌝
        ∗ ⌜∀ p : Pay, t ≤ p.ord → n < p.lvl⌝)
      ⊢ iprop((iprop(bigSep (Sc.erase i) credΦ ∗ bigSep (Sp.erase kq) (posΦ c) ∗ bigSep (insert kq Sdone) (doneΦ c)
              ∗ P ∗ owes (c : Thread nD τ) (owedOf c (Rem t)) (insert (SemLoc.dma q, ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  iintro ⟨#Hrec, #Hlev, Hc, Hp, Hdn, HO, %h, %hl⟩ Hk
  -- the credit and the position, each out of its conjunction
  ihave Hc' := (take Sc i h.1 credΦ) $$ Hc
  icases Hc' with ⟨Hcr0, Hc⟩
  ihave Hcr := (Entails.of_eq hcred) $$ Hcr0
  ihave Hp' := (take Sp kq h.2.1 (posΦ (F := F) c)) $$ Hp
  icases Hp' with ⟨Hat, Hp⟩
  ihave Hat0 := (show (posΦ (F := F) c kq : sProp 𝕄) ⊢ atPos ER (((c : Thread nD τ), SemLoc.dma q) : GSem nD τ sig) 0 ∅ 0 from by
    show (atPos ER (kcell (c, kq)) 0 ∅ 0 : sProp 𝕄) ⊢ _; rw [hcell]) $$ Hat
  -- the wait: below everything still owed
  iapply (wp_wait_named m ρ K c q hq (K (c, kq)) (owedOf c (Rem t)) W P hP
      (by have h' := records_inv m ρ K (c, kq); rwa [hcell] at h')
      (may_of_Rem c (((c : Thread nD τ), SemLoc.dma q) : GSem nD τ sig) n hn t hl) hamt) $$ [Hcr HO Hat0]
  · isplitr; · iexact Hrec
    isplitl [Hcr]; · iexact Hcr
    isplitl [HO]; · iexact HO
    isplitr; · iexact Hlev
    iexact Hat0
  iintro ⟨HO, Hat1, Hpay⟩
  -- the position, at round 1, among the cells done
  ihave Hdone := (show (atPos ER (((c : Thread nD τ), SemLoc.dma q) : GSem nD τ sig) 1 ∅ 0 : sProp 𝕄) ⊢ doneΦ (F := F) c kq from by
    show _ ⊢ (atPos ER (kcell (c, kq)) 1 ∅ 0 : sProp 𝕄); rw [hcell]) $$ Hat1
  iapply Hk
  isplitl [Hc]; · iexact Hc
  isplitl [Hp]; · iexact Hp
  isplitl [Hdone Hdn]
  · iapply (put Sdone kq h.2.2 (doneΦ (F := F) c))
    isplitl [Hdone] <;> iassumption
  isplitl [Hpay]; · iexact Hpay
  iexact HO

/-! ## The eight kinds of cell -/

/-- Reduce leftwards, departure of step `s`, strip `j`: the duty hands over nothing. -/
theorem blk_wait_rl_dep (c : Dev nD) (s : Fin 8) (j : Fin 4) (t : ℕ)
    {Sd : Finset (Fin 8 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sd (depRlΦ c) ∗ bigSep Sp (posΦ c) ∗ bigSep Sdone (doneΦ c)
        ∗ owes (c : Thread nD τ) (owedOf c (Rem t)) W
        ∗ ⌜(s, j) ∈ Sd ∧ rlIdx 0 s j ∈ Sp ∧ rlIdx 0 s j ∉ Sdone⌝
        ∗ ⌜∀ p : Pay, t ≤ p.ord → lvN (3 + 32 * 0 + 4 * s.val + j.val) < p.lvl⌝)
      ⊢ iprop((iprop(bigSep (Sd.erase (s, j)) (depRlΦ c) ∗ bigSep (Sp.erase (rlIdx 0 s j)) (posΦ c) ∗ bigSep (insert (rlIdx 0 s j) Sdone) (doneΦ c)
              ∗ owes (c : Thread nD τ) (owedOf c (Rem t)) (insert (SemLoc.dma (sem8 cc0_scratch2 0 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch2 0 s j) src dst hs hd) k) Q) := by
  iintro H Hk
  iapply (blk_wait m ρ K c (sem8 cc0_scratch2 0 s j) (by rw [sem8_val_rl]; omega) (rlIdx 0 s j) (kcell_rl c 0 s j)
      (depRlΦ c) (s, j) rfl iprop(emp) (payload_rl_dep m ρ c s j) (lvN (3 + 32 * 0 + 4 * s.val + j.val)) (congrArg lvN (sem8_val_rl 0 s j)) t hamt) $$ [H]
  · iexact H
  iintro ⟨Hd, Hp, Hdn, -, HO⟩
  iapply Hk
  isplitl [Hd]; · iexact Hd
  isplitl [Hp]; · iexact Hp
  isplitl [Hdn]; · iexact Hdn
  iexact HO

/-- Reduce rightwards, departure: likewise. -/
theorem blk_wait_rr_dep (c : Dev nD) (s : Fin 7) (j : Fin 4) (t : ℕ)
    {Sd : Finset (Fin 7 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sd (depRrΦ c) ∗ bigSep Sp (posΦ c) ∗ bigSep Sdone (doneΦ c)
        ∗ owes (c : Thread nD τ) (owedOf c (Rem t)) W
        ∗ ⌜(s, j) ∈ Sd ∧ rrIdx 0 s j ∈ Sp ∧ rrIdx 0 s j ∉ Sdone⌝
        ∗ ⌜∀ p : Pay, t ≤ p.ord → lvN (67 + 28 * 0 + 4 * s.val + j.val) < p.lvl⌝)
      ⊢ iprop((iprop(bigSep (Sd.erase (s, j)) (depRrΦ c) ∗ bigSep (Sp.erase (rrIdx 0 s j)) (posΦ c) ∗ bigSep (insert (rrIdx 0 s j) Sdone) (doneΦ c)
              ∗ owes (c : Thread nD τ) (owedOf c (Rem t)) (insert (SemLoc.dma (sem7 cc0_scratch3 0 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch3 0 s j) src dst hs hd) k) Q) := by
  iintro H Hk
  iapply (blk_wait m ρ K c (sem7 cc0_scratch3 0 s j) (by rw [sem7_val_rr]; omega) (rrIdx 0 s j) (kcell_rr c 0 s j)
      (depRrΦ c) (s, j) rfl iprop(emp) (payload_rr_dep m ρ c s j) (lvN (67 + 28 * 0 + 4 * s.val + j.val)) (congrArg lvN (sem7_val_rr 0 s j)) t hamt) $$ [H]
  · iexact H
  iintro ⟨Hd, Hp, Hdn, -, HO⟩
  iapply Hk
  isplitl [Hd]; · iexact Hd
  isplitl [Hp]; · iexact Hp
  isplitl [Hdn]; · iexact Hdn
  iexact HO

/-- Gather rightwards, departure: the duty returns the share of the source strip the transfer was lent. -/
theorem blk_wait_gr_dep (c : Dev nD) (s : Fin 8) (j : Fin 4) (t : ℕ)
    {Sd : Finset (Fin 8 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sd (depGrΦ c) ∗ bigSep Sp (posΦ c) ∗ bigSep Sdone (doneΦ c)
        ∗ owes (c : Thread nD τ) (owedOf c (Rem t)) W
        ∗ ⌜(s, j) ∈ Sd ∧ grIdx 0 s j ∈ Sp ∧ grIdx 0 s j ∉ Sdone⌝
        ∗ ⌜∀ p : Pay, t ≤ p.ord → lvN (123 + 32 * 0 + 4 * s.val + j.val) < p.lvl⌝)
      ⊢ iprop((iprop(bigSep (Sd.erase (s, j)) (depGrΦ c) ∗ bigSep (Sp.erase (grIdx 0 s j)) (posΦ c) ∗ bigSep (insert (grIdx 0 s j) Sdone) (doneΦ c)
              ∗ grDep m ρ c s j
              ∗ owes (c : Thread nD τ) (owedOf c (Rem t)) (insert (SemLoc.dma (sem8 cc0_scratch4 0 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch4 0 s j) src dst hs hd) k) Q) :=
  blk_wait m ρ K c (sem8 cc0_scratch4 0 s j) (by rw [sem8_val_gr]; omega) (grIdx 0 s j) (kcell_gr c 0 s j)
    (depGrΦ c) (s, j) rfl (grDep m ρ c s j) (payload_gr_dep m ρ c s j) (lvN (123 + 32 * 0 + 4 * s.val + j.val)) (congrArg lvN (sem8_val_gr 0 s j)) t hamt

/-- Gather leftwards, departure: likewise. -/
theorem blk_wait_gl_dep (c : Dev nD) (s : Fin 7) (j : Fin 4) (t : ℕ)
    {Sd : Finset (Fin 7 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sd (depGlΦ c) ∗ bigSep Sp (posΦ c) ∗ bigSep Sdone (doneΦ c)
        ∗ owes (c : Thread nD τ) (owedOf c (Rem t)) W
        ∗ ⌜(s, j) ∈ Sd ∧ glIdx 0 s j ∈ Sp ∧ glIdx 0 s j ∉ Sdone⌝
        ∗ ⌜∀ p : Pay, t ≤ p.ord → lvN (187 + 28 * 0 + 4 * s.val + j.val) < p.lvl⌝)
      ⊢ iprop((iprop(bigSep (Sd.erase (s, j)) (depGlΦ c) ∗ bigSep (Sp.erase (glIdx 0 s j)) (posΦ c) ∗ bigSep (insert (glIdx 0 s j) Sdone) (doneΦ c)
              ∗ glDep m ρ c s j
              ∗ owes (c : Thread nD τ) (owedOf c (Rem t)) (insert (SemLoc.dma (sem7 cc0_scratch5 0 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch5 0 s j) src dst hs hd) k) Q) :=
  blk_wait m ρ K c (sem7 cc0_scratch5 0 s j) (by rw [sem7_val_gl]; omega) (glIdx 0 s j) (kcell_gl c 0 s j)
    (depGlΦ c) (s, j) rfl (glDep m ρ c s j) (payload_gl_dep m ρ c s j) (lvN (187 + 28 * 0 + 4 * s.val + j.val)) (congrArg lvN (sem7_val_gl 0 s j)) t hamt

/-- Gather rightwards, arrival: the finished strip of the chunk at distance `15 - s` has landed. -/
theorem blk_wait_gr_arr (c : Dev nD) (s : Fin 8) (j : Fin 4) (t : ℕ)
    {Sa : Finset (Fin 8 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sa (arrGrΦ c) ∗ bigSep Sp (posΦ c) ∗ bigSep Sdone (doneΦ c)
        ∗ owes (c : Thread nD τ) (owedOf c (Rem t)) W
        ∗ ⌜(s, j) ∈ Sa ∧ grIdx 1 s j ∈ Sp ∧ grIdx 1 s j ∉ Sdone⌝
        ∗ ⌜∀ p : Pay, t ≤ p.ord → lvN (123 + 32 * 1 + 4 * s.val + j.val) < p.lvl⌝)
      ⊢ iprop((iprop(bigSep (Sa.erase (s, j)) (arrGrΦ c) ∗ bigSep (Sp.erase (grIdx 1 s j)) (posΦ c) ∗ bigSep (insert (grIdx 1 s j) Sdone) (doneΦ c)
              ∗ owns (c : Thread nD τ) (oS c (15 - s.val) j) fullShare (fin m ρ (posOf c + ⟨15 - s.val, by omega⟩) j)
              ∗ owes (c : Thread nD τ) (owedOf c (Rem t)) (insert (SemLoc.dma (sem8 cc0_scratch4 1 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch4 1 s j) src dst hs hd) k) Q) :=
  blk_wait m ρ K c (sem8 cc0_scratch4 1 s j) (by rw [sem8_val_gr]; omega) (grIdx 1 s j) (kcell_gr c 1 s j)
    (arrGrΦ c) (s, j) rfl _ ((payload_gr_arr m ρ c s j).trans (grArr_eq m ρ c s j)) (lvN (123 + 32 * 1 + 4 * s.val + j.val)) (congrArg lvN (sem8_val_gr 1 s j)) t hamt

/-- Gather leftwards, arrival: the finished strip of the chunk at distance `1 + s` has landed. -/
theorem blk_wait_gl_arr (c : Dev nD) (s : Fin 7) (j : Fin 4) (t : ℕ)
    {Sa : Finset (Fin 7 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sa (arrGlΦ c) ∗ bigSep Sp (posΦ c) ∗ bigSep Sdone (doneΦ c)
        ∗ owes (c : Thread nD τ) (owedOf c (Rem t)) W
        ∗ ⌜(s, j) ∈ Sa ∧ glIdx 1 s j ∈ Sp ∧ glIdx 1 s j ∉ Sdone⌝
        ∗ ⌜∀ p : Pay, t ≤ p.ord → lvN (187 + 28 * 1 + 4 * s.val + j.val) < p.lvl⌝)
      ⊢ iprop((iprop(bigSep (Sa.erase (s, j)) (arrGlΦ c) ∗ bigSep (Sp.erase (glIdx 1 s j)) (posΦ c) ∗ bigSep (insert (glIdx 1 s j) Sdone) (doneΦ c)
              ∗ owns (c : Thread nD τ) (oS c (1 + s.val) j) fullShare (fin m ρ (posOf c + ⟨1 + s.val, by have := s.isLt; omega⟩) j)
              ∗ owes (c : Thread nD τ) (owedOf c (Rem t)) (insert (SemLoc.dma (sem7 cc0_scratch5 1 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch5 1 s j) src dst hs hd) k) Q) :=
  blk_wait m ρ K c (sem7 cc0_scratch5 1 s j) (by rw [sem7_val_gl]; omega) (glIdx 1 s j) (kcell_gl c 1 s j)
    (arrGlΦ c) (s, j) rfl _ ((payload_gl_arr m ρ c s j).trans (glArr_eq m ρ c s j)) (lvN (187 + 28 * 1 + 4 * s.val + j.val)) (congrArg lvN (sem7_val_gl 1 s j)) t hamt

/-- Reduce leftwards, arrival: the sum so far has landed in the device's own slot; with it comes the strip of the sender's
    output buffer it was read from, kept at whatever it holds among the strips of the neighbour after the device. -/
theorem blk_wait_rl_arr (c : Dev nD) (s : Fin 8) (j : Fin 4) (t : ℕ)
    {Sa Sn : Finset (Fin 8 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sa (arrRlΦ c) ∗ bigSep Sp (posΦ c) ∗ bigSep Sdone (doneΦ c) ∗ bigSep Sn (nbRΦ c)
        ∗ owes (c : Thread nD τ) (owedOf c (Rem t)) W
        ∗ ⌜(s, j) ∈ Sa ∧ rlIdx 1 s j ∈ Sp ∧ rlIdx 1 s j ∉ Sdone ∧ (s, j) ∉ Sn⌝
        ∗ ⌜∀ p : Pay, t ≤ p.ord → lvN (3 + 32 * 1 + 4 * s.val + j.val) < p.lvl⌝)
      ⊢ iprop((iprop(bigSep (Sa.erase (s, j)) (arrRlΦ c) ∗ bigSep (Sp.erase (rlIdx 1 s j)) (posΦ c) ∗ bigSep (insert (rlIdx 1 s j) Sdone) (doneΦ c)
              ∗ bigSep (insert (s, j) Sn) (nbRΦ c)
              ∗ owns (c : Thread nD τ) (lS s j) fullShare (accL m ρ s.val (rgt c) j)
              ∗ owes (c : Thread nD τ) (owedOf c (Rem t)) (insert (SemLoc.dma (sem8 cc0_scratch2 1 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch2 1 s j) src dst hs hd) k) Q) := by
  iintro ⟨#Hrec, #Hlev, Ha, Hp, Hdn, Hn, HO, %h, %hl⟩ Hk
  iapply (blk_wait m ρ K c (sem8 cc0_scratch2 1 s j) (by rw [sem8_val_rl]; omega) (rlIdx 1 s j) (kcell_rl c 1 s j)
      (arrRlΦ c) (s, j) rfl (rlArr m ρ c s j) (payload_rl_arr m ρ c s j) (lvN (3 + 32 * 1 + 4 * s.val + j.val)) (congrArg lvN (sem8_val_rl 1 s j)) t hamt) $$ [Ha Hp Hdn HO]
  · isplitr; · iexact Hrec
    isplitr; · iexact Hlev
    isplitl [Ha]; · iexact Ha
    isplitl [Hp]; · iexact Hp
    isplitl [Hdn]; · iexact Hdn
    isplitl [HO]; · iexact HO
    isplitr
    · ipureintro; exact ⟨h.1, h.2.1, h.2.2.1⟩
    · ipureintro; exact hl
  iintro ⟨Ha, Hp, Hdn, Hpay, HO⟩
  -- the payload's two halves: the landed strip, and the neighbour's strip it was read from
  ihave Hpay' := (show rlArr m ρ c s j ⊢ iprop(owns (c : Thread nD τ) (lS s j) fullShare (accL m ρ s.val (rgt c) j)
      ∗ owns (rgt c : Thread nD τ) (oS (rgt c) (8 + s.val) j) fullShare (accL m ρ s.val (rgt c) j)) from Entails.of_eq rfl) $$ Hpay
  icases Hpay' with ⟨Hbuf, Hnb⟩
  ihave Hnb' := (owns_forget (rgt c : Thread nD τ) (oS (rgt c) (8 + s.val) j) (accL m ρ s.val (rgt c) j)) $$ Hnb
  iapply Hk
  isplitl [Ha]; · iexact Ha
  isplitl [Hp]; · iexact Hp
  isplitl [Hdn]; · iexact Hdn
  isplitl [Hnb' Hn]
  · iapply (put Sn (s, j) h.2.2.2 (nbRΦ (F := F) c))
    isplitl [Hnb'] <;> iassumption
  isplitl [Hbuf]; · iexact Hbuf
  iexact HO

/-- Reduce rightwards, arrival: likewise, with the neighbour before the device. -/
theorem blk_wait_rr_arr (c : Dev nD) (s : Fin 7) (j : Fin 4) (t : ℕ)
    {Sa Sn : Finset (Fin 7 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sa (arrRrΦ c) ∗ bigSep Sp (posΦ c) ∗ bigSep Sdone (doneΦ c) ∗ bigSep Sn (nbLΦ c)
        ∗ owes (c : Thread nD τ) (owedOf c (Rem t)) W
        ∗ ⌜(s, j) ∈ Sa ∧ rrIdx 1 s j ∈ Sp ∧ rrIdx 1 s j ∉ Sdone ∧ (s, j) ∉ Sn⌝
        ∗ ⌜∀ p : Pay, t ≤ p.ord → lvN (67 + 28 * 1 + 4 * s.val + j.val) < p.lvl⌝)
      ⊢ iprop((iprop(bigSep (Sa.erase (s, j)) (arrRrΦ c) ∗ bigSep (Sp.erase (rrIdx 1 s j)) (posΦ c) ∗ bigSep (insert (rrIdx 1 s j) Sdone) (doneΦ c)
              ∗ bigSep (insert (s, j) Sn) (nbLΦ c)
              ∗ owns (c : Thread nD τ) (rS s j) fullShare (accR m ρ s.val (lft c) j)
              ∗ owes (c : Thread nD τ) (owedOf c (Rem t)) (insert (SemLoc.dma (sem7 cc0_scratch3 1 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch3 1 s j) src dst hs hd) k) Q) := by
  iintro ⟨#Hrec, #Hlev, Ha, Hp, Hdn, Hn, HO, %h, %hl⟩ Hk
  iapply (blk_wait m ρ K c (sem7 cc0_scratch3 1 s j) (by rw [sem7_val_rr]; omega) (rrIdx 1 s j) (kcell_rr c 1 s j)
      (arrRrΦ c) (s, j) rfl (rrArr m ρ c s j) (payload_rr_arr m ρ c s j) (lvN (67 + 28 * 1 + 4 * s.val + j.val)) (congrArg lvN (sem7_val_rr 1 s j)) t hamt) $$ [Ha Hp Hdn HO]
  · isplitr; · iexact Hrec
    isplitr; · iexact Hlev
    isplitl [Ha]; · iexact Ha
    isplitl [Hp]; · iexact Hp
    isplitl [Hdn]; · iexact Hdn
    isplitl [HO]; · iexact HO
    isplitr
    · ipureintro; exact ⟨h.1, h.2.1, h.2.2.1⟩
    · ipureintro; exact hl
  iintro ⟨Ha, Hp, Hdn, Hpay, HO⟩
  ihave Hpay' := (show rrArr m ρ c s j ⊢ iprop(owns (c : Thread nD τ) (rS s j) fullShare (accR m ρ s.val (lft c) j)
      ∗ owns (lft c : Thread nD τ) (oS (lft c) (7 - s.val) j) fullShare (accR m ρ s.val (lft c) j)) from Entails.of_eq rfl) $$ Hpay
  icases Hpay' with ⟨Hbuf, Hnb⟩
  ihave Hnb' := (owns_forget (lft c : Thread nD τ) (oS (lft c) (7 - s.val) j) (accR m ρ s.val (lft c) j)) $$ Hnb
  iapply Hk
  isplitl [Ha]; · iexact Ha
  isplitl [Hp]; · iexact Hp
  isplitl [Hdn]; · iexact Hdn
  isplitl [Hnb' Hn]
  · iapply (put Sn (s, j) h.2.2.2 (nbLΦ (F := F) c))
    isplitl [Hnb'] <;> iassumption
  isplitl [Hbuf]; · iexact Hbuf
  iexact HO

/-- info: 'Cert.KernelIdeal.Hand.blk_wait' depends on axioms: [propext, Classical.choice, Quot.sound] -/
#guard_msgs in #print axioms blk_wait
/-- info: 'Cert.KernelIdeal.Hand.blk_wait_rl_arr' depends on axioms: [propext, Classical.choice, Quot.sound] -/
#guard_msgs in #print axioms blk_wait_rl_arr
/-- info: 'Cert.KernelIdeal.Hand.blk_wait_rr_arr' depends on axioms: [propext, Classical.choice, Quot.sound] -/
#guard_msgs in #print axioms blk_wait_rr_arr

end Cert.KernelIdeal.Hand

end
-- ==== Proof.Forward.lean ====
/-
  The gather phase forwards what it receives. A strip that arrives is named by the distance of its chunk from the
  device's position; the transfer that sends it on names the same strip by the step number. The conversions between the
  two namings: an arrival as the source of the next transfer, the device's own finished strip as the two half-share sources
  of the first transfers, and a returned or finally arrived strip as a finished strip at its distance.
-/
import proofs.«900799_g7700000000000800_dist_gemm_ar_m1024_k1024_n1024_f32_gelu_v7x_i16_1_alg».proof.Proof.BlocksSend
import proofs.«900799_g7700000000000800_dist_gemm_ar_m1024_k1024_n1024_f32_gelu_v7x_i16_1_alg».proof.Proof.BlocksWait
import proofs.«900799_g7700000000000800_dist_gemm_ar_m1024_k1024_n1024_f32_gelu_v7x_i16_1_alg».proof.Proof.BlocksLocal

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A finished strip named by two equal distances. -/
theorem owns_dist_congr (c : Dev nD) (j : Fin 4) (a b : ℕ) (h : a = b) (ha : a < 16) (hb : b < 16) (q : PosShare TreeShare) :
    (owns (c : Thread nD τ) (oS c a j) q (fin m ρ (posOf c + ⟨a, ha⟩) j) : sProp 𝕄)
      = owns (c : Thread nD τ) (oS c b j) q (fin m ρ (posOf c + ⟨b, hb⟩) j) := by
  subst h; rfl

/-! ## What arrives is what is sent on -/

/-- Gather rightwards: the strip that arrived at step `s'` (the chunk at distance `15 - s'`) is the source of the transfer of
    step `s' + 1`. -/
theorem fwd_gr (c : Dev nD) (s' : Fin 8) (hs : s'.val + 1 < 8) (j : Fin 4) :
    (owns (c : Thread nD τ) (oS c (15 - s'.val) j) fullShare (fin m ρ (posOf c + ⟨15 - s'.val, by omega⟩) j) : sProp 𝕄)
      ⊢ owns (c : Thread nD τ) (oS c (16 - (⟨s'.val + 1, hs⟩ : Fin 8).val) j) (shG false (⟨s'.val + 1, hs⟩ : Fin 8).val)
          (fin m ρ (posOf c - ⟨(⟨s'.val + 1, hs⟩ : Fin 8).val % 16, Nat.mod_lt _ (by decide)⟩) j) := by
  show _ ⊢ grDep m ρ c ⟨s'.val + 1, hs⟩ j
  rw [grDep_succ m ρ c ⟨s'.val + 1, hs⟩ (Nat.succ_ne_zero _) j]
  exact Entails.of_eq (owns_dist_congr m ρ c j _ _ (by show 15 - s'.val = 16 - (s'.val + 1); omega) _ _ _)

/-- Gather leftwards: the strip that arrived at step `s'` (the chunk at distance `1 + s'`) is the source of the transfer of
    step `s' + 1`. -/
theorem fwd_gl (c : Dev nD) (s' : Fin 7) (hs : s'.val + 1 < 7) (j : Fin 4) :
    (owns (c : Thread nD τ) (oS c (1 + s'.val) j) fullShare (fin m ρ (posOf c + ⟨1 + s'.val, by omega⟩) j) : sProp 𝕄)
      ⊢ owns (c : Thread nD τ) (oS c (⟨s'.val + 1, hs⟩ : Fin 7).val j) (shG true (⟨s'.val + 1, hs⟩ : Fin 7).val)
          (fin m ρ (posOf c + ⟨(⟨s'.val + 1, hs⟩ : Fin 7).val % 16, Nat.mod_lt _ (by decide)⟩) j) := by
  show _ ⊢ glDep m ρ c ⟨s'.val + 1, hs⟩ j
  rw [glDep_succ m ρ c ⟨s'.val + 1, hs⟩ (Nat.succ_ne_zero _) j]
  exact Entails.of_eq (owns_dist_congr m ρ c j _ _ (by show 1 + s'.val = s'.val + 1; omega) _ _ _)

/-- The device's own finished strip is the source of both first transfers: its right half of the one travelling right, its
    left half of the one travelling left. -/
theorem fwd_own (c : Dev nD) (j : Fin 4) :
    (owns (c : Thread nD τ) (oS c 0 j) fullShare (finV m ρ c (0, j)) : sProp 𝕄)
      ⊢ iprop(owns (c : Thread nD τ) (oS c (16 - (0 : Fin 8).val) j) (shG false (0 : Fin 8).val)
            (fin m ρ (posOf c - ⟨(0 : Fin 8).val % 16, Nat.mod_lt _ (by decide)⟩) j)
          ∗ owns (c : Thread nD τ) (oS c (0 : Fin 7).val j) (shG true (0 : Fin 7).val)
            (fin m ρ (posOf c + ⟨(0 : Fin 7).val % 16, Nat.mod_lt _ (by decide)⟩) j)) := by
  show _ ⊢ iprop(grDep m ρ c 0 j ∗ glDep m ρ c 0 j)
  rw [grDep_zero, glDep_zero]
  iintro H
  ihave H' := (owns_share_split (c : Thread nD τ) (oS c 0 j) _) $$ H
  icases H' with ⟨HL, HR⟩
  isplitl [HR]
  · iexact HR
  · iexact HL

/-! ## What comes back, as a finished strip by its distance -/

/-- The departure of the right-travelling step `s ≥ 1` returns the strip of the chunk at distance `a = 16 - s`. -/
theorem ret_gr (c : Dev nD) (s : Fin 8) (hs : s.val ≠ 0) (j : Fin 4) (a : Fin 16) (ha : a.val = 16 - s.val) :
    (grDep m ρ c s j : sProp 𝕄) ⊢ owns (c : Thread nD τ) (oS c a.val j) fullShare (finV m ρ c (a, j)) := by
  obtain ⟨av, hlt⟩ := a
  have ha' : av = 16 - s.val := ha
  subst ha'
  exact Entails.of_eq (grDep_succ m ρ c s hs j)

/-- The departure of the left-travelling step `s ≥ 1` returns the strip of the chunk at distance `a = s`. -/
theorem ret_gl (c : Dev nD) (s : Fin 7) (hs : s.val ≠ 0) (j : Fin 4) (a : Fin 16) (ha : a.val = s.val) :
    (glDep m ρ c s j : sProp 𝕄) ⊢ owns (c : Thread nD τ) (oS c a.val j) fullShare (finV m ρ c (a, j)) := by
  obtain ⟨av, hlt⟩ := a
  have ha' : av = s.val := ha
  subst ha'
  exact Entails.of_eq (glDep_succ m ρ c s hs j)

/-- The two first departures return the device's own strip whole. -/
theorem ret_own (c : Dev nD) (j : Fin 4) :
    iprop(glDep m ρ c 0 j ∗ grDep m ρ c 0 j) ⊢ owns (c : Thread nD τ) (oS c (0 : Fin 16).val j) fullShare (finV m ρ c (0, j)) :=
  own_chunk_join m ρ c j

/-- An arrival of the right-travelling (left-travelling) gather, as the finished strip at its distance `a`. -/
theorem arr_gr (c : Dev nD) (s' : Fin 8) (j : Fin 4) (a : Fin 16) (ha : a.val = 15 - s'.val) :
    (owns (c : Thread nD τ) (oS c (15 - s'.val) j) fullShare (fin m ρ (posOf c + ⟨15 - s'.val, by omega⟩) j) : sProp 𝕄)
      ⊢ owns (c : Thread nD τ) (oS c a.val j) fullShare (finV m ρ c (a, j)) := by
  obtain ⟨av, hlt⟩ := a
  have ha' : av = 15 - s'.val := ha
  subst ha'
  exact .rfl
theorem arr_gl (c : Dev nD) (s' : Fin 7) (j : Fin 4) (a : Fin 16) (ha : a.val = 1 + s'.val) :
    (owns (c : Thread nD τ) (oS c (1 + s'.val) j) fullShare (fin m ρ (posOf c + ⟨1 + s'.val, by have := s'.isLt; omega⟩) j) : sProp 𝕄)
      ⊢ owns (c : Thread nD τ) (oS c a.val j) fullShare (finV m ρ c (a, j)) := by
  obtain ⟨av, hlt⟩ := a
  have ha' : av = 1 + s'.val := ha
  subst ha'
  exact .rfl

end Cert.KernelIdeal.Hand
end
-- ==== Proof.Ending.lean ====
/-
  The last step of a device's body: from the big conjunctions the walk has filled — every transfer cell past its round,
  every output strip at its final value, every strip of the receive buffers back — and nothing left to pay, to the
  resources the body is to leave.
-/
import proofs.«900799_g7700000000000800_dist_gemm_ar_m1024_k1024_n1024_f32_gelu_v7x_i16_1_alg».proof.Proof.BlocksLocal
import proofs.«900799_g7700000000000800_dist_gemm_ar_m1024_k1024_n1024_f32_gelu_v7x_i16_1_alg».proof.Proof.Order

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 241 → ℕ)

/-- Once every payment is made, every transfer cell waited for, every output strip at its final value and every strip of
    the receive buffers back, the device holds what its body is to leave: the receive buffers whole, the semaphores at zero,
    nothing owed, the two staged arguments untouched and the output buffer at the result. -/
theorem ending (c : Dev nD) (W : Waits sig Unit) :
    iprop(records m ρ K ∗ bigSep (Finset.univ.erase (0 : Fin 241)) (doneΦ (F := F) c) ∗ bigSep Finset.univ (outΦ c (finV m ρ c))
        ∗ bigSep Finset.univ (lbΦ (F := F) c) ∗ bigSep Finset.univ (rbΦ (F := F) c)
        ∗ owes (c : Thread nD τ) (owedOf c (Rem 122)) W
        ∗ ((Memref.whole cc0_stg0_0 : Memref sig .tc .vmem S1024x64 .f32).view.loc (c : Thread nD τ) ↦{fullShare} xstg m ρ c)
        ∗ ((Memref.whole cc0_stg1_0 : Memref sig .tc .vmem S64x1024 .f32).view.loc (c : Thread nD τ) ↦{fullShare} wstg m ρ c))
      ⊢ (iprop(|={Set.univ}=> (scratch c ∗ semsZero c ∗ (∃ W', owes (c : Thread nD τ) 0 W')
            ∗ ((Memref.whole cc0_stg0_0 : Memref sig .tc .vmem S1024x64 .f32).view.loc (c : Thread nD τ) ↦{fullShare} xstg m ρ c)
            ∗ ((Memref.whole cc0_stg1_0 : Memref sig .tc .vmem S64x1024 .f32).view.loc (c : Thread nD τ) ↦{fullShare} wstg m ρ c)
            ∗ ((Memref.whole cc0_stg2_0 : Memref sig .tc .vmem S1024x1024 .f32).view.loc (c : Thread nD τ) ↦{fullShare} outFinal m ρ))) : sProp 𝕄) := by
  rw [Rem_end, owedOf_empty]
  iintro ⟨#Hrec, Hdone, Hout, Hlb, Hrb, HO, Hx, Hw⟩
  imod (fin_done m ρ K c) $$ [Hdone] with Hsz
  · isplitr
    · iexact Hrec
    · iexact Hdone
  imodintro
  isplitl [Hlb Hrb]
  · iapply (fin_scratch c)
    isplitl [Hlb]
    · iexact Hlb
    · iexact Hrb
  isplitl [Hsz]
  · iexact Hsz
  isplitl [HO]
  · iexists W; iexact HO
  isplitl [Hx]
  · iexact Hx
  isplitl [Hw]
  · iexact Hw
  iapply (fin_out m ρ c)
  iexact Hout

end Cert.KernelIdeal.Hand
end
-- ==== Proof.Body.lean ====
/-
  The body of the ring all-reduce on one device, walked effect by effect from the device's own resources to what it
  leaves: the product's store, the handshake on the barrier semaphore, then for each ring step and strip the receive,
  the add and the onward transfer of the reduce phase, the GELU of the device's own chunk, and the transfers of the
  gather phase, each wait at a level below everything still owed. Each step is one of the block lemmas, taken in the
  order of the kernel's text.
-/
import proofs.«900799_g7700000000000800_dist_gemm_ar_m1024_k1024_n1024_f32_gelu_v7x_i16_1_alg».proof.Proof.BlocksLocal
import proofs.«900799_g7700000000000800_dist_gemm_ar_m1024_k1024_n1024_f32_gelu_v7x_i16_1_alg».proof.Proof.Order
import proofs.«900799_g7700000000000800_dist_gemm_ar_m1024_k1024_n1024_f32_gelu_v7x_i16_1_alg».proof.Proof.DevArith
import proofs.«900799_g7700000000000800_dist_gemm_ar_m1024_k1024_n1024_f32_gelu_v7x_i16_1_alg».proof.Proof.BlocksSend
import proofs.«900799_g7700000000000800_dist_gemm_ar_m1024_k1024_n1024_f32_gelu_v7x_i16_1_alg».proof.Proof.BlocksWait
import proofs.«900799_g7700000000000800_dist_gemm_ar_m1024_k1024_n1024_f32_gelu_v7x_i16_1_alg».proof.Proof.Forward
import proofs.«900799_g7700000000000800_dist_gemm_ar_m1024_k1024_n1024_f32_gelu_v7x_i16_1_alg».proof.Proof.Ending

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The barrier handshake's cells -/

theorem bar_cellL (c : Dev nD) : Pay.barL.cell c = barCell (lft c) := rfl
theorem bar_cellR (c : Dev nD) : Pay.barR.cell c = barCell (rgt c) := rfl
theorem bar_amtL : Pay.barL.amt = 1 := rfl
theorem bar_amtR : Pay.barR.amt = 1 := rfl

theorem bar_inv (K : Dev nD × Fin 241 → ℕ) (d : Dev nD) : records m ρ K ⊢ cellInv ER (ringRd m ρ) (K (d, 0)) (barCell d) :=
  records_inv m ρ K (d, 0)
theorem bar_reached (K : Dev nD × Fin 241 → ℕ) (d : Dev nD) : records m ρ K ⊢ reached ER (barCell d) 0 :=
  records_reached m ρ K (d, 0)

/-- What the signal to the neighbour before hands it: this device's buffer for the chunks travelling right; -/
theorem bar_pay_true_lft (c : Dev nD) : (ringRd (F := F) m ρ).payload (barCell (lft c)) 0 true
    = iprop(∃ f, ((Memref.whole cc0_scratch1 : Memref sig .tc .vmem S7x64x1024 .f32).view.loc (c : Thread nD τ)) ↦{fullShare} f) := by
  rw [payload_bar_true]; unfold barT; rw [rgt_lft]
/-- and to the neighbour after: its buffer for the chunks travelling left. -/
theorem bar_pay_false_rgt (c : Dev nD) : (ringRd (F := F) m ρ).payload (barCell (rgt c)) 0 false
    = iprop(∃ f, ((Memref.whole cc0_scratch0 : Memref sig .tc .vmem S8x64x1024 .f32).view.loc (c : Thread nD τ)) ↦{fullShare} f) := by
  rw [payload_bar_false]; unfold barF; rw [lft_rgt]

attribute [local sl_rounds] duties_bar amount_bar expect_bar bar_pay_true_lft bar_pay_false_rgt
attribute [local sl_canon] dev1_eq dev2_eq

/-- The owner's positions: the barrier cell's, and the 240 transfer cells'. -/
theorem pos_split_bar (c : Dev nD) :
    (bigSep Finset.univ fun k : Fin 241 => (atPos ER (kcell (c, k)) 0 ∅ 0 : sProp 𝕄))
      = iprop(atPos ER (barCell c) 0 ∅ 0 ∗ bigSep (Finset.univ.erase (0 : Fin 241)) (posΦ (F := F) c)) :=
  (bigSep_univ_split (0 : Fin 241)).trans rfl

/-- Membership in a set given by erasures and insertions of literals. -/
macro "imemp" : tactic => `(tactic| (first | (simp (config := {decide := true}) only [Finset.mem_erase, Finset.mem_insert, Finset.mem_univ, Finset.notMem_empty, _root_.and_true, _root_.true_and, _root_.and_self, _root_.or_true, _root_.true_or, _root_.or_false, _root_.false_or, not_or, ne_eq, Prod.mk.injEq, not_false_eq_true, not_true_eq_false]; first | done | decide) | decide))
/-- The same as the last conjunct of a premise. -/
macro "imemq" : tactic => `(tactic| (ipureintro; imemp))

/-- Everything is owed at the start. -/
theorem owed_start (c : Dev nD) : owedOf c Finset.univ = owedOf c (Rem 0) := by rw [Rem_zero]

/-- Owning a memref at a value is owning it at an equal value. -/
theorem owns_val (d : Thread nD τ) {sp : Space} {sh : Shape} {e : EltTy} (M : Memref sig d.2.kind sp sh e) {q : PosShare TreeShare}
    {X Y : sh.Idx → Elt F e} (h : X = Y) : (owns d M q X : sProp 𝕄) ⊢ owns d M q Y := by subst h; exact .rfl

/-- One of the device's output strips, its distance given as a number. -/
theorem out_strip (c : Dev nD) (V : StripV F) (a : Fin 16) (j : Fin 4) (n : ℕ) (hn : a.val = n) :
    (outΦ c V (a, j) : sProp 𝕄) ⊢ owns (c : Thread nD τ) (oS c n j) fullShare (V (a, j)) := by
  subst hn; exact .rfl

/-- What a receive-add stores: the own strip plus the landed strip, once the loaded vector is known to be that strip. -/
theorem add_val (X Y : S16x1024.Idx → Elt F .f32) (V : S1x16x1024.Idx → Elt F .f32)
    (hV : shapeCast S16x1024 V shapeCasts_S1x16x1024_S16x1024 = Y) : k0_pay2 X V = addS X Y := by
  rw [pay2_eq, hV]

/-- A part that has returned into what follows it is what follows it. -/
theorem wp_ret_bind (c : Dev nD) {α β : Type} (a : α) (f : α → Prog (TpuEff nD τ sig (Elt F) Λ₀ .tc) β) (Q : β → sProp 𝕄) :
    wp frame (wpE (defs₀ (F := F)) 𝒱₀ (c : Thread nD τ) none) Set.univ (f a) Q
      ⊢ wp frame (wpE (defs₀ (F := F)) 𝒱₀ (c : Thread nD τ) none) Set.univ ((Prog.ret a).bind f) Q :=
  BI.Entails.refl _

/-- A family held over a set is the family held over an equal set. -/
theorem fam_congr {I : Type} (Φ : I → sProp 𝕄) {S T : Finset I} (h : S = T) : bigSep S Φ ⊢ bigSep T Φ := by
  subst h; exact .rfl

/-- A family of which nothing is held yet. -/
theorem with_empty {I : Type} (Φ : I → sProp 𝕄) (P : sProp 𝕄) : P ⊢ iprop(P ∗ bigSep (∅ : Finset I) Φ) := by
  rw [bigSep_empty]; exact (BI.sep_emp).2

/-- The product's store leaves the partial product in the output buffer. -/
theorem matmul_out (c : Dev nD) (fo : Buf (Elt F) ((c : Thread nD τ).loc cc0_stg2_0)) :
    ((Memref.whole cc0_stg2_0 : Memref sig .tc .vmem S1024x1024 .f32).view.loc (c : Thread nD τ) ↦{fullShare}
        (Memref.whole cc0_stg2_0 : Memref sig .tc .vmem S1024x1024 .f32).view.writes (Elt F) fo
          [⟨Rect.unit (s := S1024x1024) ![0, 0] S1024x1024.size Facts₀.inb_S1024x1024_S1024x1024_0_0,
            k0_pay1 (View.readAt (Elt F) (Memref.whole cc0_stg0_0 : Memref sig .tc .vmem S1024x64 .f32).view (Rect.unit (s := S1024x64) ![0, 0] S1024x64.size Facts₀.inb_S1024x64_S1024x64_0_0).toLoadRect (xstg m ρ c))
              (View.readAt (Elt F) (Memref.whole cc0_stg1_0 : Memref sig .tc .vmem S64x1024 .f32).view (Rect.unit (s := S64x1024) ![0, 0] S64x1024.size Facts₀.inb_S64x1024_S64x1024_0_0).toLoadRect (wstg m ρ c))⟩])
      ⊢ ((Memref.whole cc0_stg2_0 : Memref sig .tc .vmem S1024x1024 .f32).view.loc (c : Thread nD τ) ↦{fullShare} part m ρ c : sProp 𝕄) := by
  rw [part_of_writes]

/-- The output buffer at the partial product, cut into its sixty-four strips. -/
theorem out_split_part (c : Dev nD) :
    ((Memref.whole cc0_stg2_0 : Memref sig .tc .vmem S1024x1024 .f32).view.loc (c : Thread nD τ) ↦{fullShare} part m ρ c)
      ⊢ (bigSep Finset.univ (outΦ c (partV m ρ c)) : sProp 𝕄) := out_split c (part m ρ c)

set_option maxHeartbeats 16000000 in
/-- THE BODY, from the device's own resources to what it leaves. -/
theorem sound_body (K : Dev nD × Fin 241 → ℕ) (c : Dev nD) (Kt : PUnit → sProp 𝕄) (W : Waits sig Unit)
    (fo : Buf (Elt F) ((c : Thread nD τ).loc cc0_stg2_0)) (fl : Buf (Elt F) ((c : Thread nD τ).loc cc0_scratch0)) (fr : Buf (Elt F) ((c : Thread nD τ).loc cc0_scratch1)) :
    iprop(records m ρ K ∗ posOwn c ∗ payToks c ∗ creds c ∗ levAts L lv
      ∗ ((Memref.whole cc0_stg0_0 : Memref sig .tc .vmem S1024x64 .f32).view.loc (c : Thread nD τ) ↦{fullShare} xstg m ρ c)
      ∗ ((Memref.whole cc0_stg1_0 : Memref sig .tc .vmem S64x1024 .f32).view.loc (c : Thread nD τ) ↦{fullShare} wstg m ρ c)
      ∗ ((Memref.whole cc0_stg2_0 : Memref sig .tc .vmem S1024x1024 .f32).view.loc (c : Thread nD τ) ↦{fullShare} fo)
      ∗ ((Memref.whole cc0_scratch0 : Memref sig .tc .vmem S8x64x1024 .f32).view.loc (c : Thread nD τ) ↦{fullShare} fl)
      ∗ ((Memref.whole cc0_scratch1 : Memref sig .tc .vmem S7x64x1024 .f32).view.loc (c : Thread nD τ) ↦{fullShare} fr)
      ∗ owes (c : Thread nD τ) (owedOf c Finset.univ) W
      ∗ (iprop(scratch c ∗ semsZero c ∗ (∃ W', owes (c : Thread nD τ) 0 W')
          ∗ ((Memref.whole cc0_stg0_0 : Memref sig .tc .vmem S1024x64 .f32).view.loc (c : Thread nD τ) ↦{fullShare} xstg m ρ c)
          ∗ ((Memref.whole cc0_stg1_0 : Memref sig .tc .vmem S64x1024 .f32).view.loc (c : Thread nD τ) ↦{fullShare} wstg m ρ c)
          ∗ ((Memref.whole cc0_stg2_0 : Memref sig .tc .vmem S1024x1024 .f32).view.loc (c : Thread nD τ) ↦{fullShare} outFinal m ρ)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5) Kt := by
  have hmayB : (levAts L lv : sProp 𝕄) ⊢ MayWait (c : Thread nD τ) (.reg barS) () (owedOf c (Rem 2)) :=
    may_of_Rem c (barCell c) 1 (lv_bar c) 2 (by rw [forall_pay]; decide)
  unfold posOwn payToks creds
  rw [pos_split_bar c, owed_start c, owedOf_erase c (Rem 0) Pay.barL (mem_Rem.mpr (Nat.zero_le _)), Rem_erase 0 Pay.barL rfl,
    owedOf_erase c (Rem 1) Pay.barR (mem_Rem.mpr (by decide)), Rem_erase 1 Pay.barR rfl, bar_cellL, bar_cellR, bar_amtL, bar_amtR]
  iintro ⟨#Hrec, ⟨Hatb, Hpos⟩, ⟨HtL, HtR, Htrl, Htrr, Htgr, Htgl⟩, ⟨Hcb, Hcrl, Hcrr, Hcgr, Hcgl⟩, #Hlev, Hx, Hw, Hout, Hl, Hr, HO, Hk⟩
  -- the three barrier cells' invariants, the neighbours' round-0 facts, and the barrier wait's level
  ihave #HIb := (bar_inv m ρ K c) $$ Hrec
  ihave #HIbL := (bar_inv m ρ K (lft c)) $$ Hrec
  ihave #HIbR := (bar_inv m ρ K (rgt c)) $$ Hrec
  ihave #HrL := (bar_reached m ρ K (lft c)) $$ Hrec
  ihave #HrR := (bar_reached m ρ K (rgt c)) $$ Hrec
  ihave #HmayB := hmayB $$ Hlev
  -- the product, its store, the two signals and the wait
  sl_exec
  -- the neighbours' receive buffers, and all three buffers cut into strips
  ihave Hp := (bar_open m ρ c) $$ Hatb_pay1
  icases Hp with ⟨⟨%fL, HL⟩, ⟨%fR, HR⟩⟩
  ihave HLs := (lbuf_split (F := F) (lft c) fL) $$ HL
  ihave HRs := (rbuf_split (F := F) (rgt c) fR) $$ HR
  ihave Hout := (matmul_out m ρ c fo) $$ Hout
  ihave Hos := (out_split_part m ρ c) $$ Hout
  -- the families of which nothing is held yet
  ihave He := (with_empty (depRlΦ (F := F) c) _) $$ HO; icases He with ⟨HO, Hdl⟩
  ihave He := (with_empty (depRrΦ (F := F) c) _) $$ HO; icases He with ⟨HO, Hdr⟩
  ihave He := (with_empty (depGrΦ (F := F) c) _) $$ HO; icases He with ⟨HO, Hdgr⟩
  ihave He := (with_empty (depGlΦ (F := F) c) _) $$ HO; icases He with ⟨HO, Hdgl⟩
  ihave He := (with_empty (doneΦ (F := F) c) _) $$ HO; icases He with ⟨HO, Hdone⟩
  ihave He := (with_empty (nbRΦ (F := F) c) _) $$ HO; icases He with ⟨HO, Hnr⟩
  ihave He := (with_empty (nbLΦ (F := F) c) _) $$ HO; icases He with ⟨HO, Hnl⟩
  ihave He := (with_empty (lbΦ (F := F) c) _) $$ HO; icases He with ⟨HO, Hlb⟩
  ihave He := (with_empty (rbΦ (F := F) c) _) $$ HO; icases He with ⟨HO, Hrb⟩
  ihave He := (with_empty (outΦ c (finV m ρ c)) _) $$ HO; icases He with ⟨HO, Hfin⟩
  -- reduce leftwards, step 0, strip 0: the strip of the partial product at distance 8 leaves for the neighbour before
  iapply (blk_rl_send0 m ρ K c (0 : Fin 8) (0 : Fin 4) (8 : Fin 16) 2 _ (dev3_eq c _) (off1_eq_far c (0 : Fin 8) (0 : Fin 4)) (partV m ρ c) rfl) $$ [Hos HLs Htrl Hdl HO]
  · iframe # ∗
    imemq
  iintro ⟨Hos, HLs, Htrl, Hdl, HO⟩
  first | iapply (wp_ret_bind c _ _ _) | skip
  try sl_exec
  -- reduce rightwards, step 0, strip 0: the strip of the partial product at distance 7 leaves for the neighbour after
  iapply (blk_rr_send0 m ρ K c (0 : Fin 7) (0 : Fin 4) (7 : Fin 16) 3 _ (dev4_eq c _) (off2_eq c (0 : Fin 7) (0 : Fin 4)) (partV m ρ c) rfl) $$ [Hos HRs Htrr Hdr HO]
  · iframe # ∗
    imemq
  iintro ⟨Hos, HRs, Htrr, Hdr, HO⟩
  first | iapply (wp_ret_bind c _ _ _) | skip
  try sl_exec
  -- reduce leftwards, step 0, strip 1: the strip of the partial product at distance 8 leaves for the neighbour before
  iapply (blk_rl_send0 m ρ K c (0 : Fin 8) (1 : Fin 4) (8 : Fin 16) 4 _ (dev5_eq c _) (off1_eq_far c (0 : Fin 8) (1 : Fin 4)) (partV m ρ c) rfl) $$ [Hos HLs Htrl Hdl HO]
  · iframe # ∗
    imemq
  iintro ⟨Hos, HLs, Htrl, Hdl, HO⟩
  first | iapply (wp_ret_bind c _ _ _) | skip
  try sl_exec
  -- reduce rightwards, step 0, strip 1: the strip of the partial product at distance 7 leaves for the neighbour after
  iapply (blk_rr_send0 m ρ K c (0 : Fin 7) (1 : Fin 4) (7 : Fin 16) 5 _ (dev6_eq c _) (off2_eq c (0 : Fin 7) (1 : Fin 4)) (partV m ρ c) rfl) $$ [Hos HRs Htrr Hdr HO]
  · iframe # ∗
    imemq
  iintro ⟨Hos, HRs, Htrr, Hdr, HO⟩
  first | iapply (wp_ret_bind c _ _ _) | skip
  try sl_exec
  -- reduce leftwards, step 0, strip 2: the strip of the partial product at distance 8 leaves for the neighbour before
  iapply (blk_rl_send0 m ρ K c (0 : Fin 8) (2 : Fin 4) (8 : Fin 16) 6 _ (dev7_eq c _) (off1_eq_far c (0 : Fin 8) (2 : Fin 4)) (partV m ρ c) rfl) $$ [Hos HLs Htrl Hdl HO]
  · iframe # ∗
    imemq
  iintro ⟨Hos, HLs, Htrl, Hdl, HO⟩
  first | iapply (wp_ret_bind c _ _ _) | skip
  try sl_exec
  -- reduce rightwards, step 0, strip 2: the strip of the partial product at distance 7 leaves for the neighbour after
  iapply (blk_rr_send0 m ρ K c (0 : Fin 7) (2 : Fin 4) (7 : Fin 16) 7 _ (dev8_eq c _) (off2_eq c (0 : Fin 7) (2 : Fin 4)) (partV m ρ c) rfl) $$ [Hos HRs Htrr Hdr HO]
  · iframe # ∗
    imemq
  iintro ⟨Hos, HRs, Htrr, Hdr, HO⟩
  first | iapply (wp_ret_bind c _ _ _) | skip
  try sl_exec
  -- reduce leftwards, step 0, strip 3: the strip of the partial product at distance 8 leaves for the neighbour before
  iapply (blk_rl_send0 m ρ K c (0 : Fin 8) (3 : Fin 4) (8 : Fin 16) 8 _ (dev9_eq c _) (off1_eq_far c (0 : Fin 8) (3 : Fin 4)) (partV m ρ c) rfl) $$ [Hos HLs Htrl Hdl HO]
  · iframe # ∗
    imemq
  iintro ⟨Hos, HLs, Htrl, Hdl, HO⟩
  first | iapply (wp_ret_bind c _ _ _) | skip
  try sl_exec
  -- reduce rightwards, step 0, strip 3: the strip of the partial product at distance 7 leaves for the neighbour after
  iapply (blk_rr_send0 m ρ K c (0 : Fin 7) (3 : Fin 4) (7 : Fin 16) 9 _ (dev10_eq c _) (off2_eq c (0 : Fin 7) (3 : Fin 4)) (partV m ρ c) rfl) $$ [Hos HRs Htrr Hdr HO]
  · iframe # ∗
    imemq
  iintro ⟨Hos, HRs, Htrr, Hdr, HO⟩
  first | iapply (wp_ret_bind c _ _ _) | skip
  try sl_exec
  -- the left-travelling step 0, strip 0 has landed: the running sum of the devices after
  iapply (blk_wait_rl_arr m ρ K c (0 : Fin 8) (0 : Fin 4) 10 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 0 is added into the own strip at distance 9, strip 0
  ihave Hs := (take _ ((9 : Fin 16), (0 : Fin 4)) (by imemp) (outΦ c (partV m ρ c))) $$ Hos
  icases Hs with ⟨Hst, Hos⟩
  ihave Hst := (out_strip c (partV m ρ c) (9 : Fin 16) (0 : Fin 4) 9 rfl) $$ Hst
  iapply (wp_addL c 9 (0 : Fin 8) (0 : Fin 4) k0_pay2 (fun _ _ => rfl) (off3_eq c (0 : Fin 8) (0 : Fin 4))) $$ [Hst Hbuf]
  · isplitl [Hst]
    · iexact Hst
    · iexact Hbuf
  iintro ⟨Hst, Hbuf⟩
  ihave Hlb := (blk_lb_put (F := F) c (0 : Fin 8) (0 : Fin 4) _ _) $$ [Hbuf Hlb]
  · iframe
    all_goals imemq
  first | iapply (wp_ret_bind c _ _ _) | skip
  try sl_exec
  -- reduce leftwards, step 1, strip 0: the running sum at distance 9 leaves for the neighbour before
  iapply (blk_rl_send m ρ K c (1 : Fin 8) (0 : Fin 4) 10 _ (dev11_eq c _) (off1_eq_far c (1 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 0, strip 0 has landed: the running sum of the devices before
  iapply (blk_wait_rr_arr m ρ K c (0 : Fin 7) (0 : Fin 4) 11 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 0 is added into the own strip at distance 6, strip 0
  ihave Hs := (take _ ((6 : Fin 16), (0 : Fin 4)) (by imemp) (outΦ c (partV m ρ c))) $$ Hos
  icases Hs with ⟨Hst, Hos⟩
  ihave Hst := (out_strip c (partV m ρ c) (6 : Fin 16) (0 : Fin 4) 6 rfl) $$ Hst
  iapply (wp_addR c 6 (0 : Fin 7) (0 : Fin 4) k0_pay2 (fun _ _ => rfl) (off4_eq c (0 : Fin 7) (0 : Fin 4))) $$ [Hst Hbuf]
  · isplitl [Hst]
    · iexact Hst
    · iexact Hbuf
  iintro ⟨Hst, Hbuf⟩
  ihave Hrb := (blk_rb_put (F := F) c (0 : Fin 7) (0 : Fin 4) _ _) $$ [Hbuf Hrb]
  · iframe
    all_goals imemq
  first | iapply (wp_ret_bind c _ _ _) | skip
  try sl_exec
  -- reduce rightwards, step 1, strip 0: the running sum at distance 6 leaves for the neighbour after
  iapply (blk_rr_send m ρ K c (1 : Fin 7) (0 : Fin 4) 11 _ (dev12_eq c _) (off2_eq c (1 : Fin 7) (0 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 0, strip 1 has landed: the running sum of the devices after
  iapply (blk_wait_rl_arr m ρ K c (0 : Fin 8) (1 : Fin 4) 12 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 0 is added into the own strip at distance 9, strip 1
  ihave Hs := (take _ ((9 : Fin 16), (1 : Fin 4)) (by imemp) (outΦ c (partV m ρ c))) $$ Hos
  icases Hs with ⟨Hst, Hos⟩
  ihave Hst := (out_strip c (partV m ρ c) (9 : Fin 16) (1 : Fin 4) 9 rfl) $$ Hst
  iapply (wp_addL c 9 (0 : Fin 8) (1 : Fin 4) k0_pay2 (fun _ _ => rfl) (off3_eq c (0 : Fin 8) (1 : Fin 4))) $$ [Hst Hbuf]
  · isplitl [Hst]
    · iexact Hst
    · iexact Hbuf
  iintro ⟨Hst, Hbuf⟩
  ihave Hlb := (blk_lb_put (F := F) c (0 : Fin 8) (1 : Fin 4) _ _) $$ [Hbuf Hlb]
  · iframe
    all_goals imemq
  first | iapply (wp_ret_bind c _ _ _) | skip
  try sl_exec
  -- reduce leftwards, step 1, strip 1: the running sum at distance 9 leaves for the neighbour before
  iapply (blk_rl_send m ρ K c (1 : Fin 8) (1 : Fin 4) 12 _ (dev13_eq c _) (off1_eq_far c (1 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 0, strip 1 has landed: the running sum of the devices before
  iapply (blk_wait_rr_arr m ρ K c (0 : Fin 7) (1 : Fin 4) 13 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 0 is added into the own strip at distance 6, strip 1
  ihave Hs := (take _ ((6 : Fin 16), (1 : Fin 4)) (by imemp) (outΦ c (partV m ρ c))) $$ Hos
  icases Hs with ⟨Hst, Hos⟩
  ihave Hst := (out_strip c (partV m ρ c) (6 : Fin 16) (1 : Fin 4) 6 rfl) $$ Hst
  iapply (wp_loadO c 6 (1 : Fin 4) (off4_eq c (0 : Fin 7) (1 : Fin 4))) $$ Hst; iintro Hst
  iapply (wp_loadR c (0 : Fin 7) (1 : Fin 4)) $$ Hbuf; iintro %V %hV Hbuf
  iapply (wp_loadO c 6 (1 : Fin 4) (off4_eq c (0 : Fin 7) (1 : Fin 4))) $$ Hst; iintro Hst
  first | iapply (wp_ret_bind c _ _ _) | skip
  try sl_exec
  iapply (wp_storeO c 6 (1 : Fin 4) (off4_eq c (0 : Fin 7) (1 : Fin 4))) $$ Hst; iintro Hst
  ihave Hst := (owns_val (c : Thread nD τ) (oS c 6 (1 : Fin 4)) (Y := addS _ (accR m ρ ((0 : Fin 7)).val (lft c) (1 : Fin 4))) (by exact add_val _ _ V hV)) $$ Hst
  ihave Hrb := (blk_rb_put (F := F) c (0 : Fin 7) (1 : Fin 4) _ _) $$ [Hbuf Hrb]
  · iframe
    all_goals imemq
  first | iapply (wp_ret_bind c _ _ _) | skip
  try sl_exec
  -- reduce rightwards, step 1, strip 1: the running sum at distance 6 leaves for the neighbour after
  iapply (blk_rr_send m ρ K c (1 : Fin 7) (1 : Fin 4) 13 _ (dev14_eq c _) (off2_eq c (1 : Fin 7) (1 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 0, strip 2 has landed: the running sum of the devices after
  iapply (blk_wait_rl_arr m ρ K c (0 : Fin 8) (2 : Fin 4) 14 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 0 is added into the own strip at distance 9, strip 2
  ihave Hs := (take _ ((9 : Fin 16), (2 : Fin 4)) (by imemp) (outΦ c (partV m ρ c))) $$ Hos
  icases Hs with ⟨Hst, Hos⟩
  ihave Hst := (out_strip c (partV m ρ c) (9 : Fin 16) (2 : Fin 4) 9 rfl) $$ Hst
  iapply (wp_loadO c 9 (2 : Fin 4) (off3_eq c (0 : Fin 8) (2 : Fin 4))) $$ Hst; iintro Hst
  iapply (wp_loadL c (0 : Fin 8) (2 : Fin 4)) $$ Hbuf; iintro %V %hV Hbuf
  first | iapply (wp_ret_bind c _ _ _) | skip
  try sl_exec
  iapply (wp_loadO c 9 (2 : Fin 4) (off3_eq c (0 : Fin 8) (2 : Fin 4))) $$ Hst; iintro Hst
  iapply (wp_storeO c 9 (2 : Fin 4) (off3_eq c (0 : Fin 8) (2 : Fin 4))) $$ Hst; iintro Hst
  ihave Hst := (owns_val (c : Thread nD τ) (oS c 9 (2 : Fin 4)) (Y := addS _ (accL m ρ ((0 : Fin 8)).val (rgt c) (2 : Fin 4))) (by exact add_val _ _ V hV)) $$ Hst
  ihave Hlb := (blk_lb_put (F := F) c (0 : Fin 8) (2 : Fin 4) _ _) $$ [Hbuf Hlb]
  · iframe
    all_goals imemq
  first | iapply (wp_ret_bind c _ _ _) | skip
  try sl_exec
  -- reduce leftwards, step 1, strip 2: the running sum at distance 9 leaves for the neighbour before
  iapply (blk_rl_send m ρ K c (1 : Fin 8) (2 : Fin 4) 14 _ (dev15_eq c _) (off1_eq_far c (1 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 0, strip 2 has landed: the running sum of the devices before
  iapply (blk_wait_rr_arr m ρ K c (0 : Fin 7) (2 : Fin 4) 15 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 0 is added into the own strip at distance 6, strip 2
  ihave Hs := (take _ ((6 : Fin 16), (2 : Fin 4)) (by imemp) (outΦ c (partV m ρ c))) $$ Hos
  icases Hs with ⟨Hst, Hos⟩
  ihave Hst := (out_strip c (partV m ρ c) (6 : Fin 16) (2 : Fin 4) 6 rfl) $$ Hst
  iapply (wp_loadO c 6 (2 : Fin 4) (off4_eq c (0 : Fin 7) (2 : Fin 4))) $$ Hst; iintro Hst
  iapply (wp_loadR c (0 : Fin 7) (2 : Fin 4)) $$ Hbuf; iintro %V %hV Hbuf
  first | iapply (wp_ret_bind c _ _ _) | skip
  try sl_exec
  iapply (wp_loadO c 6 (2 : Fin 4) (off4_eq c (0 : Fin 7) (2 : Fin 4))) $$ Hst; iintro Hst
  iapply (wp_storeO c 6 (2 : Fin 4) (off4_eq c (0 : Fin 7) (2 : Fin 4))) $$ Hst; iintro Hst
  ihave Hst := (owns_val (c : Thread nD τ) (oS c 6 (2 : Fin 4)) (Y := addS _ (accR m ρ ((0 : Fin 7)).val (lft c) (2 : Fin 4))) (by exact add_val _ _ V hV)) $$ Hst
  ihave Hrb := (blk_rb_put (F := F) c (0 : Fin 7) (2 : Fin 4) _ _) $$ [Hbuf Hrb]
  · iframe
    all_goals imemq
  first | iapply (wp_ret_bind c _ _ _) | skip
  try sl_exec
  -- reduce rightwards, step 1, strip 2: the running sum at distance 6 leaves for the neighbour after
  iapply (blk_rr_send m ρ K c (1 : Fin 7) (2 : Fin 4) 15 _ (dev16_eq c _) (off2_eq c (1 : Fin 7) (2 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 0, strip 3 has landed: the running sum of the devices after
  iapply (blk_wait_rl_arr m ρ K c (0 : Fin 8) (3 : Fin 4) 16 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 0 is added into the own strip at distance 9, strip 3
  ihave Hs := (take _ ((9 : Fin 16), (3 : Fin 4)) (by imemp) (outΦ c (partV m ρ c))) $$ Hos
  icases Hs with ⟨Hst, Hos⟩
  ihave Hst := (out_strip c (partV m ρ c) (9 : Fin 16) (3 : Fin 4) 9 rfl) $$ Hst
  iapply (wp_addL c 9 (0 : Fin 8) (3 : Fin 4) k0_pay2 (fun _ _ => rfl) (off3_eq c (0 : Fin 8) (3 : Fin 4))) $$ [Hst Hbuf]
  · isplitl [Hst]
    · iexact Hst
    · iexact Hbuf
  iintro ⟨Hst, Hbuf⟩
  ihave Hlb := (blk_lb_put (F := F) c (0 : Fin 8) (3 : Fin 4) _ _) $$ [Hbuf Hlb]
  · iframe
    all_goals imemq
  first | iapply (wp_ret_bind c _ _ _) | skip
  try sl_exec
  -- reduce leftwards, step 1, strip 3: the running sum at distance 9 leaves for the neighbour before
  iapply (blk_rl_send m ρ K c (1 : Fin 8) (3 : Fin 4) 16 _ (dev17_eq c _) (off1_eq_far c (1 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 0, strip 3 has landed: the running sum of the devices before
  iapply (blk_wait_rr_arr m ρ K c (0 : Fin 7) (3 : Fin 4) 17 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 0 is added into the own strip at distance 6, strip 3
  ihave Hs := (take _ ((6 : Fin 16), (3 : Fin 4)) (by imemp) (outΦ c (partV m ρ c))) $$ Hos
  icases Hs with ⟨Hst, Hos⟩
  ihave Hst := (out_strip c (partV m ρ c) (6 : Fin 16) (3 : Fin 4) 6 rfl) $$ Hst
  iapply (wp_addR c 6 (0 : Fin 7) (3 : Fin 4) k0_pay2 (fun _ _ => rfl) (off4_eq c (0 : Fin 7) (3 : Fin 4))) $$ [Hst Hbuf]
  · isplitl [Hst]
    · iexact Hst
    · iexact Hbuf
  iintro ⟨Hst, Hbuf⟩
  ihave Hrb := (blk_rb_put (F := F) c (0 : Fin 7) (3 : Fin 4) _ _) $$ [Hbuf Hrb]
  · iframe
    all_goals imemq
  first | iapply (wp_ret_bind c _ _ _) | skip
  try sl_exec
  -- reduce rightwards, step 1, strip 3: the running sum at distance 6 leaves for the neighbour after
  iapply (blk_rr_send m ρ K c (1 : Fin 7) (3 : Fin 4) 17 _ (dev18_eq c _) (off2_eq c (1 : Fin 7) (3 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the departure of the reduce-left step 0, strip 0 is complete
  iapply (blk_wait_rl_dep m ρ K c (0 : Fin 8) (0 : Fin 4) 18 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 0, strip 0 is complete
  iapply (blk_wait_rr_dep m ρ K c (0 : Fin 7) (0 : Fin 4) 18 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 0, strip 1 is complete
  iapply (blk_wait_rl_dep m ρ K c (0 : Fin 8) (1 : Fin 4) 18 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 0, strip 1 is complete
  iapply (blk_wait_rr_dep m ρ K c (0 : Fin 7) (1 : Fin 4) 18 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 0, strip 2 is complete
  iapply (blk_wait_rl_dep m ρ K c (0 : Fin 8) (2 : Fin 4) 18 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 0, strip 2 is complete
  iapply (blk_wait_rr_dep m ρ K c (0 : Fin 7) (2 : Fin 4) 18 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 0, strip 3 is complete
  iapply (blk_wait_rl_dep m ρ K c (0 : Fin 8) (3 : Fin 4) 18 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 0, strip 3 is complete
  iapply (blk_wait_rr_dep m ρ K c (0 : Fin 7) (3 : Fin 4) 18 (credit_any _)) $$ [Hdr Hpos Hdone HO]
  · iframe # ∗
    isplitr
    · imemq
    · imay
  iintro ⟨Hdr, Hpos, Hdone, HO⟩
  first | iapply (wp_ret_bind c _ _ _) | skip
  try sl_exec
  -- the left-travelling step 1, strip 0 has landed: the running sum of the devices after
  iapply (blk_wait_rl_arr m ρ K c (1 : Fin 8) (0 : Fin 4) 18 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 1 is added into the own strip at distance 10, strip 0
  ihave Hs := (take _ ((10 : Fin 16), (0 : Fin 4)) (by imemp) (outΦ c (partV m ρ c))) $$ Hos
  icases Hs with ⟨Hst, Hos⟩
  ihave Hst := (out_strip c (partV m ρ c) (10 : Fin 16) (0 : Fin 4) 10 rfl) $$ Hst
  iapply (wp_loadO c 10 (0 : Fin 4) (off3_eq c (1 : Fin 8) (0 : Fin 4))) $$ Hst; iintro Hst
  iapply (wp_loadL c (1 : Fin 8) (0 : Fin 4)) $$ Hbuf; iintro %V %hV Hbuf
  first | iapply (wp_ret_bind c _ _ _) | skip
  try sl_exec
  iapply (wp_loadO c 10 (0 : Fin 4) (off3_eq c (1 : Fin 8) (0 : Fin 4))) $$ Hst; iintro Hst
  iapply (wp_storeO c 10 (0 : Fin 4) (off3_eq c (1 : Fin 8) (0 : Fin 4))) $$ Hst; iintro Hst
  ihave Hst := (owns_val (c : Thread nD τ) (oS c 10 (0 : Fin 4)) (Y := addS _ (accL m ρ ((1 : Fin 8)).val (rgt c) (0 : Fin 4))) (by exact add_val _ _ V hV)) $$ Hst
  ihave Hlb := (blk_lb_put (F := F) c (1 : Fin 8) (0 : Fin 4) _ _) $$ [Hbuf Hlb]
  · iframe
    all_goals imemq
  first | iapply (wp_ret_bind c _ _ _) | skip
  try sl_exec
  -- reduce leftwards, step 2, strip 0: the running sum at distance 10 leaves for the neighbour before
  iapply (blk_rl_send m ρ K c (2 : Fin 8) (0 : Fin 4) 18 _ (dev19_eq c _) (off1_eq_far c (2 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 1, strip 0 has landed: the running sum of the devices before
  iapply (blk_wait_rr_arr m ρ K c (1 : Fin 7) (0 : Fin 4) 19 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 1 is added into the own strip at distance 5, strip 0
  ihave Hs := (take _ ((5 : Fin 16), (0 : Fin 4)) (by imemp) (outΦ c (partV m ρ c))) $$ Hos
  icases Hs with ⟨Hst, Hos⟩
  ihave Hst := (out_strip c (partV m ρ c) (5 : Fin 16) (0 : Fin 4) 5 rfl) $$ Hst
  iapply (wp_loadO c 5 (0 : Fin 4) (off4_eq c (1 : Fin 7) (0 : Fin 4))) $$ Hst; iintro Hst
  iapply (wp_loadR c (1 : Fin 7) (0 : Fin 4)) $$ Hbuf; iintro %V %hV Hbuf
  first | iapply (wp_ret_bind c _ _ _) | skip
  try sl_exec
  iapply (wp_loadO c 5 (0 : Fin 4) (off4_eq c (1 : Fin 7) (0 : Fin 4))) $$ Hst; iintro Hst
  iapply (wp_storeO c 5 (0 : Fin 4) (off4_eq c (1 : Fin 7) (0 : Fin 4))) $$ Hst; iintro Hst
  ihave Hst := (owns_val (c : Thread nD τ) (oS c 5 (0 : Fin 4)) (Y := addS _ (accR m ρ ((1 : Fin 7)).val (lft c) (0 : Fin 4))) (by exact add_val _ _ V hV)) $$ Hst
  ihave Hrb := (blk_rb_put (F := F) c (1 : Fin 7) (0 : Fin 4) _ _) $$ [Hbuf Hrb]
  · iframe
    all_goals imemq
  first | iapply (wp_ret_bind c _ _ _) | skip
  try sl_exec
  -- reduce rightwards, step 2, strip 0: the running sum at distance 5 leaves for the neighbour after
  iapply (blk_rr_send m ρ K c (2 : Fin 7) (0 : Fin 4) 19 _ (dev20_eq c _) (off2_eq c (2 : Fin 7) (0 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 1, strip 1 has landed: the running sum of the devices after
  iapply (blk_wait_rl_arr m ρ K c (1 : Fin 8) (1 : Fin 4) 20 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 1 is added into the own strip at distance 10, strip 1
  ihave Hs := (take _ ((10 : Fin 16), (1 : Fin 4)) (by imemp) (outΦ c (partV m ρ c))) $$ Hos
  icases Hs with ⟨Hst, Hos⟩
  ihave Hst := (out_strip c (partV m ρ c) (10 : Fin 16) (1 : Fin 4) 10 rfl) $$ Hst
  iapply (wp_loadO c 10 (1 : Fin 4) (off3_eq c (1 : Fin 8) (1 : Fin 4))) $$ Hst; iintro Hst
  first | iapply (wp_ret_bind c _ _ _) | skip
  try sl_exec
  iapply (wp_loadL c (1 : Fin 8) (1 : Fin 4)) $$ Hbuf; iintro %V %hV Hbuf
  iapply (wp_loadO c 10 (1 : Fin 4) (off3_eq c (1 : Fin 8) (1 : Fin 4))) $$ Hst; iintro Hst
  iapply (wp_storeO c 10 (1 : Fin 4) (off3_eq c (1 : Fin 8) (1 : Fin 4))) $$ Hst; iintro Hst
  ihave Hst := (owns_val (c : Thread nD τ) (oS c 10 (1 : Fin 4)) (Y := addS _ (accL m ρ ((1 : Fin 8)).val (rgt c) (1 : Fin 4))) (by exact add_val _ _ V hV)) $$ Hst
  ihave Hlb := (blk_lb_put (F := F) c (1 : Fin 8) (1 : Fin 4) _ _) $$ [Hbuf Hlb]
  · iframe
    all_goals imemq
  first | iapply (wp_ret_bind c _ _ _) | skip
  try sl_exec
  -- reduce leftwards, step 2, strip 1: the running sum at distance 10 leaves for the neighbour before
  iapply (blk_rl_send m ρ K c (2 : Fin 8) (1 : Fin 4) 20 _ (dev21_eq c _) (off1_eq_far c (2 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 1, strip 1 has landed: the running sum of the devices before
  iapply (blk_wait_rr_arr m ρ K c (1 : Fin 7) (1 : Fin 4) 21 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 1 is added into the own strip at distance 5, strip 1
  ihave Hs := (take _ ((5 : Fin 16), (1 : Fin 4)) (by imemp) (outΦ c (partV m ρ c))) $$ Hos
  icases Hs with ⟨Hst, Hos⟩
  ihave Hst := (out_strip c (partV m ρ c) (5 : Fin 16) (1 : Fin 4) 5 rfl) $$ Hst
  iapply (wp_addR c 5 (1 : Fin 7) (1 : Fin 4) k0_pay2 (fun _ _ => rfl) (off4_eq c (1 : Fin 7) (1 : Fin 4))) $$ [Hst Hbuf]
  · isplitl [Hst]
    · iexact Hst
    · iexact Hbuf
  iintro ⟨Hst, Hbuf⟩
  ihave Hrb := (blk_rb_put (F := F) c (1 : Fin 7) (1 : Fin 4) _ _) $$ [Hbuf Hrb]
  · iframe
    all_goals imemq
  first | iapply (wp_ret_bind c _ _ _) | skip
  try sl_exec
  -- reduce rightwards, step 2, strip 1: the running sum at distance 5 leaves for the neighbour after
  iapply (blk_rr_send m ρ K c (2 : Fin 7) (1 : Fin 4) 21 _ (dev22_eq c _) (off2_eq c (2 : Fin 7) (1 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 1, strip 2 has landed: the running sum of the devices after
  iapply (blk_wait_rl_arr m ρ K c (1 : Fin 8) (2 : Fin 4) 22 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 1 is added into the own strip at distance 10, strip 2
  ihave Hs := (take _ ((10 : Fin 16), (2 : Fin 4)) (by imemp) (outΦ c (partV m ρ c))) $$ Hos
  icases Hs with ⟨Hst, Hos⟩
  ihave Hst := (out_strip c (partV m ρ c) (10 : Fin 16) (2 : Fin 4) 10 rfl) $$ Hst
  iapply (wp_addL c 10 (1 : Fin 8) (2 : Fin 4) k0_pay2 (fun _ _ => rfl) (off3_eq c (1 : Fin 8) (2 : Fin 4))) $$ [Hst Hbuf]
  · isplitl [Hst]
    · iexact Hst
    · iexact Hbuf
  iintro ⟨Hst, Hbuf⟩
  ihave Hlb := (blk_lb_put (F := F) c (1 : Fin 8) (2 : Fin 4) _ _) $$ [Hbuf Hlb]
  · iframe
    all_goals imemq
  first | iapply (wp_ret_bind c _ _ _) | skip
  try sl_exec
  -- reduce leftwards, step 2, strip 2: the running sum at distance 10 leaves for the neighbour before
  iapply (blk_rl_send m ρ K c (2 : Fin 8) (2 : Fin 4) 22 _ (dev23_eq c _) (off1_eq_far c (2 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 1, strip 2 has landed: the running sum of the devices before
  iapply (blk_wait_rr_arr m ρ K c (1 : Fin 7) (2 : Fin 4) 23 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 1 is added into the own strip at distance 5, strip 2
  ihave Hs := (take _ ((5 : Fin 16), (2 : Fin 4)) (by imemp) (outΦ c (partV m ρ c))) $$ Hos
  icases Hs with ⟨Hst, Hos⟩
  ihave Hst := (out_strip c (partV m ρ c) (5 : Fin 16) (2 : Fin 4) 5 rfl) $$ Hst
  iapply (wp_addR c 5 (1 : Fin 7) (2 : Fin 4) k0_pay2 (fun _ _ => rfl) (off4_eq c (1 : Fin 7) (2 : Fin 4))) $$ [Hst Hbuf]
  · isplitl [Hst]
    · iexact Hst
    · iexact Hbuf
  iintro ⟨Hst, Hbuf⟩
  ihave Hrb := (blk_rb_put (F := F) c (1 : Fin 7) (2 : Fin 4) _ _) $$ [Hbuf Hrb]
  · iframe
    all_goals imemq
  first | iapply (wp_ret_bind c _ _ _) | skip
  try sl_exec
  -- reduce rightwards, step 2, strip 2: the running sum at distance 5 leaves for the neighbour after
  iapply (blk_rr_send m ρ K c (2 : Fin 7) (2 : Fin 4) 23 _ (dev24_eq c _) (off2_eq c (2 : Fin 7) (2 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 1, strip 3 has landed: the running sum of the devices after
  iapply (blk_wait_rl_arr m ρ K c (1 : Fin 8) (3 : Fin 4) 24 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 1 is added into the own strip at distance 10, strip 3
  ihave Hs := (take _ ((10 : Fin 16), (3 : Fin 4)) (by imemp) (outΦ c (partV m ρ c))) $$ Hos
  icases Hs with ⟨Hst, Hos⟩
  ihave Hst := (out_strip c (partV m ρ c) (10 : Fin 16) (3 : Fin 4) 10 rfl) $$ Hst
  iapply (wp_loadO c 10 (3 : Fin 4) (off3_eq c (1 : Fin 8) (3 : Fin 4))) $$ Hst; iintro Hst
  iapply (wp_loadL c (1 : Fin 8) (3 : Fin 4)) $$ Hbuf; iintro %V %hV Hbuf
  first | iapply (wp_ret_bind c _ _ _) | skip
  try sl_exec
  iapply (wp_loadO c 10 (3 : Fin 4) (off3_eq c (1 : Fin 8) (3 : Fin 4))) $$ Hst; iintro Hst
  iapply (wp_storeO c 10 (3 : Fin 4) (off3_eq c (1 : Fin 8) (3 : Fin 4))) $$ Hst; iintro Hst
  ihave Hst := (owns_val (c : Thread nD τ) (oS c 10 (3 : Fin 4)) (Y := addS _ (accL m ρ ((1 : Fin 8)).val (rgt c) (3 : Fin 4))) (by exact add_val _ _ V hV)) $$ Hst
  ihave Hlb := (blk_lb_put (F := F) c (1 : Fin 8) (3 : Fin 4) _ _) $$ [Hbuf Hlb]
  · iframe
    all_goals imemq
  first | iapply (wp_ret_bind c _ _ _) | skip
  try sl_exec
  -- reduce leftwards, step 2, strip 3: the running sum at distance 10 leaves for the neighbour before
  iapply (blk_rl_send m ρ K c (2 : Fin 8) (3 : Fin 4) 24 _ (dev25_eq c _) (off1_eq_far c (2 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 1, strip 3 has landed: the running sum of the devices before
  iapply (blk_wait_rr_arr m ρ K c (1 : Fin 7) (3 : Fin 4) 25 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 1 is added into the own strip at distance 5, strip 3
  ihave Hs := (take _ ((5 : Fin 16), (3 : Fin 4)) (by imemp) (outΦ c (partV m ρ c))) $$ Hos
  icases Hs with ⟨Hst, Hos⟩
  ihave Hst := (out_strip c (partV m ρ c) (5 : Fin 16) (3 : Fin 4) 5 rfl) $$ Hst
  iapply (wp_loadO c 5 (3 : Fin 4) (off4_eq c (1 : Fin 7) (3 : Fin 4))) $$ Hst; iintro Hst
  iapply (wp_loadR c (1 : Fin 7) (3 : Fin 4)) $$ Hbuf; iintro %V %hV Hbuf
  first | iapply (wp_ret_bind c _ _ _) | skip
  try sl_exec
  iapply (wp_loadO c 5 (3 : Fin 4) (off4_eq c (1 : Fin 7) (3 : Fin 4))) $$ Hst; iintro Hst
  iapply (wp_storeO c 5 (3 : Fin 4) (off4_eq c (1 : Fin 7) (3 : Fin 4))) $$ Hst; iintro Hst
  ihave Hst := (owns_val (c : Thread nD τ) (oS c 5 (3 : Fin 4)) (Y := addS _ (accR m ρ ((1 : Fin 7)).val (lft c) (3 : Fin 4))) (by exact add_val _ _ V hV)) $$ Hst
  ihave Hrb := (blk_rb_put (F := F) c (1 : Fin 7) (3 : Fin 4) _ _) $$ [Hbuf Hrb]
  · iframe
    all_goals imemq
  first | iapply (wp_ret_bind c _ _ _) | skip
  try sl_exec
  -- reduce rightwards, step 2, strip 3: the running sum at distance 5 leaves for the neighbour after
  iapply (blk_rr_send m ρ K c (2 : Fin 7) (3 : Fin 4) 25 _ (dev26_eq c _) (off2_eq c (2 : Fin 7) (3 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the departure of the reduce-left step 1, strip 0 is complete
  iapply (blk_wait_rl_dep m ρ K c (1 : Fin 8) (0 : Fin 4) 26 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 1, strip 0 is complete
  iapply (blk_wait_rr_dep m ρ K c (1 : Fin 7) (0 : Fin 4) 26 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 1, strip 1 is complete
  iapply (blk_wait_rl_dep m ρ K c (1 : Fin 8) (1 : Fin 4) 26 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 1, strip 1 is complete
  iapply (blk_wait_rr_dep m ρ K c (1 : Fin 7) (1 : Fin 4) 26 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 1, strip 2 is complete
  iapply (blk_wait_rl_dep m ρ K c (1 : Fin 8) (2 : Fin 4) 26 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 1, strip 2 is complete
  iapply (blk_wait_rr_dep m ρ K c (1 : Fin 7) (2 : Fin 4) 26 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 1, strip 3 is complete
  iapply (blk_wait_rl_dep m ρ K c (1 : Fin 8) (3 : Fin 4) 26 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 1, strip 3 is complete
  iapply (blk_wait_rr_dep m ρ K c (1 : Fin 7) (3 : Fin 4) 26 (credit_any _)) $$ [Hdr Hpos Hdone HO]
  · iframe # ∗
    isplitr
    · imemq
    · imay
  iintro ⟨Hdr, Hpos, Hdone, HO⟩
  first | iapply (wp_ret_bind c _ _ _) | skip
  try sl_exec
  -- the left-travelling step 2, strip 0 has landed: the running sum of the devices after
  iapply (blk_wait_rl_arr m ρ K c (2 : Fin 8) (0 : Fin 4) 26 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 2 is added into the own strip at distance 11, strip 0
  ihave Hs := (take _ ((11 : Fin 16), (0 : Fin 4)) (by imemp) (outΦ c (partV m ρ c))) $$ Hos
  icases Hs with ⟨Hst, Hos⟩
  ihave Hst := (out_strip c (partV m ρ c) (11 : Fin 16) (0 : Fin 4) 11 rfl) $$ Hst
  iapply (wp_addL c 11 (2 : Fin 8) (0 : Fin 4) k0_pay2 (fun _ _ => rfl) (off3_eq c (2 : Fin 8) (0 : Fin 4))) $$ [Hst Hbuf]
  · isplitl [Hst]
    · iexact Hst
    · iexact Hbuf
  iintro ⟨Hst, Hbuf⟩
  ihave Hlb := (blk_lb_put (F := F) c (2 : Fin 8) (0 : Fin 4) _ _) $$ [Hbuf Hlb]
  · iframe
    all_goals imemq
  first | iapply (wp_ret_bind c _ _ _) | skip
  try sl_exec
  -- reduce leftwards, step 3, strip 0: the running sum at distance 11 leaves for the neighbour before
  iapply (blk_rl_send m ρ K c (3 : Fin 8) (0 : Fin 4) 26 _ (dev27_eq c _) (off1_eq_far c (3 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 2, strip 0 has landed: the running sum of the devices before
  iapply (blk_wait_rr_arr m ρ K c (2 : Fin 7) (0 : Fin 4) 27 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 2 is added into the own strip at distance 4, strip 0
  ihave Hs := (take _ ((4 : Fin 16), (0 : Fin 4)) (by imemp) (outΦ c (partV m ρ c))) $$ Hos
  icases Hs with ⟨Hst, Hos⟩
  ihave Hst := (out_strip c (partV m ρ c) (4 : Fin 16) (0 : Fin 4) 4 rfl) $$ Hst
  iapply (wp_addR c 4 (2 : Fin 7) (0 : Fin 4) k0_pay2 (fun _ _ => rfl) (off4_eq c (2 : Fin 7) (0 : Fin 4))) $$ [Hst Hbuf]
  · isplitl [Hst]
    · iexact Hst
    · iexact Hbuf
  iintro ⟨Hst, Hbuf⟩
  ihave Hrb := (blk_rb_put (F := F) c (2 : Fin 7) (0 : Fin 4) _ _) $$ [Hbuf Hrb]
  · iframe
    all_goals imemq
  first | iapply (wp_ret_bind c _ _ _) | skip
  try sl_exec
  -- reduce rightwards, step 3, strip 0: the running sum at distance 4 leaves for the neighbour after
  iapply (blk_rr_send m ρ K c (3 : Fin 7) (0 : Fin 4) 27 _ (dev28_eq c _) (off2_eq c (3 : Fin 7) (0 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 2, strip 1 has landed: the running sum of the devices after
  iapply (blk_wait_rl_arr m ρ K c (2 : Fin 8) (1 : Fin 4) 28 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 2 is added into the own strip at distance 11, strip 1
  ihave Hs := (take _ ((11 : Fin 16), (1 : Fin 4)) (by imemp) (outΦ c (partV m ρ c))) $$ Hos
  icases Hs with ⟨Hst, Hos⟩
  ihave Hst := (out_strip c (partV m ρ c) (11 : Fin 16) (1 : Fin 4) 11 rfl) $$ Hst
  iapply (wp_loadO c 11 (1 : Fin 4) (off3_eq c (2 : Fin 8) (1 : Fin 4))) $$ Hst; iintro Hst
  iapply (wp_loadL c (2 : Fin 8) (1 : Fin 4)) $$ Hbuf; iintro %V %hV Hbuf
  first | iapply (wp_ret_bind c _ _ _) | skip
  try sl_exec
  iapply (wp_loadO c 11 (1 : Fin 4) (off3_eq c (2 : Fin 8) (1 : Fin 4))) $$ Hst; iintro Hst
  iapply (wp_storeO c 11 (1 : Fin 4) (off3_eq c (2 : Fin 8) (1 : Fin 4))) $$ Hst; iintro Hst
  ihave Hst := (owns_val (c : Thread nD τ) (oS c 11 (1 : Fin 4)) (Y := addS _ (accL m ρ ((2 : Fin 8)).val (rgt c) (1 : Fin 4))) (by exact add_val _ _ V hV)) $$ Hst
  ihave Hlb := (blk_lb_put (F := F) c (2 : Fin 8) (1 : Fin 4) _ _) $$ [Hbuf Hlb]
  · iframe
    all_goals imemq
  first | iapply (wp_ret_bind c _ _ _) | skip
  try sl_exec
  -- reduce leftwards, step 3, strip 1: the running sum at distance 11 leaves for the neighbour before
  iapply (blk_rl_send m ρ K c (3 : Fin 8) (1 : Fin 4) 28 _ (dev29_eq c _) (off1_eq_far c (3 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 2, strip 1 has landed: the running sum of the devices before
  iapply (blk_wait_rr_arr m ρ K c (2 : Fin 7) (1 : Fin 4) 29 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 2 is added into the own strip at distance 4, strip 1
  ihave Hs := (take _ ((4 : Fin 16), (1 : Fin 4)) (by imemp) (outΦ c (partV m ρ c))) $$ Hos
  icases Hs with ⟨Hst, Hos⟩
  ihave Hst := (out_strip c (partV m ρ c) (4 : Fin 16) (1 : Fin 4) 4 rfl) $$ Hst
  iapply (wp_loadO c 4 (1 : Fin 4) (off4_eq c (2 : Fin 7) (1 : Fin 4))) $$ Hst; iintro Hst
  iapply (wp_loadR c (2 : Fin 7) (1 : Fin 4)) $$ Hbuf; iintro %V %hV Hbuf
  first | iapply (wp_ret_bind c _ _ _) | skip
  try sl_exec
  iapply (wp_loadO c 4 (1 : Fin 4) (off4_eq c (2 : Fin 7) (1 : Fin 4))) $$ Hst; iintro Hst
  iapply (wp_storeO c 4 (1 : Fin 4) (off4_eq c (2 : Fin 7) (1 : Fin 4))) $$ Hst; iintro Hst
  ihave Hst := (owns_val (c : Thread nD τ) (oS c 4 (1 : Fin 4)) (Y := addS _ (accR m ρ ((2 : Fin 7)).val (lft c) (1 : Fin 4))) (by exact add_val _ _ V hV)) $$ Hst
  ihave Hrb := (blk_rb_put (F := F) c (2 : Fin 7) (1 : Fin 4) _ _) $$ [Hbuf Hrb]
  · iframe
    all_goals imemq
  first | iapply (wp_ret_bind c _ _ _) | skip
  try sl_exec
  -- reduce rightwards, step 3, strip 1: the running sum at distance 4 leaves for the neighbour after
  iapply (blk_rr_send m ρ K c (3 : Fin 7) (1 : Fin 4) 29 _ (dev30_eq c _) (off2_eq c (3 : Fin 7) (1 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 2, strip 2 has landed: the running sum of the devices after
  iapply (blk_wait_rl_arr m ρ K c (2 : Fin 8) (2 : Fin 4) 30 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 2 is added into the own strip at distance 11, strip 2
  ihave Hs := (take _ ((11 : Fin 16), (2 : Fin 4)) (by imemp) (outΦ c (partV m ρ c))) $$ Hos
  icases Hs with ⟨Hst, Hos⟩
  ihave Hst := (out_strip c (partV m ρ c) (11 : Fin 16) (2 : Fin 4) 11 rfl) $$ Hst
  iapply (wp_loadO c 11 (2 : Fin 4) (off3_eq c (2 : Fin 8) (2 : Fin 4))) $$ Hst; iintro Hst
  iapply (wp_loadL c (2 : Fin 8) (2 : Fin 4)) $$ Hbuf; iintro %V %hV Hbuf
  first | iapply (wp_ret_bind c _ _ _) | skip
  try sl_exec
  iapply (wp_loadO c 11 (2 : Fin 4) (off3_eq c (2 : Fin 8) (2 : Fin 4))) $$ Hst; iintro Hst
  iapply (wp_storeO c 11 (2 : Fin 4) (off3_eq c (2 : Fin 8) (2 : Fin 4))) $$ Hst; iintro Hst
  ihave Hst := (owns_val (c : Thread nD τ) (oS c 11 (2 : Fin 4)) (Y := addS _ (accL m ρ ((2 : Fin 8)).val (rgt c) (2 : Fin 4))) (by exact add_val _ _ V hV)) $$ Hst
  ihave Hlb := (blk_lb_put (F := F) c (2 : Fin 8) (2 : Fin 4) _ _) $$ [Hbuf Hlb]
  · iframe
    all_goals imemq
  first | iapply (wp_ret_bind c _ _ _) | skip
  try sl_exec
  -- reduce leftwards, step 3, strip 2: the running sum at distance 11 leaves for the neighbour before
  iapply (blk_rl_send m ρ K c (3 : Fin 8) (2 : Fin 4) 30 _ (dev31_eq c _) (off1_eq_far c (3 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 2, strip 2 has landed: the running sum of the devices before
  iapply (blk_wait_rr_arr m ρ K c (2 : Fin 7) (2 : Fin 4) 31 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 2 is added into the own strip at distance 4, strip 2
  ihave Hs := (take _ ((4 : Fin 16), (2 : Fin 4)) (by imemp) (outΦ c (partV m ρ c))) $$ Hos
  icases Hs with ⟨Hst, Hos⟩
  ihave Hst := (out_strip c (partV m ρ c) (4 : Fin 16) (2 : Fin 4) 4 rfl) $$ Hst
  iapply (wp_addR c 4 (2 : Fin 7) (2 : Fin 4) k0_pay2 (fun _ _ => rfl) (off4_eq c (2 : Fin 7) (2 : Fin 4))) $$ [Hst Hbuf]
  · isplitl [Hst]
    · iexact Hst
    · iexact Hbuf
  iintro ⟨Hst, Hbuf⟩
  ihave Hrb := (blk_rb_put (F := F) c (2 : Fin 7) (2 : Fin 4) _ _) $$ [Hbuf Hrb]
  · iframe
    all_goals imemq
  first | iapply (wp_ret_bind c _ _ _) | skip
  try sl_exec
  -- reduce rightwards, step 3, strip 2: the running sum at distance 4 leaves for the neighbour after
  iapply (blk_rr_send m ρ K c (3 : Fin 7) (2 : Fin 4) 31 _ (dev32_eq c _) (off2_eq c (3 : Fin 7) (2 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 2, strip 3 has landed: the running sum of the devices after
  iapply (blk_wait_rl_arr m ρ K c (2 : Fin 8) (3 : Fin 4) 32 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 2 is added into the own strip at distance 11, strip 3
  ihave Hs := (take _ ((11 : Fin 16), (3 : Fin 4)) (by imemp) (outΦ c (partV m ρ c))) $$ Hos
  icases Hs with ⟨Hst, Hos⟩
  ihave Hst := (out_strip c (partV m ρ c) (11 : Fin 16) (3 : Fin 4) 11 rfl) $$ Hst
  iapply (wp_addL c 11 (2 : Fin 8) (3 : Fin 4) k0_pay2 (fun _ _ => rfl) (off3_eq c (2 : Fin 8) (3 : Fin 4))) $$ [Hst Hbuf]
  · isplitl [Hst]
    · iexact Hst
    · iexact Hbuf
  iintro ⟨Hst, Hbuf⟩
  ihave Hlb := (blk_lb_put (F := F) c (2 : Fin 8) (3 : Fin 4) _ _) $$ [Hbuf Hlb]
  · iframe
    all_goals imemq
  first | iapply (wp_ret_bind c _ _ _) | skip
  try sl_exec
  -- reduce leftwards, step 3, strip 3: the running sum at distance 11 leaves for the neighbour before
  iapply (blk_rl_send m ρ K c (3 : Fin 8) (3 : Fin 4) 32 _ (dev33_eq c _) (off1_eq_far c (3 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 2, strip 3 has landed: the running sum of the devices before
  iapply (blk_wait_rr_arr m ρ K c (2 : Fin 7) (3 : Fin 4) 33 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 2 is added into the own strip at distance 4, strip 3
  ihave Hs := (take _ ((4 : Fin 16), (3 : Fin 4)) (by imemp) (outΦ c (partV m ρ c))) $$ Hos
  icases Hs with ⟨Hst, Hos⟩
  ihave Hst := (out_strip c (partV m ρ c) (4 : Fin 16) (3 : Fin 4) 4 rfl) $$ Hst
  iapply (wp_addR c 4 (2 : Fin 7) (3 : Fin 4) k0_pay2 (fun _ _ => rfl) (off4_eq c (2 : Fin 7) (3 : Fin 4))) $$ [Hst Hbuf]
  · isplitl [Hst]
    · iexact Hst
    · iexact Hbuf
  iintro ⟨Hst, Hbuf⟩
  ihave Hrb := (blk_rb_put (F := F) c (2 : Fin 7) (3 : Fin 4) _ _) $$ [Hbuf Hrb]
  · iframe
    all_goals imemq
  first | iapply (wp_ret_bind c _ _ _) | skip
  try sl_exec
  -- reduce rightwards, step 3, strip 3: the running sum at distance 4 leaves for the neighbour after
  iapply (blk_rr_send m ρ K c (3 : Fin 7) (3 : Fin 4) 33 _ (dev34_eq c _) (off2_eq c (3 : Fin 7) (3 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the departure of the reduce-left step 2, strip 0 is complete
  iapply (blk_wait_rl_dep m ρ K c (2 : Fin 8) (0 : Fin 4) 34 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 2, strip 0 is complete
  iapply (blk_wait_rr_dep m ρ K c (2 : Fin 7) (0 : Fin 4) 34 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 2, strip 1 is complete
  iapply (blk_wait_rl_dep m ρ K c (2 : Fin 8) (1 : Fin 4) 34 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 2, strip 1 is complete
  iapply (blk_wait_rr_dep m ρ K c (2 : Fin 7) (1 : Fin 4) 34 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 2, strip 2 is complete
  iapply (blk_wait_rl_dep m ρ K c (2 : Fin 8) (2 : Fin 4) 34 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 2, strip 2 is complete
  iapply (blk_wait_rr_dep m ρ K c (2 : Fin 7) (2 : Fin 4) 34 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 2, strip 3 is complete
  iapply (blk_wait_rl_dep m ρ K c (2 : Fin 8) (3 : Fin 4) 34 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 2, strip 3 is complete
  iapply (blk_wait_rr_dep m ρ K c (2 : Fin 7) (3 : Fin 4) 34 (credit_any _)) $$ [Hdr Hpos Hdone HO]
  · iframe # ∗
    isplitr
    · imemq
    · imay
  iintro ⟨Hdr, Hpos, Hdone, HO⟩
  first | iapply (wp_ret_bind c _ _ _) | skip
  try sl_exec
  -- the left-travelling step 3, strip 0 has landed: the running sum of the devices after
  iapply (blk_wait_rl_arr m ρ K c (3 : Fin 8) (0 : Fin 4) 34 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 3 is added into the own strip at distance 12, strip 0
  ihave Hs := (take _ ((12 : Fin 16), (0 : Fin 4)) (by imemp) (outΦ c (partV m ρ c))) $$ Hos
  icases Hs with ⟨Hst, Hos⟩
  ihave Hst := (out_strip c (partV m ρ c) (12 : Fin 16) (0 : Fin 4) 12 rfl) $$ Hst
  iapply (wp_loadO c 12 (0 : Fin 4) (off3_eq c (3 : Fin 8) (0 : Fin 4))) $$ Hst; iintro Hst
  iapply (wp_loadL c (3 : Fin 8) (0 : Fin 4)) $$ Hbuf; iintro %V %hV Hbuf
  first | iapply (wp_ret_bind c _ _ _) | skip
  try sl_exec
  iapply (wp_loadO c 12 (0 : Fin 4) (off3_eq c (3 : Fin 8) (0 : Fin 4))) $$ Hst; iintro Hst
  iapply (wp_storeO c 12 (0 : Fin 4) (off3_eq c (3 : Fin 8) (0 : Fin 4))) $$ Hst; iintro Hst
  ihave Hst := (owns_val (c : Thread nD τ) (oS c 12 (0 : Fin 4)) (Y := addS _ (accL m ρ ((3 : Fin 8)).val (rgt c) (0 : Fin 4))) (by exact add_val _ _ V hV)) $$ Hst
  ihave Hlb := (blk_lb_put (F := F) c (3 : Fin 8) (0 : Fin 4) _ _) $$ [Hbuf Hlb]
  · iframe
    all_goals imemq
  first | iapply (wp_ret_bind c _ _ _) | skip
  try sl_exec
  -- reduce leftwards, step 4, strip 0: the running sum at distance 12 leaves for the neighbour before
  iapply (blk_rl_send m ρ K c (4 : Fin 8) (0 : Fin 4) 34 _ (dev35_eq c _) (off1_eq_far c (4 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 3, strip 0 has landed: the running sum of the devices before
  iapply (blk_wait_rr_arr m ρ K c (3 : Fin 7) (0 : Fin 4) 35 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 3 is added into the own strip at distance 3, strip 0
  ihave Hs := (take _ ((3 : Fin 16), (0 : Fin 4)) (by imemp) (outΦ c (partV m ρ c))) $$ Hos
  icases Hs with ⟨Hst, Hos⟩
  ihave Hst := (out_strip c (partV m ρ c) (3 : Fin 16) (0 : Fin 4) 3 rfl) $$ Hst
  iapply (wp_loadO c 3 (0 : Fin 4) (off4_eq c (3 : Fin 7) (0 : Fin 4))) $$ Hst; iintro Hst
  first | iapply (wp_ret_bind c _ _ _) | skip
  try sl_exec
  iapply (wp_loadR c (3 : Fin 7) (0 : Fin 4)) $$ Hbuf; iintro %V %hV Hbuf
  iapply (wp_loadO c 3 (0 : Fin 4) (off4_eq c (3 : Fin 7) (0 : Fin 4))) $$ Hst; iintro Hst
  iapply (wp_storeO c 3 (0 : Fin 4) (off4_eq c (3 : Fin 7) (0 : Fin 4))) $$ Hst; iintro Hst
  ihave Hst := (owns_val (c : Thread nD τ) (oS c 3 (0 : Fin 4)) (Y := addS _ (accR m ρ ((3 : Fin 7)).val (lft c) (0 : Fin 4))) (by exact add_val _ _ V hV)) $$ Hst
  ihave Hrb := (blk_rb_put (F := F) c (3 : Fin 7) (0 : Fin 4) _ _) $$ [Hbuf Hrb]
  · iframe
    all_goals imemq
  first | iapply (wp_ret_bind c _ _ _) | skip
  try sl_exec
  -- reduce rightwards, step 4, strip 0: the running sum at distance 3 leaves for the neighbour after
  iapply (blk_rr_send m ρ K c (4 : Fin 7) (0 : Fin 4) 35 _ (dev36_eq c _) (off2_eq c (4 : Fin 7) (0 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 3, strip 1 has landed: the running sum of the devices after
  iapply (blk_wait_rl_arr m ρ K c (3 : Fin 8) (1 : Fin 4) 36 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 3 is added into the own strip at distance 12, strip 1
  ihave Hs := (take _ ((12 : Fin 16), (1 : Fin 4)) (by imemp) (outΦ c (partV m ρ c))) $$ Hos
  icases Hs with ⟨Hst, Hos⟩
  ihave Hst := (out_strip c (partV m ρ c) (12 : Fin 16) (1 : Fin 4) 12 rfl) $$ Hst
  iapply (wp_addL c 12 (3 : Fin 8) (1 : Fin 4) k0_pay2 (fun _ _ => rfl) (off3_eq c (3 : Fin 8) (1 : Fin 4))) $$ [Hst Hbuf]
  · isplitl [Hst]
    · iexact Hst
    · iexact Hbuf
  iintro ⟨Hst, Hbuf⟩
  ihave Hlb := (blk_lb_put (F := F) c (3 : Fin 8) (1 : Fin 4) _ _) $$ [Hbuf Hlb]
  · iframe
    all_goals imemq
  first | iapply (wp_ret_bind c _ _ _) | skip
  try sl_exec
  -- reduce leftwards, step 4, strip 1: the running sum at distance 12 leaves for the neighbour before
  iapply (blk_rl_send m ρ K c (4 : Fin 8) (1 : Fin 4) 36 _ (dev37_eq c _) (off1_eq_far c (4 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 3, strip 1 has landed: the running sum of the devices before
  iapply (blk_wait_rr_arr m ρ K c (3 : Fin 7) (1 : Fin 4) 37 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 3 is added into the own strip at distance 3, strip 1
  ihave Hs := (take _ ((3 : Fin 16), (1 : Fin 4)) (by imemp) (outΦ c (partV m ρ c))) $$ Hos
  icases Hs with ⟨Hst, Hos⟩
  ihave Hst := (out_strip c (partV m ρ c) (3 : Fin 16) (1 : Fin 4) 3 rfl) $$ Hst
  iapply (wp_addR c 3 (3 : Fin 7) (1 : Fin 4) k0_pay2 (fun _ _ => rfl) (off4_eq c (3 : Fin 7) (1 : Fin 4))) $$ [Hst Hbuf]
  · isplitl [Hst]
    · iexact Hst
    · iexact Hbuf
  iintro ⟨Hst, Hbuf⟩
  ihave Hrb := (blk_rb_put (F := F) c (3 : Fin 7) (1 : Fin 4) _ _) $$ [Hbuf Hrb]
  · iframe
    all_goals imemq
  first | iapply (wp_ret_bind c _ _ _) | skip
  try sl_exec
  -- reduce rightwards, step 4, strip 1: the running sum at distance 3 leaves for the neighbour after
  iapply (blk_rr_send m ρ K c (4 : Fin 7) (1 : Fin 4) 37 _ (dev38_eq c _) (off2_eq c (4 : Fin 7) (1 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 3, strip 2 has landed: the running sum of the devices after
  iapply (blk_wait_rl_arr m ρ K c (3 : Fin 8) (2 : Fin 4) 38 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 3 is added into the own strip at distance 12, strip 2
  ihave Hs := (take _ ((12 : Fin 16), (2 : Fin 4)) (by imemp) (outΦ c (partV m ρ c))) $$ Hos
  icases Hs with ⟨Hst, Hos⟩
  ihave Hst := (out_strip c (partV m ρ c) (12 : Fin 16) (2 : Fin 4) 12 rfl) $$ Hst
  iapply (wp_addL c 12 (3 : Fin 8) (2 : Fin 4) k0_pay2 (fun _ _ => rfl) (off3_eq c (3 : Fin 8) (2 : Fin 4))) $$ [Hst Hbuf]
  · isplitl [Hst]
    · iexact Hst
    · iexact Hbuf
  iintro ⟨Hst, Hbuf⟩
  ihave Hlb := (blk_lb_put (F := F) c (3 : Fin 8) (2 : Fin 4) _ _) $$ [Hbuf Hlb]
  · iframe
    all_goals imemq
  first | iapply (wp_ret_bind c _ _ _) | skip
  try sl_exec
  -- reduce leftwards, step 4, strip 2: the running sum at distance 12 leaves for the neighbour before
  iapply (blk_rl_send m ρ K c (4 : Fin 8) (2 : Fin 4) 38 _ (dev39_eq c _) (off1_eq_far c (4 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 3, strip 2 has landed: the running sum of the devices before
  iapply (blk_wait_rr_arr m ρ K c (3 : Fin 7) (2 : Fin 4) 39 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 3 is added into the own strip at distance 3, strip 2
  ihave Hs := (take _ ((3 : Fin 16), (2 : Fin 4)) (by imemp) (outΦ c (partV m ρ c))) $$ Hos
  icases Hs with ⟨Hst, Hos⟩
  ihave Hst := (out_strip c (partV m ρ c) (3 : Fin 16) (2 : Fin 4) 3 rfl) $$ Hst
  iapply (wp_loadO c 3 (2 : Fin 4) (off4_eq c (3 : Fin 7) (2 : Fin 4))) $$ Hst; iintro Hst
  iapply (wp_loadR c (3 : Fin 7) (2 : Fin 4)) $$ Hbuf; iintro %V %hV Hbuf
  first | iapply (wp_ret_bind c _ _ _) | skip
  try sl_exec
  iapply (wp_loadO c 3 (2 : Fin 4) (off4_eq c (3 : Fin 7) (2 : Fin 4))) $$ Hst; iintro Hst
  iapply (wp_storeO c 3 (2 : Fin 4) (off4_eq c (3 : Fin 7) (2 : Fin 4))) $$ Hst; iintro Hst
  ihave Hst := (owns_val (c : Thread nD τ) (oS c 3 (2 : Fin 4)) (Y := addS _ (accR m ρ ((3 : Fin 7)).val (lft c) (2 : Fin 4))) (by exact add_val _ _ V hV)) $$ Hst
  ihave Hrb := (blk_rb_put (F := F) c (3 : Fin 7) (2 : Fin 4) _ _) $$ [Hbuf Hrb]
  · iframe
    all_goals imemq
  first | iapply (wp_ret_bind c _ _ _) | skip
  try sl_exec
  -- reduce rightwards, step 4, strip 2: the running sum at distance 3 leaves for the neighbour after
  iapply (blk_rr_send m ρ K c (4 : Fin 7) (2 : Fin 4) 39 _ (dev40_eq c _) (off2_eq c (4 : Fin 7) (2 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 3, strip 3 has landed: the running sum of the devices after
  iapply (blk_wait_rl_arr m ρ K c (3 : Fin 8) (3 : Fin 4) 40 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 3 is added into the own strip at distance 12, strip 3
  ihave Hs := (take _ ((12 : Fin 16), (3 : Fin 4)) (by imemp) (outΦ c (partV m ρ c))) $$ Hos
  icases Hs with ⟨Hst, Hos⟩
  ihave Hst := (out_strip c (partV m ρ c) (12 : Fin 16) (3 : Fin 4) 12 rfl) $$ Hst
  iapply (wp_loadO c 12 (3 : Fin 4) (off3_eq c (3 : Fin 8) (3 : Fin 4))) $$ Hst; iintro Hst
  iapply (wp_loadL c (3 : Fin 8) (3 : Fin 4)) $$ Hbuf; iintro %V %hV Hbuf
  first | iapply (wp_ret_bind c _ _ _) | skip
  try sl_exec
  iapply (wp_loadO c 12 (3 : Fin 4) (off3_eq c (3 : Fin 8) (3 : Fin 4))) $$ Hst; iintro Hst
  iapply (wp_storeO c 12 (3 : Fin 4) (off3_eq c (3 : Fin 8) (3 : Fin 4))) $$ Hst; iintro Hst
  ihave Hst := (owns_val (c : Thread nD τ) (oS c 12 (3 : Fin 4)) (Y := addS _ (accL m ρ ((3 : Fin 8)).val (rgt c) (3 : Fin 4))) (by exact add_val _ _ V hV)) $$ Hst
  ihave Hlb := (blk_lb_put (F := F) c (3 : Fin 8) (3 : Fin 4) _ _) $$ [Hbuf Hlb]
  · iframe
    all_goals imemq
  first | iapply (wp_ret_bind c _ _ _) | skip
  try sl_exec
  -- reduce leftwards, step 4, strip 3: the running sum at distance 12 leaves for the neighbour before
  iapply (blk_rl_send m ρ K c (4 : Fin 8) (3 : Fin 4) 40 _ (dev41_eq c _) (off1_eq_far c (4 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 3, strip 3 has landed: the running sum of the devices before
  iapply (blk_wait_rr_arr m ρ K c (3 : Fin 7) (3 : Fin 4) 41 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 3 is added into the own strip at distance 3, strip 3
  ihave Hs := (take _ ((3 : Fin 16), (3 : Fin 4)) (by imemp) (outΦ c (partV m ρ c))) $$ Hos
  icases Hs with ⟨Hst, Hos⟩
  ihave Hst := (out_strip c (partV m ρ c) (3 : Fin 16) (3 : Fin 4) 3 rfl) $$ Hst
  iapply (wp_loadO c 3 (3 : Fin 4) (off4_eq c (3 : Fin 7) (3 : Fin 4))) $$ Hst; iintro Hst
  first | iapply (wp_ret_bind c _ _ _) | skip
  try sl_exec
  iapply (wp_loadR c (3 : Fin 7) (3 : Fin 4)) $$ Hbuf; iintro %V %hV Hbuf
  iapply (wp_loadO c 3 (3 : Fin 4) (off4_eq c (3 : Fin 7) (3 : Fin 4))) $$ Hst; iintro Hst
  iapply (wp_storeO c 3 (3 : Fin 4) (off4_eq c (3 : Fin 7) (3 : Fin 4))) $$ Hst; iintro Hst
  ihave Hst := (owns_val (c : Thread nD τ) (oS c 3 (3 : Fin 4)) (Y := addS _ (accR m ρ ((3 : Fin 7)).val (lft c) (3 : Fin 4))) (by exact add_val _ _ V hV)) $$ Hst
  ihave Hrb := (blk_rb_put (F := F) c (3 : Fin 7) (3 : Fin 4) _ _) $$ [Hbuf Hrb]
  · iframe
    all_goals imemq
  first | iapply (wp_ret_bind c _ _ _) | skip
  try sl_exec
  -- reduce rightwards, step 4, strip 3: the running sum at distance 3 leaves for the neighbour after
  iapply (blk_rr_send m ρ K c (4 : Fin 7) (3 : Fin 4) 41 _ (dev42_eq c _) (off2_eq c (4 : Fin 7) (3 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the departure of the reduce-left step 3, strip 0 is complete
  iapply (blk_wait_rl_dep m ρ K c (3 : Fin 8) (0 : Fin 4) 42 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 3, strip 0 is complete
  iapply (blk_wait_rr_dep m ρ K c (3 : Fin 7) (0 : Fin 4) 42 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 3, strip 1 is complete
  iapply (blk_wait_rl_dep m ρ K c (3 : Fin 8) (1 : Fin 4) 42 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 3, strip 1 is complete
  iapply (blk_wait_rr_dep m ρ K c (3 : Fin 7) (1 : Fin 4) 42 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 3, strip 2 is complete
  iapply (blk_wait_rl_dep m ρ K c (3 : Fin 8) (2 : Fin 4) 42 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 3, strip 2 is complete
  iapply (blk_wait_rr_dep m ρ K c (3 : Fin 7) (2 : Fin 4) 42 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 3, strip 3 is complete
  iapply (blk_wait_rl_dep m ρ K c (3 : Fin 8) (3 : Fin 4) 42 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 3, strip 3 is complete
  iapply (blk_wait_rr_dep m ρ K c (3 : Fin 7) (3 : Fin 4) 42 (credit_any _)) $$ [Hdr Hpos Hdone HO]
  · iframe # ∗
    isplitr
    · imemq
    · imay
  iintro ⟨Hdr, Hpos, Hdone, HO⟩
  first | iapply (wp_ret_bind c _ _ _) | skip
  try sl_exec
  -- the left-travelling step 4, strip 0 has landed: the running sum of the devices after
  iapply (blk_wait_rl_arr m ρ K c (4 : Fin 8) (0 : Fin 4) 42 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 4 is added into the own strip at distance 13, strip 0
  ihave Hs := (take _ ((13 : Fin 16), (0 : Fin 4)) (by imemp) (outΦ c (partV m ρ c))) $$ Hos
  icases Hs with ⟨Hst, Hos⟩
  ihave Hst := (out_strip c (partV m ρ c) (13 : Fin 16) (0 : Fin 4) 13 rfl) $$ Hst
  iapply (wp_addL c 13 (4 : Fin 8) (0 : Fin 4) k0_pay2 (fun _ _ => rfl) (off3_eq c (4 : Fin 8) (0 : Fin 4))) $$ [Hst Hbuf]
  · isplitl [Hst]
    · iexact Hst
    · iexact Hbuf
  iintro ⟨Hst, Hbuf⟩
  ihave Hlb := (blk_lb_put (F := F) c (4 : Fin 8) (0 : Fin 4) _ _) $$ [Hbuf Hlb]
  · iframe
    all_goals imemq
  first | iapply (wp_ret_bind c _ _ _) | skip
  try sl_exec
  -- reduce leftwards, step 5, strip 0: the running sum at distance 13 leaves for the neighbour before
  iapply (blk_rl_send m ρ K c (5 : Fin 8) (0 : Fin 4) 42 _ (dev43_eq c _) (off1_eq_far c (5 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 4, strip 0 has landed: the running sum of the devices before
  iapply (blk_wait_rr_arr m ρ K c (4 : Fin 7) (0 : Fin 4) 43 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 4 is added into the own strip at distance 2, strip 0
  ihave Hs := (take _ ((2 : Fin 16), (0 : Fin 4)) (by imemp) (outΦ c (partV m ρ c))) $$ Hos
  icases Hs with ⟨Hst, Hos⟩
  ihave Hst := (out_strip c (partV m ρ c) (2 : Fin 16) (0 : Fin 4) 2 rfl) $$ Hst
  iapply (wp_loadO c 2 (0 : Fin 4) (off4_eq c (4 : Fin 7) (0 : Fin 4))) $$ Hst; iintro Hst
  iapply (wp_loadR c (4 : Fin 7) (0 : Fin 4)) $$ Hbuf; iintro %V %hV Hbuf
  first | iapply (wp_ret_bind c _ _ _) | skip
  try sl_exec
  iapply (wp_loadO c 2 (0 : Fin 4) (off4_eq c (4 : Fin 7) (0 : Fin 4))) $$ Hst; iintro Hst
  iapply (wp_storeO c 2 (0 : Fin 4) (off4_eq c (4 : Fin 7) (0 : Fin 4))) $$ Hst; iintro Hst
  ihave Hst := (owns_val (c : Thread nD τ) (oS c 2 (0 : Fin 4)) (Y := addS _ (accR m ρ ((4 : Fin 7)).val (lft c) (0 : Fin 4))) (by exact add_val _ _ V hV)) $$ Hst
  ihave Hrb := (blk_rb_put (F := F) c (4 : Fin 7) (0 : Fin 4) _ _) $$ [Hbuf Hrb]
  · iframe
    all_goals imemq
  first | iapply (wp_ret_bind c _ _ _) | skip
  try sl_exec
  -- reduce rightwards, step 5, strip 0: the running sum at distance 2 leaves for the neighbour after
  iapply (blk_rr_send m ρ K c (5 : Fin 7) (0 : Fin 4) 43 _ (dev44_eq c _) (off2_eq c (5 : Fin 7) (0 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 4, strip 1 has landed: the running sum of the devices after
  iapply (blk_wait_rl_arr m ρ K c (4 : Fin 8) (1 : Fin 4) 44 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 4 is added into the own strip at distance 13, strip 1
  ihave Hs := (take _ ((13 : Fin 16), (1 : Fin 4)) (by imemp) (outΦ c (partV m ρ c))) $$ Hos
  icases Hs with ⟨Hst, Hos⟩
  ihave Hst := (out_strip c (partV m ρ c) (13 : Fin 16) (1 : Fin 4) 13 rfl) $$ Hst
  iapply (wp_loadO c 13 (1 : Fin 4) (off3_eq c (4 : Fin 8) (1 : Fin 4))) $$ Hst; iintro Hst
  iapply (wp_loadL c (4 : Fin 8) (1 : Fin 4)) $$ Hbuf; iintro %V %hV Hbuf
  first | iapply (wp_ret_bind c _ _ _) | skip
  try sl_exec
  iapply (wp_loadO c 13 (1 : Fin 4) (off3_eq c (4 : Fin 8) (1 : Fin 4))) $$ Hst; iintro Hst
  iapply (wp_storeO c 13 (1 : Fin 4) (off3_eq c (4 : Fin 8) (1 : Fin 4))) $$ Hst; iintro Hst
  ihave Hst := (owns_val (c : Thread nD τ) (oS c 13 (1 : Fin 4)) (Y := addS _ (accL m ρ ((4 : Fin 8)).val (rgt c) (1 : Fin 4))) (by exact add_val _ _ V hV)) $$ Hst
  ihave Hlb := (blk_lb_put (F := F) c (4 : Fin 8) (1 : Fin 4) _ _) $$ [Hbuf Hlb]
  · iframe
    all_goals imemq
  first | iapply (wp_ret_bind c _ _ _) | skip
  try sl_exec
  -- reduce leftwards, step 5, strip 1: the running sum at distance 13 leaves for the neighbour before
  iapply (blk_rl_send m ρ K c (5 : Fin 8) (1 : Fin 4) 44 _ (dev45_eq c _) (off1_eq_far c (5 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 4, strip 1 has landed: the running sum of the devices before
  iapply (blk_wait_rr_arr m ρ K c (4 : Fin 7) (1 : Fin 4) 45 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 4 is added into the own strip at distance 2, strip 1
  ihave Hs := (take _ ((2 : Fin 16), (1 : Fin 4)) (by imemp) (outΦ c (partV m ρ c))) $$ Hos
  icases Hs with ⟨Hst, Hos⟩
  ihave Hst := (out_strip c (partV m ρ c) (2 : Fin 16) (1 : Fin 4) 2 rfl) $$ Hst
  iapply (wp_loadO c 2 (1 : Fin 4) (off4_eq c (4 : Fin 7) (1 : Fin 4))) $$ Hst; iintro Hst
  iapply (wp_loadR c (4 : Fin 7) (1 : Fin 4)) $$ Hbuf; iintro %V %hV Hbuf
  first | iapply (wp_ret_bind c _ _ _) | skip
  try sl_exec
  iapply (wp_loadO c 2 (1 : Fin 4) (off4_eq c (4 : Fin 7) (1 : Fin 4))) $$ Hst; iintro Hst
  iapply (wp_storeO c 2 (1 : Fin 4) (off4_eq c (4 : Fin 7) (1 : Fin 4))) $$ Hst; iintro Hst
  ihave Hst := (owns_val (c : Thread nD τ) (oS c 2 (1 : Fin 4)) (Y := addS _ (accR m ρ ((4 : Fin 7)).val (lft c) (1 : Fin 4))) (by exact add_val _ _ V hV)) $$ Hst
  ihave Hrb := (blk_rb_put (F := F) c (4 : Fin 7) (1 : Fin 4) _ _) $$ [Hbuf Hrb]
  · iframe
    all_goals imemq
  first | iapply (wp_ret_bind c _ _ _) | skip
  try sl_exec
  -- reduce rightwards, step 5, strip 1: the running sum at distance 2 leaves for the neighbour after
  iapply (blk_rr_send m ρ K c (5 : Fin 7) (1 : Fin 4) 45 _ (dev46_eq c _) (off2_eq c (5 : Fin 7) (1 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 4, strip 2 has landed: the running sum of the devices after
  iapply (blk_wait_rl_arr m ρ K c (4 : Fin 8) (2 : Fin 4) 46 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 4 is added into the own strip at distance 13, strip 2
  ihave Hs := (take _ ((13 : Fin 16), (2 : Fin 4)) (by imemp) (outΦ c (partV m ρ c))) $$ Hos
  icases Hs with ⟨Hst, Hos⟩
  ihave Hst := (out_strip c (partV m ρ c) (13 : Fin 16) (2 : Fin 4) 13 rfl) $$ Hst
  iapply (wp_addL c 13 (4 : Fin 8) (2 : Fin 4) k0_pay2 (fun _ _ => rfl) (off3_eq c (4 : Fin 8) (2 : Fin 4))) $$ [Hst Hbuf]
  · isplitl [Hst]
    · iexact Hst
    · iexact Hbuf
  iintro ⟨Hst, Hbuf⟩
  ihave Hlb := (blk_lb_put (F := F) c (4 : Fin 8) (2 : Fin 4) _ _) $$ [Hbuf Hlb]
  · iframe
    all_goals imemq
  first | iapply (wp_ret_bind c _ _ _) | skip
  try sl_exec
  -- reduce leftwards, step 5, strip 2: the running sum at distance 13 leaves for the neighbour before
  iapply (blk_rl_send m ρ K c (5 : Fin 8) (2 : Fin 4) 46 _ (dev47_eq c _) (off1_eq_far c (5 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 4, strip 2 has landed: the running sum of the devices before
  iapply (blk_wait_rr_arr m ρ K c (4 : Fin 7) (2 : Fin 4) 47 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 4 is added into the own strip at distance 2, strip 2
  ihave Hs := (take _ ((2 : Fin 16), (2 : Fin 4)) (by imemp) (outΦ c (partV m ρ c))) $$ Hos
  icases Hs with ⟨Hst, Hos⟩
  ihave Hst := (out_strip c (partV m ρ c) (2 : Fin 16) (2 : Fin 4) 2 rfl) $$ Hst
  iapply (wp_addR c 2 (4 : Fin 7) (2 : Fin 4) k0_pay2 (fun _ _ => rfl) (off4_eq c (4 : Fin 7) (2 : Fin 4))) $$ [Hst Hbuf]
  · isplitl [Hst]
    · iexact Hst
    · iexact Hbuf
  iintro ⟨Hst, Hbuf⟩
  ihave Hrb := (blk_rb_put (F := F) c (4 : Fin 7) (2 : Fin 4) _ _) $$ [Hbuf Hrb]
  · iframe
    all_goals imemq
  first | iapply (wp_ret_bind c _ _ _) | skip
  try sl_exec
  -- reduce rightwards, step 5, strip 2: the running sum at distance 2 leaves for the neighbour after
  iapply (blk_rr_send m ρ K c (5 : Fin 7) (2 : Fin 4) 47 _ (dev48_eq c _) (off2_eq c (5 : Fin 7) (2 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 4, strip 3 has landed: the running sum of the devices after
  iapply (blk_wait_rl_arr m ρ K c (4 : Fin 8) (3 : Fin 4) 48 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 4 is added into the own strip at distance 13, strip 3
  ihave Hs := (take _ ((13 : Fin 16), (3 : Fin 4)) (by imemp) (outΦ c (partV m ρ c))) $$ Hos
  icases Hs with ⟨Hst, Hos⟩
  ihave Hst := (out_strip c (partV m ρ c) (13 : Fin 16) (3 : Fin 4) 13 rfl) $$ Hst
  iapply (wp_addL c 13 (4 : Fin 8) (3 : Fin 4) k0_pay2 (fun _ _ => rfl) (off3_eq c (4 : Fin 8) (3 : Fin 4))) $$ [Hst Hbuf]
  · isplitl [Hst]
    · iexact Hst
    · iexact Hbuf
  iintro ⟨Hst, Hbuf⟩
  ihave Hlb := (blk_lb_put (F := F) c (4 : Fin 8) (3 : Fin 4) _ _) $$ [Hbuf Hlb]
  · iframe
    all_goals imemq
  first | iapply (wp_ret_bind c _ _ _) | skip
  try sl_exec
  -- reduce leftwards, step 5, strip 3: the running sum at distance 13 leaves for the neighbour before
  iapply (blk_rl_send m ρ K c (5 : Fin 8) (3 : Fin 4) 48 _ (dev49_eq c _) (off1_eq_far c (5 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 4, strip 3 has landed: the running sum of the devices before
  iapply (blk_wait_rr_arr m ρ K c (4 : Fin 7) (3 : Fin 4) 49 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 4 is added into the own strip at distance 2, strip 3
  ihave Hs := (take _ ((2 : Fin 16), (3 : Fin 4)) (by imemp) (outΦ c (partV m ρ c))) $$ Hos
  icases Hs with ⟨Hst, Hos⟩
  ihave Hst := (out_strip c (partV m ρ c) (2 : Fin 16) (3 : Fin 4) 2 rfl) $$ Hst
  iapply (wp_loadO c 2 (3 : Fin 4) (off4_eq c (4 : Fin 7) (3 : Fin 4))) $$ Hst; iintro Hst
  iapply (wp_loadR c (4 : Fin 7) (3 : Fin 4)) $$ Hbuf; iintro %V %hV Hbuf
  first | iapply (wp_ret_bind c _ _ _) | skip
  try sl_exec
  iapply (wp_loadO c 2 (3 : Fin 4) (off4_eq c (4 : Fin 7) (3 : Fin 4))) $$ Hst; iintro Hst
  iapply (wp_storeO c 2 (3 : Fin 4) (off4_eq c (4 : Fin 7) (3 : Fin 4))) $$ Hst; iintro Hst
  ihave Hst := (owns_val (c : Thread nD τ) (oS c 2 (3 : Fin 4)) (Y := addS _ (accR m ρ ((4 : Fin 7)).val (lft c) (3 : Fin 4))) (by exact add_val _ _ V hV)) $$ Hst
  ihave Hrb := (blk_rb_put (F := F) c (4 : Fin 7) (3 : Fin 4) _ _) $$ [Hbuf Hrb]
  · iframe
    all_goals imemq
  first | iapply (wp_ret_bind c _ _ _) | skip
  try sl_exec
  -- reduce rightwards, step 5, strip 3: the running sum at distance 2 leaves for the neighbour after
  iapply (blk_rr_send m ρ K c (5 : Fin 7) (3 : Fin 4) 49 _ (dev50_eq c _) (off2_eq c (5 : Fin 7) (3 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the departure of the reduce-left step 4, strip 0 is complete
  iapply (blk_wait_rl_dep m ρ K c (4 : Fin 8) (0 : Fin 4) 50 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 4, strip 0 is complete
  iapply (blk_wait_rr_dep m ρ K c (4 : Fin 7) (0 : Fin 4) 50 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 4, strip 1 is complete
  iapply (blk_wait_rl_dep m ρ K c (4 : Fin 8) (1 : Fin 4) 50 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 4, strip 1 is complete
  iapply (blk_wait_rr_dep m ρ K c (4 : Fin 7) (1 : Fin 4) 50 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 4, strip 2 is complete
  iapply (blk_wait_rl_dep m ρ K c (4 : Fin 8) (2 : Fin 4) 50 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 4, strip 2 is complete
  iapply (blk_wait_rr_dep m ρ K c (4 : Fin 7) (2 : Fin 4) 50 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 4, strip 3 is complete
  iapply (blk_wait_rl_dep m ρ K c (4 : Fin 8) (3 : Fin 4) 50 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 4, strip 3 is complete
  iapply (blk_wait_rr_dep m ρ K c (4 : Fin 7) (3 : Fin 4) 50 (credit_any _)) $$ [Hdr Hpos Hdone HO]
  · iframe # ∗
    isplitr
    · imemq
    · imay
  iintro ⟨Hdr, Hpos, Hdone, HO⟩
  first | iapply (wp_ret_bind c _ _ _) | skip
  try sl_exec
  -- the left-travelling step 5, strip 0 has landed: the running sum of the devices after
  iapply (blk_wait_rl_arr m ρ K c (5 : Fin 8) (0 : Fin 4) 50 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 5 is added into the own strip at distance 14, strip 0
  ihave Hs := (take _ ((14 : Fin 16), (0 : Fin 4)) (by imemp) (outΦ c (partV m ρ c))) $$ Hos
  icases Hs with ⟨Hst, Hos⟩
  ihave Hst := (out_strip c (partV m ρ c) (14 : Fin 16) (0 : Fin 4) 14 rfl) $$ Hst
  iapply (wp_addL c 14 (5 : Fin 8) (0 : Fin 4) k0_pay2 (fun _ _ => rfl) (off3_eq c (5 : Fin 8) (0 : Fin 4))) $$ [Hst Hbuf]
  · isplitl [Hst]
    · iexact Hst
    · iexact Hbuf
  iintro ⟨Hst, Hbuf⟩
  ihave Hlb := (blk_lb_put (F := F) c (5 : Fin 8) (0 : Fin 4) _ _) $$ [Hbuf Hlb]
  · iframe
    all_goals imemq
  first | iapply (wp_ret_bind c _ _ _) | skip
  try sl_exec
  -- reduce leftwards, step 6, strip 0: the running sum at distance 14 leaves for the neighbour before
  iapply (blk_rl_send m ρ K c (6 : Fin 8) (0 : Fin 4) 50 _ (dev51_eq c _) (off1_eq_far c (6 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 5, strip 0 has landed: the running sum of the devices before
  iapply (blk_wait_rr_arr m ρ K c (5 : Fin 7) (0 : Fin 4) 51 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 5 is added into the own strip at distance 1, strip 0
  ihave Hs := (take _ ((1 : Fin 16), (0 : Fin 4)) (by imemp) (outΦ c (partV m ρ c))) $$ Hos
  icases Hs with ⟨Hst, Hos⟩
  ihave Hst := (out_strip c (partV m ρ c) (1 : Fin 16) (0 : Fin 4) 1 rfl) $$ Hst
  iapply (wp_addR c 1 (5 : Fin 7) (0 : Fin 4) k0_pay2 (fun _ _ => rfl) (off4_eq c (5 : Fin 7) (0 : Fin 4))) $$ [Hst Hbuf]
  · isplitl [Hst]
    · iexact Hst
    · iexact Hbuf
  iintro ⟨Hst, Hbuf⟩
  ihave Hrb := (blk_rb_put (F := F) c (5 : Fin 7) (0 : Fin 4) _ _) $$ [Hbuf Hrb]
  · iframe
    all_goals imemq
  first | iapply (wp_ret_bind c _ _ _) | skip
  try sl_exec
  -- reduce rightwards, step 6, strip 0: the running sum at distance 1 leaves for the neighbour after
  iapply (blk_rr_send m ρ K c (6 : Fin 7) (0 : Fin 4) 51 _ (dev52_eq c _) (off2_eq c (6 : Fin 7) (0 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 5, strip 1 has landed: the running sum of the devices after
  iapply (blk_wait_rl_arr m ρ K c (5 : Fin 8) (1 : Fin 4) 52 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 5 is added into the own strip at distance 14, strip 1
  ihave Hs := (take _ ((14 : Fin 16), (1 : Fin 4)) (by imemp) (outΦ c (partV m ρ c))) $$ Hos
  icases Hs with ⟨Hst, Hos⟩
  ihave Hst := (out_strip c (partV m ρ c) (14 : Fin 16) (1 : Fin 4) 14 rfl) $$ Hst
  iapply (wp_addL c 14 (5 : Fin 8) (1 : Fin 4) k0_pay2 (fun _ _ => rfl) (off3_eq c (5 : Fin 8) (1 : Fin 4))) $$ [Hst Hbuf]
  · isplitl [Hst]
    · iexact Hst
    · iexact Hbuf
  iintro ⟨Hst, Hbuf⟩
  ihave Hlb := (blk_lb_put (F := F) c (5 : Fin 8) (1 : Fin 4) _ _) $$ [Hbuf Hlb]
  · iframe
    all_goals imemq
  first | iapply (wp_ret_bind c _ _ _) | skip
  try sl_exec
  -- reduce leftwards, step 6, strip 1: the running sum at distance 14 leaves for the neighbour before
  iapply (blk_rl_send m ρ K c (6 : Fin 8) (1 : Fin 4) 52 _ (dev53_eq c _) (off1_eq_far c (6 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 5, strip 1 has landed: the running sum of the devices before
  iapply (blk_wait_rr_arr m ρ K c (5 : Fin 7) (1 : Fin 4) 53 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 5 is added into the own strip at distance 1, strip 1
  ihave Hs := (take _ ((1 : Fin 16), (1 : Fin 4)) (by imemp) (outΦ c (partV m ρ c))) $$ Hos
  icases Hs with ⟨Hst, Hos⟩
  ihave Hst := (out_strip c (partV m ρ c) (1 : Fin 16) (1 : Fin 4) 1 rfl) $$ Hst
  iapply (wp_loadO c 1 (1 : Fin 4) (off4_eq c (5 : Fin 7) (1 : Fin 4))) $$ Hst; iintro Hst
  iapply (wp_loadR c (5 : Fin 7) (1 : Fin 4)) $$ Hbuf; iintro %V %hV Hbuf
  iapply (wp_loadO c 1 (1 : Fin 4) (off4_eq c (5 : Fin 7) (1 : Fin 4))) $$ Hst; iintro Hst
  first | iapply (wp_ret_bind c _ _ _) | skip
  try sl_exec
  iapply (wp_storeO c 1 (1 : Fin 4) (off4_eq c (5 : Fin 7) (1 : Fin 4))) $$ Hst; iintro Hst
  ihave Hst := (owns_val (c : Thread nD τ) (oS c 1 (1 : Fin 4)) (Y := addS _ (accR m ρ ((5 : Fin 7)).val (lft c) (1 : Fin 4))) (by exact add_val _ _ V hV)) $$ Hst
  ihave Hrb := (blk_rb_put (F := F) c (5 : Fin 7) (1 : Fin 4) _ _) $$ [Hbuf Hrb]
  · iframe
    all_goals imemq
  first | iapply (wp_ret_bind c _ _ _) | skip
  try sl_exec
  -- reduce rightwards, step 6, strip 1: the running sum at distance 1 leaves for the neighbour after
  iapply (blk_rr_send m ρ K c (6 : Fin 7) (1 : Fin 4) 53 _ (dev54_eq c _) (off2_eq c (6 : Fin 7) (1 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 5, strip 2 has landed: the running sum of the devices after
  iapply (blk_wait_rl_arr m ρ K c (5 : Fin 8) (2 : Fin 4) 54 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 5 is added into the own strip at distance 14, strip 2
  ihave Hs := (take _ ((14 : Fin 16), (2 : Fin 4)) (by imemp) (outΦ c (partV m ρ c))) $$ Hos
  icases Hs with ⟨Hst, Hos⟩
  ihave Hst := (out_strip c (partV m ρ c) (14 : Fin 16) (2 : Fin 4) 14 rfl) $$ Hst
  iapply (wp_loadO c 14 (2 : Fin 4) (off3_eq c (5 : Fin 8) (2 : Fin 4))) $$ Hst; iintro Hst
  iapply (wp_loadL c (5 : Fin 8) (2 : Fin 4)) $$ Hbuf; iintro %V %hV Hbuf
  first | iapply (wp_ret_bind c _ _ _) | skip
  try sl_exec
  iapply (wp_loadO c 14 (2 : Fin 4) (off3_eq c (5 : Fin 8) (2 : Fin 4))) $$ Hst; iintro Hst
  iapply (wp_storeO c 14 (2 : Fin 4) (off3_eq c (5 : Fin 8) (2 : Fin 4))) $$ Hst; iintro Hst
  ihave Hst := (owns_val (c : Thread nD τ) (oS c 14 (2 : Fin 4)) (Y := addS _ (accL m ρ ((5 : Fin 8)).val (rgt c) (2 : Fin 4))) (by exact add_val _ _ V hV)) $$ Hst
  ihave Hlb := (blk_lb_put (F := F) c (5 : Fin 8) (2 : Fin 4) _ _) $$ [Hbuf Hlb]
  · iframe
    all_goals imemq
  first | iapply (wp_ret_bind c _ _ _) | skip
  try sl_exec
  -- reduce leftwards, step 6, strip 2: the running sum at distance 14 leaves for the neighbour before
  iapply (blk_rl_send m ρ K c (6 : Fin 8) (2 : Fin 4) 54 _ (dev55_eq c _) (off1_eq_far c (6 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 5, strip 2 has landed: the running sum of the devices before
  iapply (blk_wait_rr_arr m ρ K c (5 : Fin 7) (2 : Fin 4) 55 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 5 is added into the own strip at distance 1, strip 2
  ihave Hs := (take _ ((1 : Fin 16), (2 : Fin 4)) (by imemp) (outΦ c (partV m ρ c))) $$ Hos
  icases Hs with ⟨Hst, Hos⟩
  ihave Hst := (out_strip c (partV m ρ c) (1 : Fin 16) (2 : Fin 4) 1 rfl) $$ Hst
  iapply (wp_loadO c 1 (2 : Fin 4) (off4_eq c (5 : Fin 7) (2 : Fin 4))) $$ Hst; iintro Hst
  iapply (wp_loadR c (5 : Fin 7) (2 : Fin 4)) $$ Hbuf; iintro %V %hV Hbuf
  first | iapply (wp_ret_bind c _ _ _) | skip
  try sl_exec
  iapply (wp_loadO c 1 (2 : Fin 4) (off4_eq c (5 : Fin 7) (2 : Fin 4))) $$ Hst; iintro Hst
  iapply (wp_storeO c 1 (2 : Fin 4) (off4_eq c (5 : Fin 7) (2 : Fin 4))) $$ Hst; iintro Hst
  ihave Hst := (owns_val (c : Thread nD τ) (oS c 1 (2 : Fin 4)) (Y := addS _ (accR m ρ ((5 : Fin 7)).val (lft c) (2 : Fin 4))) (by exact add_val _ _ V hV)) $$ Hst
  ihave Hrb := (blk_rb_put (F := F) c (5 : Fin 7) (2 : Fin 4) _ _) $$ [Hbuf Hrb]
  · iframe
    all_goals imemq
  first | iapply (wp_ret_bind c _ _ _) | skip
  try sl_exec
  -- reduce rightwards, step 6, strip 2: the running sum at distance 1 leaves for the neighbour after
  iapply (blk_rr_send m ρ K c (6 : Fin 7) (2 : Fin 4) 55 _ (dev56_eq c _) (off2_eq c (6 : Fin 7) (2 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 5, strip 3 has landed: the running sum of the devices after
  iapply (blk_wait_rl_arr m ρ K c (5 : Fin 8) (3 : Fin 4) 56 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 5 is added into the own strip at distance 14, strip 3
  ihave Hs := (take _ ((14 : Fin 16), (3 : Fin 4)) (by imemp) (outΦ c (partV m ρ c))) $$ Hos
  icases Hs with ⟨Hst, Hos⟩
  ihave Hst := (out_strip c (partV m ρ c) (14 : Fin 16) (3 : Fin 4) 14 rfl) $$ Hst
  iapply (wp_addL c 14 (5 : Fin 8) (3 : Fin 4) k0_pay2 (fun _ _ => rfl) (off3_eq c (5 : Fin 8) (3 : Fin 4))) $$ [Hst Hbuf]
  · isplitl [Hst]
    · iexact Hst
    · iexact Hbuf
  iintro ⟨Hst, Hbuf⟩
  ihave Hlb := (blk_lb_put (F := F) c (5 : Fin 8) (3 : Fin 4) _ _) $$ [Hbuf Hlb]
  · iframe
    all_goals imemq
  first | iapply (wp_ret_bind c _ _ _) | skip
  try sl_exec
  -- reduce leftwards, step 6, strip 3: the running sum at distance 14 leaves for the neighbour before
  iapply (blk_rl_send m ρ K c (6 : Fin 8) (3 : Fin 4) 56 _ (dev57_eq c _) (off1_eq_far c (6 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 5, strip 3 has landed: the running sum of the devices before
  iapply (blk_wait_rr_arr m ρ K c (5 : Fin 7) (3 : Fin 4) 57 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 5 is added into the own strip at distance 1, strip 3
  ihave Hs := (take _ ((1 : Fin 16), (3 : Fin 4)) (by imemp) (outΦ c (partV m ρ c))) $$ Hos
  icases Hs with ⟨Hst, Hos⟩
  ihave Hst := (out_strip c (partV m ρ c) (1 : Fin 16) (3 : Fin 4) 1 rfl) $$ Hst
  iapply (wp_addR c 1 (5 : Fin 7) (3 : Fin 4) k0_pay2 (fun _ _ => rfl) (off4_eq c (5 : Fin 7) (3 : Fin 4))) $$ [Hst Hbuf]
  · isplitl [Hst]
    · iexact Hst
    · iexact Hbuf
  iintro ⟨Hst, Hbuf⟩
  ihave Hrb := (blk_rb_put (F := F) c (5 : Fin 7) (3 : Fin 4) _ _) $$ [Hbuf Hrb]
  · iframe
    all_goals imemq
  first | iapply (wp_ret_bind c _ _ _) | skip
  try sl_exec
  -- reduce rightwards, step 6, strip 3: the running sum at distance 1 leaves for the neighbour after
  iapply (blk_rr_send m ρ K c (6 : Fin 7) (3 : Fin 4) 57 _ (dev58_eq c _) (off2_eq c (6 : Fin 7) (3 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the departure of the reduce-left step 5, strip 0 is complete
  iapply (blk_wait_rl_dep m ρ K c (5 : Fin 8) (0 : Fin 4) 58 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 5, strip 0 is complete
  iapply (blk_wait_rr_dep m ρ K c (5 : Fin 7) (0 : Fin 4) 58 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 5, strip 1 is complete
  iapply (blk_wait_rl_dep m ρ K c (5 : Fin 8) (1 : Fin 4) 58 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 5, strip 1 is complete
  iapply (blk_wait_rr_dep m ρ K c (5 : Fin 7) (1 : Fin 4) 58 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 5, strip 2 is complete
  iapply (blk_wait_rl_dep m ρ K c (5 : Fin 8) (2 : Fin 4) 58 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 5, strip 2 is complete
  iapply (blk_wait_rr_dep m ρ K c (5 : Fin 7) (2 : Fin 4) 58 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 5, strip 3 is complete
  iapply (blk_wait_rl_dep m ρ K c (5 : Fin 8) (3 : Fin 4) 58 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 5, strip 3 is complete
  iapply (blk_wait_rr_dep m ρ K c (5 : Fin 7) (3 : Fin 4) 58 (credit_any _)) $$ [Hdr Hpos Hdone HO]
  · iframe # ∗
    isplitr
    · imemq
    · imay
  iintro ⟨Hdr, Hpos, Hdone, HO⟩
  first | iapply (wp_ret_bind c _ _ _) | skip
  try sl_exec
  -- the left-travelling step 6, strip 0 has landed: the running sum of the devices after
  iapply (blk_wait_rl_arr m ρ K c (6 : Fin 8) (0 : Fin 4) 58 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 6 is added into the own strip at distance 15, strip 0
  ihave Hs := (take _ ((15 : Fin 16), (0 : Fin 4)) (by imemp) (outΦ c (partV m ρ c))) $$ Hos
  icases Hs with ⟨Hst, Hos⟩
  ihave Hst := (out_strip c (partV m ρ c) (15 : Fin 16) (0 : Fin 4) 15 rfl) $$ Hst
  iapply (wp_loadO c 15 (0 : Fin 4) (off3_eq c (6 : Fin 8) (0 : Fin 4))) $$ Hst; iintro Hst
  iapply (wp_loadL c (6 : Fin 8) (0 : Fin 4)) $$ Hbuf; iintro %V %hV Hbuf
  first | iapply (wp_ret_bind c _ _ _) | skip
  try sl_exec
  iapply (wp_loadO c 15 (0 : Fin 4) (off3_eq c (6 : Fin 8) (0 : Fin 4))) $$ Hst; iintro Hst
  iapply (wp_storeO c 15 (0 : Fin 4) (off3_eq c (6 : Fin 8) (0 : Fin 4))) $$ Hst; iintro Hst
  ihave Hst := (owns_val (c : Thread nD τ) (oS c 15 (0 : Fin 4)) (Y := addS _ (accL m ρ ((6 : Fin 8)).val (rgt c) (0 : Fin 4))) (by exact add_val _ _ V hV)) $$ Hst
  ihave Hlb := (blk_lb_put (F := F) c (6 : Fin 8) (0 : Fin 4) _ _) $$ [Hbuf Hlb]
  · iframe
    all_goals imemq
  first | iapply (wp_ret_bind c _ _ _) | skip
  try sl_exec
  -- reduce leftwards, step 7, strip 0: the running sum at distance 15 leaves for the neighbour before
  iapply (blk_rl_send m ρ K c (7 : Fin 8) (0 : Fin 4) 58 _ (dev59_eq c _) (off1_eq_far c (7 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the left-travelling step 6, strip 1 has landed: the running sum of the devices after
  iapply (blk_wait_rl_arr m ρ K c (6 : Fin 8) (1 : Fin 4) 59 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 6 is added into the own strip at distance 15, strip 1
  ihave Hs := (take _ ((15 : Fin 16), (1 : Fin 4)) (by imemp) (outΦ c (partV m ρ c))) $$ Hos
  icases Hs with ⟨Hst, Hos⟩
  ihave Hst := (out_strip c (partV m ρ c) (15 : Fin 16) (1 : Fin 4) 15 rfl) $$ Hst
  iapply (wp_loadO c 15 (1 : Fin 4) (off3_eq c (6 : Fin 8) (1 : Fin 4))) $$ Hst; iintro Hst
  iapply (wp_loadL c (6 : Fin 8) (1 : Fin 4)) $$ Hbuf; iintro %V %hV Hbuf
  first | iapply (wp_ret_bind c _ _ _) | skip
  try sl_exec
  iapply (wp_loadO c 15 (1 : Fin 4) (off3_eq c (6 : Fin 8) (1 : Fin 4))) $$ Hst; iintro Hst
  iapply (wp_storeO c 15 (1 : Fin 4) (off3_eq c (6 : Fin 8) (1 : Fin 4))) $$ Hst; iintro Hst
  ihave Hst := (owns_val (c : Thread nD τ) (oS c 15 (1 : Fin 4)) (Y := addS _ (accL m ρ ((6 : Fin 8)).val (rgt c) (1 : Fin 4))) (by exact add_val _ _ V hV)) $$ Hst
  ihave Hlb := (blk_lb_put (F := F) c (6 : Fin 8) (1 : Fin 4) _ _) $$ [Hbuf Hlb]
  · iframe
    all_goals imemq
  first | iapply (wp_ret_bind c _ _ _) | skip
  try sl_exec
  -- reduce leftwards, step 7, strip 1: the running sum at distance 15 leaves for the neighbour before
  iapply (blk_rl_send m ρ K c (7 : Fin 8) (1 : Fin 4) 59 _ (dev60_eq c _) (off1_eq_far c (7 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the left-travelling step 6, strip 2 has landed: the running sum of the devices after
  iapply (blk_wait_rl_arr m ρ K c (6 : Fin 8) (2 : Fin 4) 60 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 6 is added into the own strip at distance 15, strip 2
  ihave Hs := (take _ ((15 : Fin 16), (2 : Fin 4)) (by imemp) (outΦ c (partV m ρ c))) $$ Hos
  icases Hs with ⟨Hst, Hos⟩
  ihave Hst := (out_strip c (partV m ρ c) (15 : Fin 16) (2 : Fin 4) 15 rfl) $$ Hst
  iapply (wp_loadO c 15 (2 : Fin 4) (off3_eq c (6 : Fin 8) (2 : Fin 4))) $$ Hst; iintro Hst
  iapply (wp_loadL c (6 : Fin 8) (2 : Fin 4)) $$ Hbuf; iintro %V %hV Hbuf
  first | iapply (wp_ret_bind c _ _ _) | skip
  try sl_exec
  iapply (wp_loadO c 15 (2 : Fin 4) (off3_eq c (6 : Fin 8) (2 : Fin 4))) $$ Hst; iintro Hst
  iapply (wp_storeO c 15 (2 : Fin 4) (off3_eq c (6 : Fin 8) (2 : Fin 4))) $$ Hst; iintro Hst
  ihave Hst := (owns_val (c : Thread nD τ) (oS c 15 (2 : Fin 4)) (Y := addS _ (accL m ρ ((6 : Fin 8)).val (rgt c) (2 : Fin 4))) (by exact add_val _ _ V hV)) $$ Hst
  ihave Hlb := (blk_lb_put (F := F) c (6 : Fin 8) (2 : Fin 4) _ _) $$ [Hbuf Hlb]
  · iframe
    all_goals imemq
  first | iapply (wp_ret_bind c _ _ _) | skip
  try sl_exec
  -- reduce leftwards, step 7, strip 2: the running sum at distance 15 leaves for the neighbour before
  iapply (blk_rl_send m ρ K c (7 : Fin 8) (2 : Fin 4) 60 _ (dev61_eq c _) (off1_eq_far c (7 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the left-travelling step 6, strip 3 has landed: the running sum of the devices after
  iapply (blk_wait_rl_arr m ρ K c (6 : Fin 8) (3 : Fin 4) 61 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 6 is added into the own strip at distance 15, strip 3
  ihave Hs := (take _ ((15 : Fin 16), (3 : Fin 4)) (by imemp) (outΦ c (partV m ρ c))) $$ Hos
  icases Hs with ⟨Hst, Hos⟩
  ihave Hst := (out_strip c (partV m ρ c) (15 : Fin 16) (3 : Fin 4) 15 rfl) $$ Hst
  iapply (wp_addL c 15 (6 : Fin 8) (3 : Fin 4) k0_pay2 (fun _ _ => rfl) (off3_eq c (6 : Fin 8) (3 : Fin 4))) $$ [Hst Hbuf]
  · isplitl [Hst]
    · iexact Hst
    · iexact Hbuf
  iintro ⟨Hst, Hbuf⟩
  ihave Hlb := (blk_lb_put (F := F) c (6 : Fin 8) (3 : Fin 4) _ _) $$ [Hbuf Hlb]
  · iframe
    all_goals imemq
  first | iapply (wp_ret_bind c _ _ _) | skip
  try sl_exec
  -- reduce leftwards, step 7, strip 3: the running sum at distance 15 leaves for the neighbour before
  iapply (blk_rl_send m ρ K c (7 : Fin 8) (3 : Fin 4) 61 _ (dev62_eq c _) (off1_eq_far c (7 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the departure of the reduce-left step 6, strip 0 is complete
  iapply (blk_wait_rl_dep m ρ K c (6 : Fin 8) (0 : Fin 4) 62 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 6, strip 0 is complete
  iapply (blk_wait_rr_dep m ρ K c (6 : Fin 7) (0 : Fin 4) 62 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 6, strip 1 is complete
  iapply (blk_wait_rl_dep m ρ K c (6 : Fin 8) (1 : Fin 4) 62 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 6, strip 1 is complete
  iapply (blk_wait_rr_dep m ρ K c (6 : Fin 7) (1 : Fin 4) 62 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 6, strip 2 is complete
  iapply (blk_wait_rl_dep m ρ K c (6 : Fin 8) (2 : Fin 4) 62 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 6, strip 2 is complete
  iapply (blk_wait_rr_dep m ρ K c (6 : Fin 7) (2 : Fin 4) 62 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 6, strip 3 is complete
  iapply (blk_wait_rl_dep m ρ K c (6 : Fin 8) (3 : Fin 4) 62 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 6, strip 3 is complete
  iapply (blk_wait_rr_dep m ρ K c (6 : Fin 7) (3 : Fin 4) 62 (credit_any _)) $$ [Hdr Hpos Hdone HO]
  · iframe # ∗
    isplitr
    · imemq
    · imay
  iintro ⟨Hdr, Hpos, Hdone, HO⟩
  first | iapply (wp_ret_bind c _ _ _) | skip
  try sl_exec
  -- the right-travelling step 6, strip 0 has landed: the running sum of the devices before
  iapply (blk_wait_rr_arr m ρ K c (6 : Fin 7) (0 : Fin 4) 62 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 6 is added into the own strip at distance 0, strip 0
  ihave Hs := (take _ ((0 : Fin 16), (0 : Fin 4)) (by imemp) (outΦ c (partV m ρ c))) $$ Hos
  icases Hs with ⟨Hst, Hos⟩
  ihave Hst := (out_strip c (partV m ρ c) (0 : Fin 16) (0 : Fin 4) 0 rfl) $$ Hst
  iapply (wp_addR c 0 (6 : Fin 7) (0 : Fin 4) k0_pay2 (fun _ _ => rfl) (off4_eq c (6 : Fin 7) (0 : Fin 4))) $$ [Hst Hbuf]
  · isplitl [Hst]
    · iexact Hst
    · iexact Hbuf
  iintro ⟨Hst, Hbuf⟩
  ihave Hrb := (blk_rb_put (F := F) c (6 : Fin 7) (0 : Fin 4) _ _) $$ [Hbuf Hrb]
  · iframe
    all_goals imemq
  first | iapply (wp_ret_bind c _ _ _) | skip
  try sl_exec
  -- the left-travelling step 7, strip 0 has landed: the running sum of the devices after
  iapply (blk_wait_rl_arr m ρ K c (7 : Fin 8) (0 : Fin 4) 62 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the last landed sum is added into the device's own strip 0, the chunk at distance 16 being its own again
  ihave Hst := (owns_sixteen' c (0 : Fin 4)) $$ Hst
  iapply (wp_loadO c 16 (0 : Fin 4) (off3_eq c (7 : Fin 8) (0 : Fin 4))) $$ Hst; iintro Hst
  iapply (wp_loadL c (7 : Fin 8) (0 : Fin 4)) $$ Hbuf; iintro %V %hV Hbuf
  first | iapply (wp_ret_bind c _ _ _) | skip
  try sl_exec
  iapply (wp_loadO c 16 (0 : Fin 4) (off3_eq c (7 : Fin 8) (0 : Fin 4))) $$ Hst; iintro Hst
  iapply (wp_storeO c 16 (0 : Fin 4) (off3_eq c (7 : Fin 8) (0 : Fin 4))) $$ Hst; iintro Hst
  ihave Hst := (owns_val (c : Thread nD τ) (oS c 16 (0 : Fin 4)) (Y := addS _ (accL m ρ ((7 : Fin 8)).val (rgt c) (0 : Fin 4))) (by exact add_val _ _ V hV)) $$ Hst
  ihave Hst := (owns_sixteen c (0 : Fin 4)) $$ Hst
  ihave Hlb := (blk_lb_put (F := F) c (7 : Fin 8) (0 : Fin 4) _ _) $$ [Hbuf Hlb]
  · iframe
    all_goals imemq
  first | iapply (wp_ret_bind c _ _ _) | skip
  try sl_exec
  -- the GELU of the device's own strip 0, now the sum over all sixteen devices
  iapply (wp_loadO c 0 (0 : Fin 4) (off5_eq c (0 : Fin 4))) $$ Hst; iintro Hst
  first | iapply (wp_ret_bind c _ _ _) | skip
  try sl_exec
  iapply (wp_loadO c 0 (0 : Fin 4) (off5_eq c (0 : Fin 4))) $$ Hst; iintro Hst
  iapply (wp_storeO c 0 (0 : Fin 4) (off5_eq c (0 : Fin 4))) $$ Hst; iintro Hst
  ihave Hst := (owns_val (c : Thread nD τ) (oS c 0 (0 : Fin 4)) (Y := finV m ρ c ((0 : Fin 16), (0 : Fin 4))) (by exact gelu_val_fin m ρ c (0 : Fin 4))) $$ Hst
  -- each of the two first gather transfers reads it under half a share
  ihave Hst := (fwd_own m ρ c (0 : Fin 4)) $$ Hst
  icases Hst with ⟨HstR, HstL⟩
  first | iapply (wp_ret_bind c _ _ _) | skip
  try sl_exec
  -- gather rightwards, step 0, strip 0: the finished strip at distance 0 goes on to the neighbour after
  iapply (blk_gr_send m ρ K c (0 : Fin 8) (0 : Fin 4) 62 _ (dev63_eq c _) (off6_eq c (0 : Fin 8) (0 : Fin 4)) rfl) $$ [HstR Hnr Htgr Hdgr HO]
  · isplitr
    · iexact Hrec
    isplitr
    · iexact Hlev
    isplitl [HstR]
    · iexact HstR
    iframe
    imemq
  iintro ⟨Hnr, Htgr, Hdgr, HO⟩
  first | iapply (wp_ret_bind c _ _ _) | skip
  try sl_exec
  -- gather leftwards, step 0, strip 0: the finished strip at distance 0 goes on to the neighbour before
  iapply (blk_gl_send m ρ K c (0 : Fin 7) (0 : Fin 4) 63 _ (dev64_eq c _) (off7_eq c (0 : Fin 7) (0 : Fin 4)) rfl) $$ [HstL Hnl Htgl Hdgl HO]
  · isplitr
    · iexact Hrec
    isplitr
    · iexact Hlev
    isplitl [HstL]
    · iexact HstL
    iframe
    imemq
  iintro ⟨Hnl, Htgl, Hdgl, HO⟩
  first | iapply (wp_ret_bind c _ _ _) | skip
  try sl_exec
  -- the right-travelling step 6, strip 1 has landed: the running sum of the devices before
  iapply (blk_wait_rr_arr m ρ K c (6 : Fin 7) (1 : Fin 4) 64 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 6 is added into the own strip at distance 0, strip 1
  ihave Hs := (take _ ((0 : Fin 16), (1 : Fin 4)) (by imemp) (outΦ c (partV m ρ c))) $$ Hos
  icases Hs with ⟨Hst, Hos⟩
  ihave Hst := (out_strip c (partV m ρ c) (0 : Fin 16) (1 : Fin 4) 0 rfl) $$ Hst
  iapply (wp_addR c 0 (6 : Fin 7) (1 : Fin 4) k0_pay2 (fun _ _ => rfl) (off4_eq c (6 : Fin 7) (1 : Fin 4))) $$ [Hst Hbuf]
  · isplitl [Hst]
    · iexact Hst
    · iexact Hbuf
  iintro ⟨Hst, Hbuf⟩
  ihave Hrb := (blk_rb_put (F := F) c (6 : Fin 7) (1 : Fin 4) _ _) $$ [Hbuf Hrb]
  · iframe
    all_goals imemq
  first | iapply (wp_ret_bind c _ _ _) | skip
  try sl_exec
  -- the left-travelling step 7, strip 1 has landed: the running sum of the devices after
  iapply (blk_wait_rl_arr m ρ K c (7 : Fin 8) (1 : Fin 4) 64 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the last landed sum is added into the device's own strip 1, the chunk at distance 16 being its own again
  ihave Hst := (owns_sixteen' c (1 : Fin 4)) $$ Hst
  iapply (wp_loadO c 16 (1 : Fin 4) (off3_eq c (7 : Fin 8) (1 : Fin 4))) $$ Hst; iintro Hst
  iapply (wp_loadL c (7 : Fin 8) (1 : Fin 4)) $$ Hbuf; iintro %V %hV Hbuf
  first | iapply (wp_ret_bind c _ _ _) | skip
  try sl_exec
  iapply (wp_loadO c 16 (1 : Fin 4) (off3_eq c (7 : Fin 8) (1 : Fin 4))) $$ Hst; iintro Hst
  iapply (wp_storeO c 16 (1 : Fin 4) (off3_eq c (7 : Fin 8) (1 : Fin 4))) $$ Hst; iintro Hst
  ihave Hst := (owns_val (c : Thread nD τ) (oS c 16 (1 : Fin 4)) (Y := addS _ (accL m ρ ((7 : Fin 8)).val (rgt c) (1 : Fin 4))) (by exact add_val _ _ V hV)) $$ Hst
  ihave Hst := (owns_sixteen c (1 : Fin 4)) $$ Hst
  ihave Hlb := (blk_lb_put (F := F) c (7 : Fin 8) (1 : Fin 4) _ _) $$ [Hbuf Hlb]
  · iframe
    all_goals imemq
  first | iapply (wp_ret_bind c _ _ _) | skip
  try sl_exec
  -- the GELU of the device's own strip 1, now the sum over all sixteen devices
  iapply (wp_loadO c 0 (1 : Fin 4) (off5_eq c (1 : Fin 4))) $$ Hst; iintro Hst
  first | iapply (wp_ret_bind c _ _ _) | skip
  try sl_exec
  iapply (wp_loadO c 0 (1 : Fin 4) (off5_eq c (1 : Fin 4))) $$ Hst; iintro Hst
  iapply (wp_storeO c 0 (1 : Fin 4) (off5_eq c (1 : Fin 4))) $$ Hst; iintro Hst
  ihave Hst := (owns_val (c : Thread nD τ) (oS c 0 (1 : Fin 4)) (Y := finV m ρ c ((0 : Fin 16), (1 : Fin 4))) (by exact gelu_val_fin m ρ c (1 : Fin 4))) $$ Hst
  -- each of the two first gather transfers reads it under half a share
  ihave Hst := (fwd_own m ρ c (1 : Fin 4)) $$ Hst
  icases Hst with ⟨HstR, HstL⟩
  first | iapply (wp_ret_bind c _ _ _) | skip
  try sl_exec
  -- gather rightwards, step 0, strip 1: the finished strip at distance 0 goes on to the neighbour after
  iapply (blk_gr_send m ρ K c (0 : Fin 8) (1 : Fin 4) 64 _ (dev65_eq c _) (off6_eq c (0 : Fin 8) (1 : Fin 4)) rfl) $$ [HstR Hnr Htgr Hdgr HO]
  · isplitr
    · iexact Hrec
    isplitr
    · iexact Hlev
    isplitl [HstR]
    · iexact HstR
    iframe
    imemq
  iintro ⟨Hnr, Htgr, Hdgr, HO⟩
  first | iapply (wp_ret_bind c _ _ _) | skip
  try sl_exec
  -- gather leftwards, step 0, strip 1: the finished strip at distance 0 goes on to the neighbour before
  iapply (blk_gl_send m ρ K c (0 : Fin 7) (1 : Fin 4) 65 _ (dev66_eq c _) (off7_eq c (0 : Fin 7) (1 : Fin 4)) rfl) $$ [HstL Hnl Htgl Hdgl HO]
  · isplitr
    · iexact Hrec
    isplitr
    · iexact Hlev
    isplitl [HstL]
    · iexact HstL
    iframe
    imemq
  iintro ⟨Hnl, Htgl, Hdgl, HO⟩
  first | iapply (wp_ret_bind c _ _ _) | skip
  try sl_exec
  -- the right-travelling step 6, strip 2 has landed: the running sum of the devices before
  iapply (blk_wait_rr_arr m ρ K c (6 : Fin 7) (2 : Fin 4) 66 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 6 is added into the own strip at distance 0, strip 2
  ihave Hs := (take _ ((0 : Fin 16), (2 : Fin 4)) (by imemp) (outΦ c (partV m ρ c))) $$ Hos
  icases Hs with ⟨Hst, Hos⟩
  ihave Hst := (out_strip c (partV m ρ c) (0 : Fin 16) (2 : Fin 4) 0 rfl) $$ Hst
  iapply (wp_addR c 0 (6 : Fin 7) (2 : Fin 4) k0_pay2 (fun _ _ => rfl) (off4_eq c (6 : Fin 7) (2 : Fin 4))) $$ [Hst Hbuf]
  · isplitl [Hst]
    · iexact Hst
    · iexact Hbuf
  iintro ⟨Hst, Hbuf⟩
  ihave Hrb := (blk_rb_put (F := F) c (6 : Fin 7) (2 : Fin 4) _ _) $$ [Hbuf Hrb]
  · iframe
    all_goals imemq
  first | iapply (wp_ret_bind c _ _ _) | skip
  try sl_exec
  -- the left-travelling step 7, strip 2 has landed: the running sum of the devices after
  iapply (blk_wait_rl_arr m ρ K c (7 : Fin 8) (2 : Fin 4) 66 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the last landed sum is added into the device's own strip 2, the chunk at distance 16 being its own again
  ihave Hst := (owns_sixteen' c (2 : Fin 4)) $$ Hst
  iapply (wp_loadO c 16 (2 : Fin 4) (off3_eq c (7 : Fin 8) (2 : Fin 4))) $$ Hst; iintro Hst
  iapply (wp_loadL c (7 : Fin 8) (2 : Fin 4)) $$ Hbuf; iintro %V %hV Hbuf
  first | iapply (wp_ret_bind c _ _ _) | skip
  try sl_exec
  iapply (wp_loadO c 16 (2 : Fin 4) (off3_eq c (7 : Fin 8) (2 : Fin 4))) $$ Hst; iintro Hst
  iapply (wp_storeO c 16 (2 : Fin 4) (off3_eq c (7 : Fin 8) (2 : Fin 4))) $$ Hst; iintro Hst
  ihave Hst := (owns_val (c : Thread nD τ) (oS c 16 (2 : Fin 4)) (Y := addS _ (accL m ρ ((7 : Fin 8)).val (rgt c) (2 : Fin 4))) (by exact add_val _ _ V hV)) $$ Hst
  ihave Hst := (owns_sixteen c (2 : Fin 4)) $$ Hst
  ihave Hlb := (blk_lb_put (F := F) c (7 : Fin 8) (2 : Fin 4) _ _) $$ [Hbuf Hlb]
  · iframe
    all_goals imemq
  first | iapply (wp_ret_bind c _ _ _) | skip
  try sl_exec
  -- the GELU of the device's own strip 2, now the sum over all sixteen devices
  iapply (wp_loadO c 0 (2 : Fin 4) (off5_eq c (2 : Fin 4))) $$ Hst; iintro Hst
  first | iapply (wp_ret_bind c _ _ _) | skip
  try sl_exec
  iapply (wp_loadO c 0 (2 : Fin 4) (off5_eq c (2 : Fin 4))) $$ Hst; iintro Hst
  iapply (wp_storeO c 0 (2 : Fin 4) (off5_eq c (2 : Fin 4))) $$ Hst; iintro Hst
  ihave Hst := (owns_val (c : Thread nD τ) (oS c 0 (2 : Fin 4)) (Y := finV m ρ c ((0 : Fin 16), (2 : Fin 4))) (by exact gelu_val_fin m ρ c (2 : Fin 4))) $$ Hst
  -- each of the two first gather transfers reads it under half a share
  ihave Hst := (fwd_own m ρ c (2 : Fin 4)) $$ Hst
  icases Hst with ⟨HstR, HstL⟩
  first | iapply (wp_ret_bind c _ _ _) | skip
  try sl_exec
  -- gather rightwards, step 0, strip 2: the finished strip at distance 0 goes on to the neighbour after
  iapply (blk_gr_send m ρ K c (0 : Fin 8) (2 : Fin 4) 66 _ (dev67_eq c _) (off6_eq c (0 : Fin 8) (2 : Fin 4)) rfl) $$ [HstR Hnr Htgr Hdgr HO]
  · isplitr
    · iexact Hrec
    isplitr
    · iexact Hlev
    isplitl [HstR]
    · iexact HstR
    iframe
    imemq
  iintro ⟨Hnr, Htgr, Hdgr, HO⟩
  first | iapply (wp_ret_bind c _ _ _) | skip
  try sl_exec
  -- gather leftwards, step 0, strip 2: the finished strip at distance 0 goes on to the neighbour before
  iapply (blk_gl_send m ρ K c (0 : Fin 7) (2 : Fin 4) 67 _ (dev68_eq c _) (off7_eq c (0 : Fin 7) (2 : Fin 4)) rfl) $$ [HstL Hnl Htgl Hdgl HO]
  · isplitr
    · iexact Hrec
    isplitr
    · iexact Hlev
    isplitl [HstL]
    · iexact HstL
    iframe
    imemq
  iintro ⟨Hnl, Htgl, Hdgl, HO⟩
  first | iapply (wp_ret_bind c _ _ _) | skip
  try sl_exec
  -- the right-travelling step 6, strip 3 has landed: the running sum of the devices before
  iapply (blk_wait_rr_arr m ρ K c (6 : Fin 7) (3 : Fin 4) 68 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 6 is added into the own strip at distance 0, strip 3
  ihave Hs := (take _ ((0 : Fin 16), (3 : Fin 4)) (by imemp) (outΦ c (partV m ρ c))) $$ Hos
  icases Hs with ⟨Hst, Hos⟩
  ihave Hst := (out_strip c (partV m ρ c) (0 : Fin 16) (3 : Fin 4) 0 rfl) $$ Hst
  iapply (wp_addR c 0 (6 : Fin 7) (3 : Fin 4) k0_pay2 (fun _ _ => rfl) (off4_eq c (6 : Fin 7) (3 : Fin 4))) $$ [Hst Hbuf]
  · isplitl [Hst]
    · iexact Hst
    · iexact Hbuf
  iintro ⟨Hst, Hbuf⟩
  ihave Hrb := (blk_rb_put (F := F) c (6 : Fin 7) (3 : Fin 4) _ _) $$ [Hbuf Hrb]
  · iframe
    all_goals imemq
  first | iapply (wp_ret_bind c _ _ _) | skip
  try sl_exec
  -- the left-travelling step 7, strip 3 has landed: the running sum of the devices after
  iapply (blk_wait_rl_arr m ρ K c (7 : Fin 8) (3 : Fin 4) 68 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the last landed sum is added into the device's own strip 3, the chunk at distance 16 being its own again
  ihave Hst := (owns_sixteen' c (3 : Fin 4)) $$ Hst
  iapply (wp_loadO c 16 (3 : Fin 4) (off3_eq c (7 : Fin 8) (3 : Fin 4))) $$ Hst; iintro Hst
  iapply (wp_loadL c (7 : Fin 8) (3 : Fin 4)) $$ Hbuf; iintro %V %hV Hbuf
  first | iapply (wp_ret_bind c _ _ _) | skip
  try sl_exec
  iapply (wp_loadO c 16 (3 : Fin 4) (off3_eq c (7 : Fin 8) (3 : Fin 4))) $$ Hst; iintro Hst
  iapply (wp_storeO c 16 (3 : Fin 4) (off3_eq c (7 : Fin 8) (3 : Fin 4))) $$ Hst; iintro Hst
  ihave Hst := (owns_val (c : Thread nD τ) (oS c 16 (3 : Fin 4)) (Y := addS _ (accL m ρ ((7 : Fin 8)).val (rgt c) (3 : Fin 4))) (by exact add_val _ _ V hV)) $$ Hst
  ihave Hst := (owns_sixteen c (3 : Fin 4)) $$ Hst
  ihave Hlb := (blk_lb_put (F := F) c (7 : Fin 8) (3 : Fin 4) _ _) $$ [Hbuf Hlb]
  · iframe
    all_goals imemq
  first | iapply (wp_ret_bind c _ _ _) | skip
  try sl_exec
  -- the GELU of the device's own strip 3, now the sum over all sixteen devices
  iapply (wp_loadO c 0 (3 : Fin 4) (off5_eq c (3 : Fin 4))) $$ Hst; iintro Hst
  first | iapply (wp_ret_bind c _ _ _) | skip
  try sl_exec
  iapply (wp_loadO c 0 (3 : Fin 4) (off5_eq c (3 : Fin 4))) $$ Hst; iintro Hst
  iapply (wp_storeO c 0 (3 : Fin 4) (off5_eq c (3 : Fin 4))) $$ Hst; iintro Hst
  ihave Hst := (owns_val (c : Thread nD τ) (oS c 0 (3 : Fin 4)) (Y := finV m ρ c ((0 : Fin 16), (3 : Fin 4))) (by exact gelu_val_fin m ρ c (3 : Fin 4))) $$ Hst
  -- each of the two first gather transfers reads it under half a share
  ihave Hst := (fwd_own m ρ c (3 : Fin 4)) $$ Hst
  icases Hst with ⟨HstR, HstL⟩
  first | iapply (wp_ret_bind c _ _ _) | skip
  try sl_exec
  -- gather rightwards, step 0, strip 3: the finished strip at distance 0 goes on to the neighbour after
  iapply (blk_gr_send m ρ K c (0 : Fin 8) (3 : Fin 4) 68 _ (dev69_eq c _) (off6_eq c (0 : Fin 8) (3 : Fin 4)) rfl) $$ [HstR Hnr Htgr Hdgr HO]
  · isplitr
    · iexact Hrec
    isplitr
    · iexact Hlev
    isplitl [HstR]
    · iexact HstR
    iframe
    imemq
  iintro ⟨Hnr, Htgr, Hdgr, HO⟩
  first | iapply (wp_ret_bind c _ _ _) | skip
  try sl_exec
  -- gather leftwards, step 0, strip 3: the finished strip at distance 0 goes on to the neighbour before
  iapply (blk_gl_send m ρ K c (0 : Fin 7) (3 : Fin 4) 69 _ (dev70_eq c _) (off7_eq c (0 : Fin 7) (3 : Fin 4)) rfl) $$ [HstL Hnl Htgl Hdgl HO]
  · isplitr
    · iexact Hrec
    isplitr
    · iexact Hlev
    isplitl [HstL]
    · iexact HstL
    iframe
    imemq
  iintro ⟨Hnl, Htgl, Hdgl, HO⟩
  first | iapply (wp_ret_bind c _ _ _) | skip
  try sl_exec
  -- the departure of the reduce-left step 7, strip 0 is complete
  iapply (blk_wait_rl_dep m ρ K c (7 : Fin 8) (0 : Fin 4) 70 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-left step 7, strip 1 is complete
  iapply (blk_wait_rl_dep m ρ K c (7 : Fin 8) (1 : Fin 4) 70 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-left step 7, strip 2 is complete
  iapply (blk_wait_rl_dep m ρ K c (7 : Fin 8) (2 : Fin 4) 70 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-left step 7, strip 3 is complete
  iapply (blk_wait_rl_dep m ρ K c (7 : Fin 8) (3 : Fin 4) 70 (credit_any _)) $$ [Hdl Hpos Hdone HO]
  · iframe # ∗
    isplitr
    · imemq
    · imay
  iintro ⟨Hdl, Hpos, Hdone, HO⟩
  first | iapply (wp_ret_bind c _ _ _) | skip
  try sl_exec
  -- the finished strip at distance 15 has arrived from the neighbour before (gather rightwards, step 0, strip 0)
  iapply (blk_wait_gr_arr m ρ K c (0 : Fin 8) (0 : Fin 4) 70 (credit_any _)) $$ [Hcgr Hpos Hdone HO]
  · iframe # ∗
    isplitr
    · imemq
    · imay
  iintro ⟨Hcgr, Hpos, Hdone, Hst, HO⟩
  ihave Hst := (fwd_gr m ρ c (0 : Fin 8) (by decide) (0 : Fin 4)) $$ Hst
  first | iapply (wp_ret_bind c _ _ _) | skip
  try sl_exec
  -- gather rightwards, step 1, strip 0: the finished strip at distance 15 goes on to the neighbour after
  iapply (blk_gr_send m ρ K c (1 : Fin 8) (0 : Fin 4) 70 _ (dev71_eq c _) (off6_eq c (1 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 1 has arrived from the neighbour after (gather leftwards, step 0, strip 0)
  iapply (blk_wait_gl_arr m ρ K c (0 : Fin 7) (0 : Fin 4) 71 (credit_any _)) $$ [Hcgl Hpos Hdone HO]
  · iframe # ∗
    isplitr
    · imemq
    · imay
  iintro ⟨Hcgl, Hpos, Hdone, Hst, HO⟩
  ihave Hst := (fwd_gl m ρ c (0 : Fin 7) (by decide) (0 : Fin 4)) $$ Hst
  first | iapply (wp_ret_bind c _ _ _) | skip
  try sl_exec
  -- gather leftwards, step 1, strip 0: the finished strip at distance 1 goes on to the neighbour before
  iapply (blk_gl_send m ρ K c (1 : Fin 7) (0 : Fin 4) 71 _ (dev72_eq c _) (off7_eq c (1 : Fin 7) (0 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 15 has arrived from the neighbour before (gather rightwards, step 0, strip 1)
  iapply (blk_wait_gr_arr m ρ K c (0 : Fin 8) (1 : Fin 4) 72 (credit_any _)) $$ [Hcgr Hpos Hdone HO]
  · iframe # ∗
    isplitr
    · imemq
    · imay
  iintro ⟨Hcgr, Hpos, Hdone, Hst, HO⟩
  ihave Hst := (fwd_gr m ρ c (0 : Fin 8) (by decide) (1 : Fin 4)) $$ Hst
  first | iapply (wp_ret_bind c _ _ _) | skip
  try sl_exec
  -- gather rightwards, step 1, strip 1: the finished strip at distance 15 goes on to the neighbour after
  iapply (blk_gr_send m ρ K c (1 : Fin 8) (1 : Fin 4) 72 _ (dev73_eq c _) (off6_eq c (1 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 1 has arrived from the neighbour after (gather leftwards, step 0, strip 1)
  iapply (blk_wait_gl_arr m ρ K c (0 : Fin 7) (1 : Fin 4) 73 (credit_any _)) $$ [Hcgl Hpos Hdone HO]
  · iframe # ∗
    isplitr
    · imemq
    · imay
  iintro ⟨Hcgl, Hpos, Hdone, Hst, HO⟩
  ihave Hst := (fwd_gl m ρ c (0 : Fin 7) (by decide) (1 : Fin 4)) $$ Hst
  first | iapply (wp_ret_bind c _ _ _) | skip
  try sl_exec
  -- gather leftwards, step 1, strip 1: the finished strip at distance 1 goes on to the neighbour before
  iapply (blk_gl_send m ρ K c (1 : Fin 7) (1 : Fin 4) 73 _ (dev74_eq c _) (off7_eq c (1 : Fin 7) (1 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 15 has arrived from the neighbour before (gather rightwards, step 0, strip 2)
  iapply (blk_wait_gr_arr m ρ K c (0 : Fin 8) (2 : Fin 4) 74 (credit_any _)) $$ [Hcgr Hpos Hdone HO]
  · iframe # ∗
    isplitr
    · imemq
    · imay
  iintro ⟨Hcgr, Hpos, Hdone, Hst, HO⟩
  ihave Hst := (fwd_gr m ρ c (0 : Fin 8) (by decide) (2 : Fin 4)) $$ Hst
  first | iapply (wp_ret_bind c _ _ _) | skip
  try sl_exec
  -- gather rightwards, step 1, strip 2: the finished strip at distance 15 goes on to the neighbour after
  iapply (blk_gr_send m ρ K c (1 : Fin 8) (2 : Fin 4) 74 _ (dev75_eq c _) (off6_eq c (1 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 1 has arrived from the neighbour after (gather leftwards, step 0, strip 2)
  iapply (blk_wait_gl_arr m ρ K c (0 : Fin 7) (2 : Fin 4) 75 (credit_any _)) $$ [Hcgl Hpos Hdone HO]
  · iframe # ∗
    isplitr
    · imemq
    · imay
  iintro ⟨Hcgl, Hpos, Hdone, Hst, HO⟩
  ihave Hst := (fwd_gl m ρ c (0 : Fin 7) (by decide) (2 : Fin 4)) $$ Hst
  first | iapply (wp_ret_bind c _ _ _) | skip
  try sl_exec
  -- gather leftwards, step 1, strip 2: the finished strip at distance 1 goes on to the neighbour before
  iapply (blk_gl_send m ρ K c (1 : Fin 7) (2 : Fin 4) 75 _ (dev76_eq c _) (off7_eq c (1 : Fin 7) (2 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 15 has arrived from the neighbour before (gather rightwards, step 0, strip 3)
  iapply (blk_wait_gr_arr m ρ K c (0 : Fin 8) (3 : Fin 4) 76 (credit_any _)) $$ [Hcgr Hpos Hdone HO]
  · iframe # ∗
    isplitr
    · imemq
    · imay
  iintro ⟨Hcgr, Hpos, Hdone, Hst, HO⟩
  ihave Hst := (fwd_gr m ρ c (0 : Fin 8) (by decide) (3 : Fin 4)) $$ Hst
  first | iapply (wp_ret_bind c _ _ _) | skip
  try sl_exec
  -- gather rightwards, step 1, strip 3: the finished strip at distance 15 goes on to the neighbour after
  iapply (blk_gr_send m ρ K c (1 : Fin 8) (3 : Fin 4) 76 _ (dev77_eq c _) (off6_eq c (1 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 1 has arrived from the neighbour after (gather leftwards, step 0, strip 3)
  iapply (blk_wait_gl_arr m ρ K c (0 : Fin 7) (3 : Fin 4) 77 (credit_any _)) $$ [Hcgl Hpos Hdone HO]
  · iframe # ∗
    isplitr
    · imemq
    · imay
  iintro ⟨Hcgl, Hpos, Hdone, Hst, HO⟩
  ihave Hst := (fwd_gl m ρ c (0 : Fin 7) (by decide) (3 : Fin 4)) $$ Hst
  first | iapply (wp_ret_bind c _ _ _) | skip
  try sl_exec
  -- gather leftwards, step 1, strip 3: the finished strip at distance 1 goes on to the neighbour before
  iapply (blk_gl_send m ρ K c (1 : Fin 7) (3 : Fin 4) 77 _ (dev78_eq c _) (off7_eq c (1 : Fin 7) (3 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the departure of the gather-right step 0, strip 0 is complete
  iapply (blk_wait_gr_dep m ρ K c (0 : Fin 8) (0 : Fin 4) 78 (credit_any _)) $$ [Hdgr Hpos Hdone HO]
  · iframe # ∗
    isplitr
    · imemq
    · imay
  iintro ⟨Hdgr, Hpos, Hdone, HretR, HO⟩
  first | iapply (wp_ret_bind c _ _ _) | skip
  try sl_exec
  -- the departure of the gather-left step 0, strip 0 is complete
  iapply (blk_wait_gl_dep m ρ K c (0 : Fin 7) (0 : Fin 4) 78 (credit_any _)) $$ [Hdgl Hpos Hdone HO]
  · iframe # ∗
    isplitr
    · imemq
    · imay
  iintro ⟨Hdgl, Hpos, Hdone, Hret, HO⟩
  ihave Hst := (ret_own m ρ c (0 : Fin 4)) $$ [Hret HretR]
  · isplitl [Hret]
    · iexact Hret
    · iexact HretR
  ihave Hfin := (blk_fin_put m ρ c (0 : Fin 16) (0 : Fin 4) _) $$ [Hst Hfin]
  · iframe
    all_goals imemq
  first | iapply (wp_ret_bind c _ _ _) | skip
  try sl_exec
  -- the departure of the gather-right step 0, strip 1 is complete
  iapply (blk_wait_gr_dep m ρ K c (0 : Fin 8) (1 : Fin 4) 78 (credit_any _)) $$ [Hdgr Hpos Hdone HO]
  · iframe # ∗
    isplitr
    · imemq
    · imay
  iintro ⟨Hdgr, Hpos, Hdone, HretR, HO⟩
  first | iapply (wp_ret_bind c _ _ _) | skip
  try sl_exec
  -- the departure of the gather-left step 0, strip 1 is complete
  iapply (blk_wait_gl_dep m ρ K c (0 : Fin 7) (1 : Fin 4) 78 (credit_any _)) $$ [Hdgl Hpos Hdone HO]
  · iframe # ∗
    isplitr
    · imemq
    · imay
  iintro ⟨Hdgl, Hpos, Hdone, Hret, HO⟩
  ihave Hst := (ret_own m ρ c (1 : Fin 4)) $$ [Hret HretR]
  · isplitl [Hret]
    · iexact Hret
    · iexact HretR
  ihave Hfin := (blk_fin_put m ρ c (0 : Fin 16) (1 : Fin 4) _) $$ [Hst Hfin]
  · iframe
    all_goals imemq
  first | iapply (wp_ret_bind c _ _ _) | skip
  try sl_exec
  -- the departure of the gather-right step 0, strip 2 is complete
  iapply (blk_wait_gr_dep m ρ K c (0 : Fin 8) (2 : Fin 4) 78 (credit_any _)) $$ [Hdgr Hpos Hdone HO]
  · iframe # ∗
    isplitr
    · imemq
    · imay
  iintro ⟨Hdgr, Hpos, Hdone, HretR, HO⟩
  first | iapply (wp_ret_bind c _ _ _) | skip
  try sl_exec
  -- the departure of the gather-left step 0, strip 2 is complete
  iapply (blk_wait_gl_dep m ρ K c (0 : Fin 7) (2 : Fin 4) 78 (credit_any _)) $$ [Hdgl Hpos Hdone HO]
  · iframe # ∗
    isplitr
    · imemq
    · imay
  iintro ⟨Hdgl, Hpos, Hdone, Hret, HO⟩
  ihave Hst := (ret_own m ρ c (2 : Fin 4)) $$ [Hret HretR]
  · isplitl [Hret]
    · iexact Hret
    · iexact HretR
  ihave Hfin := (blk_fin_put m ρ c (0 : Fin 16) (2 : Fin 4) _) $$ [Hst Hfin]
  · iframe
    all_goals imemq
  first | iapply (wp_ret_bind c _ _ _) | skip
  try sl_exec
  -- the departure of the gather-right step 0, strip 3 is complete
  iapply (blk_wait_gr_dep m ρ K c (0 : Fin 8) (3 : Fin 4) 78 (credit_any _)) $$ [Hdgr Hpos Hdone HO]
  · iframe # ∗
    isplitr
    · imemq
    · imay
  iintro ⟨Hdgr, Hpos, Hdone, HretR, HO⟩
  first | iapply (wp_ret_bind c _ _ _) | skip
  try sl_exec
  -- the departure of the gather-left step 0, strip 3 is complete
  iapply (blk_wait_gl_dep m ρ K c (0 : Fin 7) (3 : Fin 4) 78 (credit_any _)) $$ [Hdgl Hpos Hdone HO]
  · iframe # ∗
    isplitr
    · imemq
    · imay
  iintro ⟨Hdgl, Hpos, Hdone, Hret, HO⟩
  ihave Hst := (ret_own m ρ c (3 : Fin 4)) $$ [Hret HretR]
  · isplitl [Hret]
    · iexact Hret
    · iexact HretR
  ihave Hfin := (blk_fin_put m ρ c (0 : Fin 16) (3 : Fin 4) _) $$ [Hst Hfin]
  · iframe
    all_goals imemq
  first | iapply (wp_ret_bind c _ _ _) | skip
  try sl_exec
  -- the finished strip at distance 14 has arrived from the neighbour before (gather rightwards, step 1, strip 0)
  iapply (blk_wait_gr_arr m ρ K c (1 : Fin 8) (0 : Fin 4) 78 (credit_any _)) $$ [Hcgr Hpos Hdone HO]
  · iframe # ∗
    isplitr
    · imemq
    · imay
  iintro ⟨Hcgr, Hpos, Hdone, Hst, HO⟩
  ihave Hst := (fwd_gr m ρ c (1 : Fin 8) (by decide) (0 : Fin 4)) $$ Hst
  first | iapply (wp_ret_bind c _ _ _) | skip
  try sl_exec
  -- gather rightwards, step 2, strip 0: the finished strip at distance 14 goes on to the neighbour after
  iapply (blk_gr_send m ρ K c (2 : Fin 8) (0 : Fin 4) 78 _ (dev79_eq c _) (off6_eq c (2 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 2 has arrived from the neighbour after (gather leftwards, step 1, strip 0)
  iapply (blk_wait_gl_arr m ρ K c (1 : Fin 7) (0 : Fin 4) 79 (credit_any _)) $$ [Hcgl Hpos Hdone HO]
  · iframe # ∗
    isplitr
    · imemq
    · imay
  iintro ⟨Hcgl, Hpos, Hdone, Hst, HO⟩
  ihave Hst := (fwd_gl m ρ c (1 : Fin 7) (by decide) (0 : Fin 4)) $$ Hst
  first | iapply (wp_ret_bind c _ _ _) | skip
  try sl_exec
  -- gather leftwards, step 2, strip 0: the finished strip at distance 2 goes on to the neighbour before
  iapply (blk_gl_send m ρ K c (2 : Fin 7) (0 : Fin 4) 79 _ (dev80_eq c _) (off7_eq c (2 : Fin 7) (0 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 14 has arrived from the neighbour before (gather rightwards, step 1, strip 1)
  iapply (blk_wait_gr_arr m ρ K c (1 : Fin 8) (1 : Fin 4) 80 (credit_any _)) $$ [Hcgr Hpos Hdone HO]
  · iframe # ∗
    isplitr
    · imemq
    · imay
  iintro ⟨Hcgr, Hpos, Hdone, Hst, HO⟩
  ihave Hst := (fwd_gr m ρ c (1 : Fin 8) (by decide) (1 : Fin 4)) $$ Hst
  first | iapply (wp_ret_bind c _ _ _) | skip
  try sl_exec
  -- gather rightwards, step 2, strip 1: the finished strip at distance 14 goes on to the neighbour after
  iapply (blk_gr_send m ρ K c (2 : Fin 8) (1 : Fin 4) 80 _ (dev81_eq c _) (off6_eq c (2 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 2 has arrived from the neighbour after (gather leftwards, step 1, strip 1)
  iapply (blk_wait_gl_arr m ρ K c (1 : Fin 7) (1 : Fin 4) 81 (credit_any _)) $$ [Hcgl Hpos Hdone HO]
  · iframe # ∗
    isplitr
    · imemq
    · imay
  iintro ⟨Hcgl, Hpos, Hdone, Hst, HO⟩
  ihave Hst := (fwd_gl m ρ c (1 : Fin 7) (by decide) (1 : Fin 4)) $$ Hst
  first | iapply (wp_ret_bind c _ _ _) | skip
  try sl_exec
  -- gather leftwards, step 2, strip 1: the finished strip at distance 2 goes on to the neighbour before
  iapply (blk_gl_send m ρ K c (2 : Fin 7) (1 : Fin 4) 81 _ (dev82_eq c _) (off7_eq c (2 : Fin 7) (1 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 14 has arrived from the neighbour before (gather rightwards, step 1, strip 2)
  iapply (blk_wait_gr_arr m ρ K c (1 : Fin 8) (2 : Fin 4) 82 (credit_any _)) $$ [Hcgr Hpos Hdone HO]
  · iframe # ∗
    isplitr
    · imemq
    · imay
  iintro ⟨Hcgr, Hpos, Hdone, Hst, HO⟩
  ihave Hst := (fwd_gr m ρ c (1 : Fin 8) (by decide) (2 : Fin 4)) $$ Hst
  first | iapply (wp_ret_bind c _ _ _) | skip
  try sl_exec
  -- gather rightwards, step 2, strip 2: the finished strip at distance 14 goes on to the neighbour after
  iapply (blk_gr_send m ρ K c (2 : Fin 8) (2 : Fin 4) 82 _ (dev83_eq c _) (off6_eq c (2 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 2 has arrived from the neighbour after (gather leftwards, step 1, strip 2)
  iapply (blk_wait_gl_arr m ρ K c (1 : Fin 7) (2 : Fin 4) 83 (credit_any _)) $$ [Hcgl Hpos Hdone HO]
  · iframe # ∗
    isplitr
    · imemq
    · imay
  iintro ⟨Hcgl, Hpos, Hdone, Hst, HO⟩
  ihave Hst := (fwd_gl m ρ c (1 : Fin 7) (by decide) (2 : Fin 4)) $$ Hst
  first | iapply (wp_ret_bind c _ _ _) | skip
  try sl_exec
  -- gather leftwards, step 2, strip 2: the finished strip at distance 2 goes on to the neighbour before
  iapply (blk_gl_send m ρ K c (2 : Fin 7) (2 : Fin 4) 83 _ (dev84_eq c _) (off7_eq c (2 : Fin 7) (2 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 14 has arrived from the neighbour before (gather rightwards, step 1, strip 3)
  iapply (blk_wait_gr_arr m ρ K c (1 : Fin 8) (3 : Fin 4) 84 (credit_any _)) $$ [Hcgr Hpos Hdone HO]
  · iframe # ∗
    isplitr
    · imemq
    · imay
  iintro ⟨Hcgr, Hpos, Hdone, Hst, HO⟩
  ihave Hst := (fwd_gr m ρ c (1 : Fin 8) (by decide) (3 : Fin 4)) $$ Hst
  first | iapply (wp_ret_bind c _ _ _) | skip
  try sl_exec
  -- gather rightwards, step 2, strip 3: the finished strip at distance 14 goes on to the neighbour after
  iapply (blk_gr_send m ρ K c (2 : Fin 8) (3 : Fin 4) 84 _ (dev85_eq c _) (off6_eq c (2 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 2 has arrived from the neighbour after (gather leftwards, step 1, strip 3)
  iapply (blk_wait_gl_arr m ρ K c (1 : Fin 7) (3 : Fin 4) 85 (credit_any _)) $$ [Hcgl Hpos Hdone HO]
  · iframe # ∗
    isplitr
    · imemq
    · imay
  iintro ⟨Hcgl, Hpos, Hdone, Hst, HO⟩
  ihave Hst := (fwd_gl m ρ c (1 : Fin 7) (by decide) (3 : Fin 4)) $$ Hst
  first | iapply (wp_ret_bind c _ _ _) | skip
  try sl_exec
  -- gather leftwards, step 2, strip 3: the finished strip at distance 2 goes on to the neighbour before
  iapply (blk_gl_send m ρ K c (2 : Fin 7) (3 : Fin 4) 85 _ (dev86_eq c _) (off7_eq c (2 : Fin 7) (3 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the departure of the gather-right step 1, strip 0 is complete
  iapply (blk_wait_gr_dep m ρ K c (1 : Fin 8) (0 : Fin 4) 86 (credit_any _)) $$ [Hdgr Hpos Hdone HO]
  · iframe # ∗
    isplitr
    · imemq
    · imay
  iintro ⟨Hdgr, Hpos, Hdone, Hret, HO⟩
  ihave Hst := (ret_gr m ρ c (1 : Fin 8) (by decide) (0 : Fin 4) (15 : Fin 16) (by decide)) $$ Hret
  ihave Hfin := (blk_fin_put m ρ c (15 : Fin 16) (0 : Fin 4) _) $$ [Hst Hfin]
  · iframe
    all_goals imemq
  first | iapply (wp_ret_bind c _ _ _) | skip
  try sl_exec
  -- the departure of the gather-left step 1, strip 0 is complete
  iapply (blk_wait_gl_dep m ρ K c (1 : Fin 7) (0 : Fin 4) 86 (credit_any _)) $$ [Hdgl Hpos Hdone HO]
  · iframe # ∗
    isplitr
    · imemq
    · imay
  iintro ⟨Hdgl, Hpos, Hdone, Hret, HO⟩
  ihave Hst := (ret_gl m ρ c (1 : Fin 7) (by decide) (0 : Fin 4) (1 : Fin 16) (by decide)) $$ Hret
  ihave Hfin := (blk_fin_put m ρ c (1 : Fin 16) (0 : Fin 4) _) $$ [Hst Hfin]
  · iframe
    all_goals imemq
  first | iapply (wp_ret_bind c _ _ _) | skip
  try sl_exec
  -- the departure of the gather-right step 1, strip 1 is complete
  iapply (blk_wait_gr_dep m ρ K c (1 : Fin 8) (1 : Fin 4) 86 (credit_any _)) $$ [Hdgr Hpos Hdone HO]
  · iframe # ∗
    isplitr
    · imemq
    · imay
  iintro ⟨Hdgr, Hpos, Hdone, Hret, HO⟩
  ihave Hst := (ret_gr m ρ c (1 : Fin 8) (by decide) (1 : Fin 4) (15 : Fin 16) (by decide)) $$ Hret
  ihave Hfin := (blk_fin_put m ρ c (15 : Fin 16) (1 : Fin 4) _) $$ [Hst Hfin]
  · iframe
    all_goals imemq
  first | iapply (wp_ret_bind c _ _ _) | skip
  try sl_exec
  -- the departure of the gather-left step 1, strip 1 is complete
  iapply (blk_wait_gl_dep m ρ K c (1 : Fin 7) (1 : Fin 4) 86 (credit_any _)) $$ [Hdgl Hpos Hdone HO]
  · iframe # ∗
    isplitr
    · imemq
    · imay
  iintro ⟨Hdgl, Hpos, Hdone, Hret, HO⟩
  ihave Hst := (ret_gl m ρ c (1 : Fin 7) (by decide) (1 : Fin 4) (1 : Fin 16) (by decide)) $$ Hret
  ihave Hfin := (blk_fin_put m ρ c (1 : Fin 16) (1 : Fin 4) _) $$ [Hst Hfin]
  · iframe
    all_goals imemq
  first | iapply (wp_ret_bind c _ _ _) | skip
  try sl_exec
  -- the departure of the gather-right step 1, strip 2 is complete
  iapply (blk_wait_gr_dep m ρ K c (1 : Fin 8) (2 : Fin 4) 86 (credit_any _)) $$ [Hdgr Hpos Hdone HO]
  · iframe # ∗
    isplitr
    · imemq
    · imay
  iintro ⟨Hdgr, Hpos, Hdone, Hret, HO⟩
  ihave Hst := (ret_gr m ρ c (1 : Fin 8) (by decide) (2 : Fin 4) (15 : Fin 16) (by decide)) $$ Hret
  ihave Hfin := (blk_fin_put m ρ c (15 : Fin 16) (2 : Fin 4) _) $$ [Hst Hfin]
  · iframe
    all_goals imemq
  first | iapply (wp_ret_bind c _ _ _) | skip
  try sl_exec
  -- the departure of the gather-left step 1, strip 2 is complete
  iapply (blk_wait_gl_dep m ρ K c (1 : Fin 7) (2 : Fin 4) 86 (credit_any _)) $$ [Hdgl Hpos Hdone HO]
  · iframe # ∗
    isplitr
    · imemq
    · imay
  iintro ⟨Hdgl, Hpos, Hdone, Hret, HO⟩
  ihave Hst := (ret_gl m ρ c (1 : Fin 7) (by decide) (2 : Fin 4) (1 : Fin 16) (by decide)) $$ Hret
  ihave Hfin := (blk_fin_put m ρ c (1 : Fin 16) (2 : Fin 4) _) $$ [Hst Hfin]
  · iframe
    all_goals imemq
  first | iapply (wp_ret_bind c _ _ _) | skip
  try sl_exec
  -- the departure of the gather-right step 1, strip 3 is complete
  iapply (blk_wait_gr_dep m ρ K c (1 : Fin 8) (3 : Fin 4) 86 (credit_any _)) $$ [Hdgr Hpos Hdone HO]
  · iframe # ∗
    isplitr
    · imemq
    · imay
  iintro ⟨Hdgr, Hpos, Hdone, Hret, HO⟩
  ihave Hst := (ret_gr m ρ c (1 : Fin 8) (by decide) (3 : Fin 4) (15 : Fin 16) (by decide)) $$ Hret
  ihave Hfin := (blk_fin_put m ρ c (15 : Fin 16) (3 : Fin 4) _) $$ [Hst Hfin]
  · iframe
    all_goals imemq
  first | iapply (wp_ret_bind c _ _ _) | skip
  try sl_exec
  -- the departure of the gather-left step 1, strip 3 is complete
  iapply (blk_wait_gl_dep m ρ K c (1 : Fin 7) (3 : Fin 4) 86 (credit_any _)) $$ [Hdgl Hpos Hdone HO]
  · iframe # ∗
    isplitr
    · imemq
    · imay
  iintro ⟨Hdgl, Hpos, Hdone, Hret, HO⟩
  ihave Hst := (ret_gl m ρ c (1 : Fin 7) (by decide) (3 : Fin 4) (1 : Fin 16) (by decide)) $$ Hret
  ihave Hfin := (blk_fin_put m ρ c (1 : Fin 16) (3 : Fin 4) _) $$ [Hst Hfin]
  · iframe
    all_goals imemq
  first | iapply (wp_ret_bind c _ _ _) | skip
  try sl_exec
  -- the finished strip at distance 13 has arrived from the neighbour before (gather rightwards, step 2, strip 0)
  iapply (blk_wait_gr_arr m ρ K c (2 : Fin 8) (0 : Fin 4) 86 (credit_any _)) $$ [Hcgr Hpos Hdone HO]
  · iframe # ∗
    isplitr
    · imemq
    · imay
  iintro ⟨Hcgr, Hpos, Hdone, Hst, HO⟩
  ihave Hst := (fwd_gr m ρ c (2 : Fin 8) (by decide) (0 : Fin 4)) $$ Hst
  first | iapply (wp_ret_bind c _ _ _) | skip
  try sl_exec
  -- gather rightwards, step 3, strip 0: the finished strip at distance 13 goes on to the neighbour after
  iapply (blk_gr_send m ρ K c (3 : Fin 8) (0 : Fin 4) 86 _ (dev87_eq c _) (off6_eq c (3 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 3 has arrived from the neighbour after (gather leftwards, step 2, strip 0)
  iapply (blk_wait_gl_arr m ρ K c (2 : Fin 7) (0 : Fin 4) 87 (credit_any _)) $$ [Hcgl Hpos Hdone HO]
  · iframe # ∗
    isplitr
    · imemq
    · imay
  iintro ⟨Hcgl, Hpos, Hdone, Hst, HO⟩
  ihave Hst := (fwd_gl m ρ c (2 : Fin 7) (by decide) (0 : Fin 4)) $$ Hst
  first | iapply (wp_ret_bind c _ _ _) | skip
  try sl_exec
  -- gather leftwards, step 3, strip 0: the finished strip at distance 3 goes on to the neighbour before
  iapply (blk_gl_send m ρ K c (3 : Fin 7) (0 : Fin 4) 87 _ (dev88_eq c _) (off7_eq c (3 : Fin 7) (0 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 13 has arrived from the neighbour before (gather rightwards, step 2, strip 1)
  iapply (blk_wait_gr_arr m ρ K c (2 : Fin 8) (1 : Fin 4) 88 (credit_any _)) $$ [Hcgr Hpos Hdone HO]
  · iframe # ∗
    isplitr
    · imemq
    · imay
  iintro ⟨Hcgr, Hpos, Hdone, Hst, HO⟩
  ihave Hst := (fwd_gr m ρ c (2 : Fin 8) (by decide) (1 : Fin 4)) $$ Hst
  first | iapply (wp_ret_bind c _ _ _) | skip
  try sl_exec
  -- gather rightwards, step 3, strip 1: the finished strip at distance 13 goes on to the neighbour after
  iapply (blk_gr_send m ρ K c (3 : Fin 8) (1 : Fin 4) 88 _ (dev89_eq c _) (off6_eq c (3 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 3 has arrived from the neighbour after (gather leftwards, step 2, strip 1)
  iapply (blk_wait_gl_arr m ρ K c (2 : Fin 7) (1 : Fin 4) 89 (credit_any _)) $$ [Hcgl Hpos Hdone HO]
  · iframe # ∗
    isplitr
    · imemq
    · imay
  iintro ⟨Hcgl, Hpos, Hdone, Hst, HO⟩
  ihave Hst := (fwd_gl m ρ c (2 : Fin 7) (by decide) (1 : Fin 4)) $$ Hst
  first | iapply (wp_ret_bind c _ _ _) | skip
  try sl_exec
  -- gather leftwards, step 3, strip 1: the finished strip at distance 3 goes on to the neighbour before
  iapply (blk_gl_send m ρ K c (3 : Fin 7) (1 : Fin 4) 89 _ (dev90_eq c _) (off7_eq c (3 : Fin 7) (1 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 13 has arrived from the neighbour before (gather rightwards, step 2, strip 2)
  iapply (blk_wait_gr_arr m ρ K c (2 : Fin 8) (2 : Fin 4) 90 (credit_any _)) $$ [Hcgr Hpos Hdone HO]
  · iframe # ∗
    isplitr
    · imemq
    · imay
  iintro ⟨Hcgr, Hpos, Hdone, Hst, HO⟩
  ihave Hst := (fwd_gr m ρ c (2 : Fin 8) (by decide) (2 : Fin 4)) $$ Hst
  first | iapply (wp_ret_bind c _ _ _) | skip
  try sl_exec
  -- gather rightwards, step 3, strip 2: the finished strip at distance 13 goes on to the neighbour after
  iapply (blk_gr_send m ρ K c (3 : Fin 8) (2 : Fin 4) 90 _ (dev91_eq c _) (off6_eq c (3 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 3 has arrived from the neighbour after (gather leftwards, step 2, strip 2)
  iapply (blk_wait_gl_arr m ρ K c (2 : Fin 7) (2 : Fin 4) 91 (credit_any _)) $$ [Hcgl Hpos Hdone HO]
  · iframe # ∗
    isplitr
    · imemq
    · imay
  iintro ⟨Hcgl, Hpos, Hdone, Hst, HO⟩
  ihave Hst := (fwd_gl m ρ c (2 : Fin 7) (by decide) (2 : Fin 4)) $$ Hst
  first | iapply (wp_ret_bind c _ _ _) | skip
  try sl_exec
  -- gather leftwards, step 3, strip 2: the finished strip at distance 3 goes on to the neighbour before
  iapply (blk_gl_send m ρ K c (3 : Fin 7) (2 : Fin 4) 91 _ (dev92_eq c _) (off7_eq c (3 : Fin 7) (2 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 13 has arrived from the neighbour before (gather rightwards, step 2, strip 3)
  iapply (blk_wait_gr_arr m ρ K c (2 : Fin 8) (3 : Fin 4) 92 (credit_any _)) $$ [Hcgr Hpos Hdone HO]
  · iframe # ∗
    isplitr
    · imemq
    · imay
  iintro ⟨Hcgr, Hpos, Hdone, Hst, HO⟩
  ihave Hst := (fwd_gr m ρ c (2 : Fin 8) (by decide) (3 : Fin 4)) $$ Hst
  first | iapply (wp_ret_bind c _ _ _) | skip
  try sl_exec
  -- gather rightwards, step 3, strip 3: the finished strip at distance 13 goes on to the neighbour after
  iapply (blk_gr_send m ρ K c (3 : Fin 8) (3 : Fin 4) 92 _ (dev93_eq c _) (off6_eq c (3 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 3 has arrived from the neighbour after (gather leftwards, step 2, strip 3)
  iapply (blk_wait_gl_arr m ρ K c (2 : Fin 7) (3 : Fin 4) 93 (credit_any _)) $$ [Hcgl Hpos Hdone HO]
  · iframe # ∗
    isplitr
    · imemq
    · imay
  iintro ⟨Hcgl, Hpos, Hdone, Hst, HO⟩
  ihave Hst := (fwd_gl m ρ c (2 : Fin 7) (by decide) (3 : Fin 4)) $$ Hst
  first | iapply (wp_ret_bind c _ _ _) | skip
  try sl_exec
  -- gather leftwards, step 3, strip 3: the finished strip at distance 3 goes on to the neighbour before
  iapply (blk_gl_send m ρ K c (3 : Fin 7) (3 : Fin 4) 93 _ (dev94_eq c _) (off7_eq c (3 : Fin 7) (3 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the departure of the gather-right step 2, strip 0 is complete
  iapply (blk_wait_gr_dep m ρ K c (2 : Fin 8) (0 : Fin 4) 94 (credit_any _)) $$ [Hdgr Hpos Hdone HO]
  · iframe # ∗
    isplitr
    · imemq
    · imay
  iintro ⟨Hdgr, Hpos, Hdone, Hret, HO⟩
  ihave Hst := (ret_gr m ρ c (2 : Fin 8) (by decide) (0 : Fin 4) (14 : Fin 16) (by decide)) $$ Hret
  ihave Hfin := (blk_fin_put m ρ c (14 : Fin 16) (0 : Fin 4) _) $$ [Hst Hfin]
  · iframe
    all_goals imemq
  first | iapply (wp_ret_bind c _ _ _) | skip
  try sl_exec
  -- the departure of the gather-left step 2, strip 0 is complete
  iapply (blk_wait_gl_dep m ρ K c (2 : Fin 7) (0 : Fin 4) 94 (credit_any _)) $$ [Hdgl Hpos Hdone HO]
  · iframe # ∗
    isplitr
    · imemq
    · imay
  iintro ⟨Hdgl, Hpos, Hdone, Hret, HO⟩
  ihave Hst := (ret_gl m ρ c (2 : Fin 7) (by decide) (0 : Fin 4) (2 : Fin 16) (by decide)) $$ Hret
  ihave Hfin := (blk_fin_put m ρ c (2 : Fin 16) (0 : Fin 4) _) $$ [Hst Hfin]
  · iframe
    all_goals imemq
  first | iapply (wp_ret_bind c _ _ _) | skip
  try sl_exec
  -- the departure of the gather-right step 2, strip 1 is complete
  iapply (blk_wait_gr_dep m ρ K c (2 : Fin 8) (1 : Fin 4) 94 (credit_any _)) $$ [Hdgr Hpos Hdone HO]
  · iframe # ∗
    isplitr
    · imemq
    · imay
  iintro ⟨Hdgr, Hpos, Hdone, Hret, HO⟩
  ihave Hst := (ret_gr m ρ c (2 : Fin 8) (by decide) (1 : Fin 4) (14 : Fin 16) (by decide)) $$ Hret
  ihave Hfin := (blk_fin_put m ρ c (14 : Fin 16) (1 : Fin 4) _) $$ [Hst Hfin]
  · iframe
    all_goals imemq
  first | iapply (wp_ret_bind c _ _ _) | skip
  try sl_exec
  -- the departure of the gather-left step 2, strip 1 is complete
  iapply (blk_wait_gl_dep m ρ K c (2 : Fin 7) (1 : Fin 4) 94 (credit_any _)) $$ [Hdgl Hpos Hdone HO]
  · iframe # ∗
    isplitr
    · imemq
    · imay
  iintro ⟨Hdgl, Hpos, Hdone, Hret, HO⟩
  ihave Hst := (ret_gl m ρ c (2 : Fin 7) (by decide) (1 : Fin 4) (2 : Fin 16) (by decide)) $$ Hret
  ihave Hfin := (blk_fin_put m ρ c (2 : Fin 16) (1 : Fin 4) _) $$ [Hst Hfin]
  · iframe
    all_goals imemq
  first | iapply (wp_ret_bind c _ _ _) | skip
  try sl_exec
  -- the departure of the gather-right step 2, strip 2 is complete
  iapply (blk_wait_gr_dep m ρ K c (2 : Fin 8) (2 : Fin 4) 94 (credit_any _)) $$ [Hdgr Hpos Hdone HO]
  · iframe # ∗
    isplitr
    · imemq
    · imay
  iintro ⟨Hdgr, Hpos, Hdone, Hret, HO⟩
  ihave Hst := (ret_gr m ρ c (2 : Fin 8) (by decide) (2 : Fin 4) (14 : Fin 16) (by decide)) $$ Hret
  ihave Hfin := (blk_fin_put m ρ c (14 : Fin 16) (2 : Fin 4) _) $$ [Hst Hfin]
  · iframe
    all_goals imemq
  first | iapply (wp_ret_bind c _ _ _) | skip
  try sl_exec
  -- the departure of the gather-left step 2, strip 2 is complete
  iapply (blk_wait_gl_dep m ρ K c (2 : Fin 7) (2 : Fin 4) 94 (credit_any _)) $$ [Hdgl Hpos Hdone HO]
  · iframe # ∗
    isplitr
    · imemq
    · imay
  iintro ⟨Hdgl, Hpos, Hdone, Hret, HO⟩
  ihave Hst := (ret_gl m ρ c (2 : Fin 7) (by decide) (2 : Fin 4) (2 : Fin 16) (by decide)) $$ Hret
  ihave Hfin := (blk_fin_put m ρ c (2 : Fin 16) (2 : Fin 4) _) $$ [Hst Hfin]
  · iframe
    all_goals imemq
  first | iapply (wp_ret_bind c _ _ _) | skip
  try sl_exec
  -- the departure of the gather-right step 2, strip 3 is complete
  iapply (blk_wait_gr_dep m ρ K c (2 : Fin 8) (3 : Fin 4) 94 (credit_any _)) $$ [Hdgr Hpos Hdone HO]
  · iframe # ∗
    isplitr
    · imemq
    · imay
  iintro ⟨Hdgr, Hpos, Hdone, Hret, HO⟩
  ihave Hst := (ret_gr m ρ c (2 : Fin 8) (by decide) (3 : Fin 4) (14 : Fin 16) (by decide)) $$ Hret
  ihave Hfin := (blk_fin_put m ρ c (14 : Fin 16) (3 : Fin 4) _) $$ [Hst Hfin]
  · iframe
    all_goals imemq
  first | iapply (wp_ret_bind c _ _ _) | skip
  try sl_exec
  -- the departure of the gather-left step 2, strip 3 is complete
  iapply (blk_wait_gl_dep m ρ K c (2 : Fin 7) (3 : Fin 4) 94 (credit_any _)) $$ [Hdgl Hpos Hdone HO]
  · iframe # ∗
    isplitr
    · imemq
    · imay
  iintro ⟨Hdgl, Hpos, Hdone, Hret, HO⟩
  ihave Hst := (ret_gl m ρ c (2 : Fin 7) (by decide) (3 : Fin 4) (2 : Fin 16) (by decide)) $$ Hret
  ihave Hfin := (blk_fin_put m ρ c (2 : Fin 16) (3 : Fin 4) _) $$ [Hst Hfin]
  · iframe
    all_goals imemq
  first | iapply (wp_ret_bind c _ _ _) | skip
  try sl_exec
  -- the finished strip at distance 12 has arrived from the neighbour before (gather rightwards, step 3, strip 0)
  iapply (blk_wait_gr_arr m ρ K c (3 : Fin 8) (0 : Fin 4) 94 (credit_any _)) $$ [Hcgr Hpos Hdone HO]
  · iframe # ∗
    isplitr
    · imemq
    · imay
  iintro ⟨Hcgr, Hpos, Hdone, Hst, HO⟩
  ihave Hst := (fwd_gr m ρ c (3 : Fin 8) (by decide) (0 : Fin 4)) $$ Hst
  first | iapply (wp_ret_bind c _ _ _) | skip
  try sl_exec
  -- gather rightwards, step 4, strip 0: the finished strip at distance 12 goes on to the neighbour after
  iapply (blk_gr_send m ρ K c (4 : Fin 8) (0 : Fin 4) 94 _ (dev95_eq c _) (off6_eq c (4 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 4 has arrived from the neighbour after (gather leftwards, step 3, strip 0)
  iapply (blk_wait_gl_arr m ρ K c (3 : Fin 7) (0 : Fin 4) 95 (credit_any _)) $$ [Hcgl Hpos Hdone HO]
  · iframe # ∗
    isplitr
    · imemq
    · imay
  iintro ⟨Hcgl, Hpos, Hdone, Hst, HO⟩
  ihave Hst := (fwd_gl m ρ c (3 : Fin 7) (by decide) (0 : Fin 4)) $$ Hst
  first | iapply (wp_ret_bind c _ _ _) | skip
  try sl_exec
  -- gather leftwards, step 4, strip 0: the finished strip at distance 4 goes on to the neighbour before
  iapply (blk_gl_send m ρ K c (4 : Fin 7) (0 : Fin 4) 95 _ (dev96_eq c _) (off7_eq c (4 : Fin 7) (0 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 12 has arrived from the neighbour before (gather rightwards, step 3, strip 1)
  iapply (blk_wait_gr_arr m ρ K c (3 : Fin 8) (1 : Fin 4) 96 (credit_any _)) $$ [Hcgr Hpos Hdone HO]
  · iframe # ∗
    isplitr
    · imemq
    · imay
  iintro ⟨Hcgr, Hpos, Hdone, Hst, HO⟩
  ihave Hst := (fwd_gr m ρ c (3 : Fin 8) (by decide) (1 : Fin 4)) $$ Hst
  first | iapply (wp_ret_bind c _ _ _) | skip
  try sl_exec
  -- gather rightwards, step 4, strip 1: the finished strip at distance 12 goes on to the neighbour after
  iapply (blk_gr_send m ρ K c (4 : Fin 8) (1 : Fin 4) 96 _ (dev97_eq c _) (off6_eq c (4 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 4 has arrived from the neighbour after (gather leftwards, step 3, strip 1)
  iapply (blk_wait_gl_arr m ρ K c (3 : Fin 7) (1 : Fin 4) 97 (credit_any _)) $$ [Hcgl Hpos Hdone HO]
  · iframe # ∗
    isplitr
    · imemq
    · imay
  iintro ⟨Hcgl, Hpos, Hdone, Hst, HO⟩
  ihave Hst := (fwd_gl m ρ c (3 : Fin 7) (by decide) (1 : Fin 4)) $$ Hst
  first | iapply (wp_ret_bind c _ _ _) | skip
  try sl_exec
  -- gather leftwards, step 4, strip 1: the finished strip at distance 4 goes on to the neighbour before
  iapply (blk_gl_send m ρ K c (4 : Fin 7) (1 : Fin 4) 97 _ (dev98_eq c _) (off7_eq c (4 : Fin 7) (1 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 12 has arrived from the neighbour before (gather rightwards, step 3, strip 2)
  iapply (blk_wait_gr_arr m ρ K c (3 : Fin 8) (2 : Fin 4) 98 (credit_any _)) $$ [Hcgr Hpos Hdone HO]
  · iframe # ∗
    isplitr
    · imemq
    · imay
  iintro ⟨Hcgr, Hpos, Hdone, Hst, HO⟩
  ihave Hst := (fwd_gr m ρ c (3 : Fin 8) (by decide) (2 : Fin 4)) $$ Hst
  first | iapply (wp_ret_bind c _ _ _) | skip
  try sl_exec
  -- gather rightwards, step 4, strip 2: the finished strip at distance 12 goes on to the neighbour after
  iapply (blk_gr_send m ρ K c (4 : Fin 8) (2 : Fin 4) 98 _ (dev99_eq c _) (off6_eq c (4 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 4 has arrived from the neighbour after (gather leftwards, step 3, strip 2)
  iapply (blk_wait_gl_arr m ρ K c (3 : Fin 7) (2 : Fin 4) 99 (credit_any _)) $$ [Hcgl Hpos Hdone HO]
  · iframe # ∗
    isplitr
    · imemq
    · imay
  iintro ⟨Hcgl, Hpos, Hdone, Hst, HO⟩
  ihave Hst := (fwd_gl m ρ c (3 : Fin 7) (by decide) (2 : Fin 4)) $$ Hst
  first | iapply (wp_ret_bind c _ _ _) | skip
  try sl_exec
  -- gather leftwards, step 4, strip 2: the finished strip at distance 4 goes on to the neighbour before
  iapply (blk_gl_send m ρ K c (4 : Fin 7) (2 : Fin 4) 99 _ (dev100_eq c _) (off7_eq c (4 : Fin 7) (2 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 12 has arrived from the neighbour before (gather rightwards, step 3, strip 3)
  iapply (blk_wait_gr_arr m ρ K c (3 : Fin 8) (3 : Fin 4) 100 (credit_any _)) $$ [Hcgr Hpos Hdone HO]
  · iframe # ∗
    isplitr
    · imemq
    · imay
  iintro ⟨Hcgr, Hpos, Hdone, Hst, HO⟩
  ihave Hst := (fwd_gr m ρ c (3 : Fin 8) (by decide) (3 : Fin 4)) $$ Hst
  first | iapply (wp_ret_bind c _ _ _) | skip
  try sl_exec
  -- gather rightwards, step 4, strip 3: the finished strip at distance 12 goes on to the neighbour after
  iapply (blk_gr_send m ρ K c (4 : Fin 8) (3 : Fin 4) 100 _ (dev101_eq c _) (off6_eq c (4 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 4 has arrived from the neighbour after (gather leftwards, step 3, strip 3)
  iapply (blk_wait_gl_arr m ρ K c (3 : Fin 7) (3 : Fin 4) 101 (credit_any _)) $$ [Hcgl Hpos Hdone HO]
  · iframe # ∗
    isplitr
    · imemq
    · imay
  iintro ⟨Hcgl, Hpos, Hdone, Hst, HO⟩
  ihave Hst := (fwd_gl m ρ c (3 : Fin 7) (by decide) (3 : Fin 4)) $$ Hst
  first | iapply (wp_ret_bind c _ _ _) | skip
  try sl_exec
  -- gather leftwards, step 4, strip 3: the finished strip at distance 4 goes on to the neighbour before
  iapply (blk_gl_send m ρ K c (4 : Fin 7) (3 : Fin 4) 101 _ (dev102_eq c _) (off7_eq c (4 : Fin 7) (3 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the departure of the gather-right step 3, strip 0 is complete
  iapply (blk_wait_gr_dep m ρ K c (3 : Fin 8) (0 : Fin 4) 102 (credit_any _)) $$ [Hdgr Hpos Hdone HO]
  · iframe # ∗
    isplitr
    · imemq
    · imay
  iintro ⟨Hdgr, Hpos, Hdone, Hret, HO⟩
  ihave Hst := (ret_gr m ρ c (3 : Fin 8) (by decide) (0 : Fin 4) (13 : Fin 16) (by decide)) $$ Hret
  ihave Hfin := (blk_fin_put m ρ c (13 : Fin 16) (0 : Fin 4) _) $$ [Hst Hfin]
  · iframe
    all_goals imemq
  first | iapply (wp_ret_bind c _ _ _) | skip
  try sl_exec
  -- the departure of the gather-left step 3, strip 0 is complete
  iapply (blk_wait_gl_dep m ρ K c (3 : Fin 7) (0 : Fin 4) 102 (credit_any _)) $$ [Hdgl Hpos Hdone HO]
  · iframe # ∗
    isplitr
    · imemq
    · imay
  iintro ⟨Hdgl, Hpos, Hdone, Hret, HO⟩
  ihave Hst := (ret_gl m ρ c (3 : Fin 7) (by decide) (0 : Fin 4) (3 : Fin 16) (by decide)) $$ Hret
  ihave Hfin := (blk_fin_put m ρ c (3 : Fin 16) (0 : Fin 4) _) $$ [Hst Hfin]
  · iframe
    all_goals imemq
  first | iapply (wp_ret_bind c _ _ _) | skip
  try sl_exec
  -- the departure of the gather-right step 3, strip 1 is complete
  iapply (blk_wait_gr_dep m ρ K c (3 : Fin 8) (1 : Fin 4) 102 (credit_any _)) $$ [Hdgr Hpos Hdone HO]
  · iframe # ∗
    isplitr
    · imemq
    · imay
  iintro ⟨Hdgr, Hpos, Hdone, Hret, HO⟩
  ihave Hst := (ret_gr m ρ c (3 : Fin 8) (by decide) (1 : Fin 4) (13 : Fin 16) (by decide)) $$ Hret
  ihave Hfin := (blk_fin_put m ρ c (13 : Fin 16) (1 : Fin 4) _) $$ [Hst Hfin]
  · iframe
    all_goals imemq
  first | iapply (wp_ret_bind c _ _ _) | skip
  try sl_exec
  -- the departure of the gather-left step 3, strip 1 is complete
  iapply (blk_wait_gl_dep m ρ K c (3 : Fin 7) (1 : Fin 4) 102 (credit_any _)) $$ [Hdgl Hpos Hdone HO]
  · iframe # ∗
    isplitr
    · imemq
    · imay
  iintro ⟨Hdgl, Hpos, Hdone, Hret, HO⟩
  ihave Hst := (ret_gl m ρ c (3 : Fin 7) (by decide) (1 : Fin 4) (3 : Fin 16) (by decide)) $$ Hret
  ihave Hfin := (blk_fin_put m ρ c (3 : Fin 16) (1 : Fin 4) _) $$ [Hst Hfin]
  · iframe
    all_goals imemq
  first | iapply (wp_ret_bind c _ _ _) | skip
  try sl_exec
  -- the departure of the gather-right step 3, strip 2 is complete
  iapply (blk_wait_gr_dep m ρ K c (3 : Fin 8) (2 : Fin 4) 102 (credit_any _)) $$ [Hdgr Hpos Hdone HO]
  · iframe # ∗
    isplitr
    · imemq
    · imay
  iintro ⟨Hdgr, Hpos, Hdone, Hret, HO⟩
  ihave Hst := (ret_gr m ρ c (3 : Fin 8) (by decide) (2 : Fin 4) (13 : Fin 16) (by decide)) $$ Hret
  ihave Hfin := (blk_fin_put m ρ c (13 : Fin 16) (2 : Fin 4) _) $$ [Hst Hfin]
  · iframe
    all_goals imemq
  first | iapply (wp_ret_bind c _ _ _) | skip
  try sl_exec
  -- the departure of the gather-left step 3, strip 2 is complete
  iapply (blk_wait_gl_dep m ρ K c (3 : Fin 7) (2 : Fin 4) 102 (credit_any _)) $$ [Hdgl Hpos Hdone HO]
  · iframe # ∗
    isplitr
    · imemq
    · imay
  iintro ⟨Hdgl, Hpos, Hdone, Hret, HO⟩
  ihave Hst := (ret_gl m ρ c (3 : Fin 7) (by decide) (2 : Fin 4) (3 : Fin 16) (by decide)) $$ Hret
  ihave Hfin := (blk_fin_put m ρ c (3 : Fin 16) (2 : Fin 4) _) $$ [Hst Hfin]
  · iframe
    all_goals imemq
  first | iapply (wp_ret_bind c _ _ _) | skip
  try sl_exec
  -- the departure of the gather-right step 3, strip 3 is complete
  iapply (blk_wait_gr_dep m ρ K c (3 : Fin 8) (3 : Fin 4) 102 (credit_any _)) $$ [Hdgr Hpos Hdone HO]
  · iframe # ∗
    isplitr
    · imemq
    · imay
  iintro ⟨Hdgr, Hpos, Hdone, Hret, HO⟩
  ihave Hst := (ret_gr m ρ c (3 : Fin 8) (by decide) (3 : Fin 4) (13 : Fin 16) (by decide)) $$ Hret
  ihave Hfin := (blk_fin_put m ρ c (13 : Fin 16) (3 : Fin 4) _) $$ [Hst Hfin]
  · iframe
    all_goals imemq
  first | iapply (wp_ret_bind c _ _ _) | skip
  try sl_exec
  -- the departure of the gather-left step 3, strip 3 is complete
  iapply (blk_wait_gl_dep m ρ K c (3 : Fin 7) (3 : Fin 4) 102 (credit_any _)) $$ [Hdgl Hpos Hdone HO]
  · iframe # ∗
    isplitr
    · imemq
    · imay
  iintro ⟨Hdgl, Hpos, Hdone, Hret, HO⟩
  ihave Hst := (ret_gl m ρ c (3 : Fin 7) (by decide) (3 : Fin 4) (3 : Fin 16) (by decide)) $$ Hret
  ihave Hfin := (blk_fin_put m ρ c (3 : Fin 16) (3 : Fin 4) _) $$ [Hst Hfin]
  · iframe
    all_goals imemq
  first | iapply (wp_ret_bind c _ _ _) | skip
  try sl_exec
  -- the finished strip at distance 11 has arrived from the neighbour before (gather rightwards, step 4, strip 0)
  iapply (blk_wait_gr_arr m ρ K c (4 : Fin 8) (0 : Fin 4) 102 (credit_any _)) $$ [Hcgr Hpos Hdone HO]
  · iframe # ∗
    isplitr
    · imemq
    · imay
  iintro ⟨Hcgr, Hpos, Hdone, Hst, HO⟩
  ihave Hst := (fwd_gr m ρ c (4 : Fin 8) (by decide) (0 : Fin 4)) $$ Hst
  first | iapply (wp_ret_bind c _ _ _) | skip
  try sl_exec
  -- gather rightwards, step 5, strip 0: the finished strip at distance 11 goes on to the neighbour after
  iapply (blk_gr_send m ρ K c (5 : Fin 8) (0 : Fin 4) 102 _ (dev103_eq c _) (off6_eq c (5 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 5 has arrived from the neighbour after (gather leftwards, step 4, strip 0)
  iapply (blk_wait_gl_arr m ρ K c (4 : Fin 7) (0 : Fin 4) 103 (credit_any _)) $$ [Hcgl Hpos Hdone HO]
  · iframe # ∗
    isplitr
    · imemq
    · imay
  iintro ⟨Hcgl, Hpos, Hdone, Hst, HO⟩
  ihave Hst := (fwd_gl m ρ c (4 : Fin 7) (by decide) (0 : Fin 4)) $$ Hst
  first | iapply (wp_ret_bind c _ _ _) | skip
  try sl_exec
  -- gather leftwards, step 5, strip 0: the finished strip at distance 5 goes on to the neighbour before
  iapply (blk_gl_send m ρ K c (5 : Fin 7) (0 : Fin 4) 103 _ (dev104_eq c _) (off7_eq c (5 : Fin 7) (0 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 11 has arrived from the neighbour before (gather rightwards, step 4, strip 1)
  iapply (blk_wait_gr_arr m ρ K c (4 : Fin 8) (1 : Fin 4) 104 (credit_any _)) $$ [Hcgr Hpos Hdone HO]
  · iframe # ∗
    isplitr
    · imemq
    · imay
  iintro ⟨Hcgr, Hpos, Hdone, Hst, HO⟩
  ihave Hst := (fwd_gr m ρ c (4 : Fin 8) (by decide) (1 : Fin 4)) $$ Hst
  first | iapply (wp_ret_bind c _ _ _) | skip
  try sl_exec
  -- gather rightwards, step 5, strip 1: the finished strip at distance 11 goes on to the neighbour after
  iapply (blk_gr_send m ρ K c (5 : Fin 8) (1 : Fin 4) 104 _ (dev105_eq c _) (off6_eq c (5 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 5 has arrived from the neighbour after (gather leftwards, step 4, strip 1)
  iapply (blk_wait_gl_arr m ρ K c (4 : Fin 7) (1 : Fin 4) 105 (credit_any _)) $$ [Hcgl Hpos Hdone HO]
  · iframe # ∗
    isplitr
    · imemq
    · imay
  iintro ⟨Hcgl, Hpos, Hdone, Hst, HO⟩
  ihave Hst := (fwd_gl m ρ c (4 : Fin 7) (by decide) (1 : Fin 4)) $$ Hst
  first | iapply (wp_ret_bind c _ _ _) | skip
  try sl_exec
  -- gather leftwards, step 5, strip 1: the finished strip at distance 5 goes on to the neighbour before
  iapply (blk_gl_send m ρ K c (5 : Fin 7) (1 : Fin 4) 105 _ (dev106_eq c _) (off7_eq c (5 : Fin 7) (1 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 11 has arrived from the neighbour before (gather rightwards, step 4, strip 2)
  iapply (blk_wait_gr_arr m ρ K c (4 : Fin 8) (2 : Fin 4) 106 (credit_any _)) $$ [Hcgr Hpos Hdone HO]
  · iframe # ∗
    isplitr
    · imemq
    · imay
  iintro ⟨Hcgr, Hpos, Hdone, Hst, HO⟩
  ihave Hst := (fwd_gr m ρ c (4 : Fin 8) (by decide) (2 : Fin 4)) $$ Hst
  first | iapply (wp_ret_bind c _ _ _) | skip
  try sl_exec
  -- gather rightwards, step 5, strip 2: the finished strip at distance 11 goes on to the neighbour after
  iapply (blk_gr_send m ρ K c (5 : Fin 8) (2 : Fin 4) 106 _ (dev107_eq c _) (off6_eq c (5 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 5 has arrived from the neighbour after (gather leftwards, step 4, strip 2)
  iapply (blk_wait_gl_arr m ρ K c (4 : Fin 7) (2 : Fin 4) 107 (credit_any _)) $$ [Hcgl Hpos Hdone HO]
  · iframe # ∗
    isplitr
    · imemq
    · imay
  iintro ⟨Hcgl, Hpos, Hdone, Hst, HO⟩
  ihave Hst := (fwd_gl m ρ c (4 : Fin 7) (by decide) (2 : Fin 4)) $$ Hst
  first | iapply (wp_ret_bind c _ _ _) | skip
  try sl_exec
  -- gather leftwards, step 5, strip 2: the finished strip at distance 5 goes on to the neighbour before
  iapply (blk_gl_send m ρ K c (5 : Fin 7) (2 : Fin 4) 107 _ (dev108_eq c _) (off7_eq c (5 : Fin 7) (2 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 11 has arrived from the neighbour before (gather rightwards, step 4, strip 3)
  iapply (blk_wait_gr_arr m ρ K c (4 : Fin 8) (3 : Fin 4) 108 (credit_any _)) $$ [Hcgr Hpos Hdone HO]
  · iframe # ∗
    isplitr
    · imemq
    · imay
  iintro ⟨Hcgr, Hpos, Hdone, Hst, HO⟩
  ihave Hst := (fwd_gr m ρ c (4 : Fin 8) (by decide) (3 : Fin 4)) $$ Hst
  first | iapply (wp_ret_bind c _ _ _) | skip
  try sl_exec
  -- gather rightwards, step 5, strip 3: the finished strip at distance 11 goes on to the neighbour after
  iapply (blk_gr_send m ρ K c (5 : Fin 8) (3 : Fin 4) 108 _ (dev109_eq c _) (off6_eq c (5 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 5 has arrived from the neighbour after (gather leftwards, step 4, strip 3)
  iapply (blk_wait_gl_arr m ρ K c (4 : Fin 7) (3 : Fin 4) 109 (credit_any _)) $$ [Hcgl Hpos Hdone HO]
  · iframe # ∗
    isplitr
    · imemq
    · imay
  iintro ⟨Hcgl, Hpos, Hdone, Hst, HO⟩
  ihave Hst := (fwd_gl m ρ c (4 : Fin 7) (by decide) (3 : Fin 4)) $$ Hst
  first | iapply (wp_ret_bind c _ _ _) | skip
  try sl_exec
  -- gather leftwards, step 5, strip 3: the finished strip at distance 5 goes on to the neighbour before
  iapply (blk_gl_send m ρ K c (5 : Fin 7) (3 : Fin 4) 109 _ (dev110_eq c _) (off7_eq c (5 : Fin 7) (3 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the departure of the gather-right step 4, strip 0 is complete
  iapply (blk_wait_gr_dep m ρ K c (4 : Fin 8) (0 : Fin 4) 110 (credit_any _)) $$ [Hdgr Hpos Hdone HO]
  · iframe # ∗
    isplitr
    · imemq
    · imay
  iintro ⟨Hdgr, Hpos, Hdone, Hret, HO⟩
  ihave Hst := (ret_gr m ρ c (4 : Fin 8) (by decide) (0 : Fin 4) (12 : Fin 16) (by decide)) $$ Hret
  ihave Hfin := (blk_fin_put m ρ c (12 : Fin 16) (0 : Fin 4) _) $$ [Hst Hfin]
  · iframe
    all_goals imemq
  first | iapply (wp_ret_bind c _ _ _) | skip
  try sl_exec
  -- the departure of the gather-left step 4, strip 0 is complete
  iapply (blk_wait_gl_dep m ρ K c (4 : Fin 7) (0 : Fin 4) 110 (credit_any _)) $$ [Hdgl Hpos Hdone HO]
  · iframe # ∗
    isplitr
    · imemq
    · imay
  iintro ⟨Hdgl, Hpos, Hdone, Hret, HO⟩
  ihave Hst := (ret_gl m ρ c (4 : Fin 7) (by decide) (0 : Fin 4) (4 : Fin 16) (by decide)) $$ Hret
  ihave Hfin := (blk_fin_put m ρ c (4 : Fin 16) (0 : Fin 4) _) $$ [Hst Hfin]
  · iframe
    all_goals imemq
  first | iapply (wp_ret_bind c _ _ _) | skip
  try sl_exec
  -- the departure of the gather-right step 4, strip 1 is complete
  iapply (blk_wait_gr_dep m ρ K c (4 : Fin 8) (1 : Fin 4) 110 (credit_any _)) $$ [Hdgr Hpos Hdone HO]
  · iframe # ∗
    isplitr
    · imemq
    · imay
  iintro ⟨Hdgr, Hpos, Hdone, Hret, HO⟩
  ihave Hst := (ret_gr m ρ c (4 : Fin 8) (by decide) (1 : Fin 4) (12 : Fin 16) (by decide)) $$ Hret
  ihave Hfin := (blk_fin_put m ρ c (12 : Fin 16) (1 : Fin 4) _) $$ [Hst Hfin]
  · iframe
    all_goals imemq
  first | iapply (wp_ret_bind c _ _ _) | skip
  try sl_exec
  -- the departure of the gather-left step 4, strip 1 is complete
  iapply (blk_wait_gl_dep m ρ K c (4 : Fin 7) (1 : Fin 4) 110 (credit_any _)) $$ [Hdgl Hpos Hdone HO]
  · iframe # ∗
    isplitr
    · imemq
    · imay
  iintro ⟨Hdgl, Hpos, Hdone, Hret, HO⟩
  ihave Hst := (ret_gl m ρ c (4 : Fin 7) (by decide) (1 : Fin 4) (4 : Fin 16) (by decide)) $$ Hret
  ihave Hfin := (blk_fin_put m ρ c (4 : Fin 16) (1 : Fin 4) _) $$ [Hst Hfin]
  · iframe
    all_goals imemq
  first | iapply (wp_ret_bind c _ _ _) | skip
  try sl_exec
  -- the departure of the gather-right step 4, strip 2 is complete
  iapply (blk_wait_gr_dep m ρ K c (4 : Fin 8) (2 : Fin 4) 110 (credit_any _)) $$ [Hdgr Hpos Hdone HO]
  · iframe # ∗
    isplitr
    · imemq
    · imay
  iintro ⟨Hdgr, Hpos, Hdone, Hret, HO⟩
  ihave Hst := (ret_gr m ρ c (4 : Fin 8) (by decide) (2 : Fin 4) (12 : Fin 16) (by decide)) $$ Hret
  ihave Hfin := (blk_fin_put m ρ c (12 : Fin 16) (2 : Fin 4) _) $$ [Hst Hfin]
  · iframe
    all_goals imemq
  first | iapply (wp_ret_bind c _ _ _) | skip
  try sl_exec
  -- the departure of the gather-left step 4, strip 2 is complete
  iapply (blk_wait_gl_dep m ρ K c (4 : Fin 7) (2 : Fin 4) 110 (credit_any _)) $$ [Hdgl Hpos Hdone HO]
  · iframe # ∗
    isplitr
    · imemq
    · imay
  iintro ⟨Hdgl, Hpos, Hdone, Hret, HO⟩
  ihave Hst := (ret_gl m ρ c (4 : Fin 7) (by decide) (2 : Fin 4) (4 : Fin 16) (by decide)) $$ Hret
  ihave Hfin := (blk_fin_put m ρ c (4 : Fin 16) (2 : Fin 4) _) $$ [Hst Hfin]
  · iframe
    all_goals imemq
  first | iapply (wp_ret_bind c _ _ _) | skip
  try sl_exec
  -- the departure of the gather-right step 4, strip 3 is complete
  iapply (blk_wait_gr_dep m ρ K c (4 : Fin 8) (3 : Fin 4) 110 (credit_any _)) $$ [Hdgr Hpos Hdone HO]
  · iframe # ∗
    isplitr
    · imemq
    · imay
  iintro ⟨Hdgr, Hpos, Hdone, Hret, HO⟩
  ihave Hst := (ret_gr m ρ c (4 : Fin 8) (by decide) (3 : Fin 4) (12 : Fin 16) (by decide)) $$ Hret
  ihave Hfin := (blk_fin_put m ρ c (12 : Fin 16) (3 : Fin 4) _) $$ [Hst Hfin]
  · iframe
    all_goals imemq
  first | iapply (wp_ret_bind c _ _ _) | skip
  try sl_exec
  -- the departure of the gather-left step 4, strip 3 is complete
  iapply (blk_wait_gl_dep m ρ K c (4 : Fin 7) (3 : Fin 4) 110 (credit_any _)) $$ [Hdgl Hpos Hdone HO]
  · iframe # ∗
    isplitr
    · imemq
    · imay
  iintro ⟨Hdgl, Hpos, Hdone, Hret, HO⟩
  ihave Hst := (ret_gl m ρ c (4 : Fin 7) (by decide) (3 : Fin 4) (4 : Fin 16) (by decide)) $$ Hret
  ihave Hfin := (blk_fin_put m ρ c (4 : Fin 16) (3 : Fin 4) _) $$ [Hst Hfin]
  · iframe
    all_goals imemq
  first | iapply (wp_ret_bind c _ _ _) | skip
  try sl_exec
  -- the finished strip at distance 10 has arrived from the neighbour before (gather rightwards, step 5, strip 0)
  iapply (blk_wait_gr_arr m ρ K c (5 : Fin 8) (0 : Fin 4) 110 (credit_any _)) $$ [Hcgr Hpos Hdone HO]
  · iframe # ∗
    isplitr
    · imemq
    · imay
  iintro ⟨Hcgr, Hpos, Hdone, Hst, HO⟩
  ihave Hst := (fwd_gr m ρ c (5 : Fin 8) (by decide) (0 : Fin 4)) $$ Hst
  first | iapply (wp_ret_bind c _ _ _) | skip
  try sl_exec
  -- gather rightwards, step 6, strip 0: the finished strip at distance 10 goes on to the neighbour after
  iapply (blk_gr_send m ρ K c (6 : Fin 8) (0 : Fin 4) 110 _ (dev111_eq c _) (off6_eq c (6 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 6 has arrived from the neighbour after (gather leftwards, step 5, strip 0)
  iapply (blk_wait_gl_arr m ρ K c (5 : Fin 7) (0 : Fin 4) 111 (credit_any _)) $$ [Hcgl Hpos Hdone HO]
  · iframe # ∗
    isplitr
    · imemq
    · imay
  iintro ⟨Hcgl, Hpos, Hdone, Hst, HO⟩
  ihave Hst := (fwd_gl m ρ c (5 : Fin 7) (by decide) (0 : Fin 4)) $$ Hst
  first | iapply (wp_ret_bind c _ _ _) | skip
  try sl_exec
  -- gather leftwards, step 6, strip 0: the finished strip at distance 6 goes on to the neighbour before
  iapply (blk_gl_send m ρ K c (6 : Fin 7) (0 : Fin 4) 111 _ (dev112_eq c _) (off7_eq c (6 : Fin 7) (0 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 10 has arrived from the neighbour before (gather rightwards, step 5, strip 1)
  iapply (blk_wait_gr_arr m ρ K c (5 : Fin 8) (1 : Fin 4) 112 (credit_any _)) $$ [Hcgr Hpos Hdone HO]
  · iframe # ∗
    isplitr
    · imemq
    · imay
  iintro ⟨Hcgr, Hpos, Hdone, Hst, HO⟩
  ihave Hst := (fwd_gr m ρ c (5 : Fin 8) (by decide) (1 : Fin 4)) $$ Hst
  first | iapply (wp_ret_bind c _ _ _) | skip
  try sl_exec
  -- gather rightwards, step 6, strip 1: the finished strip at distance 10 goes on to the neighbour after
  iapply (blk_gr_send m ρ K c (6 : Fin 8) (1 : Fin 4) 112 _ (dev113_eq c _) (off6_eq c (6 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 6 has arrived from the neighbour after (gather leftwards, step 5, strip 1)
  iapply (blk_wait_gl_arr m ρ K c (5 : Fin 7) (1 : Fin 4) 113 (credit_any _)) $$ [Hcgl Hpos Hdone HO]
  · iframe # ∗
    isplitr
    · imemq
    · imay
  iintro ⟨Hcgl, Hpos, Hdone, Hst, HO⟩
  ihave Hst := (fwd_gl m ρ c (5 : Fin 7) (by decide) (1 : Fin 4)) $$ Hst
  first | iapply (wp_ret_bind c _ _ _) | skip
  try sl_exec
  -- gather leftwards, step 6, strip 1: the finished strip at distance 6 goes on to the neighbour before
  iapply (blk_gl_send m ρ K c (6 : Fin 7) (1 : Fin 4) 113 _ (dev114_eq c _) (off7_eq c (6 : Fin 7) (1 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 10 has arrived from the neighbour before (gather rightwards, step 5, strip 2)
  iapply (blk_wait_gr_arr m ρ K c (5 : Fin 8) (2 : Fin 4) 114 (credit_any _)) $$ [Hcgr Hpos Hdone HO]
  · iframe # ∗
    isplitr
    · imemq
    · imay
  iintro ⟨Hcgr, Hpos, Hdone, Hst, HO⟩
  ihave Hst := (fwd_gr m ρ c (5 : Fin 8) (by decide) (2 : Fin 4)) $$ Hst
  first | iapply (wp_ret_bind c _ _ _) | skip
  try sl_exec
  -- gather rightwards, step 6, strip 2: the finished strip at distance 10 goes on to the neighbour after
  iapply (blk_gr_send m ρ K c (6 : Fin 8) (2 : Fin 4) 114 _ (dev115_eq c _) (off6_eq c (6 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 6 has arrived from the neighbour after (gather leftwards, step 5, strip 2)
  iapply (blk_wait_gl_arr m ρ K c (5 : Fin 7) (2 : Fin 4) 115 (credit_any _)) $$ [Hcgl Hpos Hdone HO]
  · iframe # ∗
    isplitr
    · imemq
    · imay
  iintro ⟨Hcgl, Hpos, Hdone, Hst, HO⟩
  ihave Hst := (fwd_gl m ρ c (5 : Fin 7) (by decide) (2 : Fin 4)) $$ Hst
  first | iapply (wp_ret_bind c _ _ _) | skip
  try sl_exec
  -- gather leftwards, step 6, strip 2: the finished strip at distance 6 goes on to the neighbour before
  iapply (blk_gl_send m ρ K c (6 : Fin 7) (2 : Fin 4) 115 _ (dev116_eq c _) (off7_eq c (6 : Fin 7) (2 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 10 has arrived from the neighbour before (gather rightwards, step 5, strip 3)
  iapply (blk_wait_gr_arr m ρ K c (5 : Fin 8) (3 : Fin 4) 116 (credit_any _)) $$ [Hcgr Hpos Hdone HO]
  · iframe # ∗
    isplitr
    · imemq
    · imay
  iintro ⟨Hcgr, Hpos, Hdone, Hst, HO⟩
  ihave Hst := (fwd_gr m ρ c (5 : Fin 8) (by decide) (3 : Fin 4)) $$ Hst
  first | iapply (wp_ret_bind c _ _ _) | skip
  try sl_exec
  -- gather rightwards, step 6, strip 3: the finished strip at distance 10 goes on to the neighbour after
  iapply (blk_gr_send m ρ K c (6 : Fin 8) (3 : Fin 4) 116 _ (dev117_eq c _) (off6_eq c (6 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 6 has arrived from the neighbour after (gather leftwards, step 5, strip 3)
  iapply (blk_wait_gl_arr m ρ K c (5 : Fin 7) (3 : Fin 4) 117 (credit_any _)) $$ [Hcgl Hpos Hdone HO]
  · iframe # ∗
    isplitr
    · imemq
    · imay
  iintro ⟨Hcgl, Hpos, Hdone, Hst, HO⟩
  ihave Hst := (fwd_gl m ρ c (5 : Fin 7) (by decide) (3 : Fin 4)) $$ Hst
  first | iapply (wp_ret_bind c _ _ _) | skip
  try sl_exec
  -- gather leftwards, step 6, strip 3: the finished strip at distance 6 goes on to the neighbour before
  iapply (blk_gl_send m ρ K c (6 : Fin 7) (3 : Fin 4) 117 _ (dev118_eq c _) (off7_eq c (6 : Fin 7) (3 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the departure of the gather-right step 5, strip 0 is complete
  iapply (blk_wait_gr_dep m ρ K c (5 : Fin 8) (0 : Fin 4) 118 (credit_any _)) $$ [Hdgr Hpos Hdone HO]
  · iframe # ∗
    isplitr
    · imemq
    · imay
  iintro ⟨Hdgr, Hpos, Hdone, Hret, HO⟩
  ihave Hst := (ret_gr m ρ c (5 : Fin 8) (by decide) (0 : Fin 4) (11 : Fin 16) (by decide)) $$ Hret
  ihave Hfin := (blk_fin_put m ρ c (11 : Fin 16) (0 : Fin 4) _) $$ [Hst Hfin]
  · iframe
    all_goals imemq
  first | iapply (wp_ret_bind c _ _ _) | skip
  try sl_exec
  -- the departure of the gather-left step 5, strip 0 is complete
  iapply (blk_wait_gl_dep m ρ K c (5 : Fin 7) (0 : Fin 4) 118 (credit_any _)) $$ [Hdgl Hpos Hdone HO]
  · iframe # ∗
    isplitr
    · imemq
    · imay
  iintro ⟨Hdgl, Hpos, Hdone, Hret, HO⟩
  ihave Hst := (ret_gl m ρ c (5 : Fin 7) (by decide) (0 : Fin 4) (5 : Fin 16) (by decide)) $$ Hret
  ihave Hfin := (blk_fin_put m ρ c (5 : Fin 16) (0 : Fin 4) _) $$ [Hst Hfin]
  · iframe
    all_goals imemq
  first | iapply (wp_ret_bind c _ _ _) | skip
  try sl_exec
  -- the departure of the gather-right step 5, strip 1 is complete
  iapply (blk_wait_gr_dep m ρ K c (5 : Fin 8) (1 : Fin 4) 118 (credit_any _)) $$ [Hdgr Hpos Hdone HO]
  · iframe # ∗
    isplitr
    · imemq
    · imay
  iintro ⟨Hdgr, Hpos, Hdone, Hret, HO⟩
  ihave Hst := (ret_gr m ρ c (5 : Fin 8) (by decide) (1 : Fin 4) (11 : Fin 16) (by decide)) $$ Hret
  ihave Hfin := (blk_fin_put m ρ c (11 : Fin 16) (1 : Fin 4) _) $$ [Hst Hfin]
  · iframe
    all_goals imemq
  first | iapply (wp_ret_bind c _ _ _) | skip
  try sl_exec
  -- the departure of the gather-left step 5, strip 1 is complete
  iapply (blk_wait_gl_dep m ρ K c (5 : Fin 7) (1 : Fin 4) 118 (credit_any _)) $$ [Hdgl Hpos Hdone HO]
  · iframe # ∗
    isplitr
    · imemq
    · imay
  iintro ⟨Hdgl, Hpos, Hdone, Hret, HO⟩
  ihave Hst := (ret_gl m ρ c (5 : Fin 7) (by decide) (1 : Fin 4) (5 : Fin 16) (by decide)) $$ Hret
  ihave Hfin := (blk_fin_put m ρ c (5 : Fin 16) (1 : Fin 4) _) $$ [Hst Hfin]
  · iframe
    all_goals imemq
  first | iapply (wp_ret_bind c _ _ _) | skip
  try sl_exec
  -- the departure of the gather-right step 5, strip 2 is complete
  iapply (blk_wait_gr_dep m ρ K c (5 : Fin 8) (2 : Fin 4) 118 (credit_any _)) $$ [Hdgr Hpos Hdone HO]
  · iframe # ∗
    isplitr
    · imemq
    · imay
  iintro ⟨Hdgr, Hpos, Hdone, Hret, HO⟩
  ihave Hst := (ret_gr m ρ c (5 : Fin 8) (by decide) (2 : Fin 4) (11 : Fin 16) (by decide)) $$ Hret
  ihave Hfin := (blk_fin_put m ρ c (11 : Fin 16) (2 : Fin 4) _) $$ [Hst Hfin]
  · iframe
    all_goals imemq
  first | iapply (wp_ret_bind c _ _ _) | skip
  try sl_exec
  -- the departure of the gather-left step 5, strip 2 is complete
  iapply (blk_wait_gl_dep m ρ K c (5 : Fin 7) (2 : Fin 4) 118 (credit_any _)) $$ [Hdgl Hpos Hdone HO]
  · iframe # ∗
    isplitr
    · imemq
    · imay
  iintro ⟨Hdgl, Hpos, Hdone, Hret, HO⟩
  ihave Hst := (ret_gl m ρ c (5 : Fin 7) (by decide) (2 : Fin 4) (5 : Fin 16) (by decide)) $$ Hret
  ihave Hfin := (blk_fin_put m ρ c (5 : Fin 16) (2 : Fin 4) _) $$ [Hst Hfin]
  · iframe
    all_goals imemq
  first | iapply (wp_ret_bind c _ _ _) | skip
  try sl_exec
  -- the departure of the gather-right step 5, strip 3 is complete
  iapply (blk_wait_gr_dep m ρ K c (5 : Fin 8) (3 : Fin 4) 118 (credit_any _)) $$ [Hdgr Hpos Hdone HO]
  · iframe # ∗
    isplitr
    · imemq
    · imay
  iintro ⟨Hdgr, Hpos, Hdone, Hret, HO⟩
  ihave Hst := (ret_gr m ρ c (5 : Fin 8) (by decide) (3 : Fin 4) (11 : Fin 16) (by decide)) $$ Hret
  ihave Hfin := (blk_fin_put m ρ c (11 : Fin 16) (3 : Fin 4) _) $$ [Hst Hfin]
  · iframe
    all_goals imemq
  first | iapply (wp_ret_bind c _ _ _) | skip
  try sl_exec
  -- the departure of the gather-left step 5, strip 3 is complete
  iapply (blk_wait_gl_dep m ρ K c (5 : Fin 7) (3 : Fin 4) 118 (credit_any _)) $$ [Hdgl Hpos Hdone HO]
  · iframe # ∗
    isplitr
    · imemq
    · imay
  iintro ⟨Hdgl, Hpos, Hdone, Hret, HO⟩
  ihave Hst := (ret_gl m ρ c (5 : Fin 7) (by decide) (3 : Fin 4) (5 : Fin 16) (by decide)) $$ Hret
  ihave Hfin := (blk_fin_put m ρ c (5 : Fin 16) (3 : Fin 4) _) $$ [Hst Hfin]
  · iframe
    all_goals imemq
  first | iapply (wp_ret_bind c _ _ _) | skip
  try sl_exec
  -- the finished strip at distance 9 has arrived from the neighbour before (gather rightwards, step 6, strip 0)
  iapply (blk_wait_gr_arr m ρ K c (6 : Fin 8) (0 : Fin 4) 118 (credit_any _)) $$ [Hcgr Hpos Hdone HO]
  · iframe # ∗
    isplitr
    · imemq
    · imay
  iintro ⟨Hcgr, Hpos, Hdone, Hst, HO⟩
  ihave Hst := (fwd_gr m ρ c (6 : Fin 8) (by decide) (0 : Fin 4)) $$ Hst
  first | iapply (wp_ret_bind c _ _ _) | skip
  try sl_exec
  -- gather rightwards, step 7, strip 0: the finished strip at distance 9 goes on to the neighbour after
  iapply (blk_gr_send m ρ K c (7 : Fin 8) (0 : Fin 4) 118 _ (dev119_eq c _) (off6_eq c (7 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 9 has arrived from the neighbour before (gather rightwards, step 6, strip 1)
  iapply (blk_wait_gr_arr m ρ K c (6 : Fin 8) (1 : Fin 4) 119 (credit_any _)) $$ [Hcgr Hpos Hdone HO]
  · iframe # ∗
    isplitr
    · imemq
    · imay
  iintro ⟨Hcgr, Hpos, Hdone, Hst, HO⟩
  ihave Hst := (fwd_gr m ρ c (6 : Fin 8) (by decide) (1 : Fin 4)) $$ Hst
  first | iapply (wp_ret_bind c _ _ _) | skip
  try sl_exec
  -- gather rightwards, step 7, strip 1: the finished strip at distance 9 goes on to the neighbour after
  iapply (blk_gr_send m ρ K c (7 : Fin 8) (1 : Fin 4) 119 _ (dev120_eq c _) (off6_eq c (7 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 9 has arrived from the neighbour before (gather rightwards, step 6, strip 2)
  iapply (blk_wait_gr_arr m ρ K c (6 : Fin 8) (2 : Fin 4) 120 (credit_any _)) $$ [Hcgr Hpos Hdone HO]
  · iframe # ∗
    isplitr
    · imemq
    · imay
  iintro ⟨Hcgr, Hpos, Hdone, Hst, HO⟩
  ihave Hst := (fwd_gr m ρ c (6 : Fin 8) (by decide) (2 : Fin 4)) $$ Hst
  first | iapply (wp_ret_bind c _ _ _) | skip
  try sl_exec
  -- gather rightwards, step 7, strip 2: the finished strip at distance 9 goes on to the neighbour after
  iapply (blk_gr_send m ρ K c (7 : Fin 8) (2 : Fin 4) 120 _ (dev121_eq c _) (off6_eq c (7 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 9 has arrived from the neighbour before (gather rightwards, step 6, strip 3)
  iapply (blk_wait_gr_arr m ρ K c (6 : Fin 8) (3 : Fin 4) 121 (credit_any _)) $$ [Hcgr Hpos Hdone HO]
  · iframe # ∗
    isplitr
    · imemq
    · imay
  iintro ⟨Hcgr, Hpos, Hdone, Hst, HO⟩
  ihave Hst := (fwd_gr m ρ c (6 : Fin 8) (by decide) (3 : Fin 4)) $$ Hst
  first | iapply (wp_ret_bind c _ _ _) | skip
  try sl_exec
  -- gather rightwards, step 7, strip 3: the finished strip at distance 9 goes on to the neighbour after
  iapply (blk_gr_send m ρ K c (7 : Fin 8) (3 : Fin 4) 121 _ (dev122_eq c _) (off6_eq c (7 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 7 has arrived from the neighbour after (gather leftwards, step 6, strip 0)
  iapply (blk_wait_gl_arr m ρ K c (6 : Fin 7) (0 : Fin 4) 122 (credit_any _)) $$ [Hcgl Hpos Hdone HO]
  · iframe # ∗
    isplitr
    · imemq
    · imay
  iintro ⟨Hcgl, Hpos, Hdone, Hst, HO⟩
  ihave Hst := (arr_gl m ρ c (6 : Fin 7) (0 : Fin 4) (7 : Fin 16) (by decide)) $$ Hst
  ihave Hfin := (blk_fin_put m ρ c (7 : Fin 16) (0 : Fin 4) _) $$ [Hst Hfin]
  · iframe
    all_goals imemq
  first | iapply (wp_ret_bind c _ _ _) | skip
  try sl_exec
  -- the finished strip at distance 8 has arrived from the neighbour before (gather rightwards, step 7, strip 0)
  iapply (blk_wait_gr_arr m ρ K c (7 : Fin 8) (0 : Fin 4) 122 (credit_any _)) $$ [Hcgr Hpos Hdone HO]
  · iframe # ∗
    isplitr
    · imemq
    · imay
  iintro ⟨Hcgr, Hpos, Hdone, Hst, HO⟩
  ihave Hst := (arr_gr m ρ c (7 : Fin 8) (0 : Fin 4) (8 : Fin 16) (by decide)) $$ Hst
  ihave Hfin := (blk_fin_put m ρ c (8 : Fin 16) (0 : Fin 4) _) $$ [Hst Hfin]
  · iframe
    all_goals imemq
  first | iapply (wp_ret_bind c _ _ _) | skip
  try sl_exec
  -- the finished strip at distance 7 has arrived from the neighbour after (gather leftwards, step 6, strip 1)
  iapply (blk_wait_gl_arr m ρ K c (6 : Fin 7) (1 : Fin 4) 122 (credit_any _)) $$ [Hcgl Hpos Hdone HO]
  · iframe # ∗
    isplitr
    · imemq
    · imay
  iintro ⟨Hcgl, Hpos, Hdone, Hst, HO⟩
  ihave Hst := (arr_gl m ρ c (6 : Fin 7) (1 : Fin 4) (7 : Fin 16) (by decide)) $$ Hst
  ihave Hfin := (blk_fin_put m ρ c (7 : Fin 16) (1 : Fin 4) _) $$ [Hst Hfin]
  · iframe
    all_goals imemq
  first | iapply (wp_ret_bind c _ _ _) | skip
  try sl_exec
  -- the finished strip at distance 8 has arrived from the neighbour before (gather rightwards, step 7, strip 1)
  iapply (blk_wait_gr_arr m ρ K c (7 : Fin 8) (1 : Fin 4) 122 (credit_any _)) $$ [Hcgr Hpos Hdone HO]
  · iframe # ∗
    isplitr
    · imemq
    · imay
  iintro ⟨Hcgr, Hpos, Hdone, Hst, HO⟩
  ihave Hst := (arr_gr m ρ c (7 : Fin 8) (1 : Fin 4) (8 : Fin 16) (by decide)) $$ Hst
  ihave Hfin := (blk_fin_put m ρ c (8 : Fin 16) (1 : Fin 4) _) $$ [Hst Hfin]
  · iframe
    all_goals imemq
  first | iapply (wp_ret_bind c _ _ _) | skip
  try sl_exec
  -- the finished strip at distance 7 has arrived from the neighbour after (gather leftwards, step 6, strip 2)
  iapply (blk_wait_gl_arr m ρ K c (6 : Fin 7) (2 : Fin 4) 122 (credit_any _)) $$ [Hcgl Hpos Hdone HO]
  · iframe # ∗
    isplitr
    · imemq
    · imay
  iintro ⟨Hcgl, Hpos, Hdone, Hst, HO⟩
  ihave Hst := (arr_gl m ρ c (6 : Fin 7) (2 : Fin 4) (7 : Fin 16) (by decide)) $$ Hst
  ihave Hfin := (blk_fin_put m ρ c (7 : Fin 16) (2 : Fin 4) _) $$ [Hst Hfin]
  · iframe
    all_goals imemq
  first | iapply (wp_ret_bind c _ _ _) | skip
  try sl_exec
  -- the finished strip at distance 8 has arrived from the neighbour before (gather rightwards, step 7, strip 2)
  iapply (blk_wait_gr_arr m ρ K c (7 : Fin 8) (2 : Fin 4) 122 (credit_any _)) $$ [Hcgr Hpos Hdone HO]
  · iframe # ∗
    isplitr
    · imemq
    · imay
  iintro ⟨Hcgr, Hpos, Hdone, Hst, HO⟩
  ihave Hst := (arr_gr m ρ c (7 : Fin 8) (2 : Fin 4) (8 : Fin 16) (by decide)) $$ Hst
  ihave Hfin := (blk_fin_put m ρ c (8 : Fin 16) (2 : Fin 4) _) $$ [Hst Hfin]
  · iframe
    all_goals imemq
  first | iapply (wp_ret_bind c _ _ _) | skip
  try sl_exec
  -- the finished strip at distance 7 has arrived from the neighbour after (gather leftwards, step 6, strip 3)
  iapply (blk_wait_gl_arr m ρ K c (6 : Fin 7) (3 : Fin 4) 122 (credit_any _)) $$ [Hcgl Hpos Hdone HO]
  · iframe # ∗
    isplitr
    · imemq
    · imay
  iintro ⟨Hcgl, Hpos, Hdone, Hst, HO⟩
  ihave Hst := (arr_gl m ρ c (6 : Fin 7) (3 : Fin 4) (7 : Fin 16) (by decide)) $$ Hst
  ihave Hfin := (blk_fin_put m ρ c (7 : Fin 16) (3 : Fin 4) _) $$ [Hst Hfin]
  · iframe
    all_goals imemq
  first | iapply (wp_ret_bind c _ _ _) | skip
  try sl_exec
  -- the finished strip at distance 8 has arrived from the neighbour before (gather rightwards, step 7, strip 3)
  iapply (blk_wait_gr_arr m ρ K c (7 : Fin 8) (3 : Fin 4) 122 (credit_any _)) $$ [Hcgr Hpos Hdone HO]
  · iframe # ∗
    isplitr
    · imemq
    · imay
  iintro ⟨Hcgr, Hpos, Hdone, Hst, HO⟩
  ihave Hst := (arr_gr m ρ c (7 : Fin 8) (3 : Fin 4) (8 : Fin 16) (by decide)) $$ Hst
  ihave Hfin := (blk_fin_put m ρ c (8 : Fin 16) (3 : Fin 4) _) $$ [Hst Hfin]
  · iframe
    all_goals imemq
  first | iapply (wp_ret_bind c _ _ _) | skip
  try sl_exec
  -- the departure of the gather-right step 6, strip 0 is complete
  iapply (blk_wait_gr_dep m ρ K c (6 : Fin 8) (0 : Fin 4) 122 (credit_any _)) $$ [Hdgr Hpos Hdone HO]
  · iframe # ∗
    isplitr
    · imemq
    · imay
  iintro ⟨Hdgr, Hpos, Hdone, Hret, HO⟩
  ihave Hst := (ret_gr m ρ c (6 : Fin 8) (by decide) (0 : Fin 4) (10 : Fin 16) (by decide)) $$ Hret
  ihave Hfin := (blk_fin_put m ρ c (10 : Fin 16) (0 : Fin 4) _) $$ [Hst Hfin]
  · iframe
    all_goals imemq
  first | iapply (wp_ret_bind c _ _ _) | skip
  try sl_exec
  -- the departure of the gather-left step 6, strip 0 is complete
  iapply (blk_wait_gl_dep m ρ K c (6 : Fin 7) (0 : Fin 4) 122 (credit_any _)) $$ [Hdgl Hpos Hdone HO]
  · iframe # ∗
    isplitr
    · imemq
    · imay
  iintro ⟨Hdgl, Hpos, Hdone, Hret, HO⟩
  ihave Hst := (ret_gl m ρ c (6 : Fin 7) (by decide) (0 : Fin 4) (6 : Fin 16) (by decide)) $$ Hret
  ihave Hfin := (blk_fin_put m ρ c (6 : Fin 16) (0 : Fin 4) _) $$ [Hst Hfin]
  · iframe
    all_goals imemq
  first | iapply (wp_ret_bind c _ _ _) | skip
  try sl_exec
  -- the departure of the gather-right step 6, strip 1 is complete
  iapply (blk_wait_gr_dep m ρ K c (6 : Fin 8) (1 : Fin 4) 122 (credit_any _)) $$ [Hdgr Hpos Hdone HO]
  · iframe # ∗
    isplitr
    · imemq
    · imay
  iintro ⟨Hdgr, Hpos, Hdone, Hret, HO⟩
  ihave Hst := (ret_gr m ρ c (6 : Fin 8) (by decide) (1 : Fin 4) (10 : Fin 16) (by decide)) $$ Hret
  ihave Hfin := (blk_fin_put m ρ c (10 : Fin 16) (1 : Fin 4) _) $$ [Hst Hfin]
  · iframe
    all_goals imemq
  first | iapply (wp_ret_bind c _ _ _) | skip
  try sl_exec
  -- the departure of the gather-left step 6, strip 1 is complete
  iapply (blk_wait_gl_dep m ρ K c (6 : Fin 7) (1 : Fin 4) 122 (credit_any _)) $$ [Hdgl Hpos Hdone HO]
  · iframe # ∗
    isplitr
    · imemq
    · imay
  iintro ⟨Hdgl, Hpos, Hdone, Hret, HO⟩
  ihave Hst := (ret_gl m ρ c (6 : Fin 7) (by decide) (1 : Fin 4) (6 : Fin 16) (by decide)) $$ Hret
  ihave Hfin := (blk_fin_put m ρ c (6 : Fin 16) (1 : Fin 4) _) $$ [Hst Hfin]
  · iframe
    all_goals imemq
  first | iapply (wp_ret_bind c _ _ _) | skip
  try sl_exec
  -- the departure of the gather-right step 6, strip 2 is complete
  iapply (blk_wait_gr_dep m ρ K c (6 : Fin 8) (2 : Fin 4) 122 (credit_any _)) $$ [Hdgr Hpos Hdone HO]
  · iframe # ∗
    isplitr
    · imemq
    · imay
  iintro ⟨Hdgr, Hpos, Hdone, Hret, HO⟩
  ihave Hst := (ret_gr m ρ c (6 : Fin 8) (by decide) (2 : Fin 4) (10 : Fin 16) (by decide)) $$ Hret
  ihave Hfin := (blk_fin_put m ρ c (10 : Fin 16) (2 : Fin 4) _) $$ [Hst Hfin]
  · iframe
    all_goals imemq
  first | iapply (wp_ret_bind c _ _ _) | skip
  try sl_exec
  -- the departure of the gather-left step 6, strip 2 is complete
  iapply (blk_wait_gl_dep m ρ K c (6 : Fin 7) (2 : Fin 4) 122 (credit_any _)) $$ [Hdgl Hpos Hdone HO]
  · iframe # ∗
    isplitr
    · imemq
    · imay
  iintro ⟨Hdgl, Hpos, Hdone, Hret, HO⟩
  ihave Hst := (ret_gl m ρ c (6 : Fin 7) (by decide) (2 : Fin 4) (6 : Fin 16) (by decide)) $$ Hret
  ihave Hfin := (blk_fin_put m ρ c (6 : Fin 16) (2 : Fin 4) _) $$ [Hst Hfin]
  · iframe
    all_goals imemq
  first | iapply (wp_ret_bind c _ _ _) | skip
  try sl_exec
  -- the departure of the gather-right step 6, strip 3 is complete
  iapply (blk_wait_gr_dep m ρ K c (6 : Fin 8) (3 : Fin 4) 122 (credit_any _)) $$ [Hdgr Hpos Hdone HO]
  · iframe # ∗
    isplitr
    · imemq
    · imay
  iintro ⟨Hdgr, Hpos, Hdone, Hret, HO⟩
  ihave Hst := (ret_gr m ρ c (6 : Fin 8) (by decide) (3 : Fin 4) (10 : Fin 16) (by decide)) $$ Hret
  ihave Hfin := (blk_fin_put m ρ c (10 : Fin 16) (3 : Fin 4) _) $$ [Hst Hfin]
  · iframe
    all_goals imemq
  first | iapply (wp_ret_bind c _ _ _) | skip
  try sl_exec
  -- the departure of the gather-left step 6, strip 3 is complete
  iapply (blk_wait_gl_dep m ρ K c (6 : Fin 7) (3 : Fin 4) 122 (credit_any _)) $$ [Hdgl Hpos Hdone HO]
  · iframe # ∗
    isplitr
    · imemq
    · imay
  iintro ⟨Hdgl, Hpos, Hdone, Hret, HO⟩
  ihave Hst := (ret_gl m ρ c (6 : Fin 7) (by decide) (3 : Fin 4) (6 : Fin 16) (by decide)) $$ Hret
  ihave Hfin := (blk_fin_put m ρ c (6 : Fin 16) (3 : Fin 4) _) $$ [Hst Hfin]
  · iframe
    all_goals imemq
  first | iapply (wp_ret_bind c _ _ _) | skip
  try sl_exec
  -- the departure of the gather-right step 7, strip 0 is complete
  iapply (blk_wait_gr_dep m ρ K c (7 : Fin 8) (0 : Fin 4) 122 (credit_any _)) $$ [Hdgr Hpos Hdone HO]
  · iframe # ∗
    isplitr
    · imemq
    · imay
  iintro ⟨Hdgr, Hpos, Hdone, Hret, HO⟩
  ihave Hst := (ret_gr m ρ c (7 : Fin 8) (by decide) (0 : Fin 4) (9 : Fin 16) (by decide)) $$ Hret
  ihave Hfin := (blk_fin_put m ρ c (9 : Fin 16) (0 : Fin 4) _) $$ [Hst Hfin]
  · iframe
    all_goals imemq
  first | iapply (wp_ret_bind c _ _ _) | skip
  try sl_exec
  -- the departure of the gather-right step 7, strip 1 is complete
  iapply (blk_wait_gr_dep m ρ K c (7 : Fin 8) (1 : Fin 4) 122 (credit_any _)) $$ [Hdgr Hpos Hdone HO]
  · iframe # ∗
    isplitr
    · imemq
    · imay
  iintro ⟨Hdgr, Hpos, Hdone, Hret, HO⟩
  ihave Hst := (ret_gr m ρ c (7 : Fin 8) (by decide) (1 : Fin 4) (9 : Fin 16) (by decide)) $$ Hret
  ihave Hfin := (blk_fin_put m ρ c (9 : Fin 16) (1 : Fin 4) _) $$ [Hst Hfin]
  · iframe
    all_goals imemq
  first | iapply (wp_ret_bind c _ _ _) | skip
  try sl_exec
  -- the departure of the gather-right step 7, strip 2 is complete
  iapply (blk_wait_gr_dep m ρ K c (7 : Fin 8) (2 : Fin 4) 122 (credit_any _)) $$ [Hdgr Hpos Hdone HO]
  · iframe # ∗
    isplitr
    · imemq
    · imay
  iintro ⟨Hdgr, Hpos, Hdone, Hret, HO⟩
  ihave Hst := (ret_gr m ρ c (7 : Fin 8) (by decide) (2 : Fin 4) (9 : Fin 16) (by decide)) $$ Hret
  ihave Hfin := (blk_fin_put m ρ c (9 : Fin 16) (2 : Fin 4) _) $$ [Hst Hfin]
  · iframe
    all_goals imemq
  first | iapply (wp_ret_bind c _ _ _) | skip
  try sl_exec
  -- the departure of the gather-right step 7, strip 3 is complete
  iapply (blk_wait_gr_dep m ρ K c (7 : Fin 8) (3 : Fin 4) 122 (credit_any _)) $$ [Hdgr Hpos Hdone HO]
  · iframe # ∗
    isplitr
    · imemq
    · imay
  iintro ⟨Hdgr, Hpos, Hdone, Hret, HO⟩
  ihave Hst := (ret_gr m ρ c (7 : Fin 8) (by decide) (3 : Fin 4) (9 : Fin 16) (by decide)) $$ Hret
  ihave Hfin := (blk_fin_put m ρ c (9 : Fin 16) (3 : Fin 4) _) $$ [Hst Hfin]
  · iframe
    all_goals imemq
  first | iapply (wp_ret_bind c _ _ _) | skip
  try sl_exec
  -- every family is complete: all 240 transfer cells waited for, all 64 output strips at their final value, all the
  -- strips of the two receive buffers back
  ihave Hdone := (fam_congr (doneΦ (F := F) c) (T := Finset.univ.erase (0 : Fin 241)) (by decide +kernel)) $$ Hdone
  ihave Hfin := (fam_congr (outΦ c (finV m ρ c)) (T := Finset.univ) (by decide +kernel)) $$ Hfin
  ihave Hlb := (fam_congr (lbΦ (F := F) c) (T := Finset.univ) (by decide +kernel)) $$ Hlb
  ihave Hrb := (fam_congr (rbΦ (F := F) c) (T := Finset.univ) (by decide +kernel)) $$ Hrb
  -- the return: what the device leaves
  imod (ending m ρ K c _) $$ [Hdone Hfin Hlb Hrb HO Hx Hw] with Hpost
  · isplitr
    · iexact Hrec
    isplitl [Hdone]
    · iexact Hdone
    isplitl [Hfin]
    · iexact Hfin
    isplitl [Hlb]
    · iexact Hlb
    isplitl [Hrb]
    · iexact Hrb
    isplitl [HO]
    · iexact HO
    isplitl [Hx]
    · iexact Hx
    iexact Hw
  sl_step
  iapply Hk
  iexact Hpost

/-- info: 'Cert.KernelIdeal.Hand.sound_body' depends on axioms: [propext, Classical.choice, Quot.sound] -/
#guard_msgs in #print axioms sound_body

end Cert.KernelIdeal.Hand
end
-- ==== Proof.Bits.Ring.lean ====
/-
  The ring the sixteen devices form. Device `i` sits at coordinates `(i / 4, i % 4)` of a 4 x 4 torus; the ring
  walks column 0 downwards, column 1 upwards, column 2 downwards and column 3 upwards, so that consecutive positions
  are torus neighbours. `posOf` is a device's position on that walk, `devAt` the device at a position; they are
  inverse bijections, and a device's two neighbours are the devices one position before and after it (mod 16).
-/
import proofs.«900799_g7700000000000800_dist_gemm_ar_m1024_k1024_n1024_f32_gelu_v7x_i16_1_alg».proof.Kernel

namespace Cert.Kernel.Hand

open Idealize.ShloMosaic

/-- Position on the ring of device `c`. -/
def posOf (c : Dev nD) : Fin 16 :=
  ⟨(if c.val % 4 = 0 then c.val / 4 else if c.val % 4 = 1 then 7 - c.val / 4
      else if c.val % 4 = 2 then 8 + c.val / 4 else 15 - c.val / 4) % 16, Nat.mod_lt _ (by decide)⟩

/-- The device at ring position `p`. -/
def devAt (p : Fin 16) : Dev nD :=
  ⟨(if p.val < 4 then 4 * p.val else if p.val < 8 then 29 - 4 * p.val
      else if p.val < 12 then 4 * p.val - 30 else 63 - 4 * p.val) % 16, Nat.mod_lt _ (by decide)⟩

theorem devAt_posOf (c : Dev nD) : devAt (posOf c) = c := by revert c; decide
theorem posOf_devAt (p : Fin 16) : posOf (devAt p) = p := by revert p; decide

/-- The neighbour one position before `c` on the ring (the kernel's `left`). -/
def lft (c : Dev nD) : Dev nD := devAt (posOf c - 1)
/-- The neighbour one position after `c` on the ring (the kernel's `right`). -/
def rgt (c : Dev nD) : Dev nD := devAt (posOf c + 1)

theorem lft_rgt (c : Dev nD) : lft (rgt c) = c := by revert c; decide
theorem rgt_lft (c : Dev nD) : rgt (lft c) = c := by revert c; decide
theorem lft_ne_rgt (c : Dev nD) : lft c ≠ rgt c := by revert c; decide
theorem lft_ne_self (c : Dev nD) : lft c ≠ c := by revert c; decide
theorem rgt_ne_self (c : Dev nD) : rgt c ≠ c := by revert c; decide
theorem posOf_lft (c : Dev nD) : posOf (lft c) = posOf c - 1 := by revert c; decide
theorem posOf_rgt (c : Dev nD) : posOf (rgt c) = posOf c + 1 := by revert c; decide

/-- First row of chunk `k` (64 rows each) counted from the device's own position: chunk `(posOf c + a) % 16`. -/
def chunkRow (c : Dev nD) (a : Nat) : Nat := 64 * (((posOf c).val + a) % 16)

theorem chunkRow_le (c : Dev nD) (a : Nat) : chunkRow c a + 64 ≤ 1024 := by
  unfold chunkRow; have := Nat.mod_lt ((posOf c).val + a) (by decide : 0 < 16); omega

end Cert.Kernel.Hand
-- ==== Proof.Bits.Common.lean ====
/-
  Common definitions for the ring all-reduce: the pieces of the buffers that travel (a strip is 16 rows of a 64-row
  chunk), the semaphore cells, and the values the protocol moves.

  Each device first holds its partial product `part c = x_c · w_c` (1024 x 1024). Chunks are numbered by their
  distance `a` from the device's own ring position. In the reduce phase the chunks at distance 8..15 travel left and
  the chunks at distance 1..7 travel right, each hop adding the hop's own partial product; after eight (seven) hops
  the chunk at distance 0 of each device holds the sum over all sixteen devices, to which GELU is applied; in the
  gather phase the finished chunks travel right (eight hops) and left (seven hops).
-/
import proofs.«900799_g7700000000000800_dist_gemm_ar_m1024_k1024_n1024_f32_gelu_v7x_i16_1_alg».proof.Proof.Bits.Ring
import proofs.«900799_g7700000000000800_dist_gemm_ar_m1024_k1024_n1024_f32_gelu_v7x_i16_1_alg».proof.Proof.Gen.Kernel
import proofs.«900799_g7700000000000800_dist_gemm_ar_m1024_k1024_n1024_f32_gelu_v7x_i16_1_alg».proof.Proof.Gen.Kernel.Skeleton
import proofs.«900799_g7700000000000800_dist_gemm_ar_m1024_k1024_n1024_f32_gelu_v7x_i16_1_alg».proof.Proof.Gen.Kernel.Launch
import proofs.«900799_g7700000000000800_dist_gemm_ar_m1024_k1024_n1024_f32_gelu_v7x_i16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The buffers and their strips -/

abbrev xM : Memref sig .tc .vmem S1024x64 .f32 := Memref.whole cc0_stg0_0
abbrev wM : Memref sig .tc .vmem S64x1024 .f32 := Memref.whole cc0_stg1_0
abbrev oM : Memref sig .tc .vmem S1024x1024 .f32 := Memref.whole cc0_stg2_0
abbrev lM : Memref sig .tc .vmem S8x64x1024 .f32 := Memref.whole cc0_scratch0
abbrev rM : Memref sig .tc .vmem S7x64x1024 .f32 := Memref.whole cc0_scratch1

theorem oRow_inb (row : ℕ) (h : row + 16 ≤ 1024) : ∀ a, (![row, 0] : Fin 2 → Nat) a + S16x1024.size a ≤ S1024x1024.size a := by
  intro a; fin_cases a
  · show row + 16 ≤ 1024; exact h
  · show 0 + 1024 ≤ 1024; omega

/-- Sixteen rows of the output buffer from row `row`. -/
abbrev oRect (row : ℕ) (h : row + 16 ≤ 1024) : Rect S1024x1024 := Rect.unit (s := S1024x1024) ![row, 0] S16x1024.size (oRow_inb row h)
abbrev oP (row : ℕ) (h : row + 16 ≤ 1024) : Memref sig .tc .vmem S16x1024 .f32 := (oM).slice (oRect row h) (fun _ => rfl)

theorem stripRow_le (c : Dev nD) (a : ℕ) (j : Fin 4) : chunkRow c a + 16 * j.val + 16 ≤ 1024 := by
  have := chunkRow_le c a; have := j.isLt; omega

/-- Strip `j` of the chunk at distance `a` from device `c`'s own position, in the output buffer. -/
abbrev oS (c : Dev nD) (a : ℕ) (j : Fin 4) : Memref sig .tc .vmem S16x1024 .f32 := oP (chunkRow c a + 16 * j.val) (stripRow_le c a j)

theorem lSlot_inb (s : Fin 8) (j : Fin 4) : ∀ a, (![s.val, 16 * j.val, 0] : Fin 3 → Nat) a + S1x16x1024.size a ≤ S8x64x1024.size a := by
  intro a; have := s.isLt; have := j.isLt; fin_cases a
  · show s.val + 1 ≤ 8; omega
  · show 16 * j.val + 16 ≤ 64; omega
  · show 0 + 1024 ≤ 1024; omega
theorem rSlot_inb (s : Fin 7) (j : Fin 4) : ∀ a, (![s.val, 16 * j.val, 0] : Fin 3 → Nat) a + S1x16x1024.size a ≤ S7x64x1024.size a := by
  intro a; have := s.isLt; have := j.isLt; fin_cases a
  · show s.val + 1 ≤ 7; omega
  · show 16 * j.val + 16 ≤ 64; omega
  · show 0 + 1024 ≤ 1024; omega

/-- Slot `s`, strip `j` of the buffer that receives the chunks travelling left (right). -/
abbrev lS (s : Fin 8) (j : Fin 4) : Memref sig .tc .vmem S16x1024 .f32 :=
  ((lM).slice (Rect.unit (s := S8x64x1024) ![s.val, 16 * j.val, 0] S1x16x1024.size (lSlot_inb s j)) (fun _ => rfl)).squeeze S16x1024 squeezes_S1x16x1024_S16x1024
abbrev rS (s : Fin 7) (j : Fin 4) : Memref sig .tc .vmem S16x1024 .f32 :=
  ((rM).slice (Rect.unit (s := S7x64x1024) ![s.val, 16 * j.val, 0] S1x16x1024.size (rSlot_inb s j)) (fun _ => rfl)).squeeze S16x1024 squeezes_S1x16x1024_S16x1024

/-! ## The semaphore cells -/

theorem sem8_inb (d : Fin 2) (s : Fin 8) (j : Fin 4) : ∀ a, (![d.val, s.val, j.val] : Fin 3 → Nat) a + S1x1x1.size a ≤ S2x8x4.size a := by
  intro a; have := d.isLt; have := s.isLt; have := j.isLt; fin_cases a
  · show d.val + 1 ≤ 2; omega
  · show s.val + 1 ≤ 8; omega
  · show j.val + 1 ≤ 4; omega
theorem sem7_inb (d : Fin 2) (s : Fin 7) (j : Fin 4) : ∀ a, (![d.val, s.val, j.val] : Fin 3 → Nat) a + S1x1x1.size a ≤ S2x7x4.size a := by
  intro a; have := d.isLt; have := s.isLt; have := j.isLt; fin_cases a
  · show d.val + 1 ≤ 2; omega
  · show s.val + 1 ≤ 7; omega
  · show j.val + 1 ≤ 4; omega

/-- Entry `[d, s, j]` of a semaphore array of eight (seven) steps: `d = 0` the departure's, `d = 1` the arrival's. -/
abbrev sem8 (A : DmaSems sig S2x8x4) (d : Fin 2) (s : Fin 8) (j : Fin 4) : DmaSem sig :=
  ((A.slice (Rect.unit (s := S2x8x4) ![d.val, s.val, j.val] S1x1x1.size (sem8_inb d s j))).squeeze S_ squeezes_S1x1x1_S_).sem
abbrev sem7 (A : DmaSems sig S2x7x4) (d : Fin 2) (s : Fin 7) (j : Fin 4) : DmaSem sig :=
  ((A.slice (Rect.unit (s := S2x7x4) ![d.val, s.val, j.val] S1x1x1.size (sem7_inb d s j))).squeeze S_ squeezes_S1x1x1_S_).sem

/-- The runtime's barrier semaphore. -/
abbrev barS : Sem sig := (SemArray.scalar (sig.barrier 0 rfl) : Sems sig S_).sem

abbrev barCell (c : Dev nD) : GSem nD τ sig := ((c : Thread nD τ), .reg barS)
/-- The four families of transfer cells on device `c`: reduce leftwards / rightwards, gather rightwards / leftwards. -/
abbrev rlCell (c : Dev nD) (d : Fin 2) (s : Fin 8) (j : Fin 4) : GSem nD τ sig := ((c : Thread nD τ), .dma (sem8 cc0_scratch2 d s j))
abbrev rrCell (c : Dev nD) (d : Fin 2) (s : Fin 7) (j : Fin 4) : GSem nD τ sig := ((c : Thread nD τ), .dma (sem7 cc0_scratch3 d s j))
abbrev grCell (c : Dev nD) (d : Fin 2) (s : Fin 8) (j : Fin 4) : GSem nD τ sig := ((c : Thread nD τ), .dma (sem8 cc0_scratch4 d s j))
abbrev glCell (c : Dev nD) (d : Fin 2) (s : Fin 7) (j : Fin 4) : GSem nD τ sig := ((c : Thread nD τ), .dma (sem7 cc0_scratch5 d s j))

/-- The credit of one strip's transfer. -/
abbrev N16 : ℕ := (oP 0 (by decide) : Memref sig .tc .vmem S16x1024 .f32).view.dmaCredit

/-! ## The values -/

/-- The staged blocks of the two arguments on device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Device `c`'s partial product. -/
def part (c : Dev nD) : (cc0_stg2_0 : Ref sig .tc).ty.Contents (Elt F) := k0_pay1 (xstg m ρ c) (wstg m ρ c)

/-- Strip `j` of the chunk at distance `a` from `c`'s position, of `c`'s partial product. -/
def partS (c : Dev nD) (a : ℕ) (j : Fin 4) : S16x1024.Idx → Elt F .f32 := (oS c a j).view.read (Elt F) (part m ρ c)

/-- The sum of two strips, entry by entry. -/
def addS (u v : S16x1024.Idx → Elt F .f32) : S16x1024.Idx → Elt F .f32 := addf u v

/-- What device `c` sends LEFT at step `s`: the chunk at distance `8 + s`, summed over `c` and the `s` devices after it. -/
def accL : (s : ℕ) → (c : Dev nD) → (j : Fin 4) → S16x1024.Idx → Elt F .f32
  | 0, c, j => partS m ρ c 8 j
  | s + 1, c, j => addS (partS m ρ c (8 + (s + 1)) j) (accL s (rgt c) j)

/-- What device `c` sends RIGHT at step `s`: the chunk at distance `7 - s`, summed over `c` and the `s` devices before it. -/
def accR : (s : ℕ) → (c : Dev nD) → (j : Fin 4) → S16x1024.Idx → Elt F .f32
  | 0, c, j => partS m ρ c 7 j
  | s + 1, c, j => addS (partS m ρ c (7 - (s + 1)) j) (accR s (lft c) j)

/-- The chunk at `c`'s own position summed over all sixteen devices, in the order the kernel adds: own, then the seven
    before it, then the eight after it. -/
def tot (c : Dev nD) (j : Fin 4) : S16x1024.Idx → Elt F .f32 :=
  addS (addS (partS m ρ c 0 j) (accR m ρ 6 (lft c) j)) (accL m ρ 7 (rgt c) j)

/-- GELU of a strip, as the kernel computes it. -/
def geluS (v : S16x1024.Idx → Elt F .f32) : S16x1024.Idx → Elt F .f32 := k0_pay65 (k0_pay63 v) (k0_pay64 v)

/-- The finished strip `j` of the chunk that belongs to the device at ring position `p`. -/
def fin (p : Fin 16) (j : Fin 4) : S16x1024.Idx → Elt F .f32 := geluS (tot m ρ (devAt p) j)

/-! ## The schedule: one round; the barrier cell has two duties, every transfer cell one -/

abbrev f8 (n : ℕ) : Fin 8 := ⟨n % 8, Nat.mod_lt _ (by decide)⟩
abbrev f7 (n : ℕ) : Fin 7 := ⟨n % 7, Nat.mod_lt _ (by decide)⟩
abbrev f4 (n : ℕ) : Fin 4 := ⟨n % 4, Nat.mod_lt _ (by decide)⟩

/-- What the neighbour BEFORE `c` hands `c` with its barrier signal: its buffer for the chunks travelling left. -/
def barF (c : Dev nD) : sProp 𝕄 := iprop(∃ f, ((lft c : Thread nD τ).loc cc0_scratch0) ↦{fullShare} f)
/-- What the neighbour AFTER `c` hands `c`: its buffer for the chunks travelling right. -/
def barT (c : Dev nD) : sProp 𝕄 := iprop(∃ f, ((rgt c : Thread nD τ).loc cc0_scratch1) ↦{fullShare} f)

/-- The arrival on `c` of the left-travelling step `s`: the landed strip, and the strip of the sender's output buffer it was
    read from (now `c`'s to write: the gather phase sends the finished chunk back into it). -/
def rlArr (c : Dev nD) (s : Fin 8) (j : Fin 4) : sProp 𝕄 :=
  iprop(owns (c : Thread nD τ) (lS s j) fullShare (accL m ρ s.val (rgt c) j) ∗ owns (rgt c : Thread nD τ) (oS (rgt c) (8 + s.val) j) fullShare (accL m ρ s.val (rgt c) j))
def rrArr (c : Dev nD) (s : Fin 7) (j : Fin 4) : sProp 𝕄 :=
  iprop(owns (c : Thread nD τ) (rS s j) fullShare (accR m ρ s.val (lft c) j) ∗ owns (lft c : Thread nD τ) (oS (lft c) (7 - s.val) j) fullShare (accR m ρ s.val (lft c) j))

/-- The share of its own finished chunk a device lends each of its two first gather transfers. -/
def shG (left : Bool) (s : ℕ) : PosShare TreeShare := if s = 0 then (if left then fullShare.left else fullShare.right) else fullShare

/-- Gather, travelling right: the departure returns the source strip; the arrival is the finished strip landed. -/
def grDep (c : Dev nD) (s : Fin 8) (j : Fin 4) : sProp 𝕄 :=
  owns (c : Thread nD τ) (oS c (16 - s.val) j) (shG false s.val) (fin m ρ (posOf c - ⟨s.val % 16, Nat.mod_lt _ (by decide)⟩) j)
def grArr (c : Dev nD) (s : Fin 8) (j : Fin 4) : sProp 𝕄 :=
  owns (c : Thread nD τ) (oS c (15 - s.val) j) fullShare (fin m ρ (posOf c - 1 - ⟨s.val % 16, Nat.mod_lt _ (by decide)⟩) j)
def glDep (c : Dev nD) (s : Fin 7) (j : Fin 4) : sProp 𝕄 :=
  owns (c : Thread nD τ) (oS c s.val j) (shG true s.val) (fin m ρ (posOf c + ⟨s.val % 16, Nat.mod_lt _ (by decide)⟩) j)
def glArr (c : Dev nD) (s : Fin 7) (j : Fin 4) : sProp 𝕄 :=
  owns (c : Thread nD τ) (oS c (1 + s.val) j) fullShare (fin m ρ (posOf c + 1 + ⟨s.val % 16, Nat.mod_lt _ (by decide)⟩) j)

/-- The payload of DMA semaphore number `n` of device `c` (3 .. 66 reduce-left, 67 .. 122 reduce-right, 123 .. 186
    gather-right, 187 .. 242 gather-left; within a family the departures first, then the arrivals). -/
def payAt (c : Dev nD) (n : ℕ) : sProp 𝕄 :=
  if n < 3 then iprop(emp)
  else if n < 35 then iprop(emp)
  else if n < 67 then rlArr m ρ c (f8 ((n - 35) / 4)) (f4 (n - 35))
  else if n < 95 then iprop(emp)
  else if n < 123 then rrArr m ρ c (f7 ((n - 95) / 4)) (f4 (n - 95))
  else if n < 155 then grDep m ρ c (f8 ((n - 123) / 4)) (f4 (n - 123))
  else if n < 187 then grArr m ρ c (f8 ((n - 155) / 4)) (f4 (n - 155))
  else if n < 215 then glDep m ρ c (f7 ((n - 187) / 4)) (f4 (n - 187))
  else if n < 243 then glArr m ρ c (f7 ((n - 215) / 4)) (f4 (n - 215))
  else iprop(emp)

def ringRd : Rounds.Schedule (GSem nD τ sig) Bool 𝕄 where
  duties g r := if r = 0 ∧ g.1.2 = .tc then
      (match g.2 with
        | .reg b => if b = barS then Finset.univ else ∅
        | .dma q => if 3 ≤ q.val then {false} else ∅)
    else ∅
  unitless _ := False
  amount g _ _ := match g.2 with | .reg _ => 1 | .dma _ => N16
  payload g _ d := match g.2 with
    | .reg b => if b = barS then (if d then barT g.1.1 else barF g.1.1) else iprop(emp)
    | .dma q => payAt m ρ g.1.1 q.val
  amount_pos g _ _ _ := by
    cases g.2 with
    | reg _ => exact Nat.one_pos
    | dma _ => exact View.dmaCredit_pos _ (by decide)

end Cert.Kernel.Hand

end
-- ==== Proof.Bits.Iface.lean ====
/-
  What the launch and the body agree on: the cells of the ring as one finite family, the payments a device makes
  and what it therefore owes at each moment, the levels that order the waits, the ghost state a device's body starts
  from, and the proof data of the one pipeline point.

  Levels. A device waits on its barrier cell (level 1) after both its signals, on a departure cell (level 0, paid
  by its own transfer) and on its arrival cells, each of which is paid by a neighbour's transfer. Every device runs the
  same text, and in that text every transfer's arrival is waited for AFTER the transfer is started; so giving an arrival
  cell the position in the text of the wait on it, every wait sits below all the arrivals the waiter has yet to pay.
-/
import proofs.«900799_g7700000000000800_dist_gemm_ar_m1024_k1024_n1024_f32_gelu_v7x_i16_1_alg».proof.Proof.Bits.Common
import Idealize.ShloMosaic.Lib.ValueIdx
import Mathlib.Tactic.DeriveFintype

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device, numbered: 0 the barrier cell, `1 + k` DMA semaphore `3 + k` -/

abbrev csem (k : Fin 241) : SemLoc sig :=
  if k.val = 0 then .reg barS else .dma (⟨k.val + 2, by have := k.isLt; show k.val + 2 < 243; omega⟩ : DmaSem sig)
abbrev kcell (ck : Dev nD × Fin 241) : GSem nD τ sig := ((ck.1 : Thread nD τ), csem ck.2)

/-! ## The payments a device makes, and what it owes -/

/-- The two barrier signals and the 120 transfers' arrivals. -/
inductive Pay : Type
  | barL | barR
  | rl (s : Fin 8) (j : Fin 4) | rr (s : Fin 7) (j : Fin 4)
  | gr (s : Fin 8) (j : Fin 4) | gl (s : Fin 7) (j : Fin 4)
  deriving DecidableEq, Fintype

/-- The cell a payment of device `c` credits: reduce-left and gather-left land on the neighbour before `c`,
    reduce-right and gather-right on the neighbour after it. -/
def Pay.cell (c : Dev nD) : Pay → GSem nD τ sig
  | .barL => barCell (lft c) | .barR => barCell (rgt c)
  | .rl s j => rlCell (lft c) 1 s j | .rr s j => rrCell (rgt c) 1 s j
  | .gr s j => grCell (rgt c) 1 s j | .gl s j => glCell (lft c) 1 s j
def Pay.amt : Pay → ℕ
  | .barL => 1 | .barR => 1 | _ => N16

/-- What `c` owes while the payments in `S` are still to come. -/
def owedOf (c : Dev nD) (S : Finset Pay) : CellTallies nD τ sig Unit := ∑ p ∈ S, tallyAt (p.cell c) () p.amt

theorem owedOf_erase (c : Dev nD) (S : Finset Pay) (p : Pay) (h : p ∈ S) :
    owedOf c S = owedOf c (S.erase p) + tallyAt (p.cell c) () p.amt := by
  unfold owedOf; rw [Finset.sum_erase_add _ _ h]

/-! ## Levels -/

/-- The level of the cell with DMA semaphore number `n` (all devices alike): departures 0; an arrival 2 plus the position
    of the wait on it in the kernel's text. -/
def lvN (n : ℕ) : ℕ :=
  if n < 35 then 0
  else if n < 67 then (let s := (n - 35) / 4; let j := (n - 35) % 4; 2 + (if s < 7 then 40 * (s + 1) + 8 * j else 320 + 8 * j + 1))
  else if n < 95 then 0
  else if n < 123 then (let s := (n - 95) / 4; let j := (n - 95) % 4; 2 + (if s < 6 then 40 * (s + 1) + 8 * j + 2 else 320 + 8 * j))
  else if n < 155 then 0
  else if n < 187 then (let s := (n - 155) / 4; let j := (n - 155) % 4; 2 + (if s < 7 then 360 + 40 * s + 8 * j else 640 + 8 * j + 1))
  else if n < 215 then 0
  else (let s := (n - 215) / 4; let j := (n - 215) % 4; 2 + (if s < 6 then 360 + 40 * s + 8 * j + 2 else 640 + 8 * j))

def L (g : GSem nD τ sig) : Finset Unit := if g.1.2 = .tc then {()} else ∅
def lv (g : GSem nD τ sig) (_ : Unit) : ℕ := match g.2 with | .reg _ => 1 | .dma q => lvN q.val

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

/-- Every cell's invariant, under the names `K` the launch allocated them at, and that every cell is at round 0: persistent,
    every device holds all of it. -/
def records (K : Dev nD × Fin 241 → ℕ) : sProp 𝕄 :=
  iprop((bigSep Finset.univ fun ck : Dev nD × Fin 241 => cellInv ER (ringRd m ρ) (K ck) (kcell ck))
    ∗ bigSep Finset.univ fun ck : Dev nD × Fin 241 => reached ER (kcell ck) 0)

instance records_persistent (K : Dev nD × Fin 241 → ℕ) : BI.Persistent (records m ρ K) := by unfold records; infer_instance

/-- The owner's position on each of its 241 cells: round 0, nothing taken. -/
def posOwn (c : Dev nD) : sProp 𝕄 := bigSep Finset.univ fun k : Fin 241 => atPos ER (kcell (c, k)) 0 ∅ 0

/-- The tokens of the duties `c` pays: the neighbours' barrier duties, and for each of its 120 transfers the departure duty
    of its own cell and the arrival duty of the neighbour's. -/
def payToks (c : Dev nD) : sProp 𝕄 :=
  iprop(dutyTok ER (barCell (lft c)) 0 true ∗ dutyTok ER (barCell (rgt c)) 0 false
    ∗ (bigSep Finset.univ fun sj : Fin 8 × Fin 4 => iprop(dutyTok ER (rlCell c 0 sj.1 sj.2) 0 false ∗ dutyTok ER (rlCell (lft c) 1 sj.1 sj.2) 0 false))
    ∗ (bigSep Finset.univ fun sj : Fin 7 × Fin 4 => iprop(dutyTok ER (rrCell c 0 sj.1 sj.2) 0 false ∗ dutyTok ER (rrCell (rgt c) 1 sj.1 sj.2) 0 false))
    ∗ (bigSep Finset.univ fun sj : Fin 8 × Fin 4 => iprop(dutyTok ER (grCell c 0 sj.1 sj.2) 0 false ∗ dutyTok ER (grCell (rgt c) 1 sj.1 sj.2) 0 false))
    ∗ (bigSep Finset.univ fun sj : Fin 7 × Fin 4 => iprop(dutyTok ER (glCell c 0 sj.1 sj.2) 0 false ∗ dutyTok ER (glCell (lft c) 1 sj.1 sj.2) 0 false)))

/-- The credit tokens of what the neighbours owe `c`: two barrier units and each arrival's strip credit. -/
def creds (c : Dev nD) : sProp 𝕄 :=
  iprop(cred (tallyAt (barCell c) () 2)
    ∗ (bigSep Finset.univ fun sj : Fin 8 × Fin 4 => cred (tallyAt (rlCell c 1 sj.1 sj.2) () N16))
    ∗ (bigSep Finset.univ fun sj : Fin 7 × Fin 4 => cred (tallyAt (rrCell c 1 sj.1 sj.2) () N16))
    ∗ (bigSep Finset.univ fun sj : Fin 8 × Fin 4 => cred (tallyAt (grCell c 1 sj.1 sj.2) () N16))
    ∗ (bigSep Finset.univ fun sj : Fin 7 × Fin 4 => cred (tallyAt (glCell c 1 sj.1 sj.2) () N16)))

def ghost (K : Dev nD × Fin 241 → ℕ) (c : Dev nD) : sProp 𝕄 := iprop(records m ρ K ∗ posOwn c ∗ payToks c)

/-- What device `c`'s body starts from, besides its buffers. -/
def start (c : Dev nD) : sProp 𝕄 := iprop((∃ K, ghost m ρ K c) ∗ creds c ∗ levAts L lv)

/-- The two receive buffers, whole, at some contents. -/
def scratch (c : Dev nD) : sProp 𝕄 :=
  iprop((∃ f, ((c : Thread nD τ).loc cc0_scratch0) ↦{fullShare} f) ∗ (∃ f, ((c : Thread nD τ).loc cc0_scratch1) ↦{fullShare} f))

/-- Every one of the device's 240 transfer semaphores at zero. -/
def semsZero (c : Dev nD) : sProp 𝕄 := bigSep (Finset.univ.filter fun k : Fin 241 => k.val ≠ 0) fun k => semVal (kcell (c, k)) 0

def Φ₀ (c : Dev nD) : sProp 𝕄 := iprop(start m ρ c ∗ scratch c)
def Φ₁ (c : Dev nD) : sProp 𝕄 := iprop(scratch c ∗ semsZero c)

/-! ## The result and the proof data -/

/-- The whole result, the same on every device: row `r` belongs to the chunk of ring position `r / 64`, strip `r % 64 / 16`. -/
def outFinal : (cc0_stg2_0 : Ref sig .tc).ty.Contents (Elt F) := fun i =>
  fin m ρ ⟨(i 0).val / 64 % 16, Nat.mod_lt _ (by decide)⟩ ⟨(i 0).val % 64 / 16 % 4, Nat.mod_lt _ (by decide)⟩
    (ValueIdx.ix2 (⟨(i 0).val % 16, Nat.mod_lt _ (by decide)⟩ : Fin 16) (⟨(i 1).val % 1024, Nat.mod_lt _ (by decide)⟩ : Fin 1024))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outFinal m ρ
  Φ t := match t with
    | ⟨0, _⟩ => Φ₀ m ρ c
    | ⟨_ + 1, _⟩ => Φ₁ c
  q _ := fullShare
  owed t := match t with
    | ⟨0, _⟩ => owedOf c Finset.univ
    | ⟨_ + 1, _⟩ => 0

abbrev 𝒱₀ : Variants := Variants.none

end Cert.Kernel.Hand

end
-- ==== Proof.Bits.Sched.lean ====
/-
  The schedule of the ring all-reduce read off cell by cell: which duties each semaphore cell has in its one round,
  how many units each duty brings, what it hands over, and what is left in a cell's round when no duty has been taken.

  The DMA semaphores of a device are numbered consecutively: entry `[d, s, j]` of an array of shape `2 x 8 x 4` laid
  from `base` is number `base + 32 d + 4 s + j`, and of shape `2 x 7 x 4` number `base + 28 d + 4 s + j`. The payload
  of a transfer cell is looked up by that number, so each lemma below is the number's arithmetic.
-/
import proofs.«900799_g7700000000000800_dist_gemm_ar_m1024_k1024_n1024_f32_gelu_v7x_i16_1_alg».proof.Proof.Bits.Common

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Every payload may sit in an invariant -/

instance payAt_storable (c : Dev nD) (n : ℕ) : BI.Storable (upEmb : UEmb _ 𝕄) (payAt (F := F) m ρ c n) := by
  unfold payAt rlArr rrArr grDep grArr glDep glArr
  (repeat' split) <;> infer_instance

instance ringRd_payload_storable (g : GSem nD τ sig) (r : ℕ) (d : Bool) :
    BI.Storable (upEmb : UEmb _ 𝕄) ((ringRd (F := F) m ρ).payload g r d) := by
  show BI.Storable upEmb (match g.2 with
    | .reg b => if b = barS then (if d then barT g.1.1 else barF g.1.1) else iprop(emp)
    | .dma q => payAt m ρ g.1.1 q.val)
  split
  · unfold barT barF
    (repeat' split) <;> infer_instance
  · infer_instance

/-! ## The semaphore numbers -/

theorem sem8_val_rl (d : Fin 2) (s : Fin 8) (j : Fin 4) : (sem8 cc0_scratch2 d s j).val = 3 + 32 * d.val + 4 * s.val + j.val := by
  fin_cases d <;> fin_cases s <;> fin_cases j <;> rfl
theorem sem7_val_rr (d : Fin 2) (s : Fin 7) (j : Fin 4) : (sem7 cc0_scratch3 d s j).val = 67 + 28 * d.val + 4 * s.val + j.val := by
  fin_cases d <;> fin_cases s <;> fin_cases j <;> rfl
theorem sem8_val_gr (d : Fin 2) (s : Fin 8) (j : Fin 4) : (sem8 cc0_scratch4 d s j).val = 123 + 32 * d.val + 4 * s.val + j.val := by
  fin_cases d <;> fin_cases s <;> fin_cases j <;> rfl
theorem sem7_val_gl (d : Fin 2) (s : Fin 7) (j : Fin 4) : (sem7 cc0_scratch5 d s j).val = 187 + 28 * d.val + 4 * s.val + j.val := by
  fin_cases d <;> fin_cases s <;> fin_cases j <;> rfl

/-! ## The duties: the barrier cell has both, a transfer cell one, and only in round 0 -/

section Sched
variable (c : Dev nD)

theorem duties_bar : (ringRd (F := F) m ρ).duties (barCell c) 0 = Finset.univ := by
  dsimp only [ringRd]; rw [if_pos ⟨rfl, rfl⟩]; exact if_pos rfl
theorem duties_rl (d : Fin 2) (s : Fin 8) (j : Fin 4) : (ringRd (F := F) m ρ).duties (rlCell c d s j) 0 = {false} := by
  dsimp only [ringRd]; rw [if_pos ⟨rfl, rfl⟩]; exact if_pos (by rw [sem8_val_rl]; omega)
theorem duties_rr (d : Fin 2) (s : Fin 7) (j : Fin 4) : (ringRd (F := F) m ρ).duties (rrCell c d s j) 0 = {false} := by
  dsimp only [ringRd]; rw [if_pos ⟨rfl, rfl⟩]; exact if_pos (by rw [sem7_val_rr]; omega)
theorem duties_gr (d : Fin 2) (s : Fin 8) (j : Fin 4) : (ringRd (F := F) m ρ).duties (grCell c d s j) 0 = {false} := by
  dsimp only [ringRd]; rw [if_pos ⟨rfl, rfl⟩]; exact if_pos (by rw [sem8_val_gr]; omega)
theorem duties_gl (d : Fin 2) (s : Fin 7) (j : Fin 4) : (ringRd (F := F) m ρ).duties (glCell c d s j) 0 = {false} := by
  dsimp only [ringRd]; rw [if_pos ⟨rfl, rfl⟩]; exact if_pos (by rw [sem7_val_gl]; omega)
theorem duties_later (g : GSem nD τ sig) : ∀ r, 1 ≤ r → (ringRd (F := F) m ρ).duties g r = ∅ :=
  fun r hr => by dsimp only [ringRd]; rw [if_neg fun h => by omega]

/-! ## The amounts: one unit per barrier signal, a strip's credit per transfer -/

theorem amount_bar (d : Bool) : (ringRd (F := F) m ρ).amount (barCell c) 0 d = 1 := rfl
theorem amount_rl (d : Fin 2) (s : Fin 8) (j : Fin 4) (d' : Bool) : (ringRd (F := F) m ρ).amount (rlCell c d s j) 0 d' = N16 := rfl
theorem amount_rr (d : Fin 2) (s : Fin 7) (j : Fin 4) (d' : Bool) : (ringRd (F := F) m ρ).amount (rrCell c d s j) 0 d' = N16 := rfl
theorem amount_gr (d : Fin 2) (s : Fin 8) (j : Fin 4) (d' : Bool) : (ringRd (F := F) m ρ).amount (grCell c d s j) 0 d' = N16 := rfl
theorem amount_gl (d : Fin 2) (s : Fin 7) (j : Fin 4) (d' : Bool) : (ringRd (F := F) m ρ).amount (glCell c d s j) 0 d' = N16 := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_rl (d : Fin 2) (s : Fin 8) (j : Fin 4) : (ringRd (F := F) m ρ).expect (rlCell c d s j) 0 = N16 := by
  unfold Schedule.expect Schedule.amountOf; rw [duties_rl, Finset.sum_singleton, amount_rl]
theorem expect_rr (d : Fin 2) (s : Fin 7) (j : Fin 4) : (ringRd (F := F) m ρ).expect (rrCell c d s j) 0 = N16 := by
  unfold Schedule.expect Schedule.amountOf; rw [duties_rr, Finset.sum_singleton, amount_rr]
theorem expect_gr (d : Fin 2) (s : Fin 8) (j : Fin 4) : (ringRd (F := F) m ρ).expect (grCell c d s j) 0 = N16 := by
  unfold Schedule.expect Schedule.amountOf; rw [duties_gr, Finset.sum_singleton, amount_gr]
theorem expect_gl (d : Fin 2) (s : Fin 7) (j : Fin 4) : (ringRd (F := F) m ρ).expect (glCell c d s j) 0 = N16 := by
  unfold Schedule.expect Schedule.amountOf; rw [duties_gl, Finset.sum_singleton, amount_gl]

/-! ## The payloads -/

/-- Reading a step and a strip back off `4 s + j`. -/
theorem f8_read (b : ℕ) (s : Fin 8) (j : Fin 4) : f8 ((b + 4 * s.val + j.val - b) / 4) = s := by
  apply Fin.ext; show (b + 4 * s.val + j.val - b) / 4 % 8 = s.val; have := s.isLt; have := j.isLt; omega
theorem f7_read (b : ℕ) (s : Fin 7) (j : Fin 4) : f7 ((b + 4 * s.val + j.val - b) / 4) = s := by
  apply Fin.ext; show (b + 4 * s.val + j.val - b) / 4 % 7 = s.val; have := s.isLt; have := j.isLt; omega
theorem f4_read (b s : ℕ) (j : Fin 4) : f4 (b + 4 * s + j.val - b) = j := by
  apply Fin.ext; show (b + 4 * s + j.val - b) % 4 = j.val; have := j.isLt; omega

theorem payload_bar_false : (ringRd (F := F) m ρ).payload (barCell c) 0 false = barF c := by
  dsimp only [ringRd]; rw [if_pos rfl]; exact if_neg Bool.false_ne_true
theorem payload_bar_true : (ringRd (F := F) m ρ).payload (barCell c) 0 true = barT c := by
  dsimp only [ringRd]; rw [if_pos rfl, if_pos rfl]

/-- The payload of the transfer cell numbered `n` on device `c`. -/
theorem payload_dma (q : DmaSem sig) (r : ℕ) (d : Bool) :
    (ringRd (F := F) m ρ).payload (((c : Thread nD τ), .dma q) : GSem nD τ sig) r d = payAt m ρ c q.val := rfl

theorem payAt_rl_dep (s : Fin 8) (j : Fin 4) : payAt (F := F) m ρ c (3 + 4 * s.val + j.val) = iprop(emp) := by
  have := s.isLt; have := j.isLt
  unfold payAt; rw [if_neg (by omega), if_pos (by omega)]
theorem payAt_rl_arr (s : Fin 8) (j : Fin 4) : payAt (F := F) m ρ c (35 + 4 * s.val + j.val) = rlArr m ρ c s j := by
  have := s.isLt; have := j.isLt
  unfold payAt; rw [if_neg (by omega), if_neg (by omega), if_pos (by omega), f8_read, f4_read]
theorem payAt_rr_dep (s : Fin 7) (j : Fin 4) : payAt (F := F) m ρ c (67 + 4 * s.val + j.val) = iprop(emp) := by
  have := s.isLt; have := j.isLt
  unfold payAt; rw [if_neg (by omega), if_neg (by omega), if_neg (by omega), if_pos (by omega)]
theorem payAt_rr_arr (s : Fin 7) (j : Fin 4) : payAt (F := F) m ρ c (95 + 4 * s.val + j.val) = rrArr m ρ c s j := by
  have := s.isLt; have := j.isLt
  unfold payAt; rw [if_neg (by omega), if_neg (by omega), if_neg (by omega), if_neg (by omega), if_pos (by omega), f7_read, f4_read]
theorem payAt_gr_dep (s : Fin 8) (j : Fin 4) : payAt (F := F) m ρ c (123 + 4 * s.val + j.val) = grDep m ρ c s j := by
  have := s.isLt; have := j.isLt
  unfold payAt; rw [if_neg (by omega), if_neg (by omega), if_neg (by omega), if_neg (by omega), if_neg (by omega), if_pos (by omega), f8_read, f4_read]
theorem payAt_gr_arr (s : Fin 8) (j : Fin 4) : payAt (F := F) m ρ c (155 + 4 * s.val + j.val) = grArr m ρ c s j := by
  have := s.isLt; have := j.isLt
  unfold payAt; rw [if_neg (by omega), if_neg (by omega), if_neg (by omega), if_neg (by omega), if_neg (by omega), if_neg (by omega), if_pos (by omega),
    f8_read, f4_read]
theorem payAt_gl_dep (s : Fin 7) (j : Fin 4) : payAt (F := F) m ρ c (187 + 4 * s.val + j.val) = glDep m ρ c s j := by
  have := s.isLt; have := j.isLt
  unfold payAt; rw [if_neg (by omega), if_neg (by omega), if_neg (by omega), if_neg (by omega), if_neg (by omega), if_neg (by omega), if_neg (by omega),
    if_pos (by omega), f7_read, f4_read]
theorem payAt_gl_arr (s : Fin 7) (j : Fin 4) : payAt (F := F) m ρ c (215 + 4 * s.val + j.val) = glArr m ρ c s j := by
  have := s.isLt; have := j.isLt
  unfold payAt; rw [if_neg (by omega), if_neg (by omega), if_neg (by omega), if_neg (by omega), if_neg (by omega), if_neg (by omega), if_neg (by omega),
    if_neg (by omega), if_pos (by omega), f7_read, f4_read]

theorem payload_rl_dep (s : Fin 8) (j : Fin 4) : (ringRd (F := F) m ρ).payload (rlCell c 0 s j) 0 false = iprop(emp) := by
  rw [payload_dma, sem8_val_rl, ← payAt_rl_dep m ρ c s j]; rfl
theorem payload_rl_arr (s : Fin 8) (j : Fin 4) : (ringRd (F := F) m ρ).payload (rlCell c 1 s j) 0 false = rlArr m ρ c s j := by
  rw [payload_dma, sem8_val_rl, ← payAt_rl_arr m ρ c s j]; rfl
theorem payload_rr_dep (s : Fin 7) (j : Fin 4) : (ringRd (F := F) m ρ).payload (rrCell c 0 s j) 0 false = iprop(emp) := by
  rw [payload_dma, sem7_val_rr, ← payAt_rr_dep m ρ c s j]; rfl
theorem payload_rr_arr (s : Fin 7) (j : Fin 4) : (ringRd (F := F) m ρ).payload (rrCell c 1 s j) 0 false = rrArr m ρ c s j := by
  rw [payload_dma, sem7_val_rr, ← payAt_rr_arr m ρ c s j]; rfl
theorem payload_gr_dep (s : Fin 8) (j : Fin 4) : (ringRd (F := F) m ρ).payload (grCell c 0 s j) 0 false = grDep m ρ c s j := by
  rw [payload_dma, sem8_val_gr, ← payAt_gr_dep m ρ c s j]; rfl
theorem payload_gr_arr (s : Fin 8) (j : Fin 4) : (ringRd (F := F) m ρ).payload (grCell c 1 s j) 0 false = grArr m ρ c s j := by
  rw [payload_dma, sem8_val_gr, ← payAt_gr_arr m ρ c s j]; rfl
theorem payload_gl_dep (s : Fin 7) (j : Fin 4) : (ringRd (F := F) m ρ).payload (glCell c 0 s j) 0 false = glDep m ρ c s j := by
  rw [payload_dma, sem7_val_gl, ← payAt_gl_dep m ρ c s j]; rfl
theorem payload_gl_arr (s : Fin 7) (j : Fin 4) : (ringRd (F := F) m ρ).payload (glCell c 1 s j) 0 false = glArr m ρ c s j := by
  rw [payload_dma, sem7_val_gl, ← payAt_gl_arr m ρ c s j]; rfl

/-! ## What is left of a cell's round when no duty has been taken -/

theorem rest_bar : bigSep ((ringRd (F := F) m ρ).duties (barCell c) 0 \ ∅) (fun d => (ringRd (F := F) m ρ).payload (barCell c) 0 d) = iprop(barF c ∗ barT c) := by
  rw [Finset.sdiff_empty, duties_bar, bigSep_univ_eq_bigSepL [false, true] (by decide) (by decide), bigSepL_cons_cons, bigSepL_singleton,
    payload_bar_false, payload_bar_true]
  rfl
theorem rest_rl_dep (s : Fin 8) (j : Fin 4) : bigSep ((ringRd (F := F) m ρ).duties (rlCell c 0 s j) 0 \ ∅) (fun d => (ringRd (F := F) m ρ).payload (rlCell c 0 s j) 0 d) = iprop(emp) := by
  rw [Finset.sdiff_empty, duties_rl, bigSep_singleton, payload_rl_dep]
theorem rest_rl_arr (s : Fin 8) (j : Fin 4) : bigSep ((ringRd (F := F) m ρ).duties (rlCell c 1 s j) 0 \ ∅) (fun d => (ringRd (F := F) m ρ).payload (rlCell c 1 s j) 0 d) = rlArr m ρ c s j := by
  rw [Finset.sdiff_empty, duties_rl, bigSep_singleton, payload_rl_arr]
theorem rest_rr_dep (s : Fin 7) (j : Fin 4) : bigSep ((ringRd (F := F) m ρ).duties (rrCell c 0 s j) 0 \ ∅) (fun d => (ringRd (F := F) m ρ).payload (rrCell c 0 s j) 0 d) = iprop(emp) := by
  rw [Finset.sdiff_empty, duties_rr, bigSep_singleton, payload_rr_dep]
theorem rest_rr_arr (s : Fin 7) (j : Fin 4) : bigSep ((ringRd (F := F) m ρ).duties (rrCell c 1 s j) 0 \ ∅) (fun d => (ringRd (F := F) m ρ).payload (rrCell c 1 s j) 0 d) = rrArr m ρ c s j := by
  rw [Finset.sdiff_empty, duties_rr, bigSep_singleton, payload_rr_arr]
theorem rest_gr_dep (s : Fin 8) (j : Fin 4) : bigSep ((ringRd (F := F) m ρ).duties (grCell c 0 s j) 0 \ ∅) (fun d => (ringRd (F := F) m ρ).payload (grCell c 0 s j) 0 d) = grDep m ρ c s j := by
  rw [Finset.sdiff_empty, duties_gr, bigSep_singleton, payload_gr_dep]
theorem rest_gr_arr (s : Fin 8) (j : Fin 4) : bigSep ((ringRd (F := F) m ρ).duties (grCell c 1 s j) 0 \ ∅) (fun d => (ringRd (F := F) m ρ).payload (grCell c 1 s j) 0 d) = grArr m ρ c s j := by
  rw [Finset.sdiff_empty, duties_gr, bigSep_singleton, payload_gr_arr]
theorem rest_gl_dep (s : Fin 7) (j : Fin 4) : bigSep ((ringRd (F := F) m ρ).duties (glCell c 0 s j) 0 \ ∅) (fun d => (ringRd (F := F) m ρ).payload (glCell c 0 s j) 0 d) = glDep m ρ c s j := by
  rw [Finset.sdiff_empty, duties_gl, bigSep_singleton, payload_gl_dep]
theorem rest_gl_arr (s : Fin 7) (j : Fin 4) : bigSep ((ringRd (F := F) m ρ).duties (glCell c 1 s j) 0 \ ∅) (fun d => (ringRd (F := F) m ρ).payload (glCell c 1 s j) 0 d) = glArr m ρ c s j := by
  rw [Finset.sdiff_empty, duties_gl, bigSep_singleton, payload_gl_arr]

end Sched

end Cert.Kernel.Hand

end
-- ==== Proof.Bits.LaunchK.lean ====
/-
  The launch of the ring all-reduce. Every device's 241 semaphore cells (its barrier cell and its 240 transfer
  cells) are funded with the one-round schedule; the duty tokens minted for a device's own cells are dealt round the
  ring to the neighbours that pay those duties; what the neighbours owe a device at launch is exactly two barrier
  units and one strip's credit on each of its arrival cells; the pipeline's own staging cells sit at level 0, below
  every cell a device owes. From the body obligation of one device at a symbolic place, the whole mesh's run follows,
  with the result array read back as the kernel's value and the two argument arrays unchanged.
-/
import proofs.«900799_g7700000000000800_dist_gemm_ar_m1024_k1024_n1024_f32_gelu_v7x_i16_1_alg».proof.Proof.Bits.Iface
import proofs.«900799_g7700000000000800_dist_gemm_ar_m1024_k1024_n1024_f32_gelu_v7x_i16_1_alg».proof.Proof.Bits.Sched

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, the cells, the tokens minted at launch -/

/-- The 240 transfer semaphores: cell `1 + k` of the numbering. -/
abbrev osem (k : Fin 240) : SemLoc sig := csem k.succ

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 241 → SemLoc sig) := by
  intro a b h
  by_cases ha : a.val = 0 <;> by_cases hb : b.val = 0
  · exact Fin.ext (ha.trans hb.symm)
  · dsimp only [csem] at h; rw [if_pos ha, if_neg hb] at h; cases h
  · dsimp only [csem] at h; rw [if_neg ha, if_pos hb] at h; cases h
  · dsimp only [csem] at h; rw [if_neg ha, if_neg hb] at h
    have h' := congrArg (fun s : SemLoc sig => match s with | .dma q => q.val | .reg _ => 0) h
    exact Fin.ext (Nat.add_right_cancel h')

theorem kcell_injective : Function.Injective (kcell : Dev nD × Fin 241 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def ringCells : Finset (GSem nD τ sig) := Finset.univ.map ⟨kcell, kcell_injective⟩

/-- The duty tokens minted: duty `false` of every cell, and duty `true` of every barrier cell. -/
abbrev tokOf (x : (Dev nD × Fin 241) ⊕ Dev nD) : GSem nD τ sig × ℕ × Bool := match x with
  | .inl ck => (kcell ck, 0, false)
  | .inr c => (barCell c, 0, true)

theorem tokOf_injective : Function.Injective tokOf := by
  rintro (a | a) (b | b) h
  · exact congrArg Sum.inl (kcell_injective (congrArg (fun x : GSem nD τ sig × ℕ × Bool => x.1) h))
  · exact absurd (congrArg (fun x : GSem nD τ sig × ℕ × Bool => x.2.2) h) (show ¬ (false = true) from by decide)
  · exact absurd (congrArg (fun x : GSem nD τ sig × ℕ × Bool => x.2.2) h) (show ¬ (true = false) from by decide)
  · exact congrArg Sum.inr (congrArg (fun x : GSem nD τ sig × ℕ × Bool => x.1.1.1) h)

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Fin 241 => dutyTok ER (kcell (c, k)) 0 false) ∗ dutyTok ER (barCell c) 0 true)

/-- What the launch element deals device `c`. -/
def G (c : Dev nD) : sProp 𝕄 :=
  iprop((bigSep Finset.univ fun k : Fin 241 => roundState ER (ringRd m ρ) (kcell (c, k)) 0)
    ∗ (bigSep Finset.univ fun k : Fin 241 => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 241 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_sum, bigSep_univ_prod]; exact (bigSep_sep _ _ _).symm
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and every cell's invariant allocated -/

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem semsZero_eq (c : Dev nD) :
    (semsZero c : sProp 𝕄) = Pipeline.ownSems0 (Ix := Unit) (Name := ℕ) (U := UU) (Lvl := ℕ) (Val := Elt F) (τ := τ) osem c := by
  unfold semsZero Pipeline.ownSems0
  rw [show (Finset.univ.filter fun k : Fin 241 => k.val ≠ 0) = Finset.univ.map ⟨Fin.succ, Fin.succ_injective _⟩ from by
    ext k
    rw [Finset.mem_filter, Finset.mem_map]
    constructor
    · rintro ⟨-, hk⟩
      have hk' : k ≠ 0 := fun h => hk (congrArg Fin.val h)
      exact ⟨k.pred hk', Finset.mem_univ _, Fin.succ_pred k hk'⟩
    · rintro ⟨j, -, rfl⟩
      exact ⟨Finset.mem_univ _, Nat.succ_ne_zero _⟩, bigSep_map]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 241 => semVal (kcell (c, k)) 0 : sProp 𝕄) := by
  rw [unscopedSems0_eq, bigSep_fin_succ]
  iintro ⟨HS, HB⟩
  isplitl [HB]; · iexact HB
  unfold Pipeline.ownSems0; iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 241 => iprop(∃ κ : ℕ, cellInv ER (ringRd m ρ) κ (kcell (c, k))))
          ∗ (bigSep Finset.univ fun k : Fin 241 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 241 => semVal (kcell (c, k)) 0) ∗ bigSep Finset.univ fun k : Fin 241 => roundState ER (ringRd m ρ) (kcell (c, k)) 0)
      ⊢ (|={Set.univ}=> bigSep Finset.univ fun k : Fin 241 => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## A device's 241 cells, family by family -/

/-- The families: the barrier cell; then reduce-left, reduce-right, gather-right, gather-left, each entry
    `(d, s, j)` of its semaphore array. -/
abbrev CI : Type := Unit ⊕ (Fin 2 × Fin 8 × Fin 4) ⊕ (Fin 2 × Fin 7 × Fin 4) ⊕ (Fin 2 × Fin 8 × Fin 4) ⊕ (Fin 2 × Fin 7 × Fin 4)

def ciTo : CI → Fin 241
  | .inl _ => 0
  | .inr (.inl (d, s, j)) => ⟨1 + 32 * d.val + 4 * s.val + j.val, by have := d.isLt; have := s.isLt; have := j.isLt; omega⟩
  | .inr (.inr (.inl (d, s, j))) => ⟨65 + 28 * d.val + 4 * s.val + j.val, by have := d.isLt; have := s.isLt; have := j.isLt; omega⟩
  | .inr (.inr (.inr (.inl (d, s, j)))) => ⟨121 + 32 * d.val + 4 * s.val + j.val, by have := d.isLt; have := s.isLt; have := j.isLt; omega⟩
  | .inr (.inr (.inr (.inr (d, s, j)))) => ⟨185 + 28 * d.val + 4 * s.val + j.val, by have := d.isLt; have := s.isLt; have := j.isLt; omega⟩

abbrev f2 (n : ℕ) : Fin 2 := ⟨n % 2, Nat.mod_lt _ (by decide)⟩

def ciOf (k : Fin 241) : CI :=
  if k.val = 0 then .inl ()
  else if k.val < 65 then .inr (.inl (f2 ((k.val - 1) / 32), f8 ((k.val - 1) % 32 / 4), f4 (k.val - 1)))
  else if k.val < 121 then .inr (.inr (.inl (f2 ((k.val - 65) / 28), f7 ((k.val - 65) % 28 / 4), f4 (k.val - 65))))
  else if k.val < 185 then .inr (.inr (.inr (.inl (f2 ((k.val - 121) / 32), f8 ((k.val - 121) % 32 / 4), f4 (k.val - 121)))))
  else .inr (.inr (.inr (.inr (f2 ((k.val - 185) / 28), f7 ((k.val - 185) % 28 / 4), f4 (k.val - 185)))))

theorem ciTo_ciOf : ∀ k : Fin 241, ciTo (ciOf k) = k := by decide

theorem ciTo_bijective : Function.Bijective ciTo :=
  (Fintype.bijective_iff_surjective_and_card ciTo).mpr ⟨fun k => ⟨ciOf k, ciTo_ciOf k⟩, by simp⟩

def cellEquiv : CI ≃ Fin 241 := Equiv.ofBijective ciTo ciTo_bijective

private theorem kcell_bar (c : Dev nD) : kcell (c, cellEquiv (.inl ())) = barCell c := rfl
private theorem kcell_rl (c : Dev nD) (x : Fin 2 × Fin 8 × Fin 4) : kcell (c, cellEquiv (.inr (.inl x))) = rlCell c x.1 x.2.1 x.2.2 := by
  obtain ⟨d, s, j⟩ := x
  have h : csem (ciTo (.inr (.inl (d, s, j)))) = .dma (sem8 cc0_scratch2 d s j) := by revert d s j; decide
  exact congrArg (Prod.mk (c : Thread nD τ)) h
private theorem kcell_rr (c : Dev nD) (x : Fin 2 × Fin 7 × Fin 4) : kcell (c, cellEquiv (.inr (.inr (.inl x)))) = rrCell c x.1 x.2.1 x.2.2 := by
  obtain ⟨d, s, j⟩ := x
  have h : csem (ciTo (.inr (.inr (.inl (d, s, j))))) = .dma (sem7 cc0_scratch3 d s j) := by revert d s j; decide
  exact congrArg (Prod.mk (c : Thread nD τ)) h
private theorem kcell_gr (c : Dev nD) (x : Fin 2 × Fin 8 × Fin 4) : kcell (c, cellEquiv (.inr (.inr (.inr (.inl x))))) = grCell c x.1 x.2.1 x.2.2 := by
  obtain ⟨d, s, j⟩ := x
  have h : csem (ciTo (.inr (.inr (.inr (.inl (d, s, j)))))) = .dma (sem8 cc0_scratch4 d s j) := by revert d s j; decide
  exact congrArg (Prod.mk (c : Thread nD τ)) h
private theorem kcell_gl (c : Dev nD) (x : Fin 2 × Fin 7 × Fin 4) : kcell (c, cellEquiv (.inr (.inr (.inr (.inr x))))) = glCell c x.1 x.2.1 x.2.2 := by
  obtain ⟨d, s, j⟩ := x
  have h : csem (ciTo (.inr (.inr (.inr (.inr (d, s, j)))))) = .dma (sem7 cc0_scratch5 d s j) := by revert d s j; decide
  exact congrArg (Prod.mk (c : Thread nD τ)) h

theorem bigSep_fin2_prod {β : Type} [Fintype β] (Ψ : Fin 2 × β → sProp 𝕄) :
    bigSep Finset.univ Ψ = iprop((bigSep Finset.univ fun b => Ψ (0, b)) ∗ bigSep Finset.univ fun b => Ψ (1, b)) := by
  rw [bigSep_univ_prod, bigSep_univ_two]

/-- A conjunction over a device's cells, family by family, departures and arrivals apart. -/
theorem bigSep_cells (c : Dev nD) (Φ : GSem nD τ sig → sProp 𝕄) :
    (bigSep Finset.univ fun k : Fin 241 => Φ (kcell (c, k)))
      = iprop(Φ (barCell c)
        ∗ ((bigSep Finset.univ fun x : Fin 8 × Fin 4 => Φ (rlCell c 0 x.1 x.2)) ∗ (bigSep Finset.univ fun x : Fin 8 × Fin 4 => Φ (rlCell c 1 x.1 x.2)))
        ∗ ((bigSep Finset.univ fun x : Fin 7 × Fin 4 => Φ (rrCell c 0 x.1 x.2)) ∗ (bigSep Finset.univ fun x : Fin 7 × Fin 4 => Φ (rrCell c 1 x.1 x.2)))
        ∗ ((bigSep Finset.univ fun x : Fin 8 × Fin 4 => Φ (grCell c 0 x.1 x.2)) ∗ (bigSep Finset.univ fun x : Fin 8 × Fin 4 => Φ (grCell c 1 x.1 x.2)))
        ∗ ((bigSep Finset.univ fun x : Fin 7 × Fin 4 => Φ (glCell c 0 x.1 x.2)) ∗ (bigSep Finset.univ fun x : Fin 7 × Fin 4 => Φ (glCell c 1 x.1 x.2)))) := by
  rw [bigSep_univ_equiv cellEquiv, bigSep_univ_sum, bigSep_univ_sum, bigSep_univ_sum, bigSep_univ_sum, bigSep_univ_of_subsingleton ()]
  simp only [kcell_bar, kcell_rl, kcell_rr, kcell_gr, kcell_gl]
  rw [bigSep_fin2_prod (fun x : Fin 2 × Fin 8 × Fin 4 => Φ (rlCell c x.1 x.2.1 x.2.2)),
    bigSep_fin2_prod (fun x : Fin 2 × Fin 7 × Fin 4 => Φ (rrCell c x.1 x.2.1 x.2.2)),
    bigSep_fin2_prod (fun x : Fin 2 × Fin 8 × Fin 4 => Φ (grCell c x.1 x.2.1 x.2.2)),
    bigSep_fin2_prod (fun x : Fin 2 × Fin 7 × Fin 4 => Φ (glCell c x.1 x.2.1 x.2.2))]
  rfl

/-! ## The tokens dealt round the ring -/

/-- One step round the ring, as a permutation of the devices. -/
def ringE : Dev nD ≃ Dev nD := ⟨rgt, lft, lft_rgt, rgt_lft⟩

theorem bigSep_rgt (Φ : Dev nD → sProp 𝕄) : bigSep Finset.univ Φ = bigSep Finset.univ fun c => Φ (rgt c) := bigSep_univ_equiv ringE Φ
theorem bigSep_lft (Φ : Dev nD → sProp 𝕄) : bigSep Finset.univ Φ = bigSep Finset.univ fun c => Φ (lft c) := bigSep_univ_equiv ringE.symm Φ

/-- A device's own tokens, family by family. -/
def ownToks (c : Dev nD) : sProp 𝕄 :=
  iprop(dutyTok ER (barCell c) 0 true ∗ dutyTok ER (barCell c) 0 false
    ∗ ((bigSep Finset.univ fun x : Fin 8 × Fin 4 => dutyTok ER (rlCell c 0 x.1 x.2) 0 false) ∗ (bigSep Finset.univ fun x : Fin 8 × Fin 4 => dutyTok ER (rlCell c 1 x.1 x.2) 0 false))
    ∗ ((bigSep Finset.univ fun x : Fin 7 × Fin 4 => dutyTok ER (rrCell c 0 x.1 x.2) 0 false) ∗ (bigSep Finset.univ fun x : Fin 7 × Fin 4 => dutyTok ER (rrCell c 1 x.1 x.2) 0 false))
    ∗ ((bigSep Finset.univ fun x : Fin 8 × Fin 4 => dutyTok ER (grCell c 0 x.1 x.2) 0 false) ∗ (bigSep Finset.univ fun x : Fin 8 × Fin 4 => dutyTok ER (grCell c 1 x.1 x.2) 0 false))
    ∗ ((bigSep Finset.univ fun x : Fin 7 × Fin 4 => dutyTok ER (glCell c 0 x.1 x.2) 0 false) ∗ (bigSep Finset.univ fun x : Fin 7 × Fin 4 => dutyTok ER (glCell c 1 x.1 x.2) 0 false)))

theorem toks_split (c : Dev nD) : (toks c : sProp 𝕄) ⊢ ownToks c := by
  unfold toks ownToks
  rw [bigSep_cells c (fun g => (dutyTok ER g 0 false : sProp 𝕄))]
  iintro ⟨⟨H0, H1, H2, H3, H4⟩, Ht⟩
  isplitl [Ht]; · iexact Ht
  isplitl [H0]; · iexact H0
  isplitl [H1]; · iexact H1
  isplitl [H2]; · iexact H2
  isplitl [H3]; · iexact H3
  iexact H4

/-- The barrier cell's `true` token goes to the neighbour after its owner, its `false` token to the neighbour before; a
    departure cell's token stays; an arrival cell's token goes to the neighbour whose transfer lands there. -/
theorem toks_around : (bigSep Finset.univ fun c : Dev nD => (toks c : sProp 𝕄)) ⊢ bigSep Finset.univ fun c : Dev nD => payToks c := by
  refine (bigSep_mono fun c _ => toks_split c).trans ?_
  unfold ownToks payToks
  simp only [bigSep_sep']
  rw [bigSep_lft (fun c : Dev nD => (dutyTok ER (barCell c) 0 true : sProp 𝕄)),
    bigSep_rgt (fun c : Dev nD => (dutyTok ER (barCell c) 0 false : sProp 𝕄)),
    bigSep_lft (fun c : Dev nD => (bigSep Finset.univ fun x : Fin 8 × Fin 4 => dutyTok ER (rlCell c 1 x.1 x.2) 0 false : sProp 𝕄)),
    bigSep_rgt (fun c : Dev nD => (bigSep Finset.univ fun x : Fin 7 × Fin 4 => dutyTok ER (rrCell c 1 x.1 x.2) 0 false : sProp 𝕄)),
    bigSep_rgt (fun c : Dev nD => (bigSep Finset.univ fun x : Fin 8 × Fin 4 => dutyTok ER (grCell c 1 x.1 x.2) 0 false : sProp 𝕄)),
    bigSep_lft (fun c : Dev nD => (bigSep Finset.univ fun x : Fin 7 × Fin 4 => dutyTok ER (glCell c 1 x.1 x.2) 0 false : sProp 𝕄))]
  exact BI.Entails.refl _

/-! ## The global step: from every device's pieces to every device's ghost state -/

theorem ghost_intro (K : Dev nD × Fin 241 → ℕ) (c : Dev nD) : iprop(records m ρ K ∗ posOwn c ∗ payToks c) ⊢ G' m ρ c := by
  unfold G' ghost
  iintro H
  iexists K
  iexact H

theorem regroup :
    (bigSep Finset.univ fun c : Dev nD => iprop((bigSep Finset.univ fun k : Fin 241 => iprop(∃ κ : ℕ, cellInv ER (ringRd m ρ) κ (kcell (c, k))))
          ∗ (bigSep Finset.univ fun k : Fin 241 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 241 => iprop(∃ κ : ℕ, cellInv ER (ringRd m ρ) κ (kcell ck))),
    bigSep_congr (s := Finset.univ) (fun (c : Dev nD) _ => bigSep_sep' Finset.univ (fun k : Fin 241 => (atPos ER (kcell (c, k)) 0 ∅ 0 : sProp 𝕄)) (fun k => reached ER (kcell (c, k)) 0)),
    bigSep_sep', ← bigSep_univ_prod (fun ck : Dev nD × Fin 241 => (reached ER (kcell ck) 0 : sProp 𝕄))]
  iintro ⟨HI, ⟨Hat, #HR⟩, Htok⟩
  ihave HK := (BI.bigSep_exists_pi Finset.univ (fun (ck : Dev nD × Fin 241) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (posOwn c : sProp 𝕄)) payToks).symm)
    isplitl [Hat]; · unfold posOwn; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit: what the neighbours owe a device -/

/-- The payments, family by family. -/
def payEquiv : (Unit ⊕ Unit ⊕ (Fin 8 × Fin 4) ⊕ (Fin 7 × Fin 4) ⊕ (Fin 8 × Fin 4) ⊕ (Fin 7 × Fin 4)) ≃ Pay where
  toFun
    | .inl _ => .barL
    | .inr (.inl _) => .barR
    | .inr (.inr (.inl x)) => .rl x.1 x.2
    | .inr (.inr (.inr (.inl x))) => .rr x.1 x.2
    | .inr (.inr (.inr (.inr (.inl x)))) => .gr x.1 x.2
    | .inr (.inr (.inr (.inr (.inr x)))) => .gl x.1 x.2
  invFun
    | .barL => .inl ()
    | .barR => .inr (.inl ())
    | .rl s j => .inr (.inr (.inl (s, j)))
    | .rr s j => .inr (.inr (.inr (.inl (s, j))))
    | .gr s j => .inr (.inr (.inr (.inr (.inl (s, j)))))
    | .gl s j => .inr (.inr (.inr (.inr (.inr (s, j)))))
  left_inv := by rintro (_ | _ | ⟨s, j⟩ | ⟨s, j⟩ | ⟨s, j⟩ | ⟨s, j⟩) <;> rfl
  right_inv := by rintro (_ | _ | _ | _ | _ | _) <;> rfl

theorem bigSep_mono_univ {I : Type} [Fintype I] {Φ Ψ : I → sProp 𝕄} (h : ∀ i, Φ i ⊢ Ψ i) :
    bigSep Finset.univ Φ ⊢ bigSep Finset.univ Ψ := bigSep_mono fun i _ => h i

theorem bigSep_pay (Ψ : Pay → sProp 𝕄) : bigSep Finset.univ Ψ = iprop(Ψ .barL ∗ Ψ .barR
    ∗ (bigSep Finset.univ fun x : Fin 8 × Fin 4 => Ψ (.rl x.1 x.2)) ∗ (bigSep Finset.univ fun x : Fin 7 × Fin 4 => Ψ (.rr x.1 x.2))
    ∗ (bigSep Finset.univ fun x : Fin 8 × Fin 4 => Ψ (.gr x.1 x.2)) ∗ (bigSep Finset.univ fun x : Fin 7 × Fin 4 => Ψ (.gl x.1 x.2))) := by
  rw [bigSep_univ_equiv payEquiv, bigSep_univ_sum, bigSep_univ_sum, bigSep_univ_sum, bigSep_univ_sum, bigSep_univ_sum,
    bigSep_univ_of_subsingleton (), bigSep_univ_of_subsingleton ()]
  rfl

/-- What the neighbours owe device `c` at launch is two barrier units and a strip's credit on each arrival cell. -/
theorem creds_intro (c : Dev nD) : (Pipeline.launchCred (fun d : Dev nD => owedOf d Finset.univ) c : sProp 𝕄) ⊢ creds c := by
  have h : (fun d : Dev nD => owedOf d Finset.univ)
      = fun d => ∑ p ∈ (Finset.univ : Finset Pay), (fun (p : Pay) (d : Dev nD) => (tallyAt (p.cell d) () p.amt : CellTallies nD τ sig Unit)) p d := rfl
  rw [h, Pipeline.launchCred_sum, bigSep_pay]
  unfold creds
  show iprop(Pipeline.launchCred (fun d : Dev nD => (tallyAt (((lft d).tc : Thread nD τ), SemLoc.reg barS) () 1 : CellTallies nD τ sig Unit)) c
      ∗ Pipeline.launchCred (fun d : Dev nD => (tallyAt (((rgt d).tc : Thread nD τ), SemLoc.reg barS) () 1 : CellTallies nD τ sig Unit)) c
      ∗ (bigSep Finset.univ fun x : Fin 8 × Fin 4 => Pipeline.launchCred (fun d : Dev nD => (tallyAt (((lft d).tc : Thread nD τ), SemLoc.dma (sem8 cc0_scratch2 1 x.1 x.2)) () N16 : CellTallies nD τ sig Unit)) c)
      ∗ (bigSep Finset.univ fun x : Fin 7 × Fin 4 => Pipeline.launchCred (fun d : Dev nD => (tallyAt (((rgt d).tc : Thread nD τ), SemLoc.dma (sem7 cc0_scratch3 1 x.1 x.2)) () N16 : CellTallies nD τ sig Unit)) c)
      ∗ (bigSep Finset.univ fun x : Fin 8 × Fin 4 => Pipeline.launchCred (fun d : Dev nD => (tallyAt (((rgt d).tc : Thread nD τ), SemLoc.dma (sem8 cc0_scratch4 1 x.1 x.2)) () N16 : CellTallies nD τ sig Unit)) c)
      ∗ (bigSep Finset.univ fun x : Fin 7 × Fin 4 => Pipeline.launchCred (fun d : Dev nD => (tallyAt (((lft d).tc : Thread nD τ), SemLoc.dma (sem7 cc0_scratch5 1 x.1 x.2)) () N16 : CellTallies nD τ sig Unit)) c) : sProp 𝕄) ⊢ _
  iintro ⟨HbL, HbR, Hrl, Hrr, Hgr, Hgl⟩
  isplitl [HbL HbR]
  · ihave H1 := (Pipeline.launchCred_tallyAt (Name := ℕ) (U := UU) (Lvl := ℕ) (Val := Elt F) (SemLoc.reg barS) lft rgt lft_rgt rgt_lft () 1 c) $$ HbL
    ihave H2 := (Pipeline.launchCred_tallyAt (Name := ℕ) (U := UU) (Lvl := ℕ) (Val := Elt F) (SemLoc.reg barS) rgt lft rgt_lft lft_rgt () 1 c) $$ HbR
    rw [← tallyAt_add (barCell c) () 1 1]
    iapply (cred_add _ _).2
    isplitl [H1] <;> iassumption
  isplitl [Hrl]
  · iapply (bigSep_mono_univ fun (x : Fin 8 × Fin 4) => Pipeline.launchCred_tallyAt (Name := ℕ) (U := UU) (Lvl := ℕ) (Val := Elt F) (SemLoc.dma (sem8 cc0_scratch2 1 x.1 x.2)) lft rgt lft_rgt rgt_lft () N16 c)
    iexact Hrl
  isplitl [Hrr]
  · iapply (bigSep_mono_univ fun (x : Fin 7 × Fin 4) => Pipeline.launchCred_tallyAt (Name := ℕ) (U := UU) (Lvl := ℕ) (Val := Elt F) (SemLoc.dma (sem7 cc0_scratch3 1 x.1 x.2)) rgt lft rgt_lft lft_rgt () N16 c)
    iexact Hrr
  isplitl [Hgr]
  · iapply (bigSep_mono_univ fun (x : Fin 8 × Fin 4) => Pipeline.launchCred_tallyAt (Name := ℕ) (U := UU) (Lvl := ℕ) (Val := Elt F) (SemLoc.dma (sem8 cc0_scratch4 1 x.1 x.2)) rgt lft rgt_lft lft_rgt () N16 c)
    iexact Hgr
  · iapply (bigSep_mono_univ fun (x : Fin 7 × Fin 4) => Pipeline.launchCred_tallyAt (Name := ℕ) (U := UU) (Lvl := ℕ) (Val := Elt F) (SemLoc.dma (sem7 cc0_scratch5 1 x.1 x.2)) lft rgt lft_rgt rgt_lft () N16 c)
    iexact Hgl

/-! ## The pipeline's staging cells sit below everything a device owes -/

theorem L_pay (c : Dev nD) (p : Pay) : L (p.cell c) = {()} := by cases p <;> exact if_pos rfl

theorem lv_pay_pos (c : Dev nD) (p : Pay) : 0 < lv (p.cell c) () := by
  cases p with
  | barL => exact Nat.one_pos
  | barR => exact Nat.one_pos
  | rl s j => show 0 < lvN (sem8 cc0_scratch2 1 s j).val; revert s j; decide
  | rr s j => show 0 < lvN (sem7 cc0_scratch3 1 s j).val; revert s j; decide
  | gr s j => show 0 < lvN (sem8 cc0_scratch4 1 s j).val; revert s j; decide
  | gl s j => show 0 < lvN (sem7 cc0_scratch5 1 s j).val; revert s j; decide

theorem mayWait_stage (c : Dev nD) (q : DmaSem sig) (hq : lvN q.val = 0) (O : CellTallies nD τ sig Unit) (hO : O = owedOf c Finset.univ ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    obtain ⟨p, -, hp⟩ := Pipeline.sum_pos_exists (show 0 < (∑ p ∈ (Finset.univ : Finset Pay), (tallyAt (p.cell c) () p.amt : CellTallies nD τ sig Unit)) g i from hg)
    obtain ⟨rfl, rfl⟩ := Pipeline.tallyAt_pos hp
    refine ⟨by rw [L_pay]; exact Finset.mem_singleton_self _, ?_⟩
    show lvN q.val < lv (p.cell c) ()
    rw [hq]; exact lv_pay_pos c p
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## Entering and leaving the one pipeline point -/

theorem start_intro (c : Dev nD) :
    iprop(Pipeline.unscopedRestP Pipeline.Prefetch.none cfg0.spec c (fun b => m ((c : Thread nD τ).loc b)) ∗ levAts L lv
        ∗ Pipeline.launchCred (fun d : Dev nD => owedOf d Finset.univ) c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ← semsZero_eq]
  unfold Φ₁ scratch
  iintro ⟨Hr, Hz⟩
  isplitr; · iempintro
  isplitl [Hz]; · iexact Hz
  iexact Hr

/-! ## The arrays after the run -/

/-- The result array's one block is the whole array, written back after the one point: it ends as what the body left. -/
theorem final_out (c : Dev nD) : (dats m ρ 0 c).arrAt (2 : Fin 3) cfg0.N = outFinal m ρ := by
  rw [show cfg0.N = (t0_0 : Fin cfg0.N).val + 1 from rfl, (dats m ρ 0 c).arrAt_succ (2 : Fin 3) t0_0, if_pos (flush0_2 _)]
  have hz : (fun a => (win0_2.index t0_0) a * main_v1.ty.shape.size a) = fun _ => 0 := funext fun a => by fin_cases a <;> rfl
  rw [Memref.write_access_unit_zero_univ (Elt F) main_v1 hz]
  rfl

/-- The argument arrays are inputs: they hold what they held. -/
theorem final_x (c : Dev nD) : (dats m ρ 0 c).arrAt (0 : Fin 3) cfg0.N = m ((c : Thread nD τ).loc main_arg0) :=
  (dats (F := F) m ρ 0 c).arrAt_in (0 : Fin 3) rfl _
theorem final_w (c : Dev nD) : (dats m ρ 0 c).arrAt (1 : Fin 3) cfg0.N = m ((c : Thread nD τ).loc main_arg1) :=
  (dats (F := F) m ρ 0 c).arrAt_in (1 : Fin 3) rfl _

/-! ## The run -/

set_option maxRecDepth 8000 in
/-- At the compiled mesh of sixteen devices, for any float values, from any memory with zero counters: given one device's
    body obligation at a symbolic place, every weakly fair execution of @main terminates, every device's result array ends
    as the all-reduced, activated product, and the two argument arrays hold what they held. -/
theorem run (hbody : ∀ c, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outFinal m ρ
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := fun d => owedOf d Finset.univ) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 (2 : Fin 3)).trans (final_out m ρ c), ((h c).1 (0 : Fin 3)).trans (final_x m ρ c), ((h c).1 (1 : Fin 3)).trans (final_w m ρ c)⟩)

/-- info: 'Cert.Kernel.Hand.run' depends on axioms: [propext, Classical.choice, Quot.sound] -/
#guard_msgs in #print axioms run

end Cert.Kernel.Hand

end
-- ==== Proof.Bits.DevArith.lean ====
/-
  Closed forms for the integer arithmetic of the ring kernel: which device each signal and each remote copy
  addresses, and at which row of the 1024 x 1024 buffer each 16-row strip it touches begins.

  The kernel computes both from the device's logical id with 32-bit signed division, remainder, comparison and
  selection. On the sixteen devices that word arithmetic agrees with the ring of the devices (`posOf`, `devAt`): an addressed device
  is always the neighbour one position before (`lft`) or after (`rgt`) the device on the ring, and a strip's first row
  is `chunkRow c a + 16 * j`, the `j`-th strip of the chunk `a` positions after the device's own. Each statement
  ranges over finitely many cases (sixteen devices, at most eight ring steps, four strips) and is decided by
  evaluating both sides in every case.
-/
import proofs.«900799_g7700000000000800_dist_gemm_ar_m1024_k1024_n1024_f32_gelu_v7x_i16_1_alg».proof.Proof.Bits.Ring
import proofs.«900799_g7700000000000800_dist_gemm_ar_m1024_k1024_n1024_f32_gelu_v7x_i16_1_alg».proof.Proof.Gen.Kernel

set_option Elab.async false

namespace Cert.Kernel.Hand

open Idealize.ShloMosaic

/-! ## The addressed device

For each site `N` of the program, `devN_val` is the equation between numbers and `devN_eq` the same equation between
devices, for whatever proof of the bound the device was built with. In program order: the two barrier signals go
to the left and the right neighbour; in the reduce-scatter each strip of a step is sent left, then right, and the
last step only left; in the all-gather each strip of a step is sent right, then left, and the last step only right. -/

theorem dev1_val (c : Dev nD) : k0_dev1 c = (lft c).val := by revert c; decide +kernel
theorem dev1_eq (c : Dev nD) (h : k0_dev1 c < nD) : (⟨k0_dev1 c, h⟩ : Dev nD) = lft c := Fin.ext (dev1_val c)
theorem dev2_val (c : Dev nD) : k0_dev2 c = (rgt c).val := by revert c; decide +kernel
theorem dev2_eq (c : Dev nD) (h : k0_dev2 c < nD) : (⟨k0_dev2 c, h⟩ : Dev nD) = rgt c := Fin.ext (dev2_val c)
theorem dev3_val (c : Dev nD) : k0_dev3 c = (lft c).val := by revert c; decide +kernel
theorem dev3_eq (c : Dev nD) (h : k0_dev3 c < nD) : (⟨k0_dev3 c, h⟩ : Dev nD) = lft c := Fin.ext (dev3_val c)
theorem dev4_val (c : Dev nD) : k0_dev4 c = (rgt c).val := by revert c; decide +kernel
theorem dev4_eq (c : Dev nD) (h : k0_dev4 c < nD) : (⟨k0_dev4 c, h⟩ : Dev nD) = rgt c := Fin.ext (dev4_val c)
theorem dev5_val (c : Dev nD) : k0_dev5 c = (lft c).val := by revert c; decide +kernel
theorem dev5_eq (c : Dev nD) (h : k0_dev5 c < nD) : (⟨k0_dev5 c, h⟩ : Dev nD) = lft c := Fin.ext (dev5_val c)
theorem dev6_val (c : Dev nD) : k0_dev6 c = (rgt c).val := by revert c; decide +kernel
theorem dev6_eq (c : Dev nD) (h : k0_dev6 c < nD) : (⟨k0_dev6 c, h⟩ : Dev nD) = rgt c := Fin.ext (dev6_val c)
theorem dev7_val (c : Dev nD) : k0_dev7 c = (lft c).val := by revert c; decide +kernel
theorem dev7_eq (c : Dev nD) (h : k0_dev7 c < nD) : (⟨k0_dev7 c, h⟩ : Dev nD) = lft c := Fin.ext (dev7_val c)
theorem dev8_val (c : Dev nD) : k0_dev8 c = (rgt c).val := by revert c; decide +kernel
theorem dev8_eq (c : Dev nD) (h : k0_dev8 c < nD) : (⟨k0_dev8 c, h⟩ : Dev nD) = rgt c := Fin.ext (dev8_val c)
theorem dev9_val (c : Dev nD) : k0_dev9 c = (lft c).val := by revert c; decide +kernel
theorem dev9_eq (c : Dev nD) (h : k0_dev9 c < nD) : (⟨k0_dev9 c, h⟩ : Dev nD) = lft c := Fin.ext (dev9_val c)
theorem dev10_val (c : Dev nD) : k0_dev10 c = (rgt c).val := by revert c; decide +kernel
theorem dev10_eq (c : Dev nD) (h : k0_dev10 c < nD) : (⟨k0_dev10 c, h⟩ : Dev nD) = rgt c := Fin.ext (dev10_val c)
theorem dev11_val (c : Dev nD) : k0_dev11 c = (lft c).val := by revert c; decide +kernel
theorem dev11_eq (c : Dev nD) (h : k0_dev11 c < nD) : (⟨k0_dev11 c, h⟩ : Dev nD) = lft c := Fin.ext (dev11_val c)
theorem dev12_val (c : Dev nD) : k0_dev12 c = (rgt c).val := by revert c; decide +kernel
theorem dev12_eq (c : Dev nD) (h : k0_dev12 c < nD) : (⟨k0_dev12 c, h⟩ : Dev nD) = rgt c := Fin.ext (dev12_val c)
theorem dev13_val (c : Dev nD) : k0_dev13 c = (lft c).val := by revert c; decide +kernel
theorem dev13_eq (c : Dev nD) (h : k0_dev13 c < nD) : (⟨k0_dev13 c, h⟩ : Dev nD) = lft c := Fin.ext (dev13_val c)
theorem dev14_val (c : Dev nD) : k0_dev14 c = (rgt c).val := by revert c; decide +kernel
theorem dev14_eq (c : Dev nD) (h : k0_dev14 c < nD) : (⟨k0_dev14 c, h⟩ : Dev nD) = rgt c := Fin.ext (dev14_val c)
theorem dev15_val (c : Dev nD) : k0_dev15 c = (lft c).val := by revert c; decide +kernel
theorem dev15_eq (c : Dev nD) (h : k0_dev15 c < nD) : (⟨k0_dev15 c, h⟩ : Dev nD) = lft c := Fin.ext (dev15_val c)
theorem dev16_val (c : Dev nD) : k0_dev16 c = (rgt c).val := by revert c; decide +kernel
theorem dev16_eq (c : Dev nD) (h : k0_dev16 c < nD) : (⟨k0_dev16 c, h⟩ : Dev nD) = rgt c := Fin.ext (dev16_val c)
theorem dev17_val (c : Dev nD) : k0_dev17 c = (lft c).val := by revert c; decide +kernel
theorem dev17_eq (c : Dev nD) (h : k0_dev17 c < nD) : (⟨k0_dev17 c, h⟩ : Dev nD) = lft c := Fin.ext (dev17_val c)
theorem dev18_val (c : Dev nD) : k0_dev18 c = (rgt c).val := by revert c; decide +kernel
theorem dev18_eq (c : Dev nD) (h : k0_dev18 c < nD) : (⟨k0_dev18 c, h⟩ : Dev nD) = rgt c := Fin.ext (dev18_val c)
theorem dev19_val (c : Dev nD) : k0_dev19 c = (lft c).val := by revert c; decide +kernel
theorem dev19_eq (c : Dev nD) (h : k0_dev19 c < nD) : (⟨k0_dev19 c, h⟩ : Dev nD) = lft c := Fin.ext (dev19_val c)
theorem dev20_val (c : Dev nD) : k0_dev20 c = (rgt c).val := by revert c; decide +kernel
theorem dev20_eq (c : Dev nD) (h : k0_dev20 c < nD) : (⟨k0_dev20 c, h⟩ : Dev nD) = rgt c := Fin.ext (dev20_val c)
theorem dev21_val (c : Dev nD) : k0_dev21 c = (lft c).val := by revert c; decide +kernel
theorem dev21_eq (c : Dev nD) (h : k0_dev21 c < nD) : (⟨k0_dev21 c, h⟩ : Dev nD) = lft c := Fin.ext (dev21_val c)
theorem dev22_val (c : Dev nD) : k0_dev22 c = (rgt c).val := by revert c; decide +kernel
theorem dev22_eq (c : Dev nD) (h : k0_dev22 c < nD) : (⟨k0_dev22 c, h⟩ : Dev nD) = rgt c := Fin.ext (dev22_val c)
theorem dev23_val (c : Dev nD) : k0_dev23 c = (lft c).val := by revert c; decide +kernel
theorem dev23_eq (c : Dev nD) (h : k0_dev23 c < nD) : (⟨k0_dev23 c, h⟩ : Dev nD) = lft c := Fin.ext (dev23_val c)
theorem dev24_val (c : Dev nD) : k0_dev24 c = (rgt c).val := by revert c; decide +kernel
theorem dev24_eq (c : Dev nD) (h : k0_dev24 c < nD) : (⟨k0_dev24 c, h⟩ : Dev nD) = rgt c := Fin.ext (dev24_val c)
theorem dev25_val (c : Dev nD) : k0_dev25 c = (lft c).val := by revert c; decide +kernel
theorem dev25_eq (c : Dev nD) (h : k0_dev25 c < nD) : (⟨k0_dev25 c, h⟩ : Dev nD) = lft c := Fin.ext (dev25_val c)
theorem dev26_val (c : Dev nD) : k0_dev26 c = (rgt c).val := by revert c; decide +kernel
theorem dev26_eq (c : Dev nD) (h : k0_dev26 c < nD) : (⟨k0_dev26 c, h⟩ : Dev nD) = rgt c := Fin.ext (dev26_val c)
theorem dev27_val (c : Dev nD) : k0_dev27 c = (lft c).val := by revert c; decide +kernel
theorem dev27_eq (c : Dev nD) (h : k0_dev27 c < nD) : (⟨k0_dev27 c, h⟩ : Dev nD) = lft c := Fin.ext (dev27_val c)
theorem dev28_val (c : Dev nD) : k0_dev28 c = (rgt c).val := by revert c; decide +kernel
theorem dev28_eq (c : Dev nD) (h : k0_dev28 c < nD) : (⟨k0_dev28 c, h⟩ : Dev nD) = rgt c := Fin.ext (dev28_val c)
theorem dev29_val (c : Dev nD) : k0_dev29 c = (lft c).val := by revert c; decide +kernel
theorem dev29_eq (c : Dev nD) (h : k0_dev29 c < nD) : (⟨k0_dev29 c, h⟩ : Dev nD) = lft c := Fin.ext (dev29_val c)
theorem dev30_val (c : Dev nD) : k0_dev30 c = (rgt c).val := by revert c; decide +kernel
theorem dev30_eq (c : Dev nD) (h : k0_dev30 c < nD) : (⟨k0_dev30 c, h⟩ : Dev nD) = rgt c := Fin.ext (dev30_val c)
theorem dev31_val (c : Dev nD) : k0_dev31 c = (lft c).val := by revert c; decide +kernel
theorem dev31_eq (c : Dev nD) (h : k0_dev31 c < nD) : (⟨k0_dev31 c, h⟩ : Dev nD) = lft c := Fin.ext (dev31_val c)
theorem dev32_val (c : Dev nD) : k0_dev32 c = (rgt c).val := by revert c; decide +kernel
theorem dev32_eq (c : Dev nD) (h : k0_dev32 c < nD) : (⟨k0_dev32 c, h⟩ : Dev nD) = rgt c := Fin.ext (dev32_val c)
theorem dev33_val (c : Dev nD) : k0_dev33 c = (lft c).val := by revert c; decide +kernel
theorem dev33_eq (c : Dev nD) (h : k0_dev33 c < nD) : (⟨k0_dev33 c, h⟩ : Dev nD) = lft c := Fin.ext (dev33_val c)
theorem dev34_val (c : Dev nD) : k0_dev34 c = (rgt c).val := by revert c; decide +kernel
theorem dev34_eq (c : Dev nD) (h : k0_dev34 c < nD) : (⟨k0_dev34 c, h⟩ : Dev nD) = rgt c := Fin.ext (dev34_val c)
theorem dev35_val (c : Dev nD) : k0_dev35 c = (lft c).val := by revert c; decide +kernel
theorem dev35_eq (c : Dev nD) (h : k0_dev35 c < nD) : (⟨k0_dev35 c, h⟩ : Dev nD) = lft c := Fin.ext (dev35_val c)
theorem dev36_val (c : Dev nD) : k0_dev36 c = (rgt c).val := by revert c; decide +kernel
theorem dev36_eq (c : Dev nD) (h : k0_dev36 c < nD) : (⟨k0_dev36 c, h⟩ : Dev nD) = rgt c := Fin.ext (dev36_val c)
theorem dev37_val (c : Dev nD) : k0_dev37 c = (lft c).val := by revert c; decide +kernel
theorem dev37_eq (c : Dev nD) (h : k0_dev37 c < nD) : (⟨k0_dev37 c, h⟩ : Dev nD) = lft c := Fin.ext (dev37_val c)
theorem dev38_val (c : Dev nD) : k0_dev38 c = (rgt c).val := by revert c; decide +kernel
theorem dev38_eq (c : Dev nD) (h : k0_dev38 c < nD) : (⟨k0_dev38 c, h⟩ : Dev nD) = rgt c := Fin.ext (dev38_val c)
theorem dev39_val (c : Dev nD) : k0_dev39 c = (lft c).val := by revert c; decide +kernel
theorem dev39_eq (c : Dev nD) (h : k0_dev39 c < nD) : (⟨k0_dev39 c, h⟩ : Dev nD) = lft c := Fin.ext (dev39_val c)
theorem dev40_val (c : Dev nD) : k0_dev40 c = (rgt c).val := by revert c; decide +kernel
theorem dev40_eq (c : Dev nD) (h : k0_dev40 c < nD) : (⟨k0_dev40 c, h⟩ : Dev nD) = rgt c := Fin.ext (dev40_val c)
theorem dev41_val (c : Dev nD) : k0_dev41 c = (lft c).val := by revert c; decide +kernel
theorem dev41_eq (c : Dev nD) (h : k0_dev41 c < nD) : (⟨k0_dev41 c, h⟩ : Dev nD) = lft c := Fin.ext (dev41_val c)
theorem dev42_val (c : Dev nD) : k0_dev42 c = (rgt c).val := by revert c; decide +kernel
theorem dev42_eq (c : Dev nD) (h : k0_dev42 c < nD) : (⟨k0_dev42 c, h⟩ : Dev nD) = rgt c := Fin.ext (dev42_val c)
theorem dev43_val (c : Dev nD) : k0_dev43 c = (lft c).val := by revert c; decide +kernel
theorem dev43_eq (c : Dev nD) (h : k0_dev43 c < nD) : (⟨k0_dev43 c, h⟩ : Dev nD) = lft c := Fin.ext (dev43_val c)
theorem dev44_val (c : Dev nD) : k0_dev44 c = (rgt c).val := by revert c; decide +kernel
theorem dev44_eq (c : Dev nD) (h : k0_dev44 c < nD) : (⟨k0_dev44 c, h⟩ : Dev nD) = rgt c := Fin.ext (dev44_val c)
theorem dev45_val (c : Dev nD) : k0_dev45 c = (lft c).val := by revert c; decide +kernel
theorem dev45_eq (c : Dev nD) (h : k0_dev45 c < nD) : (⟨k0_dev45 c, h⟩ : Dev nD) = lft c := Fin.ext (dev45_val c)
theorem dev46_val (c : Dev nD) : k0_dev46 c = (rgt c).val := by revert c; decide +kernel
theorem dev46_eq (c : Dev nD) (h : k0_dev46 c < nD) : (⟨k0_dev46 c, h⟩ : Dev nD) = rgt c := Fin.ext (dev46_val c)
theorem dev47_val (c : Dev nD) : k0_dev47 c = (lft c).val := by revert c; decide +kernel
theorem dev47_eq (c : Dev nD) (h : k0_dev47 c < nD) : (⟨k0_dev47 c, h⟩ : Dev nD) = lft c := Fin.ext (dev47_val c)
theorem dev48_val (c : Dev nD) : k0_dev48 c = (rgt c).val := by revert c; decide +kernel
theorem dev48_eq (c : Dev nD) (h : k0_dev48 c < nD) : (⟨k0_dev48 c, h⟩ : Dev nD) = rgt c := Fin.ext (dev48_val c)
theorem dev49_val (c : Dev nD) : k0_dev49 c = (lft c).val := by revert c; decide +kernel
theorem dev49_eq (c : Dev nD) (h : k0_dev49 c < nD) : (⟨k0_dev49 c, h⟩ : Dev nD) = lft c := Fin.ext (dev49_val c)
theorem dev50_val (c : Dev nD) : k0_dev50 c = (rgt c).val := by revert c; decide +kernel
theorem dev50_eq (c : Dev nD) (h : k0_dev50 c < nD) : (⟨k0_dev50 c, h⟩ : Dev nD) = rgt c := Fin.ext (dev50_val c)
theorem dev51_val (c : Dev nD) : k0_dev51 c = (lft c).val := by revert c; decide +kernel
theorem dev51_eq (c : Dev nD) (h : k0_dev51 c < nD) : (⟨k0_dev51 c, h⟩ : Dev nD) = lft c := Fin.ext (dev51_val c)
theorem dev52_val (c : Dev nD) : k0_dev52 c = (rgt c).val := by revert c; decide +kernel
theorem dev52_eq (c : Dev nD) (h : k0_dev52 c < nD) : (⟨k0_dev52 c, h⟩ : Dev nD) = rgt c := Fin.ext (dev52_val c)
theorem dev53_val (c : Dev nD) : k0_dev53 c = (lft c).val := by revert c; decide +kernel
theorem dev53_eq (c : Dev nD) (h : k0_dev53 c < nD) : (⟨k0_dev53 c, h⟩ : Dev nD) = lft c := Fin.ext (dev53_val c)
theorem dev54_val (c : Dev nD) : k0_dev54 c = (rgt c).val := by revert c; decide +kernel
theorem dev54_eq (c : Dev nD) (h : k0_dev54 c < nD) : (⟨k0_dev54 c, h⟩ : Dev nD) = rgt c := Fin.ext (dev54_val c)
theorem dev55_val (c : Dev nD) : k0_dev55 c = (lft c).val := by revert c; decide +kernel
theorem dev55_eq (c : Dev nD) (h : k0_dev55 c < nD) : (⟨k0_dev55 c, h⟩ : Dev nD) = lft c := Fin.ext (dev55_val c)
theorem dev56_val (c : Dev nD) : k0_dev56 c = (rgt c).val := by revert c; decide +kernel
theorem dev56_eq (c : Dev nD) (h : k0_dev56 c < nD) : (⟨k0_dev56 c, h⟩ : Dev nD) = rgt c := Fin.ext (dev56_val c)
theorem dev57_val (c : Dev nD) : k0_dev57 c = (lft c).val := by revert c; decide +kernel
theorem dev57_eq (c : Dev nD) (h : k0_dev57 c < nD) : (⟨k0_dev57 c, h⟩ : Dev nD) = lft c := Fin.ext (dev57_val c)
theorem dev58_val (c : Dev nD) : k0_dev58 c = (rgt c).val := by revert c; decide +kernel
theorem dev58_eq (c : Dev nD) (h : k0_dev58 c < nD) : (⟨k0_dev58 c, h⟩ : Dev nD) = rgt c := Fin.ext (dev58_val c)
theorem dev59_val (c : Dev nD) : k0_dev59 c = (lft c).val := by revert c; decide +kernel
theorem dev59_eq (c : Dev nD) (h : k0_dev59 c < nD) : (⟨k0_dev59 c, h⟩ : Dev nD) = lft c := Fin.ext (dev59_val c)
theorem dev60_val (c : Dev nD) : k0_dev60 c = (lft c).val := by revert c; decide +kernel
theorem dev60_eq (c : Dev nD) (h : k0_dev60 c < nD) : (⟨k0_dev60 c, h⟩ : Dev nD) = lft c := Fin.ext (dev60_val c)
theorem dev61_val (c : Dev nD) : k0_dev61 c = (lft c).val := by revert c; decide +kernel
theorem dev61_eq (c : Dev nD) (h : k0_dev61 c < nD) : (⟨k0_dev61 c, h⟩ : Dev nD) = lft c := Fin.ext (dev61_val c)
theorem dev62_val (c : Dev nD) : k0_dev62 c = (lft c).val := by revert c; decide +kernel
theorem dev62_eq (c : Dev nD) (h : k0_dev62 c < nD) : (⟨k0_dev62 c, h⟩ : Dev nD) = lft c := Fin.ext (dev62_val c)
theorem dev63_val (c : Dev nD) : k0_dev63 c = (rgt c).val := by revert c; decide +kernel
theorem dev63_eq (c : Dev nD) (h : k0_dev63 c < nD) : (⟨k0_dev63 c, h⟩ : Dev nD) = rgt c := Fin.ext (dev63_val c)
theorem dev64_val (c : Dev nD) : k0_dev64 c = (lft c).val := by revert c; decide +kernel
theorem dev64_eq (c : Dev nD) (h : k0_dev64 c < nD) : (⟨k0_dev64 c, h⟩ : Dev nD) = lft c := Fin.ext (dev64_val c)
theorem dev65_val (c : Dev nD) : k0_dev65 c = (rgt c).val := by revert c; decide +kernel
theorem dev65_eq (c : Dev nD) (h : k0_dev65 c < nD) : (⟨k0_dev65 c, h⟩ : Dev nD) = rgt c := Fin.ext (dev65_val c)
theorem dev66_val (c : Dev nD) : k0_dev66 c = (lft c).val := by revert c; decide +kernel
theorem dev66_eq (c : Dev nD) (h : k0_dev66 c < nD) : (⟨k0_dev66 c, h⟩ : Dev nD) = lft c := Fin.ext (dev66_val c)
theorem dev67_val (c : Dev nD) : k0_dev67 c = (rgt c).val := by revert c; decide +kernel
theorem dev67_eq (c : Dev nD) (h : k0_dev67 c < nD) : (⟨k0_dev67 c, h⟩ : Dev nD) = rgt c := Fin.ext (dev67_val c)
theorem dev68_val (c : Dev nD) : k0_dev68 c = (lft c).val := by revert c; decide +kernel
theorem dev68_eq (c : Dev nD) (h : k0_dev68 c < nD) : (⟨k0_dev68 c, h⟩ : Dev nD) = lft c := Fin.ext (dev68_val c)
theorem dev69_val (c : Dev nD) : k0_dev69 c = (rgt c).val := by revert c; decide +kernel
theorem dev69_eq (c : Dev nD) (h : k0_dev69 c < nD) : (⟨k0_dev69 c, h⟩ : Dev nD) = rgt c := Fin.ext (dev69_val c)
theorem dev70_val (c : Dev nD) : k0_dev70 c = (lft c).val := by revert c; decide +kernel
theorem dev70_eq (c : Dev nD) (h : k0_dev70 c < nD) : (⟨k0_dev70 c, h⟩ : Dev nD) = lft c := Fin.ext (dev70_val c)
theorem dev71_val (c : Dev nD) : k0_dev71 c = (rgt c).val := by revert c; decide +kernel
theorem dev71_eq (c : Dev nD) (h : k0_dev71 c < nD) : (⟨k0_dev71 c, h⟩ : Dev nD) = rgt c := Fin.ext (dev71_val c)
theorem dev72_val (c : Dev nD) : k0_dev72 c = (lft c).val := by revert c; decide +kernel
theorem dev72_eq (c : Dev nD) (h : k0_dev72 c < nD) : (⟨k0_dev72 c, h⟩ : Dev nD) = lft c := Fin.ext (dev72_val c)
theorem dev73_val (c : Dev nD) : k0_dev73 c = (rgt c).val := by revert c; decide +kernel
theorem dev73_eq (c : Dev nD) (h : k0_dev73 c < nD) : (⟨k0_dev73 c, h⟩ : Dev nD) = rgt c := Fin.ext (dev73_val c)
theorem dev74_val (c : Dev nD) : k0_dev74 c = (lft c).val := by revert c; decide +kernel
theorem dev74_eq (c : Dev nD) (h : k0_dev74 c < nD) : (⟨k0_dev74 c, h⟩ : Dev nD) = lft c := Fin.ext (dev74_val c)
theorem dev75_val (c : Dev nD) : k0_dev75 c = (rgt c).val := by revert c; decide +kernel
theorem dev75_eq (c : Dev nD) (h : k0_dev75 c < nD) : (⟨k0_dev75 c, h⟩ : Dev nD) = rgt c := Fin.ext (dev75_val c)
theorem dev76_val (c : Dev nD) : k0_dev76 c = (lft c).val := by revert c; decide +kernel
theorem dev76_eq (c : Dev nD) (h : k0_dev76 c < nD) : (⟨k0_dev76 c, h⟩ : Dev nD) = lft c := Fin.ext (dev76_val c)
theorem dev77_val (c : Dev nD) : k0_dev77 c = (rgt c).val := by revert c; decide +kernel
theorem dev77_eq (c : Dev nD) (h : k0_dev77 c < nD) : (⟨k0_dev77 c, h⟩ : Dev nD) = rgt c := Fin.ext (dev77_val c)
theorem dev78_val (c : Dev nD) : k0_dev78 c = (lft c).val := by revert c; decide +kernel
theorem dev78_eq (c : Dev nD) (h : k0_dev78 c < nD) : (⟨k0_dev78 c, h⟩ : Dev nD) = lft c := Fin.ext (dev78_val c)
theorem dev79_val (c : Dev nD) : k0_dev79 c = (rgt c).val := by revert c; decide +kernel
theorem dev79_eq (c : Dev nD) (h : k0_dev79 c < nD) : (⟨k0_dev79 c, h⟩ : Dev nD) = rgt c := Fin.ext (dev79_val c)
theorem dev80_val (c : Dev nD) : k0_dev80 c = (lft c).val := by revert c; decide +kernel
theorem dev80_eq (c : Dev nD) (h : k0_dev80 c < nD) : (⟨k0_dev80 c, h⟩ : Dev nD) = lft c := Fin.ext (dev80_val c)
theorem dev81_val (c : Dev nD) : k0_dev81 c = (rgt c).val := by revert c; decide +kernel
theorem dev81_eq (c : Dev nD) (h : k0_dev81 c < nD) : (⟨k0_dev81 c, h⟩ : Dev nD) = rgt c := Fin.ext (dev81_val c)
theorem dev82_val (c : Dev nD) : k0_dev82 c = (lft c).val := by revert c; decide +kernel
theorem dev82_eq (c : Dev nD) (h : k0_dev82 c < nD) : (⟨k0_dev82 c, h⟩ : Dev nD) = lft c := Fin.ext (dev82_val c)
theorem dev83_val (c : Dev nD) : k0_dev83 c = (rgt c).val := by revert c; decide +kernel
theorem dev83_eq (c : Dev nD) (h : k0_dev83 c < nD) : (⟨k0_dev83 c, h⟩ : Dev nD) = rgt c := Fin.ext (dev83_val c)
theorem dev84_val (c : Dev nD) : k0_dev84 c = (lft c).val := by revert c; decide +kernel
theorem dev84_eq (c : Dev nD) (h : k0_dev84 c < nD) : (⟨k0_dev84 c, h⟩ : Dev nD) = lft c := Fin.ext (dev84_val c)
theorem dev85_val (c : Dev nD) : k0_dev85 c = (rgt c).val := by revert c; decide +kernel
theorem dev85_eq (c : Dev nD) (h : k0_dev85 c < nD) : (⟨k0_dev85 c, h⟩ : Dev nD) = rgt c := Fin.ext (dev85_val c)
theorem dev86_val (c : Dev nD) : k0_dev86 c = (lft c).val := by revert c; decide +kernel
theorem dev86_eq (c : Dev nD) (h : k0_dev86 c < nD) : (⟨k0_dev86 c, h⟩ : Dev nD) = lft c := Fin.ext (dev86_val c)
theorem dev87_val (c : Dev nD) : k0_dev87 c = (rgt c).val := by revert c; decide +kernel
theorem dev87_eq (c : Dev nD) (h : k0_dev87 c < nD) : (⟨k0_dev87 c, h⟩ : Dev nD) = rgt c := Fin.ext (dev87_val c)
theorem dev88_val (c : Dev nD) : k0_dev88 c = (lft c).val := by revert c; decide +kernel
theorem dev88_eq (c : Dev nD) (h : k0_dev88 c < nD) : (⟨k0_dev88 c, h⟩ : Dev nD) = lft c := Fin.ext (dev88_val c)
theorem dev89_val (c : Dev nD) : k0_dev89 c = (rgt c).val := by revert c; decide +kernel
theorem dev89_eq (c : Dev nD) (h : k0_dev89 c < nD) : (⟨k0_dev89 c, h⟩ : Dev nD) = rgt c := Fin.ext (dev89_val c)
theorem dev90_val (c : Dev nD) : k0_dev90 c = (lft c).val := by revert c; decide +kernel
theorem dev90_eq (c : Dev nD) (h : k0_dev90 c < nD) : (⟨k0_dev90 c, h⟩ : Dev nD) = lft c := Fin.ext (dev90_val c)
theorem dev91_val (c : Dev nD) : k0_dev91 c = (rgt c).val := by revert c; decide +kernel
theorem dev91_eq (c : Dev nD) (h : k0_dev91 c < nD) : (⟨k0_dev91 c, h⟩ : Dev nD) = rgt c := Fin.ext (dev91_val c)
theorem dev92_val (c : Dev nD) : k0_dev92 c = (lft c).val := by revert c; decide +kernel
theorem dev92_eq (c : Dev nD) (h : k0_dev92 c < nD) : (⟨k0_dev92 c, h⟩ : Dev nD) = lft c := Fin.ext (dev92_val c)
theorem dev93_val (c : Dev nD) : k0_dev93 c = (rgt c).val := by revert c; decide +kernel
theorem dev93_eq (c : Dev nD) (h : k0_dev93 c < nD) : (⟨k0_dev93 c, h⟩ : Dev nD) = rgt c := Fin.ext (dev93_val c)
theorem dev94_val (c : Dev nD) : k0_dev94 c = (lft c).val := by revert c; decide +kernel
theorem dev94_eq (c : Dev nD) (h : k0_dev94 c < nD) : (⟨k0_dev94 c, h⟩ : Dev nD) = lft c := Fin.ext (dev94_val c)
theorem dev95_val (c : Dev nD) : k0_dev95 c = (rgt c).val := by revert c; decide +kernel
theorem dev95_eq (c : Dev nD) (h : k0_dev95 c < nD) : (⟨k0_dev95 c, h⟩ : Dev nD) = rgt c := Fin.ext (dev95_val c)
theorem dev96_val (c : Dev nD) : k0_dev96 c = (lft c).val := by revert c; decide +kernel
theorem dev96_eq (c : Dev nD) (h : k0_dev96 c < nD) : (⟨k0_dev96 c, h⟩ : Dev nD) = lft c := Fin.ext (dev96_val c)
theorem dev97_val (c : Dev nD) : k0_dev97 c = (rgt c).val := by revert c; decide +kernel
theorem dev97_eq (c : Dev nD) (h : k0_dev97 c < nD) : (⟨k0_dev97 c, h⟩ : Dev nD) = rgt c := Fin.ext (dev97_val c)
theorem dev98_val (c : Dev nD) : k0_dev98 c = (lft c).val := by revert c; decide +kernel
theorem dev98_eq (c : Dev nD) (h : k0_dev98 c < nD) : (⟨k0_dev98 c, h⟩ : Dev nD) = lft c := Fin.ext (dev98_val c)
theorem dev99_val (c : Dev nD) : k0_dev99 c = (rgt c).val := by revert c; decide +kernel
theorem dev99_eq (c : Dev nD) (h : k0_dev99 c < nD) : (⟨k0_dev99 c, h⟩ : Dev nD) = rgt c := Fin.ext (dev99_val c)
theorem dev100_val (c : Dev nD) : k0_dev100 c = (lft c).val := by revert c; decide +kernel
theorem dev100_eq (c : Dev nD) (h : k0_dev100 c < nD) : (⟨k0_dev100 c, h⟩ : Dev nD) = lft c := Fin.ext (dev100_val c)
theorem dev101_val (c : Dev nD) : k0_dev101 c = (rgt c).val := by revert c; decide +kernel
theorem dev101_eq (c : Dev nD) (h : k0_dev101 c < nD) : (⟨k0_dev101 c, h⟩ : Dev nD) = rgt c := Fin.ext (dev101_val c)
theorem dev102_val (c : Dev nD) : k0_dev102 c = (lft c).val := by revert c; decide +kernel
theorem dev102_eq (c : Dev nD) (h : k0_dev102 c < nD) : (⟨k0_dev102 c, h⟩ : Dev nD) = lft c := Fin.ext (dev102_val c)
theorem dev103_val (c : Dev nD) : k0_dev103 c = (rgt c).val := by revert c; decide +kernel
theorem dev103_eq (c : Dev nD) (h : k0_dev103 c < nD) : (⟨k0_dev103 c, h⟩ : Dev nD) = rgt c := Fin.ext (dev103_val c)
theorem dev104_val (c : Dev nD) : k0_dev104 c = (lft c).val := by revert c; decide +kernel
theorem dev104_eq (c : Dev nD) (h : k0_dev104 c < nD) : (⟨k0_dev104 c, h⟩ : Dev nD) = lft c := Fin.ext (dev104_val c)
theorem dev105_val (c : Dev nD) : k0_dev105 c = (rgt c).val := by revert c; decide +kernel
theorem dev105_eq (c : Dev nD) (h : k0_dev105 c < nD) : (⟨k0_dev105 c, h⟩ : Dev nD) = rgt c := Fin.ext (dev105_val c)
theorem dev106_val (c : Dev nD) : k0_dev106 c = (lft c).val := by revert c; decide +kernel
theorem dev106_eq (c : Dev nD) (h : k0_dev106 c < nD) : (⟨k0_dev106 c, h⟩ : Dev nD) = lft c := Fin.ext (dev106_val c)
theorem dev107_val (c : Dev nD) : k0_dev107 c = (rgt c).val := by revert c; decide +kernel
theorem dev107_eq (c : Dev nD) (h : k0_dev107 c < nD) : (⟨k0_dev107 c, h⟩ : Dev nD) = rgt c := Fin.ext (dev107_val c)
theorem dev108_val (c : Dev nD) : k0_dev108 c = (lft c).val := by revert c; decide +kernel
theorem dev108_eq (c : Dev nD) (h : k0_dev108 c < nD) : (⟨k0_dev108 c, h⟩ : Dev nD) = lft c := Fin.ext (dev108_val c)
theorem dev109_val (c : Dev nD) : k0_dev109 c = (rgt c).val := by revert c; decide +kernel
theorem dev109_eq (c : Dev nD) (h : k0_dev109 c < nD) : (⟨k0_dev109 c, h⟩ : Dev nD) = rgt c := Fin.ext (dev109_val c)
theorem dev110_val (c : Dev nD) : k0_dev110 c = (lft c).val := by revert c; decide +kernel
theorem dev110_eq (c : Dev nD) (h : k0_dev110 c < nD) : (⟨k0_dev110 c, h⟩ : Dev nD) = lft c := Fin.ext (dev110_val c)
theorem dev111_val (c : Dev nD) : k0_dev111 c = (rgt c).val := by revert c; decide +kernel
theorem dev111_eq (c : Dev nD) (h : k0_dev111 c < nD) : (⟨k0_dev111 c, h⟩ : Dev nD) = rgt c := Fin.ext (dev111_val c)
theorem dev112_val (c : Dev nD) : k0_dev112 c = (lft c).val := by revert c; decide +kernel
theorem dev112_eq (c : Dev nD) (h : k0_dev112 c < nD) : (⟨k0_dev112 c, h⟩ : Dev nD) = lft c := Fin.ext (dev112_val c)
theorem dev113_val (c : Dev nD) : k0_dev113 c = (rgt c).val := by revert c; decide +kernel
theorem dev113_eq (c : Dev nD) (h : k0_dev113 c < nD) : (⟨k0_dev113 c, h⟩ : Dev nD) = rgt c := Fin.ext (dev113_val c)
theorem dev114_val (c : Dev nD) : k0_dev114 c = (lft c).val := by revert c; decide +kernel
theorem dev114_eq (c : Dev nD) (h : k0_dev114 c < nD) : (⟨k0_dev114 c, h⟩ : Dev nD) = lft c := Fin.ext (dev114_val c)
theorem dev115_val (c : Dev nD) : k0_dev115 c = (rgt c).val := by revert c; decide +kernel
theorem dev115_eq (c : Dev nD) (h : k0_dev115 c < nD) : (⟨k0_dev115 c, h⟩ : Dev nD) = rgt c := Fin.ext (dev115_val c)
theorem dev116_val (c : Dev nD) : k0_dev116 c = (lft c).val := by revert c; decide +kernel
theorem dev116_eq (c : Dev nD) (h : k0_dev116 c < nD) : (⟨k0_dev116 c, h⟩ : Dev nD) = lft c := Fin.ext (dev116_val c)
theorem dev117_val (c : Dev nD) : k0_dev117 c = (rgt c).val := by revert c; decide +kernel
theorem dev117_eq (c : Dev nD) (h : k0_dev117 c < nD) : (⟨k0_dev117 c, h⟩ : Dev nD) = rgt c := Fin.ext (dev117_val c)
theorem dev118_val (c : Dev nD) : k0_dev118 c = (lft c).val := by revert c; decide +kernel
theorem dev118_eq (c : Dev nD) (h : k0_dev118 c < nD) : (⟨k0_dev118 c, h⟩ : Dev nD) = lft c := Fin.ext (dev118_val c)
theorem dev119_val (c : Dev nD) : k0_dev119 c = (rgt c).val := by revert c; decide +kernel
theorem dev119_eq (c : Dev nD) (h : k0_dev119 c < nD) : (⟨k0_dev119 c, h⟩ : Dev nD) = rgt c := Fin.ext (dev119_val c)
theorem dev120_val (c : Dev nD) : k0_dev120 c = (rgt c).val := by revert c; decide +kernel
theorem dev120_eq (c : Dev nD) (h : k0_dev120 c < nD) : (⟨k0_dev120 c, h⟩ : Dev nD) = rgt c := Fin.ext (dev120_val c)
theorem dev121_val (c : Dev nD) : k0_dev121 c = (rgt c).val := by revert c; decide +kernel
theorem dev121_eq (c : Dev nD) (h : k0_dev121 c < nD) : (⟨k0_dev121 c, h⟩ : Dev nD) = rgt c := Fin.ext (dev121_val c)
theorem dev122_val (c : Dev nD) : k0_dev122 c = (rgt c).val := by revert c; decide +kernel
theorem dev122_eq (c : Dev nD) (h : k0_dev122 c < nD) : (⟨k0_dev122 c, h⟩ : Dev nD) = rgt c := Fin.ext (dev122_val c)

/-! ## The first row of a strip

`chunkRow c a` is the first row of the chunk `a` positions after the device's own on the ring, and a chunk is cut
in four strips of sixteen rows. Every slice of the 1024 x 1024 buffer begins in column 0, at the row given here. The
distance `a` moves one chunk per ring step `s`: away from the device in one direction of the ring, towards it in the
other. -/

/-- The three literal arguments of the `r`-th use of the first offset function: a base distance (8 or 1), the ring
step, and the strip's row inside its chunk. -/
theorem off1_at_eq (r : Fin 60) :
    k0_off1_at r = (BitVec.ofNat 32 (if r.val < 32 then 8 else 1),
      BitVec.ofNat 32 (if r.val < 32 then r.val / 4 else (r.val - 32) / 4), BitVec.ofNat 32 (16 * (r.val % 4))) := by
  revert r; decide +kernel

/-- Over the table of its uses: the chunk at distance `8 + s` (the first 32 rows of the table, `s = r / 4`) or
`1 + s` (the other 28, `s = (r - 32) / 4`), strip `r % 4`. -/
theorem off1_eq (c : Dev nD) (r : Fin 60) :
    k0_off1 c (k0_off1_at r).1 (k0_off1_at r).2.1 (k0_off1_at r).2.2
      = ![chunkRow c (if r.val < 32 then 8 + r.val / 4 else 1 + (r.val - 32) / 4) + 16 * (r.val % 4), 0] := by
  funext a; fin_cases a <;> (revert c r; decide +kernel)

/-- The same with the base distance 8 spelled out: step `s` of eight, strip `j`. -/
theorem off1_eq_far (c : Dev nD) (s : Fin 8) (j : Fin 4) :
    k0_off1 c 8#32 (BitVec.ofNat 32 s.val) (BitVec.ofNat 32 (16 * j.val)) = ![chunkRow c (8 + s.val) + 16 * j.val, 0] := by
  funext a; fin_cases a <;> (revert c s j; decide +kernel)

/-- The same with the base distance 1 spelled out: step `s` of seven, strip `j`. -/
theorem off1_eq_near (c : Dev nD) (s : Fin 7) (j : Fin 4) :
    k0_off1 c 1#32 (BitVec.ofNat 32 s.val) (BitVec.ofNat 32 (16 * j.val)) = ![chunkRow c (1 + s.val) + 16 * j.val, 0] := by
  funext a; fin_cases a <;> (revert c s j; decide +kernel)

theorem off2_eq (c : Dev nD) (s : Fin 7) (j : Fin 4) :
    k0_off2 c (BitVec.ofNat 32 s.val) (BitVec.ofNat 32 (16 * j.val)) = ![chunkRow c (7 - s.val) + 16 * j.val, 0] := by
  funext a; fin_cases a <;> (revert c s j; decide +kernel)

theorem off3_eq (c : Dev nD) (s : Fin 8) (j : Fin 4) :
    k0_off3 c (BitVec.ofNat 32 s.val) (BitVec.ofNat 32 (16 * j.val)) = ![chunkRow c (9 + s.val) + 16 * j.val, 0] := by
  funext a; fin_cases a <;> (revert c s j; decide +kernel)

theorem off4_eq (c : Dev nD) (s : Fin 7) (j : Fin 4) :
    k0_off4 c (BitVec.ofNat 32 s.val) (BitVec.ofNat 32 (16 * j.val)) = ![chunkRow c (6 - s.val) + 16 * j.val, 0] := by
  funext a; fin_cases a <;> (revert c s j; decide +kernel)

/-- The device's own chunk. -/
theorem off5_eq (c : Dev nD) (j : Fin 4) :
    k0_off5 c (BitVec.ofNat 32 (16 * j.val)) = ![chunkRow c 0 + 16 * j.val, 0] := by
  funext a; fin_cases a <;> (revert c j; decide +kernel)

theorem off6_eq (c : Dev nD) (s : Fin 8) (j : Fin 4) :
    k0_off6 c (BitVec.ofNat 32 s.val) (BitVec.ofNat 32 (16 * j.val)) = ![chunkRow c (16 - s.val) + 16 * j.val, 0] := by
  funext a; fin_cases a <;> (revert c s j; decide +kernel)

theorem off7_eq (c : Dev nD) (s : Fin 7) (j : Fin 4) :
    k0_off7 c (BitVec.ofNat 32 s.val) (BitVec.ofNat 32 (16 * j.val)) = ![chunkRow c s.val + 16 * j.val, 0] := by
  funext a; fin_cases a <;> (revert c s j; decide +kernel)

theorem off8_eq (c : Dev nD) (s : Fin 8) (j : Fin 4) :
    k0_off8 c (BitVec.ofNat 32 s.val) (BitVec.ofNat 32 (16 * j.val)) = ![chunkRow c (15 - s.val) + 16 * j.val, 0] := by
  funext a; fin_cases a <;> (revert c s j; decide +kernel)

end Cert.Kernel.Hand
-- ==== Proof.Bits.FamReduce.lean ====
/-
  Step lemmas for the reduce phase of the ring all-reduce, one per kind of effect, each for an arbitrary device, ring
  step and strip.

  A transfer to a neighbour pays two duties at once: the departure duty of the sender's own cell, whose payload is
  nothing, and the arrival duty of the neighbour's cell, whose payload is the landed strip together with the sender's
  source strip (the receiver is the next to write that strip of the sender's buffer). A wait on one of the device's own
  cells takes the strip's credit off the counter and hands the owner the cell's payload.
-/
import proofs.«900799_g7700000000000800_dist_gemm_ar_m1024_k1024_n1024_f32_gelu_v7x_i16_1_alg».proof.Proof.Bits.Iface
import proofs.«900799_g7700000000000800_dist_gemm_ar_m1024_k1024_n1024_f32_gelu_v7x_i16_1_alg».proof.Proof.Bits.Sched
import proofs.«900799_g7700000000000800_dist_gemm_ar_m1024_k1024_n1024_f32_gelu_v7x_i16_1_alg».proof.Proof.Bits.DevArith

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 241 → ℕ)

/-! ## The cells by number -/

/-- Every cell's invariant and its round-0 fact can be read off the records. -/
theorem records_inv (ck : Dev nD × Fin 241) : records m ρ K ⊢ cellInv ER (ringRd m ρ) (K ck) (kcell ck) := by
  unfold records; exact (BI.Entails.trans BI.sep_and BI.and_elimL).trans (BI.bigSep_elim (Finset.mem_univ ck))
theorem records_reached (ck : Dev nD × Fin 241) : records m ρ K ⊢ reached ER (kcell ck) 0 := by
  unfold records; exact (BI.Entails.trans BI.sep_and BI.and_elimR).trans (BI.bigSep_elim (Finset.mem_univ ck))

/-- The numbers of the four families' cells among a device's 241. -/
def rlIdx (d : Fin 2) (s : Fin 8) (j : Fin 4) : Fin 241 := ⟨1 + 32 * d.val + 4 * s.val + j.val, by have := d.isLt; have := s.isLt; have := j.isLt; omega⟩
def rrIdx (d : Fin 2) (s : Fin 7) (j : Fin 4) : Fin 241 := ⟨65 + 28 * d.val + 4 * s.val + j.val, by have := d.isLt; have := s.isLt; have := j.isLt; omega⟩
def grIdx (d : Fin 2) (s : Fin 8) (j : Fin 4) : Fin 241 := ⟨121 + 32 * d.val + 4 * s.val + j.val, by have := d.isLt; have := s.isLt; have := j.isLt; omega⟩
def glIdx (d : Fin 2) (s : Fin 7) (j : Fin 4) : Fin 241 := ⟨185 + 28 * d.val + 4 * s.val + j.val, by have := d.isLt; have := s.isLt; have := j.isLt; omega⟩

omit [FloatOps F] in
theorem kcell_bar (c : Dev nD) : kcell (c, 0) = barCell c := rfl
omit [FloatOps F] in
theorem kcell_rl (c : Dev nD) (d : Fin 2) (s : Fin 8) (j : Fin 4) : kcell (c, rlIdx d s j) = rlCell c d s j := by
  have := d.isLt; have := s.isLt; have := j.isLt
  show ((c : Thread nD τ), csem (rlIdx d s j)) = ((c : Thread nD τ), SemLoc.dma (sem8 cc0_scratch2 d s j))
  unfold csem rlIdx; rw [if_neg (by show ¬ (1 + 32 * d.val + 4 * s.val + j.val = 0); omega)]
  congr 2; apply Fin.ext; rw [sem8_val_rl]; show 1 + 32 * d.val + 4 * s.val + j.val + 2 = _; omega
omit [FloatOps F] in
theorem kcell_rr (c : Dev nD) (d : Fin 2) (s : Fin 7) (j : Fin 4) : kcell (c, rrIdx d s j) = rrCell c d s j := by
  have := d.isLt; have := s.isLt; have := j.isLt
  show ((c : Thread nD τ), csem (rrIdx d s j)) = ((c : Thread nD τ), SemLoc.dma (sem7 cc0_scratch3 d s j))
  unfold csem rrIdx; rw [if_neg (by show ¬ (65 + 28 * d.val + 4 * s.val + j.val = 0); omega)]
  congr 2; apply Fin.ext; rw [sem7_val_rr]; show 65 + 28 * d.val + 4 * s.val + j.val + 2 = _; omega
omit [FloatOps F] in
theorem kcell_gr (c : Dev nD) (d : Fin 2) (s : Fin 8) (j : Fin 4) : kcell (c, grIdx d s j) = grCell c d s j := by
  have := d.isLt; have := s.isLt; have := j.isLt
  show ((c : Thread nD τ), csem (grIdx d s j)) = ((c : Thread nD τ), SemLoc.dma (sem8 cc0_scratch4 d s j))
  unfold csem grIdx; rw [if_neg (by show ¬ (121 + 32 * d.val + 4 * s.val + j.val = 0); omega)]
  congr 2; apply Fin.ext; rw [sem8_val_gr]; show 121 + 32 * d.val + 4 * s.val + j.val + 2 = _; omega
omit [FloatOps F] in
theorem kcell_gl (c : Dev nD) (d : Fin 2) (s : Fin 7) (j : Fin 4) : kcell (c, glIdx d s j) = glCell c d s j := by
  have := d.isLt; have := s.isLt; have := j.isLt
  show ((c : Thread nD τ), csem (glIdx d s j)) = ((c : Thread nD τ), SemLoc.dma (sem7 cc0_scratch5 d s j))
  unfold csem glIdx; rw [if_neg (by show ¬ (185 + 28 * d.val + 4 * s.val + j.val = 0); omega)]
  congr 2; apply Fin.ext; rw [sem7_val_gl]; show 185 + 28 * d.val + 4 * s.val + j.val + 2 = _; omega

theorem inv_rl (c : Dev nD) (d : Fin 2) (s : Fin 8) (j : Fin 4) : records m ρ K ⊢ cellInv ER (ringRd m ρ) (K (c, rlIdx d s j)) (rlCell c d s j) := by
  have h := records_inv m ρ K (c, rlIdx d s j); rwa [kcell_rl] at h
theorem reached_rl (c : Dev nD) (d : Fin 2) (s : Fin 8) (j : Fin 4) : records m ρ K ⊢ reached ER (rlCell c d s j) 0 := by
  have h := records_reached m ρ K (c, rlIdx d s j); rwa [kcell_rl] at h
theorem inv_rr (c : Dev nD) (d : Fin 2) (s : Fin 7) (j : Fin 4) : records m ρ K ⊢ cellInv ER (ringRd m ρ) (K (c, rrIdx d s j)) (rrCell c d s j) := by
  have h := records_inv m ρ K (c, rrIdx d s j); rwa [kcell_rr] at h
theorem reached_rr (c : Dev nD) (d : Fin 2) (s : Fin 7) (j : Fin 4) : records m ρ K ⊢ reached ER (rrCell c d s j) 0 := by
  have h := records_reached m ρ K (c, rrIdx d s j); rwa [kcell_rr] at h

/-- Every strip's transfer carries the same credit. -/
theorem credit_lS (s : Fin 8) (j : Fin 4) : (lS s j : Memref sig .tc .vmem S16x1024 .f32).view.dmaCredit = N16 := rfl
theorem credit_rS (s : Fin 7) (j : Fin 4) : (rS s j : Memref sig .tc .vmem S16x1024 .f32).view.dmaCredit = N16 := rfl
theorem credit_oS (c : Dev nD) (a : ℕ) (j : Fin 4) : (oS c a j : Memref sig .tc .vmem S16x1024 .f32).view.dmaCredit = N16 := rfl

/-! ## A strip sent to a neighbour -/

/-- A strip `src` of device `c`, holding `X`, sent into the strip `dst` of device `c'`, which `c` holds at some contents:
the departure duty of `c`'s cell is paid with nothing, the arrival duty of `c'`'s cell with the landed strip and the
source strip, both at `X`. -/
theorem wp_send_strip (c c' : Dev nD) (src dst : Memref sig .tc .vmem S16x1024 .f32) (sS sem : DmaSem sig)
    (κ₁ κ₂ : ℕ) {O₀ : CellTallies nD τ sig Unit} (O : CellTallies nD τ sig Unit) (N : ℕ) (W : Waits sig Unit)
    (X : S16x1024.Idx → Elt F .f32)
    (hd₁ : false ∈ (ringRd m ρ).duties (((c : Thread nD τ), .dma sS) : GSem nD τ sig) 0)
    (hd₂ : false ∈ (ringRd m ρ).duties (((c' : Thread nD τ), .dma sem) : GSem nD τ sig) 0)
    (hN : dst.view.dmaCredit = N)
    (hk₁ : (ringRd m ρ).amount (((c : Thread nD τ), .dma sS) : GSem nD τ sig) 0 false = N)
    (hk₂ : (ringRd m ρ).amount (((c' : Thread nD τ), .dma sem) : GSem nD τ sig) 0 false = N)
    (hO : O₀ = O + tallyAt (((c' : Thread nD τ), .dma sem) : GSem nD τ sig) () N)
    (hpay₁ : (emp : sProp 𝕄) ⊢ (ringRd m ρ).payload (((c : Thread nD τ), .dma sS) : GSem nD τ sig) 0 false)
    (hpay₂ : iprop(owns (c' : Thread nD τ) dst fullShare X ∗ owns (c : Thread nD τ) src fullShare X)
      ⊢ (ringRd m ρ).payload (((c' : Thread nD τ), .dma sem) : GSem nD τ sig) 0 false)
    {hsc : (dst : Memref sig (Dev.tc c' : Thread nD τ).2.kind .vmem S16x1024 .f32).view.ref.isScScratch = false}
    {hsrc : src.view.WordExact} {hdst : dst.view.WordExact}
    {hsem : DmaTarget.Typed .vmem (.dma sem) (.remote (Dev.tc c' : Thread nD τ) dst (.dma sS) hsc)}
    {α : Type} {Q : α → sProp 𝕄} {k : PUnit → Prog (TpuEff nD τ sig (Elt F) Λ₀ .tc) α} :
    iprop(cellInv ER (ringRd m ρ) κ₁ (((c : Thread nD τ), .dma sS) : GSem nD τ sig)
        ∗ cellInv ER (ringRd m ρ) κ₂ (((c' : Thread nD τ), .dma sem) : GSem nD τ sig)
        ∗ owns (c : Thread nD τ) src fullShare X
        ∗ (∃ f, dst.view.loc (c' : Thread nD τ) ↦[dst.view.set]{fullShare} f)
        ∗ owes (c : Thread nD τ) O₀ W
        ∗ dutyTok ER (((c : Thread nD τ), .dma sS) : GSem nD τ sig) 0 false ∗ reached ER (((c : Thread nD τ), .dma sS) : GSem nD τ sig) 0
        ∗ dutyTok ER (((c' : Thread nD τ), .dma sem) : GSem nD τ sig) 0 false ∗ reached ER (((c' : Thread nD τ), .dma sem) : GSem nD τ sig) 0)
      ⊢ iprop(((cred (tallyAt (((c : Thread nD τ), .dma sS) : GSem nD τ sig) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sem) hsrc hdst hsem) k) Q) := by
  iintro ⟨HI₁, HI₂, Hsrc, ⟨%fd, Hdst⟩, HO, Ht₁, Hr₁, Ht₂, Hr₂⟩
  ihave Hsrc' := (show owns (c : Thread nD τ) src fullShare X
      ⊢ iprop(∃ f, ⌜src.view.read (Elt F) f = X⌝ ∗ (src.view.loc (c : Thread nD τ) ↦[src.view.set]{fullShare} f)) from .rfl) $$ Hsrc
  icases Hsrc' with ⟨%fs, %hfs, Hsrc⟩
  iapply (Rounds.wp_send_landing_pointsTo 𝒱₀ ER (ringRd m ρ) (c : Thread nD τ) none
      (c' := (c' : Thread nD τ)) (src := src) (dst := dst) (q := fullShare)
      (κ₁ := κ₁) (κ₂ := κ₂) (r₁ := 0) (r₂ := 0) (d₁ := false) (d₂ := false)
      hd₁ hd₂ () () N hN hk₁ hk₂ O hO (W := W) hpay₁
      (by
        have e1 : dst.view.read (Elt F) (dst.view.write (Elt F) fd (src.view.read (Elt F) fs) Finset.univ) = X := by
          rw [View.read_write_univ, hfs]
        refine BI.Entails.trans ?_ hpay₂
        exact BI.sep_mono ((owns_intro (c' : Thread nD τ) dst fullShare _).trans (Entails.of_eq (by rw [e1])))
          ((owns_intro (c : Thread nD τ) src fullShare fs).trans (Entails.of_eq (by rw [hfs])))))
    $$ [HI₁ HI₂ Hsrc Hdst HO Ht₁ Hr₁ Ht₂ Hr₂]
  isplitl [HI₁]; · iexact HI₁
  isplitl [HI₂]; · iexact HI₂
  isplitl [Hsrc]; · iexact Hsrc
  isplitl [Hdst]; · iexact Hdst
  isplitl [HO]; · iexact HO
  isplitl [Ht₁]; · iexact Ht₁
  isplitl [Hr₁]; · iexact Hr₁
  isplitl [Ht₂]; · iexact Ht₂
  iexact Hr₂

/-- Device `c` sends strip `j` of the chunk at distance `8 + s`, holding what it has summed so far, into slot `s` of its
left neighbour's buffer. Afterwards it no longer owes that arrival. Here the source strip is written by its row. -/
theorem wp_rl_send_canon (c : Dev nD) (s : Fin 8) (j : Fin 4) (n : Dev nD) (hn : n = lft c) (S : Finset Pay) (hS : Pay.rl s j ∈ S)
    (W : Waits sig Unit) {V : S16x1024.Idx → Elt F .f32} (hV : V = accL m ρ s.val c j)
    {hsc : (lS s j : Memref sig (Dev.tc n : Thread nD τ).2.kind .vmem S16x1024 .f32).view.ref.isScScratch = false}
    {hsrc : (oS c (8 + s.val) j : Memref sig .tc .vmem S16x1024 .f32).view.WordExact}
    {hdst : (lS s j : Memref sig .tc .vmem S16x1024 .f32).view.WordExact}
    {hsem : DmaTarget.Typed .vmem (.dma (sem8 cc0_scratch2 1 s j))
      (.remote (Dev.tc n : Thread nD τ) (lS s j : Memref sig .tc .vmem S16x1024 .f32) (.dma (sem8 cc0_scratch2 0 s j)) hsc)}
    {α : Type} {Q : α → sProp 𝕄} {k : PUnit → Prog (TpuEff nD τ sig (Elt F) Λ₀ .tc) α} :
    iprop(records m ρ K ∗ owns (c : Thread nD τ) (oS c (8 + s.val) j) fullShare V
        ∗ (∃ f, (lS s j : Memref sig .tc .vmem S16x1024 .f32).view.loc (lft c : Thread nD τ) ↦[(lS s j : Memref sig .tc .vmem S16x1024 .f32).view.set]{fullShare} f)
        ∗ owes (c : Thread nD τ) (owedOf c S) W
        ∗ dutyTok ER (rlCell c 0 s j) 0 false ∗ dutyTok ER (rlCell (lft c) 1 s j) 0 false)
      ⊢ iprop(((cred (tallyAt (rlCell c 0 s j) () N16) ∗ owes (c : Thread nD τ) (owedOf c (S.erase (.rl s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS c (8 + s.val) j) (.remote (Dev.tc n : Thread nD τ) (lS s j) (.dma (sem8 cc0_scratch2 0 s j)) hsc)
                (.dma (sem8 cc0_scratch2 1 s j)) hsrc hdst hsem) k) Q) := by
  subst hn; subst hV
  iintro ⟨#Hrec, Hsrc, Hdst, HO, Ht₁, Ht₂⟩
  iapply (wp_send_strip m ρ c (lft c) (oS c (8 + s.val) j) (lS s j) (sem8 cc0_scratch2 0 s j) (sem8 cc0_scratch2 1 s j)
      (K (c, rlIdx 0 s j)) (K (lft c, rlIdx 1 s j)) (owedOf c (S.erase (.rl s j))) N16 W (accL m ρ s.val c j)
      (by rw [duties_rl m ρ c 0 s j]; exact Finset.mem_singleton_self _)
      (by rw [duties_rl m ρ (lft c) 1 s j]; exact Finset.mem_singleton_self _)
      (credit_lS s j) (amount_rl m ρ c 0 s j false) (amount_rl m ρ (lft c) 1 s j false)
      (owedOf_erase c S (.rl s j) hS)
      (by rw [payload_rl_dep m ρ c s j])
      (by rw [payload_rl_arr m ρ (lft c) s j]; unfold rlArr; rw [rgt_lft]))
    $$ [Hsrc Hdst HO Ht₁ Ht₂]
  isplitr; · iapply (inv_rl m ρ K c 0 s j); iexact Hrec
  isplitr; · iapply (inv_rl m ρ K (lft c) 1 s j); iexact Hrec
  isplitl [Hsrc]; · iexact Hsrc
  isplitl [Hdst]; · iexact Hdst
  isplitl [HO]; · iexact HO
  isplitl [Ht₁]; · iexact Ht₁
  isplitr; · iapply (reached_rl m ρ K c 0 s j); iexact Hrec
  isplitl [Ht₂]; · iexact Ht₂
  iapply (reached_rl m ρ K (lft c) 1 s j); iexact Hrec

/-- The same with the source strip cut at any offset equal to the strip's: the form a use in the program has, where the
offset is computed from the device's id. -/
theorem wp_rl_send (c : Dev nD) (s : Fin 8) (j : Fin 4) (n : Dev nD) (hn : n = lft c)
    {off : Fin 2 → ℕ} (hoff : off = ![chunkRow c (8 + s.val) + 16 * j.val, 0])
    {hinb : ∀ a, off a + S16x1024.size a ≤ S1024x1024.size a}
    {hst : ∀ a, (Rect.unit (s := S1024x1024) off S16x1024.size hinb).stride a = 1}
    (S : Finset Pay) (hS : Pay.rl s j ∈ S)
    (W : Waits sig Unit) {V : S16x1024.Idx → Elt F .f32} (hV : V = accL m ρ s.val c j)
    {hsc : (lS s j : Memref sig (Dev.tc n : Thread nD τ).2.kind .vmem S16x1024 .f32).view.ref.isScScratch = false}
    {hsrc : ((oM).slice (Rect.unit (s := S1024x1024) off S16x1024.size hinb) hst : Memref sig .tc .vmem S16x1024 .f32).view.WordExact}
    {hdst : (lS s j : Memref sig .tc .vmem S16x1024 .f32).view.WordExact}
    {hsem : DmaTarget.Typed .vmem (.dma (sem8 cc0_scratch2 1 s j))
      (.remote (Dev.tc n : Thread nD τ) (lS s j : Memref sig .tc .vmem S16x1024 .f32) (.dma (sem8 cc0_scratch2 0 s j)) hsc)}
    {α : Type} {Q : α → sProp 𝕄} {k : PUnit → Prog (TpuEff nD τ sig (Elt F) Λ₀ .tc) α} :
    iprop(records m ρ K ∗ owns (c : Thread nD τ) (oS c (8 + s.val) j) fullShare V
        ∗ (∃ f, (lS s j : Memref sig .tc .vmem S16x1024 .f32).view.loc (lft c : Thread nD τ) ↦[(lS s j : Memref sig .tc .vmem S16x1024 .f32).view.set]{fullShare} f)
        ∗ owes (c : Thread nD τ) (owedOf c S) W
        ∗ dutyTok ER (rlCell c 0 s j) 0 false ∗ dutyTok ER (rlCell (lft c) 1 s j) 0 false)
      ⊢ iprop(((cred (tallyAt (rlCell c 0 s j) () N16) ∗ owes (c : Thread nD τ) (owedOf c (S.erase (.rl s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM).slice (Rect.unit (s := S1024x1024) off S16x1024.size hinb) hst : Memref sig .tc .vmem S16x1024 .f32)
                (.remote (Dev.tc n : Thread nD τ) (lS s j) (.dma (sem8 cc0_scratch2 0 s j)) hsc)
                (.dma (sem8 cc0_scratch2 1 s j)) hsrc hdst hsem) k) Q) := by
  subst hoff
  exact wp_rl_send_canon m ρ K c s j n hn S hS W hV

/-! ## A strip sent to the right neighbour -/

/-- Device `c` sends strip `j` of the chunk at distance `7 - s`, holding what it has summed so far, into slot `s` of its
right neighbour's buffer. Afterwards it no longer owes that arrival. Here the source strip is written by its row. -/
theorem wp_rr_send_canon (c : Dev nD) (s : Fin 7) (j : Fin 4) (n : Dev nD) (hn : n = rgt c) (S : Finset Pay) (hS : Pay.rr s j ∈ S)
    (W : Waits sig Unit) {V : S16x1024.Idx → Elt F .f32} (hV : V = accR m ρ s.val c j)
    {hsc : (rS s j : Memref sig (Dev.tc n : Thread nD τ).2.kind .vmem S16x1024 .f32).view.ref.isScScratch = false}
    {hsrc : (oS c (7 - s.val) j : Memref sig .tc .vmem S16x1024 .f32).view.WordExact}
    {hdst : (rS s j : Memref sig .tc .vmem S16x1024 .f32).view.WordExact}
    {hsem : DmaTarget.Typed .vmem (.dma (sem7 cc0_scratch3 1 s j))
      (.remote (Dev.tc n : Thread nD τ) (rS s j : Memref sig .tc .vmem S16x1024 .f32) (.dma (sem7 cc0_scratch3 0 s j)) hsc)}
    {α : Type} {Q : α → sProp 𝕄} {k : PUnit → Prog (TpuEff nD τ sig (Elt F) Λ₀ .tc) α} :
    iprop(records m ρ K ∗ owns (c : Thread nD τ) (oS c (7 - s.val) j) fullShare V
        ∗ (∃ f, (rS s j : Memref sig .tc .vmem S16x1024 .f32).view.loc (rgt c : Thread nD τ) ↦[(rS s j : Memref sig .tc .vmem S16x1024 .f32).view.set]{fullShare} f)
        ∗ owes (c : Thread nD τ) (owedOf c S) W
        ∗ dutyTok ER (rrCell c 0 s j) 0 false ∗ dutyTok ER (rrCell (rgt c) 1 s j) 0 false)
      ⊢ iprop(((cred (tallyAt (rrCell c 0 s j) () N16) ∗ owes (c : Thread nD τ) (owedOf c (S.erase (.rr s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS c (7 - s.val) j) (.remote (Dev.tc n : Thread nD τ) (rS s j) (.dma (sem7 cc0_scratch3 0 s j)) hsc)
                (.dma (sem7 cc0_scratch3 1 s j)) hsrc hdst hsem) k) Q) := by
  subst hn; subst hV
  iintro ⟨#Hrec, Hsrc, Hdst, HO, Ht₁, Ht₂⟩
  iapply (wp_send_strip m ρ c (rgt c) (oS c (7 - s.val) j) (rS s j) (sem7 cc0_scratch3 0 s j) (sem7 cc0_scratch3 1 s j)
      (K (c, rrIdx 0 s j)) (K (rgt c, rrIdx 1 s j)) (owedOf c (S.erase (.rr s j))) N16 W (accR m ρ s.val c j)
      (by rw [duties_rr m ρ c 0 s j]; exact Finset.mem_singleton_self _)
      (by rw [duties_rr m ρ (rgt c) 1 s j]; exact Finset.mem_singleton_self _)
      (credit_rS s j) (amount_rr m ρ c 0 s j false) (amount_rr m ρ (rgt c) 1 s j false)
      (owedOf_erase c S (.rr s j) hS)
      (by rw [payload_rr_dep m ρ c s j])
      (by rw [payload_rr_arr m ρ (rgt c) s j]; unfold rrArr; rw [lft_rgt]))
    $$ [Hsrc Hdst HO Ht₁ Ht₂]
  isplitr; · iapply (inv_rr m ρ K c 0 s j); iexact Hrec
  isplitr; · iapply (inv_rr m ρ K (rgt c) 1 s j); iexact Hrec
  isplitl [Hsrc]; · iexact Hsrc
  isplitl [Hdst]; · iexact Hdst
  isplitl [HO]; · iexact HO
  isplitl [Ht₁]; · iexact Ht₁
  isplitr; · iapply (reached_rr m ρ K c 0 s j); iexact Hrec
  isplitl [Ht₂]; · iexact Ht₂
  iapply (reached_rr m ρ K (rgt c) 1 s j); iexact Hrec

/-- The same with the source strip cut at any offset equal to the strip's. -/
theorem wp_rr_send (c : Dev nD) (s : Fin 7) (j : Fin 4) (n : Dev nD) (hn : n = rgt c)
    {off : Fin 2 → ℕ} (hoff : off = ![chunkRow c (7 - s.val) + 16 * j.val, 0])
    {hinb : ∀ a, off a + S16x1024.size a ≤ S1024x1024.size a}
    {hst : ∀ a, (Rect.unit (s := S1024x1024) off S16x1024.size hinb).stride a = 1}
    (S : Finset Pay) (hS : Pay.rr s j ∈ S)
    (W : Waits sig Unit) {V : S16x1024.Idx → Elt F .f32} (hV : V = accR m ρ s.val c j)
    {hsc : (rS s j : Memref sig (Dev.tc n : Thread nD τ).2.kind .vmem S16x1024 .f32).view.ref.isScScratch = false}
    {hsrc : ((oM).slice (Rect.unit (s := S1024x1024) off S16x1024.size hinb) hst : Memref sig .tc .vmem S16x1024 .f32).view.WordExact}
    {hdst : (rS s j : Memref sig .tc .vmem S16x1024 .f32).view.WordExact}
    {hsem : DmaTarget.Typed .vmem (.dma (sem7 cc0_scratch3 1 s j))
      (.remote (Dev.tc n : Thread nD τ) (rS s j : Memref sig .tc .vmem S16x1024 .f32) (.dma (sem7 cc0_scratch3 0 s j)) hsc)}
    {α : Type} {Q : α → sProp 𝕄} {k : PUnit → Prog (TpuEff nD τ sig (Elt F) Λ₀ .tc) α} :
    iprop(records m ρ K ∗ owns (c : Thread nD τ) (oS c (7 - s.val) j) fullShare V
        ∗ (∃ f, (rS s j : Memref sig .tc .vmem S16x1024 .f32).view.loc (rgt c : Thread nD τ) ↦[(rS s j : Memref sig .tc .vmem S16x1024 .f32).view.set]{fullShare} f)
        ∗ owes (c : Thread nD τ) (owedOf c S) W
        ∗ dutyTok ER (rrCell c 0 s j) 0 false ∗ dutyTok ER (rrCell (rgt c) 1 s j) 0 false)
      ⊢ iprop(((cred (tallyAt (rrCell c 0 s j) () N16) ∗ owes (c : Thread nD τ) (owedOf c (S.erase (.rr s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM).slice (Rect.unit (s := S1024x1024) off S16x1024.size hinb) hst : Memref sig .tc .vmem S16x1024 .f32)
                (.remote (Dev.tc n : Thread nD τ) (rS s j) (.dma (sem7 cc0_scratch3 0 s j)) hsc)
                (.dma (sem7 cc0_scratch3 1 s j)) hsrc hdst hsem) k) Q) := by
  subst hoff
  exact wp_rr_send_canon m ρ K c s j n hn S hS W hV

/-! ## Waiting on one of the device's own transfer cells

Every transfer cell has the one duty `false` in its one round, worth a strip's credit. The owner, holding that credit
in tokens and being at the round's start, waits for all of it and receives the duty's payload. -/

theorem duties_dma (c : Dev nD) (q : DmaSem sig) (hq : 3 ≤ q.val) :
    (ringRd (F := F) m ρ).duties (((c : Thread nD τ), .dma q) : GSem nD τ sig) 0 = {false} := by
  dsimp only [ringRd]; rw [if_pos ⟨rfl, rfl⟩]; exact if_pos hq
theorem expect_dma (c : Dev nD) (q : DmaSem sig) (hq : 3 ≤ q.val) :
    (ringRd (F := F) m ρ).expect (((c : Thread nD τ), .dma q) : GSem nD τ sig) 0 = N16 := by
  unfold Schedule.expect Schedule.amountOf; rw [duties_dma m ρ c q hq, Finset.sum_singleton]; rfl
theorem rest_dma (c : Dev nD) (q : DmaSem sig) (hq : 3 ≤ q.val) :
    bigSep ((ringRd (F := F) m ρ).duties (((c : Thread nD τ), .dma q) : GSem nD τ sig) 0 \ ∅)
        (fun d => (ringRd (F := F) m ρ).payload (((c : Thread nD τ), .dma q) : GSem nD τ sig) 0 d)
      = (ringRd (F := F) m ρ).payload (((c : Thread nD τ), .dma q) : GSem nD τ sig) 0 false := by
  rw [Finset.sdiff_empty, duties_dma m ρ c q hq, bigSep_singleton]

/-- The wait on the transfer cell of semaphore `q`, whose invariant has the name `κ`: any wait effect on `q` whose
destination carries a strip's credit. -/
theorem wp_wait_dma (c : Dev nD) (q : DmaSem sig) (hq : 3 ≤ q.val) (κ : ℕ) (O : CellTallies nD τ sig Unit) (W : Waits sig Unit)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(cellInv ER (ringRd m ρ) κ (((c : Thread nD τ), .dma q) : GSem nD τ sig)
        ∗ cred (tallyAt (((c : Thread nD τ), .dma q) : GSem nD τ sig) () N16) ∗ owes (c : Thread nD τ) O W
        ∗ MayWait (c : Thread nD τ) (.dma q) () O ∗ atPos ER (((c : Thread nD τ), .dma q) : GSem nD τ sig) 0 ∅ 0)
      ⊢ iprop(((owes (c : Thread nD τ) O (insert (SemLoc.dma q, ()) W) ∗ atPos ER (((c : Thread nD τ), .dma q) : GSem nD τ sig) 1 ∅ 0
              ∗ (ringRd m ρ).payload (((c : Thread nD τ), .dma q) : GSem nD τ sig) 0 false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  rw [← hamt]
  iintro ⟨HI, Hc, HO, Hm, Hat⟩ Hk
  iapply (Rounds.wp_wait_rest_token 𝒱₀ ER (ringRd m ρ) (c : Thread nD τ) none (κ := κ)
      (wpE_waitDma2_eq 𝒱₀ (c : Thread nD τ) none Set.univ) (Set.mem_univ _) () (O := O) (W := W) (R := 0) (m := 0) (T := ∅)
      (by rw [Nat.zero_add, hamt, expect_dma m ρ c q hq])) $$ [HI Hc HO Hm Hat]
  · isplitl [HI]; · iexact HI
    isplitl [Hc]; · iexact Hc
    isplitl [HO]; · iexact HO
    isplitl [Hm]; · iexact Hm
    iexact Hat
  iintro ⟨HO, Hat, -, Hpay⟩
  iapply Hk
  isplitl [HO]; · iexact HO
  isplitl [Hat]; · iexact Hat
  iapply (Entails.of_eq (rest_dma m ρ c q hq)); iexact Hpay

/-- The same from the records, the wait's level fact and a name `P` for the payload. -/
theorem wp_wait_named (c : Dev nD) (q : DmaSem sig) (hq : 3 ≤ q.val) (κ : ℕ) (O : CellTallies nD τ sig Unit) (W : Waits sig Unit)
    (P : sProp 𝕄) (hP : (ringRd m ρ).payload (((c : Thread nD τ), .dma q) : GSem nD τ sig) 0 false = P)
    (hinv : records m ρ K ⊢ cellInv ER (ringRd m ρ) κ (((c : Thread nD τ), .dma q) : GSem nD τ sig))
    (hmay : (levAts L lv : sProp 𝕄) ⊢ MayWait (c : Thread nD τ) (.dma q) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (((c : Thread nD τ), .dma q) : GSem nD τ sig) () N16) ∗ owes (c : Thread nD τ) O W
        ∗ levAts L lv ∗ atPos ER (((c : Thread nD τ), .dma q) : GSem nD τ sig) 0 ∅ 0)
      ⊢ iprop(((owes (c : Thread nD τ) O (insert (SemLoc.dma q, ()) W) ∗ atPos ER (((c : Thread nD τ), .dma q) : GSem nD τ sig) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hP
  iintro ⟨#Hrec, Hc, HO, #Hlev, Hat⟩
  iapply (wp_wait_dma m ρ c q hq κ O W hamt) $$ [Hc HO Hat]
  isplitr; · iapply hinv; iexact Hrec
  isplitl [Hc]; · iexact Hc
  isplitl [HO]; · iexact HO
  isplitr; · iapply hmay; iexact Hlev
  iexact Hat

theorem inv_gr (c : Dev nD) (d : Fin 2) (s : Fin 8) (j : Fin 4) : records m ρ K ⊢ cellInv ER (ringRd m ρ) (K (c, grIdx d s j)) (grCell c d s j) := by
  have h := records_inv m ρ K (c, grIdx d s j); rwa [kcell_gr] at h
theorem reached_gr (c : Dev nD) (d : Fin 2) (s : Fin 8) (j : Fin 4) : records m ρ K ⊢ reached ER (grCell c d s j) 0 := by
  have h := records_reached m ρ K (c, grIdx d s j); rwa [kcell_gr] at h
theorem inv_gl (c : Dev nD) (d : Fin 2) (s : Fin 7) (j : Fin 4) : records m ρ K ⊢ cellInv ER (ringRd m ρ) (K (c, glIdx d s j)) (glCell c d s j) := by
  have h := records_inv m ρ K (c, glIdx d s j); rwa [kcell_gl] at h
theorem reached_gl (c : Dev nD) (d : Fin 2) (s : Fin 7) (j : Fin 4) : records m ρ K ⊢ reached ER (glCell c d s j) 0 := by
  have h := records_reached m ρ K (c, glIdx d s j); rwa [kcell_gl] at h

/-! ### The eight kinds of transfer cell: departure (`d = 0`) and arrival (`d = 1`) of each family, with the payload by name -/

theorem wp_wait_rl_dep (c : Dev nD) (s : Fin 8) (j : Fin 4) (O : CellTallies nD τ sig Unit) (W : Waits sig Unit)
    (hmay : (levAts L lv : sProp 𝕄) ⊢ MayWait (c : Thread nD τ) (.dma (sem8 cc0_scratch2 0 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (rlCell c 0 s j) () N16) ∗ owes (c : Thread nD τ) O W
        ∗ levAts L lv ∗ atPos ER (rlCell c 0 s j) 0 ∅ 0)
      ⊢ iprop(((owes (c : Thread nD τ) O (insert (SemLoc.dma (sem8 cc0_scratch2 0 s j), ()) W) ∗ atPos ER (rlCell c 0 s j) 1 ∅ 0 ∗ iprop(emp))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch2 0 s j) src dst hs hd) k) Q) :=
  wp_wait_named m ρ K c (sem8 cc0_scratch2 0 s j) (by rw [sem8_val_rl]; omega) (K (c, rlIdx 0 s j)) O W _ (payload_rl_dep m ρ c s j) (inv_rl m ρ K c 0 s j) hmay hamt
theorem wp_wait_rl_arr (c : Dev nD) (s : Fin 8) (j : Fin 4) (O : CellTallies nD τ sig Unit) (W : Waits sig Unit)
    (hmay : (levAts L lv : sProp 𝕄) ⊢ MayWait (c : Thread nD τ) (.dma (sem8 cc0_scratch2 1 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (rlCell c 1 s j) () N16) ∗ owes (c : Thread nD τ) O W
        ∗ levAts L lv ∗ atPos ER (rlCell c 1 s j) 0 ∅ 0)
      ⊢ iprop(((owes (c : Thread nD τ) O (insert (SemLoc.dma (sem8 cc0_scratch2 1 s j), ()) W) ∗ atPos ER (rlCell c 1 s j) 1 ∅ 0 ∗ rlArr m ρ c s j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch2 1 s j) src dst hs hd) k) Q) :=
  wp_wait_named m ρ K c (sem8 cc0_scratch2 1 s j) (by rw [sem8_val_rl]; omega) (K (c, rlIdx 1 s j)) O W _ (payload_rl_arr m ρ c s j) (inv_rl m ρ K c 1 s j) hmay hamt
theorem wp_wait_rr_dep (c : Dev nD) (s : Fin 7) (j : Fin 4) (O : CellTallies nD τ sig Unit) (W : Waits sig Unit)
    (hmay : (levAts L lv : sProp 𝕄) ⊢ MayWait (c : Thread nD τ) (.dma (sem7 cc0_scratch3 0 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (rrCell c 0 s j) () N16) ∗ owes (c : Thread nD τ) O W
        ∗ levAts L lv ∗ atPos ER (rrCell c 0 s j) 0 ∅ 0)
      ⊢ iprop(((owes (c : Thread nD τ) O (insert (SemLoc.dma (sem7 cc0_scratch3 0 s j), ()) W) ∗ atPos ER (rrCell c 0 s j) 1 ∅ 0 ∗ iprop(emp))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch3 0 s j) src dst hs hd) k) Q) :=
  wp_wait_named m ρ K c (sem7 cc0_scratch3 0 s j) (by rw [sem7_val_rr]; omega) (K (c, rrIdx 0 s j)) O W _ (payload_rr_dep m ρ c s j) (inv_rr m ρ K c 0 s j) hmay hamt
theorem wp_wait_rr_arr (c : Dev nD) (s : Fin 7) (j : Fin 4) (O : CellTallies nD τ sig Unit) (W : Waits sig Unit)
    (hmay : (levAts L lv : sProp 𝕄) ⊢ MayWait (c : Thread nD τ) (.dma (sem7 cc0_scratch3 1 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (rrCell c 1 s j) () N16) ∗ owes (c : Thread nD τ) O W
        ∗ levAts L lv ∗ atPos ER (rrCell c 1 s j) 0 ∅ 0)
      ⊢ iprop(((owes (c : Thread nD τ) O (insert (SemLoc.dma (sem7 cc0_scratch3 1 s j), ()) W) ∗ atPos ER (rrCell c 1 s j) 1 ∅ 0 ∗ rrArr m ρ c s j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch3 1 s j) src dst hs hd) k) Q) :=
  wp_wait_named m ρ K c (sem7 cc0_scratch3 1 s j) (by rw [sem7_val_rr]; omega) (K (c, rrIdx 1 s j)) O W _ (payload_rr_arr m ρ c s j) (inv_rr m ρ K c 1 s j) hmay hamt
theorem wp_wait_gr_dep (c : Dev nD) (s : Fin 8) (j : Fin 4) (O : CellTallies nD τ sig Unit) (W : Waits sig Unit)
    (hmay : (levAts L lv : sProp 𝕄) ⊢ MayWait (c : Thread nD τ) (.dma (sem8 cc0_scratch4 0 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (grCell c 0 s j) () N16) ∗ owes (c : Thread nD τ) O W
        ∗ levAts L lv ∗ atPos ER (grCell c 0 s j) 0 ∅ 0)
      ⊢ iprop(((owes (c : Thread nD τ) O (insert (SemLoc.dma (sem8 cc0_scratch4 0 s j), ()) W) ∗ atPos ER (grCell c 0 s j) 1 ∅ 0 ∗ grDep m ρ c s j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch4 0 s j) src dst hs hd) k) Q) :=
  wp_wait_named m ρ K c (sem8 cc0_scratch4 0 s j) (by rw [sem8_val_gr]; omega) (K (c, grIdx 0 s j)) O W _ (payload_gr_dep m ρ c s j) (inv_gr m ρ K c 0 s j) hmay hamt
theorem wp_wait_gr_arr (c : Dev nD) (s : Fin 8) (j : Fin 4) (O : CellTallies nD τ sig Unit) (W : Waits sig Unit)
    (hmay : (levAts L lv : sProp 𝕄) ⊢ MayWait (c : Thread nD τ) (.dma (sem8 cc0_scratch4 1 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (grCell c 1 s j) () N16) ∗ owes (c : Thread nD τ) O W
        ∗ levAts L lv ∗ atPos ER (grCell c 1 s j) 0 ∅ 0)
      ⊢ iprop(((owes (c : Thread nD τ) O (insert (SemLoc.dma (sem8 cc0_scratch4 1 s j), ()) W) ∗ atPos ER (grCell c 1 s j) 1 ∅ 0 ∗ grArr m ρ c s j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch4 1 s j) src dst hs hd) k) Q) :=
  wp_wait_named m ρ K c (sem8 cc0_scratch4 1 s j) (by rw [sem8_val_gr]; omega) (K (c, grIdx 1 s j)) O W _ (payload_gr_arr m ρ c s j) (inv_gr m ρ K c 1 s j) hmay hamt
theorem wp_wait_gl_dep (c : Dev nD) (s : Fin 7) (j : Fin 4) (O : CellTallies nD τ sig Unit) (W : Waits sig Unit)
    (hmay : (levAts L lv : sProp 𝕄) ⊢ MayWait (c : Thread nD τ) (.dma (sem7 cc0_scratch5 0 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (glCell c 0 s j) () N16) ∗ owes (c : Thread nD τ) O W
        ∗ levAts L lv ∗ atPos ER (glCell c 0 s j) 0 ∅ 0)
      ⊢ iprop(((owes (c : Thread nD τ) O (insert (SemLoc.dma (sem7 cc0_scratch5 0 s j), ()) W) ∗ atPos ER (glCell c 0 s j) 1 ∅ 0 ∗ glDep m ρ c s j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch5 0 s j) src dst hs hd) k) Q) :=
  wp_wait_named m ρ K c (sem7 cc0_scratch5 0 s j) (by rw [sem7_val_gl]; omega) (K (c, glIdx 0 s j)) O W _ (payload_gl_dep m ρ c s j) (inv_gl m ρ K c 0 s j) hmay hamt
theorem wp_wait_gl_arr (c : Dev nD) (s : Fin 7) (j : Fin 4) (O : CellTallies nD τ sig Unit) (W : Waits sig Unit)
    (hmay : (levAts L lv : sProp 𝕄) ⊢ MayWait (c : Thread nD τ) (.dma (sem7 cc0_scratch5 1 s j)) () O)
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ cred (tallyAt (glCell c 1 s j) () N16) ∗ owes (c : Thread nD τ) O W
        ∗ levAts L lv ∗ atPos ER (glCell c 1 s j) 0 ∅ 0)
      ⊢ iprop(((owes (c : Thread nD τ) O (insert (SemLoc.dma (sem7 cc0_scratch5 1 s j), ()) W) ∗ atPos ER (glCell c 1 s j) 1 ∅ 0 ∗ glArr m ρ c s j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch5 1 s j) src dst hs hd) k) Q) :=
  wp_wait_named m ρ K c (sem7 cc0_scratch5 1 s j) (by rw [sem7_val_gl]; omega) (K (c, glIdx 1 s j)) O W _ (payload_gl_arr m ρ c s j) (inv_gl m ρ K c 1 s j) hmay hamt

/-! ## Closing a cell after its wait

Past its one round a cell has no duty left; its owner, back at the start of round 1 with nothing taken, closes it and
holds its counter at zero. -/

theorem close_cell (c : Dev nD) (k : Fin 241) :
    iprop(records m ρ K ∗ atPos ER (kcell (c, k)) 1 ∅ 0) ⊢ iprop(|={Set.univ}=> semVal (kcell (c, k)) 0) := by
  iintro ⟨#Hrec, Hat⟩
  iapply (Rounds.cell_close ER (ringRd m ρ) (Set.mem_univ (K (c, k))) (fun h => h) (R := 0 + 1) (duties_later m ρ (kcell (c, k)))) $$ [Hat]
  isplitr; · iapply (records_inv m ρ K (c, k)); iexact Hrec
  iexact Hat
theorem close_rl (c : Dev nD) (d : Fin 2) (s : Fin 8) (j : Fin 4) :
    iprop(records m ρ K ∗ atPos ER (rlCell c d s j) 1 ∅ 0) ⊢ iprop(|={Set.univ}=> semVal (rlCell c d s j) 0) := by
  have h := close_cell m ρ K c (rlIdx d s j); rwa [kcell_rl] at h
theorem close_rr (c : Dev nD) (d : Fin 2) (s : Fin 7) (j : Fin 4) :
    iprop(records m ρ K ∗ atPos ER (rrCell c d s j) 1 ∅ 0) ⊢ iprop(|={Set.univ}=> semVal (rrCell c d s j) 0) := by
  have h := close_cell m ρ K c (rrIdx d s j); rwa [kcell_rr] at h
theorem close_gr (c : Dev nD) (d : Fin 2) (s : Fin 8) (j : Fin 4) :
    iprop(records m ρ K ∗ atPos ER (grCell c d s j) 1 ∅ 0) ⊢ iprop(|={Set.univ}=> semVal (grCell c d s j) 0) := by
  have h := close_cell m ρ K c (grIdx d s j); rwa [kcell_gr] at h
theorem close_gl (c : Dev nD) (d : Fin 2) (s : Fin 7) (j : Fin 4) :
    iprop(records m ρ K ∗ atPos ER (glCell c d s j) 1 ∅ 0) ⊢ iprop(|={Set.univ}=> semVal (glCell c d s j) 0) := by
  have h := close_cell m ρ K c (glIdx d s j); rwa [kcell_gl] at h

/-! ## The level facts of a wait

A device may wait on a cell while it still owes the payments in `S` if the cell sits strictly below the cell of every
payment in `S`. Levels depend only on the semaphore, not on the device, so the condition is a comparison of numbers. -/

omit [FloatOps F] in
theorem owedOf_pos {c : Dev nD} {S : Finset Pay} {g : GSem nD τ sig} {u : Unit} (h : 0 < owedOf c S g u) : ∃ p ∈ S, g = p.cell c := by
  unfold owedOf at h
  obtain ⟨p, hp, hpos⟩ := Pipeline.sum_pos_exists h
  rw [tallyAt_apply] at hpos
  by_cases hg : g = p.cell c ∧ u = ()
  · exact ⟨p, hp, hg.1⟩
  · rw [if_neg hg] at hpos; exact absurd hpos (Nat.lt_irrefl 0)

omit [FloatOps F] in
theorem L_cell (c : Dev nD) (p : Pay) : L (p.cell c) = {()} := by cases p <;> exact if_pos rfl

omit [FloatOps F] in
/-- The level fact of a wait on `X`'s semaphore by device `c` owing the payments in `S`. -/
theorem mayWait_of (c : Dev nD) (X : GSem nD τ sig) (S : Finset Pay) (h : ∀ p ∈ S, lv X () < lv (p.cell c) ()) :
    (levAts L lv : sProp 𝕄) ⊢ MayWait (c : Thread nD τ) X.2 () (owedOf c S) :=
  MayOwe.of_levAts (L := L) (lev := lv)
    (fun p hp => by rw [Finset.mem_singleton.mp hp, L_tc]; exact Finset.mem_singleton_self _)
    (fun g u hg => by obtain ⟨p, _, rfl⟩ := owedOf_pos hg; rw [L_cell]; exact Finset.mem_singleton_self _)
    (fun g u hg p hp => by
      obtain ⟨p', hp', rfl⟩ := owedOf_pos hg
      rw [Finset.mem_singleton.mp hp]; exact h p' hp')

/-- The level of the cell a payment credits, as a number. -/
def Pay.lvl : Pay → ℕ
  | .barL => 1 | .barR => 1
  | .rl s j => lvN (35 + 4 * s.val + j.val) | .rr s j => lvN (95 + 4 * s.val + j.val)
  | .gr s j => lvN (155 + 4 * s.val + j.val) | .gl s j => lvN (215 + 4 * s.val + j.val)

omit [FloatOps F] in
theorem lv_cell (c : Dev nD) (p : Pay) : lv (p.cell c) () = p.lvl := by
  cases p with
  | barL => rfl
  | barR => rfl
  | rl s j => show lvN (sem8 cc0_scratch2 1 s j).val = _; rw [sem8_val_rl]; rfl
  | rr s j => show lvN (sem7 cc0_scratch3 1 s j).val = _; rw [sem7_val_rr]; rfl
  | gr s j => show lvN (sem8 cc0_scratch4 1 s j).val = _; rw [sem8_val_gr]; rfl
  | gl s j => show lvN (sem7 cc0_scratch5 1 s j).val = _; rw [sem7_val_gl]; rfl

omit [FloatOps F] in
/-- The levels of a device's own cells, as numbers. -/
theorem lv_bar (c : Dev nD) : lv (barCell c) () = 1 := rfl
omit [FloatOps F] in
theorem lv_rl (c : Dev nD) (d : Fin 2) (s : Fin 8) (j : Fin 4) : lv (rlCell c d s j) () = lvN (3 + 32 * d.val + 4 * s.val + j.val) := by
  show lvN (sem8 cc0_scratch2 d s j).val = _; rw [sem8_val_rl]
omit [FloatOps F] in
theorem lv_rr (c : Dev nD) (d : Fin 2) (s : Fin 7) (j : Fin 4) : lv (rrCell c d s j) () = lvN (67 + 28 * d.val + 4 * s.val + j.val) := by
  show lvN (sem7 cc0_scratch3 d s j).val = _; rw [sem7_val_rr]
omit [FloatOps F] in
theorem lv_gr (c : Dev nD) (d : Fin 2) (s : Fin 8) (j : Fin 4) : lv (grCell c d s j) () = lvN (123 + 32 * d.val + 4 * s.val + j.val) := by
  show lvN (sem8 cc0_scratch4 d s j).val = _; rw [sem8_val_gr]
omit [FloatOps F] in
theorem lv_gl (c : Dev nD) (d : Fin 2) (s : Fin 7) (j : Fin 4) : lv (glCell c d s j) () = lvN (187 + 28 * d.val + 4 * s.val + j.val) := by
  show lvN (sem7 cc0_scratch5 d s j).val = _; rw [sem7_val_gl]

omit [FloatOps F] in
/-- The numeric form: the waited cell's level is `n`, and `n` is below the level of every payment still owed. -/
theorem mayWait_num (c : Dev nD) (X : GSem nD τ sig) (n : ℕ) (hX : lv X () = n) (S : Finset Pay) (h : ∀ p ∈ S, n < p.lvl) :
    (levAts L lv : sProp 𝕄) ⊢ MayWait (c : Thread nD τ) X.2 () (owedOf c S) :=
  mayWait_of c X S fun p hp => by rw [hX, lv_cell]; exact h p hp

omit [FloatOps F] in
/-- A statement about every payment is one about the two barrier signals and the four families. -/
theorem forall_pay (Pr : Pay → Prop) :
    (∀ p, Pr p) ↔ Pr .barL ∧ Pr .barR ∧ (∀ s j, Pr (.rl s j)) ∧ (∀ s j, Pr (.rr s j)) ∧ (∀ s j, Pr (.gr s j)) ∧ (∀ s j, Pr (.gl s j)) :=
  ⟨fun h => ⟨h _, h _, fun _ _ => h _, fun _ _ => h _, fun _ _ => h _, fun _ _ => h _⟩,
   fun h p => by
    cases p with
    | barL => exact h.1
    | barR => exact h.2.1
    | rl s j => exact h.2.2.1 s j
    | rr s j => exact h.2.2.2.1 s j
    | gr s j => exact h.2.2.2.2.1 s j
    | gl s j => exact h.2.2.2.2.2 s j⟩

end Cert.Kernel.Hand

end
-- ==== Proof.Bits.Kit.lean ====
/-
  Small entailments the body's proof uses between its steps: one item taken out of, or put back into, a big separating
  conjunction; a device's own position on one of its cells, by the cell's name; the two buffers the barrier's round hands over; the partial product as what the matrix
  product's store leaves in the output buffer; and the body's obligation in the form the launch asks for.
-/
import proofs.«900799_g7700000000000800_dist_gemm_ar_m1024_k1024_n1024_f32_gelu_v7x_i16_1_alg».proof.Proof.Bits.Iface
import proofs.«900799_g7700000000000800_dist_gemm_ar_m1024_k1024_n1024_f32_gelu_v7x_i16_1_alg».proof.Proof.Bits.Sched
import proofs.«900799_g7700000000000800_dist_gemm_ar_m1024_k1024_n1024_f32_gelu_v7x_i16_1_alg».proof.Proof.Bits.FamReduce

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One item out of a big conjunction, and back -/

section Generic
variable {I : Type} [DecidableEq I]

/-- A big conjunction over a set is one of its items and the conjunction over the rest. -/
theorem take (S : Finset I) (i : I) (h : i ∈ S) (Φ : I → sProp 𝕄) :
    bigSep S Φ ⊢ iprop(Φ i ∗ bigSep (S.erase i) Φ) :=
  Entails.of_eq (bigSep_erase h)

/-- An item and a big conjunction over a set that lacks it are the conjunction over the set with it. -/
theorem put (S : Finset I) (i : I) (hi : i ∉ S) (Φ : I → sProp 𝕄) :
    iprop(Φ i ∗ bigSep S Φ) ⊢ bigSep (insert i S) Φ :=
  Entails.of_eq (bigSep_insert hi).symm

end Generic

/-- The owner's position on one of its cells, by the cell's number. -/
theorem pos_take (c : Dev nD) (S : Finset (Fin 241)) (k : Fin 241) (hk : k ∈ S) :
    (bigSep S fun k => (atPos ER (kcell (c, k)) 0 ∅ 0 : sProp 𝕄))
      ⊢ iprop(atPos ER (kcell (c, k)) 0 ∅ 0 ∗ bigSep (S.erase k) fun k => (atPos ER (kcell (c, k)) 0 ∅ 0 : sProp 𝕄)) :=
  Entails.of_eq (bigSep_erase hk)

/-! ### The tokens of the duties a device pays, one transfer at a time -/

theorem tok_rl_take (c : Dev nD) (S : Finset (Fin 8 × Fin 4)) (sj : Fin 8 × Fin 4) (h : sj ∈ S) :
    (bigSep S fun sj : Fin 8 × Fin 4 => (iprop(dutyTok ER (rlCell c 0 sj.1 sj.2) 0 false ∗ dutyTok ER (rlCell (lft c) 1 sj.1 sj.2) 0 false) : sProp 𝕄))
      ⊢ iprop((dutyTok ER (rlCell c 0 sj.1 sj.2) 0 false ∗ dutyTok ER (rlCell (lft c) 1 sj.1 sj.2) 0 false)
          ∗ bigSep (S.erase sj) fun sj : Fin 8 × Fin 4 => (iprop(dutyTok ER (rlCell c 0 sj.1 sj.2) 0 false ∗ dutyTok ER (rlCell (lft c) 1 sj.1 sj.2) 0 false) : sProp 𝕄)) :=
  Entails.of_eq (bigSep_erase h)

theorem tok_rr_take (c : Dev nD) (S : Finset (Fin 7 × Fin 4)) (sj : Fin 7 × Fin 4) (h : sj ∈ S) :
    (bigSep S fun sj : Fin 7 × Fin 4 => (iprop(dutyTok ER (rrCell c 0 sj.1 sj.2) 0 false ∗ dutyTok ER (rrCell (rgt c) 1 sj.1 sj.2) 0 false) : sProp 𝕄))
      ⊢ iprop((dutyTok ER (rrCell c 0 sj.1 sj.2) 0 false ∗ dutyTok ER (rrCell (rgt c) 1 sj.1 sj.2) 0 false)
          ∗ bigSep (S.erase sj) fun sj : Fin 7 × Fin 4 => (iprop(dutyTok ER (rrCell c 0 sj.1 sj.2) 0 false ∗ dutyTok ER (rrCell (rgt c) 1 sj.1 sj.2) 0 false) : sProp 𝕄)) :=
  Entails.of_eq (bigSep_erase h)

theorem tok_gr_take (c : Dev nD) (S : Finset (Fin 8 × Fin 4)) (sj : Fin 8 × Fin 4) (h : sj ∈ S) :
    (bigSep S fun sj : Fin 8 × Fin 4 => (iprop(dutyTok ER (grCell c 0 sj.1 sj.2) 0 false ∗ dutyTok ER (grCell (rgt c) 1 sj.1 sj.2) 0 false) : sProp 𝕄))
      ⊢ iprop((dutyTok ER (grCell c 0 sj.1 sj.2) 0 false ∗ dutyTok ER (grCell (rgt c) 1 sj.1 sj.2) 0 false)
          ∗ bigSep (S.erase sj) fun sj : Fin 8 × Fin 4 => (iprop(dutyTok ER (grCell c 0 sj.1 sj.2) 0 false ∗ dutyTok ER (grCell (rgt c) 1 sj.1 sj.2) 0 false) : sProp 𝕄)) :=
  Entails.of_eq (bigSep_erase h)

theorem tok_gl_take (c : Dev nD) (S : Finset (Fin 7 × Fin 4)) (sj : Fin 7 × Fin 4) (h : sj ∈ S) :
    (bigSep S fun sj : Fin 7 × Fin 4 => (iprop(dutyTok ER (glCell c 0 sj.1 sj.2) 0 false ∗ dutyTok ER (glCell (lft c) 1 sj.1 sj.2) 0 false) : sProp 𝕄))
      ⊢ iprop((dutyTok ER (glCell c 0 sj.1 sj.2) 0 false ∗ dutyTok ER (glCell (lft c) 1 sj.1 sj.2) 0 false)
          ∗ bigSep (S.erase sj) fun sj : Fin 7 × Fin 4 => (iprop(dutyTok ER (glCell c 0 sj.1 sj.2) 0 false ∗ dutyTok ER (glCell (lft c) 1 sj.1 sj.2) 0 false) : sProp 𝕄)) :=
  Entails.of_eq (bigSep_erase h)

/-! ### The credit of what the neighbours owe a device, one arrival at a time -/

theorem cred_rl_take (c : Dev nD) (S : Finset (Fin 8 × Fin 4)) (sj : Fin 8 × Fin 4) (h : sj ∈ S) :
    (bigSep S fun sj : Fin 8 × Fin 4 => (cred (tallyAt (rlCell c 1 sj.1 sj.2) () N16) : sProp 𝕄))
      ⊢ iprop(cred (tallyAt (rlCell c 1 sj.1 sj.2) () N16)
          ∗ bigSep (S.erase sj) fun sj : Fin 8 × Fin 4 => (cred (tallyAt (rlCell c 1 sj.1 sj.2) () N16) : sProp 𝕄)) :=
  Entails.of_eq (bigSep_erase h)

theorem cred_rr_take (c : Dev nD) (S : Finset (Fin 7 × Fin 4)) (sj : Fin 7 × Fin 4) (h : sj ∈ S) :
    (bigSep S fun sj : Fin 7 × Fin 4 => (cred (tallyAt (rrCell c 1 sj.1 sj.2) () N16) : sProp 𝕄))
      ⊢ iprop(cred (tallyAt (rrCell c 1 sj.1 sj.2) () N16)
          ∗ bigSep (S.erase sj) fun sj : Fin 7 × Fin 4 => (cred (tallyAt (rrCell c 1 sj.1 sj.2) () N16) : sProp 𝕄)) :=
  Entails.of_eq (bigSep_erase h)

theorem cred_gr_take (c : Dev nD) (S : Finset (Fin 8 × Fin 4)) (sj : Fin 8 × Fin 4) (h : sj ∈ S) :
    (bigSep S fun sj : Fin 8 × Fin 4 => (cred (tallyAt (grCell c 1 sj.1 sj.2) () N16) : sProp 𝕄))
      ⊢ iprop(cred (tallyAt (grCell c 1 sj.1 sj.2) () N16)
          ∗ bigSep (S.erase sj) fun sj : Fin 8 × Fin 4 => (cred (tallyAt (grCell c 1 sj.1 sj.2) () N16) : sProp 𝕄)) :=
  Entails.of_eq (bigSep_erase h)

theorem cred_gl_take (c : Dev nD) (S : Finset (Fin 7 × Fin 4)) (sj : Fin 7 × Fin 4) (h : sj ∈ S) :
    (bigSep S fun sj : Fin 7 × Fin 4 => (cred (tallyAt (glCell c 1 sj.1 sj.2) () N16) : sProp 𝕄))
      ⊢ iprop(cred (tallyAt (glCell c 1 sj.1 sj.2) () N16)
          ∗ bigSep (S.erase sj) fun sj : Fin 7 × Fin 4 => (cred (tallyAt (glCell c 1 sj.1 sj.2) () N16) : sProp 𝕄)) :=
  Entails.of_eq (bigSep_erase h)

/-! ## The barrier's round hands over the two neighbours' receive buffers -/

/-- The two payloads of the barrier cell's round. -/
theorem bar_payloads (c : Dev nD) :
    bigSep Finset.univ (fun d : Bool => (ringRd (F := F) m ρ).payload (barCell c) 0 d) = iprop(barF c ∗ barT c) := by
  rw [bigSep_univ_eq_bigSepL [false, true] (by decide) (by decide), bigSepL_cons_cons, bigSepL_singleton, payload_bar_false, payload_bar_true]
  rfl

/-- Opened: the buffer of the neighbour before for the chunks travelling left, and of the neighbour after for those
    travelling right, each whole and at some contents. -/
theorem bar_open (c : Dev nD) :
    bigSep Finset.univ (fun d : Bool => (ringRd (F := F) m ρ).payload (barCell c) 0 d)
      ⊢ iprop((∃ f, (Memref.whole cc0_scratch0 : Memref sig .tc .vmem S8x64x1024 .f32).view.loc (lft c : Thread nD τ) ↦{fullShare} f)
          ∗ (∃ f, (Memref.whole cc0_scratch1 : Memref sig .tc .vmem S7x64x1024 .f32).view.loc (rgt c : Thread nD τ) ↦{fullShare} f)) :=
  Entails.of_eq ((bar_payloads m ρ c).trans rfl)

/-! ## A device's own position on a cell, by the cell's name -/

theorem pos_take_rl (c : Dev nD) (S : Finset (Fin 241)) (d : Fin 2) (s : Fin 8) (j : Fin 4) (h : rlIdx d s j ∈ S) :
    (bigSep S fun k => (atPos ER (kcell (c, k)) 0 ∅ 0 : sProp 𝕄))
      ⊢ iprop(atPos ER (rlCell c d s j) 0 ∅ 0 ∗ bigSep (S.erase (rlIdx d s j)) fun k => (atPos ER (kcell (c, k)) 0 ∅ 0 : sProp 𝕄)) := by
  have h' := pos_take (F := F) c S (rlIdx d s j) h
  rwa [kcell_rl] at h'
theorem pos_take_rr (c : Dev nD) (S : Finset (Fin 241)) (d : Fin 2) (s : Fin 7) (j : Fin 4) (h : rrIdx d s j ∈ S) :
    (bigSep S fun k => (atPos ER (kcell (c, k)) 0 ∅ 0 : sProp 𝕄))
      ⊢ iprop(atPos ER (rrCell c d s j) 0 ∅ 0 ∗ bigSep (S.erase (rrIdx d s j)) fun k => (atPos ER (kcell (c, k)) 0 ∅ 0 : sProp 𝕄)) := by
  have h' := pos_take (F := F) c S (rrIdx d s j) h
  rwa [kcell_rr] at h'
theorem pos_take_gr (c : Dev nD) (S : Finset (Fin 241)) (d : Fin 2) (s : Fin 8) (j : Fin 4) (h : grIdx d s j ∈ S) :
    (bigSep S fun k => (atPos ER (kcell (c, k)) 0 ∅ 0 : sProp 𝕄))
      ⊢ iprop(atPos ER (grCell c d s j) 0 ∅ 0 ∗ bigSep (S.erase (grIdx d s j)) fun k => (atPos ER (kcell (c, k)) 0 ∅ 0 : sProp 𝕄)) := by
  have h' := pos_take (F := F) c S (grIdx d s j) h
  rwa [kcell_gr] at h'
theorem pos_take_gl (c : Dev nD) (S : Finset (Fin 241)) (d : Fin 2) (s : Fin 7) (j : Fin 4) (h : glIdx d s j ∈ S) :
    (bigSep S fun k => (atPos ER (kcell (c, k)) 0 ∅ 0 : sProp 𝕄))
      ⊢ iprop(atPos ER (glCell c d s j) 0 ∅ 0 ∗ bigSep (S.erase (glIdx d s j)) fun k => (atPos ER (kcell (c, k)) 0 ∅ 0 : sProp 𝕄)) := by
  have h' := pos_take (F := F) c S (glIdx d s j) h
  rwa [kcell_gl] at h'

/-! ## The partial product as what the matrix product's store leaves -/

theorem zeroOffsets2 : (![0, 0] : Fin 2 → ℕ) = fun _ => 0 := by funext a; fin_cases a <;> rfl

/-- What the store of the matrix product leaves in the output buffer, over whatever it held, is the device's partial
    product: the two loads read the staged blocks whole and the store writes the whole buffer. -/
theorem part_of_writes (c : Dev nD) (fo : Buf (Elt F) ((c : Thread nD τ).loc cc0_stg2_0)) :
    (Memref.whole cc0_stg2_0 : Memref sig .tc .vmem S1024x1024 .f32).view.writes (Elt F) fo
      [⟨Rect.unit ![0, 0] S1024x1024.size Facts₀.inb_S1024x1024_S1024x1024_0_0,
        k0_pay1 (View.readAt (Elt F) (Memref.whole cc0_stg0_0 : Memref sig .tc .vmem S1024x64 .f32).view (Rect.unit ![0, 0] S1024x64.size Facts₀.inb_S1024x64_S1024x64_0_0).toLoadRect (xstg m ρ c))
          (View.readAt (Elt F) (Memref.whole cc0_stg1_0 : Memref sig .tc .vmem S64x1024 .f32).view (Rect.unit ![0, 0] S64x1024.size Facts₀.inb_S64x1024_S64x1024_0_0).toLoadRect (wstg m ρ c))⟩]
      = part m ρ c := by
  have hx : View.readAt (Elt F) (Memref.whole cc0_stg0_0 : Memref sig .tc .vmem S1024x64 .f32).view
      (Rect.unit ![0, 0] S1024x64.size Facts₀.inb_S1024x64_S1024x64_0_0).toLoadRect (xstg m ρ c) = xstg m ρ c :=
    Memref.readAt_unit_zero (Elt F) cc0_stg0_0 zeroOffsets2 _ _
  have hw : View.readAt (Elt F) (Memref.whole cc0_stg1_0 : Memref sig .tc .vmem S64x1024 .f32).view
      (Rect.unit ![0, 0] S64x1024.size Facts₀.inb_S64x1024_S64x1024_0_0).toLoadRect (wstg m ρ c) = wstg m ρ c :=
    Memref.readAt_unit_zero (Elt F) cc0_stg1_0 zeroOffsets2 _ _
  rw [View.writes_singleton, hx, hw]
  exact Memref.write_access_unit_zero_univ (Elt F) cc0_stg2_0 zeroOffsets2 _ fo _

/-! ## The body's obligation, in the form the launch asks for -/

/-- A whole staging buffer at given contents. -/
abbrev stgAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 32768 in
/-- The body obligation of the pipeline's one point on device `c`, from the body's run stated over the device's own resources. -/
theorem body_obligation (c : Dev nD)
    (hsound : ∀ (K : Dev nD × Fin 241 → ℕ) (Kt : PUnit → sProp 𝕄) (W : Waits sig Unit)
      (fo : Buf (Elt F) ((c : Thread nD τ).loc cc0_stg2_0)) (fl : Buf (Elt F) ((c : Thread nD τ).loc cc0_scratch0)) (fr : Buf (Elt F) ((c : Thread nD τ).loc cc0_scratch1)),
      iprop(records m ρ K ∗ posOwn c ∗ payToks c ∗ creds c ∗ levAts L lv
        ∗ ((Memref.whole cc0_stg0_0 : Memref sig .tc .vmem S1024x64 .f32).view.loc (c : Thread nD τ) ↦{fullShare} xstg m ρ c)
        ∗ ((Memref.whole cc0_stg1_0 : Memref sig .tc .vmem S64x1024 .f32).view.loc (c : Thread nD τ) ↦{fullShare} wstg m ρ c)
        ∗ ((Memref.whole cc0_stg2_0 : Memref sig .tc .vmem S1024x1024 .f32).view.loc (c : Thread nD τ) ↦{fullShare} fo)
        ∗ ((Memref.whole cc0_scratch0 : Memref sig .tc .vmem S8x64x1024 .f32).view.loc (c : Thread nD τ) ↦{fullShare} fl)
        ∗ ((Memref.whole cc0_scratch1 : Memref sig .tc .vmem S7x64x1024 .f32).view.loc (c : Thread nD τ) ↦{fullShare} fr)
        ∗ owes (c : Thread nD τ) (owedOf c Finset.univ) W
        ∗ (iprop(scratch c ∗ semsZero c ∗ (∃ W', owes (c : Thread nD τ) 0 W')
            ∗ ((Memref.whole cc0_stg0_0 : Memref sig .tc .vmem S1024x64 .f32).view.loc (c : Thread nD τ) ↦{fullShare} xstg m ρ c)
            ∗ ((Memref.whole cc0_stg1_0 : Memref sig .tc .vmem S64x1024 .f32).view.loc (c : Thread nD τ) ↦{fullShare} wstg m ρ c)
            ∗ ((Memref.whole cc0_stg2_0 : Memref sig .tc .vmem S1024x1024 .f32).view.loc (c : Thread nD τ) ↦{fullShare} outFinal m ρ)) -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_stg2_0) (Memref.isWhole_whole _) (Memref.whole cc0_scratch0) (Memref.isWhole_whole _)
              (Memref.whole cc0_scratch1) (Memref.isWhole_whole _) cc0_scratch2 cc0_scratch3 cc0_scratch4 cc0_scratch5) Kt) :
    BodyObligation (dats (F := F) m ρ 0 c) (defs₀ (F := F)) 𝒱₀ () Set.univ := fun t => by
  rw [fin_N0 t]
  rw [bigSep_W0, bigSep_W0]
  simp only [owns_whole_eq]
  show iprop(Φ₀ m ρ c ∗ (dats m ρ 0 c).owesAt () t0_0.castSucc
      ∗ (∃ d, stgAt c cc0_stg0_0 ((dats m ρ 0 c).before (0 : Fin 3) t0_0 d))
      ∗ (∃ d, stgAt c cc0_stg1_0 ((dats m ρ 0 c).before (1 : Fin 3) t0_0 d))
      ∗ (∃ d, stgAt c cc0_stg2_0 ((dats m ρ 0 c).before (2 : Fin 3) t0_0 d)))
    ⊢ wp frame (wpE (defs₀ (F := F)) 𝒱₀ c none) Set.univ
        (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) cc0_scratch2 cc0_scratch3 cc0_scratch4 cc0_scratch5)
        (fun _ => iprop(Φ₁ c ∗ (dats m ρ 0 c).owesAt () t0_0.succ
          ∗ stgAt c cc0_stg0_0 (xstg m ρ c) ∗ stgAt c cc0_stg1_0 (wstg m ρ c) ∗ stgAt c cc0_stg2_0 (outFinal m ρ)))
  unfold Φ₀ start ghost scratch
  iintro ⟨⟨⟨⟨%K, Hrec, Hpos, Htok⟩, Hcred, Hlev⟩, ⟨%fl, Hl⟩, ⟨%fr, Hr⟩⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx; subst hw
  unfold Dat.owesAt Pipeline.owesWithin
  icases Ho with ⟨%W, %hW, HO⟩
  rw [show (dats m ρ 0 c).owed t0_0.castSucc = owedOf c Finset.univ from rfl]
  iapply (hsound K _ W g2 fl fr)
  isplitl [Hrec]; · iexact Hrec
  isplitl [Hpos]; · iexact Hpos
  isplitl [Htok]; · iexact Htok
  isplitl [Hcred]; · iexact Hcred
  isplitl [Hlev]; · iexact Hlev
  isplitl [Hx]; · iexact Hx
  isplitl [Hw]; · iexact Hw
  isplitl [Hout]; · iexact Hout
  isplitl [Hl]; · iexact Hl
  isplitl [Hr]; · iexact Hr
  isplitl [HO]; · iexact HO
  iintro ⟨Hscr, Hsz, ⟨%W', HO'⟩, Hx, Hw, Hout⟩
  unfold Φ₁
  isplitl [Hscr Hsz]
  · isplitl [Hscr]; · iexact Hscr
    iexact Hsz
  isplitl [HO']
  · iexists W'; isplitr; · (ipureintro; exact fun _ _ => Or.inl trivial)
    iexact HO'
  isplitl [Hx]
  · iexists _; isplitr; · (ipureintro; rfl)
    iexact Hx
  isplitl [Hw]
  · iexists _; isplitr; · (ipureintro; rfl)
    iexact Hw
  iexists _; isplitr; · (ipureintro; rfl)
  iexact Hout

end Cert.Kernel.Hand

end
-- ==== Proof.Bits.FamGather.lean ====
/-
  The gather phase's transfers, one step lemma per direction, at a symbolic device and a symbolic step and strip.

  In the gather phase a device sends a finished strip to a ring neighbour, into the SAME rows of the neighbour's output
  buffer: the chunk `a` positions after a device is the chunk `a + 1` positions after the device before it. So the
  strip the sender reads at distance `16 - s` (`s`, leftwards) is the strip at distance `15 - s` (`1 + s`) of the
  receiver, which the receiver's arrival payload names. The source strip comes back with the departure.
-/
import proofs.«900799_g7700000000000800_dist_gemm_ar_m1024_k1024_n1024_f32_gelu_v7x_i16_1_alg».proof.Proof.Bits.FamReduce

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Strips of the output buffer under two names -/

/-- A slice of sixteen rows of the output buffer at an offset equal to `![row, 0]` is the strip from `row`. -/
theorem oM_slice_eq {off : Fin 2 → ℕ} (p : ∀ a, off a + S16x1024.size a ≤ S1024x1024.size a)
    (hs : ∀ a, (Rect.unit (s := S1024x1024) off S16x1024.size p).stride a = 1) {row : ℕ} (h : row + 16 ≤ 1024) (e : off = ![row, 0]) :
    (oM : Memref sig .tc .vmem S1024x1024 .f32).slice (Rect.unit (s := S1024x1024) off S16x1024.size p) hs = oP row h :=
  Memref.slice_unit_congr _ e _ _ _ _

theorem oP_congr {r r' : ℕ} (e : r = r') (h : r + 16 ≤ 1024) (h' : r' + 16 ≤ 1024) : oP r h = oP r' h' := by subst e; rfl

/-- Strips are named by the first row of their chunk. -/
theorem oS_congr {d d' : Dev nD} {a a' : ℕ} (e : chunkRow d a = chunkRow d' a') (j : Fin 4) : oS d a j = oS d' a' j :=
  oP_congr (by rw [e]) _ _

theorem posOf_rgt_val (c : Dev nD) : (posOf (rgt c)).val = ((posOf c).val + 1) % 16 := by revert c; decide
theorem posOf_lft_val (c : Dev nD) : (posOf (lft c)).val = ((posOf c).val + 15) % 16 := by revert c; decide

/-- The chunk `a` positions after the next device is the chunk `a + 1` positions after this one. -/
theorem chunkRow_rgt (c : Dev nD) (a : ℕ) : chunkRow (rgt c) a = chunkRow c (a + 1) := by
  unfold chunkRow; rw [posOf_rgt_val]; omega
theorem chunkRow_lft (c : Dev nD) (a : ℕ) : chunkRow (lft c) (a + 1) = chunkRow c a := by
  unfold chunkRow; rw [posOf_lft_val]; omega

/-- Gather rightwards, step `s`: the receiver's strip at distance `15 - s` is the sender's at distance `16 - s`. -/
theorem oS_gr_dst (c : Dev nD) (s : Fin 8) (j : Fin 4) : oS (rgt c) (15 - s.val) j = oS c (16 - s.val) j :=
  oS_congr (by have := s.isLt; rw [chunkRow_rgt]; congr 1; omega) j
/-- Gather leftwards, step `s`: the receiver's strip at distance `1 + s` is the sender's at distance `s`. -/
theorem oS_gl_dst (c : Dev nD) (s : Fin 7) (j : Fin 4) : oS (lft c) (1 + s.val) j = oS c s.val j :=
  oS_congr (by rw [Nat.add_comm 1 s.val, chunkRow_lft]) j

/-- The strip a reduce step leftwards was read from is the strip the gather step rightwards `7 - s'` writes. -/
theorem oS_rl_gr (d : Dev nD) (s' : Fin 8) (j : Fin 4) : oS d (8 + s'.val) j = oS d (15 - (7 - s'.val)) j :=
  oS_congr (by have := s'.isLt; congr 1; omega) j
/-- The same, by the gather's step `s`. -/
theorem oS_rl_gr' (d : Dev nD) (s : Fin 8) (j : Fin 4) : oS d (8 + (7 - s.val)) j = oS d (15 - s.val) j :=
  oS_congr (by have := s.isLt; congr 1; omega) j
/-- The strip a reduce step rightwards was read from is the strip the gather step leftwards `6 - s'` writes. -/
theorem oS_rr_gl (d : Dev nD) (s' : Fin 7) (j : Fin 4) : oS d (7 - s'.val) j = oS d (1 + (6 - s'.val)) j :=
  oS_congr (by have := s'.isLt; congr 1; omega) j
theorem oS_rr_gl' (d : Dev nD) (s : Fin 7) (j : Fin 4) : oS d (7 - (6 - s.val)) j = oS d (1 + s.val) j :=
  oS_congr (by have := s.isLt; congr 1; omega) j

/-! ## The records of a gather cell -/

/-- A gather cell's invariant and round-0 fact, out of the records. -/
theorem records_gr (K : Dev nD × Fin 241 → ℕ) (c : Dev nD) (d : Fin 2) (s : Fin 8) (j : Fin 4) :
    records m ρ K ⊢ iprop(cellInv ER (ringRd m ρ) (K (c, grIdx d s j)) (grCell c d s j) ∗ reached ER (grCell c d s j) 0) := by
  have h1 := records_inv m ρ K (c, grIdx d s j)
  have h2 := records_reached m ρ K (c, grIdx d s j)
  rw [kcell_gr] at h1 h2
  iintro #H
  isplitl
  · iapply h1; iexact H
  · iapply h2; iexact H
theorem records_gl (K : Dev nD × Fin 241 → ℕ) (c : Dev nD) (d : Fin 2) (s : Fin 7) (j : Fin 4) :
    records m ρ K ⊢ iprop(cellInv ER (ringRd m ρ) (K (c, glIdx d s j)) (glCell c d s j) ∗ reached ER (glCell c d s j) 0) := by
  have h1 := records_inv m ρ K (c, glIdx d s j)
  have h2 := records_reached m ρ K (c, glIdx d s j)
  rw [kcell_gl] at h1 h2
  iintro #H
  isplitl
  · iapply h1; iexact H
  · iapply h2; iexact H

/-! ## The two transfers -/

theorem fin16_gr : ∀ p x : Fin 16, p + 1 - 1 - x = p - x := by decide
theorem fin16_gl : ∀ p x : Fin 16, p - 1 + 1 + x = p + x := by decide

/-- Gather rightwards, step `s`, strip `j`: the sender gives its share of the finished strip (it comes back with the
    departure) and the receiver's strip, which lands finished in the receiver's arrival cell. -/
theorem wp_gr_send_at (K : Dev nD × Fin 241 → ℕ) (c : Dev nD) (s : Fin 8) (j : Fin 4) (n : Dev nD) (hn : n = rgt c)
    (S : Finset Pay) (hS : Pay.gr s j ∈ S) (W : Waits sig Unit)
    {V : S16x1024.Idx → Elt F .f32} (hV : V = fin m ρ (posOf c - ⟨s.val % 16, Nat.mod_lt _ (by decide)⟩) j)
    {hsc : (oS c (16 - s.val) j : Memref sig (Dev.tc n : Thread nD τ).2.kind .vmem S16x1024 .f32).view.ref.isScScratch = false}
    {hsrc : (oS c (16 - s.val) j : Memref sig .tc .vmem S16x1024 .f32).view.WordExact}
    {hdst : (oS c (16 - s.val) j : Memref sig .tc .vmem S16x1024 .f32).view.WordExact}
    {hsem : DmaTarget.Typed .vmem (.dma (sem8 cc0_scratch4 1 s j))
      (.remote (Dev.tc n : Thread nD τ) (oS c (16 - s.val) j : Memref sig .tc .vmem S16x1024 .f32) (.dma (sem8 cc0_scratch4 0 s j)) hsc)}
    {α : Type} {Q : α → sProp 𝕄} {k : PUnit → Prog (TpuEff nD τ sig (Elt F) Λ₀ .tc) α} :
    iprop(records m ρ K ∗ owns (c : Thread nD τ) (oS c (16 - s.val) j) (shG false s.val) V
        ∗ (∃ f, (oS (rgt c) (15 - s.val) j).view.loc (rgt c : Thread nD τ) ↦[(oS (rgt c) (15 - s.val) j).view.set]{fullShare} f)
        ∗ owes (c : Thread nD τ) (owedOf c S) W
        ∗ dutyTok ER (grCell c 0 s j) 0 false ∗ dutyTok ER (grCell (rgt c) 1 s j) 0 false)
      ⊢ iprop(((cred (tallyAt (grCell c 0 s j) () N16) ∗ owes (c : Thread nD τ) (owedOf c (S.erase (.gr s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS c (16 - s.val) j) (.remote (Dev.tc n : Thread nD τ) (oS c (16 - s.val) j) (.dma (sem8 cc0_scratch4 0 s j)) hsc)
                (.dma (sem8 cc0_scratch4 1 s j)) hsrc hdst hsem) k) Q) := by
  subst hn
  rw [oS_gr_dst c s j]
  iintro ⟨#Hrec, Hsrc, ⟨%fd, Hdst⟩, Howes, Ht1, Ht2⟩ Hk
  ihave H1 := records_gr m ρ K c 0 s j $$ Hrec
  icases H1 with ⟨Hg1, Hr1⟩
  ihave H2 := records_gr m ρ K (rgt c) 1 s j $$ Hrec
  icases H2 with ⟨Hg2, Hr2⟩
  ihave Hs' := (show owns (c : Thread nD τ) (oS c (16 - s.val) j) (shG false s.val) V
      ⊢ iprop(∃ g, ⌜(oS c (16 - s.val) j).view.read (Elt F) g = V⌝ ∗ (oS c (16 - s.val) j).view.loc (c : Thread nD τ) ↦[(oS c (16 - s.val) j).view.set]{shG false s.val} g) from .rfl) $$ Hsrc
  icases Hs' with ⟨%fs, %hfs, Hsrc⟩
  iapply (Rounds.wp_send_pointsTo 𝒱₀ ER (ringRd m ρ) (c : Thread nD τ) none
      (c' := (Dev.tc (rgt c) : Thread nD τ)) (src := oS c (16 - s.val) j) (dst := oS c (16 - s.val) j)
      (sS := .dma (sem8 cc0_scratch4 0 s j)) (sem := .dma (sem8 cc0_scratch4 1 s j))
      (q := shG false s.val) (fs := fs) (fd := fd) (κ₁ := K (c, grIdx 0 s j)) (κ₂ := K (rgt c, grIdx 1 s j)) (r₁ := 0) (r₂ := 0) (d₁ := false) (d₂ := false)
      (by rw [duties_gr]; exact Finset.mem_singleton_self _) (by rw [duties_gr]; exact Finset.mem_singleton_self _)
      () () N16 rfl (amount_gr m ρ c 0 s j false) (amount_gr m ρ (rgt c) 1 s j false)
      (owedOf c (S.erase (.gr s j))) (owedOf_erase c S (.gr s j) hS) (W := W)
      (by
        rw [payload_gr_dep]; unfold grDep owns
        iintro H; iexists fs; isplitr
        · ipureintro; exact hfs.trans hV
        · iexact H)
      (by
        rw [payload_gr_arr]; unfold grArr; rw [oS_gr_dst c s j]; unfold owns
        iintro H
        iexists (oS c (16 - s.val) j).view.write (Elt F) fd ((oS c (16 - s.val) j).view.read (Elt F) fs) Finset.univ
        isplitr
        · ipureintro; rw [View.read_write_univ, hfs, hV, posOf_rgt, fin16_gr]
        · iexact H)) $$ [Hg1 Hg2 Hsrc Hdst Howes Ht1 Hr1 Ht2 Hr2] [Hk]
  · isplitl [Hg1]; · iexact Hg1
    isplitl [Hg2]; · iexact Hg2
    isplitl [Hsrc]; · iexact Hsrc
    isplitl [Hdst]; · iexact Hdst
    isplitl [Howes]; · iexact Howes
    isplitl [Ht1]; · iexact Ht1
    isplitl [Hr1]; · iexact Hr1
    isplitl [Ht2]; · iexact Ht2
    iexact Hr2
  · iexact Hk

/-- Gather leftwards, step `s`, strip `j`: the same to the neighbour before. -/
theorem wp_gl_send_at (K : Dev nD × Fin 241 → ℕ) (c : Dev nD) (s : Fin 7) (j : Fin 4) (n : Dev nD) (hn : n = lft c)
    (S : Finset Pay) (hS : Pay.gl s j ∈ S) (W : Waits sig Unit)
    {V : S16x1024.Idx → Elt F .f32} (hV : V = fin m ρ (posOf c + ⟨s.val % 16, Nat.mod_lt _ (by decide)⟩) j)
    {hsc : (oS c s.val j : Memref sig (Dev.tc n : Thread nD τ).2.kind .vmem S16x1024 .f32).view.ref.isScScratch = false}
    {hsrc : (oS c s.val j : Memref sig .tc .vmem S16x1024 .f32).view.WordExact}
    {hdst : (oS c s.val j : Memref sig .tc .vmem S16x1024 .f32).view.WordExact}
    {hsem : DmaTarget.Typed .vmem (.dma (sem7 cc0_scratch5 1 s j))
      (.remote (Dev.tc n : Thread nD τ) (oS c s.val j : Memref sig .tc .vmem S16x1024 .f32) (.dma (sem7 cc0_scratch5 0 s j)) hsc)}
    {α : Type} {Q : α → sProp 𝕄} {k : PUnit → Prog (TpuEff nD τ sig (Elt F) Λ₀ .tc) α} :
    iprop(records m ρ K ∗ owns (c : Thread nD τ) (oS c s.val j) (shG true s.val) V
        ∗ (∃ f, (oS (lft c) (1 + s.val) j).view.loc (lft c : Thread nD τ) ↦[(oS (lft c) (1 + s.val) j).view.set]{fullShare} f)
        ∗ owes (c : Thread nD τ) (owedOf c S) W
        ∗ dutyTok ER (glCell c 0 s j) 0 false ∗ dutyTok ER (glCell (lft c) 1 s j) 0 false)
      ⊢ iprop(((cred (tallyAt (glCell c 0 s j) () N16) ∗ owes (c : Thread nD τ) (owedOf c (S.erase (.gl s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS c s.val j) (.remote (Dev.tc n : Thread nD τ) (oS c s.val j) (.dma (sem7 cc0_scratch5 0 s j)) hsc)
                (.dma (sem7 cc0_scratch5 1 s j)) hsrc hdst hsem) k) Q) := by
  subst hn
  rw [oS_gl_dst c s j]
  iintro ⟨#Hrec, Hsrc, ⟨%fd, Hdst⟩, Howes, Ht1, Ht2⟩ Hk
  ihave H1 := records_gl m ρ K c 0 s j $$ Hrec
  icases H1 with ⟨Hg1, Hr1⟩
  ihave H2 := records_gl m ρ K (lft c) 1 s j $$ Hrec
  icases H2 with ⟨Hg2, Hr2⟩
  ihave Hs' := (show owns (c : Thread nD τ) (oS c s.val j) (shG true s.val) V
      ⊢ iprop(∃ g, ⌜(oS c s.val j).view.read (Elt F) g = V⌝ ∗ (oS c s.val j).view.loc (c : Thread nD τ) ↦[(oS c s.val j).view.set]{shG true s.val} g) from .rfl) $$ Hsrc
  icases Hs' with ⟨%fs, %hfs, Hsrc⟩
  iapply (Rounds.wp_send_pointsTo 𝒱₀ ER (ringRd m ρ) (c : Thread nD τ) none
      (c' := (Dev.tc (lft c) : Thread nD τ)) (src := oS c s.val j) (dst := oS c s.val j)
      (sS := .dma (sem7 cc0_scratch5 0 s j)) (sem := .dma (sem7 cc0_scratch5 1 s j))
      (q := shG true s.val) (fs := fs) (fd := fd) (κ₁ := K (c, glIdx 0 s j)) (κ₂ := K (lft c, glIdx 1 s j)) (r₁ := 0) (r₂ := 0) (d₁ := false) (d₂ := false)
      (by rw [duties_gl]; exact Finset.mem_singleton_self _) (by rw [duties_gl]; exact Finset.mem_singleton_self _)
      () () N16 rfl (amount_gl m ρ c 0 s j false) (amount_gl m ρ (lft c) 1 s j false)
      (owedOf c (S.erase (.gl s j))) (owedOf_erase c S (.gl s j) hS) (W := W)
      (by
        rw [payload_gl_dep]; unfold glDep owns
        iintro H; iexists fs; isplitr
        · ipureintro; exact hfs.trans hV
        · iexact H)
      (by
        rw [payload_gl_arr]; unfold glArr; rw [oS_gl_dst c s j]; unfold owns
        iintro H
        iexists (oS c s.val j).view.write (Elt F) fd ((oS c s.val j).view.read (Elt F) fs) Finset.univ
        isplitr
        · ipureintro; rw [View.read_write_univ, hfs, hV, posOf_lft, fin16_gl]
        · iexact H)) $$ [Hg1 Hg2 Hsrc Hdst Howes Ht1 Hr1 Ht2 Hr2] [Hk]
  · isplitl [Hg1]; · iexact Hg1
    isplitl [Hg2]; · iexact Hg2
    isplitl [Hsrc]; · iexact Hsrc
    isplitl [Hdst]; · iexact Hdst
    isplitl [Howes]; · iexact Howes
    isplitl [Ht1]; · iexact Ht1
    isplitl [Hr1]; · iexact Hr1
    isplitl [Ht2]; · iexact Ht2
    iexact Hr2
  · iexact Hk

/-! ## The same over a slice at an offset the program computes, equal to the strip's -/

/-- `wp_gr_send_at` for the transfer as the program spells it: both ends the slice of sixteen rows of the output buffer at
    an offset `off` equal to the strip's, the device addressed `n` equal to the next one. -/
theorem wp_gr_send (K : Dev nD × Fin 241 → ℕ) (c : Dev nD) (s : Fin 8) (j : Fin 4) (n : Dev nD) (hn : n = rgt c)
    {off : Fin 2 → ℕ} (hoff : off = ![chunkRow c (16 - s.val) + 16 * j.val, 0])
    (S : Finset Pay) (hS : Pay.gr s j ∈ S) (W : Waits sig Unit)
    {V : S16x1024.Idx → Elt F .f32} (hV : V = fin m ρ (posOf c - ⟨s.val % 16, Nat.mod_lt _ (by decide)⟩) j)
    {p p' : ∀ a, off a + S16x1024.size a ≤ S1024x1024.size a}
    {hs : ∀ a, (Rect.unit (s := S1024x1024) off S16x1024.size p).stride a = 1} {hs' : ∀ a, (Rect.unit (s := S1024x1024) off S16x1024.size p').stride a = 1}
    {hsc : ((oM : Memref sig .tc .vmem S1024x1024 .f32).slice (Rect.unit (s := S1024x1024) off S16x1024.size p') hs' : Memref sig (Dev.tc n : Thread nD τ).2.kind .vmem S16x1024 .f32).view.ref.isScScratch = false}
    {hsrc : ((oM : Memref sig .tc .vmem S1024x1024 .f32).slice (Rect.unit (s := S1024x1024) off S16x1024.size p) hs).view.WordExact}
    {hdst : ((oM : Memref sig .tc .vmem S1024x1024 .f32).slice (Rect.unit (s := S1024x1024) off S16x1024.size p') hs').view.WordExact}
    {hsem : DmaTarget.Typed .vmem (.dma (sem8 cc0_scratch4 1 s j))
      (.remote (Dev.tc n : Thread nD τ) ((oM : Memref sig .tc .vmem S1024x1024 .f32).slice (Rect.unit (s := S1024x1024) off S16x1024.size p') hs') (.dma (sem8 cc0_scratch4 0 s j)) hsc)}
    {α : Type} {Q : α → sProp 𝕄} {k : PUnit → Prog (TpuEff nD τ sig (Elt F) Λ₀ .tc) α} :
    iprop(records m ρ K ∗ owns (c : Thread nD τ) (oS c (16 - s.val) j) (shG false s.val) V
        ∗ (∃ f, (oS (rgt c) (15 - s.val) j).view.loc (rgt c : Thread nD τ) ↦[(oS (rgt c) (15 - s.val) j).view.set]{fullShare} f)
        ∗ owes (c : Thread nD τ) (owedOf c S) W
        ∗ dutyTok ER (grCell c 0 s j) 0 false ∗ dutyTok ER (grCell (rgt c) 1 s j) 0 false)
      ⊢ iprop(((cred (tallyAt (grCell c 0 s j) () N16) ∗ owes (c : Thread nD τ) (owedOf c (S.erase (.gr s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM : Memref sig .tc .vmem S1024x1024 .f32).slice (Rect.unit (s := S1024x1024) off S16x1024.size p) hs)
                (.remote (Dev.tc n : Thread nD τ) ((oM : Memref sig .tc .vmem S1024x1024 .f32).slice (Rect.unit (s := S1024x1024) off S16x1024.size p') hs') (.dma (sem8 cc0_scratch4 0 s j)) hsc)
                (.dma (sem8 cc0_scratch4 1 s j)) hsrc hdst hsem) k) Q) := by
  subst hoff
  exact wp_gr_send_at m ρ K c s j n hn S hS W hV

theorem wp_gl_send (K : Dev nD × Fin 241 → ℕ) (c : Dev nD) (s : Fin 7) (j : Fin 4) (n : Dev nD) (hn : n = lft c)
    {off : Fin 2 → ℕ} (hoff : off = ![chunkRow c s.val + 16 * j.val, 0])
    (S : Finset Pay) (hS : Pay.gl s j ∈ S) (W : Waits sig Unit)
    {V : S16x1024.Idx → Elt F .f32} (hV : V = fin m ρ (posOf c + ⟨s.val % 16, Nat.mod_lt _ (by decide)⟩) j)
    {p p' : ∀ a, off a + S16x1024.size a ≤ S1024x1024.size a}
    {hs : ∀ a, (Rect.unit (s := S1024x1024) off S16x1024.size p).stride a = 1} {hs' : ∀ a, (Rect.unit (s := S1024x1024) off S16x1024.size p').stride a = 1}
    {hsc : ((oM : Memref sig .tc .vmem S1024x1024 .f32).slice (Rect.unit (s := S1024x1024) off S16x1024.size p') hs' : Memref sig (Dev.tc n : Thread nD τ).2.kind .vmem S16x1024 .f32).view.ref.isScScratch = false}
    {hsrc : ((oM : Memref sig .tc .vmem S1024x1024 .f32).slice (Rect.unit (s := S1024x1024) off S16x1024.size p) hs).view.WordExact}
    {hdst : ((oM : Memref sig .tc .vmem S1024x1024 .f32).slice (Rect.unit (s := S1024x1024) off S16x1024.size p') hs').view.WordExact}
    {hsem : DmaTarget.Typed .vmem (.dma (sem7 cc0_scratch5 1 s j))
      (.remote (Dev.tc n : Thread nD τ) ((oM : Memref sig .tc .vmem S1024x1024 .f32).slice (Rect.unit (s := S1024x1024) off S16x1024.size p') hs') (.dma (sem7 cc0_scratch5 0 s j)) hsc)}
    {α : Type} {Q : α → sProp 𝕄} {k : PUnit → Prog (TpuEff nD τ sig (Elt F) Λ₀ .tc) α} :
    iprop(records m ρ K ∗ owns (c : Thread nD τ) (oS c s.val j) (shG true s.val) V
        ∗ (∃ f, (oS (lft c) (1 + s.val) j).view.loc (lft c : Thread nD τ) ↦[(oS (lft c) (1 + s.val) j).view.set]{fullShare} f)
        ∗ owes (c : Thread nD τ) (owedOf c S) W
        ∗ dutyTok ER (glCell c 0 s j) 0 false ∗ dutyTok ER (glCell (lft c) 1 s j) 0 false)
      ⊢ iprop(((cred (tallyAt (glCell c 0 s j) () N16) ∗ owes (c : Thread nD τ) (owedOf c (S.erase (.gl s j))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM : Memref sig .tc .vmem S1024x1024 .f32).slice (Rect.unit (s := S1024x1024) off S16x1024.size p) hs)
                (.remote (Dev.tc n : Thread nD τ) ((oM : Memref sig .tc .vmem S1024x1024 .f32).slice (Rect.unit (s := S1024x1024) off S16x1024.size p') hs') (.dma (sem7 cc0_scratch5 0 s j)) hsc)
                (.dma (sem7 cc0_scratch5 1 s j)) hsrc hdst hsem) k) Q) := by
  subst hoff
  exact wp_gl_send_at m ρ K c s j n hn S hS W hV

end Cert.Kernel.Hand

end
-- ==== Proof.Bits.FamLocal.lean ====
/-
  The local steps of the ring all-reduce and the cutting of its buffers into strips.

  A strip is 16 rows of a 64-row chunk. The output buffer (1024 rows) is its 16 chunks of 4 strips, numbered by the chunk's
  distance from the device's own ring position: position `(p + a) % 16` runs over all sixteen positions as `a` does, so the 64
  strips tile the buffer whatever `p` is. The two receive buffers (8 and 7 slots of 64 rows) are tiled by their 32 and 28
  strips; a strip of a receive buffer is read through a view with the unit slot axis dropped, which has the same elements.

  The steps: a load of a strip reads its contents; a store over a strip leaves the stored value; the receive-add of a
  strip (load both, store the sum over the first); GELU of a strip in place; the device's partial product written over the
  whole output buffer.
-/
import proofs.«900799_g7700000000000800_dist_gemm_ar_m1024_k1024_n1024_f32_gelu_v7x_i16_1_alg».proof.Proof.Bits.Iface
import proofs.«900799_g7700000000000800_dist_gemm_ar_m1024_k1024_n1024_f32_gelu_v7x_i16_1_alg».proof.Proof.Bits.DevArith
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The rectangle of slot `s`, strip `j` in the buffer that receives the chunks travelling left (`lRect`) or right (`rRect`),
    and of strip `j` of the chunk at distance `a` in the output buffer (`oR`). -/
abbrev lRect (s : Fin 8) (j : Fin 4) : Rect S8x64x1024 := Rect.unit (s := S8x64x1024) ![s.val, 16 * j.val, 0] S1x16x1024.size (lSlot_inb s j)
abbrev rRect (s : Fin 7) (j : Fin 4) : Rect S7x64x1024 := Rect.unit (s := S7x64x1024) ![s.val, 16 * j.val, 0] S1x16x1024.size (rSlot_inb s j)
abbrev oR (c : Dev nD) (a : ℕ) (j : Fin 4) : Rect S1024x1024 := oRect (chunkRow c a + 16 * j.val) (stripRow_le c a j)

omit [FloatOps F] in
theorem read_lS (s : Fin 8) (j : Fin 4) (g : (cc0_scratch0 : Ref sig .tc).ty.Contents (Elt F)) :
    shapeCast S16x1024 (((lM : Memref sig .tc .vmem S8x64x1024 .f32).access (lRect s j) : View sig .tc _ _ _).read (Elt F) g) shapeCasts_S1x16x1024_S16x1024
      = (lS s j : Memref sig .tc .vmem S16x1024 .f32).view.read (Elt F) g := rfl
omit [FloatOps F] in
theorem read_rS (s : Fin 7) (j : Fin 4) (g : (cc0_scratch1 : Ref sig .tc).ty.Contents (Elt F)) :
    shapeCast S16x1024 (((rM : Memref sig .tc .vmem S7x64x1024 .f32).access (rRect s j) : View sig .tc _ _ _).read (Elt F) g) shapeCasts_S1x16x1024_S16x1024
      = (rS s j : Memref sig .tc .vmem S16x1024 .f32).view.read (Elt F) g := rfl

omit [FloatOps F] in
theorem set_lS (s : Fin 8) (j : Fin 4) :
    (lS s j : Memref sig .tc .vmem S16x1024 .f32).view.set = ((lM : Memref sig .tc .vmem S8x64x1024 .f32).access (lRect s j) : View sig .tc _ _ _).set :=
  View.set_reshape _ _
omit [FloatOps F] in
theorem set_rS (s : Fin 7) (j : Fin 4) :
    (rS s j : Memref sig .tc .vmem S16x1024 .f32).view.set = ((rM : Memref sig .tc .vmem S7x64x1024 .f32).access (rRect s j) : View sig .tc _ _ _).set :=
  View.set_reshape _ _

theorem pay2_eq (X : S16x1024.Idx → Elt F .f32) (V : S1x16x1024.Idx → Elt F .f32) :
    k0_pay2 X V = addS X (shapeCast S16x1024 V shapeCasts_S1x16x1024_S16x1024) := by
  unfold k0_pay2 addS
  rw [shapeCast_self]

/-- The receive-add of one strip from the buffer of the chunks travelling left: the strip of the output buffer and the landed
    strip are read, and their sum is stored over the former. -/
theorem wp_addL_at (c : Dev nD) (a : ℕ) (s : Fin 8) (j : Fin 4)
    (pay : (S16x1024.Idx → Elt F .f32) → (S1x16x1024.Idx → Elt F .f32) → S16x1024.Idx → Elt F .f32) (hpay : ∀ u v, pay u v = k0_pay2 u v)
    {X Y : S16x1024.Idx → Elt F .f32}
    {hl1 : (oM : Memref sig .tc .vmem S1024x1024 .f32).view.LoadsAt (oR c a j).toLoadRect}
    {hl2 : (lM : Memref sig .tc .vmem S8x64x1024 .f32).view.LoadsAt (lRect s j).toLoadRect}
    {hl3 : (oM : Memref sig .tc .vmem S1024x1024 .f32).view.LoadsAt (oR c a j).toLoadRect}
    {hx : ((oM : Memref sig .tc .vmem S1024x1024 .f32).access (oR c a j) : View sig .tc _ _ _).Stores Finset.univ}
    {hm : (Finset.univ : Finset (oR c a j).shape.Idx) = Finset.univ ∨ ∀ b, (oR c a j).stride b = 1}
    {α : Type} {Q : α → sProp 𝕄} {k : PUnit → Prog (TpuEff nD τ sig (Elt F) Λ₀ .tc) α} :
    iprop(owns (c : Thread nD τ) (oS c a j) fullShare X ∗ owns (c : Thread nD τ) (lS s j) fullShare Y)
      ⊢ iprop(((owns (c : Thread nD τ) (oS c a j) fullShare (addS X Y) ∗ owns (c : Thread nD τ) (lS s j) fullShare Y)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (oR c a j).toLoadRect hl1) fun v1 =>
               .op (.load lM (lRect s j).toLoadRect hl2) fun v2 =>
               .op (.load oM (oR c a j).toLoadRect hl3) fun _ =>
               .op (.store oM (oR c a j) (pay v1 v2) Finset.univ hx hm) k) Q) := by
  unfold owns
  iintro ⟨⟨%f, %hf, Ho⟩, ⟨%g, %hg, Hl⟩⟩
  iintro Hk
  iapply (wp_load_rect 𝒱₀ (c : Thread nD τ) none Set.univ (m := oM) (r := oR c a j) (S := (oS c a j).view.set) (Finset.Subset.refl _)) $$ Ho; iintro Ho
  iapply (wp_load_rect 𝒱₀ (c : Thread nD τ) none Set.univ (m := lM) (r := lRect s j) (S := (lS s j).view.set) (Finset.subset_of_eq (set_lS s j).symm)) $$ Hl; iintro Hl
  iapply (wp_load_rect 𝒱₀ (c : Thread nD τ) none Set.univ (m := oM) (r := oR c a j) (S := (oS c a j).view.set) (Finset.Subset.refl _)) $$ Ho; iintro Ho
  iapply (wp_store 𝒱₀ (c : Thread nD τ) none Set.univ (m := oM) (r := oR c a j) (Mk := Finset.univ) (S := (oS c a j).view.set) (Finset.Subset.refl _)) $$ Ho; iintro Ho
  iapply Hk
  have e : (oS c a j : Memref sig .tc .vmem S16x1024 .f32).view.read (Elt F)
      (((oM : Memref sig .tc .vmem S1024x1024 .f32).access (oR c a j) : View sig .tc _ _ _).write (Elt F) f
        (pay (((oM : Memref sig .tc .vmem S1024x1024 .f32).access (oR c a j) : View sig .tc _ _ _).read (Elt F) f)
          (((lM : Memref sig .tc .vmem S8x64x1024 .f32).access (lRect s j) : View sig .tc _ _ _).read (Elt F) g)) Finset.univ) = addS X Y := by
    show ((oM : Memref sig .tc .vmem S1024x1024 .f32).access (oR c a j) : View sig .tc _ _ _).read (Elt F) _ = _
    rw [View.read_write_univ, hpay, pay2_eq, read_lS, hg]
    exact congrArg (fun u => addS u Y) hf
  isplitl [Ho]
  · iexists _
    isplitr
    · ipureintro; exact e
    · iexact Ho
  · iexists g
    isplitr
    · ipureintro; exact hg
    · iexact Hl

/-- The same at an offset given by an equation: the form that applies where the program computes the offset from the
    device's id, by a function proved equal to the strip's first row. -/
theorem wp_addL (c : Dev nD) (a : ℕ) (s : Fin 8) (j : Fin 4)
    (pay : (S16x1024.Idx → Elt F .f32) → (S1x16x1024.Idx → Elt F .f32) → S16x1024.Idx → Elt F .f32) (hpay : ∀ u v, pay u v = k0_pay2 u v)
    {off : Fin 2 → ℕ} (hoff : off = ![chunkRow c a + 16 * j.val, 0])
    {inb : ∀ b, off b + S16x1024.size b ≤ S1024x1024.size b}
    {X Y : S16x1024.Idx → Elt F .f32}
    {hl1 : (oM : Memref sig .tc .vmem S1024x1024 .f32).view.LoadsAt (Rect.unit (s := S1024x1024) off S16x1024.size inb).toLoadRect}
    {hl2 : (lM : Memref sig .tc .vmem S8x64x1024 .f32).view.LoadsAt (lRect s j).toLoadRect}
    {hl3 : (oM : Memref sig .tc .vmem S1024x1024 .f32).view.LoadsAt (Rect.unit (s := S1024x1024) off S16x1024.size inb).toLoadRect}
    {hx : ((oM : Memref sig .tc .vmem S1024x1024 .f32).access (Rect.unit (s := S1024x1024) off S16x1024.size inb) : View sig .tc _ _ _).Stores Finset.univ}
    {hm : (Finset.univ : Finset (Rect.unit (s := S1024x1024) off S16x1024.size inb).shape.Idx) = Finset.univ ∨ ∀ b, (Rect.unit (s := S1024x1024) off S16x1024.size inb).stride b = 1}
    {α : Type} {Q : α → sProp 𝕄} {k : PUnit → Prog (TpuEff nD τ sig (Elt F) Λ₀ .tc) α} :
    iprop(owns (c : Thread nD τ) (oS c a j) fullShare X ∗ owns (c : Thread nD τ) (lS s j) fullShare Y)
      ⊢ iprop(((owns (c : Thread nD τ) (oS c a j) fullShare (addS X Y) ∗ owns (c : Thread nD τ) (lS s j) fullShare Y)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S1024x1024) off S16x1024.size inb).toLoadRect hl1) fun v1 =>
               .op (.load lM (lRect s j).toLoadRect hl2) fun v2 =>
               .op (.load oM (Rect.unit (s := S1024x1024) off S16x1024.size inb).toLoadRect hl3) fun _ =>
               .op (.store oM (Rect.unit (s := S1024x1024) off S16x1024.size inb) (pay v1 v2) Finset.univ hx hm) k) Q) := by
  subst hoff
  exact wp_addL_at c a s j pay hpay

/-- The receive-add of one strip from the buffer of the chunks travelling right: the strip of the output buffer and the landed
    strip are read, and their sum is stored over the former. -/
theorem wp_addR_at (c : Dev nD) (a : ℕ) (s : Fin 7) (j : Fin 4)
    (pay : (S16x1024.Idx → Elt F .f32) → (S1x16x1024.Idx → Elt F .f32) → S16x1024.Idx → Elt F .f32) (hpay : ∀ u v, pay u v = k0_pay2 u v)
    {X Y : S16x1024.Idx → Elt F .f32}
    {hl1 : (oM : Memref sig .tc .vmem S1024x1024 .f32).view.LoadsAt (oR c a j).toLoadRect}
    {hl2 : (rM : Memref sig .tc .vmem S7x64x1024 .f32).view.LoadsAt (rRect s j).toLoadRect}
    {hl3 : (oM : Memref sig .tc .vmem S1024x1024 .f32).view.LoadsAt (oR c a j).toLoadRect}
    {hx : ((oM : Memref sig .tc .vmem S1024x1024 .f32).access (oR c a j) : View sig .tc _ _ _).Stores Finset.univ}
    {hm : (Finset.univ : Finset (oR c a j).shape.Idx) = Finset.univ ∨ ∀ b, (oR c a j).stride b = 1}
    {α : Type} {Q : α → sProp 𝕄} {k : PUnit → Prog (TpuEff nD τ sig (Elt F) Λ₀ .tc) α} :
    iprop(owns (c : Thread nD τ) (oS c a j) fullShare X ∗ owns (c : Thread nD τ) (rS s j) fullShare Y)
      ⊢ iprop(((owns (c : Thread nD τ) (oS c a j) fullShare (addS X Y) ∗ owns (c : Thread nD τ) (rS s j) fullShare Y)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (oR c a j).toLoadRect hl1) fun v1 =>
               .op (.load rM (rRect s j).toLoadRect hl2) fun v2 =>
               .op (.load oM (oR c a j).toLoadRect hl3) fun _ =>
               .op (.store oM (oR c a j) (pay v1 v2) Finset.univ hx hm) k) Q) := by
  unfold owns
  iintro ⟨⟨%f, %hf, Ho⟩, ⟨%g, %hg, Hl⟩⟩
  iintro Hk
  iapply (wp_load_rect 𝒱₀ (c : Thread nD τ) none Set.univ (m := oM) (r := oR c a j) (S := (oS c a j).view.set) (Finset.Subset.refl _)) $$ Ho; iintro Ho
  iapply (wp_load_rect 𝒱₀ (c : Thread nD τ) none Set.univ (m := rM) (r := rRect s j) (S := (rS s j).view.set) (Finset.subset_of_eq (set_rS s j).symm)) $$ Hl; iintro Hl
  iapply (wp_load_rect 𝒱₀ (c : Thread nD τ) none Set.univ (m := oM) (r := oR c a j) (S := (oS c a j).view.set) (Finset.Subset.refl _)) $$ Ho; iintro Ho
  iapply (wp_store 𝒱₀ (c : Thread nD τ) none Set.univ (m := oM) (r := oR c a j) (Mk := Finset.univ) (S := (oS c a j).view.set) (Finset.Subset.refl _)) $$ Ho; iintro Ho
  iapply Hk
  have e : (oS c a j : Memref sig .tc .vmem S16x1024 .f32).view.read (Elt F)
      (((oM : Memref sig .tc .vmem S1024x1024 .f32).access (oR c a j) : View sig .tc _ _ _).write (Elt F) f
        (pay (((oM : Memref sig .tc .vmem S1024x1024 .f32).access (oR c a j) : View sig .tc _ _ _).read (Elt F) f)
          (((rM : Memref sig .tc .vmem S7x64x1024 .f32).access (rRect s j) : View sig .tc _ _ _).read (Elt F) g)) Finset.univ) = addS X Y := by
    show ((oM : Memref sig .tc .vmem S1024x1024 .f32).access (oR c a j) : View sig .tc _ _ _).read (Elt F) _ = _
    rw [View.read_write_univ, hpay, pay2_eq, read_rS, hg]
    exact congrArg (fun u => addS u Y) hf
  isplitl [Ho]
  · iexists _
    isplitr
    · ipureintro; exact e
    · iexact Ho
  · iexists g
    isplitr
    · ipureintro; exact hg
    · iexact Hl

/-- The same at an offset given by an equation: the form that applies where the program computes the offset from the
    device's id, by a function proved equal to the strip's first row. -/
theorem wp_addR (c : Dev nD) (a : ℕ) (s : Fin 7) (j : Fin 4)
    (pay : (S16x1024.Idx → Elt F .f32) → (S1x16x1024.Idx → Elt F .f32) → S16x1024.Idx → Elt F .f32) (hpay : ∀ u v, pay u v = k0_pay2 u v)
    {off : Fin 2 → ℕ} (hoff : off = ![chunkRow c a + 16 * j.val, 0])
    {inb : ∀ b, off b + S16x1024.size b ≤ S1024x1024.size b}
    {X Y : S16x1024.Idx → Elt F .f32}
    {hl1 : (oM : Memref sig .tc .vmem S1024x1024 .f32).view.LoadsAt (Rect.unit (s := S1024x1024) off S16x1024.size inb).toLoadRect}
    {hl2 : (rM : Memref sig .tc .vmem S7x64x1024 .f32).view.LoadsAt (rRect s j).toLoadRect}
    {hl3 : (oM : Memref sig .tc .vmem S1024x1024 .f32).view.LoadsAt (Rect.unit (s := S1024x1024) off S16x1024.size inb).toLoadRect}
    {hx : ((oM : Memref sig .tc .vmem S1024x1024 .f32).access (Rect.unit (s := S1024x1024) off S16x1024.size inb) : View sig .tc _ _ _).Stores Finset.univ}
    {hm : (Finset.univ : Finset (Rect.unit (s := S1024x1024) off S16x1024.size inb).shape.Idx) = Finset.univ ∨ ∀ b, (Rect.unit (s := S1024x1024) off S16x1024.size inb).stride b = 1}
    {α : Type} {Q : α → sProp 𝕄} {k : PUnit → Prog (TpuEff nD τ sig (Elt F) Λ₀ .tc) α} :
    iprop(owns (c : Thread nD τ) (oS c a j) fullShare X ∗ owns (c : Thread nD τ) (rS s j) fullShare Y)
      ⊢ iprop(((owns (c : Thread nD τ) (oS c a j) fullShare (addS X Y) ∗ owns (c : Thread nD τ) (rS s j) fullShare Y)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S1024x1024) off S16x1024.size inb).toLoadRect hl1) fun v1 =>
               .op (.load rM (rRect s j).toLoadRect hl2) fun v2 =>
               .op (.load oM (Rect.unit (s := S1024x1024) off S16x1024.size inb).toLoadRect hl3) fun _ =>
               .op (.store oM (Rect.unit (s := S1024x1024) off S16x1024.size inb) (pay v1 v2) Finset.univ hx hm) k) Q) := by
  subst hoff
  exact wp_addR_at c a s j pay hpay

/-! ## One effect at a time -/

/-- A load of a strip of the output buffer reads the strip's contents. -/
theorem wp_loadO (c : Dev nD) (a : ℕ) (j : Fin 4) {off : Fin 2 → ℕ} (hoff : off = ![chunkRow c a + 16 * j.val, 0])
    {inb : ∀ b, off b + S16x1024.size b ≤ S1024x1024.size b} {q : PosShare TreeShare} {X : S16x1024.Idx → Elt F .f32}
    {hl : (oM : Memref sig .tc .vmem S1024x1024 .f32).view.LoadsAt (Rect.unit (s := S1024x1024) off S16x1024.size inb).toLoadRect}
    {α : Type} {Q : α → sProp 𝕄} {k : (S16x1024.Idx → Elt F .f32) → Prog (TpuEff nD τ sig (Elt F) Λ₀ .tc) α} :
    owns (c : Thread nD τ) (oS c a j) q X
      ⊢ iprop((owns (c : Thread nD τ) (oS c a j) q X -∗ wp frame (wpE (defs₀ (F := F)) 𝒱₀ (c : Thread nD τ) none) Set.univ (k X) Q)
          -∗ wp frame (wpE (defs₀ (F := F)) 𝒱₀ (c : Thread nD τ) none) Set.univ
              (.op (.load oM (Rect.unit (s := S1024x1024) off S16x1024.size inb).toLoadRect hl) k) Q) := by
  subst hoff
  unfold owns
  iintro ⟨%f, %hf, Ho⟩
  iintro Hk
  iapply (wp_load_rect 𝒱₀ (c : Thread nD τ) none Set.univ (m := oM) (r := oR c a j) (S := (oS c a j).view.set) (Finset.Subset.refl _)) $$ Ho; iintro Ho
  have e : ((oM : Memref sig .tc .vmem S1024x1024 .f32).access (oR c a j) : View sig .tc _ _ _).read (Elt F) f = X := hf
  rw [e]
  iapply Hk
  iexists f
  isplitr
  · ipureintro; exact hf
  · iexact Ho

/-- A store over a strip of the output buffer leaves the strip at the stored value. -/
theorem wp_storeO (c : Dev nD) (a : ℕ) (j : Fin 4) {off : Fin 2 → ℕ} (hoff : off = ![chunkRow c a + 16 * j.val, 0])
    {inb : ∀ b, off b + S16x1024.size b ≤ S1024x1024.size b} {X w : S16x1024.Idx → Elt F .f32}
    {hx : ((oM : Memref sig .tc .vmem S1024x1024 .f32).access (Rect.unit (s := S1024x1024) off S16x1024.size inb) : View sig .tc _ _ _).Stores Finset.univ}
    {hm : (Finset.univ : Finset (Rect.unit (s := S1024x1024) off S16x1024.size inb).shape.Idx) = Finset.univ ∨ ∀ b, (Rect.unit (s := S1024x1024) off S16x1024.size inb).stride b = 1}
    {α : Type} {Q : α → sProp 𝕄} {k : PUnit → Prog (TpuEff nD τ sig (Elt F) Λ₀ .tc) α} :
    owns (c : Thread nD τ) (oS c a j) fullShare X
      ⊢ iprop((owns (c : Thread nD τ) (oS c a j) fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S1024x1024) off S16x1024.size inb) w Finset.univ hx hm) k) Q) := by
  subst hoff
  unfold owns
  iintro ⟨%f, %hf, Ho⟩
  iintro Hk
  iapply (wp_store 𝒱₀ (c : Thread nD τ) none Set.univ (m := oM) (r := oR c a j) (Mk := Finset.univ) (S := (oS c a j).view.set) (Finset.Subset.refl _)) $$ Ho; iintro Ho
  iapply Hk
  iexists _
  isplitr
  · ipureintro
    exact View.read_write_univ (v := ((oM : Memref sig .tc .vmem S1024x1024 .f32).access (oR c a j) : View sig .tc _ _ _)) f w
  · iexact Ho

/-- A load of a landed strip reads a `1 x 16 x 1024` vector that, cast to `16 x 1024`, is the strip's contents. -/
theorem wp_loadL (c : Dev nD) (s : Fin 8) (j : Fin 4) {q : PosShare TreeShare} {Y : S16x1024.Idx → Elt F .f32}
    {hl : (lM : Memref sig .tc .vmem S8x64x1024 .f32).view.LoadsAt (lRect s j).toLoadRect}
    {α : Type} {Q : α → sProp 𝕄} {k : (S1x16x1024.Idx → Elt F .f32) → Prog (TpuEff nD τ sig (Elt F) Λ₀ .tc) α} :
    owns (c : Thread nD τ) (lS s j) q Y
      ⊢ iprop((∀ V, ⌜shapeCast S16x1024 V shapeCasts_S1x16x1024_S16x1024 = Y⌝ -∗ owns (c : Thread nD τ) (lS s j) q Y
              -∗ wp frame (wpE (defs₀ (F := F)) 𝒱₀ (c : Thread nD τ) none) Set.univ (k V) Q)
          -∗ wp frame (wpE (defs₀ (F := F)) 𝒱₀ (c : Thread nD τ) none) Set.univ
              (.op (.load lM (lRect s j).toLoadRect hl) k) Q) := by
  unfold owns
  iintro ⟨%g, %hg, Hl⟩
  iintro Hk
  iapply (wp_load_rect 𝒱₀ (c : Thread nD τ) none Set.univ (m := lM) (r := lRect s j) (S := (lS s j).view.set) (Finset.subset_of_eq (set_lS s j).symm)) $$ Hl; iintro Hl
  iapply Hk $$ %_ %((read_lS s j g).trans hg)
  iexists g
  isplitr
  · ipureintro; exact hg
  · iexact Hl

/-- A load of a landed strip reads a `1 x 16 x 1024` vector that, cast to `16 x 1024`, is the strip's contents. -/
theorem wp_loadR (c : Dev nD) (s : Fin 7) (j : Fin 4) {q : PosShare TreeShare} {Y : S16x1024.Idx → Elt F .f32}
    {hl : (rM : Memref sig .tc .vmem S7x64x1024 .f32).view.LoadsAt (rRect s j).toLoadRect}
    {α : Type} {Q : α → sProp 𝕄} {k : (S1x16x1024.Idx → Elt F .f32) → Prog (TpuEff nD τ sig (Elt F) Λ₀ .tc) α} :
    owns (c : Thread nD τ) (rS s j) q Y
      ⊢ iprop((∀ V, ⌜shapeCast S16x1024 V shapeCasts_S1x16x1024_S16x1024 = Y⌝ -∗ owns (c : Thread nD τ) (rS s j) q Y
              -∗ wp frame (wpE (defs₀ (F := F)) 𝒱₀ (c : Thread nD τ) none) Set.univ (k V) Q)
          -∗ wp frame (wpE (defs₀ (F := F)) 𝒱₀ (c : Thread nD τ) none) Set.univ
              (.op (.load rM (rRect s j).toLoadRect hl) k) Q) := by
  unfold owns
  iintro ⟨%g, %hg, Hl⟩
  iintro Hk
  iapply (wp_load_rect 𝒱₀ (c : Thread nD τ) none Set.univ (m := rM) (r := rRect s j) (S := (rS s j).view.set) (Finset.subset_of_eq (set_rS s j).symm)) $$ Hl; iintro Hl
  iapply Hk $$ %_ %((read_rS s j g).trans hg)
  iexists g
  isplitr
  · ipureintro; exact hg
  · iexact Hl

/-! ## The strips tile the buffers -/

omit [FloatOps F] in
theorem oR_disjoint (c : Dev nD) (t t' : Fin 16 × Fin 4) (h : t ≠ t') : Disjoint (oR c t.1.val t.2).set (oR c t'.1.val t'.2).set := by
  refine Rect.unit_disjoint (0 : Fin 2) ?_
  show chunkRow c t.1.val + 16 * t.2.val + 16 ≤ chunkRow c t'.1.val + 16 * t'.2.val ∨ chunkRow c t'.1.val + 16 * t'.2.val + 16 ≤ chunkRow c t.1.val + 16 * t.2.val
  unfold chunkRow
  have h1 := t.1.isLt; have h2 := t.2.isLt; have h1' := t'.1.isLt; have h2' := t'.2.isLt
  have hne : t.1.val ≠ t'.1.val ∨ t.2.val ≠ t'.2.val := by
    by_contra hc
    rcases not_or.mp hc with ⟨e1, e2⟩
    exact h (Prod.ext (Fin.ext (not_not.mp e1)) (Fin.ext (not_not.mp e2)))
  have hp := (posOf c).isLt
  omega

omit [FloatOps F] in
theorem oR_cover (c : Dev nD) : (Finset.univ : Finset (Fin 16 × Fin 4)).biUnion (fun t => (oR c t.1.val t.2).set) = Finset.univ := by
  ext x
  simp only [Finset.mem_biUnion, Finset.mem_univ, true_and, iff_true]
  have hx0 : (x 0).val < 1024 := (x 0).isLt
  have hx1 : (x 1).val < 1024 := (x 1).isLt
  have hp := (posOf c).isLt
  refine ⟨(⟨((x 0).val / 64 + 16 - (posOf c).val) % 16, Nat.mod_lt _ (by decide)⟩, ⟨(x 0).val % 64 / 16, by omega⟩), ?_⟩
  refine Rect.mem_set_unit.mpr ?_
  intro b; fin_cases b
  · show chunkRow c _ + 16 * _ ≤ (x 0).val ∧ (x 0).val < chunkRow c _ + 16 * _ + 16
    unfold chunkRow; dsimp only; omega
  · show 0 ≤ (x 1).val ∧ (x 1).val < 0 + 1024; omega

omit [FloatOps F] in
theorem lRect_disjoint (t t' : Fin 8 × Fin 4) (h : t ≠ t') : Disjoint (lRect t.1 t.2).set (lRect t'.1 t'.2).set := by
  have h1 := t.1.isLt; have h2 := t.2.isLt; have h1' := t'.1.isLt; have h2' := t'.2.isLt
  by_cases hs : t.1.val = t'.1.val
  · have hj : t.2.val ≠ t'.2.val := fun e => h (Prod.ext (Fin.ext hs) (Fin.ext e))
    refine Rect.unit_disjoint (1 : Fin 3) ?_
    show 16 * t.2.val + 16 ≤ 16 * t'.2.val ∨ 16 * t'.2.val + 16 ≤ 16 * t.2.val
    omega
  · refine Rect.unit_disjoint (0 : Fin 3) ?_
    show t.1.val + 1 ≤ t'.1.val ∨ t'.1.val + 1 ≤ t.1.val
    omega

omit [FloatOps F] in
theorem lRect_cover : (Finset.univ : Finset (Fin 8 × Fin 4)).biUnion (fun t => (lRect t.1 t.2).set) = Finset.univ := by
  ext x
  simp only [Finset.mem_biUnion, Finset.mem_univ, true_and, iff_true]
  have hx0 : (x 0).val < 8 := (x 0).isLt
  have hx1 : (x 1).val < 64 := (x 1).isLt
  have hx2 : (x 2).val < 1024 := (x 2).isLt
  refine ⟨(⟨(x 0).val, hx0⟩, ⟨(x 1).val / 16, by omega⟩), ?_⟩
  refine Rect.mem_set_unit.mpr ?_
  intro b; fin_cases b
  · show (x 0).val ≤ (x 0).val ∧ (x 0).val < (x 0).val + 1; omega
  · show 16 * ((x 1).val / 16) ≤ (x 1).val ∧ (x 1).val < 16 * ((x 1).val / 16) + 16; omega
  · show 0 ≤ (x 2).val ∧ (x 2).val < 0 + 1024; omega

omit [FloatOps F] in
theorem rRect_disjoint (t t' : Fin 7 × Fin 4) (h : t ≠ t') : Disjoint (rRect t.1 t.2).set (rRect t'.1 t'.2).set := by
  have h1 := t.1.isLt; have h2 := t.2.isLt; have h1' := t'.1.isLt; have h2' := t'.2.isLt
  by_cases hs : t.1.val = t'.1.val
  · have hj : t.2.val ≠ t'.2.val := fun e => h (Prod.ext (Fin.ext hs) (Fin.ext e))
    refine Rect.unit_disjoint (1 : Fin 3) ?_
    show 16 * t.2.val + 16 ≤ 16 * t'.2.val ∨ 16 * t'.2.val + 16 ≤ 16 * t.2.val
    omega
  · refine Rect.unit_disjoint (0 : Fin 3) ?_
    show t.1.val + 1 ≤ t'.1.val ∨ t'.1.val + 1 ≤ t.1.val
    omega

omit [FloatOps F] in
theorem rRect_cover : (Finset.univ : Finset (Fin 7 × Fin 4)).biUnion (fun t => (rRect t.1 t.2).set) = Finset.univ := by
  ext x
  simp only [Finset.mem_biUnion, Finset.mem_univ, true_and, iff_true]
  have hx0 : (x 0).val < 7 := (x 0).isLt
  have hx1 : (x 1).val < 64 := (x 1).isLt
  have hx2 : (x 2).val < 1024 := (x 2).isLt
  refine ⟨(⟨(x 0).val, hx0⟩, ⟨(x 1).val / 16, by omega⟩), ?_⟩
  refine Rect.mem_set_unit.mpr ?_
  intro b; fin_cases b
  · show (x 0).val ≤ (x 0).val ∧ (x 0).val < (x 0).val + 1; omega
  · show 16 * ((x 1).val / 16) ≤ (x 1).val ∧ (x 1).val < 16 * ((x 1).val / 16) + 16; omega
  · show 0 ≤ (x 2).val ∧ (x 2).val < 0 + 1024; omega

/-! ## A buffer whole and by strips -/

/-- The output buffer whole is its 64 strips, each owned at what it reads of the buffer's contents: chunk `a` counted from the
    device's own ring position, strip `j` of it. -/
theorem out_strips (c : Dev nD) (q : PosShare TreeShare) (f : (cc0_stg2_0 : Ref sig .tc).ty.Contents (Elt F)) :
    ((((c : Thread nD τ).loc cc0_stg2_0) ↦{q} f) : sProp 𝕄)
      = bigSep Finset.univ fun aj : Fin 16 × Fin 4 => owns (c : Thread nD τ) (oS c aj.1.val aj.2) q ((oS c aj.1.val aj.2).view.read (Elt F) f) := by
  have h := pointsTo_rects (Val := Elt F) (Ix := Unit) (Name := ℕ) (U := UU) (Lvl := ℕ) (c : Thread nD τ) (oM : Memref sig .tc .vmem S1024x1024 .f32) q
    (fun t : Fin 16 × Fin 4 => oR c t.1.val t.2) (fun _ _ => rfl) (oR_disjoint c) (oR_cover c) f
  rw [show (oM : Memref sig .tc .vmem S1024x1024 .f32).view.set = Finset.univ from View.set_whole _] at h
  exact h

/-- The same with each strip as the points-to of its elements. -/
theorem out_strips_pt (c : Dev nD) (q : PosShare TreeShare) (f : (cc0_stg2_0 : Ref sig .tc).ty.Contents (Elt F)) :
    ((((c : Thread nD τ).loc cc0_stg2_0) ↦{q} f) : sProp 𝕄)
      = bigSep Finset.univ fun aj : Fin 16 × Fin 4 => (oS c aj.1.val aj.2).view.loc (c : Thread nD τ) ↦[(oS c aj.1.val aj.2).view.set]{q} f := by
  rw [out_strips]
  exact bigSep_congr fun aj _ => owns_slice_read (c : Thread nD τ) (oM : Memref sig .tc .vmem S1024x1024 .f32) q (oR c aj.1.val aj.2) (fun _ => rfl) f

/-- Joining: 64 strips owned at the parts `Y` of contents `G` are the buffer whole at `G`. -/
theorem out_joinY (c : Dev nD) (q : PosShare TreeShare) (G : (cc0_stg2_0 : Ref sig .tc).ty.Contents (Elt F))
    (Y : Fin 16 × Fin 4 → S16x1024.Idx → Elt F .f32) (hY : ∀ aj, Y aj = (oS c aj.1.val aj.2).view.read (Elt F) G) :
    bigSep Finset.univ (fun aj : Fin 16 × Fin 4 => owns (c : Thread nD τ) (oS c aj.1.val aj.2) q (Y aj))
      ⊢ ((((c : Thread nD τ).loc cc0_stg2_0) ↦{q} G) : sProp 𝕄) := by
  rw [out_strips, bigSep_congr (fun aj _ => by rw [hY aj])]

omit [FloatOps F] in
theorem lS_view_set (t : Fin 8 × Fin 4) : (lS t.1 t.2 : Memref sig .tc .vmem S16x1024 .f32).view.set = (lRect t.1 t.2).set :=
  (set_lS t.1 t.2).trans (View.set_slice_whole _ _)

/-- The buffer receiving the chunks that travel left, whole, is its 32 strips, each owned at what it reads of the contents. -/
theorem l_split (c : Dev nD) (q : PosShare TreeShare) (f : (cc0_scratch0 : Ref sig .tc).ty.Contents (Elt F)) :
    ((((c : Thread nD τ).loc cc0_scratch0) ↦{q} f) : sProp 𝕄)
      ⊢ bigSep Finset.univ fun t : Fin 8 × Fin 4 => owns (c : Thread nD τ) (lS t.1 t.2) q ((lS t.1 t.2).view.read (Elt F) f) := by
  have h := pointsTo_rects (Val := Elt F) (Ix := Unit) (Name := ℕ) (U := UU) (Lvl := ℕ) (c : Thread nD τ) (lM : Memref sig .tc .vmem S8x64x1024 .f32) q
    (fun t : Fin 8 × Fin 4 => lRect t.1 t.2) (fun _ _ => rfl) lRect_disjoint lRect_cover f
  rw [show (lM : Memref sig .tc .vmem S8x64x1024 .f32).view.set = Finset.univ from View.set_whole _] at h
  rw [h]
  refine bigSep_mono fun t _ => ?_
  rw [owns_slice_read]
  have e := owns_intro (Val := Elt F) (Ix := Unit) (Name := ℕ) (U := UU) (Lvl := ℕ) (c : Thread nD τ) (lS t.1 t.2 : Memref sig .tc .vmem S16x1024 .f32) q f
  rw [set_lS] at e
  exact e

/-- Its strips, each owned at some contents, join to the buffer whole at some contents. -/
theorem l_join (c : Dev nD) (q : PosShare TreeShare) :
    bigSep Finset.univ (fun t : Fin 8 × Fin 4 => iprop(∃ Y, owns (c : Thread nD τ) (lS t.1 t.2) q Y))
      ⊢ (iprop(∃ f, (((c : Thread nD τ).loc cc0_scratch0) ↦{q} f)) : sProp 𝕄) := by
  have h1 : bigSep Finset.univ (fun t : Fin 8 × Fin 4 => iprop(∃ Y, owns (c : Thread nD τ) (lS t.1 t.2) q Y))
      ⊢ (bigSep Finset.univ (fun t : Fin 8 × Fin 4 => iprop(∃ f : Buf (Elt F) ((c : Thread nD τ).loc cc0_scratch0),
          (((c : Thread nD τ).loc cc0_scratch0) ↦[(lRect t.1 t.2).set]{q} f))) : sProp 𝕄) :=
    bigSep_mono fun t _ => by
      have e : (lS t.1 t.2 : Memref sig .tc .vmem S16x1024 .f32).view.set = (lRect t.1 t.2).set := lS_view_set t
      show iprop(∃ Y, owns (c : Thread nD τ) (lS t.1 t.2) q Y)
        ⊢ (iprop(∃ f : Buf (Elt F) ((c : Thread nD τ).loc cc0_scratch0), (((c : Thread nD τ).loc cc0_scratch0) ↦[(lRect t.1 t.2).set]{q} f)) : sProp 𝕄)
      rw [← e]
      unfold owns
      iintro ⟨%Y, %f, -, H⟩
      iexists f
      iexact H
  refine h1.trans ((bigSep_exists_pi Finset.univ _).trans ?_)
  iintro ⟨%fs, H⟩
  ihave H' := (pointsTo_biUnion_join Finset.univ (fun t : Fin 8 × Fin 4 => (lRect t.1 t.2).set) fs (fs default)
    (fun t _ t' _ h => lRect_disjoint t t' h)) $$ H
  icases H' with ⟨%g, -, H⟩
  iexists g
  rw [lRect_cover]
  iexact H

omit [FloatOps F] in
theorem rS_view_set (t : Fin 7 × Fin 4) : (rS t.1 t.2 : Memref sig .tc .vmem S16x1024 .f32).view.set = (rRect t.1 t.2).set :=
  (set_rS t.1 t.2).trans (View.set_slice_whole _ _)

/-- The buffer receiving the chunks that travel right, whole, is its 28 strips, each owned at what it reads of the contents. -/
theorem r_split (c : Dev nD) (q : PosShare TreeShare) (f : (cc0_scratch1 : Ref sig .tc).ty.Contents (Elt F)) :
    ((((c : Thread nD τ).loc cc0_scratch1) ↦{q} f) : sProp 𝕄)
      ⊢ bigSep Finset.univ fun t : Fin 7 × Fin 4 => owns (c : Thread nD τ) (rS t.1 t.2) q ((rS t.1 t.2).view.read (Elt F) f) := by
  have h := pointsTo_rects (Val := Elt F) (Ix := Unit) (Name := ℕ) (U := UU) (Lvl := ℕ) (c : Thread nD τ) (rM : Memref sig .tc .vmem S7x64x1024 .f32) q
    (fun t : Fin 7 × Fin 4 => rRect t.1 t.2) (fun _ _ => rfl) rRect_disjoint rRect_cover f
  rw [show (rM : Memref sig .tc .vmem S7x64x1024 .f32).view.set = Finset.univ from View.set_whole _] at h
  rw [h]
  refine bigSep_mono fun t _ => ?_
  rw [owns_slice_read]
  have e := owns_intro (Val := Elt F) (Ix := Unit) (Name := ℕ) (U := UU) (Lvl := ℕ) (c : Thread nD τ) (rS t.1 t.2 : Memref sig .tc .vmem S16x1024 .f32) q f
  rw [set_rS] at e
  exact e

/-- Its strips, each owned at some contents, join to the buffer whole at some contents. -/
theorem r_join (c : Dev nD) (q : PosShare TreeShare) :
    bigSep Finset.univ (fun t : Fin 7 × Fin 4 => iprop(∃ Y, owns (c : Thread nD τ) (rS t.1 t.2) q Y))
      ⊢ (iprop(∃ f, (((c : Thread nD τ).loc cc0_scratch1) ↦{q} f)) : sProp 𝕄) := by
  have h1 : bigSep Finset.univ (fun t : Fin 7 × Fin 4 => iprop(∃ Y, owns (c : Thread nD τ) (rS t.1 t.2) q Y))
      ⊢ (bigSep Finset.univ (fun t : Fin 7 × Fin 4 => iprop(∃ f : Buf (Elt F) ((c : Thread nD τ).loc cc0_scratch1),
          (((c : Thread nD τ).loc cc0_scratch1) ↦[(rRect t.1 t.2).set]{q} f))) : sProp 𝕄) :=
    bigSep_mono fun t _ => by
      have e : (rS t.1 t.2 : Memref sig .tc .vmem S16x1024 .f32).view.set = (rRect t.1 t.2).set := rS_view_set t
      show iprop(∃ Y, owns (c : Thread nD τ) (rS t.1 t.2) q Y)
        ⊢ (iprop(∃ f : Buf (Elt F) ((c : Thread nD τ).loc cc0_scratch1), (((c : Thread nD τ).loc cc0_scratch1) ↦[(rRect t.1 t.2).set]{q} f)) : sProp 𝕄)
      rw [← e]
      unfold owns
      iintro ⟨%Y, %f, -, H⟩
      iexists f
      iexact H
  refine h1.trans ((bigSep_exists_pi Finset.univ _).trans ?_)
  iintro ⟨%fs, H⟩
  ihave H' := (pointsTo_biUnion_join Finset.univ (fun t : Fin 7 × Fin 4 => (rRect t.1 t.2).set) fs (fs default)
    (fun t _ t' _ h => rRect_disjoint t t' h)) $$ H
  icases H' with ⟨%g, -, H⟩
  iexists g
  rw [rRect_cover]
  iexact H

/-! ## The statements the body's walk cites -/

/-- Owning a memref at known contents is, forgetting them, the points-to of its elements at some contents. -/
theorem owns_forget (d : Thread nD τ) {sp : Space} {sh : Shape} {e : EltTy} (M : Memref sig d.2.kind sp sh e) (X : sh.Idx → Elt F e) :
    (owns d M fullShare X : sProp 𝕄) ⊢ iprop(∃ g, M.view.loc d ↦[M.view.set]{fullShare} g) := by
  unfold owns
  iintro ⟨%g, -, H⟩
  iexists g
  iexact H

theorem out_split (c : Dev nD) (f : Buf (Elt F) ((c : Thread nD τ).loc cc0_stg2_0)) :
    (((Memref.whole cc0_stg2_0 : Memref sig .tc .vmem S1024x1024 .f32).view.loc (c : Thread nD τ) ↦{fullShare} f) : sProp 𝕄)
      ⊢ bigSep Finset.univ (fun aj : Fin 16 × Fin 4 => owns (c : Thread nD τ) (oS c aj.1.val aj.2) fullShare ((oS c aj.1.val aj.2).view.read (Elt F) f)) :=
  Entails.of_eq (out_strips c fullShare f)

theorem out_join (c : Dev nD) (Y : Fin 16 × Fin 4 → S16x1024.Idx → Elt F .f32) (X : (cc0_stg2_0 : Ref sig .tc).ty.Contents (Elt F))
    (h : ∀ aj : Fin 16 × Fin 4, (oS c aj.1.val aj.2).view.read (Elt F) X = Y aj) :
    bigSep Finset.univ (fun aj : Fin 16 × Fin 4 => owns (c : Thread nD τ) (oS c aj.1.val aj.2) fullShare (Y aj))
      ⊢ (((Memref.whole cc0_stg2_0 : Memref sig .tc .vmem S1024x1024 .f32).view.loc (c : Thread nD τ) ↦{fullShare} X) : sProp 𝕄) :=
  out_joinY c fullShare X Y fun aj => (h aj).symm

theorem lbuf_split (d : Dev nD) (f : Buf (Elt F) ((d : Thread nD τ).loc cc0_scratch0)) :
    (((Memref.whole cc0_scratch0 : Memref sig .tc .vmem S8x64x1024 .f32).view.loc (d : Thread nD τ) ↦{fullShare} f) : sProp 𝕄)
      ⊢ bigSep Finset.univ (fun sj : Fin 8 × Fin 4 => iprop(∃ g, (lS sj.1 sj.2).view.loc (d : Thread nD τ) ↦[(lS sj.1 sj.2).view.set]{fullShare} g)) :=
  (l_split d fullShare f).trans (bigSep_mono fun sj _ => owns_forget (d : Thread nD τ) (lS sj.1 sj.2) _)

theorem lbuf_join (d : Dev nD) :
    bigSep Finset.univ (fun sj : Fin 8 × Fin 4 => iprop(∃ g, (lS sj.1 sj.2).view.loc (d : Thread nD τ) ↦[(lS sj.1 sj.2).view.set]{fullShare} g))
      ⊢ (iprop(∃ f, (((d : Thread nD τ).loc cc0_scratch0) ↦{fullShare} f)) : sProp 𝕄) := by
  refine (bigSep_mono fun sj _ => ?_).trans (l_join d fullShare)
  show iprop(∃ g, (lS sj.1 sj.2).view.loc (d : Thread nD τ) ↦[(lS sj.1 sj.2).view.set]{fullShare} g)
    ⊢ (iprop(∃ Y, owns (d : Thread nD τ) (lS sj.1 sj.2) fullShare Y) : sProp 𝕄)
  iintro ⟨%g, H⟩
  iexists _
  iapply (owns_intro (d : Thread nD τ) (lS sj.1 sj.2) fullShare g)
  iexact H

theorem rbuf_split (d : Dev nD) (f : Buf (Elt F) ((d : Thread nD τ).loc cc0_scratch1)) :
    (((Memref.whole cc0_scratch1 : Memref sig .tc .vmem S7x64x1024 .f32).view.loc (d : Thread nD τ) ↦{fullShare} f) : sProp 𝕄)
      ⊢ bigSep Finset.univ (fun sj : Fin 7 × Fin 4 => iprop(∃ g, (rS sj.1 sj.2).view.loc (d : Thread nD τ) ↦[(rS sj.1 sj.2).view.set]{fullShare} g)) :=
  (r_split d fullShare f).trans (bigSep_mono fun sj _ => owns_forget (d : Thread nD τ) (rS sj.1 sj.2) _)

theorem rbuf_join (d : Dev nD) :
    bigSep Finset.univ (fun sj : Fin 7 × Fin 4 => iprop(∃ g, (rS sj.1 sj.2).view.loc (d : Thread nD τ) ↦[(rS sj.1 sj.2).view.set]{fullShare} g))
      ⊢ (iprop(∃ f, (((d : Thread nD τ).loc cc0_scratch1) ↦{fullShare} f)) : sProp 𝕄) := by
  refine (bigSep_mono fun sj _ => ?_).trans (r_join d fullShare)
  show iprop(∃ g, (rS sj.1 sj.2).view.loc (d : Thread nD τ) ↦[(rS sj.1 sj.2).view.set]{fullShare} g)
    ⊢ (iprop(∃ Y, owns (d : Thread nD τ) (rS sj.1 sj.2) fullShare Y) : sProp 𝕄)
  iintro ⟨%g, H⟩
  iexists _
  iapply (owns_intro (d : Thread nD τ) (rS sj.1 sj.2) fullShare g)
  iexact H

end Cert.Kernel.Hand
end
-- ==== Proof.Bits.FamLocalB.lean ====
/-
  GELU of a strip of the output buffer in place, and the final result read strip by strip: the strip `j` of the chunk at
  distance `a` from a device's ring position is the finished strip of the device at position `posOf c + a`.
-/
import proofs.«900799_g7700000000000800_dist_gemm_ar_m1024_k1024_n1024_f32_gelu_v7x_i16_1_alg».proof.Proof.Bits.FamLocal

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## GELU of a strip, and the result read by strips -/

/-- GELU of one strip of the output buffer in place: the strip is loaded (twice, as the program does) and the function of what
    the first load read is stored over it. -/
theorem wp_gelu (c : Dev nD) (a : ℕ) (j : Fin 4)
    (pay : (S16x1024.Idx → Elt F .f32) → S16x1024.Idx → Elt F .f32) (hpay : ∀ u, pay u = geluS u)
    {off : Fin 2 → ℕ} (hoff : off = ![chunkRow c a + 16 * j.val, 0])
    {inb : ∀ b, off b + S16x1024.size b ≤ S1024x1024.size b}
    {X : S16x1024.Idx → Elt F .f32}
    {hl1 : (oM : Memref sig .tc .vmem S1024x1024 .f32).view.LoadsAt (Rect.unit (s := S1024x1024) off S16x1024.size inb).toLoadRect}
    {hl2 : (oM : Memref sig .tc .vmem S1024x1024 .f32).view.LoadsAt (Rect.unit (s := S1024x1024) off S16x1024.size inb).toLoadRect}
    {hx : ((oM : Memref sig .tc .vmem S1024x1024 .f32).access (Rect.unit (s := S1024x1024) off S16x1024.size inb) : View sig .tc _ _ _).Stores Finset.univ}
    {hm : (Finset.univ : Finset (Rect.unit (s := S1024x1024) off S16x1024.size inb).shape.Idx) = Finset.univ ∨ ∀ b, (Rect.unit (s := S1024x1024) off S16x1024.size inb).stride b = 1}
    {α : Type} {Q : α → sProp 𝕄} {k : PUnit → Prog (TpuEff nD τ sig (Elt F) Λ₀ .tc) α} :
    owns (c : Thread nD τ) (oS c a j) fullShare X
      ⊢ iprop((owns (c : Thread nD τ) (oS c a j) fullShare (geluS X)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S1024x1024) off S16x1024.size inb).toLoadRect hl1) fun v =>
               .op (.load oM (Rect.unit (s := S1024x1024) off S16x1024.size inb).toLoadRect hl2) fun _ =>
               .op (.store oM (Rect.unit (s := S1024x1024) off S16x1024.size inb) (pay v) Finset.univ hx hm) k) Q) := by
  iintro H Hk
  iapply (wp_loadO c a j hoff) $$ H; iintro H
  iapply (wp_loadO c a j hoff) $$ H; iintro H
  iapply (wp_storeO c a j hoff) $$ H; iintro H
  rw [hpay]
  iapply Hk
  iexact H

section Final
variable (m : (ℓ : Loc nD τ sig) → Buf (Elt F) ℓ) (ρ : Dev nD → PrngReg)

/-- The result read through the strip `j` of the chunk at distance `a` from device `c`'s position: the finished strip of the
    device at position `posOf c + a`. -/
theorem out_final_read (c : Dev nD) (aj : Fin 16 × Fin 4) :
    (oS c aj.1.val aj.2 : Memref sig .tc .vmem S16x1024 .f32).view.read (Elt F) (outFinal m ρ)
      = fin m ρ (posOf c + ⟨aj.1.val, aj.1.isLt⟩) aj.2 := by
  funext x
  show outFinal m ρ ((oR c aj.1.val aj.2).emb x) = _
  have hx0 : (x 0).val < 16 := (x 0).isLt
  have hx1 : (x 1).val < 1024 := (x 1).isLt
  have h1 := aj.1.isLt; have h2 := aj.2.isLt; have hp := (posOf c).isLt
  have e0 : (((oR c aj.1.val aj.2).emb x) 0).val = chunkRow c aj.1.val + 16 * aj.2.val + (x 0).val := by
    rw [Rect.emb_apply]; show chunkRow c aj.1.val + 16 * aj.2.val + 1 * (x 0).val = _; omega
  have e1 : (((oR c aj.1.val aj.2).emb x) 1).val = (x 1).val := by
    rw [Rect.emb_apply]; show 0 + 1 * (x 1).val = _; omega
  have key : ∀ (p p' : Fin 16) (j j' : Fin 4) (y y' : S16x1024.Idx), p = p' → j = j' → y = y' → fin m ρ p j y = fin m ρ p' j' y' := by
    intro p p' j j' y y' hp hj hy; rw [hp, hj, hy]
  unfold outFinal
  refine key _ _ _ _ _ _ (Fin.ext ?_) (Fin.ext ?_) (funext fun b => Fin.ext ?_)
  · show (((oR c aj.1.val aj.2).emb x) 0).val / 64 % 16 = ((posOf c).val + aj.1.val) % 16
    rw [e0]; unfold chunkRow; omega
  · show (((oR c aj.1.val aj.2).emb x) 0).val % 64 / 16 % 4 = aj.2.val
    rw [e0]; unfold chunkRow; omega
  · fin_cases b
    · show (((oR c aj.1.val aj.2).emb x) 0).val % 16 = (x 0).val
      rw [e0]; unfold chunkRow; omega
    · show (((oR c aj.1.val aj.2).emb x) 1).val % 1024 = (x 1).val
      rw [e1]; omega

end Final

end Cert.Kernel.Hand
end
-- ==== Proof.Bits.Finish.lean ====
/-
  The end of a device's body, whatever the program's text: every transfer cell past its one round closes and its counter
  is the device's again at zero; the strips of the two receive buffers, each at some contents, are the buffers whole; the
  64 strips of the output buffer at their final values are the buffer at the result. And the strips the gather phase
  hands back, named by the chunk's distance from the device's position: an arrival brings the finished strip of the chunk
  at distance `15 - s` (travelling right) or `1 + s` (travelling left); a departure returns the strip it was read from,
  the two first ones the two halves of the device's own chunk (chunk 16 counted from a position is chunk 0 again).
-/
import proofs.«900799_g7700000000000800_dist_gemm_ar_m1024_k1024_n1024_f32_gelu_v7x_i16_1_alg».proof.Proof.Bits.FamLocalB
import proofs.«900799_g7700000000000800_dist_gemm_ar_m1024_k1024_n1024_f32_gelu_v7x_i16_1_alg».proof.Proof.Bits.FamReduce
import Idealize.ShloMosaic.Lib.StableHlo.CollectiveRules

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 241 → ℕ)

/-! ## The semaphores, the receive buffers and the output buffer at the end -/

/-- Every transfer cell of the device, past its one round, closes: its counter is the device's again, at zero. -/
theorem finish_sems (c : Dev nD) :
    iprop(records m ρ K ∗ bigSep (Finset.univ.filter fun k : Fin 241 => k.val ≠ 0) (fun k => atPos ER (kcell (c, k)) 1 ∅ 0))
      ⊢ (iprop(|={Set.univ}=> semsZero c) : sProp 𝕄) := by
  unfold semsZero
  refine (sep_mono_left (BI.bigSep_of_persistent (Finset.univ.filter fun k : Fin 241 => k.val ≠ 0) (records m ρ K))).trans ?_
  rw [← bigSep_sep']
  exact (bigSep_mono fun k _ => close_cell m ρ K c k).trans (bigSep_fupd _ _)

/-- The strips of the two receive buffers, each at some contents, are the two buffers whole at some contents. -/
theorem finish_scratch (c : Dev nD) :
    iprop(bigSep Finset.univ (fun sj : Fin 8 × Fin 4 => iprop(∃ Y, owns (c : Thread nD τ) (lS sj.1 sj.2) fullShare Y))
        ∗ bigSep Finset.univ (fun sj : Fin 7 × Fin 4 => iprop(∃ Y, owns (c : Thread nD τ) (rS sj.1 sj.2) fullShare Y)))
      ⊢ (scratch c : sProp 𝕄) := by
  unfold scratch
  exact BI.sep_mono (l_join c fullShare) (r_join c fullShare)

/-! ## A strip under another name -/

/-- Owning a memref is owning an equal one. -/
theorem owns_congr_mem (d : Thread nD τ) {sp : Space} {sh : Shape} {e : EltTy} {M M' : Memref sig d.2.kind sp sh e} (h : M = M')
    {q : PosShare TreeShare} {X : sh.Idx → Elt F e} : (owns d M q X : sProp 𝕄) ⊢ owns d M' q X := by
  subst h; exact .rfl

/-- The two halves of a memref owned at the same contents are the memref owned whole. -/
theorem owns_share_join (d : Thread nD τ) {sp : Space} {sh : Shape} {e : EltTy} (M : Memref sig d.2.kind sp sh e) (X : sh.Idx → Elt F e) :
    iprop(owns d M fullShare.left X ∗ owns d M fullShare.right X) ⊢ (owns d M fullShare X : sProp 𝕄) :=
  (owns_share d M (PosShare.mem_left_op_right fullShare) X).2

omit [FloatOps F] in
/-- Chunk 16 counted from a device's position is its own chunk again. -/
theorem oS_sixteen (c : Dev nD) (j : Fin 4) : (oS c 16 j : Memref sig .tc .vmem S16x1024 .f32) = oS c 0 j := by
  have e : chunkRow c 16 = chunkRow c 0 := by unfold chunkRow; omega
  unfold oS oP
  exact Memref.slice_unit_congr _ (by rw [e]) _ _ _ _

omit [FloatOps F] in
theorem pos_sub_one_sub (p : Fin 16) (s : Fin 8) : p - 1 - ⟨s.val % 16, Nat.mod_lt _ (by decide)⟩ = p + ⟨15 - s.val, by omega⟩ := by
  revert p s; decide
omit [FloatOps F] in
theorem pos_add_one_add (p : Fin 16) (s : Fin 7) : p + 1 + ⟨s.val % 16, Nat.mod_lt _ (by decide)⟩ = p + ⟨1 + s.val, by have := s.isLt; omega⟩ := by
  revert p s; decide
omit [FloatOps F] in
theorem pos_sub (p : Fin 16) (s : Fin 8) : p - ⟨s.val % 16, Nat.mod_lt _ (by decide)⟩ = p + ⟨(16 - s.val) % 16, Nat.mod_lt _ (by decide)⟩ := by
  revert p s; decide
omit [FloatOps F] in
theorem pos_add (p : Fin 16) (s : Fin 7) : p + ⟨s.val % 16, Nat.mod_lt _ (by decide)⟩ = p + ⟨s.val, by have := s.isLt; omega⟩ := by
  revert p s; decide

/-! ## What the gather phase hands back, by the chunk's distance -/

/-- The arrival of the right-travelling step `s` is the finished strip of the chunk at distance `15 - s`. -/
theorem grArr_eq (c : Dev nD) (s : Fin 8) (j : Fin 4) :
    grArr m ρ c s j = owns (c : Thread nD τ) (oS c (15 - s.val) j) fullShare (fin m ρ (posOf c + ⟨15 - s.val, by omega⟩) j) := by
  unfold grArr; rw [pos_sub_one_sub]

/-- The arrival of the left-travelling step `s` is the finished strip of the chunk at distance `1 + s`. -/
theorem glArr_eq (c : Dev nD) (s : Fin 7) (j : Fin 4) :
    glArr m ρ c s j = owns (c : Thread nD τ) (oS c (1 + s.val) j) fullShare (fin m ρ (posOf c + ⟨1 + s.val, by have := s.isLt; omega⟩) j) := by
  unfold glArr; rw [pos_add_one_add]

omit [FloatOps F] in
theorem pos_sub_succ (p : Fin 16) (s : Fin 8) (hs : s.val ≠ 0) : p - ⟨s.val % 16, Nat.mod_lt _ (by decide)⟩ = p + ⟨16 - s.val, by omega⟩ := by
  revert p s; decide

/-- The departures of the first gather transfers return the two halves of the device's own finished chunk; the later ones
    return the whole strip they were read from. -/
theorem grDep_zero (c : Dev nD) (j : Fin 4) :
    grDep m ρ c 0 j = owns (c : Thread nD τ) (oS c 0 j) fullShare.right (fin m ρ (posOf c + ⟨0, by decide⟩) j) := by
  unfold grDep
  rw [pos_sub, show shG false (0 : Fin 8).val = fullShare.right from rfl]
  show owns (c : Thread nD τ) (oS c 16 j) fullShare.right (fin m ρ (posOf c + ⟨0, by decide⟩) j) = _
  rw [oS_sixteen]
theorem glDep_zero (c : Dev nD) (j : Fin 4) :
    glDep m ρ c 0 j = owns (c : Thread nD τ) (oS c 0 j) fullShare.left (fin m ρ (posOf c + ⟨0, by decide⟩) j) := by
  unfold glDep
  rw [pos_add, show shG true (0 : Fin 7).val = fullShare.left from rfl]
  rfl
theorem grDep_succ (c : Dev nD) (s : Fin 8) (hs : s.val ≠ 0) (j : Fin 4) :
    grDep m ρ c s j = owns (c : Thread nD τ) (oS c (16 - s.val) j) fullShare (fin m ρ (posOf c + ⟨16 - s.val, by omega⟩) j) := by
  unfold grDep
  rw [pos_sub_succ _ _ hs, show shG false s.val = fullShare from if_neg hs]
theorem glDep_succ (c : Dev nD) (s : Fin 7) (hs : s.val ≠ 0) (j : Fin 4) :
    glDep m ρ c s j = owns (c : Thread nD τ) (oS c s.val j) fullShare (fin m ρ (posOf c + ⟨s.val, by have := s.isLt; omega⟩) j) := by
  unfold glDep
  rw [pos_add, show shG true s.val = fullShare from if_neg hs]

/-- The two first departures together return the device's own finished strip whole. -/
theorem own_chunk_join (c : Dev nD) (j : Fin 4) :
    iprop(glDep m ρ c 0 j ∗ grDep m ρ c 0 j) ⊢ owns (c : Thread nD τ) (oS c 0 j) fullShare (fin m ρ (posOf c + ⟨0, by decide⟩) j) := by
  rw [glDep_zero, grDep_zero]
  exact owns_share_join (c : Thread nD τ) (oS c 0 j) _

/-- The 64 strips of the output buffer at their final values are the buffer whole at the result. -/
theorem finish_out (c : Dev nD) :
    bigSep Finset.univ (fun aj : Fin 16 × Fin 4 => owns (c : Thread nD τ) (oS c aj.1.val aj.2) fullShare (fin m ρ (posOf c + ⟨aj.1.val, aj.1.isLt⟩) aj.2))
      ⊢ (((Memref.whole cc0_stg2_0 : Memref sig .tc .vmem S1024x1024 .f32).view.loc (c : Thread nD τ) ↦{fullShare} outFinal m ρ) : sProp 𝕄) :=
  out_join c _ (outFinal m ρ) (out_final_read m ρ c)

end Cert.Kernel.Hand
end
-- ==== Proof.Bits.BlockDefs.lean ====
/-
  The big conjunctions the body's walk carries, each a family over a finite index set: what is still at home, still to
  be paid, still to be waited for; and what has come back. A step of the walk takes items out of some and puts items into
  others; every step lemma is stated over these families.
-/
import proofs.«900799_g7700000000000800_dist_gemm_ar_m1024_k1024_n1024_f32_gelu_v7x_i16_1_alg».proof.Proof.Bits.Kit
import proofs.«900799_g7700000000000800_dist_gemm_ar_m1024_k1024_n1024_f32_gelu_v7x_i16_1_alg».proof.Proof.Bits.FamGather
import proofs.«900799_g7700000000000800_dist_gemm_ar_m1024_k1024_n1024_f32_gelu_v7x_i16_1_alg».proof.Proof.Bits.FamLocalB
import proofs.«900799_g7700000000000800_dist_gemm_ar_m1024_k1024_n1024_f32_gelu_v7x_i16_1_alg».proof.Proof.Bits.Finish

noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- A strip value per (distance, strip). -/
abbrev StripV (F : FTy → Type) : Type := Fin 16 × Fin 4 → S16x1024.Idx → Elt F .f32

/-- The device's own output strips at values `V`. -/
abbrev outΦ (c : Dev nD) (V : StripV F) : Fin 16 × Fin 4 → sProp 𝕄 :=
  fun aj => owns (c : Thread nD τ) (oS c aj.1.val aj.2) fullShare (V aj)
/-- Right after the product: the strips of the partial product. -/
abbrev partV (c : Dev nD) : StripV F := fun aj => partS m ρ c aj.1.val aj.2
/-- At the end: the finished strips. -/
abbrev finV (c : Dev nD) : StripV F := fun aj => fin m ρ (posOf c + ⟨aj.1.val, aj.1.isLt⟩) aj.2

/-- The slots of device `d`'s left-travelling (right-travelling) receive buffer, at some contents: what a sender into `d` holds. -/
abbrev lΦ (d : Dev nD) : Fin 8 × Fin 4 → sProp 𝕄 :=
  fun sj => iprop(∃ g, (lS sj.1 sj.2 : Memref sig .tc .vmem S16x1024 .f32).view.loc (d : Thread nD τ) ↦[(lS sj.1 sj.2 : Memref sig .tc .vmem S16x1024 .f32).view.set]{fullShare} g)
abbrev rΦ (d : Dev nD) : Fin 7 × Fin 4 → sProp 𝕄 :=
  fun sj => iprop(∃ g, (rS sj.1 sj.2 : Memref sig .tc .vmem S16x1024 .f32).view.loc (d : Thread nD τ) ↦[(rS sj.1 sj.2 : Memref sig .tc .vmem S16x1024 .f32).view.set]{fullShare} g)
/-- The device's own receive-buffer slots once used: at some value. -/
abbrev lbΦ (c : Dev nD) : Fin 8 × Fin 4 → sProp 𝕄 := fun sj => iprop(∃ Y, owns (c : Thread nD τ) (lS sj.1 sj.2) fullShare Y)
abbrev rbΦ (c : Dev nD) : Fin 7 × Fin 4 → sProp 𝕄 := fun sj => iprop(∃ Y, owns (c : Thread nD τ) (rS sj.1 sj.2) fullShare Y)

/-- The token pairs of the transfers still to be started (as `payToks` spells them). -/
abbrev tokRlΦ (c : Dev nD) : Fin 8 × Fin 4 → sProp 𝕄 := fun sj => iprop(dutyTok ER (rlCell c 0 sj.1 sj.2) 0 false ∗ dutyTok ER (rlCell (lft c) 1 sj.1 sj.2) 0 false)
abbrev tokRrΦ (c : Dev nD) : Fin 7 × Fin 4 → sProp 𝕄 := fun sj => iprop(dutyTok ER (rrCell c 0 sj.1 sj.2) 0 false ∗ dutyTok ER (rrCell (rgt c) 1 sj.1 sj.2) 0 false)
abbrev tokGrΦ (c : Dev nD) : Fin 8 × Fin 4 → sProp 𝕄 := fun sj => iprop(dutyTok ER (grCell c 0 sj.1 sj.2) 0 false ∗ dutyTok ER (grCell (rgt c) 1 sj.1 sj.2) 0 false)
abbrev tokGlΦ (c : Dev nD) : Fin 7 × Fin 4 → sProp 𝕄 := fun sj => iprop(dutyTok ER (glCell c 0 sj.1 sj.2) 0 false ∗ dutyTok ER (glCell (lft c) 1 sj.1 sj.2) 0 false)

/-- The credits of the arrivals still to be waited for (as `creds` spells them). -/
abbrev arrRlΦ (c : Dev nD) : Fin 8 × Fin 4 → sProp 𝕄 := fun sj => cred (tallyAt (rlCell c 1 sj.1 sj.2) () N16)
abbrev arrRrΦ (c : Dev nD) : Fin 7 × Fin 4 → sProp 𝕄 := fun sj => cred (tallyAt (rrCell c 1 sj.1 sj.2) () N16)
abbrev arrGrΦ (c : Dev nD) : Fin 8 × Fin 4 → sProp 𝕄 := fun sj => cred (tallyAt (grCell c 1 sj.1 sj.2) () N16)
abbrev arrGlΦ (c : Dev nD) : Fin 7 × Fin 4 → sProp 𝕄 := fun sj => cred (tallyAt (glCell c 1 sj.1 sj.2) () N16)

/-- The credits of the departures started and not yet waited for. -/
abbrev depRlΦ (c : Dev nD) : Fin 8 × Fin 4 → sProp 𝕄 := fun sj => cred (tallyAt (rlCell c 0 sj.1 sj.2) () N16)
abbrev depRrΦ (c : Dev nD) : Fin 7 × Fin 4 → sProp 𝕄 := fun sj => cred (tallyAt (rrCell c 0 sj.1 sj.2) () N16)
abbrev depGrΦ (c : Dev nD) : Fin 8 × Fin 4 → sProp 𝕄 := fun sj => cred (tallyAt (grCell c 0 sj.1 sj.2) () N16)
abbrev depGlΦ (c : Dev nD) : Fin 7 × Fin 4 → sProp 𝕄 := fun sj => cred (tallyAt (glCell c 0 sj.1 sj.2) () N16)

/-- The owner's positions: cells not yet waited for (round 0) and cells done (round 1). -/
abbrev posΦ (c : Dev nD) : Fin 241 → sProp 𝕄 := fun k => atPos ER (kcell (c, k)) 0 ∅ 0
abbrev doneΦ (c : Dev nD) : Fin 241 → sProp 𝕄 := fun k => atPos ER (kcell (c, k)) 1 ∅ 0

/-- The neighbours' output strips a device holds between a reduce arrival and the gather send into them: of the neighbour
    AFTER it (index: the reduce-left step) and of the neighbour BEFORE it (the reduce-right step), at some value. -/
abbrev nbRΦ (c : Dev nD) : Fin 8 × Fin 4 → sProp 𝕄 :=
  fun sj => iprop(∃ g, (oS (rgt c) (8 + sj.1.val) sj.2).view.loc (rgt c : Thread nD τ) ↦[(oS (rgt c) (8 + sj.1.val) sj.2).view.set]{fullShare} g)
abbrev nbLΦ (c : Dev nD) : Fin 7 × Fin 4 → sProp 𝕄 :=
  fun sj => iprop(∃ g, (oS (lft c) (7 - sj.1.val) sj.2).view.loc (lft c : Thread nD τ) ↦[(oS (lft c) (7 - sj.1.val) sj.2).view.set]{fullShare} g)

/-- The closing side conditions of a step: membership in sets given by erasures and insertions of literals. -/
macro "imem" : tactic => `(tactic| (ipureintro; simp only [Finset.mem_erase, Finset.mem_insert, Finset.mem_univ, Finset.notMem_empty, and_true, not_or, ne_eq, Prod.mk.injEq, not_false_eq_true]; decide))

end Cert.Kernel.Hand
end
-- ==== Proof.Bits.BlocksLocal.lean ====
/-
  Small steps of the body's walk over the families of big conjunctions: a device's output strip taken out of those it
  holds or put among the finished ones; a used strip of a receive buffer put among the used ones; the three ends (the
  output buffer at the result, the receive buffers whole, the transfer semaphores at zero); and the values the
  receive-adds and the GELU leave, by the definitions of the running sums.
-/
import proofs.«900799_g7700000000000800_dist_gemm_ar_m1024_k1024_n1024_f32_gelu_v7x_i16_1_alg».proof.Proof.Bits.BlockDefs

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 241 → ℕ)

/-! ## Output strips out of and into their conjunction -/

/-- One of the device's output strips, taken out of those it holds. -/
theorem blk_out_take (c : Dev nD) (a : Fin 16) (j : Fin 4) (V : StripV F) (So : Finset (Fin 16 × Fin 4)) :
    iprop(bigSep So (outΦ c V) ∗ ⌜(a, j) ∈ So⌝)
      ⊢ iprop(owns (c : Thread nD τ) (oS c a.val j) fullShare (V (a, j)) ∗ bigSep (So.erase (a, j)) (outΦ c V)) := by
  iintro ⟨H, %h⟩
  ihave H' := (take So (a, j) h (outΦ c V)) $$ H
  iexact H'

/-- A strip at its final value joins the finished ones. -/
theorem blk_fin_put (c : Dev nD) (a : Fin 16) (j : Fin 4) (Sf : Finset (Fin 16 × Fin 4)) :
    iprop(owns (c : Thread nD τ) (oS c a.val j) fullShare (finV m ρ c (a, j)) ∗ bigSep Sf (outΦ c (finV m ρ c)) ∗ ⌜(a, j) ∉ Sf⌝)
      ⊢ bigSep (insert (a, j) Sf) (outΦ c (finV m ρ c)) := by
  iintro ⟨H1, H2, %h⟩
  iapply (put Sf (a, j) h (outΦ c (finV m ρ c)))
  isplitl [H1]
  · iexact H1
  · iexact H2

/-- A strip at any value joins a conjunction of output strips at values `V` that agree with it there. -/
theorem blk_out_put (c : Dev nD) (a : Fin 16) (j : Fin 4) (V : StripV F) (So : Finset (Fin 16 × Fin 4)) :
    iprop(owns (c : Thread nD τ) (oS c a.val j) fullShare (V (a, j)) ∗ bigSep So (outΦ c V) ∗ ⌜(a, j) ∉ So⌝)
      ⊢ bigSep (insert (a, j) So) (outΦ c V) := by
  iintro ⟨H1, H2, %h⟩
  iapply (put So (a, j) h (outΦ c V))
  isplitl [H1]
  · iexact H1
  · iexact H2

/-- A used strip of a receive buffer, at whatever it holds, joins the used ones. -/
theorem blk_lb_put (c : Dev nD) (s : Fin 8) (j : Fin 4) (Y : S16x1024.Idx → Elt F .f32) (Sb : Finset (Fin 8 × Fin 4)) :
    iprop(owns (c : Thread nD τ) (lS s j) fullShare Y ∗ bigSep Sb (lbΦ c) ∗ ⌜(s, j) ∉ Sb⌝)
      ⊢ bigSep (insert (s, j) Sb) (lbΦ (F := F) c) := by
  iintro ⟨H1, H2, %h⟩
  iapply (put Sb (s, j) h (lbΦ (F := F) c))
  isplitl [H1]
  · iexists Y; iexact H1
  · iexact H2
theorem blk_rb_put (c : Dev nD) (s : Fin 7) (j : Fin 4) (Y : S16x1024.Idx → Elt F .f32) (Sb : Finset (Fin 7 × Fin 4)) :
    iprop(owns (c : Thread nD τ) (rS s j) fullShare Y ∗ bigSep Sb (rbΦ c) ∗ ⌜(s, j) ∉ Sb⌝)
      ⊢ bigSep (insert (s, j) Sb) (rbΦ (F := F) c) := by
  iintro ⟨H1, H2, %h⟩
  iapply (put Sb (s, j) h (rbΦ (F := F) c))
  isplitl [H1]
  · iexists Y; iexact H1
  · iexact H2

/-! ## The ends -/

theorem fin_out (c : Dev nD) :
    bigSep Finset.univ (outΦ c (finV m ρ c))
      ⊢ (((Memref.whole cc0_stg2_0 : Memref sig .tc .vmem S1024x1024 .f32).view.loc (c : Thread nD τ) ↦{fullShare} outFinal m ρ) : sProp 𝕄) :=
  finish_out m ρ c

theorem fin_scratch (c : Dev nD) : iprop(bigSep Finset.univ (lbΦ (F := F) c) ∗ bigSep Finset.univ (rbΦ (F := F) c)) ⊢ (scratch c : sProp 𝕄) :=
  finish_scratch c

omit [FloatOps F] in
theorem univ_erase_zero : (Finset.univ.erase (0 : Fin 241)) = Finset.univ.filter fun k : Fin 241 => k.val ≠ 0 := by
  ext k
  rw [Finset.mem_erase, Finset.mem_filter]
  constructor
  · rintro ⟨h, -⟩; exact ⟨Finset.mem_univ _, fun e => h (Fin.ext e)⟩
  · rintro ⟨-, h⟩; exact ⟨fun e => h (congrArg Fin.val e), Finset.mem_univ _⟩

theorem fin_done (c : Dev nD) :
    iprop(records m ρ K ∗ bigSep (Finset.univ.erase (0 : Fin 241)) (doneΦ (F := F) c)) ⊢ (iprop(|={Set.univ}=> semsZero c) : sProp 𝕄) := by
  rw [univ_erase_zero]
  exact finish_sems m ρ K c

/-! ## The values the adds and the GELU leave -/

theorem addL_val (c : Dev nD) (s : ℕ) (j : Fin 4) :
    addS (partS m ρ c (8 + (s + 1)) j) (accL m ρ s (rgt c) j) = accL m ρ (s + 1) c j := rfl
theorem addR_val (c : Dev nD) (s : ℕ) (j : Fin 4) :
    addS (partS m ρ c (7 - (s + 1)) j) (accR m ρ s (lft c) j) = accR m ρ (s + 1) c j := rfl
theorem tot_val (c : Dev nD) (j : Fin 4) :
    addS (addS (partS m ρ c 0 j) (accR m ρ 6 (lft c) j)) (accL m ρ 7 (rgt c) j) = tot m ρ c j := rfl
theorem tot_val' (c : Dev nD) (j : Fin 4) :
    addS (accR m ρ 7 c j) (accL m ρ 7 (rgt c) j) = tot m ρ c j := rfl
theorem gelu_val (c : Dev nD) (j : Fin 4) : geluS (tot m ρ c j) = fin m ρ (posOf c) j := by
  unfold fin; rw [devAt_posOf]
/-- The device's own finished strip as the final value at distance 0. -/
theorem gelu_val_fin (c : Dev nD) (j : Fin 4) : geluS (tot m ρ c j) = finV m ρ c ((0 : Fin 16), j) := by
  rw [gelu_val]; show fin m ρ (posOf c) j = fin m ρ (posOf c + ⟨0, _⟩) j
  congr 1; exact (Fin.add_zero _).symm

/-- Chunk 16 is the device's own chunk: the same strip of the partial product, -/
theorem partS_sixteen (c : Dev nD) (j : Fin 4) : partS m ρ c 16 j = partS m ρ c 0 j := by
  have e : chunkRow c 16 = chunkRow c 0 := by unfold chunkRow; omega
  have key : ∀ (r r' : ℕ) (h : r + 16 ≤ 1024) (h' : r' + 16 ≤ 1024), r = r' →
      (oP r h : Memref sig .tc .vmem S16x1024 .f32).view.read (Elt F) (part m ρ c) = (oP r' h' : Memref sig .tc .vmem S16x1024 .f32).view.read (Elt F) (part m ρ c) := by
    intro r r' h h' e; subst e; rfl
  exact key _ _ _ _ (by rw [e])
/-- and owned under either name. -/
theorem owns_sixteen (c : Dev nD) (j : Fin 4) {q : PosShare TreeShare} {X : S16x1024.Idx → Elt F .f32} :
    (owns (c : Thread nD τ) (oS c 16 j) q X : sProp 𝕄) ⊢ owns (c : Thread nD τ) (oS c 0 j) q X :=
  owns_congr_mem (c : Thread nD τ) (oS_sixteen c j)
theorem owns_sixteen' (c : Dev nD) (j : Fin 4) {q : PosShare TreeShare} {X : S16x1024.Idx → Elt F .f32} :
    (owns (c : Thread nD τ) (oS c 0 j) q X : sProp 𝕄) ⊢ owns (c : Thread nD τ) (oS c 16 j) q X :=
  owns_congr_mem (c : Thread nD τ) (oS_sixteen c j).symm

/-! ## A memref owned whole is its two halves -/

theorem owns_share_split (d : Thread nD τ) {sp : Space} {sh : Shape} {e : EltTy} (M : Memref sig d.2.kind sp sh e) (X : sh.Idx → Elt F e) :
    (owns d M fullShare X : sProp 𝕄) ⊢ iprop(owns d M fullShare.left X ∗ owns d M fullShare.right X) :=
  (owns_share d M (PosShare.mem_left_op_right fullShare) X).1

end Cert.Kernel.Hand
end
-- ==== Proof.Bits.Order.lean ====
/-
  The payments in the order the kernel's text makes them. Every device runs the same text, so the order is one
  function `ord` on payments; what a device still owes when it has made the first `t` payments is `Rem t`, the payments
  numbered `t` and above. A payment numbered `t` takes `Rem t` to `Rem (t + 1)`, and a wait at level `n` is below everything
  owed as soon as every payment numbered `t` and above has a level above `n`: a statement about numbers only.
-/
import proofs.«900799_g7700000000000800_dist_gemm_ar_m1024_k1024_n1024_f32_gelu_v7x_i16_1_alg».proof.Proof.Bits.FamReduce

noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The position of a payment in the kernel's text: the two barrier signals, then the reduce phase step by step (per strip
    left then right; the last step left only), the first gather sends inside the own chunk's loop, then the gather phase. -/
def Pay.ord : Pay → ℕ
  | .barL => 0
  | .barR => 1
  | .rl s j => if s.val < 7 then 2 + 8 * s.val + 2 * j.val else 58 + j.val
  | .rr s j => 3 + 8 * s.val + 2 * j.val
  | .gr s j => if s.val = 0 then 62 + 2 * j.val else if s.val < 7 then 70 + 8 * (s.val - 1) + 2 * j.val else 118 + j.val
  | .gl s j => if s.val = 0 then 63 + 2 * j.val else 71 + 8 * (s.val - 1) + 2 * j.val

theorem Pay.ord_lt (p : Pay) : p.ord < 122 := by
  cases p with
  | barL => decide
  | barR => decide
  | rl s j => revert s j; decide
  | rr s j => revert s j; decide
  | gr s j => revert s j; decide
  | gl s j => revert s j; decide

theorem Pay.ord_injective : Function.Injective Pay.ord := by
  have key : ∀ p q : Pay, p.ord = q.ord → p = q := by
    intro p q
    cases p <;> cases q <;>
      (first
        | decide
        | (rename_i s j s' j'; revert s j s' j'; decide)
        | (rename_i s j; revert s j; decide))
  exact fun p q h => key p q h

/-- What is still owed after the first `t` payments. -/
def Rem (t : ℕ) : Finset Pay := Finset.univ.filter fun p => t ≤ p.ord

theorem mem_Rem {t : ℕ} {p : Pay} : p ∈ Rem t ↔ t ≤ p.ord := by simp [Rem]
theorem Rem_zero : Rem 0 = Finset.univ := by ext p; simp [mem_Rem]
theorem mem_Rem_self (p : Pay) : p ∈ Rem p.ord := mem_Rem.mpr le_rfl

/-- Making the payment numbered `t`. -/
theorem Rem_erase (t : ℕ) (p : Pay) (hp : p.ord = t) : (Rem t).erase p = Rem (t + 1) := by
  ext q
  simp only [Finset.mem_erase, mem_Rem]
  constructor
  · rintro ⟨hne, hle⟩
    have : q.ord ≠ t := fun h => hne (Pay.ord_injective (h.trans hp.symm))
    omega
  · intro h
    exact ⟨fun he => by subst he; omega, by omega⟩

/-- After the last payment nothing is owed. -/
theorem Rem_end : Rem 122 = ∅ := by
  ext p; simp only [mem_Rem, Finset.notMem_empty, iff_false, not_le]; exact p.ord_lt
theorem owedOf_empty (c : Dev nD) : owedOf c ∅ = 0 := by unfold owedOf; exact Finset.sum_empty

/-- A wait at level `n` after `t` payments: allowed when every later payment's cell lies above `n`. -/
theorem may_of_Rem (c : Dev nD) (X : GSem nD τ sig) (n : ℕ) (hX : lv X () = n) (t : ℕ) (h : ∀ p : Pay, t ≤ p.ord → n < p.lvl) :
    (levAts L lv : sProp 𝕄) ⊢ MayWait (c : Thread nD τ) X.2 () (owedOf c (Rem t)) :=
  mayWait_num c X n hX (Rem t) fun p hp => h p (mem_Rem.mp hp)

end Cert.Kernel.Hand
end
-- ==== Proof.Bits.BlocksSend.lean ====
/-
  The sends of the walk as steps over the big conjunctions: a step takes the strip it sends, the slot or strip it writes
  on the neighbour and the transfer's two duty tokens out of the families that hold them, pays the arrival it owes, and puts the
  departure's credit into the family of departures still to be waited for. Which item is meant is an index; that the index
  lies in (or outside) the family's current set is the step's one pure premise.
-/
import proofs.«900799_g7700000000000800_dist_gemm_ar_m1024_k1024_n1024_f32_gelu_v7x_i16_1_alg».proof.Proof.Bits.BlockDefs
import proofs.«900799_g7700000000000800_dist_gemm_ar_m1024_k1024_n1024_f32_gelu_v7x_i16_1_alg».proof.Proof.Bits.Order

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The reduce phase's sends -/

/-- Reduce leftwards, step `s`, strip `j`, the strip still among the device's own output strips (at distance `a = 8 + s`). -/
theorem blk_rl_send0 (K : Dev nD × Fin 241 → ℕ) (c : Dev nD) (s : Fin 8) (j : Fin 4) (a : Fin 16) (t : ℕ) (n : Dev nD) (hn : n = lft c)
    {off : Fin 2 → ℕ} (hoff : off = ![chunkRow c (8 + s.val) + 16 * j.val, 0])
    (V : StripV F) (hV : V (a, j) = accL m ρ s.val c j)
    {So : Finset (Fin 16 × Fin 4)} {Sl St Sd : Finset (Fin 8 × Fin 4)} {W : Waits sig Unit}
    {hinb : ∀ a, off a + S16x1024.size a ≤ S1024x1024.size a}
    {hst : ∀ a, (Rect.unit (s := S1024x1024) off S16x1024.size hinb).stride a = 1}
    {hsc : (lS s j : Memref sig (Dev.tc n : Thread nD τ).2.kind .vmem S16x1024 .f32).view.ref.isScScratch = false}
    {hsrc : ((oM).slice (Rect.unit (s := S1024x1024) off S16x1024.size hinb) hst : Memref sig .tc .vmem S16x1024 .f32).view.WordExact}
    {hdst : (lS s j : Memref sig .tc .vmem S16x1024 .f32).view.WordExact}
    {hsem : DmaTarget.Typed .vmem (.dma (sem8 cc0_scratch2 1 s j))
      (.remote (Dev.tc n : Thread nD τ) (lS s j : Memref sig .tc .vmem S16x1024 .f32) (.dma (sem8 cc0_scratch2 0 s j)) hsc)}
    {α : Type} {Q : α → sProp 𝕄} {k : PUnit → Prog (TpuEff nD τ sig (Elt F) Λ₀ .tc) α} :
    iprop(records m ρ K ∗ levAts L lv
        ∗ bigSep So (outΦ c V) ∗ bigSep Sl (lΦ (lft c)) ∗ bigSep St (tokRlΦ c) ∗ bigSep Sd (depRlΦ c)
        ∗ owes (c : Thread nD τ) (owedOf c (Rem t)) W
        ∗ ⌜(a, j) ∈ So ∧ a.val = 8 + s.val ∧ (s, j) ∈ Sl ∧ (s, j) ∈ St ∧ (s, j) ∉ Sd ∧ (Pay.rl s j).ord = t⌝)
      ⊢ iprop(((bigSep (So.erase (a, j)) (outΦ c V) ∗ bigSep (Sl.erase (s, j)) (lΦ (lft c)) ∗ bigSep (St.erase (s, j)) (tokRlΦ c)
              ∗ bigSep (insert (s, j) Sd) (depRlΦ c) ∗ owes (c : Thread nD τ) (owedOf c (Rem (t + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM).slice (Rect.unit (s := S1024x1024) off S16x1024.size hinb) hst : Memref sig .tc .vmem S16x1024 .f32)
                (.remote (Dev.tc n : Thread nD τ) (lS s j) (.dma (sem8 cc0_scratch2 0 s j)) hsc)
                (.dma (sem8 cc0_scratch2 1 s j)) hsrc hdst hsem) k) Q) := by
  iintro ⟨#Hrec, #Hlev, Ho, Hl, Ht, Hd, HO, %h⟩ Hk
  obtain ⟨hao, hav, hsl, hst', hsd, hS⟩ := h
  rw [← Rem_erase t _ hS]
  have e : outΦ c V (a, j) = owns (c : Thread nD τ) (oS c (8 + s.val) j) fullShare (accL m ρ s.val c j) := by
    show owns (c : Thread nD τ) (oS c a.val j) fullShare (V (a, j)) = _
    rw [hav, hV]
  ihave Ho' := (take So (a, j) hao (outΦ c V)) $$ Ho
  icases Ho' with ⟨Hsrc0, Ho⟩
  ihave Hsrc := (Entails.of_eq e) $$ Hsrc0
  ihave Hl' := (take Sl (s, j) hsl (lΦ (lft c))) $$ Hl
  icases Hl' with ⟨Hdst, Hl⟩
  ihave Ht' := (tok_rl_take c St (s, j) hst') $$ Ht
  icases Ht' with ⟨⟨Ht1, Ht2⟩, Ht⟩
  iapply (wp_rl_send m ρ K c s j n hn hoff (Rem t) (mem_Rem.mpr (le_of_eq hS.symm)) W rfl) $$ [Hsrc Hdst HO Ht1 Ht2] [Hk Ho Hl Ht Hd]
  · isplitr; · iexact Hrec
    isplitl [Hsrc]; · iexact Hsrc
    isplitl [Hdst]; · iexact Hdst
    isplitl [HO]; · iexact HO
    isplitl [Ht1]; · iexact Ht1
    iexact Ht2
  · iintro ⟨Hc, HO⟩
    iapply Hk
    isplitl [Ho]; · iexact Ho
    isplitl [Hl]; · iexact Hl
    isplitl [Ht]; · iexact Ht
    isplitl [Hc Hd]
    · iapply (put Sd (s, j) hsd (depRlΦ c))
      isplitl [Hc]; · iexact Hc
      iexact Hd
    iexact HO

/-- The same with the strip sent held by itself. -/
theorem blk_rl_send (K : Dev nD × Fin 241 → ℕ) (c : Dev nD) (s : Fin 8) (j : Fin 4) (t : ℕ) (n : Dev nD) (hn : n = lft c)
    {off : Fin 2 → ℕ} (hoff : off = ![chunkRow c (8 + s.val) + 16 * j.val, 0])
    {Sl St Sd : Finset (Fin 8 × Fin 4)} {W : Waits sig Unit}
    {hinb : ∀ a, off a + S16x1024.size a ≤ S1024x1024.size a}
    {hst : ∀ a, (Rect.unit (s := S1024x1024) off S16x1024.size hinb).stride a = 1}
    {hsc : (lS s j : Memref sig (Dev.tc n : Thread nD τ).2.kind .vmem S16x1024 .f32).view.ref.isScScratch = false}
    {hsrc : ((oM).slice (Rect.unit (s := S1024x1024) off S16x1024.size hinb) hst : Memref sig .tc .vmem S16x1024 .f32).view.WordExact}
    {hdst : (lS s j : Memref sig .tc .vmem S16x1024 .f32).view.WordExact}
    {hsem : DmaTarget.Typed .vmem (.dma (sem8 cc0_scratch2 1 s j))
      (.remote (Dev.tc n : Thread nD τ) (lS s j : Memref sig .tc .vmem S16x1024 .f32) (.dma (sem8 cc0_scratch2 0 s j)) hsc)}
    {α : Type} {Q : α → sProp 𝕄} {k : PUnit → Prog (TpuEff nD τ sig (Elt F) Λ₀ .tc) α} :
    iprop(records m ρ K ∗ levAts L lv
        ∗ owns (c : Thread nD τ) (oS c (8 + s.val) j) fullShare (accL m ρ s.val c j)
        ∗ bigSep Sl (lΦ (lft c)) ∗ bigSep St (tokRlΦ c) ∗ bigSep Sd (depRlΦ c)
        ∗ owes (c : Thread nD τ) (owedOf c (Rem t)) W
        ∗ ⌜(s, j) ∈ Sl ∧ (s, j) ∈ St ∧ (s, j) ∉ Sd ∧ (Pay.rl s j).ord = t⌝)
      ⊢ iprop(((bigSep (Sl.erase (s, j)) (lΦ (lft c)) ∗ bigSep (St.erase (s, j)) (tokRlΦ c)
              ∗ bigSep (insert (s, j) Sd) (depRlΦ c) ∗ owes (c : Thread nD τ) (owedOf c (Rem (t + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM).slice (Rect.unit (s := S1024x1024) off S16x1024.size hinb) hst : Memref sig .tc .vmem S16x1024 .f32)
                (.remote (Dev.tc n : Thread nD τ) (lS s j) (.dma (sem8 cc0_scratch2 0 s j)) hsc)
                (.dma (sem8 cc0_scratch2 1 s j)) hsrc hdst hsem) k) Q) := by
  iintro ⟨#Hrec, #Hlev, Hsrc, Hl, Ht, Hd, HO, %h⟩ Hk
  obtain ⟨hsl, hst', hsd, hS⟩ := h
  rw [← Rem_erase t _ hS]
  ihave Hl' := (take Sl (s, j) hsl (lΦ (lft c))) $$ Hl
  icases Hl' with ⟨Hdst, Hl⟩
  ihave Ht' := (tok_rl_take c St (s, j) hst') $$ Ht
  icases Ht' with ⟨⟨Ht1, Ht2⟩, Ht⟩
  iapply (wp_rl_send m ρ K c s j n hn hoff (Rem t) (mem_Rem.mpr (le_of_eq hS.symm)) W rfl) $$ [Hsrc Hdst HO Ht1 Ht2] [Hk Hl Ht Hd]
  · isplitr; · iexact Hrec
    isplitl [Hsrc]; · iexact Hsrc
    isplitl [Hdst]; · iexact Hdst
    isplitl [HO]; · iexact HO
    isplitl [Ht1]; · iexact Ht1
    iexact Ht2
  · iintro ⟨Hc, HO⟩
    iapply Hk
    isplitl [Hl]; · iexact Hl
    isplitl [Ht]; · iexact Ht
    isplitl [Hc Hd]
    · iapply (put Sd (s, j) hsd (depRlΦ c))
      isplitl [Hc]; · iexact Hc
      iexact Hd
    iexact HO

/-- Reduce rightwards, step `s`, strip `j`, the strip still among the device's own output strips (at distance `a = 7 - s`). -/
theorem blk_rr_send0 (K : Dev nD × Fin 241 → ℕ) (c : Dev nD) (s : Fin 7) (j : Fin 4) (a : Fin 16) (t : ℕ) (n : Dev nD) (hn : n = rgt c)
    {off : Fin 2 → ℕ} (hoff : off = ![chunkRow c (7 - s.val) + 16 * j.val, 0])
    (V : StripV F) (hV : V (a, j) = accR m ρ s.val c j)
    {So : Finset (Fin 16 × Fin 4)} {Sl St Sd : Finset (Fin 7 × Fin 4)} {W : Waits sig Unit}
    {hinb : ∀ a, off a + S16x1024.size a ≤ S1024x1024.size a}
    {hst : ∀ a, (Rect.unit (s := S1024x1024) off S16x1024.size hinb).stride a = 1}
    {hsc : (rS s j : Memref sig (Dev.tc n : Thread nD τ).2.kind .vmem S16x1024 .f32).view.ref.isScScratch = false}
    {hsrc : ((oM).slice (Rect.unit (s := S1024x1024) off S16x1024.size hinb) hst : Memref sig .tc .vmem S16x1024 .f32).view.WordExact}
    {hdst : (rS s j : Memref sig .tc .vmem S16x1024 .f32).view.WordExact}
    {hsem : DmaTarget.Typed .vmem (.dma (sem7 cc0_scratch3 1 s j))
      (.remote (Dev.tc n : Thread nD τ) (rS s j : Memref sig .tc .vmem S16x1024 .f32) (.dma (sem7 cc0_scratch3 0 s j)) hsc)}
    {α : Type} {Q : α → sProp 𝕄} {k : PUnit → Prog (TpuEff nD τ sig (Elt F) Λ₀ .tc) α} :
    iprop(records m ρ K ∗ levAts L lv
        ∗ bigSep So (outΦ c V) ∗ bigSep Sl (rΦ (rgt c)) ∗ bigSep St (tokRrΦ c) ∗ bigSep Sd (depRrΦ c)
        ∗ owes (c : Thread nD τ) (owedOf c (Rem t)) W
        ∗ ⌜(a, j) ∈ So ∧ a.val = 7 - s.val ∧ (s, j) ∈ Sl ∧ (s, j) ∈ St ∧ (s, j) ∉ Sd ∧ (Pay.rr s j).ord = t⌝)
      ⊢ iprop(((bigSep (So.erase (a, j)) (outΦ c V) ∗ bigSep (Sl.erase (s, j)) (rΦ (rgt c)) ∗ bigSep (St.erase (s, j)) (tokRrΦ c)
              ∗ bigSep (insert (s, j) Sd) (depRrΦ c) ∗ owes (c : Thread nD τ) (owedOf c (Rem (t + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM).slice (Rect.unit (s := S1024x1024) off S16x1024.size hinb) hst : Memref sig .tc .vmem S16x1024 .f32)
                (.remote (Dev.tc n : Thread nD τ) (rS s j) (.dma (sem7 cc0_scratch3 0 s j)) hsc)
                (.dma (sem7 cc0_scratch3 1 s j)) hsrc hdst hsem) k) Q) := by
  iintro ⟨#Hrec, #Hlev, Ho, Hl, Ht, Hd, HO, %h⟩ Hk
  obtain ⟨hao, hav, hsl, hst', hsd, hS⟩ := h
  rw [← Rem_erase t _ hS]
  have e : outΦ c V (a, j) = owns (c : Thread nD τ) (oS c (7 - s.val) j) fullShare (accR m ρ s.val c j) := by
    show owns (c : Thread nD τ) (oS c a.val j) fullShare (V (a, j)) = _
    rw [hav, hV]
  ihave Ho' := (take So (a, j) hao (outΦ c V)) $$ Ho
  icases Ho' with ⟨Hsrc0, Ho⟩
  ihave Hsrc := (Entails.of_eq e) $$ Hsrc0
  ihave Hl' := (take Sl (s, j) hsl (rΦ (rgt c))) $$ Hl
  icases Hl' with ⟨Hdst, Hl⟩
  ihave Ht' := (tok_rr_take c St (s, j) hst') $$ Ht
  icases Ht' with ⟨⟨Ht1, Ht2⟩, Ht⟩
  iapply (wp_rr_send m ρ K c s j n hn hoff (Rem t) (mem_Rem.mpr (le_of_eq hS.symm)) W rfl) $$ [Hsrc Hdst HO Ht1 Ht2] [Hk Ho Hl Ht Hd]
  · isplitr; · iexact Hrec
    isplitl [Hsrc]; · iexact Hsrc
    isplitl [Hdst]; · iexact Hdst
    isplitl [HO]; · iexact HO
    isplitl [Ht1]; · iexact Ht1
    iexact Ht2
  · iintro ⟨Hc, HO⟩
    iapply Hk
    isplitl [Ho]; · iexact Ho
    isplitl [Hl]; · iexact Hl
    isplitl [Ht]; · iexact Ht
    isplitl [Hc Hd]
    · iapply (put Sd (s, j) hsd (depRrΦ c))
      isplitl [Hc]; · iexact Hc
      iexact Hd
    iexact HO

/-- The same with the strip sent held by itself. -/
theorem blk_rr_send (K : Dev nD × Fin 241 → ℕ) (c : Dev nD) (s : Fin 7) (j : Fin 4) (t : ℕ) (n : Dev nD) (hn : n = rgt c)
    {off : Fin 2 → ℕ} (hoff : off = ![chunkRow c (7 - s.val) + 16 * j.val, 0])
    {Sl St Sd : Finset (Fin 7 × Fin 4)} {W : Waits sig Unit}
    {hinb : ∀ a, off a + S16x1024.size a ≤ S1024x1024.size a}
    {hst : ∀ a, (Rect.unit (s := S1024x1024) off S16x1024.size hinb).stride a = 1}
    {hsc : (rS s j : Memref sig (Dev.tc n : Thread nD τ).2.kind .vmem S16x1024 .f32).view.ref.isScScratch = false}
    {hsrc : ((oM).slice (Rect.unit (s := S1024x1024) off S16x1024.size hinb) hst : Memref sig .tc .vmem S16x1024 .f32).view.WordExact}
    {hdst : (rS s j : Memref sig .tc .vmem S16x1024 .f32).view.WordExact}
    {hsem : DmaTarget.Typed .vmem (.dma (sem7 cc0_scratch3 1 s j))
      (.remote (Dev.tc n : Thread nD τ) (rS s j : Memref sig .tc .vmem S16x1024 .f32) (.dma (sem7 cc0_scratch3 0 s j)) hsc)}
    {α : Type} {Q : α → sProp 𝕄} {k : PUnit → Prog (TpuEff nD τ sig (Elt F) Λ₀ .tc) α} :
    iprop(records m ρ K ∗ levAts L lv
        ∗ owns (c : Thread nD τ) (oS c (7 - s.val) j) fullShare (accR m ρ s.val c j)
        ∗ bigSep Sl (rΦ (rgt c)) ∗ bigSep St (tokRrΦ c) ∗ bigSep Sd (depRrΦ c)
        ∗ owes (c : Thread nD τ) (owedOf c (Rem t)) W
        ∗ ⌜(s, j) ∈ Sl ∧ (s, j) ∈ St ∧ (s, j) ∉ Sd ∧ (Pay.rr s j).ord = t⌝)
      ⊢ iprop(((bigSep (Sl.erase (s, j)) (rΦ (rgt c)) ∗ bigSep (St.erase (s, j)) (tokRrΦ c)
              ∗ bigSep (insert (s, j) Sd) (depRrΦ c) ∗ owes (c : Thread nD τ) (owedOf c (Rem (t + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM).slice (Rect.unit (s := S1024x1024) off S16x1024.size hinb) hst : Memref sig .tc .vmem S16x1024 .f32)
                (.remote (Dev.tc n : Thread nD τ) (rS s j) (.dma (sem7 cc0_scratch3 0 s j)) hsc)
                (.dma (sem7 cc0_scratch3 1 s j)) hsrc hdst hsem) k) Q) := by
  iintro ⟨#Hrec, #Hlev, Hsrc, Hl, Ht, Hd, HO, %h⟩ Hk
  obtain ⟨hsl, hst', hsd, hS⟩ := h
  rw [← Rem_erase t _ hS]
  ihave Hl' := (take Sl (s, j) hsl (rΦ (rgt c))) $$ Hl
  icases Hl' with ⟨Hdst, Hl⟩
  ihave Ht' := (tok_rr_take c St (s, j) hst') $$ Ht
  icases Ht' with ⟨⟨Ht1, Ht2⟩, Ht⟩
  iapply (wp_rr_send m ρ K c s j n hn hoff (Rem t) (mem_Rem.mpr (le_of_eq hS.symm)) W rfl) $$ [Hsrc Hdst HO Ht1 Ht2] [Hk Hl Ht Hd]
  · isplitr; · iexact Hrec
    isplitl [Hsrc]; · iexact Hsrc
    isplitl [Hdst]; · iexact Hdst
    isplitl [HO]; · iexact HO
    isplitl [Ht1]; · iexact Ht1
    iexact Ht2
  · iintro ⟨Hc, HO⟩
    iapply Hk
    isplitl [Hl]; · iexact Hl
    isplitl [Ht]; · iexact Ht
    isplitl [Hc Hd]
    · iapply (put Sd (s, j) hsd (depRrΦ c))
      isplitl [Hc]; · iexact Hc
      iexact Hd
    iexact HO

/-! ## The gather's sends -/

/-- The neighbour's strip the gather step `s` rightwards writes, as the family of the neighbour's strips names it: by the
    reduce step `7 - s` that brought it. -/
theorem nbR_at (c : Dev nD) (s : Fin 8) (j : Fin 4) :
    nbRΦ (F := F) c ((⟨7 - s.val, by omega⟩ : Fin 8), j)
      = iprop(∃ f, (oS (rgt c) (15 - s.val) j).view.loc (rgt c : Thread nD τ) ↦[(oS (rgt c) (15 - s.val) j).view.set]{fullShare} f) := by
  show iprop(∃ g, (oS (rgt c) (8 + (7 - s.val)) j).view.loc (rgt c : Thread nD τ) ↦[(oS (rgt c) (8 + (7 - s.val)) j).view.set]{fullShare} g) = _
  rw [oS_rl_gr' (rgt c) s j]
theorem nbL_at (c : Dev nD) (s : Fin 7) (j : Fin 4) :
    nbLΦ (F := F) c ((⟨6 - s.val, by omega⟩ : Fin 7), j)
      = iprop(∃ f, (oS (lft c) (1 + s.val) j).view.loc (lft c : Thread nD τ) ↦[(oS (lft c) (1 + s.val) j).view.set]{fullShare} f) := by
  show iprop(∃ g, (oS (lft c) (7 - (6 - s.val)) j).view.loc (lft c : Thread nD τ) ↦[(oS (lft c) (7 - (6 - s.val)) j).view.set]{fullShare} g) = _
  rw [oS_rr_gl' (lft c) s j]

theorem nbR_take (c : Dev nD) (Sn : Finset (Fin 8 × Fin 4)) (s : Fin 8) (j : Fin 4) (h : ((⟨7 - s.val, by omega⟩ : Fin 8), j) ∈ Sn) :
    bigSep Sn (nbRΦ (F := F) c)
      ⊢ iprop((∃ f, (oS (rgt c) (15 - s.val) j).view.loc (rgt c : Thread nD τ) ↦[(oS (rgt c) (15 - s.val) j).view.set]{fullShare} f)
          ∗ bigSep (Sn.erase ((⟨7 - s.val, by omega⟩ : Fin 8), j)) (nbRΦ c)) := by
  have h' := take (F := F) Sn _ h (nbRΦ c)
  rwa [nbR_at] at h'
theorem nbL_take (c : Dev nD) (Sn : Finset (Fin 7 × Fin 4)) (s : Fin 7) (j : Fin 4) (h : ((⟨6 - s.val, by omega⟩ : Fin 7), j) ∈ Sn) :
    bigSep Sn (nbLΦ (F := F) c)
      ⊢ iprop((∃ f, (oS (lft c) (1 + s.val) j).view.loc (lft c : Thread nD τ) ↦[(oS (lft c) (1 + s.val) j).view.set]{fullShare} f)
          ∗ bigSep (Sn.erase ((⟨6 - s.val, by omega⟩ : Fin 7), j)) (nbLΦ c)) := by
  have h' := take (F := F) Sn _ h (nbLΦ c)
  rwa [nbL_at] at h'

/-- Gather rightwards, step `s`, strip `j`. -/
theorem blk_gr_send (K : Dev nD × Fin 241 → ℕ) (c : Dev nD) (s : Fin 8) (j : Fin 4) (t : ℕ) (n : Dev nD) (hn : n = rgt c)
    {off : Fin 2 → ℕ} (hoff : off = ![chunkRow c (16 - s.val) + 16 * j.val, 0])
    {V : S16x1024.Idx → Elt F .f32} (hV : V = fin m ρ (posOf c - ⟨s.val % 16, Nat.mod_lt _ (by decide)⟩) j)
    {Sn St Sd : Finset (Fin 8 × Fin 4)} {W : Waits sig Unit}
    {p p' : ∀ a, off a + S16x1024.size a ≤ S1024x1024.size a}
    {hs : ∀ a, (Rect.unit (s := S1024x1024) off S16x1024.size p).stride a = 1} {hs' : ∀ a, (Rect.unit (s := S1024x1024) off S16x1024.size p').stride a = 1}
    {hsc : ((oM : Memref sig .tc .vmem S1024x1024 .f32).slice (Rect.unit (s := S1024x1024) off S16x1024.size p') hs' : Memref sig (Dev.tc n : Thread nD τ).2.kind .vmem S16x1024 .f32).view.ref.isScScratch = false}
    {hsrc : ((oM : Memref sig .tc .vmem S1024x1024 .f32).slice (Rect.unit (s := S1024x1024) off S16x1024.size p) hs).view.WordExact}
    {hdst : ((oM : Memref sig .tc .vmem S1024x1024 .f32).slice (Rect.unit (s := S1024x1024) off S16x1024.size p') hs').view.WordExact}
    {hsem : DmaTarget.Typed .vmem (.dma (sem8 cc0_scratch4 1 s j))
      (.remote (Dev.tc n : Thread nD τ) ((oM : Memref sig .tc .vmem S1024x1024 .f32).slice (Rect.unit (s := S1024x1024) off S16x1024.size p') hs') (.dma (sem8 cc0_scratch4 0 s j)) hsc)}
    {α : Type} {Q : α → sProp 𝕄} {k : PUnit → Prog (TpuEff nD τ sig (Elt F) Λ₀ .tc) α} :
    iprop(records m ρ K ∗ levAts L lv
        ∗ owns (c : Thread nD τ) (oS c (16 - s.val) j) (shG false s.val) V
        ∗ bigSep Sn (nbRΦ c) ∗ bigSep St (tokGrΦ c) ∗ bigSep Sd (depGrΦ c)
        ∗ owes (c : Thread nD τ) (owedOf c (Rem t)) W
        ∗ ⌜((⟨7 - s.val, by omega⟩ : Fin 8), j) ∈ Sn ∧ (s, j) ∈ St ∧ (s, j) ∉ Sd ∧ (Pay.gr s j).ord = t⌝)
      ⊢ iprop(((bigSep (Sn.erase ((⟨7 - s.val, by omega⟩ : Fin 8), j)) (nbRΦ c) ∗ bigSep (St.erase (s, j)) (tokGrΦ c) ∗ bigSep (insert (s, j) Sd) (depGrΦ c)
              ∗ owes (c : Thread nD τ) (owedOf c (Rem (t + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM : Memref sig .tc .vmem S1024x1024 .f32).slice (Rect.unit (s := S1024x1024) off S16x1024.size p) hs)
                (.remote (Dev.tc n : Thread nD τ) ((oM : Memref sig .tc .vmem S1024x1024 .f32).slice (Rect.unit (s := S1024x1024) off S16x1024.size p') hs') (.dma (sem8 cc0_scratch4 0 s j)) hsc)
                (.dma (sem8 cc0_scratch4 1 s j)) hsrc hdst hsem) k) Q) := by
  iintro ⟨#Hrec, #Hlev, Hsrc, Hn, Ht, Hd, HO, %h⟩ Hk
  rw [← Rem_erase t (Pay.gr s j) h.2.2.2]
  ihave Hn' := (nbR_take c Sn s j h.1) $$ Hn
  icases Hn' with ⟨Hdst, Hn⟩
  ihave Ht' := (tok_gr_take c St (s, j) h.2.1) $$ Ht
  icases Ht' with ⟨⟨Ht1, Ht2⟩, Ht⟩
  iapply (wp_gr_send m ρ K c s j n hn hoff (Rem t) (mem_Rem.mpr (le_of_eq h.2.2.2.symm)) W hV) $$ [Hsrc Hdst HO Ht1 Ht2] [Hk Hn Ht Hd]
  · isplitr; · iexact Hrec
    isplitl [Hsrc]; · iexact Hsrc
    isplitl [Hdst]; · iexact Hdst
    isplitl [HO]; · iexact HO
    isplitl [Ht1]; · iexact Ht1
    iexact Ht2
  · iintro ⟨Hc, HO⟩
    iapply Hk
    isplitl [Hn]; · iexact Hn
    isplitl [Ht]; · iexact Ht
    isplitl [Hc Hd]
    · iapply (put Sd (s, j) h.2.2.1 (depGrΦ c))
      isplitl [Hc]; · iexact Hc
      iexact Hd
    iexact HO

/-- Gather leftwards, step `s`, strip `j`. -/
theorem blk_gl_send (K : Dev nD × Fin 241 → ℕ) (c : Dev nD) (s : Fin 7) (j : Fin 4) (t : ℕ) (n : Dev nD) (hn : n = lft c)
    {off : Fin 2 → ℕ} (hoff : off = ![chunkRow c s.val + 16 * j.val, 0])
    {V : S16x1024.Idx → Elt F .f32} (hV : V = fin m ρ (posOf c + ⟨s.val % 16, Nat.mod_lt _ (by decide)⟩) j)
    {Sn St Sd : Finset (Fin 7 × Fin 4)} {W : Waits sig Unit}
    {p p' : ∀ a, off a + S16x1024.size a ≤ S1024x1024.size a}
    {hs : ∀ a, (Rect.unit (s := S1024x1024) off S16x1024.size p).stride a = 1} {hs' : ∀ a, (Rect.unit (s := S1024x1024) off S16x1024.size p').stride a = 1}
    {hsc : ((oM : Memref sig .tc .vmem S1024x1024 .f32).slice (Rect.unit (s := S1024x1024) off S16x1024.size p') hs' : Memref sig (Dev.tc n : Thread nD τ).2.kind .vmem S16x1024 .f32).view.ref.isScScratch = false}
    {hsrc : ((oM : Memref sig .tc .vmem S1024x1024 .f32).slice (Rect.unit (s := S1024x1024) off S16x1024.size p) hs).view.WordExact}
    {hdst : ((oM : Memref sig .tc .vmem S1024x1024 .f32).slice (Rect.unit (s := S1024x1024) off S16x1024.size p') hs').view.WordExact}
    {hsem : DmaTarget.Typed .vmem (.dma (sem7 cc0_scratch5 1 s j))
      (.remote (Dev.tc n : Thread nD τ) ((oM : Memref sig .tc .vmem S1024x1024 .f32).slice (Rect.unit (s := S1024x1024) off S16x1024.size p') hs') (.dma (sem7 cc0_scratch5 0 s j)) hsc)}
    {α : Type} {Q : α → sProp 𝕄} {k : PUnit → Prog (TpuEff nD τ sig (Elt F) Λ₀ .tc) α} :
    iprop(records m ρ K ∗ levAts L lv
        ∗ owns (c : Thread nD τ) (oS c s.val j) (shG true s.val) V
        ∗ bigSep Sn (nbLΦ c) ∗ bigSep St (tokGlΦ c) ∗ bigSep Sd (depGlΦ c)
        ∗ owes (c : Thread nD τ) (owedOf c (Rem t)) W
        ∗ ⌜((⟨6 - s.val, by omega⟩ : Fin 7), j) ∈ Sn ∧ (s, j) ∈ St ∧ (s, j) ∉ Sd ∧ (Pay.gl s j).ord = t⌝)
      ⊢ iprop(((bigSep (Sn.erase ((⟨6 - s.val, by omega⟩ : Fin 7), j)) (nbLΦ c) ∗ bigSep (St.erase (s, j)) (tokGlΦ c) ∗ bigSep (insert (s, j) Sd) (depGlΦ c)
              ∗ owes (c : Thread nD τ) (owedOf c (Rem (t + 1))) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((oM : Memref sig .tc .vmem S1024x1024 .f32).slice (Rect.unit (s := S1024x1024) off S16x1024.size p) hs)
                (.remote (Dev.tc n : Thread nD τ) ((oM : Memref sig .tc .vmem S1024x1024 .f32).slice (Rect.unit (s := S1024x1024) off S16x1024.size p') hs') (.dma (sem7 cc0_scratch5 0 s j)) hsc)
                (.dma (sem7 cc0_scratch5 1 s j)) hsrc hdst hsem) k) Q) := by
  iintro ⟨#Hrec, #Hlev, Hsrc, Hn, Ht, Hd, HO, %h⟩ Hk
  rw [← Rem_erase t (Pay.gl s j) h.2.2.2]
  ihave Hn' := (nbL_take c Sn s j h.1) $$ Hn
  icases Hn' with ⟨Hdst, Hn⟩
  ihave Ht' := (tok_gl_take c St (s, j) h.2.1) $$ Ht
  icases Ht' with ⟨⟨Ht1, Ht2⟩, Ht⟩
  iapply (wp_gl_send m ρ K c s j n hn hoff (Rem t) (mem_Rem.mpr (le_of_eq h.2.2.2.symm)) W hV) $$ [Hsrc Hdst HO Ht1 Ht2] [Hk Hn Ht Hd]
  · isplitr; · iexact Hrec
    isplitl [Hsrc]; · iexact Hsrc
    isplitl [Hdst]; · iexact Hdst
    isplitl [HO]; · iexact HO
    isplitl [Ht1]; · iexact Ht1
    iexact Ht2
  · iintro ⟨Hc, HO⟩
    iapply Hk
    isplitl [Hn]; · iexact Hn
    isplitl [Ht]; · iexact Ht
    isplitl [Hc Hd]
    · iapply (put Sd (s, j) h.2.2.1 (depGlΦ c))
      isplitl [Hc]; · iexact Hc
      iexact Hd
    iexact HO

end Cert.Kernel.Hand

end
-- ==== Proof.Bits.BlocksWait.lean ====
/-
  Waiting on one of a device's own transfer cells, as a step of the walk over the big conjunctions: the wait takes the
  cell's credit out of the credits still to be waited for and the owner's position out of the positions at round 0, and
  puts the position, now at round 1, among the cells that are done; what the cell's one duty hands over comes back as
  a resource of its own. A wait after the first `t` payments is allowed when the waited cell's level is below the level
  of every payment numbered `t` and above. There are eight kinds of cell, the departure and the arrival of each of the
  four families; they differ in the credit family, the cell's number and what the duty hands over.
-/
import proofs.«900799_g7700000000000800_dist_gemm_ar_m1024_k1024_n1024_f32_gelu_v7x_i16_1_alg».proof.Proof.Bits.BlockDefs
import proofs.«900799_g7700000000000800_dist_gemm_ar_m1024_k1024_n1024_f32_gelu_v7x_i16_1_alg».proof.Proof.Bits.Order

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 241 → ℕ)

/-- The level condition of a wait after `t` payments: a statement about every payment, closed family by family. -/
macro "imay" : tactic => `(tactic| (ipureintro; rw [forall_pay]; decide))

/-- A transfer's credit depends on the destination's shape and element type only: every strip of sixteen rows of
    1024 words in vector memory carries the same. -/
theorem credit_any (dst : Memref sig .tc .vmem S16x1024 .f32) : dst.view.dmaCredit = N16 := rfl

/-! ## The wait on any transfer cell -/

/-- The wait on the transfer cell of semaphore `q`, which is the device's cell number `kq`; its credit is item `i` of the
    family `credΦ`, its duty hands over `P`, and its level is `n`. -/
theorem blk_wait {I : Type} [DecidableEq I] (c : Dev nD) (q : DmaSem sig) (hq : 3 ≤ q.val) (kq : Fin 241)
    (hcell : kcell (c, kq) = (((c : Thread nD τ), SemLoc.dma q) : GSem nD τ sig))
    (credΦ : I → sProp 𝕄) (i : I) (hcred : credΦ i = cred (tallyAt (((c : Thread nD τ), SemLoc.dma q) : GSem nD τ sig) () N16))
    (P : sProp 𝕄) (hP : (ringRd m ρ).payload (((c : Thread nD τ), SemLoc.dma q) : GSem nD τ sig) 0 false = P)
    (n : ℕ) (hn : lvN q.val = n) (t : ℕ)
    {Sc : Finset I} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sc credΦ ∗ bigSep Sp (posΦ c) ∗ bigSep Sdone (doneΦ c)
        ∗ owes (c : Thread nD τ) (owedOf c (Rem t)) W
        ∗ ⌜i ∈ Sc ∧ kq ∈ Sp ∧ kq ∉ Sdone⌝
        ∗ ⌜∀ p : Pay, t ≤ p.ord → n < p.lvl⌝)
      ⊢ iprop((iprop(bigSep (Sc.erase i) credΦ ∗ bigSep (Sp.erase kq) (posΦ c) ∗ bigSep (insert kq Sdone) (doneΦ c)
              ∗ P ∗ owes (c : Thread nD τ) (owedOf c (Rem t)) (insert (SemLoc.dma q, ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  iintro ⟨#Hrec, #Hlev, Hc, Hp, Hdn, HO, %h, %hl⟩ Hk
  -- the credit and the position, each out of its conjunction
  ihave Hc' := (take Sc i h.1 credΦ) $$ Hc
  icases Hc' with ⟨Hcr0, Hc⟩
  ihave Hcr := (Entails.of_eq hcred) $$ Hcr0
  ihave Hp' := (take Sp kq h.2.1 (posΦ (F := F) c)) $$ Hp
  icases Hp' with ⟨Hat, Hp⟩
  ihave Hat0 := (show (posΦ (F := F) c kq : sProp 𝕄) ⊢ atPos ER (((c : Thread nD τ), SemLoc.dma q) : GSem nD τ sig) 0 ∅ 0 from by
    show (atPos ER (kcell (c, kq)) 0 ∅ 0 : sProp 𝕄) ⊢ _; rw [hcell]) $$ Hat
  -- the wait: below everything still owed
  iapply (wp_wait_named m ρ K c q hq (K (c, kq)) (owedOf c (Rem t)) W P hP
      (by have h' := records_inv m ρ K (c, kq); rwa [hcell] at h')
      (may_of_Rem c (((c : Thread nD τ), SemLoc.dma q) : GSem nD τ sig) n hn t hl) hamt) $$ [Hcr HO Hat0]
  · isplitr; · iexact Hrec
    isplitl [Hcr]; · iexact Hcr
    isplitl [HO]; · iexact HO
    isplitr; · iexact Hlev
    iexact Hat0
  iintro ⟨HO, Hat1, Hpay⟩
  -- the position, at round 1, among the cells done
  ihave Hdone := (show (atPos ER (((c : Thread nD τ), SemLoc.dma q) : GSem nD τ sig) 1 ∅ 0 : sProp 𝕄) ⊢ doneΦ (F := F) c kq from by
    show _ ⊢ (atPos ER (kcell (c, kq)) 1 ∅ 0 : sProp 𝕄); rw [hcell]) $$ Hat1
  iapply Hk
  isplitl [Hc]; · iexact Hc
  isplitl [Hp]; · iexact Hp
  isplitl [Hdone Hdn]
  · iapply (put Sdone kq h.2.2 (doneΦ (F := F) c))
    isplitl [Hdone] <;> iassumption
  isplitl [Hpay]; · iexact Hpay
  iexact HO

/-! ## The eight kinds of cell -/

/-- Reduce leftwards, departure of step `s`, strip `j`: the duty hands over nothing. -/
theorem blk_wait_rl_dep (c : Dev nD) (s : Fin 8) (j : Fin 4) (t : ℕ)
    {Sd : Finset (Fin 8 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sd (depRlΦ c) ∗ bigSep Sp (posΦ c) ∗ bigSep Sdone (doneΦ c)
        ∗ owes (c : Thread nD τ) (owedOf c (Rem t)) W
        ∗ ⌜(s, j) ∈ Sd ∧ rlIdx 0 s j ∈ Sp ∧ rlIdx 0 s j ∉ Sdone⌝
        ∗ ⌜∀ p : Pay, t ≤ p.ord → lvN (3 + 32 * 0 + 4 * s.val + j.val) < p.lvl⌝)
      ⊢ iprop((iprop(bigSep (Sd.erase (s, j)) (depRlΦ c) ∗ bigSep (Sp.erase (rlIdx 0 s j)) (posΦ c) ∗ bigSep (insert (rlIdx 0 s j) Sdone) (doneΦ c)
              ∗ owes (c : Thread nD τ) (owedOf c (Rem t)) (insert (SemLoc.dma (sem8 cc0_scratch2 0 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch2 0 s j) src dst hs hd) k) Q) := by
  iintro H Hk
  iapply (blk_wait m ρ K c (sem8 cc0_scratch2 0 s j) (by rw [sem8_val_rl]; omega) (rlIdx 0 s j) (kcell_rl c 0 s j)
      (depRlΦ c) (s, j) rfl iprop(emp) (payload_rl_dep m ρ c s j) (lvN (3 + 32 * 0 + 4 * s.val + j.val)) (congrArg lvN (sem8_val_rl 0 s j)) t hamt) $$ [H]
  · iexact H
  iintro ⟨Hd, Hp, Hdn, -, HO⟩
  iapply Hk
  isplitl [Hd]; · iexact Hd
  isplitl [Hp]; · iexact Hp
  isplitl [Hdn]; · iexact Hdn
  iexact HO

/-- Reduce rightwards, departure: likewise. -/
theorem blk_wait_rr_dep (c : Dev nD) (s : Fin 7) (j : Fin 4) (t : ℕ)
    {Sd : Finset (Fin 7 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sd (depRrΦ c) ∗ bigSep Sp (posΦ c) ∗ bigSep Sdone (doneΦ c)
        ∗ owes (c : Thread nD τ) (owedOf c (Rem t)) W
        ∗ ⌜(s, j) ∈ Sd ∧ rrIdx 0 s j ∈ Sp ∧ rrIdx 0 s j ∉ Sdone⌝
        ∗ ⌜∀ p : Pay, t ≤ p.ord → lvN (67 + 28 * 0 + 4 * s.val + j.val) < p.lvl⌝)
      ⊢ iprop((iprop(bigSep (Sd.erase (s, j)) (depRrΦ c) ∗ bigSep (Sp.erase (rrIdx 0 s j)) (posΦ c) ∗ bigSep (insert (rrIdx 0 s j) Sdone) (doneΦ c)
              ∗ owes (c : Thread nD τ) (owedOf c (Rem t)) (insert (SemLoc.dma (sem7 cc0_scratch3 0 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch3 0 s j) src dst hs hd) k) Q) := by
  iintro H Hk
  iapply (blk_wait m ρ K c (sem7 cc0_scratch3 0 s j) (by rw [sem7_val_rr]; omega) (rrIdx 0 s j) (kcell_rr c 0 s j)
      (depRrΦ c) (s, j) rfl iprop(emp) (payload_rr_dep m ρ c s j) (lvN (67 + 28 * 0 + 4 * s.val + j.val)) (congrArg lvN (sem7_val_rr 0 s j)) t hamt) $$ [H]
  · iexact H
  iintro ⟨Hd, Hp, Hdn, -, HO⟩
  iapply Hk
  isplitl [Hd]; · iexact Hd
  isplitl [Hp]; · iexact Hp
  isplitl [Hdn]; · iexact Hdn
  iexact HO

/-- Gather rightwards, departure: the duty returns the share of the source strip the transfer was lent. -/
theorem blk_wait_gr_dep (c : Dev nD) (s : Fin 8) (j : Fin 4) (t : ℕ)
    {Sd : Finset (Fin 8 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sd (depGrΦ c) ∗ bigSep Sp (posΦ c) ∗ bigSep Sdone (doneΦ c)
        ∗ owes (c : Thread nD τ) (owedOf c (Rem t)) W
        ∗ ⌜(s, j) ∈ Sd ∧ grIdx 0 s j ∈ Sp ∧ grIdx 0 s j ∉ Sdone⌝
        ∗ ⌜∀ p : Pay, t ≤ p.ord → lvN (123 + 32 * 0 + 4 * s.val + j.val) < p.lvl⌝)
      ⊢ iprop((iprop(bigSep (Sd.erase (s, j)) (depGrΦ c) ∗ bigSep (Sp.erase (grIdx 0 s j)) (posΦ c) ∗ bigSep (insert (grIdx 0 s j) Sdone) (doneΦ c)
              ∗ grDep m ρ c s j
              ∗ owes (c : Thread nD τ) (owedOf c (Rem t)) (insert (SemLoc.dma (sem8 cc0_scratch4 0 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch4 0 s j) src dst hs hd) k) Q) :=
  blk_wait m ρ K c (sem8 cc0_scratch4 0 s j) (by rw [sem8_val_gr]; omega) (grIdx 0 s j) (kcell_gr c 0 s j)
    (depGrΦ c) (s, j) rfl (grDep m ρ c s j) (payload_gr_dep m ρ c s j) (lvN (123 + 32 * 0 + 4 * s.val + j.val)) (congrArg lvN (sem8_val_gr 0 s j)) t hamt

/-- Gather leftwards, departure: likewise. -/
theorem blk_wait_gl_dep (c : Dev nD) (s : Fin 7) (j : Fin 4) (t : ℕ)
    {Sd : Finset (Fin 7 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sd (depGlΦ c) ∗ bigSep Sp (posΦ c) ∗ bigSep Sdone (doneΦ c)
        ∗ owes (c : Thread nD τ) (owedOf c (Rem t)) W
        ∗ ⌜(s, j) ∈ Sd ∧ glIdx 0 s j ∈ Sp ∧ glIdx 0 s j ∉ Sdone⌝
        ∗ ⌜∀ p : Pay, t ≤ p.ord → lvN (187 + 28 * 0 + 4 * s.val + j.val) < p.lvl⌝)
      ⊢ iprop((iprop(bigSep (Sd.erase (s, j)) (depGlΦ c) ∗ bigSep (Sp.erase (glIdx 0 s j)) (posΦ c) ∗ bigSep (insert (glIdx 0 s j) Sdone) (doneΦ c)
              ∗ glDep m ρ c s j
              ∗ owes (c : Thread nD τ) (owedOf c (Rem t)) (insert (SemLoc.dma (sem7 cc0_scratch5 0 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch5 0 s j) src dst hs hd) k) Q) :=
  blk_wait m ρ K c (sem7 cc0_scratch5 0 s j) (by rw [sem7_val_gl]; omega) (glIdx 0 s j) (kcell_gl c 0 s j)
    (depGlΦ c) (s, j) rfl (glDep m ρ c s j) (payload_gl_dep m ρ c s j) (lvN (187 + 28 * 0 + 4 * s.val + j.val)) (congrArg lvN (sem7_val_gl 0 s j)) t hamt

/-- Gather rightwards, arrival: the finished strip of the chunk at distance `15 - s` has landed. -/
theorem blk_wait_gr_arr (c : Dev nD) (s : Fin 8) (j : Fin 4) (t : ℕ)
    {Sa : Finset (Fin 8 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sa (arrGrΦ c) ∗ bigSep Sp (posΦ c) ∗ bigSep Sdone (doneΦ c)
        ∗ owes (c : Thread nD τ) (owedOf c (Rem t)) W
        ∗ ⌜(s, j) ∈ Sa ∧ grIdx 1 s j ∈ Sp ∧ grIdx 1 s j ∉ Sdone⌝
        ∗ ⌜∀ p : Pay, t ≤ p.ord → lvN (123 + 32 * 1 + 4 * s.val + j.val) < p.lvl⌝)
      ⊢ iprop((iprop(bigSep (Sa.erase (s, j)) (arrGrΦ c) ∗ bigSep (Sp.erase (grIdx 1 s j)) (posΦ c) ∗ bigSep (insert (grIdx 1 s j) Sdone) (doneΦ c)
              ∗ owns (c : Thread nD τ) (oS c (15 - s.val) j) fullShare (fin m ρ (posOf c + ⟨15 - s.val, by omega⟩) j)
              ∗ owes (c : Thread nD τ) (owedOf c (Rem t)) (insert (SemLoc.dma (sem8 cc0_scratch4 1 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch4 1 s j) src dst hs hd) k) Q) :=
  blk_wait m ρ K c (sem8 cc0_scratch4 1 s j) (by rw [sem8_val_gr]; omega) (grIdx 1 s j) (kcell_gr c 1 s j)
    (arrGrΦ c) (s, j) rfl _ ((payload_gr_arr m ρ c s j).trans (grArr_eq m ρ c s j)) (lvN (123 + 32 * 1 + 4 * s.val + j.val)) (congrArg lvN (sem8_val_gr 1 s j)) t hamt

/-- Gather leftwards, arrival: the finished strip of the chunk at distance `1 + s` has landed. -/
theorem blk_wait_gl_arr (c : Dev nD) (s : Fin 7) (j : Fin 4) (t : ℕ)
    {Sa : Finset (Fin 7 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sa (arrGlΦ c) ∗ bigSep Sp (posΦ c) ∗ bigSep Sdone (doneΦ c)
        ∗ owes (c : Thread nD τ) (owedOf c (Rem t)) W
        ∗ ⌜(s, j) ∈ Sa ∧ glIdx 1 s j ∈ Sp ∧ glIdx 1 s j ∉ Sdone⌝
        ∗ ⌜∀ p : Pay, t ≤ p.ord → lvN (187 + 28 * 1 + 4 * s.val + j.val) < p.lvl⌝)
      ⊢ iprop((iprop(bigSep (Sa.erase (s, j)) (arrGlΦ c) ∗ bigSep (Sp.erase (glIdx 1 s j)) (posΦ c) ∗ bigSep (insert (glIdx 1 s j) Sdone) (doneΦ c)
              ∗ owns (c : Thread nD τ) (oS c (1 + s.val) j) fullShare (fin m ρ (posOf c + ⟨1 + s.val, by have := s.isLt; omega⟩) j)
              ∗ owes (c : Thread nD τ) (owedOf c (Rem t)) (insert (SemLoc.dma (sem7 cc0_scratch5 1 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch5 1 s j) src dst hs hd) k) Q) :=
  blk_wait m ρ K c (sem7 cc0_scratch5 1 s j) (by rw [sem7_val_gl]; omega) (glIdx 1 s j) (kcell_gl c 1 s j)
    (arrGlΦ c) (s, j) rfl _ ((payload_gl_arr m ρ c s j).trans (glArr_eq m ρ c s j)) (lvN (187 + 28 * 1 + 4 * s.val + j.val)) (congrArg lvN (sem7_val_gl 1 s j)) t hamt

/-- Reduce leftwards, arrival: the sum so far has landed in the device's own slot; with it comes the strip of the sender's
    output buffer it was read from, kept at whatever it holds among the strips of the neighbour after the device. -/
theorem blk_wait_rl_arr (c : Dev nD) (s : Fin 8) (j : Fin 4) (t : ℕ)
    {Sa Sn : Finset (Fin 8 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sa (arrRlΦ c) ∗ bigSep Sp (posΦ c) ∗ bigSep Sdone (doneΦ c) ∗ bigSep Sn (nbRΦ c)
        ∗ owes (c : Thread nD τ) (owedOf c (Rem t)) W
        ∗ ⌜(s, j) ∈ Sa ∧ rlIdx 1 s j ∈ Sp ∧ rlIdx 1 s j ∉ Sdone ∧ (s, j) ∉ Sn⌝
        ∗ ⌜∀ p : Pay, t ≤ p.ord → lvN (3 + 32 * 1 + 4 * s.val + j.val) < p.lvl⌝)
      ⊢ iprop((iprop(bigSep (Sa.erase (s, j)) (arrRlΦ c) ∗ bigSep (Sp.erase (rlIdx 1 s j)) (posΦ c) ∗ bigSep (insert (rlIdx 1 s j) Sdone) (doneΦ c)
              ∗ bigSep (insert (s, j) Sn) (nbRΦ c)
              ∗ owns (c : Thread nD τ) (lS s j) fullShare (accL m ρ s.val (rgt c) j)
              ∗ owes (c : Thread nD τ) (owedOf c (Rem t)) (insert (SemLoc.dma (sem8 cc0_scratch2 1 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem8 cc0_scratch2 1 s j) src dst hs hd) k) Q) := by
  iintro ⟨#Hrec, #Hlev, Ha, Hp, Hdn, Hn, HO, %h, %hl⟩ Hk
  iapply (blk_wait m ρ K c (sem8 cc0_scratch2 1 s j) (by rw [sem8_val_rl]; omega) (rlIdx 1 s j) (kcell_rl c 1 s j)
      (arrRlΦ c) (s, j) rfl (rlArr m ρ c s j) (payload_rl_arr m ρ c s j) (lvN (3 + 32 * 1 + 4 * s.val + j.val)) (congrArg lvN (sem8_val_rl 1 s j)) t hamt) $$ [Ha Hp Hdn HO]
  · isplitr; · iexact Hrec
    isplitr; · iexact Hlev
    isplitl [Ha]; · iexact Ha
    isplitl [Hp]; · iexact Hp
    isplitl [Hdn]; · iexact Hdn
    isplitl [HO]; · iexact HO
    isplitr
    · ipureintro; exact ⟨h.1, h.2.1, h.2.2.1⟩
    · ipureintro; exact hl
  iintro ⟨Ha, Hp, Hdn, Hpay, HO⟩
  -- the payload's two halves: the landed strip, and the neighbour's strip it was read from
  ihave Hpay' := (show rlArr m ρ c s j ⊢ iprop(owns (c : Thread nD τ) (lS s j) fullShare (accL m ρ s.val (rgt c) j)
      ∗ owns (rgt c : Thread nD τ) (oS (rgt c) (8 + s.val) j) fullShare (accL m ρ s.val (rgt c) j)) from Entails.of_eq rfl) $$ Hpay
  icases Hpay' with ⟨Hbuf, Hnb⟩
  ihave Hnb' := (owns_forget (rgt c : Thread nD τ) (oS (rgt c) (8 + s.val) j) (accL m ρ s.val (rgt c) j)) $$ Hnb
  iapply Hk
  isplitl [Ha]; · iexact Ha
  isplitl [Hp]; · iexact Hp
  isplitl [Hdn]; · iexact Hdn
  isplitl [Hnb' Hn]
  · iapply (put Sn (s, j) h.2.2.2 (nbRΦ (F := F) c))
    isplitl [Hnb'] <;> iassumption
  isplitl [Hbuf]; · iexact Hbuf
  iexact HO

/-- Reduce rightwards, arrival: likewise, with the neighbour before the device. -/
theorem blk_wait_rr_arr (c : Dev nD) (s : Fin 7) (j : Fin 4) (t : ℕ)
    {Sa Sn : Finset (Fin 7 × Fin 4)} {Sp Sdone : Finset (Fin 241)} {W : Waits sig Unit}
    {sp sp' : Space} {sh sh' : Shape} {e e' : EltTy} {src : Memref sig .tc sp' sh' e'} {κ' : Kind} {dst : Memref sig κ' sp sh e}
    {hs : src.view.WordExact} {hd : dst.view.WordExact} (hamt : dst.view.dmaCredit = N16)
    {α : Type} {Q : α → sProp 𝕄} {k : PUnit → Prog (TpuEff nD τ sig (Elt F) Λ₀ .tc) α} :
    iprop(records m ρ K ∗ levAts L lv ∗ bigSep Sa (arrRrΦ c) ∗ bigSep Sp (posΦ c) ∗ bigSep Sdone (doneΦ c) ∗ bigSep Sn (nbLΦ c)
        ∗ owes (c : Thread nD τ) (owedOf c (Rem t)) W
        ∗ ⌜(s, j) ∈ Sa ∧ rrIdx 1 s j ∈ Sp ∧ rrIdx 1 s j ∉ Sdone ∧ (s, j) ∉ Sn⌝
        ∗ ⌜∀ p : Pay, t ≤ p.ord → lvN (67 + 28 * 1 + 4 * s.val + j.val) < p.lvl⌝)
      ⊢ iprop((iprop(bigSep (Sa.erase (s, j)) (arrRrΦ c) ∗ bigSep (Sp.erase (rrIdx 1 s j)) (posΦ c) ∗ bigSep (insert (rrIdx 1 s j) Sdone) (doneΦ c)
              ∗ bigSep (insert (s, j) Sn) (nbLΦ c)
              ∗ owns (c : Thread nD τ) (rS s j) fullShare (accR m ρ s.val (lft c) j)
              ∗ owes (c : Thread nD τ) (owedOf c (Rem t)) (insert (SemLoc.dma (sem7 cc0_scratch3 1 s j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sem7 cc0_scratch3 1 s j) src dst hs hd) k) Q) := by
  iintro ⟨#Hrec, #Hlev, Ha, Hp, Hdn, Hn, HO, %h, %hl⟩ Hk
  iapply (blk_wait m ρ K c (sem7 cc0_scratch3 1 s j) (by rw [sem7_val_rr]; omega) (rrIdx 1 s j) (kcell_rr c 1 s j)
      (arrRrΦ c) (s, j) rfl (rrArr m ρ c s j) (payload_rr_arr m ρ c s j) (lvN (67 + 28 * 1 + 4 * s.val + j.val)) (congrArg lvN (sem7_val_rr 1 s j)) t hamt) $$ [Ha Hp Hdn HO]
  · isplitr; · iexact Hrec
    isplitr; · iexact Hlev
    isplitl [Ha]; · iexact Ha
    isplitl [Hp]; · iexact Hp
    isplitl [Hdn]; · iexact Hdn
    isplitl [HO]; · iexact HO
    isplitr
    · ipureintro; exact ⟨h.1, h.2.1, h.2.2.1⟩
    · ipureintro; exact hl
  iintro ⟨Ha, Hp, Hdn, Hpay, HO⟩
  ihave Hpay' := (show rrArr m ρ c s j ⊢ iprop(owns (c : Thread nD τ) (rS s j) fullShare (accR m ρ s.val (lft c) j)
      ∗ owns (lft c : Thread nD τ) (oS (lft c) (7 - s.val) j) fullShare (accR m ρ s.val (lft c) j)) from Entails.of_eq rfl) $$ Hpay
  icases Hpay' with ⟨Hbuf, Hnb⟩
  ihave Hnb' := (owns_forget (lft c : Thread nD τ) (oS (lft c) (7 - s.val) j) (accR m ρ s.val (lft c) j)) $$ Hnb
  iapply Hk
  isplitl [Ha]; · iexact Ha
  isplitl [Hp]; · iexact Hp
  isplitl [Hdn]; · iexact Hdn
  isplitl [Hnb' Hn]
  · iapply (put Sn (s, j) h.2.2.2 (nbLΦ (F := F) c))
    isplitl [Hnb'] <;> iassumption
  isplitl [Hbuf]; · iexact Hbuf
  iexact HO

/-- info: 'Cert.Kernel.Hand.blk_wait' depends on axioms: [propext, Classical.choice, Quot.sound] -/
#guard_msgs in #print axioms blk_wait
/-- info: 'Cert.Kernel.Hand.blk_wait_rl_arr' depends on axioms: [propext, Classical.choice, Quot.sound] -/
#guard_msgs in #print axioms blk_wait_rl_arr
/-- info: 'Cert.Kernel.Hand.blk_wait_rr_arr' depends on axioms: [propext, Classical.choice, Quot.sound] -/
#guard_msgs in #print axioms blk_wait_rr_arr

end Cert.Kernel.Hand

end
-- ==== Proof.Bits.Forward.lean ====
/-
  The gather phase forwards what it receives. A strip that arrives is named by the distance of its chunk from the
  device's position; the transfer that sends it on names the same strip by the step number. The conversions between the
  two namings: an arrival as the source of the next transfer, the device's own finished strip as the two half-share sources
  of the first transfers, and a returned or finally arrived strip as a finished strip at its distance.
-/
import proofs.«900799_g7700000000000800_dist_gemm_ar_m1024_k1024_n1024_f32_gelu_v7x_i16_1_alg».proof.Proof.Bits.BlocksSend
import proofs.«900799_g7700000000000800_dist_gemm_ar_m1024_k1024_n1024_f32_gelu_v7x_i16_1_alg».proof.Proof.Bits.BlocksWait
import proofs.«900799_g7700000000000800_dist_gemm_ar_m1024_k1024_n1024_f32_gelu_v7x_i16_1_alg».proof.Proof.Bits.BlocksLocal

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A finished strip named by two equal distances. -/
theorem owns_dist_congr (c : Dev nD) (j : Fin 4) (a b : ℕ) (h : a = b) (ha : a < 16) (hb : b < 16) (q : PosShare TreeShare) :
    (owns (c : Thread nD τ) (oS c a j) q (fin m ρ (posOf c + ⟨a, ha⟩) j) : sProp 𝕄)
      = owns (c : Thread nD τ) (oS c b j) q (fin m ρ (posOf c + ⟨b, hb⟩) j) := by
  subst h; rfl

/-! ## What arrives is what is sent on -/

/-- Gather rightwards: the strip that arrived at step `s'` (the chunk at distance `15 - s'`) is the source of the transfer of
    step `s' + 1`. -/
theorem fwd_gr (c : Dev nD) (s' : Fin 8) (hs : s'.val + 1 < 8) (j : Fin 4) :
    (owns (c : Thread nD τ) (oS c (15 - s'.val) j) fullShare (fin m ρ (posOf c + ⟨15 - s'.val, by omega⟩) j) : sProp 𝕄)
      ⊢ owns (c : Thread nD τ) (oS c (16 - (⟨s'.val + 1, hs⟩ : Fin 8).val) j) (shG false (⟨s'.val + 1, hs⟩ : Fin 8).val)
          (fin m ρ (posOf c - ⟨(⟨s'.val + 1, hs⟩ : Fin 8).val % 16, Nat.mod_lt _ (by decide)⟩) j) := by
  show _ ⊢ grDep m ρ c ⟨s'.val + 1, hs⟩ j
  rw [grDep_succ m ρ c ⟨s'.val + 1, hs⟩ (Nat.succ_ne_zero _) j]
  exact Entails.of_eq (owns_dist_congr m ρ c j _ _ (by show 15 - s'.val = 16 - (s'.val + 1); omega) _ _ _)

/-- Gather leftwards: the strip that arrived at step `s'` (the chunk at distance `1 + s'`) is the source of the transfer of
    step `s' + 1`. -/
theorem fwd_gl (c : Dev nD) (s' : Fin 7) (hs : s'.val + 1 < 7) (j : Fin 4) :
    (owns (c : Thread nD τ) (oS c (1 + s'.val) j) fullShare (fin m ρ (posOf c + ⟨1 + s'.val, by omega⟩) j) : sProp 𝕄)
      ⊢ owns (c : Thread nD τ) (oS c (⟨s'.val + 1, hs⟩ : Fin 7).val j) (shG true (⟨s'.val + 1, hs⟩ : Fin 7).val)
          (fin m ρ (posOf c + ⟨(⟨s'.val + 1, hs⟩ : Fin 7).val % 16, Nat.mod_lt _ (by decide)⟩) j) := by
  show _ ⊢ glDep m ρ c ⟨s'.val + 1, hs⟩ j
  rw [glDep_succ m ρ c ⟨s'.val + 1, hs⟩ (Nat.succ_ne_zero _) j]
  exact Entails.of_eq (owns_dist_congr m ρ c j _ _ (by show 1 + s'.val = s'.val + 1; omega) _ _ _)

/-- The device's own finished strip is the source of both first transfers: its right half of the one travelling right, its
    left half of the one travelling left. -/
theorem fwd_own (c : Dev nD) (j : Fin 4) :
    (owns (c : Thread nD τ) (oS c 0 j) fullShare (finV m ρ c (0, j)) : sProp 𝕄)
      ⊢ iprop(owns (c : Thread nD τ) (oS c (16 - (0 : Fin 8).val) j) (shG false (0 : Fin 8).val)
            (fin m ρ (posOf c - ⟨(0 : Fin 8).val % 16, Nat.mod_lt _ (by decide)⟩) j)
          ∗ owns (c : Thread nD τ) (oS c (0 : Fin 7).val j) (shG true (0 : Fin 7).val)
            (fin m ρ (posOf c + ⟨(0 : Fin 7).val % 16, Nat.mod_lt _ (by decide)⟩) j)) := by
  show _ ⊢ iprop(grDep m ρ c 0 j ∗ glDep m ρ c 0 j)
  rw [grDep_zero, glDep_zero]
  iintro H
  ihave H' := (owns_share_split (c : Thread nD τ) (oS c 0 j) _) $$ H
  icases H' with ⟨HL, HR⟩
  isplitl [HR]
  · iexact HR
  · iexact HL

/-! ## What comes back, as a finished strip by its distance -/

/-- The departure of the right-travelling step `s ≥ 1` returns the strip of the chunk at distance `a = 16 - s`. -/
theorem ret_gr (c : Dev nD) (s : Fin 8) (hs : s.val ≠ 0) (j : Fin 4) (a : Fin 16) (ha : a.val = 16 - s.val) :
    (grDep m ρ c s j : sProp 𝕄) ⊢ owns (c : Thread nD τ) (oS c a.val j) fullShare (finV m ρ c (a, j)) := by
  obtain ⟨av, hlt⟩ := a
  have ha' : av = 16 - s.val := ha
  subst ha'
  exact Entails.of_eq (grDep_succ m ρ c s hs j)

/-- The departure of the left-travelling step `s ≥ 1` returns the strip of the chunk at distance `a = s`. -/
theorem ret_gl (c : Dev nD) (s : Fin 7) (hs : s.val ≠ 0) (j : Fin 4) (a : Fin 16) (ha : a.val = s.val) :
    (glDep m ρ c s j : sProp 𝕄) ⊢ owns (c : Thread nD τ) (oS c a.val j) fullShare (finV m ρ c (a, j)) := by
  obtain ⟨av, hlt⟩ := a
  have ha' : av = s.val := ha
  subst ha'
  exact Entails.of_eq (glDep_succ m ρ c s hs j)

/-- The two first departures return the device's own strip whole. -/
theorem ret_own (c : Dev nD) (j : Fin 4) :
    iprop(glDep m ρ c 0 j ∗ grDep m ρ c 0 j) ⊢ owns (c : Thread nD τ) (oS c (0 : Fin 16).val j) fullShare (finV m ρ c (0, j)) :=
  own_chunk_join m ρ c j

/-- An arrival of the right-travelling (left-travelling) gather, as the finished strip at its distance `a`. -/
theorem arr_gr (c : Dev nD) (s' : Fin 8) (j : Fin 4) (a : Fin 16) (ha : a.val = 15 - s'.val) :
    (owns (c : Thread nD τ) (oS c (15 - s'.val) j) fullShare (fin m ρ (posOf c + ⟨15 - s'.val, by omega⟩) j) : sProp 𝕄)
      ⊢ owns (c : Thread nD τ) (oS c a.val j) fullShare (finV m ρ c (a, j)) := by
  obtain ⟨av, hlt⟩ := a
  have ha' : av = 15 - s'.val := ha
  subst ha'
  exact .rfl
theorem arr_gl (c : Dev nD) (s' : Fin 7) (j : Fin 4) (a : Fin 16) (ha : a.val = 1 + s'.val) :
    (owns (c : Thread nD τ) (oS c (1 + s'.val) j) fullShare (fin m ρ (posOf c + ⟨1 + s'.val, by have := s'.isLt; omega⟩) j) : sProp 𝕄)
      ⊢ owns (c : Thread nD τ) (oS c a.val j) fullShare (finV m ρ c (a, j)) := by
  obtain ⟨av, hlt⟩ := a
  have ha' : av = 1 + s'.val := ha
  subst ha'
  exact .rfl

end Cert.Kernel.Hand
end
-- ==== Proof.Bits.Ending.lean ====
/-
  The last step of a device's body: from the big conjunctions the walk has filled — every transfer cell past its round,
  every output strip at its final value, every strip of the receive buffers back — and nothing left to pay, to the
  resources the body is to leave.
-/
import proofs.«900799_g7700000000000800_dist_gemm_ar_m1024_k1024_n1024_f32_gelu_v7x_i16_1_alg».proof.Proof.Bits.BlocksLocal
import proofs.«900799_g7700000000000800_dist_gemm_ar_m1024_k1024_n1024_f32_gelu_v7x_i16_1_alg».proof.Proof.Bits.Order

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 241 → ℕ)

/-- Once every payment is made, every transfer cell waited for, every output strip at its final value and every strip of
    the receive buffers back, the device holds what its body is to leave: the receive buffers whole, the semaphores at zero,
    nothing owed, the two staged arguments untouched and the output buffer at the result. -/
theorem ending (c : Dev nD) (W : Waits sig Unit) :
    iprop(records m ρ K ∗ bigSep (Finset.univ.erase (0 : Fin 241)) (doneΦ (F := F) c) ∗ bigSep Finset.univ (outΦ c (finV m ρ c))
        ∗ bigSep Finset.univ (lbΦ (F := F) c) ∗ bigSep Finset.univ (rbΦ (F := F) c)
        ∗ owes (c : Thread nD τ) (owedOf c (Rem 122)) W
        ∗ ((Memref.whole cc0_stg0_0 : Memref sig .tc .vmem S1024x64 .f32).view.loc (c : Thread nD τ) ↦{fullShare} xstg m ρ c)
        ∗ ((Memref.whole cc0_stg1_0 : Memref sig .tc .vmem S64x1024 .f32).view.loc (c : Thread nD τ) ↦{fullShare} wstg m ρ c))
      ⊢ (iprop(|={Set.univ}=> (scratch c ∗ semsZero c ∗ (∃ W', owes (c : Thread nD τ) 0 W')
            ∗ ((Memref.whole cc0_stg0_0 : Memref sig .tc .vmem S1024x64 .f32).view.loc (c : Thread nD τ) ↦{fullShare} xstg m ρ c)
            ∗ ((Memref.whole cc0_stg1_0 : Memref sig .tc .vmem S64x1024 .f32).view.loc (c : Thread nD τ) ↦{fullShare} wstg m ρ c)
            ∗ ((Memref.whole cc0_stg2_0 : Memref sig .tc .vmem S1024x1024 .f32).view.loc (c : Thread nD τ) ↦{fullShare} outFinal m ρ))) : sProp 𝕄) := by
  rw [Rem_end, owedOf_empty]
  iintro ⟨#Hrec, Hdone, Hout, Hlb, Hrb, HO, Hx, Hw⟩
  imod (fin_done m ρ K c) $$ [Hdone] with Hsz
  · isplitr
    · iexact Hrec
    · iexact Hdone
  imodintro
  isplitl [Hlb Hrb]
  · iapply (fin_scratch c)
    isplitl [Hlb]
    · iexact Hlb
    · iexact Hrb
  isplitl [Hsz]
  · iexact Hsz
  isplitl [HO]
  · iexists W; iexact HO
  isplitl [Hx]
  · iexact Hx
  isplitl [Hw]
  · iexact Hw
  iapply (fin_out m ρ c)
  iexact Hout

end Cert.Kernel.Hand
end
-- ==== Proof.Bits.Body.lean ====
/-
  The body of the ring all-reduce on one device, walked effect by effect from the device's own resources to what it
  leaves: the product's store, the handshake on the barrier semaphore, then for each ring step and strip the receive,
  the add and the onward transfer of the reduce phase, the GELU of the device's own chunk, and the transfers of the
  gather phase, each wait at a level below everything still owed. Each step is one of the block lemmas, taken in the
  order of the kernel's text.
-/
import proofs.«900799_g7700000000000800_dist_gemm_ar_m1024_k1024_n1024_f32_gelu_v7x_i16_1_alg».proof.Proof.Bits.BlocksLocal
import proofs.«900799_g7700000000000800_dist_gemm_ar_m1024_k1024_n1024_f32_gelu_v7x_i16_1_alg».proof.Proof.Bits.Order
import proofs.«900799_g7700000000000800_dist_gemm_ar_m1024_k1024_n1024_f32_gelu_v7x_i16_1_alg».proof.Proof.Bits.DevArith
import proofs.«900799_g7700000000000800_dist_gemm_ar_m1024_k1024_n1024_f32_gelu_v7x_i16_1_alg».proof.Proof.Bits.BlocksSend
import proofs.«900799_g7700000000000800_dist_gemm_ar_m1024_k1024_n1024_f32_gelu_v7x_i16_1_alg».proof.Proof.Bits.BlocksWait
import proofs.«900799_g7700000000000800_dist_gemm_ar_m1024_k1024_n1024_f32_gelu_v7x_i16_1_alg».proof.Proof.Bits.Forward
import proofs.«900799_g7700000000000800_dist_gemm_ar_m1024_k1024_n1024_f32_gelu_v7x_i16_1_alg».proof.Proof.Bits.Ending

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The barrier handshake's cells -/

theorem bar_cellL (c : Dev nD) : Pay.barL.cell c = barCell (lft c) := rfl
theorem bar_cellR (c : Dev nD) : Pay.barR.cell c = barCell (rgt c) := rfl
theorem bar_amtL : Pay.barL.amt = 1 := rfl
theorem bar_amtR : Pay.barR.amt = 1 := rfl

theorem bar_inv (K : Dev nD × Fin 241 → ℕ) (d : Dev nD) : records m ρ K ⊢ cellInv ER (ringRd m ρ) (K (d, 0)) (barCell d) :=
  records_inv m ρ K (d, 0)
theorem bar_reached (K : Dev nD × Fin 241 → ℕ) (d : Dev nD) : records m ρ K ⊢ reached ER (barCell d) 0 :=
  records_reached m ρ K (d, 0)

/-- What the signal to the neighbour before hands it: this device's buffer for the chunks travelling right; -/
theorem bar_pay_true_lft (c : Dev nD) : (ringRd (F := F) m ρ).payload (barCell (lft c)) 0 true
    = iprop(∃ f, ((Memref.whole cc0_scratch1 : Memref sig .tc .vmem S7x64x1024 .f32).view.loc (c : Thread nD τ)) ↦{fullShare} f) := by
  rw [payload_bar_true]; unfold barT; rw [rgt_lft]
/-- and to the neighbour after: its buffer for the chunks travelling left. -/
theorem bar_pay_false_rgt (c : Dev nD) : (ringRd (F := F) m ρ).payload (barCell (rgt c)) 0 false
    = iprop(∃ f, ((Memref.whole cc0_scratch0 : Memref sig .tc .vmem S8x64x1024 .f32).view.loc (c : Thread nD τ)) ↦{fullShare} f) := by
  rw [payload_bar_false]; unfold barF; rw [lft_rgt]

attribute [local sl_rounds] duties_bar amount_bar expect_bar bar_pay_true_lft bar_pay_false_rgt
attribute [local sl_canon] dev1_eq dev2_eq

/-- The owner's positions: the barrier cell's, and the 240 transfer cells'. -/
theorem pos_split_bar (c : Dev nD) :
    (bigSep Finset.univ fun k : Fin 241 => (atPos ER (kcell (c, k)) 0 ∅ 0 : sProp 𝕄))
      = iprop(atPos ER (barCell c) 0 ∅ 0 ∗ bigSep (Finset.univ.erase (0 : Fin 241)) (posΦ (F := F) c)) :=
  (bigSep_univ_split (0 : Fin 241)).trans rfl

/-- Membership in a set given by erasures and insertions of literals. -/
macro "imemp" : tactic => `(tactic| (first | (simp (config := {decide := true}) only [Finset.mem_erase, Finset.mem_insert, Finset.mem_univ, Finset.notMem_empty, _root_.and_true, _root_.true_and, _root_.and_self, _root_.or_true, _root_.true_or, _root_.or_false, _root_.false_or, not_or, ne_eq, Prod.mk.injEq, not_false_eq_true, not_true_eq_false]; first | done | decide) | decide))
/-- The same as the last conjunct of a premise. -/
macro "imemq" : tactic => `(tactic| (ipureintro; imemp))

/-- Everything is owed at the start. -/
theorem owed_start (c : Dev nD) : owedOf c Finset.univ = owedOf c (Rem 0) := by rw [Rem_zero]

/-- Owning a memref at a value is owning it at an equal value. -/
theorem owns_val (d : Thread nD τ) {sp : Space} {sh : Shape} {e : EltTy} (M : Memref sig d.2.kind sp sh e) {q : PosShare TreeShare}
    {X Y : sh.Idx → Elt F e} (h : X = Y) : (owns d M q X : sProp 𝕄) ⊢ owns d M q Y := by subst h; exact .rfl

/-- One of the device's output strips, its distance given as a number. -/
theorem out_strip (c : Dev nD) (V : StripV F) (a : Fin 16) (j : Fin 4) (n : ℕ) (hn : a.val = n) :
    (outΦ c V (a, j) : sProp 𝕄) ⊢ owns (c : Thread nD τ) (oS c n j) fullShare (V (a, j)) := by
  subst hn; exact .rfl

/-- What a receive-add stores: the own strip plus the landed strip, once the loaded vector is known to be that strip. -/
theorem add_val (X Y : S16x1024.Idx → Elt F .f32) (V : S1x16x1024.Idx → Elt F .f32)
    (hV : shapeCast S16x1024 V shapeCasts_S1x16x1024_S16x1024 = Y) : k0_pay2 X V = addS X Y := by
  rw [pay2_eq, hV]

/-- A part that has returned into what follows it is what follows it. -/
theorem wp_ret_bind (c : Dev nD) {α β : Type} (a : α) (f : α → Prog (TpuEff nD τ sig (Elt F) Λ₀ .tc) β) (Q : β → sProp 𝕄) :
    wp frame (wpE (defs₀ (F := F)) 𝒱₀ (c : Thread nD τ) none) Set.univ (f a) Q
      ⊢ wp frame (wpE (defs₀ (F := F)) 𝒱₀ (c : Thread nD τ) none) Set.univ ((Prog.ret a).bind f) Q :=
  BI.Entails.refl _

/-- A family held over a set is the family held over an equal set. -/
theorem fam_congr {I : Type} (Φ : I → sProp 𝕄) {S T : Finset I} (h : S = T) : bigSep S Φ ⊢ bigSep T Φ := by
  subst h; exact .rfl

/-- A family of which nothing is held yet. -/
theorem with_empty {I : Type} (Φ : I → sProp 𝕄) (P : sProp 𝕄) : P ⊢ iprop(P ∗ bigSep (∅ : Finset I) Φ) := by
  rw [bigSep_empty]; exact (BI.sep_emp).2

/-- The product's store leaves the partial product in the output buffer. -/
theorem matmul_out (c : Dev nD) (fo : Buf (Elt F) ((c : Thread nD τ).loc cc0_stg2_0)) :
    ((Memref.whole cc0_stg2_0 : Memref sig .tc .vmem S1024x1024 .f32).view.loc (c : Thread nD τ) ↦{fullShare}
        (Memref.whole cc0_stg2_0 : Memref sig .tc .vmem S1024x1024 .f32).view.writes (Elt F) fo
          [⟨Rect.unit (s := S1024x1024) ![0, 0] S1024x1024.size Facts₀.inb_S1024x1024_S1024x1024_0_0,
            k0_pay1 (View.readAt (Elt F) (Memref.whole cc0_stg0_0 : Memref sig .tc .vmem S1024x64 .f32).view (Rect.unit (s := S1024x64) ![0, 0] S1024x64.size Facts₀.inb_S1024x64_S1024x64_0_0).toLoadRect (xstg m ρ c))
              (View.readAt (Elt F) (Memref.whole cc0_stg1_0 : Memref sig .tc .vmem S64x1024 .f32).view (Rect.unit (s := S64x1024) ![0, 0] S64x1024.size Facts₀.inb_S64x1024_S64x1024_0_0).toLoadRect (wstg m ρ c))⟩])
      ⊢ ((Memref.whole cc0_stg2_0 : Memref sig .tc .vmem S1024x1024 .f32).view.loc (c : Thread nD τ) ↦{fullShare} part m ρ c : sProp 𝕄) := by
  rw [part_of_writes]

/-- The output buffer at the partial product, cut into its sixty-four strips. -/
theorem out_split_part (c : Dev nD) :
    ((Memref.whole cc0_stg2_0 : Memref sig .tc .vmem S1024x1024 .f32).view.loc (c : Thread nD τ) ↦{fullShare} part m ρ c)
      ⊢ (bigSep Finset.univ (outΦ c (partV m ρ c)) : sProp 𝕄) := out_split c (part m ρ c)

set_option maxHeartbeats 16000000 in
/-- THE BODY, from the device's own resources to what it leaves. -/
theorem sound_body (K : Dev nD × Fin 241 → ℕ) (c : Dev nD) (Kt : PUnit → sProp 𝕄) (W : Waits sig Unit)
    (fo : Buf (Elt F) ((c : Thread nD τ).loc cc0_stg2_0)) (fl : Buf (Elt F) ((c : Thread nD τ).loc cc0_scratch0)) (fr : Buf (Elt F) ((c : Thread nD τ).loc cc0_scratch1)) :
    iprop(records m ρ K ∗ posOwn c ∗ payToks c ∗ creds c ∗ levAts L lv
      ∗ ((Memref.whole cc0_stg0_0 : Memref sig .tc .vmem S1024x64 .f32).view.loc (c : Thread nD τ) ↦{fullShare} xstg m ρ c)
      ∗ ((Memref.whole cc0_stg1_0 : Memref sig .tc .vmem S64x1024 .f32).view.loc (c : Thread nD τ) ↦{fullShare} wstg m ρ c)
      ∗ ((Memref.whole cc0_stg2_0 : Memref sig .tc .vmem S1024x1024 .f32).view.loc (c : Thread nD τ) ↦{fullShare} fo)
      ∗ ((Memref.whole cc0_scratch0 : Memref sig .tc .vmem S8x64x1024 .f32).view.loc (c : Thread nD τ) ↦{fullShare} fl)
      ∗ ((Memref.whole cc0_scratch1 : Memref sig .tc .vmem S7x64x1024 .f32).view.loc (c : Thread nD τ) ↦{fullShare} fr)
      ∗ owes (c : Thread nD τ) (owedOf c Finset.univ) W
      ∗ (iprop(scratch c ∗ semsZero c ∗ (∃ W', owes (c : Thread nD τ) 0 W')
          ∗ ((Memref.whole cc0_stg0_0 : Memref sig .tc .vmem S1024x64 .f32).view.loc (c : Thread nD τ) ↦{fullShare} xstg m ρ c)
          ∗ ((Memref.whole cc0_stg1_0 : Memref sig .tc .vmem S64x1024 .f32).view.loc (c : Thread nD τ) ↦{fullShare} wstg m ρ c)
          ∗ ((Memref.whole cc0_stg2_0 : Memref sig .tc .vmem S1024x1024 .f32).view.loc (c : Thread nD τ) ↦{fullShare} outFinal m ρ)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5) Kt := by
  have hmayB : (levAts L lv : sProp 𝕄) ⊢ MayWait (c : Thread nD τ) (.reg barS) () (owedOf c (Rem 2)) :=
    may_of_Rem c (barCell c) 1 (lv_bar c) 2 (by rw [forall_pay]; decide)
  unfold posOwn payToks creds
  rw [pos_split_bar c, owed_start c, owedOf_erase c (Rem 0) Pay.barL (mem_Rem.mpr (Nat.zero_le _)), Rem_erase 0 Pay.barL rfl,
    owedOf_erase c (Rem 1) Pay.barR (mem_Rem.mpr (by decide)), Rem_erase 1 Pay.barR rfl, bar_cellL, bar_cellR, bar_amtL, bar_amtR]
  iintro ⟨#Hrec, ⟨Hatb, Hpos⟩, ⟨HtL, HtR, Htrl, Htrr, Htgr, Htgl⟩, ⟨Hcb, Hcrl, Hcrr, Hcgr, Hcgl⟩, #Hlev, Hx, Hw, Hout, Hl, Hr, HO, Hk⟩
  -- the three barrier cells' invariants, the neighbours' round-0 facts, and the barrier wait's level
  ihave #HIb := (bar_inv m ρ K c) $$ Hrec
  ihave #HIbL := (bar_inv m ρ K (lft c)) $$ Hrec
  ihave #HIbR := (bar_inv m ρ K (rgt c)) $$ Hrec
  ihave #HrL := (bar_reached m ρ K (lft c)) $$ Hrec
  ihave #HrR := (bar_reached m ρ K (rgt c)) $$ Hrec
  ihave #HmayB := hmayB $$ Hlev
  -- the product, its store, the two signals and the wait
  sl_exec
  -- the neighbours' receive buffers, and all three buffers cut into strips
  ihave Hp := (bar_open m ρ c) $$ Hatb_pay1
  icases Hp with ⟨⟨%fL, HL⟩, ⟨%fR, HR⟩⟩
  ihave HLs := (lbuf_split (F := F) (lft c) fL) $$ HL
  ihave HRs := (rbuf_split (F := F) (rgt c) fR) $$ HR
  ihave Hout := (matmul_out m ρ c fo) $$ Hout
  ihave Hos := (out_split_part m ρ c) $$ Hout
  -- the families of which nothing is held yet
  ihave He := (with_empty (depRlΦ (F := F) c) _) $$ HO; icases He with ⟨HO, Hdl⟩
  ihave He := (with_empty (depRrΦ (F := F) c) _) $$ HO; icases He with ⟨HO, Hdr⟩
  ihave He := (with_empty (depGrΦ (F := F) c) _) $$ HO; icases He with ⟨HO, Hdgr⟩
  ihave He := (with_empty (depGlΦ (F := F) c) _) $$ HO; icases He with ⟨HO, Hdgl⟩
  ihave He := (with_empty (doneΦ (F := F) c) _) $$ HO; icases He with ⟨HO, Hdone⟩
  ihave He := (with_empty (nbRΦ (F := F) c) _) $$ HO; icases He with ⟨HO, Hnr⟩
  ihave He := (with_empty (nbLΦ (F := F) c) _) $$ HO; icases He with ⟨HO, Hnl⟩
  ihave He := (with_empty (lbΦ (F := F) c) _) $$ HO; icases He with ⟨HO, Hlb⟩
  ihave He := (with_empty (rbΦ (F := F) c) _) $$ HO; icases He with ⟨HO, Hrb⟩
  ihave He := (with_empty (outΦ c (finV m ρ c)) _) $$ HO; icases He with ⟨HO, Hfin⟩
  -- reduce leftwards, step 0, strip 0: the strip of the partial product at distance 8 leaves for the neighbour before
  iapply (blk_rl_send0 m ρ K c (0 : Fin 8) (0 : Fin 4) (8 : Fin 16) 2 _ (dev3_eq c _) (off1_eq_far c (0 : Fin 8) (0 : Fin 4)) (partV m ρ c) rfl) $$ [Hos HLs Htrl Hdl HO]
  · iframe # ∗
    imemq
  iintro ⟨Hos, HLs, Htrl, Hdl, HO⟩
  first | iapply (wp_ret_bind c _ _ _) | skip
  try sl_exec
  -- reduce rightwards, step 0, strip 0: the strip of the partial product at distance 7 leaves for the neighbour after
  iapply (blk_rr_send0 m ρ K c (0 : Fin 7) (0 : Fin 4) (7 : Fin 16) 3 _ (dev4_eq c _) (off2_eq c (0 : Fin 7) (0 : Fin 4)) (partV m ρ c) rfl) $$ [Hos HRs Htrr Hdr HO]
  · iframe # ∗
    imemq
  iintro ⟨Hos, HRs, Htrr, Hdr, HO⟩
  first | iapply (wp_ret_bind c _ _ _) | skip
  try sl_exec
  -- reduce leftwards, step 0, strip 1: the strip of the partial product at distance 8 leaves for the neighbour before
  iapply (blk_rl_send0 m ρ K c (0 : Fin 8) (1 : Fin 4) (8 : Fin 16) 4 _ (dev5_eq c _) (off1_eq_far c (0 : Fin 8) (1 : Fin 4)) (partV m ρ c) rfl) $$ [Hos HLs Htrl Hdl HO]
  · iframe # ∗
    imemq
  iintro ⟨Hos, HLs, Htrl, Hdl, HO⟩
  first | iapply (wp_ret_bind c _ _ _) | skip
  try sl_exec
  -- reduce rightwards, step 0, strip 1: the strip of the partial product at distance 7 leaves for the neighbour after
  iapply (blk_rr_send0 m ρ K c (0 : Fin 7) (1 : Fin 4) (7 : Fin 16) 5 _ (dev6_eq c _) (off2_eq c (0 : Fin 7) (1 : Fin 4)) (partV m ρ c) rfl) $$ [Hos HRs Htrr Hdr HO]
  · iframe # ∗
    imemq
  iintro ⟨Hos, HRs, Htrr, Hdr, HO⟩
  first | iapply (wp_ret_bind c _ _ _) | skip
  try sl_exec
  -- reduce leftwards, step 0, strip 2: the strip of the partial product at distance 8 leaves for the neighbour before
  iapply (blk_rl_send0 m ρ K c (0 : Fin 8) (2 : Fin 4) (8 : Fin 16) 6 _ (dev7_eq c _) (off1_eq_far c (0 : Fin 8) (2 : Fin 4)) (partV m ρ c) rfl) $$ [Hos HLs Htrl Hdl HO]
  · iframe # ∗
    imemq
  iintro ⟨Hos, HLs, Htrl, Hdl, HO⟩
  first | iapply (wp_ret_bind c _ _ _) | skip
  try sl_exec
  -- reduce rightwards, step 0, strip 2: the strip of the partial product at distance 7 leaves for the neighbour after
  iapply (blk_rr_send0 m ρ K c (0 : Fin 7) (2 : Fin 4) (7 : Fin 16) 7 _ (dev8_eq c _) (off2_eq c (0 : Fin 7) (2 : Fin 4)) (partV m ρ c) rfl) $$ [Hos HRs Htrr Hdr HO]
  · iframe # ∗
    imemq
  iintro ⟨Hos, HRs, Htrr, Hdr, HO⟩
  first | iapply (wp_ret_bind c _ _ _) | skip
  try sl_exec
  -- reduce leftwards, step 0, strip 3: the strip of the partial product at distance 8 leaves for the neighbour before
  iapply (blk_rl_send0 m ρ K c (0 : Fin 8) (3 : Fin 4) (8 : Fin 16) 8 _ (dev9_eq c _) (off1_eq_far c (0 : Fin 8) (3 : Fin 4)) (partV m ρ c) rfl) $$ [Hos HLs Htrl Hdl HO]
  · iframe # ∗
    imemq
  iintro ⟨Hos, HLs, Htrl, Hdl, HO⟩
  first | iapply (wp_ret_bind c _ _ _) | skip
  try sl_exec
  -- reduce rightwards, step 0, strip 3: the strip of the partial product at distance 7 leaves for the neighbour after
  iapply (blk_rr_send0 m ρ K c (0 : Fin 7) (3 : Fin 4) (7 : Fin 16) 9 _ (dev10_eq c _) (off2_eq c (0 : Fin 7) (3 : Fin 4)) (partV m ρ c) rfl) $$ [Hos HRs Htrr Hdr HO]
  · iframe # ∗
    imemq
  iintro ⟨Hos, HRs, Htrr, Hdr, HO⟩
  first | iapply (wp_ret_bind c _ _ _) | skip
  try sl_exec
  -- the left-travelling step 0, strip 0 has landed: the running sum of the devices after
  iapply (blk_wait_rl_arr m ρ K c (0 : Fin 8) (0 : Fin 4) 10 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 0 is added into the own strip at distance 9, strip 0
  ihave Hs := (take _ ((9 : Fin 16), (0 : Fin 4)) (by imemp) (outΦ c (partV m ρ c))) $$ Hos
  icases Hs with ⟨Hst, Hos⟩
  ihave Hst := (out_strip c (partV m ρ c) (9 : Fin 16) (0 : Fin 4) 9 rfl) $$ Hst
  iapply (wp_addL c 9 (0 : Fin 8) (0 : Fin 4) k0_pay2 (fun _ _ => rfl) (off3_eq c (0 : Fin 8) (0 : Fin 4))) $$ [Hst Hbuf]
  · isplitl [Hst]
    · iexact Hst
    · iexact Hbuf
  iintro ⟨Hst, Hbuf⟩
  ihave Hlb := (blk_lb_put (F := F) c (0 : Fin 8) (0 : Fin 4) _ _) $$ [Hbuf Hlb]
  · iframe
    all_goals imemq
  first | iapply (wp_ret_bind c _ _ _) | skip
  try sl_exec
  -- reduce leftwards, step 1, strip 0: the running sum at distance 9 leaves for the neighbour before
  iapply (blk_rl_send m ρ K c (1 : Fin 8) (0 : Fin 4) 10 _ (dev11_eq c _) (off1_eq_far c (1 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 0, strip 0 has landed: the running sum of the devices before
  iapply (blk_wait_rr_arr m ρ K c (0 : Fin 7) (0 : Fin 4) 11 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 0 is added into the own strip at distance 6, strip 0
  ihave Hs := (take _ ((6 : Fin 16), (0 : Fin 4)) (by imemp) (outΦ c (partV m ρ c))) $$ Hos
  icases Hs with ⟨Hst, Hos⟩
  ihave Hst := (out_strip c (partV m ρ c) (6 : Fin 16) (0 : Fin 4) 6 rfl) $$ Hst
  iapply (wp_addR c 6 (0 : Fin 7) (0 : Fin 4) k0_pay2 (fun _ _ => rfl) (off4_eq c (0 : Fin 7) (0 : Fin 4))) $$ [Hst Hbuf]
  · isplitl [Hst]
    · iexact Hst
    · iexact Hbuf
  iintro ⟨Hst, Hbuf⟩
  ihave Hrb := (blk_rb_put (F := F) c (0 : Fin 7) (0 : Fin 4) _ _) $$ [Hbuf Hrb]
  · iframe
    all_goals imemq
  first | iapply (wp_ret_bind c _ _ _) | skip
  try sl_exec
  -- reduce rightwards, step 1, strip 0: the running sum at distance 6 leaves for the neighbour after
  iapply (blk_rr_send m ρ K c (1 : Fin 7) (0 : Fin 4) 11 _ (dev12_eq c _) (off2_eq c (1 : Fin 7) (0 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 0, strip 1 has landed: the running sum of the devices after
  iapply (blk_wait_rl_arr m ρ K c (0 : Fin 8) (1 : Fin 4) 12 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 0 is added into the own strip at distance 9, strip 1
  ihave Hs := (take _ ((9 : Fin 16), (1 : Fin 4)) (by imemp) (outΦ c (partV m ρ c))) $$ Hos
  icases Hs with ⟨Hst, Hos⟩
  ihave Hst := (out_strip c (partV m ρ c) (9 : Fin 16) (1 : Fin 4) 9 rfl) $$ Hst
  iapply (wp_addL c 9 (0 : Fin 8) (1 : Fin 4) k0_pay2 (fun _ _ => rfl) (off3_eq c (0 : Fin 8) (1 : Fin 4))) $$ [Hst Hbuf]
  · isplitl [Hst]
    · iexact Hst
    · iexact Hbuf
  iintro ⟨Hst, Hbuf⟩
  ihave Hlb := (blk_lb_put (F := F) c (0 : Fin 8) (1 : Fin 4) _ _) $$ [Hbuf Hlb]
  · iframe
    all_goals imemq
  first | iapply (wp_ret_bind c _ _ _) | skip
  try sl_exec
  -- reduce leftwards, step 1, strip 1: the running sum at distance 9 leaves for the neighbour before
  iapply (blk_rl_send m ρ K c (1 : Fin 8) (1 : Fin 4) 12 _ (dev13_eq c _) (off1_eq_far c (1 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 0, strip 1 has landed: the running sum of the devices before
  iapply (blk_wait_rr_arr m ρ K c (0 : Fin 7) (1 : Fin 4) 13 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 0 is added into the own strip at distance 6, strip 1
  ihave Hs := (take _ ((6 : Fin 16), (1 : Fin 4)) (by imemp) (outΦ c (partV m ρ c))) $$ Hos
  icases Hs with ⟨Hst, Hos⟩
  ihave Hst := (out_strip c (partV m ρ c) (6 : Fin 16) (1 : Fin 4) 6 rfl) $$ Hst
  iapply (wp_loadO c 6 (1 : Fin 4) (off4_eq c (0 : Fin 7) (1 : Fin 4))) $$ Hst; iintro Hst
  iapply (wp_loadR c (0 : Fin 7) (1 : Fin 4)) $$ Hbuf; iintro %V %hV Hbuf
  iapply (wp_loadO c 6 (1 : Fin 4) (off4_eq c (0 : Fin 7) (1 : Fin 4))) $$ Hst; iintro Hst
  first | iapply (wp_ret_bind c _ _ _) | skip
  try sl_exec
  iapply (wp_storeO c 6 (1 : Fin 4) (off4_eq c (0 : Fin 7) (1 : Fin 4))) $$ Hst; iintro Hst
  ihave Hst := (owns_val (c : Thread nD τ) (oS c 6 (1 : Fin 4)) (Y := addS _ (accR m ρ ((0 : Fin 7)).val (lft c) (1 : Fin 4))) (by exact add_val _ _ V hV)) $$ Hst
  ihave Hrb := (blk_rb_put (F := F) c (0 : Fin 7) (1 : Fin 4) _ _) $$ [Hbuf Hrb]
  · iframe
    all_goals imemq
  first | iapply (wp_ret_bind c _ _ _) | skip
  try sl_exec
  -- reduce rightwards, step 1, strip 1: the running sum at distance 6 leaves for the neighbour after
  iapply (blk_rr_send m ρ K c (1 : Fin 7) (1 : Fin 4) 13 _ (dev14_eq c _) (off2_eq c (1 : Fin 7) (1 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 0, strip 2 has landed: the running sum of the devices after
  iapply (blk_wait_rl_arr m ρ K c (0 : Fin 8) (2 : Fin 4) 14 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 0 is added into the own strip at distance 9, strip 2
  ihave Hs := (take _ ((9 : Fin 16), (2 : Fin 4)) (by imemp) (outΦ c (partV m ρ c))) $$ Hos
  icases Hs with ⟨Hst, Hos⟩
  ihave Hst := (out_strip c (partV m ρ c) (9 : Fin 16) (2 : Fin 4) 9 rfl) $$ Hst
  iapply (wp_loadO c 9 (2 : Fin 4) (off3_eq c (0 : Fin 8) (2 : Fin 4))) $$ Hst; iintro Hst
  iapply (wp_loadL c (0 : Fin 8) (2 : Fin 4)) $$ Hbuf; iintro %V %hV Hbuf
  first | iapply (wp_ret_bind c _ _ _) | skip
  try sl_exec
  iapply (wp_loadO c 9 (2 : Fin 4) (off3_eq c (0 : Fin 8) (2 : Fin 4))) $$ Hst; iintro Hst
  iapply (wp_storeO c 9 (2 : Fin 4) (off3_eq c (0 : Fin 8) (2 : Fin 4))) $$ Hst; iintro Hst
  ihave Hst := (owns_val (c : Thread nD τ) (oS c 9 (2 : Fin 4)) (Y := addS _ (accL m ρ ((0 : Fin 8)).val (rgt c) (2 : Fin 4))) (by exact add_val _ _ V hV)) $$ Hst
  ihave Hlb := (blk_lb_put (F := F) c (0 : Fin 8) (2 : Fin 4) _ _) $$ [Hbuf Hlb]
  · iframe
    all_goals imemq
  first | iapply (wp_ret_bind c _ _ _) | skip
  try sl_exec
  -- reduce leftwards, step 1, strip 2: the running sum at distance 9 leaves for the neighbour before
  iapply (blk_rl_send m ρ K c (1 : Fin 8) (2 : Fin 4) 14 _ (dev15_eq c _) (off1_eq_far c (1 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 0, strip 2 has landed: the running sum of the devices before
  iapply (blk_wait_rr_arr m ρ K c (0 : Fin 7) (2 : Fin 4) 15 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 0 is added into the own strip at distance 6, strip 2
  ihave Hs := (take _ ((6 : Fin 16), (2 : Fin 4)) (by imemp) (outΦ c (partV m ρ c))) $$ Hos
  icases Hs with ⟨Hst, Hos⟩
  ihave Hst := (out_strip c (partV m ρ c) (6 : Fin 16) (2 : Fin 4) 6 rfl) $$ Hst
  iapply (wp_loadO c 6 (2 : Fin 4) (off4_eq c (0 : Fin 7) (2 : Fin 4))) $$ Hst; iintro Hst
  iapply (wp_loadR c (0 : Fin 7) (2 : Fin 4)) $$ Hbuf; iintro %V %hV Hbuf
  first | iapply (wp_ret_bind c _ _ _) | skip
  try sl_exec
  iapply (wp_loadO c 6 (2 : Fin 4) (off4_eq c (0 : Fin 7) (2 : Fin 4))) $$ Hst; iintro Hst
  iapply (wp_storeO c 6 (2 : Fin 4) (off4_eq c (0 : Fin 7) (2 : Fin 4))) $$ Hst; iintro Hst
  ihave Hst := (owns_val (c : Thread nD τ) (oS c 6 (2 : Fin 4)) (Y := addS _ (accR m ρ ((0 : Fin 7)).val (lft c) (2 : Fin 4))) (by exact add_val _ _ V hV)) $$ Hst
  ihave Hrb := (blk_rb_put (F := F) c (0 : Fin 7) (2 : Fin 4) _ _) $$ [Hbuf Hrb]
  · iframe
    all_goals imemq
  first | iapply (wp_ret_bind c _ _ _) | skip
  try sl_exec
  -- reduce rightwards, step 1, strip 2: the running sum at distance 6 leaves for the neighbour after
  iapply (blk_rr_send m ρ K c (1 : Fin 7) (2 : Fin 4) 15 _ (dev16_eq c _) (off2_eq c (1 : Fin 7) (2 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 0, strip 3 has landed: the running sum of the devices after
  iapply (blk_wait_rl_arr m ρ K c (0 : Fin 8) (3 : Fin 4) 16 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 0 is added into the own strip at distance 9, strip 3
  ihave Hs := (take _ ((9 : Fin 16), (3 : Fin 4)) (by imemp) (outΦ c (partV m ρ c))) $$ Hos
  icases Hs with ⟨Hst, Hos⟩
  ihave Hst := (out_strip c (partV m ρ c) (9 : Fin 16) (3 : Fin 4) 9 rfl) $$ Hst
  iapply (wp_addL c 9 (0 : Fin 8) (3 : Fin 4) k0_pay2 (fun _ _ => rfl) (off3_eq c (0 : Fin 8) (3 : Fin 4))) $$ [Hst Hbuf]
  · isplitl [Hst]
    · iexact Hst
    · iexact Hbuf
  iintro ⟨Hst, Hbuf⟩
  ihave Hlb := (blk_lb_put (F := F) c (0 : Fin 8) (3 : Fin 4) _ _) $$ [Hbuf Hlb]
  · iframe
    all_goals imemq
  first | iapply (wp_ret_bind c _ _ _) | skip
  try sl_exec
  -- reduce leftwards, step 1, strip 3: the running sum at distance 9 leaves for the neighbour before
  iapply (blk_rl_send m ρ K c (1 : Fin 8) (3 : Fin 4) 16 _ (dev17_eq c _) (off1_eq_far c (1 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 0, strip 3 has landed: the running sum of the devices before
  iapply (blk_wait_rr_arr m ρ K c (0 : Fin 7) (3 : Fin 4) 17 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 0 is added into the own strip at distance 6, strip 3
  ihave Hs := (take _ ((6 : Fin 16), (3 : Fin 4)) (by imemp) (outΦ c (partV m ρ c))) $$ Hos
  icases Hs with ⟨Hst, Hos⟩
  ihave Hst := (out_strip c (partV m ρ c) (6 : Fin 16) (3 : Fin 4) 6 rfl) $$ Hst
  iapply (wp_addR c 6 (0 : Fin 7) (3 : Fin 4) k0_pay2 (fun _ _ => rfl) (off4_eq c (0 : Fin 7) (3 : Fin 4))) $$ [Hst Hbuf]
  · isplitl [Hst]
    · iexact Hst
    · iexact Hbuf
  iintro ⟨Hst, Hbuf⟩
  ihave Hrb := (blk_rb_put (F := F) c (0 : Fin 7) (3 : Fin 4) _ _) $$ [Hbuf Hrb]
  · iframe
    all_goals imemq
  first | iapply (wp_ret_bind c _ _ _) | skip
  try sl_exec
  -- reduce rightwards, step 1, strip 3: the running sum at distance 6 leaves for the neighbour after
  iapply (blk_rr_send m ρ K c (1 : Fin 7) (3 : Fin 4) 17 _ (dev18_eq c _) (off2_eq c (1 : Fin 7) (3 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the departure of the reduce-left step 0, strip 0 is complete
  iapply (blk_wait_rl_dep m ρ K c (0 : Fin 8) (0 : Fin 4) 18 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 0, strip 0 is complete
  iapply (blk_wait_rr_dep m ρ K c (0 : Fin 7) (0 : Fin 4) 18 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 0, strip 1 is complete
  iapply (blk_wait_rl_dep m ρ K c (0 : Fin 8) (1 : Fin 4) 18 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 0, strip 1 is complete
  iapply (blk_wait_rr_dep m ρ K c (0 : Fin 7) (1 : Fin 4) 18 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 0, strip 2 is complete
  iapply (blk_wait_rl_dep m ρ K c (0 : Fin 8) (2 : Fin 4) 18 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 0, strip 2 is complete
  iapply (blk_wait_rr_dep m ρ K c (0 : Fin 7) (2 : Fin 4) 18 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 0, strip 3 is complete
  iapply (blk_wait_rl_dep m ρ K c (0 : Fin 8) (3 : Fin 4) 18 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 0, strip 3 is complete
  iapply (blk_wait_rr_dep m ρ K c (0 : Fin 7) (3 : Fin 4) 18 (credit_any _)) $$ [Hdr Hpos Hdone HO]
  · iframe # ∗
    isplitr
    · imemq
    · imay
  iintro ⟨Hdr, Hpos, Hdone, HO⟩
  first | iapply (wp_ret_bind c _ _ _) | skip
  try sl_exec
  -- the left-travelling step 1, strip 0 has landed: the running sum of the devices after
  iapply (blk_wait_rl_arr m ρ K c (1 : Fin 8) (0 : Fin 4) 18 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 1 is added into the own strip at distance 10, strip 0
  ihave Hs := (take _ ((10 : Fin 16), (0 : Fin 4)) (by imemp) (outΦ c (partV m ρ c))) $$ Hos
  icases Hs with ⟨Hst, Hos⟩
  ihave Hst := (out_strip c (partV m ρ c) (10 : Fin 16) (0 : Fin 4) 10 rfl) $$ Hst
  iapply (wp_loadO c 10 (0 : Fin 4) (off3_eq c (1 : Fin 8) (0 : Fin 4))) $$ Hst; iintro Hst
  iapply (wp_loadL c (1 : Fin 8) (0 : Fin 4)) $$ Hbuf; iintro %V %hV Hbuf
  first | iapply (wp_ret_bind c _ _ _) | skip
  try sl_exec
  iapply (wp_loadO c 10 (0 : Fin 4) (off3_eq c (1 : Fin 8) (0 : Fin 4))) $$ Hst; iintro Hst
  iapply (wp_storeO c 10 (0 : Fin 4) (off3_eq c (1 : Fin 8) (0 : Fin 4))) $$ Hst; iintro Hst
  ihave Hst := (owns_val (c : Thread nD τ) (oS c 10 (0 : Fin 4)) (Y := addS _ (accL m ρ ((1 : Fin 8)).val (rgt c) (0 : Fin 4))) (by exact add_val _ _ V hV)) $$ Hst
  ihave Hlb := (blk_lb_put (F := F) c (1 : Fin 8) (0 : Fin 4) _ _) $$ [Hbuf Hlb]
  · iframe
    all_goals imemq
  first | iapply (wp_ret_bind c _ _ _) | skip
  try sl_exec
  -- reduce leftwards, step 2, strip 0: the running sum at distance 10 leaves for the neighbour before
  iapply (blk_rl_send m ρ K c (2 : Fin 8) (0 : Fin 4) 18 _ (dev19_eq c _) (off1_eq_far c (2 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 1, strip 0 has landed: the running sum of the devices before
  iapply (blk_wait_rr_arr m ρ K c (1 : Fin 7) (0 : Fin 4) 19 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 1 is added into the own strip at distance 5, strip 0
  ihave Hs := (take _ ((5 : Fin 16), (0 : Fin 4)) (by imemp) (outΦ c (partV m ρ c))) $$ Hos
  icases Hs with ⟨Hst, Hos⟩
  ihave Hst := (out_strip c (partV m ρ c) (5 : Fin 16) (0 : Fin 4) 5 rfl) $$ Hst
  iapply (wp_loadO c 5 (0 : Fin 4) (off4_eq c (1 : Fin 7) (0 : Fin 4))) $$ Hst; iintro Hst
  iapply (wp_loadR c (1 : Fin 7) (0 : Fin 4)) $$ Hbuf; iintro %V %hV Hbuf
  first | iapply (wp_ret_bind c _ _ _) | skip
  try sl_exec
  iapply (wp_loadO c 5 (0 : Fin 4) (off4_eq c (1 : Fin 7) (0 : Fin 4))) $$ Hst; iintro Hst
  iapply (wp_storeO c 5 (0 : Fin 4) (off4_eq c (1 : Fin 7) (0 : Fin 4))) $$ Hst; iintro Hst
  ihave Hst := (owns_val (c : Thread nD τ) (oS c 5 (0 : Fin 4)) (Y := addS _ (accR m ρ ((1 : Fin 7)).val (lft c) (0 : Fin 4))) (by exact add_val _ _ V hV)) $$ Hst
  ihave Hrb := (blk_rb_put (F := F) c (1 : Fin 7) (0 : Fin 4) _ _) $$ [Hbuf Hrb]
  · iframe
    all_goals imemq
  first | iapply (wp_ret_bind c _ _ _) | skip
  try sl_exec
  -- reduce rightwards, step 2, strip 0: the running sum at distance 5 leaves for the neighbour after
  iapply (blk_rr_send m ρ K c (2 : Fin 7) (0 : Fin 4) 19 _ (dev20_eq c _) (off2_eq c (2 : Fin 7) (0 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 1, strip 1 has landed: the running sum of the devices after
  iapply (blk_wait_rl_arr m ρ K c (1 : Fin 8) (1 : Fin 4) 20 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 1 is added into the own strip at distance 10, strip 1
  ihave Hs := (take _ ((10 : Fin 16), (1 : Fin 4)) (by imemp) (outΦ c (partV m ρ c))) $$ Hos
  icases Hs with ⟨Hst, Hos⟩
  ihave Hst := (out_strip c (partV m ρ c) (10 : Fin 16) (1 : Fin 4) 10 rfl) $$ Hst
  iapply (wp_loadO c 10 (1 : Fin 4) (off3_eq c (1 : Fin 8) (1 : Fin 4))) $$ Hst; iintro Hst
  first | iapply (wp_ret_bind c _ _ _) | skip
  try sl_exec
  iapply (wp_loadL c (1 : Fin 8) (1 : Fin 4)) $$ Hbuf; iintro %V %hV Hbuf
  iapply (wp_loadO c 10 (1 : Fin 4) (off3_eq c (1 : Fin 8) (1 : Fin 4))) $$ Hst; iintro Hst
  iapply (wp_storeO c 10 (1 : Fin 4) (off3_eq c (1 : Fin 8) (1 : Fin 4))) $$ Hst; iintro Hst
  ihave Hst := (owns_val (c : Thread nD τ) (oS c 10 (1 : Fin 4)) (Y := addS _ (accL m ρ ((1 : Fin 8)).val (rgt c) (1 : Fin 4))) (by exact add_val _ _ V hV)) $$ Hst
  ihave Hlb := (blk_lb_put (F := F) c (1 : Fin 8) (1 : Fin 4) _ _) $$ [Hbuf Hlb]
  · iframe
    all_goals imemq
  first | iapply (wp_ret_bind c _ _ _) | skip
  try sl_exec
  -- reduce leftwards, step 2, strip 1: the running sum at distance 10 leaves for the neighbour before
  iapply (blk_rl_send m ρ K c (2 : Fin 8) (1 : Fin 4) 20 _ (dev21_eq c _) (off1_eq_far c (2 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 1, strip 1 has landed: the running sum of the devices before
  iapply (blk_wait_rr_arr m ρ K c (1 : Fin 7) (1 : Fin 4) 21 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 1 is added into the own strip at distance 5, strip 1
  ihave Hs := (take _ ((5 : Fin 16), (1 : Fin 4)) (by imemp) (outΦ c (partV m ρ c))) $$ Hos
  icases Hs with ⟨Hst, Hos⟩
  ihave Hst := (out_strip c (partV m ρ c) (5 : Fin 16) (1 : Fin 4) 5 rfl) $$ Hst
  iapply (wp_addR c 5 (1 : Fin 7) (1 : Fin 4) k0_pay2 (fun _ _ => rfl) (off4_eq c (1 : Fin 7) (1 : Fin 4))) $$ [Hst Hbuf]
  · isplitl [Hst]
    · iexact Hst
    · iexact Hbuf
  iintro ⟨Hst, Hbuf⟩
  ihave Hrb := (blk_rb_put (F := F) c (1 : Fin 7) (1 : Fin 4) _ _) $$ [Hbuf Hrb]
  · iframe
    all_goals imemq
  first | iapply (wp_ret_bind c _ _ _) | skip
  try sl_exec
  -- reduce rightwards, step 2, strip 1: the running sum at distance 5 leaves for the neighbour after
  iapply (blk_rr_send m ρ K c (2 : Fin 7) (1 : Fin 4) 21 _ (dev22_eq c _) (off2_eq c (2 : Fin 7) (1 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 1, strip 2 has landed: the running sum of the devices after
  iapply (blk_wait_rl_arr m ρ K c (1 : Fin 8) (2 : Fin 4) 22 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 1 is added into the own strip at distance 10, strip 2
  ihave Hs := (take _ ((10 : Fin 16), (2 : Fin 4)) (by imemp) (outΦ c (partV m ρ c))) $$ Hos
  icases Hs with ⟨Hst, Hos⟩
  ihave Hst := (out_strip c (partV m ρ c) (10 : Fin 16) (2 : Fin 4) 10 rfl) $$ Hst
  iapply (wp_addL c 10 (1 : Fin 8) (2 : Fin 4) k0_pay2 (fun _ _ => rfl) (off3_eq c (1 : Fin 8) (2 : Fin 4))) $$ [Hst Hbuf]
  · isplitl [Hst]
    · iexact Hst
    · iexact Hbuf
  iintro ⟨Hst, Hbuf⟩
  ihave Hlb := (blk_lb_put (F := F) c (1 : Fin 8) (2 : Fin 4) _ _) $$ [Hbuf Hlb]
  · iframe
    all_goals imemq
  first | iapply (wp_ret_bind c _ _ _) | skip
  try sl_exec
  -- reduce leftwards, step 2, strip 2: the running sum at distance 10 leaves for the neighbour before
  iapply (blk_rl_send m ρ K c (2 : Fin 8) (2 : Fin 4) 22 _ (dev23_eq c _) (off1_eq_far c (2 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 1, strip 2 has landed: the running sum of the devices before
  iapply (blk_wait_rr_arr m ρ K c (1 : Fin 7) (2 : Fin 4) 23 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 1 is added into the own strip at distance 5, strip 2
  ihave Hs := (take _ ((5 : Fin 16), (2 : Fin 4)) (by imemp) (outΦ c (partV m ρ c))) $$ Hos
  icases Hs with ⟨Hst, Hos⟩
  ihave Hst := (out_strip c (partV m ρ c) (5 : Fin 16) (2 : Fin 4) 5 rfl) $$ Hst
  iapply (wp_addR c 5 (1 : Fin 7) (2 : Fin 4) k0_pay2 (fun _ _ => rfl) (off4_eq c (1 : Fin 7) (2 : Fin 4))) $$ [Hst Hbuf]
  · isplitl [Hst]
    · iexact Hst
    · iexact Hbuf
  iintro ⟨Hst, Hbuf⟩
  ihave Hrb := (blk_rb_put (F := F) c (1 : Fin 7) (2 : Fin 4) _ _) $$ [Hbuf Hrb]
  · iframe
    all_goals imemq
  first | iapply (wp_ret_bind c _ _ _) | skip
  try sl_exec
  -- reduce rightwards, step 2, strip 2: the running sum at distance 5 leaves for the neighbour after
  iapply (blk_rr_send m ρ K c (2 : Fin 7) (2 : Fin 4) 23 _ (dev24_eq c _) (off2_eq c (2 : Fin 7) (2 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 1, strip 3 has landed: the running sum of the devices after
  iapply (blk_wait_rl_arr m ρ K c (1 : Fin 8) (3 : Fin 4) 24 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 1 is added into the own strip at distance 10, strip 3
  ihave Hs := (take _ ((10 : Fin 16), (3 : Fin 4)) (by imemp) (outΦ c (partV m ρ c))) $$ Hos
  icases Hs with ⟨Hst, Hos⟩
  ihave Hst := (out_strip c (partV m ρ c) (10 : Fin 16) (3 : Fin 4) 10 rfl) $$ Hst
  iapply (wp_loadO c 10 (3 : Fin 4) (off3_eq c (1 : Fin 8) (3 : Fin 4))) $$ Hst; iintro Hst
  iapply (wp_loadL c (1 : Fin 8) (3 : Fin 4)) $$ Hbuf; iintro %V %hV Hbuf
  first | iapply (wp_ret_bind c _ _ _) | skip
  try sl_exec
  iapply (wp_loadO c 10 (3 : Fin 4) (off3_eq c (1 : Fin 8) (3 : Fin 4))) $$ Hst; iintro Hst
  iapply (wp_storeO c 10 (3 : Fin 4) (off3_eq c (1 : Fin 8) (3 : Fin 4))) $$ Hst; iintro Hst
  ihave Hst := (owns_val (c : Thread nD τ) (oS c 10 (3 : Fin 4)) (Y := addS _ (accL m ρ ((1 : Fin 8)).val (rgt c) (3 : Fin 4))) (by exact add_val _ _ V hV)) $$ Hst
  ihave Hlb := (blk_lb_put (F := F) c (1 : Fin 8) (3 : Fin 4) _ _) $$ [Hbuf Hlb]
  · iframe
    all_goals imemq
  first | iapply (wp_ret_bind c _ _ _) | skip
  try sl_exec
  -- reduce leftwards, step 2, strip 3: the running sum at distance 10 leaves for the neighbour before
  iapply (blk_rl_send m ρ K c (2 : Fin 8) (3 : Fin 4) 24 _ (dev25_eq c _) (off1_eq_far c (2 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 1, strip 3 has landed: the running sum of the devices before
  iapply (blk_wait_rr_arr m ρ K c (1 : Fin 7) (3 : Fin 4) 25 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 1 is added into the own strip at distance 5, strip 3
  ihave Hs := (take _ ((5 : Fin 16), (3 : Fin 4)) (by imemp) (outΦ c (partV m ρ c))) $$ Hos
  icases Hs with ⟨Hst, Hos⟩
  ihave Hst := (out_strip c (partV m ρ c) (5 : Fin 16) (3 : Fin 4) 5 rfl) $$ Hst
  iapply (wp_loadO c 5 (3 : Fin 4) (off4_eq c (1 : Fin 7) (3 : Fin 4))) $$ Hst; iintro Hst
  iapply (wp_loadR c (1 : Fin 7) (3 : Fin 4)) $$ Hbuf; iintro %V %hV Hbuf
  first | iapply (wp_ret_bind c _ _ _) | skip
  try sl_exec
  iapply (wp_loadO c 5 (3 : Fin 4) (off4_eq c (1 : Fin 7) (3 : Fin 4))) $$ Hst; iintro Hst
  iapply (wp_storeO c 5 (3 : Fin 4) (off4_eq c (1 : Fin 7) (3 : Fin 4))) $$ Hst; iintro Hst
  ihave Hst := (owns_val (c : Thread nD τ) (oS c 5 (3 : Fin 4)) (Y := addS _ (accR m ρ ((1 : Fin 7)).val (lft c) (3 : Fin 4))) (by exact add_val _ _ V hV)) $$ Hst
  ihave Hrb := (blk_rb_put (F := F) c (1 : Fin 7) (3 : Fin 4) _ _) $$ [Hbuf Hrb]
  · iframe
    all_goals imemq
  first | iapply (wp_ret_bind c _ _ _) | skip
  try sl_exec
  -- reduce rightwards, step 2, strip 3: the running sum at distance 5 leaves for the neighbour after
  iapply (blk_rr_send m ρ K c (2 : Fin 7) (3 : Fin 4) 25 _ (dev26_eq c _) (off2_eq c (2 : Fin 7) (3 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the departure of the reduce-left step 1, strip 0 is complete
  iapply (blk_wait_rl_dep m ρ K c (1 : Fin 8) (0 : Fin 4) 26 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 1, strip 0 is complete
  iapply (blk_wait_rr_dep m ρ K c (1 : Fin 7) (0 : Fin 4) 26 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 1, strip 1 is complete
  iapply (blk_wait_rl_dep m ρ K c (1 : Fin 8) (1 : Fin 4) 26 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 1, strip 1 is complete
  iapply (blk_wait_rr_dep m ρ K c (1 : Fin 7) (1 : Fin 4) 26 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 1, strip 2 is complete
  iapply (blk_wait_rl_dep m ρ K c (1 : Fin 8) (2 : Fin 4) 26 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 1, strip 2 is complete
  iapply (blk_wait_rr_dep m ρ K c (1 : Fin 7) (2 : Fin 4) 26 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 1, strip 3 is complete
  iapply (blk_wait_rl_dep m ρ K c (1 : Fin 8) (3 : Fin 4) 26 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 1, strip 3 is complete
  iapply (blk_wait_rr_dep m ρ K c (1 : Fin 7) (3 : Fin 4) 26 (credit_any _)) $$ [Hdr Hpos Hdone HO]
  · iframe # ∗
    isplitr
    · imemq
    · imay
  iintro ⟨Hdr, Hpos, Hdone, HO⟩
  first | iapply (wp_ret_bind c _ _ _) | skip
  try sl_exec
  -- the left-travelling step 2, strip 0 has landed: the running sum of the devices after
  iapply (blk_wait_rl_arr m ρ K c (2 : Fin 8) (0 : Fin 4) 26 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 2 is added into the own strip at distance 11, strip 0
  ihave Hs := (take _ ((11 : Fin 16), (0 : Fin 4)) (by imemp) (outΦ c (partV m ρ c))) $$ Hos
  icases Hs with ⟨Hst, Hos⟩
  ihave Hst := (out_strip c (partV m ρ c) (11 : Fin 16) (0 : Fin 4) 11 rfl) $$ Hst
  iapply (wp_addL c 11 (2 : Fin 8) (0 : Fin 4) k0_pay2 (fun _ _ => rfl) (off3_eq c (2 : Fin 8) (0 : Fin 4))) $$ [Hst Hbuf]
  · isplitl [Hst]
    · iexact Hst
    · iexact Hbuf
  iintro ⟨Hst, Hbuf⟩
  ihave Hlb := (blk_lb_put (F := F) c (2 : Fin 8) (0 : Fin 4) _ _) $$ [Hbuf Hlb]
  · iframe
    all_goals imemq
  first | iapply (wp_ret_bind c _ _ _) | skip
  try sl_exec
  -- reduce leftwards, step 3, strip 0: the running sum at distance 11 leaves for the neighbour before
  iapply (blk_rl_send m ρ K c (3 : Fin 8) (0 : Fin 4) 26 _ (dev27_eq c _) (off1_eq_far c (3 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 2, strip 0 has landed: the running sum of the devices before
  iapply (blk_wait_rr_arr m ρ K c (2 : Fin 7) (0 : Fin 4) 27 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 2 is added into the own strip at distance 4, strip 0
  ihave Hs := (take _ ((4 : Fin 16), (0 : Fin 4)) (by imemp) (outΦ c (partV m ρ c))) $$ Hos
  icases Hs with ⟨Hst, Hos⟩
  ihave Hst := (out_strip c (partV m ρ c) (4 : Fin 16) (0 : Fin 4) 4 rfl) $$ Hst
  iapply (wp_addR c 4 (2 : Fin 7) (0 : Fin 4) k0_pay2 (fun _ _ => rfl) (off4_eq c (2 : Fin 7) (0 : Fin 4))) $$ [Hst Hbuf]
  · isplitl [Hst]
    · iexact Hst
    · iexact Hbuf
  iintro ⟨Hst, Hbuf⟩
  ihave Hrb := (blk_rb_put (F := F) c (2 : Fin 7) (0 : Fin 4) _ _) $$ [Hbuf Hrb]
  · iframe
    all_goals imemq
  first | iapply (wp_ret_bind c _ _ _) | skip
  try sl_exec
  -- reduce rightwards, step 3, strip 0: the running sum at distance 4 leaves for the neighbour after
  iapply (blk_rr_send m ρ K c (3 : Fin 7) (0 : Fin 4) 27 _ (dev28_eq c _) (off2_eq c (3 : Fin 7) (0 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 2, strip 1 has landed: the running sum of the devices after
  iapply (blk_wait_rl_arr m ρ K c (2 : Fin 8) (1 : Fin 4) 28 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 2 is added into the own strip at distance 11, strip 1
  ihave Hs := (take _ ((11 : Fin 16), (1 : Fin 4)) (by imemp) (outΦ c (partV m ρ c))) $$ Hos
  icases Hs with ⟨Hst, Hos⟩
  ihave Hst := (out_strip c (partV m ρ c) (11 : Fin 16) (1 : Fin 4) 11 rfl) $$ Hst
  iapply (wp_loadO c 11 (1 : Fin 4) (off3_eq c (2 : Fin 8) (1 : Fin 4))) $$ Hst; iintro Hst
  iapply (wp_loadL c (2 : Fin 8) (1 : Fin 4)) $$ Hbuf; iintro %V %hV Hbuf
  first | iapply (wp_ret_bind c _ _ _) | skip
  try sl_exec
  iapply (wp_loadO c 11 (1 : Fin 4) (off3_eq c (2 : Fin 8) (1 : Fin 4))) $$ Hst; iintro Hst
  iapply (wp_storeO c 11 (1 : Fin 4) (off3_eq c (2 : Fin 8) (1 : Fin 4))) $$ Hst; iintro Hst
  ihave Hst := (owns_val (c : Thread nD τ) (oS c 11 (1 : Fin 4)) (Y := addS _ (accL m ρ ((2 : Fin 8)).val (rgt c) (1 : Fin 4))) (by exact add_val _ _ V hV)) $$ Hst
  ihave Hlb := (blk_lb_put (F := F) c (2 : Fin 8) (1 : Fin 4) _ _) $$ [Hbuf Hlb]
  · iframe
    all_goals imemq
  first | iapply (wp_ret_bind c _ _ _) | skip
  try sl_exec
  -- reduce leftwards, step 3, strip 1: the running sum at distance 11 leaves for the neighbour before
  iapply (blk_rl_send m ρ K c (3 : Fin 8) (1 : Fin 4) 28 _ (dev29_eq c _) (off1_eq_far c (3 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 2, strip 1 has landed: the running sum of the devices before
  iapply (blk_wait_rr_arr m ρ K c (2 : Fin 7) (1 : Fin 4) 29 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 2 is added into the own strip at distance 4, strip 1
  ihave Hs := (take _ ((4 : Fin 16), (1 : Fin 4)) (by imemp) (outΦ c (partV m ρ c))) $$ Hos
  icases Hs with ⟨Hst, Hos⟩
  ihave Hst := (out_strip c (partV m ρ c) (4 : Fin 16) (1 : Fin 4) 4 rfl) $$ Hst
  iapply (wp_loadO c 4 (1 : Fin 4) (off4_eq c (2 : Fin 7) (1 : Fin 4))) $$ Hst; iintro Hst
  iapply (wp_loadR c (2 : Fin 7) (1 : Fin 4)) $$ Hbuf; iintro %V %hV Hbuf
  first | iapply (wp_ret_bind c _ _ _) | skip
  try sl_exec
  iapply (wp_loadO c 4 (1 : Fin 4) (off4_eq c (2 : Fin 7) (1 : Fin 4))) $$ Hst; iintro Hst
  iapply (wp_storeO c 4 (1 : Fin 4) (off4_eq c (2 : Fin 7) (1 : Fin 4))) $$ Hst; iintro Hst
  ihave Hst := (owns_val (c : Thread nD τ) (oS c 4 (1 : Fin 4)) (Y := addS _ (accR m ρ ((2 : Fin 7)).val (lft c) (1 : Fin 4))) (by exact add_val _ _ V hV)) $$ Hst
  ihave Hrb := (blk_rb_put (F := F) c (2 : Fin 7) (1 : Fin 4) _ _) $$ [Hbuf Hrb]
  · iframe
    all_goals imemq
  first | iapply (wp_ret_bind c _ _ _) | skip
  try sl_exec
  -- reduce rightwards, step 3, strip 1: the running sum at distance 4 leaves for the neighbour after
  iapply (blk_rr_send m ρ K c (3 : Fin 7) (1 : Fin 4) 29 _ (dev30_eq c _) (off2_eq c (3 : Fin 7) (1 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 2, strip 2 has landed: the running sum of the devices after
  iapply (blk_wait_rl_arr m ρ K c (2 : Fin 8) (2 : Fin 4) 30 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 2 is added into the own strip at distance 11, strip 2
  ihave Hs := (take _ ((11 : Fin 16), (2 : Fin 4)) (by imemp) (outΦ c (partV m ρ c))) $$ Hos
  icases Hs with ⟨Hst, Hos⟩
  ihave Hst := (out_strip c (partV m ρ c) (11 : Fin 16) (2 : Fin 4) 11 rfl) $$ Hst
  iapply (wp_loadO c 11 (2 : Fin 4) (off3_eq c (2 : Fin 8) (2 : Fin 4))) $$ Hst; iintro Hst
  iapply (wp_loadL c (2 : Fin 8) (2 : Fin 4)) $$ Hbuf; iintro %V %hV Hbuf
  first | iapply (wp_ret_bind c _ _ _) | skip
  try sl_exec
  iapply (wp_loadO c 11 (2 : Fin 4) (off3_eq c (2 : Fin 8) (2 : Fin 4))) $$ Hst; iintro Hst
  iapply (wp_storeO c 11 (2 : Fin 4) (off3_eq c (2 : Fin 8) (2 : Fin 4))) $$ Hst; iintro Hst
  ihave Hst := (owns_val (c : Thread nD τ) (oS c 11 (2 : Fin 4)) (Y := addS _ (accL m ρ ((2 : Fin 8)).val (rgt c) (2 : Fin 4))) (by exact add_val _ _ V hV)) $$ Hst
  ihave Hlb := (blk_lb_put (F := F) c (2 : Fin 8) (2 : Fin 4) _ _) $$ [Hbuf Hlb]
  · iframe
    all_goals imemq
  first | iapply (wp_ret_bind c _ _ _) | skip
  try sl_exec
  -- reduce leftwards, step 3, strip 2: the running sum at distance 11 leaves for the neighbour before
  iapply (blk_rl_send m ρ K c (3 : Fin 8) (2 : Fin 4) 30 _ (dev31_eq c _) (off1_eq_far c (3 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 2, strip 2 has landed: the running sum of the devices before
  iapply (blk_wait_rr_arr m ρ K c (2 : Fin 7) (2 : Fin 4) 31 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 2 is added into the own strip at distance 4, strip 2
  ihave Hs := (take _ ((4 : Fin 16), (2 : Fin 4)) (by imemp) (outΦ c (partV m ρ c))) $$ Hos
  icases Hs with ⟨Hst, Hos⟩
  ihave Hst := (out_strip c (partV m ρ c) (4 : Fin 16) (2 : Fin 4) 4 rfl) $$ Hst
  iapply (wp_addR c 4 (2 : Fin 7) (2 : Fin 4) k0_pay2 (fun _ _ => rfl) (off4_eq c (2 : Fin 7) (2 : Fin 4))) $$ [Hst Hbuf]
  · isplitl [Hst]
    · iexact Hst
    · iexact Hbuf
  iintro ⟨Hst, Hbuf⟩
  ihave Hrb := (blk_rb_put (F := F) c (2 : Fin 7) (2 : Fin 4) _ _) $$ [Hbuf Hrb]
  · iframe
    all_goals imemq
  first | iapply (wp_ret_bind c _ _ _) | skip
  try sl_exec
  -- reduce rightwards, step 3, strip 2: the running sum at distance 4 leaves for the neighbour after
  iapply (blk_rr_send m ρ K c (3 : Fin 7) (2 : Fin 4) 31 _ (dev32_eq c _) (off2_eq c (3 : Fin 7) (2 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 2, strip 3 has landed: the running sum of the devices after
  iapply (blk_wait_rl_arr m ρ K c (2 : Fin 8) (3 : Fin 4) 32 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 2 is added into the own strip at distance 11, strip 3
  ihave Hs := (take _ ((11 : Fin 16), (3 : Fin 4)) (by imemp) (outΦ c (partV m ρ c))) $$ Hos
  icases Hs with ⟨Hst, Hos⟩
  ihave Hst := (out_strip c (partV m ρ c) (11 : Fin 16) (3 : Fin 4) 11 rfl) $$ Hst
  iapply (wp_addL c 11 (2 : Fin 8) (3 : Fin 4) k0_pay2 (fun _ _ => rfl) (off3_eq c (2 : Fin 8) (3 : Fin 4))) $$ [Hst Hbuf]
  · isplitl [Hst]
    · iexact Hst
    · iexact Hbuf
  iintro ⟨Hst, Hbuf⟩
  ihave Hlb := (blk_lb_put (F := F) c (2 : Fin 8) (3 : Fin 4) _ _) $$ [Hbuf Hlb]
  · iframe
    all_goals imemq
  first | iapply (wp_ret_bind c _ _ _) | skip
  try sl_exec
  -- reduce leftwards, step 3, strip 3: the running sum at distance 11 leaves for the neighbour before
  iapply (blk_rl_send m ρ K c (3 : Fin 8) (3 : Fin 4) 32 _ (dev33_eq c _) (off1_eq_far c (3 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 2, strip 3 has landed: the running sum of the devices before
  iapply (blk_wait_rr_arr m ρ K c (2 : Fin 7) (3 : Fin 4) 33 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 2 is added into the own strip at distance 4, strip 3
  ihave Hs := (take _ ((4 : Fin 16), (3 : Fin 4)) (by imemp) (outΦ c (partV m ρ c))) $$ Hos
  icases Hs with ⟨Hst, Hos⟩
  ihave Hst := (out_strip c (partV m ρ c) (4 : Fin 16) (3 : Fin 4) 4 rfl) $$ Hst
  iapply (wp_addR c 4 (2 : Fin 7) (3 : Fin 4) k0_pay2 (fun _ _ => rfl) (off4_eq c (2 : Fin 7) (3 : Fin 4))) $$ [Hst Hbuf]
  · isplitl [Hst]
    · iexact Hst
    · iexact Hbuf
  iintro ⟨Hst, Hbuf⟩
  ihave Hrb := (blk_rb_put (F := F) c (2 : Fin 7) (3 : Fin 4) _ _) $$ [Hbuf Hrb]
  · iframe
    all_goals imemq
  first | iapply (wp_ret_bind c _ _ _) | skip
  try sl_exec
  -- reduce rightwards, step 3, strip 3: the running sum at distance 4 leaves for the neighbour after
  iapply (blk_rr_send m ρ K c (3 : Fin 7) (3 : Fin 4) 33 _ (dev34_eq c _) (off2_eq c (3 : Fin 7) (3 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the departure of the reduce-left step 2, strip 0 is complete
  iapply (blk_wait_rl_dep m ρ K c (2 : Fin 8) (0 : Fin 4) 34 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 2, strip 0 is complete
  iapply (blk_wait_rr_dep m ρ K c (2 : Fin 7) (0 : Fin 4) 34 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 2, strip 1 is complete
  iapply (blk_wait_rl_dep m ρ K c (2 : Fin 8) (1 : Fin 4) 34 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 2, strip 1 is complete
  iapply (blk_wait_rr_dep m ρ K c (2 : Fin 7) (1 : Fin 4) 34 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 2, strip 2 is complete
  iapply (blk_wait_rl_dep m ρ K c (2 : Fin 8) (2 : Fin 4) 34 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 2, strip 2 is complete
  iapply (blk_wait_rr_dep m ρ K c (2 : Fin 7) (2 : Fin 4) 34 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 2, strip 3 is complete
  iapply (blk_wait_rl_dep m ρ K c (2 : Fin 8) (3 : Fin 4) 34 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 2, strip 3 is complete
  iapply (blk_wait_rr_dep m ρ K c (2 : Fin 7) (3 : Fin 4) 34 (credit_any _)) $$ [Hdr Hpos Hdone HO]
  · iframe # ∗
    isplitr
    · imemq
    · imay
  iintro ⟨Hdr, Hpos, Hdone, HO⟩
  first | iapply (wp_ret_bind c _ _ _) | skip
  try sl_exec
  -- the left-travelling step 3, strip 0 has landed: the running sum of the devices after
  iapply (blk_wait_rl_arr m ρ K c (3 : Fin 8) (0 : Fin 4) 34 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 3 is added into the own strip at distance 12, strip 0
  ihave Hs := (take _ ((12 : Fin 16), (0 : Fin 4)) (by imemp) (outΦ c (partV m ρ c))) $$ Hos
  icases Hs with ⟨Hst, Hos⟩
  ihave Hst := (out_strip c (partV m ρ c) (12 : Fin 16) (0 : Fin 4) 12 rfl) $$ Hst
  iapply (wp_loadO c 12 (0 : Fin 4) (off3_eq c (3 : Fin 8) (0 : Fin 4))) $$ Hst; iintro Hst
  iapply (wp_loadL c (3 : Fin 8) (0 : Fin 4)) $$ Hbuf; iintro %V %hV Hbuf
  first | iapply (wp_ret_bind c _ _ _) | skip
  try sl_exec
  iapply (wp_loadO c 12 (0 : Fin 4) (off3_eq c (3 : Fin 8) (0 : Fin 4))) $$ Hst; iintro Hst
  iapply (wp_storeO c 12 (0 : Fin 4) (off3_eq c (3 : Fin 8) (0 : Fin 4))) $$ Hst; iintro Hst
  ihave Hst := (owns_val (c : Thread nD τ) (oS c 12 (0 : Fin 4)) (Y := addS _ (accL m ρ ((3 : Fin 8)).val (rgt c) (0 : Fin 4))) (by exact add_val _ _ V hV)) $$ Hst
  ihave Hlb := (blk_lb_put (F := F) c (3 : Fin 8) (0 : Fin 4) _ _) $$ [Hbuf Hlb]
  · iframe
    all_goals imemq
  first | iapply (wp_ret_bind c _ _ _) | skip
  try sl_exec
  -- reduce leftwards, step 4, strip 0: the running sum at distance 12 leaves for the neighbour before
  iapply (blk_rl_send m ρ K c (4 : Fin 8) (0 : Fin 4) 34 _ (dev35_eq c _) (off1_eq_far c (4 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 3, strip 0 has landed: the running sum of the devices before
  iapply (blk_wait_rr_arr m ρ K c (3 : Fin 7) (0 : Fin 4) 35 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 3 is added into the own strip at distance 3, strip 0
  ihave Hs := (take _ ((3 : Fin 16), (0 : Fin 4)) (by imemp) (outΦ c (partV m ρ c))) $$ Hos
  icases Hs with ⟨Hst, Hos⟩
  ihave Hst := (out_strip c (partV m ρ c) (3 : Fin 16) (0 : Fin 4) 3 rfl) $$ Hst
  iapply (wp_loadO c 3 (0 : Fin 4) (off4_eq c (3 : Fin 7) (0 : Fin 4))) $$ Hst; iintro Hst
  first | iapply (wp_ret_bind c _ _ _) | skip
  try sl_exec
  iapply (wp_loadR c (3 : Fin 7) (0 : Fin 4)) $$ Hbuf; iintro %V %hV Hbuf
  iapply (wp_loadO c 3 (0 : Fin 4) (off4_eq c (3 : Fin 7) (0 : Fin 4))) $$ Hst; iintro Hst
  iapply (wp_storeO c 3 (0 : Fin 4) (off4_eq c (3 : Fin 7) (0 : Fin 4))) $$ Hst; iintro Hst
  ihave Hst := (owns_val (c : Thread nD τ) (oS c 3 (0 : Fin 4)) (Y := addS _ (accR m ρ ((3 : Fin 7)).val (lft c) (0 : Fin 4))) (by exact add_val _ _ V hV)) $$ Hst
  ihave Hrb := (blk_rb_put (F := F) c (3 : Fin 7) (0 : Fin 4) _ _) $$ [Hbuf Hrb]
  · iframe
    all_goals imemq
  first | iapply (wp_ret_bind c _ _ _) | skip
  try sl_exec
  -- reduce rightwards, step 4, strip 0: the running sum at distance 3 leaves for the neighbour after
  iapply (blk_rr_send m ρ K c (4 : Fin 7) (0 : Fin 4) 35 _ (dev36_eq c _) (off2_eq c (4 : Fin 7) (0 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 3, strip 1 has landed: the running sum of the devices after
  iapply (blk_wait_rl_arr m ρ K c (3 : Fin 8) (1 : Fin 4) 36 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 3 is added into the own strip at distance 12, strip 1
  ihave Hs := (take _ ((12 : Fin 16), (1 : Fin 4)) (by imemp) (outΦ c (partV m ρ c))) $$ Hos
  icases Hs with ⟨Hst, Hos⟩
  ihave Hst := (out_strip c (partV m ρ c) (12 : Fin 16) (1 : Fin 4) 12 rfl) $$ Hst
  iapply (wp_addL c 12 (3 : Fin 8) (1 : Fin 4) k0_pay2 (fun _ _ => rfl) (off3_eq c (3 : Fin 8) (1 : Fin 4))) $$ [Hst Hbuf]
  · isplitl [Hst]
    · iexact Hst
    · iexact Hbuf
  iintro ⟨Hst, Hbuf⟩
  ihave Hlb := (blk_lb_put (F := F) c (3 : Fin 8) (1 : Fin 4) _ _) $$ [Hbuf Hlb]
  · iframe
    all_goals imemq
  first | iapply (wp_ret_bind c _ _ _) | skip
  try sl_exec
  -- reduce leftwards, step 4, strip 1: the running sum at distance 12 leaves for the neighbour before
  iapply (blk_rl_send m ρ K c (4 : Fin 8) (1 : Fin 4) 36 _ (dev37_eq c _) (off1_eq_far c (4 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 3, strip 1 has landed: the running sum of the devices before
  iapply (blk_wait_rr_arr m ρ K c (3 : Fin 7) (1 : Fin 4) 37 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 3 is added into the own strip at distance 3, strip 1
  ihave Hs := (take _ ((3 : Fin 16), (1 : Fin 4)) (by imemp) (outΦ c (partV m ρ c))) $$ Hos
  icases Hs with ⟨Hst, Hos⟩
  ihave Hst := (out_strip c (partV m ρ c) (3 : Fin 16) (1 : Fin 4) 3 rfl) $$ Hst
  iapply (wp_addR c 3 (3 : Fin 7) (1 : Fin 4) k0_pay2 (fun _ _ => rfl) (off4_eq c (3 : Fin 7) (1 : Fin 4))) $$ [Hst Hbuf]
  · isplitl [Hst]
    · iexact Hst
    · iexact Hbuf
  iintro ⟨Hst, Hbuf⟩
  ihave Hrb := (blk_rb_put (F := F) c (3 : Fin 7) (1 : Fin 4) _ _) $$ [Hbuf Hrb]
  · iframe
    all_goals imemq
  first | iapply (wp_ret_bind c _ _ _) | skip
  try sl_exec
  -- reduce rightwards, step 4, strip 1: the running sum at distance 3 leaves for the neighbour after
  iapply (blk_rr_send m ρ K c (4 : Fin 7) (1 : Fin 4) 37 _ (dev38_eq c _) (off2_eq c (4 : Fin 7) (1 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 3, strip 2 has landed: the running sum of the devices after
  iapply (blk_wait_rl_arr m ρ K c (3 : Fin 8) (2 : Fin 4) 38 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 3 is added into the own strip at distance 12, strip 2
  ihave Hs := (take _ ((12 : Fin 16), (2 : Fin 4)) (by imemp) (outΦ c (partV m ρ c))) $$ Hos
  icases Hs with ⟨Hst, Hos⟩
  ihave Hst := (out_strip c (partV m ρ c) (12 : Fin 16) (2 : Fin 4) 12 rfl) $$ Hst
  iapply (wp_addL c 12 (3 : Fin 8) (2 : Fin 4) k0_pay2 (fun _ _ => rfl) (off3_eq c (3 : Fin 8) (2 : Fin 4))) $$ [Hst Hbuf]
  · isplitl [Hst]
    · iexact Hst
    · iexact Hbuf
  iintro ⟨Hst, Hbuf⟩
  ihave Hlb := (blk_lb_put (F := F) c (3 : Fin 8) (2 : Fin 4) _ _) $$ [Hbuf Hlb]
  · iframe
    all_goals imemq
  first | iapply (wp_ret_bind c _ _ _) | skip
  try sl_exec
  -- reduce leftwards, step 4, strip 2: the running sum at distance 12 leaves for the neighbour before
  iapply (blk_rl_send m ρ K c (4 : Fin 8) (2 : Fin 4) 38 _ (dev39_eq c _) (off1_eq_far c (4 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 3, strip 2 has landed: the running sum of the devices before
  iapply (blk_wait_rr_arr m ρ K c (3 : Fin 7) (2 : Fin 4) 39 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 3 is added into the own strip at distance 3, strip 2
  ihave Hs := (take _ ((3 : Fin 16), (2 : Fin 4)) (by imemp) (outΦ c (partV m ρ c))) $$ Hos
  icases Hs with ⟨Hst, Hos⟩
  ihave Hst := (out_strip c (partV m ρ c) (3 : Fin 16) (2 : Fin 4) 3 rfl) $$ Hst
  iapply (wp_loadO c 3 (2 : Fin 4) (off4_eq c (3 : Fin 7) (2 : Fin 4))) $$ Hst; iintro Hst
  iapply (wp_loadR c (3 : Fin 7) (2 : Fin 4)) $$ Hbuf; iintro %V %hV Hbuf
  first | iapply (wp_ret_bind c _ _ _) | skip
  try sl_exec
  iapply (wp_loadO c 3 (2 : Fin 4) (off4_eq c (3 : Fin 7) (2 : Fin 4))) $$ Hst; iintro Hst
  iapply (wp_storeO c 3 (2 : Fin 4) (off4_eq c (3 : Fin 7) (2 : Fin 4))) $$ Hst; iintro Hst
  ihave Hst := (owns_val (c : Thread nD τ) (oS c 3 (2 : Fin 4)) (Y := addS _ (accR m ρ ((3 : Fin 7)).val (lft c) (2 : Fin 4))) (by exact add_val _ _ V hV)) $$ Hst
  ihave Hrb := (blk_rb_put (F := F) c (3 : Fin 7) (2 : Fin 4) _ _) $$ [Hbuf Hrb]
  · iframe
    all_goals imemq
  first | iapply (wp_ret_bind c _ _ _) | skip
  try sl_exec
  -- reduce rightwards, step 4, strip 2: the running sum at distance 3 leaves for the neighbour after
  iapply (blk_rr_send m ρ K c (4 : Fin 7) (2 : Fin 4) 39 _ (dev40_eq c _) (off2_eq c (4 : Fin 7) (2 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 3, strip 3 has landed: the running sum of the devices after
  iapply (blk_wait_rl_arr m ρ K c (3 : Fin 8) (3 : Fin 4) 40 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 3 is added into the own strip at distance 12, strip 3
  ihave Hs := (take _ ((12 : Fin 16), (3 : Fin 4)) (by imemp) (outΦ c (partV m ρ c))) $$ Hos
  icases Hs with ⟨Hst, Hos⟩
  ihave Hst := (out_strip c (partV m ρ c) (12 : Fin 16) (3 : Fin 4) 12 rfl) $$ Hst
  iapply (wp_loadO c 12 (3 : Fin 4) (off3_eq c (3 : Fin 8) (3 : Fin 4))) $$ Hst; iintro Hst
  iapply (wp_loadL c (3 : Fin 8) (3 : Fin 4)) $$ Hbuf; iintro %V %hV Hbuf
  first | iapply (wp_ret_bind c _ _ _) | skip
  try sl_exec
  iapply (wp_loadO c 12 (3 : Fin 4) (off3_eq c (3 : Fin 8) (3 : Fin 4))) $$ Hst; iintro Hst
  iapply (wp_storeO c 12 (3 : Fin 4) (off3_eq c (3 : Fin 8) (3 : Fin 4))) $$ Hst; iintro Hst
  ihave Hst := (owns_val (c : Thread nD τ) (oS c 12 (3 : Fin 4)) (Y := addS _ (accL m ρ ((3 : Fin 8)).val (rgt c) (3 : Fin 4))) (by exact add_val _ _ V hV)) $$ Hst
  ihave Hlb := (blk_lb_put (F := F) c (3 : Fin 8) (3 : Fin 4) _ _) $$ [Hbuf Hlb]
  · iframe
    all_goals imemq
  first | iapply (wp_ret_bind c _ _ _) | skip
  try sl_exec
  -- reduce leftwards, step 4, strip 3: the running sum at distance 12 leaves for the neighbour before
  iapply (blk_rl_send m ρ K c (4 : Fin 8) (3 : Fin 4) 40 _ (dev41_eq c _) (off1_eq_far c (4 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 3, strip 3 has landed: the running sum of the devices before
  iapply (blk_wait_rr_arr m ρ K c (3 : Fin 7) (3 : Fin 4) 41 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 3 is added into the own strip at distance 3, strip 3
  ihave Hs := (take _ ((3 : Fin 16), (3 : Fin 4)) (by imemp) (outΦ c (partV m ρ c))) $$ Hos
  icases Hs with ⟨Hst, Hos⟩
  ihave Hst := (out_strip c (partV m ρ c) (3 : Fin 16) (3 : Fin 4) 3 rfl) $$ Hst
  iapply (wp_loadO c 3 (3 : Fin 4) (off4_eq c (3 : Fin 7) (3 : Fin 4))) $$ Hst; iintro Hst
  first | iapply (wp_ret_bind c _ _ _) | skip
  try sl_exec
  iapply (wp_loadR c (3 : Fin 7) (3 : Fin 4)) $$ Hbuf; iintro %V %hV Hbuf
  iapply (wp_loadO c 3 (3 : Fin 4) (off4_eq c (3 : Fin 7) (3 : Fin 4))) $$ Hst; iintro Hst
  iapply (wp_storeO c 3 (3 : Fin 4) (off4_eq c (3 : Fin 7) (3 : Fin 4))) $$ Hst; iintro Hst
  ihave Hst := (owns_val (c : Thread nD τ) (oS c 3 (3 : Fin 4)) (Y := addS _ (accR m ρ ((3 : Fin 7)).val (lft c) (3 : Fin 4))) (by exact add_val _ _ V hV)) $$ Hst
  ihave Hrb := (blk_rb_put (F := F) c (3 : Fin 7) (3 : Fin 4) _ _) $$ [Hbuf Hrb]
  · iframe
    all_goals imemq
  first | iapply (wp_ret_bind c _ _ _) | skip
  try sl_exec
  -- reduce rightwards, step 4, strip 3: the running sum at distance 3 leaves for the neighbour after
  iapply (blk_rr_send m ρ K c (4 : Fin 7) (3 : Fin 4) 41 _ (dev42_eq c _) (off2_eq c (4 : Fin 7) (3 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the departure of the reduce-left step 3, strip 0 is complete
  iapply (blk_wait_rl_dep m ρ K c (3 : Fin 8) (0 : Fin 4) 42 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 3, strip 0 is complete
  iapply (blk_wait_rr_dep m ρ K c (3 : Fin 7) (0 : Fin 4) 42 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 3, strip 1 is complete
  iapply (blk_wait_rl_dep m ρ K c (3 : Fin 8) (1 : Fin 4) 42 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 3, strip 1 is complete
  iapply (blk_wait_rr_dep m ρ K c (3 : Fin 7) (1 : Fin 4) 42 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 3, strip 2 is complete
  iapply (blk_wait_rl_dep m ρ K c (3 : Fin 8) (2 : Fin 4) 42 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 3, strip 2 is complete
  iapply (blk_wait_rr_dep m ρ K c (3 : Fin 7) (2 : Fin 4) 42 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 3, strip 3 is complete
  iapply (blk_wait_rl_dep m ρ K c (3 : Fin 8) (3 : Fin 4) 42 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 3, strip 3 is complete
  iapply (blk_wait_rr_dep m ρ K c (3 : Fin 7) (3 : Fin 4) 42 (credit_any _)) $$ [Hdr Hpos Hdone HO]
  · iframe # ∗
    isplitr
    · imemq
    · imay
  iintro ⟨Hdr, Hpos, Hdone, HO⟩
  first | iapply (wp_ret_bind c _ _ _) | skip
  try sl_exec
  -- the left-travelling step 4, strip 0 has landed: the running sum of the devices after
  iapply (blk_wait_rl_arr m ρ K c (4 : Fin 8) (0 : Fin 4) 42 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 4 is added into the own strip at distance 13, strip 0
  ihave Hs := (take _ ((13 : Fin 16), (0 : Fin 4)) (by imemp) (outΦ c (partV m ρ c))) $$ Hos
  icases Hs with ⟨Hst, Hos⟩
  ihave Hst := (out_strip c (partV m ρ c) (13 : Fin 16) (0 : Fin 4) 13 rfl) $$ Hst
  iapply (wp_addL c 13 (4 : Fin 8) (0 : Fin 4) k0_pay2 (fun _ _ => rfl) (off3_eq c (4 : Fin 8) (0 : Fin 4))) $$ [Hst Hbuf]
  · isplitl [Hst]
    · iexact Hst
    · iexact Hbuf
  iintro ⟨Hst, Hbuf⟩
  ihave Hlb := (blk_lb_put (F := F) c (4 : Fin 8) (0 : Fin 4) _ _) $$ [Hbuf Hlb]
  · iframe
    all_goals imemq
  first | iapply (wp_ret_bind c _ _ _) | skip
  try sl_exec
  -- reduce leftwards, step 5, strip 0: the running sum at distance 13 leaves for the neighbour before
  iapply (blk_rl_send m ρ K c (5 : Fin 8) (0 : Fin 4) 42 _ (dev43_eq c _) (off1_eq_far c (5 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 4, strip 0 has landed: the running sum of the devices before
  iapply (blk_wait_rr_arr m ρ K c (4 : Fin 7) (0 : Fin 4) 43 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 4 is added into the own strip at distance 2, strip 0
  ihave Hs := (take _ ((2 : Fin 16), (0 : Fin 4)) (by imemp) (outΦ c (partV m ρ c))) $$ Hos
  icases Hs with ⟨Hst, Hos⟩
  ihave Hst := (out_strip c (partV m ρ c) (2 : Fin 16) (0 : Fin 4) 2 rfl) $$ Hst
  iapply (wp_loadO c 2 (0 : Fin 4) (off4_eq c (4 : Fin 7) (0 : Fin 4))) $$ Hst; iintro Hst
  iapply (wp_loadR c (4 : Fin 7) (0 : Fin 4)) $$ Hbuf; iintro %V %hV Hbuf
  first | iapply (wp_ret_bind c _ _ _) | skip
  try sl_exec
  iapply (wp_loadO c 2 (0 : Fin 4) (off4_eq c (4 : Fin 7) (0 : Fin 4))) $$ Hst; iintro Hst
  iapply (wp_storeO c 2 (0 : Fin 4) (off4_eq c (4 : Fin 7) (0 : Fin 4))) $$ Hst; iintro Hst
  ihave Hst := (owns_val (c : Thread nD τ) (oS c 2 (0 : Fin 4)) (Y := addS _ (accR m ρ ((4 : Fin 7)).val (lft c) (0 : Fin 4))) (by exact add_val _ _ V hV)) $$ Hst
  ihave Hrb := (blk_rb_put (F := F) c (4 : Fin 7) (0 : Fin 4) _ _) $$ [Hbuf Hrb]
  · iframe
    all_goals imemq
  first | iapply (wp_ret_bind c _ _ _) | skip
  try sl_exec
  -- reduce rightwards, step 5, strip 0: the running sum at distance 2 leaves for the neighbour after
  iapply (blk_rr_send m ρ K c (5 : Fin 7) (0 : Fin 4) 43 _ (dev44_eq c _) (off2_eq c (5 : Fin 7) (0 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 4, strip 1 has landed: the running sum of the devices after
  iapply (blk_wait_rl_arr m ρ K c (4 : Fin 8) (1 : Fin 4) 44 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 4 is added into the own strip at distance 13, strip 1
  ihave Hs := (take _ ((13 : Fin 16), (1 : Fin 4)) (by imemp) (outΦ c (partV m ρ c))) $$ Hos
  icases Hs with ⟨Hst, Hos⟩
  ihave Hst := (out_strip c (partV m ρ c) (13 : Fin 16) (1 : Fin 4) 13 rfl) $$ Hst
  iapply (wp_loadO c 13 (1 : Fin 4) (off3_eq c (4 : Fin 8) (1 : Fin 4))) $$ Hst; iintro Hst
  iapply (wp_loadL c (4 : Fin 8) (1 : Fin 4)) $$ Hbuf; iintro %V %hV Hbuf
  first | iapply (wp_ret_bind c _ _ _) | skip
  try sl_exec
  iapply (wp_loadO c 13 (1 : Fin 4) (off3_eq c (4 : Fin 8) (1 : Fin 4))) $$ Hst; iintro Hst
  iapply (wp_storeO c 13 (1 : Fin 4) (off3_eq c (4 : Fin 8) (1 : Fin 4))) $$ Hst; iintro Hst
  ihave Hst := (owns_val (c : Thread nD τ) (oS c 13 (1 : Fin 4)) (Y := addS _ (accL m ρ ((4 : Fin 8)).val (rgt c) (1 : Fin 4))) (by exact add_val _ _ V hV)) $$ Hst
  ihave Hlb := (blk_lb_put (F := F) c (4 : Fin 8) (1 : Fin 4) _ _) $$ [Hbuf Hlb]
  · iframe
    all_goals imemq
  first | iapply (wp_ret_bind c _ _ _) | skip
  try sl_exec
  -- reduce leftwards, step 5, strip 1: the running sum at distance 13 leaves for the neighbour before
  iapply (blk_rl_send m ρ K c (5 : Fin 8) (1 : Fin 4) 44 _ (dev45_eq c _) (off1_eq_far c (5 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 4, strip 1 has landed: the running sum of the devices before
  iapply (blk_wait_rr_arr m ρ K c (4 : Fin 7) (1 : Fin 4) 45 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 4 is added into the own strip at distance 2, strip 1
  ihave Hs := (take _ ((2 : Fin 16), (1 : Fin 4)) (by imemp) (outΦ c (partV m ρ c))) $$ Hos
  icases Hs with ⟨Hst, Hos⟩
  ihave Hst := (out_strip c (partV m ρ c) (2 : Fin 16) (1 : Fin 4) 2 rfl) $$ Hst
  iapply (wp_loadO c 2 (1 : Fin 4) (off4_eq c (4 : Fin 7) (1 : Fin 4))) $$ Hst; iintro Hst
  iapply (wp_loadR c (4 : Fin 7) (1 : Fin 4)) $$ Hbuf; iintro %V %hV Hbuf
  first | iapply (wp_ret_bind c _ _ _) | skip
  try sl_exec
  iapply (wp_loadO c 2 (1 : Fin 4) (off4_eq c (4 : Fin 7) (1 : Fin 4))) $$ Hst; iintro Hst
  iapply (wp_storeO c 2 (1 : Fin 4) (off4_eq c (4 : Fin 7) (1 : Fin 4))) $$ Hst; iintro Hst
  ihave Hst := (owns_val (c : Thread nD τ) (oS c 2 (1 : Fin 4)) (Y := addS _ (accR m ρ ((4 : Fin 7)).val (lft c) (1 : Fin 4))) (by exact add_val _ _ V hV)) $$ Hst
  ihave Hrb := (blk_rb_put (F := F) c (4 : Fin 7) (1 : Fin 4) _ _) $$ [Hbuf Hrb]
  · iframe
    all_goals imemq
  first | iapply (wp_ret_bind c _ _ _) | skip
  try sl_exec
  -- reduce rightwards, step 5, strip 1: the running sum at distance 2 leaves for the neighbour after
  iapply (blk_rr_send m ρ K c (5 : Fin 7) (1 : Fin 4) 45 _ (dev46_eq c _) (off2_eq c (5 : Fin 7) (1 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 4, strip 2 has landed: the running sum of the devices after
  iapply (blk_wait_rl_arr m ρ K c (4 : Fin 8) (2 : Fin 4) 46 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 4 is added into the own strip at distance 13, strip 2
  ihave Hs := (take _ ((13 : Fin 16), (2 : Fin 4)) (by imemp) (outΦ c (partV m ρ c))) $$ Hos
  icases Hs with ⟨Hst, Hos⟩
  ihave Hst := (out_strip c (partV m ρ c) (13 : Fin 16) (2 : Fin 4) 13 rfl) $$ Hst
  iapply (wp_addL c 13 (4 : Fin 8) (2 : Fin 4) k0_pay2 (fun _ _ => rfl) (off3_eq c (4 : Fin 8) (2 : Fin 4))) $$ [Hst Hbuf]
  · isplitl [Hst]
    · iexact Hst
    · iexact Hbuf
  iintro ⟨Hst, Hbuf⟩
  ihave Hlb := (blk_lb_put (F := F) c (4 : Fin 8) (2 : Fin 4) _ _) $$ [Hbuf Hlb]
  · iframe
    all_goals imemq
  first | iapply (wp_ret_bind c _ _ _) | skip
  try sl_exec
  -- reduce leftwards, step 5, strip 2: the running sum at distance 13 leaves for the neighbour before
  iapply (blk_rl_send m ρ K c (5 : Fin 8) (2 : Fin 4) 46 _ (dev47_eq c _) (off1_eq_far c (5 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 4, strip 2 has landed: the running sum of the devices before
  iapply (blk_wait_rr_arr m ρ K c (4 : Fin 7) (2 : Fin 4) 47 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 4 is added into the own strip at distance 2, strip 2
  ihave Hs := (take _ ((2 : Fin 16), (2 : Fin 4)) (by imemp) (outΦ c (partV m ρ c))) $$ Hos
  icases Hs with ⟨Hst, Hos⟩
  ihave Hst := (out_strip c (partV m ρ c) (2 : Fin 16) (2 : Fin 4) 2 rfl) $$ Hst
  iapply (wp_addR c 2 (4 : Fin 7) (2 : Fin 4) k0_pay2 (fun _ _ => rfl) (off4_eq c (4 : Fin 7) (2 : Fin 4))) $$ [Hst Hbuf]
  · isplitl [Hst]
    · iexact Hst
    · iexact Hbuf
  iintro ⟨Hst, Hbuf⟩
  ihave Hrb := (blk_rb_put (F := F) c (4 : Fin 7) (2 : Fin 4) _ _) $$ [Hbuf Hrb]
  · iframe
    all_goals imemq
  first | iapply (wp_ret_bind c _ _ _) | skip
  try sl_exec
  -- reduce rightwards, step 5, strip 2: the running sum at distance 2 leaves for the neighbour after
  iapply (blk_rr_send m ρ K c (5 : Fin 7) (2 : Fin 4) 47 _ (dev48_eq c _) (off2_eq c (5 : Fin 7) (2 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 4, strip 3 has landed: the running sum of the devices after
  iapply (blk_wait_rl_arr m ρ K c (4 : Fin 8) (3 : Fin 4) 48 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 4 is added into the own strip at distance 13, strip 3
  ihave Hs := (take _ ((13 : Fin 16), (3 : Fin 4)) (by imemp) (outΦ c (partV m ρ c))) $$ Hos
  icases Hs with ⟨Hst, Hos⟩
  ihave Hst := (out_strip c (partV m ρ c) (13 : Fin 16) (3 : Fin 4) 13 rfl) $$ Hst
  iapply (wp_addL c 13 (4 : Fin 8) (3 : Fin 4) k0_pay2 (fun _ _ => rfl) (off3_eq c (4 : Fin 8) (3 : Fin 4))) $$ [Hst Hbuf]
  · isplitl [Hst]
    · iexact Hst
    · iexact Hbuf
  iintro ⟨Hst, Hbuf⟩
  ihave Hlb := (blk_lb_put (F := F) c (4 : Fin 8) (3 : Fin 4) _ _) $$ [Hbuf Hlb]
  · iframe
    all_goals imemq
  first | iapply (wp_ret_bind c _ _ _) | skip
  try sl_exec
  -- reduce leftwards, step 5, strip 3: the running sum at distance 13 leaves for the neighbour before
  iapply (blk_rl_send m ρ K c (5 : Fin 8) (3 : Fin 4) 48 _ (dev49_eq c _) (off1_eq_far c (5 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 4, strip 3 has landed: the running sum of the devices before
  iapply (blk_wait_rr_arr m ρ K c (4 : Fin 7) (3 : Fin 4) 49 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 4 is added into the own strip at distance 2, strip 3
  ihave Hs := (take _ ((2 : Fin 16), (3 : Fin 4)) (by imemp) (outΦ c (partV m ρ c))) $$ Hos
  icases Hs with ⟨Hst, Hos⟩
  ihave Hst := (out_strip c (partV m ρ c) (2 : Fin 16) (3 : Fin 4) 2 rfl) $$ Hst
  iapply (wp_loadO c 2 (3 : Fin 4) (off4_eq c (4 : Fin 7) (3 : Fin 4))) $$ Hst; iintro Hst
  iapply (wp_loadR c (4 : Fin 7) (3 : Fin 4)) $$ Hbuf; iintro %V %hV Hbuf
  first | iapply (wp_ret_bind c _ _ _) | skip
  try sl_exec
  iapply (wp_loadO c 2 (3 : Fin 4) (off4_eq c (4 : Fin 7) (3 : Fin 4))) $$ Hst; iintro Hst
  iapply (wp_storeO c 2 (3 : Fin 4) (off4_eq c (4 : Fin 7) (3 : Fin 4))) $$ Hst; iintro Hst
  ihave Hst := (owns_val (c : Thread nD τ) (oS c 2 (3 : Fin 4)) (Y := addS _ (accR m ρ ((4 : Fin 7)).val (lft c) (3 : Fin 4))) (by exact add_val _ _ V hV)) $$ Hst
  ihave Hrb := (blk_rb_put (F := F) c (4 : Fin 7) (3 : Fin 4) _ _) $$ [Hbuf Hrb]
  · iframe
    all_goals imemq
  first | iapply (wp_ret_bind c _ _ _) | skip
  try sl_exec
  -- reduce rightwards, step 5, strip 3: the running sum at distance 2 leaves for the neighbour after
  iapply (blk_rr_send m ρ K c (5 : Fin 7) (3 : Fin 4) 49 _ (dev50_eq c _) (off2_eq c (5 : Fin 7) (3 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the departure of the reduce-left step 4, strip 0 is complete
  iapply (blk_wait_rl_dep m ρ K c (4 : Fin 8) (0 : Fin 4) 50 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 4, strip 0 is complete
  iapply (blk_wait_rr_dep m ρ K c (4 : Fin 7) (0 : Fin 4) 50 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 4, strip 1 is complete
  iapply (blk_wait_rl_dep m ρ K c (4 : Fin 8) (1 : Fin 4) 50 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 4, strip 1 is complete
  iapply (blk_wait_rr_dep m ρ K c (4 : Fin 7) (1 : Fin 4) 50 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 4, strip 2 is complete
  iapply (blk_wait_rl_dep m ρ K c (4 : Fin 8) (2 : Fin 4) 50 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 4, strip 2 is complete
  iapply (blk_wait_rr_dep m ρ K c (4 : Fin 7) (2 : Fin 4) 50 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 4, strip 3 is complete
  iapply (blk_wait_rl_dep m ρ K c (4 : Fin 8) (3 : Fin 4) 50 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 4, strip 3 is complete
  iapply (blk_wait_rr_dep m ρ K c (4 : Fin 7) (3 : Fin 4) 50 (credit_any _)) $$ [Hdr Hpos Hdone HO]
  · iframe # ∗
    isplitr
    · imemq
    · imay
  iintro ⟨Hdr, Hpos, Hdone, HO⟩
  first | iapply (wp_ret_bind c _ _ _) | skip
  try sl_exec
  -- the left-travelling step 5, strip 0 has landed: the running sum of the devices after
  iapply (blk_wait_rl_arr m ρ K c (5 : Fin 8) (0 : Fin 4) 50 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 5 is added into the own strip at distance 14, strip 0
  ihave Hs := (take _ ((14 : Fin 16), (0 : Fin 4)) (by imemp) (outΦ c (partV m ρ c))) $$ Hos
  icases Hs with ⟨Hst, Hos⟩
  ihave Hst := (out_strip c (partV m ρ c) (14 : Fin 16) (0 : Fin 4) 14 rfl) $$ Hst
  iapply (wp_addL c 14 (5 : Fin 8) (0 : Fin 4) k0_pay2 (fun _ _ => rfl) (off3_eq c (5 : Fin 8) (0 : Fin 4))) $$ [Hst Hbuf]
  · isplitl [Hst]
    · iexact Hst
    · iexact Hbuf
  iintro ⟨Hst, Hbuf⟩
  ihave Hlb := (blk_lb_put (F := F) c (5 : Fin 8) (0 : Fin 4) _ _) $$ [Hbuf Hlb]
  · iframe
    all_goals imemq
  first | iapply (wp_ret_bind c _ _ _) | skip
  try sl_exec
  -- reduce leftwards, step 6, strip 0: the running sum at distance 14 leaves for the neighbour before
  iapply (blk_rl_send m ρ K c (6 : Fin 8) (0 : Fin 4) 50 _ (dev51_eq c _) (off1_eq_far c (6 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 5, strip 0 has landed: the running sum of the devices before
  iapply (blk_wait_rr_arr m ρ K c (5 : Fin 7) (0 : Fin 4) 51 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 5 is added into the own strip at distance 1, strip 0
  ihave Hs := (take _ ((1 : Fin 16), (0 : Fin 4)) (by imemp) (outΦ c (partV m ρ c))) $$ Hos
  icases Hs with ⟨Hst, Hos⟩
  ihave Hst := (out_strip c (partV m ρ c) (1 : Fin 16) (0 : Fin 4) 1 rfl) $$ Hst
  iapply (wp_addR c 1 (5 : Fin 7) (0 : Fin 4) k0_pay2 (fun _ _ => rfl) (off4_eq c (5 : Fin 7) (0 : Fin 4))) $$ [Hst Hbuf]
  · isplitl [Hst]
    · iexact Hst
    · iexact Hbuf
  iintro ⟨Hst, Hbuf⟩
  ihave Hrb := (blk_rb_put (F := F) c (5 : Fin 7) (0 : Fin 4) _ _) $$ [Hbuf Hrb]
  · iframe
    all_goals imemq
  first | iapply (wp_ret_bind c _ _ _) | skip
  try sl_exec
  -- reduce rightwards, step 6, strip 0: the running sum at distance 1 leaves for the neighbour after
  iapply (blk_rr_send m ρ K c (6 : Fin 7) (0 : Fin 4) 51 _ (dev52_eq c _) (off2_eq c (6 : Fin 7) (0 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 5, strip 1 has landed: the running sum of the devices after
  iapply (blk_wait_rl_arr m ρ K c (5 : Fin 8) (1 : Fin 4) 52 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 5 is added into the own strip at distance 14, strip 1
  ihave Hs := (take _ ((14 : Fin 16), (1 : Fin 4)) (by imemp) (outΦ c (partV m ρ c))) $$ Hos
  icases Hs with ⟨Hst, Hos⟩
  ihave Hst := (out_strip c (partV m ρ c) (14 : Fin 16) (1 : Fin 4) 14 rfl) $$ Hst
  iapply (wp_addL c 14 (5 : Fin 8) (1 : Fin 4) k0_pay2 (fun _ _ => rfl) (off3_eq c (5 : Fin 8) (1 : Fin 4))) $$ [Hst Hbuf]
  · isplitl [Hst]
    · iexact Hst
    · iexact Hbuf
  iintro ⟨Hst, Hbuf⟩
  ihave Hlb := (blk_lb_put (F := F) c (5 : Fin 8) (1 : Fin 4) _ _) $$ [Hbuf Hlb]
  · iframe
    all_goals imemq
  first | iapply (wp_ret_bind c _ _ _) | skip
  try sl_exec
  -- reduce leftwards, step 6, strip 1: the running sum at distance 14 leaves for the neighbour before
  iapply (blk_rl_send m ρ K c (6 : Fin 8) (1 : Fin 4) 52 _ (dev53_eq c _) (off1_eq_far c (6 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 5, strip 1 has landed: the running sum of the devices before
  iapply (blk_wait_rr_arr m ρ K c (5 : Fin 7) (1 : Fin 4) 53 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 5 is added into the own strip at distance 1, strip 1
  ihave Hs := (take _ ((1 : Fin 16), (1 : Fin 4)) (by imemp) (outΦ c (partV m ρ c))) $$ Hos
  icases Hs with ⟨Hst, Hos⟩
  ihave Hst := (out_strip c (partV m ρ c) (1 : Fin 16) (1 : Fin 4) 1 rfl) $$ Hst
  iapply (wp_loadO c 1 (1 : Fin 4) (off4_eq c (5 : Fin 7) (1 : Fin 4))) $$ Hst; iintro Hst
  iapply (wp_loadR c (5 : Fin 7) (1 : Fin 4)) $$ Hbuf; iintro %V %hV Hbuf
  iapply (wp_loadO c 1 (1 : Fin 4) (off4_eq c (5 : Fin 7) (1 : Fin 4))) $$ Hst; iintro Hst
  first | iapply (wp_ret_bind c _ _ _) | skip
  try sl_exec
  iapply (wp_storeO c 1 (1 : Fin 4) (off4_eq c (5 : Fin 7) (1 : Fin 4))) $$ Hst; iintro Hst
  ihave Hst := (owns_val (c : Thread nD τ) (oS c 1 (1 : Fin 4)) (Y := addS _ (accR m ρ ((5 : Fin 7)).val (lft c) (1 : Fin 4))) (by exact add_val _ _ V hV)) $$ Hst
  ihave Hrb := (blk_rb_put (F := F) c (5 : Fin 7) (1 : Fin 4) _ _) $$ [Hbuf Hrb]
  · iframe
    all_goals imemq
  first | iapply (wp_ret_bind c _ _ _) | skip
  try sl_exec
  -- reduce rightwards, step 6, strip 1: the running sum at distance 1 leaves for the neighbour after
  iapply (blk_rr_send m ρ K c (6 : Fin 7) (1 : Fin 4) 53 _ (dev54_eq c _) (off2_eq c (6 : Fin 7) (1 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 5, strip 2 has landed: the running sum of the devices after
  iapply (blk_wait_rl_arr m ρ K c (5 : Fin 8) (2 : Fin 4) 54 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 5 is added into the own strip at distance 14, strip 2
  ihave Hs := (take _ ((14 : Fin 16), (2 : Fin 4)) (by imemp) (outΦ c (partV m ρ c))) $$ Hos
  icases Hs with ⟨Hst, Hos⟩
  ihave Hst := (out_strip c (partV m ρ c) (14 : Fin 16) (2 : Fin 4) 14 rfl) $$ Hst
  iapply (wp_loadO c 14 (2 : Fin 4) (off3_eq c (5 : Fin 8) (2 : Fin 4))) $$ Hst; iintro Hst
  iapply (wp_loadL c (5 : Fin 8) (2 : Fin 4)) $$ Hbuf; iintro %V %hV Hbuf
  first | iapply (wp_ret_bind c _ _ _) | skip
  try sl_exec
  iapply (wp_loadO c 14 (2 : Fin 4) (off3_eq c (5 : Fin 8) (2 : Fin 4))) $$ Hst; iintro Hst
  iapply (wp_storeO c 14 (2 : Fin 4) (off3_eq c (5 : Fin 8) (2 : Fin 4))) $$ Hst; iintro Hst
  ihave Hst := (owns_val (c : Thread nD τ) (oS c 14 (2 : Fin 4)) (Y := addS _ (accL m ρ ((5 : Fin 8)).val (rgt c) (2 : Fin 4))) (by exact add_val _ _ V hV)) $$ Hst
  ihave Hlb := (blk_lb_put (F := F) c (5 : Fin 8) (2 : Fin 4) _ _) $$ [Hbuf Hlb]
  · iframe
    all_goals imemq
  first | iapply (wp_ret_bind c _ _ _) | skip
  try sl_exec
  -- reduce leftwards, step 6, strip 2: the running sum at distance 14 leaves for the neighbour before
  iapply (blk_rl_send m ρ K c (6 : Fin 8) (2 : Fin 4) 54 _ (dev55_eq c _) (off1_eq_far c (6 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 5, strip 2 has landed: the running sum of the devices before
  iapply (blk_wait_rr_arr m ρ K c (5 : Fin 7) (2 : Fin 4) 55 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 5 is added into the own strip at distance 1, strip 2
  ihave Hs := (take _ ((1 : Fin 16), (2 : Fin 4)) (by imemp) (outΦ c (partV m ρ c))) $$ Hos
  icases Hs with ⟨Hst, Hos⟩
  ihave Hst := (out_strip c (partV m ρ c) (1 : Fin 16) (2 : Fin 4) 1 rfl) $$ Hst
  iapply (wp_loadO c 1 (2 : Fin 4) (off4_eq c (5 : Fin 7) (2 : Fin 4))) $$ Hst; iintro Hst
  iapply (wp_loadR c (5 : Fin 7) (2 : Fin 4)) $$ Hbuf; iintro %V %hV Hbuf
  first | iapply (wp_ret_bind c _ _ _) | skip
  try sl_exec
  iapply (wp_loadO c 1 (2 : Fin 4) (off4_eq c (5 : Fin 7) (2 : Fin 4))) $$ Hst; iintro Hst
  iapply (wp_storeO c 1 (2 : Fin 4) (off4_eq c (5 : Fin 7) (2 : Fin 4))) $$ Hst; iintro Hst
  ihave Hst := (owns_val (c : Thread nD τ) (oS c 1 (2 : Fin 4)) (Y := addS _ (accR m ρ ((5 : Fin 7)).val (lft c) (2 : Fin 4))) (by exact add_val _ _ V hV)) $$ Hst
  ihave Hrb := (blk_rb_put (F := F) c (5 : Fin 7) (2 : Fin 4) _ _) $$ [Hbuf Hrb]
  · iframe
    all_goals imemq
  first | iapply (wp_ret_bind c _ _ _) | skip
  try sl_exec
  -- reduce rightwards, step 6, strip 2: the running sum at distance 1 leaves for the neighbour after
  iapply (blk_rr_send m ρ K c (6 : Fin 7) (2 : Fin 4) 55 _ (dev56_eq c _) (off2_eq c (6 : Fin 7) (2 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the left-travelling step 5, strip 3 has landed: the running sum of the devices after
  iapply (blk_wait_rl_arr m ρ K c (5 : Fin 8) (3 : Fin 4) 56 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 5 is added into the own strip at distance 14, strip 3
  ihave Hs := (take _ ((14 : Fin 16), (3 : Fin 4)) (by imemp) (outΦ c (partV m ρ c))) $$ Hos
  icases Hs with ⟨Hst, Hos⟩
  ihave Hst := (out_strip c (partV m ρ c) (14 : Fin 16) (3 : Fin 4) 14 rfl) $$ Hst
  iapply (wp_addL c 14 (5 : Fin 8) (3 : Fin 4) k0_pay2 (fun _ _ => rfl) (off3_eq c (5 : Fin 8) (3 : Fin 4))) $$ [Hst Hbuf]
  · isplitl [Hst]
    · iexact Hst
    · iexact Hbuf
  iintro ⟨Hst, Hbuf⟩
  ihave Hlb := (blk_lb_put (F := F) c (5 : Fin 8) (3 : Fin 4) _ _) $$ [Hbuf Hlb]
  · iframe
    all_goals imemq
  first | iapply (wp_ret_bind c _ _ _) | skip
  try sl_exec
  -- reduce leftwards, step 6, strip 3: the running sum at distance 14 leaves for the neighbour before
  iapply (blk_rl_send m ρ K c (6 : Fin 8) (3 : Fin 4) 56 _ (dev57_eq c _) (off1_eq_far c (6 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the right-travelling step 5, strip 3 has landed: the running sum of the devices before
  iapply (blk_wait_rr_arr m ρ K c (5 : Fin 7) (3 : Fin 4) 57 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 5 is added into the own strip at distance 1, strip 3
  ihave Hs := (take _ ((1 : Fin 16), (3 : Fin 4)) (by imemp) (outΦ c (partV m ρ c))) $$ Hos
  icases Hs with ⟨Hst, Hos⟩
  ihave Hst := (out_strip c (partV m ρ c) (1 : Fin 16) (3 : Fin 4) 1 rfl) $$ Hst
  iapply (wp_addR c 1 (5 : Fin 7) (3 : Fin 4) k0_pay2 (fun _ _ => rfl) (off4_eq c (5 : Fin 7) (3 : Fin 4))) $$ [Hst Hbuf]
  · isplitl [Hst]
    · iexact Hst
    · iexact Hbuf
  iintro ⟨Hst, Hbuf⟩
  ihave Hrb := (blk_rb_put (F := F) c (5 : Fin 7) (3 : Fin 4) _ _) $$ [Hbuf Hrb]
  · iframe
    all_goals imemq
  first | iapply (wp_ret_bind c _ _ _) | skip
  try sl_exec
  -- reduce rightwards, step 6, strip 3: the running sum at distance 1 leaves for the neighbour after
  iapply (blk_rr_send m ρ K c (6 : Fin 7) (3 : Fin 4) 57 _ (dev58_eq c _) (off2_eq c (6 : Fin 7) (3 : Fin 4))) $$ [Hst HRs Htrr Hdr HO]
  · isplitr
    · iexact Hrec
    isplitr
    · iexact Hlev
    isplitl [Hst]
    · iexact Hst
    iframe
    imemq
  iintro ⟨HRs, Htrr, Hdr, HO⟩
  first | iapply (wp_ret_bind c _ _ _) | skip
  try sl_exec
  -- the departure of the reduce-left step 5, strip 0 is complete
  iapply (blk_wait_rl_dep m ρ K c (5 : Fin 8) (0 : Fin 4) 58 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 5, strip 0 is complete
  iapply (blk_wait_rr_dep m ρ K c (5 : Fin 7) (0 : Fin 4) 58 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 5, strip 1 is complete
  iapply (blk_wait_rl_dep m ρ K c (5 : Fin 8) (1 : Fin 4) 58 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 5, strip 1 is complete
  iapply (blk_wait_rr_dep m ρ K c (5 : Fin 7) (1 : Fin 4) 58 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 5, strip 2 is complete
  iapply (blk_wait_rl_dep m ρ K c (5 : Fin 8) (2 : Fin 4) 58 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 5, strip 2 is complete
  iapply (blk_wait_rr_dep m ρ K c (5 : Fin 7) (2 : Fin 4) 58 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 5, strip 3 is complete
  iapply (blk_wait_rl_dep m ρ K c (5 : Fin 8) (3 : Fin 4) 58 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 5, strip 3 is complete
  iapply (blk_wait_rr_dep m ρ K c (5 : Fin 7) (3 : Fin 4) 58 (credit_any _)) $$ [Hdr Hpos Hdone HO]
  · iframe # ∗
    isplitr
    · imemq
    · imay
  iintro ⟨Hdr, Hpos, Hdone, HO⟩
  first | iapply (wp_ret_bind c _ _ _) | skip
  try sl_exec
  -- the left-travelling step 6, strip 0 has landed: the running sum of the devices after
  iapply (blk_wait_rl_arr m ρ K c (6 : Fin 8) (0 : Fin 4) 58 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 6 is added into the own strip at distance 15, strip 0
  ihave Hs := (take _ ((15 : Fin 16), (0 : Fin 4)) (by imemp) (outΦ c (partV m ρ c))) $$ Hos
  icases Hs with ⟨Hst, Hos⟩
  ihave Hst := (out_strip c (partV m ρ c) (15 : Fin 16) (0 : Fin 4) 15 rfl) $$ Hst
  iapply (wp_loadO c 15 (0 : Fin 4) (off3_eq c (6 : Fin 8) (0 : Fin 4))) $$ Hst; iintro Hst
  iapply (wp_loadL c (6 : Fin 8) (0 : Fin 4)) $$ Hbuf; iintro %V %hV Hbuf
  first | iapply (wp_ret_bind c _ _ _) | skip
  try sl_exec
  iapply (wp_loadO c 15 (0 : Fin 4) (off3_eq c (6 : Fin 8) (0 : Fin 4))) $$ Hst; iintro Hst
  iapply (wp_storeO c 15 (0 : Fin 4) (off3_eq c (6 : Fin 8) (0 : Fin 4))) $$ Hst; iintro Hst
  ihave Hst := (owns_val (c : Thread nD τ) (oS c 15 (0 : Fin 4)) (Y := addS _ (accL m ρ ((6 : Fin 8)).val (rgt c) (0 : Fin 4))) (by exact add_val _ _ V hV)) $$ Hst
  ihave Hlb := (blk_lb_put (F := F) c (6 : Fin 8) (0 : Fin 4) _ _) $$ [Hbuf Hlb]
  · iframe
    all_goals imemq
  first | iapply (wp_ret_bind c _ _ _) | skip
  try sl_exec
  -- reduce leftwards, step 7, strip 0: the running sum at distance 15 leaves for the neighbour before
  iapply (blk_rl_send m ρ K c (7 : Fin 8) (0 : Fin 4) 58 _ (dev59_eq c _) (off1_eq_far c (7 : Fin 8) (0 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the left-travelling step 6, strip 1 has landed: the running sum of the devices after
  iapply (blk_wait_rl_arr m ρ K c (6 : Fin 8) (1 : Fin 4) 59 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 6 is added into the own strip at distance 15, strip 1
  ihave Hs := (take _ ((15 : Fin 16), (1 : Fin 4)) (by imemp) (outΦ c (partV m ρ c))) $$ Hos
  icases Hs with ⟨Hst, Hos⟩
  ihave Hst := (out_strip c (partV m ρ c) (15 : Fin 16) (1 : Fin 4) 15 rfl) $$ Hst
  iapply (wp_loadO c 15 (1 : Fin 4) (off3_eq c (6 : Fin 8) (1 : Fin 4))) $$ Hst; iintro Hst
  iapply (wp_loadL c (6 : Fin 8) (1 : Fin 4)) $$ Hbuf; iintro %V %hV Hbuf
  first | iapply (wp_ret_bind c _ _ _) | skip
  try sl_exec
  iapply (wp_loadO c 15 (1 : Fin 4) (off3_eq c (6 : Fin 8) (1 : Fin 4))) $$ Hst; iintro Hst
  iapply (wp_storeO c 15 (1 : Fin 4) (off3_eq c (6 : Fin 8) (1 : Fin 4))) $$ Hst; iintro Hst
  ihave Hst := (owns_val (c : Thread nD τ) (oS c 15 (1 : Fin 4)) (Y := addS _ (accL m ρ ((6 : Fin 8)).val (rgt c) (1 : Fin 4))) (by exact add_val _ _ V hV)) $$ Hst
  ihave Hlb := (blk_lb_put (F := F) c (6 : Fin 8) (1 : Fin 4) _ _) $$ [Hbuf Hlb]
  · iframe
    all_goals imemq
  first | iapply (wp_ret_bind c _ _ _) | skip
  try sl_exec
  -- reduce leftwards, step 7, strip 1: the running sum at distance 15 leaves for the neighbour before
  iapply (blk_rl_send m ρ K c (7 : Fin 8) (1 : Fin 4) 59 _ (dev60_eq c _) (off1_eq_far c (7 : Fin 8) (1 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the left-travelling step 6, strip 2 has landed: the running sum of the devices after
  iapply (blk_wait_rl_arr m ρ K c (6 : Fin 8) (2 : Fin 4) 60 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 6 is added into the own strip at distance 15, strip 2
  ihave Hs := (take _ ((15 : Fin 16), (2 : Fin 4)) (by imemp) (outΦ c (partV m ρ c))) $$ Hos
  icases Hs with ⟨Hst, Hos⟩
  ihave Hst := (out_strip c (partV m ρ c) (15 : Fin 16) (2 : Fin 4) 15 rfl) $$ Hst
  iapply (wp_loadO c 15 (2 : Fin 4) (off3_eq c (6 : Fin 8) (2 : Fin 4))) $$ Hst; iintro Hst
  iapply (wp_loadL c (6 : Fin 8) (2 : Fin 4)) $$ Hbuf; iintro %V %hV Hbuf
  first | iapply (wp_ret_bind c _ _ _) | skip
  try sl_exec
  iapply (wp_loadO c 15 (2 : Fin 4) (off3_eq c (6 : Fin 8) (2 : Fin 4))) $$ Hst; iintro Hst
  iapply (wp_storeO c 15 (2 : Fin 4) (off3_eq c (6 : Fin 8) (2 : Fin 4))) $$ Hst; iintro Hst
  ihave Hst := (owns_val (c : Thread nD τ) (oS c 15 (2 : Fin 4)) (Y := addS _ (accL m ρ ((6 : Fin 8)).val (rgt c) (2 : Fin 4))) (by exact add_val _ _ V hV)) $$ Hst
  ihave Hlb := (blk_lb_put (F := F) c (6 : Fin 8) (2 : Fin 4) _ _) $$ [Hbuf Hlb]
  · iframe
    all_goals imemq
  first | iapply (wp_ret_bind c _ _ _) | skip
  try sl_exec
  -- reduce leftwards, step 7, strip 2: the running sum at distance 15 leaves for the neighbour before
  iapply (blk_rl_send m ρ K c (7 : Fin 8) (2 : Fin 4) 60 _ (dev61_eq c _) (off1_eq_far c (7 : Fin 8) (2 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the left-travelling step 6, strip 3 has landed: the running sum of the devices after
  iapply (blk_wait_rl_arr m ρ K c (6 : Fin 8) (3 : Fin 4) 61 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the landed sum of step 6 is added into the own strip at distance 15, strip 3
  ihave Hs := (take _ ((15 : Fin 16), (3 : Fin 4)) (by imemp) (outΦ c (partV m ρ c))) $$ Hos
  icases Hs with ⟨Hst, Hos⟩
  ihave Hst := (out_strip c (partV m ρ c) (15 : Fin 16) (3 : Fin 4) 15 rfl) $$ Hst
  iapply (wp_addL c 15 (6 : Fin 8) (3 : Fin 4) k0_pay2 (fun _ _ => rfl) (off3_eq c (6 : Fin 8) (3 : Fin 4))) $$ [Hst Hbuf]
  · isplitl [Hst]
    · iexact Hst
    · iexact Hbuf
  iintro ⟨Hst, Hbuf⟩
  ihave Hlb := (blk_lb_put (F := F) c (6 : Fin 8) (3 : Fin 4) _ _) $$ [Hbuf Hlb]
  · iframe
    all_goals imemq
  first | iapply (wp_ret_bind c _ _ _) | skip
  try sl_exec
  -- reduce leftwards, step 7, strip 3: the running sum at distance 15 leaves for the neighbour before
  iapply (blk_rl_send m ρ K c (7 : Fin 8) (3 : Fin 4) 61 _ (dev62_eq c _) (off1_eq_far c (7 : Fin 8) (3 : Fin 4))) $$ [Hst HLs Htrl Hdl HO]
  · isplitr
    · iexact Hrec
    isplitr
    · iexact Hlev
    isplitl [Hst]
    · iexact Hst
    iframe
    imemq
  iintro ⟨HLs, Htrl, Hdl, HO⟩
  first | iapply (wp_ret_bind c _ _ _) | skip
  try sl_exec
  -- the departure of the reduce-left step 6, strip 0 is complete
  iapply (blk_wait_rl_dep m ρ K c (6 : Fin 8) (0 : Fin 4) 62 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 6, strip 0 is complete
  iapply (blk_wait_rr_dep m ρ K c (6 : Fin 7) (0 : Fin 4) 62 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 6, strip 1 is complete
  iapply (blk_wait_rl_dep m ρ K c (6 : Fin 8) (1 : Fin 4) 62 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 6, strip 1 is complete
  iapply (blk_wait_rr_dep m ρ K c (6 : Fin 7) (1 : Fin 4) 62 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 6, strip 2 is complete
  iapply (blk_wait_rl_dep m ρ K c (6 : Fin 8) (2 : Fin 4) 62 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 6, strip 2 is complete
  iapply (blk_wait_rr_dep m ρ K c (6 : Fin 7) (2 : Fin 4) 62 (credit_any _)) $$ [Hdr Hpos Hdone HO]
  · iframe # ∗
    isplitr
    · imemq
    · imay
  iintro ⟨Hdr, Hpos, Hdone, HO⟩
  first | iapply (wp_ret_bind c _ _ _) | skip
  try sl_exec
  -- the departure of the reduce-left step 6, strip 3 is complete
  iapply (blk_wait_rl_dep m ρ K c (6 : Fin 8) (3 : Fin 4) 62 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-right step 6, strip 3 is complete
  iapply (blk_wait_rr_dep m ρ K c (6 : Fin 7) (3 : Fin 4) 62 (credit_any _)) $$ [Hdr Hpos Hdone HO]
  · iframe # ∗
    isplitr
    · imemq
    · imay
  iintro ⟨Hdr, Hpos, Hdone, HO⟩
  first | iapply (wp_ret_bind c _ _ _) | skip
  try sl_exec
  -- the right-travelling step 6, strip 0 has landed: the running sum of the devices before
  iapply (blk_wait_rr_arr m ρ K c (6 : Fin 7) (0 : Fin 4) 62 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 6 is added into the own strip at distance 0, strip 0
  ihave Hs := (take _ ((0 : Fin 16), (0 : Fin 4)) (by imemp) (outΦ c (partV m ρ c))) $$ Hos
  icases Hs with ⟨Hst, Hos⟩
  ihave Hst := (out_strip c (partV m ρ c) (0 : Fin 16) (0 : Fin 4) 0 rfl) $$ Hst
  iapply (wp_addR c 0 (6 : Fin 7) (0 : Fin 4) k0_pay2 (fun _ _ => rfl) (off4_eq c (6 : Fin 7) (0 : Fin 4))) $$ [Hst Hbuf]
  · isplitl [Hst]
    · iexact Hst
    · iexact Hbuf
  iintro ⟨Hst, Hbuf⟩
  ihave Hrb := (blk_rb_put (F := F) c (6 : Fin 7) (0 : Fin 4) _ _) $$ [Hbuf Hrb]
  · iframe
    all_goals imemq
  first | iapply (wp_ret_bind c _ _ _) | skip
  try sl_exec
  -- the left-travelling step 7, strip 0 has landed: the running sum of the devices after
  iapply (blk_wait_rl_arr m ρ K c (7 : Fin 8) (0 : Fin 4) 62 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the last landed sum is added into the device's own strip 0, the chunk at distance 16 being its own again
  ihave Hst := (owns_sixteen' c (0 : Fin 4)) $$ Hst
  iapply (wp_loadO c 16 (0 : Fin 4) (off3_eq c (7 : Fin 8) (0 : Fin 4))) $$ Hst; iintro Hst
  iapply (wp_loadL c (7 : Fin 8) (0 : Fin 4)) $$ Hbuf; iintro %V %hV Hbuf
  first | iapply (wp_ret_bind c _ _ _) | skip
  try sl_exec
  iapply (wp_loadO c 16 (0 : Fin 4) (off3_eq c (7 : Fin 8) (0 : Fin 4))) $$ Hst; iintro Hst
  iapply (wp_storeO c 16 (0 : Fin 4) (off3_eq c (7 : Fin 8) (0 : Fin 4))) $$ Hst; iintro Hst
  ihave Hst := (owns_val (c : Thread nD τ) (oS c 16 (0 : Fin 4)) (Y := addS _ (accL m ρ ((7 : Fin 8)).val (rgt c) (0 : Fin 4))) (by exact add_val _ _ V hV)) $$ Hst
  ihave Hst := (owns_sixteen c (0 : Fin 4)) $$ Hst
  ihave Hlb := (blk_lb_put (F := F) c (7 : Fin 8) (0 : Fin 4) _ _) $$ [Hbuf Hlb]
  · iframe
    all_goals imemq
  first | iapply (wp_ret_bind c _ _ _) | skip
  try sl_exec
  -- the GELU of the device's own strip 0, now the sum over all sixteen devices
  iapply (wp_loadO c 0 (0 : Fin 4) (off5_eq c (0 : Fin 4))) $$ Hst; iintro Hst
  first | iapply (wp_ret_bind c _ _ _) | skip
  try sl_exec
  iapply (wp_loadO c 0 (0 : Fin 4) (off5_eq c (0 : Fin 4))) $$ Hst; iintro Hst
  iapply (wp_storeO c 0 (0 : Fin 4) (off5_eq c (0 : Fin 4))) $$ Hst; iintro Hst
  ihave Hst := (owns_val (c : Thread nD τ) (oS c 0 (0 : Fin 4)) (Y := finV m ρ c ((0 : Fin 16), (0 : Fin 4))) (by exact gelu_val_fin m ρ c (0 : Fin 4))) $$ Hst
  -- each of the two first gather transfers reads it under half a share
  ihave Hst := (fwd_own m ρ c (0 : Fin 4)) $$ Hst
  icases Hst with ⟨HstR, HstL⟩
  first | iapply (wp_ret_bind c _ _ _) | skip
  try sl_exec
  -- gather rightwards, step 0, strip 0: the finished strip at distance 0 goes on to the neighbour after
  iapply (blk_gr_send m ρ K c (0 : Fin 8) (0 : Fin 4) 62 _ (dev63_eq c _) (off6_eq c (0 : Fin 8) (0 : Fin 4)) rfl) $$ [HstR Hnr Htgr Hdgr HO]
  · isplitr
    · iexact Hrec
    isplitr
    · iexact Hlev
    isplitl [HstR]
    · iexact HstR
    iframe
    imemq
  iintro ⟨Hnr, Htgr, Hdgr, HO⟩
  first | iapply (wp_ret_bind c _ _ _) | skip
  try sl_exec
  -- gather leftwards, step 0, strip 0: the finished strip at distance 0 goes on to the neighbour before
  iapply (blk_gl_send m ρ K c (0 : Fin 7) (0 : Fin 4) 63 _ (dev64_eq c _) (off7_eq c (0 : Fin 7) (0 : Fin 4)) rfl) $$ [HstL Hnl Htgl Hdgl HO]
  · isplitr
    · iexact Hrec
    isplitr
    · iexact Hlev
    isplitl [HstL]
    · iexact HstL
    iframe
    imemq
  iintro ⟨Hnl, Htgl, Hdgl, HO⟩
  first | iapply (wp_ret_bind c _ _ _) | skip
  try sl_exec
  -- the right-travelling step 6, strip 1 has landed: the running sum of the devices before
  iapply (blk_wait_rr_arr m ρ K c (6 : Fin 7) (1 : Fin 4) 64 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 6 is added into the own strip at distance 0, strip 1
  ihave Hs := (take _ ((0 : Fin 16), (1 : Fin 4)) (by imemp) (outΦ c (partV m ρ c))) $$ Hos
  icases Hs with ⟨Hst, Hos⟩
  ihave Hst := (out_strip c (partV m ρ c) (0 : Fin 16) (1 : Fin 4) 0 rfl) $$ Hst
  iapply (wp_addR c 0 (6 : Fin 7) (1 : Fin 4) k0_pay2 (fun _ _ => rfl) (off4_eq c (6 : Fin 7) (1 : Fin 4))) $$ [Hst Hbuf]
  · isplitl [Hst]
    · iexact Hst
    · iexact Hbuf
  iintro ⟨Hst, Hbuf⟩
  ihave Hrb := (blk_rb_put (F := F) c (6 : Fin 7) (1 : Fin 4) _ _) $$ [Hbuf Hrb]
  · iframe
    all_goals imemq
  first | iapply (wp_ret_bind c _ _ _) | skip
  try sl_exec
  -- the left-travelling step 7, strip 1 has landed: the running sum of the devices after
  iapply (blk_wait_rl_arr m ρ K c (7 : Fin 8) (1 : Fin 4) 64 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the last landed sum is added into the device's own strip 1, the chunk at distance 16 being its own again
  ihave Hst := (owns_sixteen' c (1 : Fin 4)) $$ Hst
  iapply (wp_loadO c 16 (1 : Fin 4) (off3_eq c (7 : Fin 8) (1 : Fin 4))) $$ Hst; iintro Hst
  iapply (wp_loadL c (7 : Fin 8) (1 : Fin 4)) $$ Hbuf; iintro %V %hV Hbuf
  first | iapply (wp_ret_bind c _ _ _) | skip
  try sl_exec
  iapply (wp_loadO c 16 (1 : Fin 4) (off3_eq c (7 : Fin 8) (1 : Fin 4))) $$ Hst; iintro Hst
  iapply (wp_storeO c 16 (1 : Fin 4) (off3_eq c (7 : Fin 8) (1 : Fin 4))) $$ Hst; iintro Hst
  ihave Hst := (owns_val (c : Thread nD τ) (oS c 16 (1 : Fin 4)) (Y := addS _ (accL m ρ ((7 : Fin 8)).val (rgt c) (1 : Fin 4))) (by exact add_val _ _ V hV)) $$ Hst
  ihave Hst := (owns_sixteen c (1 : Fin 4)) $$ Hst
  ihave Hlb := (blk_lb_put (F := F) c (7 : Fin 8) (1 : Fin 4) _ _) $$ [Hbuf Hlb]
  · iframe
    all_goals imemq
  first | iapply (wp_ret_bind c _ _ _) | skip
  try sl_exec
  -- the GELU of the device's own strip 1, now the sum over all sixteen devices
  iapply (wp_loadO c 0 (1 : Fin 4) (off5_eq c (1 : Fin 4))) $$ Hst; iintro Hst
  first | iapply (wp_ret_bind c _ _ _) | skip
  try sl_exec
  iapply (wp_loadO c 0 (1 : Fin 4) (off5_eq c (1 : Fin 4))) $$ Hst; iintro Hst
  iapply (wp_storeO c 0 (1 : Fin 4) (off5_eq c (1 : Fin 4))) $$ Hst; iintro Hst
  ihave Hst := (owns_val (c : Thread nD τ) (oS c 0 (1 : Fin 4)) (Y := finV m ρ c ((0 : Fin 16), (1 : Fin 4))) (by exact gelu_val_fin m ρ c (1 : Fin 4))) $$ Hst
  -- each of the two first gather transfers reads it under half a share
  ihave Hst := (fwd_own m ρ c (1 : Fin 4)) $$ Hst
  icases Hst with ⟨HstR, HstL⟩
  first | iapply (wp_ret_bind c _ _ _) | skip
  try sl_exec
  -- gather rightwards, step 0, strip 1: the finished strip at distance 0 goes on to the neighbour after
  iapply (blk_gr_send m ρ K c (0 : Fin 8) (1 : Fin 4) 64 _ (dev65_eq c _) (off6_eq c (0 : Fin 8) (1 : Fin 4)) rfl) $$ [HstR Hnr Htgr Hdgr HO]
  · isplitr
    · iexact Hrec
    isplitr
    · iexact Hlev
    isplitl [HstR]
    · iexact HstR
    iframe
    imemq
  iintro ⟨Hnr, Htgr, Hdgr, HO⟩
  first | iapply (wp_ret_bind c _ _ _) | skip
  try sl_exec
  -- gather leftwards, step 0, strip 1: the finished strip at distance 0 goes on to the neighbour before
  iapply (blk_gl_send m ρ K c (0 : Fin 7) (1 : Fin 4) 65 _ (dev66_eq c _) (off7_eq c (0 : Fin 7) (1 : Fin 4)) rfl) $$ [HstL Hnl Htgl Hdgl HO]
  · isplitr
    · iexact Hrec
    isplitr
    · iexact Hlev
    isplitl [HstL]
    · iexact HstL
    iframe
    imemq
  iintro ⟨Hnl, Htgl, Hdgl, HO⟩
  first | iapply (wp_ret_bind c _ _ _) | skip
  try sl_exec
  -- the right-travelling step 6, strip 2 has landed: the running sum of the devices before
  iapply (blk_wait_rr_arr m ρ K c (6 : Fin 7) (2 : Fin 4) 66 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 6 is added into the own strip at distance 0, strip 2
  ihave Hs := (take _ ((0 : Fin 16), (2 : Fin 4)) (by imemp) (outΦ c (partV m ρ c))) $$ Hos
  icases Hs with ⟨Hst, Hos⟩
  ihave Hst := (out_strip c (partV m ρ c) (0 : Fin 16) (2 : Fin 4) 0 rfl) $$ Hst
  iapply (wp_addR c 0 (6 : Fin 7) (2 : Fin 4) k0_pay2 (fun _ _ => rfl) (off4_eq c (6 : Fin 7) (2 : Fin 4))) $$ [Hst Hbuf]
  · isplitl [Hst]
    · iexact Hst
    · iexact Hbuf
  iintro ⟨Hst, Hbuf⟩
  ihave Hrb := (blk_rb_put (F := F) c (6 : Fin 7) (2 : Fin 4) _ _) $$ [Hbuf Hrb]
  · iframe
    all_goals imemq
  first | iapply (wp_ret_bind c _ _ _) | skip
  try sl_exec
  -- the left-travelling step 7, strip 2 has landed: the running sum of the devices after
  iapply (blk_wait_rl_arr m ρ K c (7 : Fin 8) (2 : Fin 4) 66 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the last landed sum is added into the device's own strip 2, the chunk at distance 16 being its own again
  ihave Hst := (owns_sixteen' c (2 : Fin 4)) $$ Hst
  iapply (wp_loadO c 16 (2 : Fin 4) (off3_eq c (7 : Fin 8) (2 : Fin 4))) $$ Hst; iintro Hst
  iapply (wp_loadL c (7 : Fin 8) (2 : Fin 4)) $$ Hbuf; iintro %V %hV Hbuf
  first | iapply (wp_ret_bind c _ _ _) | skip
  try sl_exec
  iapply (wp_loadO c 16 (2 : Fin 4) (off3_eq c (7 : Fin 8) (2 : Fin 4))) $$ Hst; iintro Hst
  iapply (wp_storeO c 16 (2 : Fin 4) (off3_eq c (7 : Fin 8) (2 : Fin 4))) $$ Hst; iintro Hst
  ihave Hst := (owns_val (c : Thread nD τ) (oS c 16 (2 : Fin 4)) (Y := addS _ (accL m ρ ((7 : Fin 8)).val (rgt c) (2 : Fin 4))) (by exact add_val _ _ V hV)) $$ Hst
  ihave Hst := (owns_sixteen c (2 : Fin 4)) $$ Hst
  ihave Hlb := (blk_lb_put (F := F) c (7 : Fin 8) (2 : Fin 4) _ _) $$ [Hbuf Hlb]
  · iframe
    all_goals imemq
  first | iapply (wp_ret_bind c _ _ _) | skip
  try sl_exec
  -- the GELU of the device's own strip 2, now the sum over all sixteen devices
  iapply (wp_loadO c 0 (2 : Fin 4) (off5_eq c (2 : Fin 4))) $$ Hst; iintro Hst
  first | iapply (wp_ret_bind c _ _ _) | skip
  try sl_exec
  iapply (wp_loadO c 0 (2 : Fin 4) (off5_eq c (2 : Fin 4))) $$ Hst; iintro Hst
  iapply (wp_storeO c 0 (2 : Fin 4) (off5_eq c (2 : Fin 4))) $$ Hst; iintro Hst
  ihave Hst := (owns_val (c : Thread nD τ) (oS c 0 (2 : Fin 4)) (Y := finV m ρ c ((0 : Fin 16), (2 : Fin 4))) (by exact gelu_val_fin m ρ c (2 : Fin 4))) $$ Hst
  -- each of the two first gather transfers reads it under half a share
  ihave Hst := (fwd_own m ρ c (2 : Fin 4)) $$ Hst
  icases Hst with ⟨HstR, HstL⟩
  first | iapply (wp_ret_bind c _ _ _) | skip
  try sl_exec
  -- gather rightwards, step 0, strip 2: the finished strip at distance 0 goes on to the neighbour after
  iapply (blk_gr_send m ρ K c (0 : Fin 8) (2 : Fin 4) 66 _ (dev67_eq c _) (off6_eq c (0 : Fin 8) (2 : Fin 4)) rfl) $$ [HstR Hnr Htgr Hdgr HO]
  · isplitr
    · iexact Hrec
    isplitr
    · iexact Hlev
    isplitl [HstR]
    · iexact HstR
    iframe
    imemq
  iintro ⟨Hnr, Htgr, Hdgr, HO⟩
  first | iapply (wp_ret_bind c _ _ _) | skip
  try sl_exec
  -- gather leftwards, step 0, strip 2: the finished strip at distance 0 goes on to the neighbour before
  iapply (blk_gl_send m ρ K c (0 : Fin 7) (2 : Fin 4) 67 _ (dev68_eq c _) (off7_eq c (0 : Fin 7) (2 : Fin 4)) rfl) $$ [HstL Hnl Htgl Hdgl HO]
  · isplitr
    · iexact Hrec
    isplitr
    · iexact Hlev
    isplitl [HstL]
    · iexact HstL
    iframe
    imemq
  iintro ⟨Hnl, Htgl, Hdgl, HO⟩
  first | iapply (wp_ret_bind c _ _ _) | skip
  try sl_exec
  -- the right-travelling step 6, strip 3 has landed: the running sum of the devices before
  iapply (blk_wait_rr_arr m ρ K c (6 : Fin 7) (3 : Fin 4) 68 (credit_any _)) $$ [Hcrr Hpos Hdone Hnl HO]
  · iframe # ∗
    isplitr
    · imemq
    · imay
  iintro ⟨Hcrr, Hpos, Hdone, Hnl, Hbuf, HO⟩
  first | iapply (wp_ret_bind c _ _ _) | skip
  try sl_exec
  -- the landed sum of step 6 is added into the own strip at distance 0, strip 3
  ihave Hs := (take _ ((0 : Fin 16), (3 : Fin 4)) (by imemp) (outΦ c (partV m ρ c))) $$ Hos
  icases Hs with ⟨Hst, Hos⟩
  ihave Hst := (out_strip c (partV m ρ c) (0 : Fin 16) (3 : Fin 4) 0 rfl) $$ Hst
  iapply (wp_addR c 0 (6 : Fin 7) (3 : Fin 4) k0_pay2 (fun _ _ => rfl) (off4_eq c (6 : Fin 7) (3 : Fin 4))) $$ [Hst Hbuf]
  · isplitl [Hst]
    · iexact Hst
    · iexact Hbuf
  iintro ⟨Hst, Hbuf⟩
  ihave Hrb := (blk_rb_put (F := F) c (6 : Fin 7) (3 : Fin 4) _ _) $$ [Hbuf Hrb]
  · iframe
    all_goals imemq
  first | iapply (wp_ret_bind c _ _ _) | skip
  try sl_exec
  -- the left-travelling step 7, strip 3 has landed: the running sum of the devices after
  iapply (blk_wait_rl_arr m ρ K c (7 : Fin 8) (3 : Fin 4) 68 (credit_any _)) $$ [Hcrl Hpos Hdone Hnr HO]
  · iframe # ∗
    isplitr
    · imemq
    · imay
  iintro ⟨Hcrl, Hpos, Hdone, Hnr, Hbuf, HO⟩
  first | iapply (wp_ret_bind c _ _ _) | skip
  try sl_exec
  -- the last landed sum is added into the device's own strip 3, the chunk at distance 16 being its own again
  ihave Hst := (owns_sixteen' c (3 : Fin 4)) $$ Hst
  iapply (wp_loadO c 16 (3 : Fin 4) (off3_eq c (7 : Fin 8) (3 : Fin 4))) $$ Hst; iintro Hst
  iapply (wp_loadL c (7 : Fin 8) (3 : Fin 4)) $$ Hbuf; iintro %V %hV Hbuf
  first | iapply (wp_ret_bind c _ _ _) | skip
  try sl_exec
  iapply (wp_loadO c 16 (3 : Fin 4) (off3_eq c (7 : Fin 8) (3 : Fin 4))) $$ Hst; iintro Hst
  iapply (wp_storeO c 16 (3 : Fin 4) (off3_eq c (7 : Fin 8) (3 : Fin 4))) $$ Hst; iintro Hst
  ihave Hst := (owns_val (c : Thread nD τ) (oS c 16 (3 : Fin 4)) (Y := addS _ (accL m ρ ((7 : Fin 8)).val (rgt c) (3 : Fin 4))) (by exact add_val _ _ V hV)) $$ Hst
  ihave Hst := (owns_sixteen c (3 : Fin 4)) $$ Hst
  ihave Hlb := (blk_lb_put (F := F) c (7 : Fin 8) (3 : Fin 4) _ _) $$ [Hbuf Hlb]
  · iframe
    all_goals imemq
  first | iapply (wp_ret_bind c _ _ _) | skip
  try sl_exec
  -- the GELU of the device's own strip 3, now the sum over all sixteen devices
  iapply (wp_loadO c 0 (3 : Fin 4) (off5_eq c (3 : Fin 4))) $$ Hst; iintro Hst
  first | iapply (wp_ret_bind c _ _ _) | skip
  try sl_exec
  iapply (wp_loadO c 0 (3 : Fin 4) (off5_eq c (3 : Fin 4))) $$ Hst; iintro Hst
  iapply (wp_storeO c 0 (3 : Fin 4) (off5_eq c (3 : Fin 4))) $$ Hst; iintro Hst
  ihave Hst := (owns_val (c : Thread nD τ) (oS c 0 (3 : Fin 4)) (Y := finV m ρ c ((0 : Fin 16), (3 : Fin 4))) (by exact gelu_val_fin m ρ c (3 : Fin 4))) $$ Hst
  -- each of the two first gather transfers reads it under half a share
  ihave Hst := (fwd_own m ρ c (3 : Fin 4)) $$ Hst
  icases Hst with ⟨HstR, HstL⟩
  first | iapply (wp_ret_bind c _ _ _) | skip
  try sl_exec
  -- gather rightwards, step 0, strip 3: the finished strip at distance 0 goes on to the neighbour after
  iapply (blk_gr_send m ρ K c (0 : Fin 8) (3 : Fin 4) 68 _ (dev69_eq c _) (off6_eq c (0 : Fin 8) (3 : Fin 4)) rfl) $$ [HstR Hnr Htgr Hdgr HO]
  · isplitr
    · iexact Hrec
    isplitr
    · iexact Hlev
    isplitl [HstR]
    · iexact HstR
    iframe
    imemq
  iintro ⟨Hnr, Htgr, Hdgr, HO⟩
  first | iapply (wp_ret_bind c _ _ _) | skip
  try sl_exec
  -- gather leftwards, step 0, strip 3: the finished strip at distance 0 goes on to the neighbour before
  iapply (blk_gl_send m ρ K c (0 : Fin 7) (3 : Fin 4) 69 _ (dev70_eq c _) (off7_eq c (0 : Fin 7) (3 : Fin 4)) rfl) $$ [HstL Hnl Htgl Hdgl HO]
  · isplitr
    · iexact Hrec
    isplitr
    · iexact Hlev
    isplitl [HstL]
    · iexact HstL
    iframe
    imemq
  iintro ⟨Hnl, Htgl, Hdgl, HO⟩
  first | iapply (wp_ret_bind c _ _ _) | skip
  try sl_exec
  -- the departure of the reduce-left step 7, strip 0 is complete
  iapply (blk_wait_rl_dep m ρ K c (7 : Fin 8) (0 : Fin 4) 70 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-left step 7, strip 1 is complete
  iapply (blk_wait_rl_dep m ρ K c (7 : Fin 8) (1 : Fin 4) 70 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-left step 7, strip 2 is complete
  iapply (blk_wait_rl_dep m ρ K c (7 : Fin 8) (2 : Fin 4) 70 (credit_any _)) $$ [Hdl Hpos Hdone HO]
  · iframe # ∗
    isplitr
    · imemq
    · imay
  iintro ⟨Hdl, Hpos, Hdone, HO⟩
  first | iapply (wp_ret_bind c _ _ _) | skip
  try sl_exec
  -- the departure of the reduce-left step 7, strip 3 is complete
  iapply (blk_wait_rl_dep m ρ K c (7 : Fin 8) (3 : Fin 4) 70 (credit_any _)) $$ [Hdl Hpos Hdone HO]
  · iframe # ∗
    isplitr
    · imemq
    · imay
  iintro ⟨Hdl, Hpos, Hdone, HO⟩
  first | iapply (wp_ret_bind c _ _ _) | skip
  try sl_exec
  -- the finished strip at distance 15 has arrived from the neighbour before (gather rightwards, step 0, strip 0)
  iapply (blk_wait_gr_arr m ρ K c (0 : Fin 8) (0 : Fin 4) 70 (credit_any _)) $$ [Hcgr Hpos Hdone HO]
  · iframe # ∗
    isplitr
    · imemq
    · imay
  iintro ⟨Hcgr, Hpos, Hdone, Hst, HO⟩
  ihave Hst := (fwd_gr m ρ c (0 : Fin 8) (by decide) (0 : Fin 4)) $$ Hst
  first | iapply (wp_ret_bind c _ _ _) | skip
  try sl_exec
  -- gather rightwards, step 1, strip 0: the finished strip at distance 15 goes on to the neighbour after
  iapply (blk_gr_send m ρ K c (1 : Fin 8) (0 : Fin 4) 70 _ (dev71_eq c _) (off6_eq c (1 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 1 has arrived from the neighbour after (gather leftwards, step 0, strip 0)
  iapply (blk_wait_gl_arr m ρ K c (0 : Fin 7) (0 : Fin 4) 71 (credit_any _)) $$ [Hcgl Hpos Hdone HO]
  · iframe # ∗
    isplitr
    · imemq
    · imay
  iintro ⟨Hcgl, Hpos, Hdone, Hst, HO⟩
  ihave Hst := (fwd_gl m ρ c (0 : Fin 7) (by decide) (0 : Fin 4)) $$ Hst
  first | iapply (wp_ret_bind c _ _ _) | skip
  try sl_exec
  -- gather leftwards, step 1, strip 0: the finished strip at distance 1 goes on to the neighbour before
  iapply (blk_gl_send m ρ K c (1 : Fin 7) (0 : Fin 4) 71 _ (dev72_eq c _) (off7_eq c (1 : Fin 7) (0 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 15 has arrived from the neighbour before (gather rightwards, step 0, strip 1)
  iapply (blk_wait_gr_arr m ρ K c (0 : Fin 8) (1 : Fin 4) 72 (credit_any _)) $$ [Hcgr Hpos Hdone HO]
  · iframe # ∗
    isplitr
    · imemq
    · imay
  iintro ⟨Hcgr, Hpos, Hdone, Hst, HO⟩
  ihave Hst := (fwd_gr m ρ c (0 : Fin 8) (by decide) (1 : Fin 4)) $$ Hst
  first | iapply (wp_ret_bind c _ _ _) | skip
  try sl_exec
  -- gather rightwards, step 1, strip 1: the finished strip at distance 15 goes on to the neighbour after
  iapply (blk_gr_send m ρ K c (1 : Fin 8) (1 : Fin 4) 72 _ (dev73_eq c _) (off6_eq c (1 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 1 has arrived from the neighbour after (gather leftwards, step 0, strip 1)
  iapply (blk_wait_gl_arr m ρ K c (0 : Fin 7) (1 : Fin 4) 73 (credit_any _)) $$ [Hcgl Hpos Hdone HO]
  · iframe # ∗
    isplitr
    · imemq
    · imay
  iintro ⟨Hcgl, Hpos, Hdone, Hst, HO⟩
  ihave Hst := (fwd_gl m ρ c (0 : Fin 7) (by decide) (1 : Fin 4)) $$ Hst
  first | iapply (wp_ret_bind c _ _ _) | skip
  try sl_exec
  -- gather leftwards, step 1, strip 1: the finished strip at distance 1 goes on to the neighbour before
  iapply (blk_gl_send m ρ K c (1 : Fin 7) (1 : Fin 4) 73 _ (dev74_eq c _) (off7_eq c (1 : Fin 7) (1 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 15 has arrived from the neighbour before (gather rightwards, step 0, strip 2)
  iapply (blk_wait_gr_arr m ρ K c (0 : Fin 8) (2 : Fin 4) 74 (credit_any _)) $$ [Hcgr Hpos Hdone HO]
  · iframe # ∗
    isplitr
    · imemq
    · imay
  iintro ⟨Hcgr, Hpos, Hdone, Hst, HO⟩
  ihave Hst := (fwd_gr m ρ c (0 : Fin 8) (by decide) (2 : Fin 4)) $$ Hst
  first | iapply (wp_ret_bind c _ _ _) | skip
  try sl_exec
  -- gather rightwards, step 1, strip 2: the finished strip at distance 15 goes on to the neighbour after
  iapply (blk_gr_send m ρ K c (1 : Fin 8) (2 : Fin 4) 74 _ (dev75_eq c _) (off6_eq c (1 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 1 has arrived from the neighbour after (gather leftwards, step 0, strip 2)
  iapply (blk_wait_gl_arr m ρ K c (0 : Fin 7) (2 : Fin 4) 75 (credit_any _)) $$ [Hcgl Hpos Hdone HO]
  · iframe # ∗
    isplitr
    · imemq
    · imay
  iintro ⟨Hcgl, Hpos, Hdone, Hst, HO⟩
  ihave Hst := (fwd_gl m ρ c (0 : Fin 7) (by decide) (2 : Fin 4)) $$ Hst
  first | iapply (wp_ret_bind c _ _ _) | skip
  try sl_exec
  -- gather leftwards, step 1, strip 2: the finished strip at distance 1 goes on to the neighbour before
  iapply (blk_gl_send m ρ K c (1 : Fin 7) (2 : Fin 4) 75 _ (dev76_eq c _) (off7_eq c (1 : Fin 7) (2 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 15 has arrived from the neighbour before (gather rightwards, step 0, strip 3)
  iapply (blk_wait_gr_arr m ρ K c (0 : Fin 8) (3 : Fin 4) 76 (credit_any _)) $$ [Hcgr Hpos Hdone HO]
  · iframe # ∗
    isplitr
    · imemq
    · imay
  iintro ⟨Hcgr, Hpos, Hdone, Hst, HO⟩
  ihave Hst := (fwd_gr m ρ c (0 : Fin 8) (by decide) (3 : Fin 4)) $$ Hst
  first | iapply (wp_ret_bind c _ _ _) | skip
  try sl_exec
  -- gather rightwards, step 1, strip 3: the finished strip at distance 15 goes on to the neighbour after
  iapply (blk_gr_send m ρ K c (1 : Fin 8) (3 : Fin 4) 76 _ (dev77_eq c _) (off6_eq c (1 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 1 has arrived from the neighbour after (gather leftwards, step 0, strip 3)
  iapply (blk_wait_gl_arr m ρ K c (0 : Fin 7) (3 : Fin 4) 77 (credit_any _)) $$ [Hcgl Hpos Hdone HO]
  · iframe # ∗
    isplitr
    · imemq
    · imay
  iintro ⟨Hcgl, Hpos, Hdone, Hst, HO⟩
  ihave Hst := (fwd_gl m ρ c (0 : Fin 7) (by decide) (3 : Fin 4)) $$ Hst
  first | iapply (wp_ret_bind c _ _ _) | skip
  try sl_exec
  -- gather leftwards, step 1, strip 3: the finished strip at distance 1 goes on to the neighbour before
  iapply (blk_gl_send m ρ K c (1 : Fin 7) (3 : Fin 4) 77 _ (dev78_eq c _) (off7_eq c (1 : Fin 7) (3 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the departure of the gather-right step 0, strip 0 is complete
  iapply (blk_wait_gr_dep m ρ K c (0 : Fin 8) (0 : Fin 4) 78 (credit_any _)) $$ [Hdgr Hpos Hdone HO]
  · iframe # ∗
    isplitr
    · imemq
    · imay
  iintro ⟨Hdgr, Hpos, Hdone, HretR, HO⟩
  first | iapply (wp_ret_bind c _ _ _) | skip
  try sl_exec
  -- the departure of the gather-left step 0, strip 0 is complete
  iapply (blk_wait_gl_dep m ρ K c (0 : Fin 7) (0 : Fin 4) 78 (credit_any _)) $$ [Hdgl Hpos Hdone HO]
  · iframe # ∗
    isplitr
    · imemq
    · imay
  iintro ⟨Hdgl, Hpos, Hdone, Hret, HO⟩
  ihave Hst := (ret_own m ρ c (0 : Fin 4)) $$ [Hret HretR]
  · isplitl [Hret]
    · iexact Hret
    · iexact HretR
  ihave Hfin := (blk_fin_put m ρ c (0 : Fin 16) (0 : Fin 4) _) $$ [Hst Hfin]
  · iframe
    all_goals imemq
  first | iapply (wp_ret_bind c _ _ _) | skip
  try sl_exec
  -- the departure of the gather-right step 0, strip 1 is complete
  iapply (blk_wait_gr_dep m ρ K c (0 : Fin 8) (1 : Fin 4) 78 (credit_any _)) $$ [Hdgr Hpos Hdone HO]
  · iframe # ∗
    isplitr
    · imemq
    · imay
  iintro ⟨Hdgr, Hpos, Hdone, HretR, HO⟩
  first | iapply (wp_ret_bind c _ _ _) | skip
  try sl_exec
  -- the departure of the gather-left step 0, strip 1 is complete
  iapply (blk_wait_gl_dep m ρ K c (0 : Fin 7) (1 : Fin 4) 78 (credit_any _)) $$ [Hdgl Hpos Hdone HO]
  · iframe # ∗
    isplitr
    · imemq
    · imay
  iintro ⟨Hdgl, Hpos, Hdone, Hret, HO⟩
  ihave Hst := (ret_own m ρ c (1 : Fin 4)) $$ [Hret HretR]
  · isplitl [Hret]
    · iexact Hret
    · iexact HretR
  ihave Hfin := (blk_fin_put m ρ c (0 : Fin 16) (1 : Fin 4) _) $$ [Hst Hfin]
  · iframe
    all_goals imemq
  first | iapply (wp_ret_bind c _ _ _) | skip
  try sl_exec
  -- the departure of the gather-right step 0, strip 2 is complete
  iapply (blk_wait_gr_dep m ρ K c (0 : Fin 8) (2 : Fin 4) 78 (credit_any _)) $$ [Hdgr Hpos Hdone HO]
  · iframe # ∗
    isplitr
    · imemq
    · imay
  iintro ⟨Hdgr, Hpos, Hdone, HretR, HO⟩
  first | iapply (wp_ret_bind c _ _ _) | skip
  try sl_exec
  -- the departure of the gather-left step 0, strip 2 is complete
  iapply (blk_wait_gl_dep m ρ K c (0 : Fin 7) (2 : Fin 4) 78 (credit_any _)) $$ [Hdgl Hpos Hdone HO]
  · iframe # ∗
    isplitr
    · imemq
    · imay
  iintro ⟨Hdgl, Hpos, Hdone, Hret, HO⟩
  ihave Hst := (ret_own m ρ c (2 : Fin 4)) $$ [Hret HretR]
  · isplitl [Hret]
    · iexact Hret
    · iexact HretR
  ihave Hfin := (blk_fin_put m ρ c (0 : Fin 16) (2 : Fin 4) _) $$ [Hst Hfin]
  · iframe
    all_goals imemq
  first | iapply (wp_ret_bind c _ _ _) | skip
  try sl_exec
  -- the departure of the gather-right step 0, strip 3 is complete
  iapply (blk_wait_gr_dep m ρ K c (0 : Fin 8) (3 : Fin 4) 78 (credit_any _)) $$ [Hdgr Hpos Hdone HO]
  · iframe # ∗
    isplitr
    · imemq
    · imay
  iintro ⟨Hdgr, Hpos, Hdone, HretR, HO⟩
  first | iapply (wp_ret_bind c _ _ _) | skip
  try sl_exec
  -- the departure of the gather-left step 0, strip 3 is complete
  iapply (blk_wait_gl_dep m ρ K c (0 : Fin 7) (3 : Fin 4) 78 (credit_any _)) $$ [Hdgl Hpos Hdone HO]
  · iframe # ∗
    isplitr
    · imemq
    · imay
  iintro ⟨Hdgl, Hpos, Hdone, Hret, HO⟩
  ihave Hst := (ret_own m ρ c (3 : Fin 4)) $$ [Hret HretR]
  · isplitl [Hret]
    · iexact Hret
    · iexact HretR
  ihave Hfin := (blk_fin_put m ρ c (0 : Fin 16) (3 : Fin 4) _) $$ [Hst Hfin]
  · iframe
    all_goals imemq
  first | iapply (wp_ret_bind c _ _ _) | skip
  try sl_exec
  -- the finished strip at distance 14 has arrived from the neighbour before (gather rightwards, step 1, strip 0)
  iapply (blk_wait_gr_arr m ρ K c (1 : Fin 8) (0 : Fin 4) 78 (credit_any _)) $$ [Hcgr Hpos Hdone HO]
  · iframe # ∗
    isplitr
    · imemq
    · imay
  iintro ⟨Hcgr, Hpos, Hdone, Hst, HO⟩
  ihave Hst := (fwd_gr m ρ c (1 : Fin 8) (by decide) (0 : Fin 4)) $$ Hst
  first | iapply (wp_ret_bind c _ _ _) | skip
  try sl_exec
  -- gather rightwards, step 2, strip 0: the finished strip at distance 14 goes on to the neighbour after
  iapply (blk_gr_send m ρ K c (2 : Fin 8) (0 : Fin 4) 78 _ (dev79_eq c _) (off6_eq c (2 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 2 has arrived from the neighbour after (gather leftwards, step 1, strip 0)
  iapply (blk_wait_gl_arr m ρ K c (1 : Fin 7) (0 : Fin 4) 79 (credit_any _)) $$ [Hcgl Hpos Hdone HO]
  · iframe # ∗
    isplitr
    · imemq
    · imay
  iintro ⟨Hcgl, Hpos, Hdone, Hst, HO⟩
  ihave Hst := (fwd_gl m ρ c (1 : Fin 7) (by decide) (0 : Fin 4)) $$ Hst
  first | iapply (wp_ret_bind c _ _ _) | skip
  try sl_exec
  -- gather leftwards, step 2, strip 0: the finished strip at distance 2 goes on to the neighbour before
  iapply (blk_gl_send m ρ K c (2 : Fin 7) (0 : Fin 4) 79 _ (dev80_eq c _) (off7_eq c (2 : Fin 7) (0 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 14 has arrived from the neighbour before (gather rightwards, step 1, strip 1)
  iapply (blk_wait_gr_arr m ρ K c (1 : Fin 8) (1 : Fin 4) 80 (credit_any _)) $$ [Hcgr Hpos Hdone HO]
  · iframe # ∗
    isplitr
    · imemq
    · imay
  iintro ⟨Hcgr, Hpos, Hdone, Hst, HO⟩
  ihave Hst := (fwd_gr m ρ c (1 : Fin 8) (by decide) (1 : Fin 4)) $$ Hst
  first | iapply (wp_ret_bind c _ _ _) | skip
  try sl_exec
  -- gather rightwards, step 2, strip 1: the finished strip at distance 14 goes on to the neighbour after
  iapply (blk_gr_send m ρ K c (2 : Fin 8) (1 : Fin 4) 80 _ (dev81_eq c _) (off6_eq c (2 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 2 has arrived from the neighbour after (gather leftwards, step 1, strip 1)
  iapply (blk_wait_gl_arr m ρ K c (1 : Fin 7) (1 : Fin 4) 81 (credit_any _)) $$ [Hcgl Hpos Hdone HO]
  · iframe # ∗
    isplitr
    · imemq
    · imay
  iintro ⟨Hcgl, Hpos, Hdone, Hst, HO⟩
  ihave Hst := (fwd_gl m ρ c (1 : Fin 7) (by decide) (1 : Fin 4)) $$ Hst
  first | iapply (wp_ret_bind c _ _ _) | skip
  try sl_exec
  -- gather leftwards, step 2, strip 1: the finished strip at distance 2 goes on to the neighbour before
  iapply (blk_gl_send m ρ K c (2 : Fin 7) (1 : Fin 4) 81 _ (dev82_eq c _) (off7_eq c (2 : Fin 7) (1 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 14 has arrived from the neighbour before (gather rightwards, step 1, strip 2)
  iapply (blk_wait_gr_arr m ρ K c (1 : Fin 8) (2 : Fin 4) 82 (credit_any _)) $$ [Hcgr Hpos Hdone HO]
  · iframe # ∗
    isplitr
    · imemq
    · imay
  iintro ⟨Hcgr, Hpos, Hdone, Hst, HO⟩
  ihave Hst := (fwd_gr m ρ c (1 : Fin 8) (by decide) (2 : Fin 4)) $$ Hst
  first | iapply (wp_ret_bind c _ _ _) | skip
  try sl_exec
  -- gather rightwards, step 2, strip 2: the finished strip at distance 14 goes on to the neighbour after
  iapply (blk_gr_send m ρ K c (2 : Fin 8) (2 : Fin 4) 82 _ (dev83_eq c _) (off6_eq c (2 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 2 has arrived from the neighbour after (gather leftwards, step 1, strip 2)
  iapply (blk_wait_gl_arr m ρ K c (1 : Fin 7) (2 : Fin 4) 83 (credit_any _)) $$ [Hcgl Hpos Hdone HO]
  · iframe # ∗
    isplitr
    · imemq
    · imay
  iintro ⟨Hcgl, Hpos, Hdone, Hst, HO⟩
  ihave Hst := (fwd_gl m ρ c (1 : Fin 7) (by decide) (2 : Fin 4)) $$ Hst
  first | iapply (wp_ret_bind c _ _ _) | skip
  try sl_exec
  -- gather leftwards, step 2, strip 2: the finished strip at distance 2 goes on to the neighbour before
  iapply (blk_gl_send m ρ K c (2 : Fin 7) (2 : Fin 4) 83 _ (dev84_eq c _) (off7_eq c (2 : Fin 7) (2 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 14 has arrived from the neighbour before (gather rightwards, step 1, strip 3)
  iapply (blk_wait_gr_arr m ρ K c (1 : Fin 8) (3 : Fin 4) 84 (credit_any _)) $$ [Hcgr Hpos Hdone HO]
  · iframe # ∗
    isplitr
    · imemq
    · imay
  iintro ⟨Hcgr, Hpos, Hdone, Hst, HO⟩
  ihave Hst := (fwd_gr m ρ c (1 : Fin 8) (by decide) (3 : Fin 4)) $$ Hst
  first | iapply (wp_ret_bind c _ _ _) | skip
  try sl_exec
  -- gather rightwards, step 2, strip 3: the finished strip at distance 14 goes on to the neighbour after
  iapply (blk_gr_send m ρ K c (2 : Fin 8) (3 : Fin 4) 84 _ (dev85_eq c _) (off6_eq c (2 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 2 has arrived from the neighbour after (gather leftwards, step 1, strip 3)
  iapply (blk_wait_gl_arr m ρ K c (1 : Fin 7) (3 : Fin 4) 85 (credit_any _)) $$ [Hcgl Hpos Hdone HO]
  · iframe # ∗
    isplitr
    · imemq
    · imay
  iintro ⟨Hcgl, Hpos, Hdone, Hst, HO⟩
  ihave Hst := (fwd_gl m ρ c (1 : Fin 7) (by decide) (3 : Fin 4)) $$ Hst
  first | iapply (wp_ret_bind c _ _ _) | skip
  try sl_exec
  -- gather leftwards, step 2, strip 3: the finished strip at distance 2 goes on to the neighbour before
  iapply (blk_gl_send m ρ K c (2 : Fin 7) (3 : Fin 4) 85 _ (dev86_eq c _) (off7_eq c (2 : Fin 7) (3 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the departure of the gather-right step 1, strip 0 is complete
  iapply (blk_wait_gr_dep m ρ K c (1 : Fin 8) (0 : Fin 4) 86 (credit_any _)) $$ [Hdgr Hpos Hdone HO]
  · iframe # ∗
    isplitr
    · imemq
    · imay
  iintro ⟨Hdgr, Hpos, Hdone, Hret, HO⟩
  ihave Hst := (ret_gr m ρ c (1 : Fin 8) (by decide) (0 : Fin 4) (15 : Fin 16) (by decide)) $$ Hret
  ihave Hfin := (blk_fin_put m ρ c (15 : Fin 16) (0 : Fin 4) _) $$ [Hst Hfin]
  · iframe
    all_goals imemq
  first | iapply (wp_ret_bind c _ _ _) | skip
  try sl_exec
  -- the departure of the gather-left step 1, strip 0 is complete
  iapply (blk_wait_gl_dep m ρ K c (1 : Fin 7) (0 : Fin 4) 86 (credit_any _)) $$ [Hdgl Hpos Hdone HO]
  · iframe # ∗
    isplitr
    · imemq
    · imay
  iintro ⟨Hdgl, Hpos, Hdone, Hret, HO⟩
  ihave Hst := (ret_gl m ρ c (1 : Fin 7) (by decide) (0 : Fin 4) (1 : Fin 16) (by decide)) $$ Hret
  ihave Hfin := (blk_fin_put m ρ c (1 : Fin 16) (0 : Fin 4) _) $$ [Hst Hfin]
  · iframe
    all_goals imemq
  first | iapply (wp_ret_bind c _ _ _) | skip
  try sl_exec
  -- the departure of the gather-right step 1, strip 1 is complete
  iapply (blk_wait_gr_dep m ρ K c (1 : Fin 8) (1 : Fin 4) 86 (credit_any _)) $$ [Hdgr Hpos Hdone HO]
  · iframe # ∗
    isplitr
    · imemq
    · imay
  iintro ⟨Hdgr, Hpos, Hdone, Hret, HO⟩
  ihave Hst := (ret_gr m ρ c (1 : Fin 8) (by decide) (1 : Fin 4) (15 : Fin 16) (by decide)) $$ Hret
  ihave Hfin := (blk_fin_put m ρ c (15 : Fin 16) (1 : Fin 4) _) $$ [Hst Hfin]
  · iframe
    all_goals imemq
  first | iapply (wp_ret_bind c _ _ _) | skip
  try sl_exec
  -- the departure of the gather-left step 1, strip 1 is complete
  iapply (blk_wait_gl_dep m ρ K c (1 : Fin 7) (1 : Fin 4) 86 (credit_any _)) $$ [Hdgl Hpos Hdone HO]
  · iframe # ∗
    isplitr
    · imemq
    · imay
  iintro ⟨Hdgl, Hpos, Hdone, Hret, HO⟩
  ihave Hst := (ret_gl m ρ c (1 : Fin 7) (by decide) (1 : Fin 4) (1 : Fin 16) (by decide)) $$ Hret
  ihave Hfin := (blk_fin_put m ρ c (1 : Fin 16) (1 : Fin 4) _) $$ [Hst Hfin]
  · iframe
    all_goals imemq
  first | iapply (wp_ret_bind c _ _ _) | skip
  try sl_exec
  -- the departure of the gather-right step 1, strip 2 is complete
  iapply (blk_wait_gr_dep m ρ K c (1 : Fin 8) (2 : Fin 4) 86 (credit_any _)) $$ [Hdgr Hpos Hdone HO]
  · iframe # ∗
    isplitr
    · imemq
    · imay
  iintro ⟨Hdgr, Hpos, Hdone, Hret, HO⟩
  ihave Hst := (ret_gr m ρ c (1 : Fin 8) (by decide) (2 : Fin 4) (15 : Fin 16) (by decide)) $$ Hret
  ihave Hfin := (blk_fin_put m ρ c (15 : Fin 16) (2 : Fin 4) _) $$ [Hst Hfin]
  · iframe
    all_goals imemq
  first | iapply (wp_ret_bind c _ _ _) | skip
  try sl_exec
  -- the departure of the gather-left step 1, strip 2 is complete
  iapply (blk_wait_gl_dep m ρ K c (1 : Fin 7) (2 : Fin 4) 86 (credit_any _)) $$ [Hdgl Hpos Hdone HO]
  · iframe # ∗
    isplitr
    · imemq
    · imay
  iintro ⟨Hdgl, Hpos, Hdone, Hret, HO⟩
  ihave Hst := (ret_gl m ρ c (1 : Fin 7) (by decide) (2 : Fin 4) (1 : Fin 16) (by decide)) $$ Hret
  ihave Hfin := (blk_fin_put m ρ c (1 : Fin 16) (2 : Fin 4) _) $$ [Hst Hfin]
  · iframe
    all_goals imemq
  first | iapply (wp_ret_bind c _ _ _) | skip
  try sl_exec
  -- the departure of the gather-right step 1, strip 3 is complete
  iapply (blk_wait_gr_dep m ρ K c (1 : Fin 8) (3 : Fin 4) 86 (credit_any _)) $$ [Hdgr Hpos Hdone HO]
  · iframe # ∗
    isplitr
    · imemq
    · imay
  iintro ⟨Hdgr, Hpos, Hdone, Hret, HO⟩
  ihave Hst := (ret_gr m ρ c (1 : Fin 8) (by decide) (3 : Fin 4) (15 : Fin 16) (by decide)) $$ Hret
  ihave Hfin := (blk_fin_put m ρ c (15 : Fin 16) (3 : Fin 4) _) $$ [Hst Hfin]
  · iframe
    all_goals imemq
  first | iapply (wp_ret_bind c _ _ _) | skip
  try sl_exec
  -- the departure of the gather-left step 1, strip 3 is complete
  iapply (blk_wait_gl_dep m ρ K c (1 : Fin 7) (3 : Fin 4) 86 (credit_any _)) $$ [Hdgl Hpos Hdone HO]
  · iframe # ∗
    isplitr
    · imemq
    · imay
  iintro ⟨Hdgl, Hpos, Hdone, Hret, HO⟩
  ihave Hst := (ret_gl m ρ c (1 : Fin 7) (by decide) (3 : Fin 4) (1 : Fin 16) (by decide)) $$ Hret
  ihave Hfin := (blk_fin_put m ρ c (1 : Fin 16) (3 : Fin 4) _) $$ [Hst Hfin]
  · iframe
    all_goals imemq
  first | iapply (wp_ret_bind c _ _ _) | skip
  try sl_exec
  -- the finished strip at distance 13 has arrived from the neighbour before (gather rightwards, step 2, strip 0)
  iapply (blk_wait_gr_arr m ρ K c (2 : Fin 8) (0 : Fin 4) 86 (credit_any _)) $$ [Hcgr Hpos Hdone HO]
  · iframe # ∗
    isplitr
    · imemq
    · imay
  iintro ⟨Hcgr, Hpos, Hdone, Hst, HO⟩
  ihave Hst := (fwd_gr m ρ c (2 : Fin 8) (by decide) (0 : Fin 4)) $$ Hst
  first | iapply (wp_ret_bind c _ _ _) | skip
  try sl_exec
  -- gather rightwards, step 3, strip 0: the finished strip at distance 13 goes on to the neighbour after
  iapply (blk_gr_send m ρ K c (3 : Fin 8) (0 : Fin 4) 86 _ (dev87_eq c _) (off6_eq c (3 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 3 has arrived from the neighbour after (gather leftwards, step 2, strip 0)
  iapply (blk_wait_gl_arr m ρ K c (2 : Fin 7) (0 : Fin 4) 87 (credit_any _)) $$ [Hcgl Hpos Hdone HO]
  · iframe # ∗
    isplitr
    · imemq
    · imay
  iintro ⟨Hcgl, Hpos, Hdone, Hst, HO⟩
  ihave Hst := (fwd_gl m ρ c (2 : Fin 7) (by decide) (0 : Fin 4)) $$ Hst
  first | iapply (wp_ret_bind c _ _ _) | skip
  try sl_exec
  -- gather leftwards, step 3, strip 0: the finished strip at distance 3 goes on to the neighbour before
  iapply (blk_gl_send m ρ K c (3 : Fin 7) (0 : Fin 4) 87 _ (dev88_eq c _) (off7_eq c (3 : Fin 7) (0 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 13 has arrived from the neighbour before (gather rightwards, step 2, strip 1)
  iapply (blk_wait_gr_arr m ρ K c (2 : Fin 8) (1 : Fin 4) 88 (credit_any _)) $$ [Hcgr Hpos Hdone HO]
  · iframe # ∗
    isplitr
    · imemq
    · imay
  iintro ⟨Hcgr, Hpos, Hdone, Hst, HO⟩
  ihave Hst := (fwd_gr m ρ c (2 : Fin 8) (by decide) (1 : Fin 4)) $$ Hst
  first | iapply (wp_ret_bind c _ _ _) | skip
  try sl_exec
  -- gather rightwards, step 3, strip 1: the finished strip at distance 13 goes on to the neighbour after
  iapply (blk_gr_send m ρ K c (3 : Fin 8) (1 : Fin 4) 88 _ (dev89_eq c _) (off6_eq c (3 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 3 has arrived from the neighbour after (gather leftwards, step 2, strip 1)
  iapply (blk_wait_gl_arr m ρ K c (2 : Fin 7) (1 : Fin 4) 89 (credit_any _)) $$ [Hcgl Hpos Hdone HO]
  · iframe # ∗
    isplitr
    · imemq
    · imay
  iintro ⟨Hcgl, Hpos, Hdone, Hst, HO⟩
  ihave Hst := (fwd_gl m ρ c (2 : Fin 7) (by decide) (1 : Fin 4)) $$ Hst
  first | iapply (wp_ret_bind c _ _ _) | skip
  try sl_exec
  -- gather leftwards, step 3, strip 1: the finished strip at distance 3 goes on to the neighbour before
  iapply (blk_gl_send m ρ K c (3 : Fin 7) (1 : Fin 4) 89 _ (dev90_eq c _) (off7_eq c (3 : Fin 7) (1 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 13 has arrived from the neighbour before (gather rightwards, step 2, strip 2)
  iapply (blk_wait_gr_arr m ρ K c (2 : Fin 8) (2 : Fin 4) 90 (credit_any _)) $$ [Hcgr Hpos Hdone HO]
  · iframe # ∗
    isplitr
    · imemq
    · imay
  iintro ⟨Hcgr, Hpos, Hdone, Hst, HO⟩
  ihave Hst := (fwd_gr m ρ c (2 : Fin 8) (by decide) (2 : Fin 4)) $$ Hst
  first | iapply (wp_ret_bind c _ _ _) | skip
  try sl_exec
  -- gather rightwards, step 3, strip 2: the finished strip at distance 13 goes on to the neighbour after
  iapply (blk_gr_send m ρ K c (3 : Fin 8) (2 : Fin 4) 90 _ (dev91_eq c _) (off6_eq c (3 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 3 has arrived from the neighbour after (gather leftwards, step 2, strip 2)
  iapply (blk_wait_gl_arr m ρ K c (2 : Fin 7) (2 : Fin 4) 91 (credit_any _)) $$ [Hcgl Hpos Hdone HO]
  · iframe # ∗
    isplitr
    · imemq
    · imay
  iintro ⟨Hcgl, Hpos, Hdone, Hst, HO⟩
  ihave Hst := (fwd_gl m ρ c (2 : Fin 7) (by decide) (2 : Fin 4)) $$ Hst
  first | iapply (wp_ret_bind c _ _ _) | skip
  try sl_exec
  -- gather leftwards, step 3, strip 2: the finished strip at distance 3 goes on to the neighbour before
  iapply (blk_gl_send m ρ K c (3 : Fin 7) (2 : Fin 4) 91 _ (dev92_eq c _) (off7_eq c (3 : Fin 7) (2 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 13 has arrived from the neighbour before (gather rightwards, step 2, strip 3)
  iapply (blk_wait_gr_arr m ρ K c (2 : Fin 8) (3 : Fin 4) 92 (credit_any _)) $$ [Hcgr Hpos Hdone HO]
  · iframe # ∗
    isplitr
    · imemq
    · imay
  iintro ⟨Hcgr, Hpos, Hdone, Hst, HO⟩
  ihave Hst := (fwd_gr m ρ c (2 : Fin 8) (by decide) (3 : Fin 4)) $$ Hst
  first | iapply (wp_ret_bind c _ _ _) | skip
  try sl_exec
  -- gather rightwards, step 3, strip 3: the finished strip at distance 13 goes on to the neighbour after
  iapply (blk_gr_send m ρ K c (3 : Fin 8) (3 : Fin 4) 92 _ (dev93_eq c _) (off6_eq c (3 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 3 has arrived from the neighbour after (gather leftwards, step 2, strip 3)
  iapply (blk_wait_gl_arr m ρ K c (2 : Fin 7) (3 : Fin 4) 93 (credit_any _)) $$ [Hcgl Hpos Hdone HO]
  · iframe # ∗
    isplitr
    · imemq
    · imay
  iintro ⟨Hcgl, Hpos, Hdone, Hst, HO⟩
  ihave Hst := (fwd_gl m ρ c (2 : Fin 7) (by decide) (3 : Fin 4)) $$ Hst
  first | iapply (wp_ret_bind c _ _ _) | skip
  try sl_exec
  -- gather leftwards, step 3, strip 3: the finished strip at distance 3 goes on to the neighbour before
  iapply (blk_gl_send m ρ K c (3 : Fin 7) (3 : Fin 4) 93 _ (dev94_eq c _) (off7_eq c (3 : Fin 7) (3 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the departure of the gather-right step 2, strip 0 is complete
  iapply (blk_wait_gr_dep m ρ K c (2 : Fin 8) (0 : Fin 4) 94 (credit_any _)) $$ [Hdgr Hpos Hdone HO]
  · iframe # ∗
    isplitr
    · imemq
    · imay
  iintro ⟨Hdgr, Hpos, Hdone, Hret, HO⟩
  ihave Hst := (ret_gr m ρ c (2 : Fin 8) (by decide) (0 : Fin 4) (14 : Fin 16) (by decide)) $$ Hret
  ihave Hfin := (blk_fin_put m ρ c (14 : Fin 16) (0 : Fin 4) _) $$ [Hst Hfin]
  · iframe
    all_goals imemq
  first | iapply (wp_ret_bind c _ _ _) | skip
  try sl_exec
  -- the departure of the gather-left step 2, strip 0 is complete
  iapply (blk_wait_gl_dep m ρ K c (2 : Fin 7) (0 : Fin 4) 94 (credit_any _)) $$ [Hdgl Hpos Hdone HO]
  · iframe # ∗
    isplitr
    · imemq
    · imay
  iintro ⟨Hdgl, Hpos, Hdone, Hret, HO⟩
  ihave Hst := (ret_gl m ρ c (2 : Fin 7) (by decide) (0 : Fin 4) (2 : Fin 16) (by decide)) $$ Hret
  ihave Hfin := (blk_fin_put m ρ c (2 : Fin 16) (0 : Fin 4) _) $$ [Hst Hfin]
  · iframe
    all_goals imemq
  first | iapply (wp_ret_bind c _ _ _) | skip
  try sl_exec
  -- the departure of the gather-right step 2, strip 1 is complete
  iapply (blk_wait_gr_dep m ρ K c (2 : Fin 8) (1 : Fin 4) 94 (credit_any _)) $$ [Hdgr Hpos Hdone HO]
  · iframe # ∗
    isplitr
    · imemq
    · imay
  iintro ⟨Hdgr, Hpos, Hdone, Hret, HO⟩
  ihave Hst := (ret_gr m ρ c (2 : Fin 8) (by decide) (1 : Fin 4) (14 : Fin 16) (by decide)) $$ Hret
  ihave Hfin := (blk_fin_put m ρ c (14 : Fin 16) (1 : Fin 4) _) $$ [Hst Hfin]
  · iframe
    all_goals imemq
  first | iapply (wp_ret_bind c _ _ _) | skip
  try sl_exec
  -- the departure of the gather-left step 2, strip 1 is complete
  iapply (blk_wait_gl_dep m ρ K c (2 : Fin 7) (1 : Fin 4) 94 (credit_any _)) $$ [Hdgl Hpos Hdone HO]
  · iframe # ∗
    isplitr
    · imemq
    · imay
  iintro ⟨Hdgl, Hpos, Hdone, Hret, HO⟩
  ihave Hst := (ret_gl m ρ c (2 : Fin 7) (by decide) (1 : Fin 4) (2 : Fin 16) (by decide)) $$ Hret
  ihave Hfin := (blk_fin_put m ρ c (2 : Fin 16) (1 : Fin 4) _) $$ [Hst Hfin]
  · iframe
    all_goals imemq
  first | iapply (wp_ret_bind c _ _ _) | skip
  try sl_exec
  -- the departure of the gather-right step 2, strip 2 is complete
  iapply (blk_wait_gr_dep m ρ K c (2 : Fin 8) (2 : Fin 4) 94 (credit_any _)) $$ [Hdgr Hpos Hdone HO]
  · iframe # ∗
    isplitr
    · imemq
    · imay
  iintro ⟨Hdgr, Hpos, Hdone, Hret, HO⟩
  ihave Hst := (ret_gr m ρ c (2 : Fin 8) (by decide) (2 : Fin 4) (14 : Fin 16) (by decide)) $$ Hret
  ihave Hfin := (blk_fin_put m ρ c (14 : Fin 16) (2 : Fin 4) _) $$ [Hst Hfin]
  · iframe
    all_goals imemq
  first | iapply (wp_ret_bind c _ _ _) | skip
  try sl_exec
  -- the departure of the gather-left step 2, strip 2 is complete
  iapply (blk_wait_gl_dep m ρ K c (2 : Fin 7) (2 : Fin 4) 94 (credit_any _)) $$ [Hdgl Hpos Hdone HO]
  · iframe # ∗
    isplitr
    · imemq
    · imay
  iintro ⟨Hdgl, Hpos, Hdone, Hret, HO⟩
  ihave Hst := (ret_gl m ρ c (2 : Fin 7) (by decide) (2 : Fin 4) (2 : Fin 16) (by decide)) $$ Hret
  ihave Hfin := (blk_fin_put m ρ c (2 : Fin 16) (2 : Fin 4) _) $$ [Hst Hfin]
  · iframe
    all_goals imemq
  first | iapply (wp_ret_bind c _ _ _) | skip
  try sl_exec
  -- the departure of the gather-right step 2, strip 3 is complete
  iapply (blk_wait_gr_dep m ρ K c (2 : Fin 8) (3 : Fin 4) 94 (credit_any _)) $$ [Hdgr Hpos Hdone HO]
  · iframe # ∗
    isplitr
    · imemq
    · imay
  iintro ⟨Hdgr, Hpos, Hdone, Hret, HO⟩
  ihave Hst := (ret_gr m ρ c (2 : Fin 8) (by decide) (3 : Fin 4) (14 : Fin 16) (by decide)) $$ Hret
  ihave Hfin := (blk_fin_put m ρ c (14 : Fin 16) (3 : Fin 4) _) $$ [Hst Hfin]
  · iframe
    all_goals imemq
  first | iapply (wp_ret_bind c _ _ _) | skip
  try sl_exec
  -- the departure of the gather-left step 2, strip 3 is complete
  iapply (blk_wait_gl_dep m ρ K c (2 : Fin 7) (3 : Fin 4) 94 (credit_any _)) $$ [Hdgl Hpos Hdone HO]
  · iframe # ∗
    isplitr
    · imemq
    · imay
  iintro ⟨Hdgl, Hpos, Hdone, Hret, HO⟩
  ihave Hst := (ret_gl m ρ c (2 : Fin 7) (by decide) (3 : Fin 4) (2 : Fin 16) (by decide)) $$ Hret
  ihave Hfin := (blk_fin_put m ρ c (2 : Fin 16) (3 : Fin 4) _) $$ [Hst Hfin]
  · iframe
    all_goals imemq
  first | iapply (wp_ret_bind c _ _ _) | skip
  try sl_exec
  -- the finished strip at distance 12 has arrived from the neighbour before (gather rightwards, step 3, strip 0)
  iapply (blk_wait_gr_arr m ρ K c (3 : Fin 8) (0 : Fin 4) 94 (credit_any _)) $$ [Hcgr Hpos Hdone HO]
  · iframe # ∗
    isplitr
    · imemq
    · imay
  iintro ⟨Hcgr, Hpos, Hdone, Hst, HO⟩
  ihave Hst := (fwd_gr m ρ c (3 : Fin 8) (by decide) (0 : Fin 4)) $$ Hst
  first | iapply (wp_ret_bind c _ _ _) | skip
  try sl_exec
  -- gather rightwards, step 4, strip 0: the finished strip at distance 12 goes on to the neighbour after
  iapply (blk_gr_send m ρ K c (4 : Fin 8) (0 : Fin 4) 94 _ (dev95_eq c _) (off6_eq c (4 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 4 has arrived from the neighbour after (gather leftwards, step 3, strip 0)
  iapply (blk_wait_gl_arr m ρ K c (3 : Fin 7) (0 : Fin 4) 95 (credit_any _)) $$ [Hcgl Hpos Hdone HO]
  · iframe # ∗
    isplitr
    · imemq
    · imay
  iintro ⟨Hcgl, Hpos, Hdone, Hst, HO⟩
  ihave Hst := (fwd_gl m ρ c (3 : Fin 7) (by decide) (0 : Fin 4)) $$ Hst
  first | iapply (wp_ret_bind c _ _ _) | skip
  try sl_exec
  -- gather leftwards, step 4, strip 0: the finished strip at distance 4 goes on to the neighbour before
  iapply (blk_gl_send m ρ K c (4 : Fin 7) (0 : Fin 4) 95 _ (dev96_eq c _) (off7_eq c (4 : Fin 7) (0 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 12 has arrived from the neighbour before (gather rightwards, step 3, strip 1)
  iapply (blk_wait_gr_arr m ρ K c (3 : Fin 8) (1 : Fin 4) 96 (credit_any _)) $$ [Hcgr Hpos Hdone HO]
  · iframe # ∗
    isplitr
    · imemq
    · imay
  iintro ⟨Hcgr, Hpos, Hdone, Hst, HO⟩
  ihave Hst := (fwd_gr m ρ c (3 : Fin 8) (by decide) (1 : Fin 4)) $$ Hst
  first | iapply (wp_ret_bind c _ _ _) | skip
  try sl_exec
  -- gather rightwards, step 4, strip 1: the finished strip at distance 12 goes on to the neighbour after
  iapply (blk_gr_send m ρ K c (4 : Fin 8) (1 : Fin 4) 96 _ (dev97_eq c _) (off6_eq c (4 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 4 has arrived from the neighbour after (gather leftwards, step 3, strip 1)
  iapply (blk_wait_gl_arr m ρ K c (3 : Fin 7) (1 : Fin 4) 97 (credit_any _)) $$ [Hcgl Hpos Hdone HO]
  · iframe # ∗
    isplitr
    · imemq
    · imay
  iintro ⟨Hcgl, Hpos, Hdone, Hst, HO⟩
  ihave Hst := (fwd_gl m ρ c (3 : Fin 7) (by decide) (1 : Fin 4)) $$ Hst
  first | iapply (wp_ret_bind c _ _ _) | skip
  try sl_exec
  -- gather leftwards, step 4, strip 1: the finished strip at distance 4 goes on to the neighbour before
  iapply (blk_gl_send m ρ K c (4 : Fin 7) (1 : Fin 4) 97 _ (dev98_eq c _) (off7_eq c (4 : Fin 7) (1 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 12 has arrived from the neighbour before (gather rightwards, step 3, strip 2)
  iapply (blk_wait_gr_arr m ρ K c (3 : Fin 8) (2 : Fin 4) 98 (credit_any _)) $$ [Hcgr Hpos Hdone HO]
  · iframe # ∗
    isplitr
    · imemq
    · imay
  iintro ⟨Hcgr, Hpos, Hdone, Hst, HO⟩
  ihave Hst := (fwd_gr m ρ c (3 : Fin 8) (by decide) (2 : Fin 4)) $$ Hst
  first | iapply (wp_ret_bind c _ _ _) | skip
  try sl_exec
  -- gather rightwards, step 4, strip 2: the finished strip at distance 12 goes on to the neighbour after
  iapply (blk_gr_send m ρ K c (4 : Fin 8) (2 : Fin 4) 98 _ (dev99_eq c _) (off6_eq c (4 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 4 has arrived from the neighbour after (gather leftwards, step 3, strip 2)
  iapply (blk_wait_gl_arr m ρ K c (3 : Fin 7) (2 : Fin 4) 99 (credit_any _)) $$ [Hcgl Hpos Hdone HO]
  · iframe # ∗
    isplitr
    · imemq
    · imay
  iintro ⟨Hcgl, Hpos, Hdone, Hst, HO⟩
  ihave Hst := (fwd_gl m ρ c (3 : Fin 7) (by decide) (2 : Fin 4)) $$ Hst
  first | iapply (wp_ret_bind c _ _ _) | skip
  try sl_exec
  -- gather leftwards, step 4, strip 2: the finished strip at distance 4 goes on to the neighbour before
  iapply (blk_gl_send m ρ K c (4 : Fin 7) (2 : Fin 4) 99 _ (dev100_eq c _) (off7_eq c (4 : Fin 7) (2 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 12 has arrived from the neighbour before (gather rightwards, step 3, strip 3)
  iapply (blk_wait_gr_arr m ρ K c (3 : Fin 8) (3 : Fin 4) 100 (credit_any _)) $$ [Hcgr Hpos Hdone HO]
  · iframe # ∗
    isplitr
    · imemq
    · imay
  iintro ⟨Hcgr, Hpos, Hdone, Hst, HO⟩
  ihave Hst := (fwd_gr m ρ c (3 : Fin 8) (by decide) (3 : Fin 4)) $$ Hst
  first | iapply (wp_ret_bind c _ _ _) | skip
  try sl_exec
  -- gather rightwards, step 4, strip 3: the finished strip at distance 12 goes on to the neighbour after
  iapply (blk_gr_send m ρ K c (4 : Fin 8) (3 : Fin 4) 100 _ (dev101_eq c _) (off6_eq c (4 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 4 has arrived from the neighbour after (gather leftwards, step 3, strip 3)
  iapply (blk_wait_gl_arr m ρ K c (3 : Fin 7) (3 : Fin 4) 101 (credit_any _)) $$ [Hcgl Hpos Hdone HO]
  · iframe # ∗
    isplitr
    · imemq
    · imay
  iintro ⟨Hcgl, Hpos, Hdone, Hst, HO⟩
  ihave Hst := (fwd_gl m ρ c (3 : Fin 7) (by decide) (3 : Fin 4)) $$ Hst
  first | iapply (wp_ret_bind c _ _ _) | skip
  try sl_exec
  -- gather leftwards, step 4, strip 3: the finished strip at distance 4 goes on to the neighbour before
  iapply (blk_gl_send m ρ K c (4 : Fin 7) (3 : Fin 4) 101 _ (dev102_eq c _) (off7_eq c (4 : Fin 7) (3 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the departure of the gather-right step 3, strip 0 is complete
  iapply (blk_wait_gr_dep m ρ K c (3 : Fin 8) (0 : Fin 4) 102 (credit_any _)) $$ [Hdgr Hpos Hdone HO]
  · iframe # ∗
    isplitr
    · imemq
    · imay
  iintro ⟨Hdgr, Hpos, Hdone, Hret, HO⟩
  ihave Hst := (ret_gr m ρ c (3 : Fin 8) (by decide) (0 : Fin 4) (13 : Fin 16) (by decide)) $$ Hret
  ihave Hfin := (blk_fin_put m ρ c (13 : Fin 16) (0 : Fin 4) _) $$ [Hst Hfin]
  · iframe
    all_goals imemq
  first | iapply (wp_ret_bind c _ _ _) | skip
  try sl_exec
  -- the departure of the gather-left step 3, strip 0 is complete
  iapply (blk_wait_gl_dep m ρ K c (3 : Fin 7) (0 : Fin 4) 102 (credit_any _)) $$ [Hdgl Hpos Hdone HO]
  · iframe # ∗
    isplitr
    · imemq
    · imay
  iintro ⟨Hdgl, Hpos, Hdone, Hret, HO⟩
  ihave Hst := (ret_gl m ρ c (3 : Fin 7) (by decide) (0 : Fin 4) (3 : Fin 16) (by decide)) $$ Hret
  ihave Hfin := (blk_fin_put m ρ c (3 : Fin 16) (0 : Fin 4) _) $$ [Hst Hfin]
  · iframe
    all_goals imemq
  first | iapply (wp_ret_bind c _ _ _) | skip
  try sl_exec
  -- the departure of the gather-right step 3, strip 1 is complete
  iapply (blk_wait_gr_dep m ρ K c (3 : Fin 8) (1 : Fin 4) 102 (credit_any _)) $$ [Hdgr Hpos Hdone HO]
  · iframe # ∗
    isplitr
    · imemq
    · imay
  iintro ⟨Hdgr, Hpos, Hdone, Hret, HO⟩
  ihave Hst := (ret_gr m ρ c (3 : Fin 8) (by decide) (1 : Fin 4) (13 : Fin 16) (by decide)) $$ Hret
  ihave Hfin := (blk_fin_put m ρ c (13 : Fin 16) (1 : Fin 4) _) $$ [Hst Hfin]
  · iframe
    all_goals imemq
  first | iapply (wp_ret_bind c _ _ _) | skip
  try sl_exec
  -- the departure of the gather-left step 3, strip 1 is complete
  iapply (blk_wait_gl_dep m ρ K c (3 : Fin 7) (1 : Fin 4) 102 (credit_any _)) $$ [Hdgl Hpos Hdone HO]
  · iframe # ∗
    isplitr
    · imemq
    · imay
  iintro ⟨Hdgl, Hpos, Hdone, Hret, HO⟩
  ihave Hst := (ret_gl m ρ c (3 : Fin 7) (by decide) (1 : Fin 4) (3 : Fin 16) (by decide)) $$ Hret
  ihave Hfin := (blk_fin_put m ρ c (3 : Fin 16) (1 : Fin 4) _) $$ [Hst Hfin]
  · iframe
    all_goals imemq
  first | iapply (wp_ret_bind c _ _ _) | skip
  try sl_exec
  -- the departure of the gather-right step 3, strip 2 is complete
  iapply (blk_wait_gr_dep m ρ K c (3 : Fin 8) (2 : Fin 4) 102 (credit_any _)) $$ [Hdgr Hpos Hdone HO]
  · iframe # ∗
    isplitr
    · imemq
    · imay
  iintro ⟨Hdgr, Hpos, Hdone, Hret, HO⟩
  ihave Hst := (ret_gr m ρ c (3 : Fin 8) (by decide) (2 : Fin 4) (13 : Fin 16) (by decide)) $$ Hret
  ihave Hfin := (blk_fin_put m ρ c (13 : Fin 16) (2 : Fin 4) _) $$ [Hst Hfin]
  · iframe
    all_goals imemq
  first | iapply (wp_ret_bind c _ _ _) | skip
  try sl_exec
  -- the departure of the gather-left step 3, strip 2 is complete
  iapply (blk_wait_gl_dep m ρ K c (3 : Fin 7) (2 : Fin 4) 102 (credit_any _)) $$ [Hdgl Hpos Hdone HO]
  · iframe # ∗
    isplitr
    · imemq
    · imay
  iintro ⟨Hdgl, Hpos, Hdone, Hret, HO⟩
  ihave Hst := (ret_gl m ρ c (3 : Fin 7) (by decide) (2 : Fin 4) (3 : Fin 16) (by decide)) $$ Hret
  ihave Hfin := (blk_fin_put m ρ c (3 : Fin 16) (2 : Fin 4) _) $$ [Hst Hfin]
  · iframe
    all_goals imemq
  first | iapply (wp_ret_bind c _ _ _) | skip
  try sl_exec
  -- the departure of the gather-right step 3, strip 3 is complete
  iapply (blk_wait_gr_dep m ρ K c (3 : Fin 8) (3 : Fin 4) 102 (credit_any _)) $$ [Hdgr Hpos Hdone HO]
  · iframe # ∗
    isplitr
    · imemq
    · imay
  iintro ⟨Hdgr, Hpos, Hdone, Hret, HO⟩
  ihave Hst := (ret_gr m ρ c (3 : Fin 8) (by decide) (3 : Fin 4) (13 : Fin 16) (by decide)) $$ Hret
  ihave Hfin := (blk_fin_put m ρ c (13 : Fin 16) (3 : Fin 4) _) $$ [Hst Hfin]
  · iframe
    all_goals imemq
  first | iapply (wp_ret_bind c _ _ _) | skip
  try sl_exec
  -- the departure of the gather-left step 3, strip 3 is complete
  iapply (blk_wait_gl_dep m ρ K c (3 : Fin 7) (3 : Fin 4) 102 (credit_any _)) $$ [Hdgl Hpos Hdone HO]
  · iframe # ∗
    isplitr
    · imemq
    · imay
  iintro ⟨Hdgl, Hpos, Hdone, Hret, HO⟩
  ihave Hst := (ret_gl m ρ c (3 : Fin 7) (by decide) (3 : Fin 4) (3 : Fin 16) (by decide)) $$ Hret
  ihave Hfin := (blk_fin_put m ρ c (3 : Fin 16) (3 : Fin 4) _) $$ [Hst Hfin]
  · iframe
    all_goals imemq
  first | iapply (wp_ret_bind c _ _ _) | skip
  try sl_exec
  -- the finished strip at distance 11 has arrived from the neighbour before (gather rightwards, step 4, strip 0)
  iapply (blk_wait_gr_arr m ρ K c (4 : Fin 8) (0 : Fin 4) 102 (credit_any _)) $$ [Hcgr Hpos Hdone HO]
  · iframe # ∗
    isplitr
    · imemq
    · imay
  iintro ⟨Hcgr, Hpos, Hdone, Hst, HO⟩
  ihave Hst := (fwd_gr m ρ c (4 : Fin 8) (by decide) (0 : Fin 4)) $$ Hst
  first | iapply (wp_ret_bind c _ _ _) | skip
  try sl_exec
  -- gather rightwards, step 5, strip 0: the finished strip at distance 11 goes on to the neighbour after
  iapply (blk_gr_send m ρ K c (5 : Fin 8) (0 : Fin 4) 102 _ (dev103_eq c _) (off6_eq c (5 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 5 has arrived from the neighbour after (gather leftwards, step 4, strip 0)
  iapply (blk_wait_gl_arr m ρ K c (4 : Fin 7) (0 : Fin 4) 103 (credit_any _)) $$ [Hcgl Hpos Hdone HO]
  · iframe # ∗
    isplitr
    · imemq
    · imay
  iintro ⟨Hcgl, Hpos, Hdone, Hst, HO⟩
  ihave Hst := (fwd_gl m ρ c (4 : Fin 7) (by decide) (0 : Fin 4)) $$ Hst
  first | iapply (wp_ret_bind c _ _ _) | skip
  try sl_exec
  -- gather leftwards, step 5, strip 0: the finished strip at distance 5 goes on to the neighbour before
  iapply (blk_gl_send m ρ K c (5 : Fin 7) (0 : Fin 4) 103 _ (dev104_eq c _) (off7_eq c (5 : Fin 7) (0 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 11 has arrived from the neighbour before (gather rightwards, step 4, strip 1)
  iapply (blk_wait_gr_arr m ρ K c (4 : Fin 8) (1 : Fin 4) 104 (credit_any _)) $$ [Hcgr Hpos Hdone HO]
  · iframe # ∗
    isplitr
    · imemq
    · imay
  iintro ⟨Hcgr, Hpos, Hdone, Hst, HO⟩
  ihave Hst := (fwd_gr m ρ c (4 : Fin 8) (by decide) (1 : Fin 4)) $$ Hst
  first | iapply (wp_ret_bind c _ _ _) | skip
  try sl_exec
  -- gather rightwards, step 5, strip 1: the finished strip at distance 11 goes on to the neighbour after
  iapply (blk_gr_send m ρ K c (5 : Fin 8) (1 : Fin 4) 104 _ (dev105_eq c _) (off6_eq c (5 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 5 has arrived from the neighbour after (gather leftwards, step 4, strip 1)
  iapply (blk_wait_gl_arr m ρ K c (4 : Fin 7) (1 : Fin 4) 105 (credit_any _)) $$ [Hcgl Hpos Hdone HO]
  · iframe # ∗
    isplitr
    · imemq
    · imay
  iintro ⟨Hcgl, Hpos, Hdone, Hst, HO⟩
  ihave Hst := (fwd_gl m ρ c (4 : Fin 7) (by decide) (1 : Fin 4)) $$ Hst
  first | iapply (wp_ret_bind c _ _ _) | skip
  try sl_exec
  -- gather leftwards, step 5, strip 1: the finished strip at distance 5 goes on to the neighbour before
  iapply (blk_gl_send m ρ K c (5 : Fin 7) (1 : Fin 4) 105 _ (dev106_eq c _) (off7_eq c (5 : Fin 7) (1 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 11 has arrived from the neighbour before (gather rightwards, step 4, strip 2)
  iapply (blk_wait_gr_arr m ρ K c (4 : Fin 8) (2 : Fin 4) 106 (credit_any _)) $$ [Hcgr Hpos Hdone HO]
  · iframe # ∗
    isplitr
    · imemq
    · imay
  iintro ⟨Hcgr, Hpos, Hdone, Hst, HO⟩
  ihave Hst := (fwd_gr m ρ c (4 : Fin 8) (by decide) (2 : Fin 4)) $$ Hst
  first | iapply (wp_ret_bind c _ _ _) | skip
  try sl_exec
  -- gather rightwards, step 5, strip 2: the finished strip at distance 11 goes on to the neighbour after
  iapply (blk_gr_send m ρ K c (5 : Fin 8) (2 : Fin 4) 106 _ (dev107_eq c _) (off6_eq c (5 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 5 has arrived from the neighbour after (gather leftwards, step 4, strip 2)
  iapply (blk_wait_gl_arr m ρ K c (4 : Fin 7) (2 : Fin 4) 107 (credit_any _)) $$ [Hcgl Hpos Hdone HO]
  · iframe # ∗
    isplitr
    · imemq
    · imay
  iintro ⟨Hcgl, Hpos, Hdone, Hst, HO⟩
  ihave Hst := (fwd_gl m ρ c (4 : Fin 7) (by decide) (2 : Fin 4)) $$ Hst
  first | iapply (wp_ret_bind c _ _ _) | skip
  try sl_exec
  -- gather leftwards, step 5, strip 2: the finished strip at distance 5 goes on to the neighbour before
  iapply (blk_gl_send m ρ K c (5 : Fin 7) (2 : Fin 4) 107 _ (dev108_eq c _) (off7_eq c (5 : Fin 7) (2 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 11 has arrived from the neighbour before (gather rightwards, step 4, strip 3)
  iapply (blk_wait_gr_arr m ρ K c (4 : Fin 8) (3 : Fin 4) 108 (credit_any _)) $$ [Hcgr Hpos Hdone HO]
  · iframe # ∗
    isplitr
    · imemq
    · imay
  iintro ⟨Hcgr, Hpos, Hdone, Hst, HO⟩
  ihave Hst := (fwd_gr m ρ c (4 : Fin 8) (by decide) (3 : Fin 4)) $$ Hst
  first | iapply (wp_ret_bind c _ _ _) | skip
  try sl_exec
  -- gather rightwards, step 5, strip 3: the finished strip at distance 11 goes on to the neighbour after
  iapply (blk_gr_send m ρ K c (5 : Fin 8) (3 : Fin 4) 108 _ (dev109_eq c _) (off6_eq c (5 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 5 has arrived from the neighbour after (gather leftwards, step 4, strip 3)
  iapply (blk_wait_gl_arr m ρ K c (4 : Fin 7) (3 : Fin 4) 109 (credit_any _)) $$ [Hcgl Hpos Hdone HO]
  · iframe # ∗
    isplitr
    · imemq
    · imay
  iintro ⟨Hcgl, Hpos, Hdone, Hst, HO⟩
  ihave Hst := (fwd_gl m ρ c (4 : Fin 7) (by decide) (3 : Fin 4)) $$ Hst
  first | iapply (wp_ret_bind c _ _ _) | skip
  try sl_exec
  -- gather leftwards, step 5, strip 3: the finished strip at distance 5 goes on to the neighbour before
  iapply (blk_gl_send m ρ K c (5 : Fin 7) (3 : Fin 4) 109 _ (dev110_eq c _) (off7_eq c (5 : Fin 7) (3 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the departure of the gather-right step 4, strip 0 is complete
  iapply (blk_wait_gr_dep m ρ K c (4 : Fin 8) (0 : Fin 4) 110 (credit_any _)) $$ [Hdgr Hpos Hdone HO]
  · iframe # ∗
    isplitr
    · imemq
    · imay
  iintro ⟨Hdgr, Hpos, Hdone, Hret, HO⟩
  ihave Hst := (ret_gr m ρ c (4 : Fin 8) (by decide) (0 : Fin 4) (12 : Fin 16) (by decide)) $$ Hret
  ihave Hfin := (blk_fin_put m ρ c (12 : Fin 16) (0 : Fin 4) _) $$ [Hst Hfin]
  · iframe
    all_goals imemq
  first | iapply (wp_ret_bind c _ _ _) | skip
  try sl_exec
  -- the departure of the gather-left step 4, strip 0 is complete
  iapply (blk_wait_gl_dep m ρ K c (4 : Fin 7) (0 : Fin 4) 110 (credit_any _)) $$ [Hdgl Hpos Hdone HO]
  · iframe # ∗
    isplitr
    · imemq
    · imay
  iintro ⟨Hdgl, Hpos, Hdone, Hret, HO⟩
  ihave Hst := (ret_gl m ρ c (4 : Fin 7) (by decide) (0 : Fin 4) (4 : Fin 16) (by decide)) $$ Hret
  ihave Hfin := (blk_fin_put m ρ c (4 : Fin 16) (0 : Fin 4) _) $$ [Hst Hfin]
  · iframe
    all_goals imemq
  first | iapply (wp_ret_bind c _ _ _) | skip
  try sl_exec
  -- the departure of the gather-right step 4, strip 1 is complete
  iapply (blk_wait_gr_dep m ρ K c (4 : Fin 8) (1 : Fin 4) 110 (credit_any _)) $$ [Hdgr Hpos Hdone HO]
  · iframe # ∗
    isplitr
    · imemq
    · imay
  iintro ⟨Hdgr, Hpos, Hdone, Hret, HO⟩
  ihave Hst := (ret_gr m ρ c (4 : Fin 8) (by decide) (1 : Fin 4) (12 : Fin 16) (by decide)) $$ Hret
  ihave Hfin := (blk_fin_put m ρ c (12 : Fin 16) (1 : Fin 4) _) $$ [Hst Hfin]
  · iframe
    all_goals imemq
  first | iapply (wp_ret_bind c _ _ _) | skip
  try sl_exec
  -- the departure of the gather-left step 4, strip 1 is complete
  iapply (blk_wait_gl_dep m ρ K c (4 : Fin 7) (1 : Fin 4) 110 (credit_any _)) $$ [Hdgl Hpos Hdone HO]
  · iframe # ∗
    isplitr
    · imemq
    · imay
  iintro ⟨Hdgl, Hpos, Hdone, Hret, HO⟩
  ihave Hst := (ret_gl m ρ c (4 : Fin 7) (by decide) (1 : Fin 4) (4 : Fin 16) (by decide)) $$ Hret
  ihave Hfin := (blk_fin_put m ρ c (4 : Fin 16) (1 : Fin 4) _) $$ [Hst Hfin]
  · iframe
    all_goals imemq
  first | iapply (wp_ret_bind c _ _ _) | skip
  try sl_exec
  -- the departure of the gather-right step 4, strip 2 is complete
  iapply (blk_wait_gr_dep m ρ K c (4 : Fin 8) (2 : Fin 4) 110 (credit_any _)) $$ [Hdgr Hpos Hdone HO]
  · iframe # ∗
    isplitr
    · imemq
    · imay
  iintro ⟨Hdgr, Hpos, Hdone, Hret, HO⟩
  ihave Hst := (ret_gr m ρ c (4 : Fin 8) (by decide) (2 : Fin 4) (12 : Fin 16) (by decide)) $$ Hret
  ihave Hfin := (blk_fin_put m ρ c (12 : Fin 16) (2 : Fin 4) _) $$ [Hst Hfin]
  · iframe
    all_goals imemq
  first | iapply (wp_ret_bind c _ _ _) | skip
  try sl_exec
  -- the departure of the gather-left step 4, strip 2 is complete
  iapply (blk_wait_gl_dep m ρ K c (4 : Fin 7) (2 : Fin 4) 110 (credit_any _)) $$ [Hdgl Hpos Hdone HO]
  · iframe # ∗
    isplitr
    · imemq
    · imay
  iintro ⟨Hdgl, Hpos, Hdone, Hret, HO⟩
  ihave Hst := (ret_gl m ρ c (4 : Fin 7) (by decide) (2 : Fin 4) (4 : Fin 16) (by decide)) $$ Hret
  ihave Hfin := (blk_fin_put m ρ c (4 : Fin 16) (2 : Fin 4) _) $$ [Hst Hfin]
  · iframe
    all_goals imemq
  first | iapply (wp_ret_bind c _ _ _) | skip
  try sl_exec
  -- the departure of the gather-right step 4, strip 3 is complete
  iapply (blk_wait_gr_dep m ρ K c (4 : Fin 8) (3 : Fin 4) 110 (credit_any _)) $$ [Hdgr Hpos Hdone HO]
  · iframe # ∗
    isplitr
    · imemq
    · imay
  iintro ⟨Hdgr, Hpos, Hdone, Hret, HO⟩
  ihave Hst := (ret_gr m ρ c (4 : Fin 8) (by decide) (3 : Fin 4) (12 : Fin 16) (by decide)) $$ Hret
  ihave Hfin := (blk_fin_put m ρ c (12 : Fin 16) (3 : Fin 4) _) $$ [Hst Hfin]
  · iframe
    all_goals imemq
  first | iapply (wp_ret_bind c _ _ _) | skip
  try sl_exec
  -- the departure of the gather-left step 4, strip 3 is complete
  iapply (blk_wait_gl_dep m ρ K c (4 : Fin 7) (3 : Fin 4) 110 (credit_any _)) $$ [Hdgl Hpos Hdone HO]
  · iframe # ∗
    isplitr
    · imemq
    · imay
  iintro ⟨Hdgl, Hpos, Hdone, Hret, HO⟩
  ihave Hst := (ret_gl m ρ c (4 : Fin 7) (by decide) (3 : Fin 4) (4 : Fin 16) (by decide)) $$ Hret
  ihave Hfin := (blk_fin_put m ρ c (4 : Fin 16) (3 : Fin 4) _) $$ [Hst Hfin]
  · iframe
    all_goals imemq
  first | iapply (wp_ret_bind c _ _ _) | skip
  try sl_exec
  -- the finished strip at distance 10 has arrived from the neighbour before (gather rightwards, step 5, strip 0)
  iapply (blk_wait_gr_arr m ρ K c (5 : Fin 8) (0 : Fin 4) 110 (credit_any _)) $$ [Hcgr Hpos Hdone HO]
  · iframe # ∗
    isplitr
    · imemq
    · imay
  iintro ⟨Hcgr, Hpos, Hdone, Hst, HO⟩
  ihave Hst := (fwd_gr m ρ c (5 : Fin 8) (by decide) (0 : Fin 4)) $$ Hst
  first | iapply (wp_ret_bind c _ _ _) | skip
  try sl_exec
  -- gather rightwards, step 6, strip 0: the finished strip at distance 10 goes on to the neighbour after
  iapply (blk_gr_send m ρ K c (6 : Fin 8) (0 : Fin 4) 110 _ (dev111_eq c _) (off6_eq c (6 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 6 has arrived from the neighbour after (gather leftwards, step 5, strip 0)
  iapply (blk_wait_gl_arr m ρ K c (5 : Fin 7) (0 : Fin 4) 111 (credit_any _)) $$ [Hcgl Hpos Hdone HO]
  · iframe # ∗
    isplitr
    · imemq
    · imay
  iintro ⟨Hcgl, Hpos, Hdone, Hst, HO⟩
  ihave Hst := (fwd_gl m ρ c (5 : Fin 7) (by decide) (0 : Fin 4)) $$ Hst
  first | iapply (wp_ret_bind c _ _ _) | skip
  try sl_exec
  -- gather leftwards, step 6, strip 0: the finished strip at distance 6 goes on to the neighbour before
  iapply (blk_gl_send m ρ K c (6 : Fin 7) (0 : Fin 4) 111 _ (dev112_eq c _) (off7_eq c (6 : Fin 7) (0 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 10 has arrived from the neighbour before (gather rightwards, step 5, strip 1)
  iapply (blk_wait_gr_arr m ρ K c (5 : Fin 8) (1 : Fin 4) 112 (credit_any _)) $$ [Hcgr Hpos Hdone HO]
  · iframe # ∗
    isplitr
    · imemq
    · imay
  iintro ⟨Hcgr, Hpos, Hdone, Hst, HO⟩
  ihave Hst := (fwd_gr m ρ c (5 : Fin 8) (by decide) (1 : Fin 4)) $$ Hst
  first | iapply (wp_ret_bind c _ _ _) | skip
  try sl_exec
  -- gather rightwards, step 6, strip 1: the finished strip at distance 10 goes on to the neighbour after
  iapply (blk_gr_send m ρ K c (6 : Fin 8) (1 : Fin 4) 112 _ (dev113_eq c _) (off6_eq c (6 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 6 has arrived from the neighbour after (gather leftwards, step 5, strip 1)
  iapply (blk_wait_gl_arr m ρ K c (5 : Fin 7) (1 : Fin 4) 113 (credit_any _)) $$ [Hcgl Hpos Hdone HO]
  · iframe # ∗
    isplitr
    · imemq
    · imay
  iintro ⟨Hcgl, Hpos, Hdone, Hst, HO⟩
  ihave Hst := (fwd_gl m ρ c (5 : Fin 7) (by decide) (1 : Fin 4)) $$ Hst
  first | iapply (wp_ret_bind c _ _ _) | skip
  try sl_exec
  -- gather leftwards, step 6, strip 1: the finished strip at distance 6 goes on to the neighbour before
  iapply (blk_gl_send m ρ K c (6 : Fin 7) (1 : Fin 4) 113 _ (dev114_eq c _) (off7_eq c (6 : Fin 7) (1 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 10 has arrived from the neighbour before (gather rightwards, step 5, strip 2)
  iapply (blk_wait_gr_arr m ρ K c (5 : Fin 8) (2 : Fin 4) 114 (credit_any _)) $$ [Hcgr Hpos Hdone HO]
  · iframe # ∗
    isplitr
    · imemq
    · imay
  iintro ⟨Hcgr, Hpos, Hdone, Hst, HO⟩
  ihave Hst := (fwd_gr m ρ c (5 : Fin 8) (by decide) (2 : Fin 4)) $$ Hst
  first | iapply (wp_ret_bind c _ _ _) | skip
  try sl_exec
  -- gather rightwards, step 6, strip 2: the finished strip at distance 10 goes on to the neighbour after
  iapply (blk_gr_send m ρ K c (6 : Fin 8) (2 : Fin 4) 114 _ (dev115_eq c _) (off6_eq c (6 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 6 has arrived from the neighbour after (gather leftwards, step 5, strip 2)
  iapply (blk_wait_gl_arr m ρ K c (5 : Fin 7) (2 : Fin 4) 115 (credit_any _)) $$ [Hcgl Hpos Hdone HO]
  · iframe # ∗
    isplitr
    · imemq
    · imay
  iintro ⟨Hcgl, Hpos, Hdone, Hst, HO⟩
  ihave Hst := (fwd_gl m ρ c (5 : Fin 7) (by decide) (2 : Fin 4)) $$ Hst
  first | iapply (wp_ret_bind c _ _ _) | skip
  try sl_exec
  -- gather leftwards, step 6, strip 2: the finished strip at distance 6 goes on to the neighbour before
  iapply (blk_gl_send m ρ K c (6 : Fin 7) (2 : Fin 4) 115 _ (dev116_eq c _) (off7_eq c (6 : Fin 7) (2 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the finished strip at distance 10 has arrived from the neighbour before (gather rightwards, step 5, strip 3)
  iapply (blk_wait_gr_arr m ρ K c (5 : Fin 8) (3 : Fin 4) 116 (credit_any _)) $$ [Hcgr Hpos Hdone HO]
  · iframe # ∗
    isplitr
    · imemq
    · imay
  iintro ⟨Hcgr, Hpos, Hdone, Hst, HO⟩
  ihave Hst := (fwd_gr m ρ c (5 : Fin 8) (by decide) (3 : Fin 4)) $$ Hst
  first | iapply (wp_ret_bind c _ _ _) | skip
  try sl_exec
  -- gather rightwards, step 6, strip 3: the finished strip at distance 10 goes on to the neighbour after
  iapply (blk_gr_send m ρ K c (6 : Fin 8) (3 : Fin 4) 116 _ (dev117_eq c _) (off6_eq c (6 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 6 has arrived from the neighbour after (gather leftwards, step 5, strip 3)
  iapply (blk_wait_gl_arr m ρ K c (5 : Fin 7) (3 : Fin 4) 117 (credit_any _)) $$ [Hcgl Hpos Hdone HO]
  · iframe # ∗
    isplitr
    · imemq
    · imay
  iintro ⟨Hcgl, Hpos, Hdone, Hst, HO⟩
  ihave Hst := (fwd_gl m ρ c (5 : Fin 7) (by decide) (3 : Fin 4)) $$ Hst
  first | iapply (wp_ret_bind c _ _ _) | skip
  try sl_exec
  -- gather leftwards, step 6, strip 3: the finished strip at distance 6 goes on to the neighbour before
  iapply (blk_gl_send m ρ K c (6 : Fin 7) (3 : Fin 4) 117 _ (dev118_eq c _) (off7_eq c (6 : Fin 7) (3 : Fin 4)) rfl) $$ [Hst Hnl Htgl Hdgl HO]
  · isplitr
    · iexact Hrec
    isplitr
    · iexact Hlev
    isplitl [Hst]
    · iexact Hst
    iframe
    imemq
  iintro ⟨Hnl, Htgl, Hdgl, HO⟩
  first | iapply (wp_ret_bind c _ _ _) | skip
  try sl_exec
  -- the departure of the gather-right step 5, strip 0 is complete
  iapply (blk_wait_gr_dep m ρ K c (5 : Fin 8) (0 : Fin 4) 118 (credit_any _)) $$ [Hdgr Hpos Hdone HO]
  · iframe # ∗
    isplitr
    · imemq
    · imay
  iintro ⟨Hdgr, Hpos, Hdone, Hret, HO⟩
  ihave Hst := (ret_gr m ρ c (5 : Fin 8) (by decide) (0 : Fin 4) (11 : Fin 16) (by decide)) $$ Hret
  ihave Hfin := (blk_fin_put m ρ c (11 : Fin 16) (0 : Fin 4) _) $$ [Hst Hfin]
  · iframe
    all_goals imemq
  first | iapply (wp_ret_bind c _ _ _) | skip
  try sl_exec
  -- the departure of the gather-left step 5, strip 0 is complete
  iapply (blk_wait_gl_dep m ρ K c (5 : Fin 7) (0 : Fin 4) 118 (credit_any _)) $$ [Hdgl Hpos Hdone HO]
  · iframe # ∗
    isplitr
    · imemq
    · imay
  iintro ⟨Hdgl, Hpos, Hdone, Hret, HO⟩
  ihave Hst := (ret_gl m ρ c (5 : Fin 7) (by decide) (0 : Fin 4) (5 : Fin 16) (by decide)) $$ Hret
  ihave Hfin := (blk_fin_put m ρ c (5 : Fin 16) (0 : Fin 4) _) $$ [Hst Hfin]
  · iframe
    all_goals imemq
  first | iapply (wp_ret_bind c _ _ _) | skip
  try sl_exec
  -- the departure of the gather-right step 5, strip 1 is complete
  iapply (blk_wait_gr_dep m ρ K c (5 : Fin 8) (1 : Fin 4) 118 (credit_any _)) $$ [Hdgr Hpos Hdone HO]
  · iframe # ∗
    isplitr
    · imemq
    · imay
  iintro ⟨Hdgr, Hpos, Hdone, Hret, HO⟩
  ihave Hst := (ret_gr m ρ c (5 : Fin 8) (by decide) (1 : Fin 4) (11 : Fin 16) (by decide)) $$ Hret
  ihave Hfin := (blk_fin_put m ρ c (11 : Fin 16) (1 : Fin 4) _) $$ [Hst Hfin]
  · iframe
    all_goals imemq
  first | iapply (wp_ret_bind c _ _ _) | skip
  try sl_exec
  -- the departure of the gather-left step 5, strip 1 is complete
  iapply (blk_wait_gl_dep m ρ K c (5 : Fin 7) (1 : Fin 4) 118 (credit_any _)) $$ [Hdgl Hpos Hdone HO]
  · iframe # ∗
    isplitr
    · imemq
    · imay
  iintro ⟨Hdgl, Hpos, Hdone, Hret, HO⟩
  ihave Hst := (ret_gl m ρ c (5 : Fin 7) (by decide) (1 : Fin 4) (5 : Fin 16) (by decide)) $$ Hret
  ihave Hfin := (blk_fin_put m ρ c (5 : Fin 16) (1 : Fin 4) _) $$ [Hst Hfin]
  · iframe
    all_goals imemq
  first | iapply (wp_ret_bind c _ _ _) | skip
  try sl_exec
  -- the departure of the gather-right step 5, strip 2 is complete
  iapply (blk_wait_gr_dep m ρ K c (5 : Fin 8) (2 : Fin 4) 118 (credit_any _)) $$ [Hdgr Hpos Hdone HO]
  · iframe # ∗
    isplitr
    · imemq
    · imay
  iintro ⟨Hdgr, Hpos, Hdone, Hret, HO⟩
  ihave Hst := (ret_gr m ρ c (5 : Fin 8) (by decide) (2 : Fin 4) (11 : Fin 16) (by decide)) $$ Hret
  ihave Hfin := (blk_fin_put m ρ c (11 : Fin 16) (2 : Fin 4) _) $$ [Hst Hfin]
  · iframe
    all_goals imemq
  first | iapply (wp_ret_bind c _ _ _) | skip
  try sl_exec
  -- the departure of the gather-left step 5, strip 2 is complete
  iapply (blk_wait_gl_dep m ρ K c (5 : Fin 7) (2 : Fin 4) 118 (credit_any _)) $$ [Hdgl Hpos Hdone HO]
  · iframe # ∗
    isplitr
    · imemq
    · imay
  iintro ⟨Hdgl, Hpos, Hdone, Hret, HO⟩
  ihave Hst := (ret_gl m ρ c (5 : Fin 7) (by decide) (2 : Fin 4) (5 : Fin 16) (by decide)) $$ Hret
  ihave Hfin := (blk_fin_put m ρ c (5 : Fin 16) (2 : Fin 4) _) $$ [Hst Hfin]
  · iframe
    all_goals imemq
  first | iapply (wp_ret_bind c _ _ _) | skip
  try sl_exec
  -- the departure of the gather-right step 5, strip 3 is complete
  iapply (blk_wait_gr_dep m ρ K c (5 : Fin 8) (3 : Fin 4) 118 (credit_any _)) $$ [Hdgr Hpos Hdone HO]
  · iframe # ∗
    isplitr
    · imemq
    · imay
  iintro ⟨Hdgr, Hpos, Hdone, Hret, HO⟩
  ihave Hst := (ret_gr m ρ c (5 : Fin 8) (by decide) (3 : Fin 4) (11 : Fin 16) (by decide)) $$ Hret
  ihave Hfin := (blk_fin_put m ρ c (11 : Fin 16) (3 : Fin 4) _) $$ [Hst Hfin]
  · iframe
    all_goals imemq
  first | iapply (wp_ret_bind c _ _ _) | skip
  try sl_exec
  -- the departure of the gather-left step 5, strip 3 is complete
  iapply (blk_wait_gl_dep m ρ K c (5 : Fin 7) (3 : Fin 4) 118 (credit_any _)) $$ [Hdgl Hpos Hdone HO]
  · iframe # ∗
    isplitr
    · imemq
    · imay
  iintro ⟨Hdgl, Hpos, Hdone, Hret, HO⟩
  ihave Hst := (ret_gl m ρ c (5 : Fin 7) (by decide) (3 : Fin 4) (5 : Fin 16) (by decide)) $$ Hret
  ihave Hfin := (blk_fin_put m ρ c (5 : Fin 16) (3 : Fin 4) _) $$ [Hst Hfin]
  · iframe
    all_goals imemq
  first | iapply (wp_ret_bind c _ _ _) | skip
  try sl_exec
  -- the finished strip at distance 9 has arrived from the neighbour before (gather rightwards, step 6, strip 0)
  iapply (blk_wait_gr_arr m ρ K c (6 : Fin 8) (0 : Fin 4) 118 (credit_any _)) $$ [Hcgr Hpos Hdone HO]
  · iframe # ∗
    isplitr
    · imemq
    · imay
  iintro ⟨Hcgr, Hpos, Hdone, Hst, HO⟩
  ihave Hst := (fwd_gr m ρ c (6 : Fin 8) (by decide) (0 : Fin 4)) $$ Hst
  first | iapply (wp_ret_bind c _ _ _) | skip
  try sl_exec
  -- gather rightwards, step 7, strip 0: the finished strip at distance 9 goes on to the neighbour after
  iapply (blk_gr_send m ρ K c (7 : Fin 8) (0 : Fin 4) 118 _ (dev119_eq c _) (off6_eq c (7 : Fin 8) (0 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 9 has arrived from the neighbour before (gather rightwards, step 6, strip 1)
  iapply (blk_wait_gr_arr m ρ K c (6 : Fin 8) (1 : Fin 4) 119 (credit_any _)) $$ [Hcgr Hpos Hdone HO]
  · iframe # ∗
    isplitr
    · imemq
    · imay
  iintro ⟨Hcgr, Hpos, Hdone, Hst, HO⟩
  ihave Hst := (fwd_gr m ρ c (6 : Fin 8) (by decide) (1 : Fin 4)) $$ Hst
  first | iapply (wp_ret_bind c _ _ _) | skip
  try sl_exec
  -- gather rightwards, step 7, strip 1: the finished strip at distance 9 goes on to the neighbour after
  iapply (blk_gr_send m ρ K c (7 : Fin 8) (1 : Fin 4) 119 _ (dev120_eq c _) (off6_eq c (7 : Fin 8) (1 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 9 has arrived from the neighbour before (gather rightwards, step 6, strip 2)
  iapply (blk_wait_gr_arr m ρ K c (6 : Fin 8) (2 : Fin 4) 120 (credit_any _)) $$ [Hcgr Hpos Hdone HO]
  · iframe # ∗
    isplitr
    · imemq
    · imay
  iintro ⟨Hcgr, Hpos, Hdone, Hst, HO⟩
  ihave Hst := (fwd_gr m ρ c (6 : Fin 8) (by decide) (2 : Fin 4)) $$ Hst
  first | iapply (wp_ret_bind c _ _ _) | skip
  try sl_exec
  -- gather rightwards, step 7, strip 2: the finished strip at distance 9 goes on to the neighbour after
  iapply (blk_gr_send m ρ K c (7 : Fin 8) (2 : Fin 4) 120 _ (dev121_eq c _) (off6_eq c (7 : Fin 8) (2 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 9 has arrived from the neighbour before (gather rightwards, step 6, strip 3)
  iapply (blk_wait_gr_arr m ρ K c (6 : Fin 8) (3 : Fin 4) 121 (credit_any _)) $$ [Hcgr Hpos Hdone HO]
  · iframe # ∗
    isplitr
    · imemq
    · imay
  iintro ⟨Hcgr, Hpos, Hdone, Hst, HO⟩
  ihave Hst := (fwd_gr m ρ c (6 : Fin 8) (by decide) (3 : Fin 4)) $$ Hst
  first | iapply (wp_ret_bind c _ _ _) | skip
  try sl_exec
  -- gather rightwards, step 7, strip 3: the finished strip at distance 9 goes on to the neighbour after
  iapply (blk_gr_send m ρ K c (7 : Fin 8) (3 : Fin 4) 121 _ (dev122_eq c _) (off6_eq c (7 : Fin 8) (3 : Fin 4)) rfl) $$ [Hst Hnr Htgr Hdgr HO]
  · isplitr
    · iexact Hrec
    isplitr
    · iexact Hlev
    isplitl [Hst]
    · iexact Hst
    iframe
    imemq
  iintro ⟨Hnr, Htgr, Hdgr, HO⟩
  first | iapply (wp_ret_bind c _ _ _) | skip
  try sl_exec
  -- the finished strip at distance 7 has arrived from the neighbour after (gather leftwards, step 6, strip 0)
  iapply (blk_wait_gl_arr m ρ K c (6 : Fin 7) (0 : Fin 4) 122 (credit_any _)) $$ [Hcgl Hpos Hdone HO]
  · iframe # ∗
    isplitr
    · imemq
    · imay
  iintro ⟨Hcgl, Hpos, Hdone, Hst, HO⟩
  ihave Hst := (arr_gl m ρ c (6 : Fin 7) (0 : Fin 4) (7 : Fin 16) (by decide)) $$ Hst
  ihave Hfin := (blk_fin_put m ρ c (7 : Fin 16) (0 : Fin 4) _) $$ [Hst Hfin]
  · iframe
    all_goals imemq
  first | iapply (wp_ret_bind c _ _ _) | skip
  try sl_exec
  -- the finished strip at distance 8 has arrived from the neighbour before (gather rightwards, step 7, strip 0)
  iapply (blk_wait_gr_arr m ρ K c (7 : Fin 8) (0 : Fin 4) 122 (credit_any _)) $$ [Hcgr Hpos Hdone HO]
  · iframe # ∗
    isplitr
    · imemq
    · imay
  iintro ⟨Hcgr, Hpos, Hdone, Hst, HO⟩
  ihave Hst := (arr_gr m ρ c (7 : Fin 8) (0 : Fin 4) (8 : Fin 16) (by decide)) $$ Hst
  ihave Hfin := (blk_fin_put m ρ c (8 : Fin 16) (0 : Fin 4) _) $$ [Hst Hfin]
  · iframe
    all_goals imemq
  first | iapply (wp_ret_bind c _ _ _) | skip
  try sl_exec
  -- the finished strip at distance 7 has arrived from the neighbour after (gather leftwards, step 6, strip 1)
  iapply (blk_wait_gl_arr m ρ K c (6 : Fin 7) (1 : Fin 4) 122 (credit_any _)) $$ [Hcgl Hpos Hdone HO]
  · iframe # ∗
    isplitr
    · imemq
    · imay
  iintro ⟨Hcgl, Hpos, Hdone, Hst, HO⟩
  ihave Hst := (arr_gl m ρ c (6 : Fin 7) (1 : Fin 4) (7 : Fin 16) (by decide)) $$ Hst
  ihave Hfin := (blk_fin_put m ρ c (7 : Fin 16) (1 : Fin 4) _) $$ [Hst Hfin]
  · iframe
    all_goals imemq
  first | iapply (wp_ret_bind c _ _ _) | skip
  try sl_exec
  -- the finished strip at distance 8 has arrived from the neighbour before (gather rightwards, step 7, strip 1)
  iapply (blk_wait_gr_arr m ρ K c (7 : Fin 8) (1 : Fin 4) 122 (credit_any _)) $$ [Hcgr Hpos Hdone HO]
  · iframe # ∗
    isplitr
    · imemq
    · imay
  iintro ⟨Hcgr, Hpos, Hdone, Hst, HO⟩
  ihave Hst := (arr_gr m ρ c (7 : Fin 8) (1 : Fin 4) (8 : Fin 16) (by decide)) $$ Hst
  ihave Hfin := (blk_fin_put m ρ c (8 : Fin 16) (1 : Fin 4) _) $$ [Hst Hfin]
  · iframe
    all_goals imemq
  first | iapply (wp_ret_bind c _ _ _) | skip
  try sl_exec
  -- the finished strip at distance 7 has arrived from the neighbour after (gather leftwards, step 6, strip 2)
  iapply (blk_wait_gl_arr m ρ K c (6 : Fin 7) (2 : Fin 4) 122 (credit_any _)) $$ [Hcgl Hpos Hdone HO]
  · iframe # ∗
    isplitr
    · imemq
    · imay
  iintro ⟨Hcgl, Hpos, Hdone, Hst, HO⟩
  ihave Hst := (arr_gl m ρ c (6 : Fin 7) (2 : Fin 4) (7 : Fin 16) (by decide)) $$ Hst
  ihave Hfin := (blk_fin_put m ρ c (7 : Fin 16) (2 : Fin 4) _) $$ [Hst Hfin]
  · iframe
    all_goals imemq
  first | iapply (wp_ret_bind c _ _ _) | skip
  try sl_exec
  -- the finished strip at distance 8 has arrived from the neighbour before (gather rightwards, step 7, strip 2)
  iapply (blk_wait_gr_arr m ρ K c (7 : Fin 8) (2 : Fin 4) 122 (credit_any _)) $$ [Hcgr Hpos Hdone HO]
  · iframe # ∗
    isplitr
    · imemq
    · imay
  iintro ⟨Hcgr, Hpos, Hdone, Hst, HO⟩
  ihave Hst := (arr_gr m ρ c (7 : Fin 8) (2 : Fin 4) (8 : Fin 16) (by decide)) $$ Hst
  ihave Hfin := (blk_fin_put m ρ c (8 : Fin 16) (2 : Fin 4) _) $$ [Hst Hfin]
  · iframe
    all_goals imemq
  first | iapply (wp_ret_bind c _ _ _) | skip
  try sl_exec
  -- the finished strip at distance 7 has arrived from the neighbour after (gather leftwards, step 6, strip 3)
  iapply (blk_wait_gl_arr m ρ K c (6 : Fin 7) (3 : Fin 4) 122 (credit_any _)) $$ [Hcgl Hpos Hdone HO]
  · iframe # ∗
    isplitr
    · imemq
    · imay
  iintro ⟨Hcgl, Hpos, Hdone, Hst, HO⟩
  ihave Hst := (arr_gl m ρ c (6 : Fin 7) (3 : Fin 4) (7 : Fin 16) (by decide)) $$ Hst
  ihave Hfin := (blk_fin_put m ρ c (7 : Fin 16) (3 : Fin 4) _) $$ [Hst Hfin]
  · iframe
    all_goals imemq
  first | iapply (wp_ret_bind c _ _ _) | skip
  try sl_exec
  -- the finished strip at distance 8 has arrived from the neighbour before (gather rightwards, step 7, strip 3)
  iapply (blk_wait_gr_arr m ρ K c (7 : Fin 8) (3 : Fin 4) 122 (credit_any _)) $$ [Hcgr Hpos Hdone HO]
  · iframe # ∗
    isplitr
    · imemq
    · imay
  iintro ⟨Hcgr, Hpos, Hdone, Hst, HO⟩
  ihave Hst := (arr_gr m ρ c (7 : Fin 8) (3 : Fin 4) (8 : Fin 16) (by decide)) $$ Hst
  ihave Hfin := (blk_fin_put m ρ c (8 : Fin 16) (3 : Fin 4) _) $$ [Hst Hfin]
  · iframe
    all_goals imemq
  first | iapply (wp_ret_bind c _ _ _) | skip
  try sl_exec
  -- the departure of the gather-right step 6, strip 0 is complete
  iapply (blk_wait_gr_dep m ρ K c (6 : Fin 8) (0 : Fin 4) 122 (credit_any _)) $$ [Hdgr Hpos Hdone HO]
  · iframe # ∗
    isplitr
    · imemq
    · imay
  iintro ⟨Hdgr, Hpos, Hdone, Hret, HO⟩
  ihave Hst := (ret_gr m ρ c (6 : Fin 8) (by decide) (0 : Fin 4) (10 : Fin 16) (by decide)) $$ Hret
  ihave Hfin := (blk_fin_put m ρ c (10 : Fin 16) (0 : Fin 4) _) $$ [Hst Hfin]
  · iframe
    all_goals imemq
  first | iapply (wp_ret_bind c _ _ _) | skip
  try sl_exec
  -- the departure of the gather-left step 6, strip 0 is complete
  iapply (blk_wait_gl_dep m ρ K c (6 : Fin 7) (0 : Fin 4) 122 (credit_any _)) $$ [Hdgl Hpos Hdone HO]
  · iframe # ∗
    isplitr
    · imemq
    · imay
  iintro ⟨Hdgl, Hpos, Hdone, Hret, HO⟩
  ihave Hst := (ret_gl m ρ c (6 : Fin 7) (by decide) (0 : Fin 4) (6 : Fin 16) (by decide)) $$ Hret
  ihave Hfin := (blk_fin_put m ρ c (6 : Fin 16) (0 : Fin 4) _) $$ [Hst Hfin]
  · iframe
    all_goals imemq
  first | iapply (wp_ret_bind c _ _ _) | skip
  try sl_exec
  -- the departure of the gather-right step 6, strip 1 is complete
  iapply (blk_wait_gr_dep m ρ K c (6 : Fin 8) (1 : Fin 4) 122 (credit_any _)) $$ [Hdgr Hpos Hdone HO]
  · iframe # ∗
    isplitr
    · imemq
    · imay
  iintro ⟨Hdgr, Hpos, Hdone, Hret, HO⟩
  ihave Hst := (ret_gr m ρ c (6 : Fin 8) (by decide) (1 : Fin 4) (10 : Fin 16) (by decide)) $$ Hret
  ihave Hfin := (blk_fin_put m ρ c (10 : Fin 16) (1 : Fin 4) _) $$ [Hst Hfin]
  · iframe
    all_goals imemq
  first | iapply (wp_ret_bind c _ _ _) | skip
  try sl_exec
  -- the departure of the gather-left step 6, strip 1 is complete
  iapply (blk_wait_gl_dep m ρ K c (6 : Fin 7) (1 : Fin 4) 122 (credit_any _)) $$ [Hdgl Hpos Hdone HO]
  · iframe # ∗
    isplitr
    · imemq
    · imay
  iintro ⟨Hdgl, Hpos, Hdone, Hret, HO⟩
  ihave Hst := (ret_gl m ρ c (6 : Fin 7) (by decide) (1 : Fin 4) (6 : Fin 16) (by decide)) $$ Hret
  ihave Hfin := (blk_fin_put m ρ c (6 : Fin 16) (1 : Fin 4) _) $$ [Hst Hfin]
  · iframe
    all_goals imemq
  first | iapply (wp_ret_bind c _ _ _) | skip
  try sl_exec
  -- the departure of the gather-right step 6, strip 2 is complete
  iapply (blk_wait_gr_dep m ρ K c (6 : Fin 8) (2 : Fin 4) 122 (credit_any _)) $$ [Hdgr Hpos Hdone HO]
  · iframe # ∗
    isplitr
    · imemq
    · imay
  iintro ⟨Hdgr, Hpos, Hdone, Hret, HO⟩
  ihave Hst := (ret_gr m ρ c (6 : Fin 8) (by decide) (2 : Fin 4) (10 : Fin 16) (by decide)) $$ Hret
  ihave Hfin := (blk_fin_put m ρ c (10 : Fin 16) (2 : Fin 4) _) $$ [Hst Hfin]
  · iframe
    all_goals imemq
  first | iapply (wp_ret_bind c _ _ _) | skip
  try sl_exec
  -- the departure of the gather-left step 6, strip 2 is complete
  iapply (blk_wait_gl_dep m ρ K c (6 : Fin 7) (2 : Fin 4) 122 (credit_any _)) $$ [Hdgl Hpos Hdone HO]
  · iframe # ∗
    isplitr
    · imemq
    · imay
  iintro ⟨Hdgl, Hpos, Hdone, Hret, HO⟩
  ihave Hst := (ret_gl m ρ c (6 : Fin 7) (by decide) (2 : Fin 4) (6 : Fin 16) (by decide)) $$ Hret
  ihave Hfin := (blk_fin_put m ρ c (6 : Fin 16) (2 : Fin 4) _) $$ [Hst Hfin]
  · iframe
    all_goals imemq
  first | iapply (wp_ret_bind c _ _ _) | skip
  try sl_exec
  -- the departure of the gather-right step 6, strip 3 is complete
  iapply (blk_wait_gr_dep m ρ K c (6 : Fin 8) (3 : Fin 4) 122 (credit_any _)) $$ [Hdgr Hpos Hdone HO]
  · iframe # ∗
    isplitr
    · imemq
    · imay
  iintro ⟨Hdgr, Hpos, Hdone, Hret, HO⟩
  ihave Hst := (ret_gr m ρ c (6 : Fin 8) (by decide) (3 : Fin 4) (10 : Fin 16) (by decide)) $$ Hret
  ihave Hfin := (blk_fin_put m ρ c (10 : Fin 16) (3 : Fin 4) _) $$ [Hst Hfin]
  · iframe
    all_goals imemq
  first | iapply (wp_ret_bind c _ _ _) | skip
  try sl_exec
  -- the departure of the gather-left step 6, strip 3 is complete
  iapply (blk_wait_gl_dep m ρ K c (6 : Fin 7) (3 : Fin 4) 122 (credit_any _)) $$ [Hdgl Hpos Hdone HO]
  · iframe # ∗
    isplitr
    · imemq
    · imay
  iintro ⟨Hdgl, Hpos, Hdone, Hret, HO⟩
  ihave Hst := (ret_gl m ρ c (6 : Fin 7) (by decide) (3 : Fin 4) (6 : Fin 16) (by decide)) $$ Hret
  ihave Hfin := (blk_fin_put m ρ c (6 : Fin 16) (3 : Fin 4) _) $$ [Hst Hfin]
  · iframe
    all_goals imemq
  first | iapply (wp_ret_bind c _ _ _) | skip
  try sl_exec
  -- the departure of the gather-right step 7, strip 0 is complete
  iapply (blk_wait_gr_dep m ρ K c (7 : Fin 8) (0 : Fin 4) 122 (credit_any _)) $$ [Hdgr Hpos Hdone HO]
  · iframe # ∗
    isplitr
    · imemq
    · imay
  iintro ⟨Hdgr, Hpos, Hdone, Hret, HO⟩
  ihave Hst := (ret_gr m ρ c (7 : Fin 8) (by decide) (0 : Fin 4) (9 : Fin 16) (by decide)) $$ Hret
  ihave Hfin := (blk_fin_put m ρ c (9 : Fin 16) (0 : Fin 4) _) $$ [Hst Hfin]
  · iframe
    all_goals imemq
  first | iapply (wp_ret_bind c _ _ _) | skip
  try sl_exec
  -- the departure of the gather-right step 7, strip 1 is complete
  iapply (blk_wait_gr_dep m ρ K c (7 : Fin 8) (1 : Fin 4) 122 (credit_any _)) $$ [Hdgr Hpos Hdone HO]
  · iframe # ∗
    isplitr
    · imemq
    · imay
  iintro ⟨Hdgr, Hpos, Hdone, Hret, HO⟩
  ihave Hst := (ret_gr m ρ c (7 : Fin 8) (by decide) (1 : Fin 4) (9 : Fin 16) (by decide)) $$ Hret
  ihave Hfin := (blk_fin_put m ρ c (9 : Fin 16) (1 : Fin 4) _) $$ [Hst Hfin]
  · iframe
    all_goals imemq
  first | iapply (wp_ret_bind c _ _ _) | skip
  try sl_exec
  -- the departure of the gather-right step 7, strip 2 is complete
  iapply (blk_wait_gr_dep m ρ K c (7 : Fin 8) (2 : Fin 4) 122 (credit_any _)) $$ [Hdgr Hpos Hdone HO]
  · iframe # ∗
    isplitr
    · imemq
    · imay
  iintro ⟨Hdgr, Hpos, Hdone, Hret, HO⟩
  ihave Hst := (ret_gr m ρ c (7 : Fin 8) (by decide) (2 : Fin 4) (9 : Fin 16) (by decide)) $$ Hret
  ihave Hfin := (blk_fin_put m ρ c (9 : Fin 16) (2 : Fin 4) _) $$ [Hst Hfin]
  · iframe
    all_goals imemq
  first | iapply (wp_ret_bind c _ _ _) | skip
  try sl_exec
  -- the departure of the gather-right step 7, strip 3 is complete
  iapply (blk_wait_gr_dep m ρ K c (7 : Fin 8) (3 : Fin 4) 122 (credit_any _)) $$ [Hdgr Hpos Hdone HO]
  · iframe # ∗
    isplitr
    · imemq
    · imay
  iintro ⟨Hdgr, Hpos, Hdone, Hret, HO⟩
  ihave Hst := (ret_gr m ρ c (7 : Fin 8) (by decide) (3 : Fin 4) (9 : Fin 16) (by decide)) $$ Hret
  ihave Hfin := (blk_fin_put m ρ c (9 : Fin 16) (3 : Fin 4) _) $$ [Hst Hfin]
  · iframe
    all_goals imemq
  first | iapply (wp_ret_bind c _ _ _) | skip
  try sl_exec
  -- every family is complete: all 240 transfer cells waited for, all 64 output strips at their final value, all the
  -- strips of the two receive buffers back
  ihave Hdone := (fam_congr (doneΦ (F := F) c) (T := Finset.univ.erase (0 : Fin 241)) (by decide +kernel)) $$ Hdone
  ihave Hfin := (fam_congr (outΦ c (finV m ρ c)) (T := Finset.univ) (by decide +kernel)) $$ Hfin
  ihave Hlb := (fam_congr (lbΦ (F := F) c) (T := Finset.univ) (by decide +kernel)) $$ Hlb
  ihave Hrb := (fam_congr (rbΦ (F := F) c) (T := Finset.univ) (by decide +kernel)) $$ Hrb
  -- the return: what the device leaves
  imod (ending m ρ K c _) $$ [Hdone Hfin Hlb Hrb HO Hx Hw] with Hpost
  · isplitr
    · iexact Hrec
    isplitl [Hdone]
    · iexact Hdone
    isplitl [Hfin]
    · iexact Hfin
    isplitl [Hlb]
    · iexact Hlb
    isplitl [Hrb]
    · iexact Hrb
    isplitl [HO]
    · iexact HO
    isplitl [Hx]
    · iexact Hx
    iexact Hw
  sl_step
  iapply Hk
  iexact Hpost

/-- info: 'Cert.Kernel.Hand.sound_body' depends on axioms: [propext, Classical.choice, Quot.sound] -/
#guard_msgs in #print axioms sound_body

end Cert.Kernel.Hand
end
-- ==== Proof.Spec.lean ====
/-
  The value the sixteen devices compute together, stated over the extended reals and with no program in sight.

  `mm X W` is the product of two `1024 x 1024` arrays read at an index; `mmPart Xd Wd` the product of a `1024 x 64`
  block of columns of the first with the matching `64 x 1024` block of rows of the second. The contraction index
  `0 .. 1023` is sixteen runs of `64`, so the whole product is the sum over the sixteen devices of their partial
  products (`mm_eq_sum_parts`): addition of extended reals is commutative and associative, and nothing has to be finite.

  `gelu` is the tanh form of the GELU, `0.5 y (1 + tanh (0.7978846 (y + 0.044715 y^3)))`, with the cube associated
  as `((c y) y) y`; `geluRef` associates it as `c ((y y) y)`; the two agree (`gelu_eq_geluRef`).

  A ring of sixteen positions adds the partial values `P q` of one element in a fixed order: travelling one way
  the running sum that reaches position `p` after `s` steps is `accR P p s = P p + accR P (p - 1) (s - 1)`, the other
  way `accL P p s = P p + accL P (p + 1) (s - 1)`. Seven terms from one side, eight from the other and the
  position's own are all sixteen, each once (`ring_total`).
-/
import Idealize.ShloMosaic.PureOps.Ideal
import Idealize.ShloMosaic.PureOps.Ideal.Laws
import Idealize.ShloMosaic.Lib.ValueIdx
import Idealize.ShloMosaic.Lib.Layout
import Mathlib.Algebra.BigOperators.Fin
import Mathlib.Algebra.BigOperators.Group.List.Basic
import Mathlib.Logic.Equiv.Fin.Basic

noncomputable section

open scoped BigOperators

namespace Cert.Spec

open Idealize.ShloMosaic Idealize.ShloMosaic.ValueIdx

/-! ## The product and its sixteen parts -/

/-- The product of two `1024 x 1024` arrays at index `i`. -/
def mm (X W : (⟨2, ![1024, 1024]⟩ : Shape).Idx → EReal) (i : (⟨2, ![1024, 1024]⟩ : Shape).Idx) : EReal :=
  ∑ k : Fin 1024, X (ix2 (i 0) k) * W (ix2 k (i 1))

/-- The product of a `1024 x 64` block of columns with a `64 x 1024` block of rows at index `i`. -/
def mmPart (Xd : (⟨2, ![1024, 64]⟩ : Shape).Idx → EReal) (Wd : (⟨2, ![64, 1024]⟩ : Shape).Idx → EReal)
    (i : (⟨2, ![1024, 1024]⟩ : Shape).Idx) : EReal :=
  ∑ k : Fin 64, Xd (ix2 (i 0) k) * Wd (ix2 k (i 1))

/-- A sum over `0 .. 1023` is the sum over sixteen runs of sixty-four. -/
theorem sum_runs {M : Type*} [AddCommMonoid M] (f : Fin 1024 → M) :
    ∑ k : Fin 1024, f k = ∑ d : Fin 16, ∑ k' : Fin 64, f ⟨d.val * 64 + k'.val, by omega⟩ := by
  have e : ∑ k : Fin 1024, f k = ∑ p : Fin 16 × Fin 64, f (finProdFinEquiv p) :=
    (Equiv.sum_comp (finProdFinEquiv (m := 16) (n := 64)) f).symm
  rw [e, Fintype.sum_prod_type]
  refine Finset.sum_congr rfl fun d _ => Finset.sum_congr rfl fun k' _ => ?_
  congr 1
  apply Fin.ext
  show k'.val + 64 * d.val = d.val * 64 + k'.val
  omega

/-- Where column `k'` of block `d` of the first argument lies in the whole array. -/
theorem idx_cols (d : Fin 16) (r : Fin 1024) (k' : Fin 64)
    (h : Layout.Tiles ⟨2, ![1024, 64]⟩ ⟨2, ![1024, 1024]⟩ 1 16) :
    h.idx d (ix2 r k') = ix2 r (⟨d.val * 64 + k'.val, by omega⟩ : Fin 1024) := by
  funext a
  match a with
  | ⟨0, _⟩ => exact Fin.ext rfl
  | ⟨1, _⟩ => exact Fin.ext rfl

/-- Where row `k'` of block `d` of the second argument lies in the whole array. -/
theorem idx_rows (d : Fin 16) (k' : Fin 64) (l : Fin 1024)
    (h : Layout.Tiles ⟨2, ![64, 1024]⟩ ⟨2, ![1024, 1024]⟩ 0 16) :
    h.idx d (ix2 k' l) = ix2 (⟨d.val * 64 + k'.val, by omega⟩ : Fin 1024) l := by
  funext a
  match a with
  | ⟨0, _⟩ => exact Fin.ext rfl
  | ⟨1, _⟩ => exact Fin.ext rfl

/-- THE PRODUCT IS THE SUM OF THE SIXTEEN PARTIAL PRODUCTS: device `d` holds columns `64 d .. 64 d + 63` of the first
    argument and the same rows of the second. -/
theorem mm_eq_sum_parts (X W : (⟨2, ![1024, 1024]⟩ : Shape).Idx → EReal) (i : (⟨2, ![1024, 1024]⟩ : Shape).Idx) :
    mm X W i = ∑ d : Fin 16, mmPart (Layout.block ⟨2, ![1024, 64]⟩ ⟨2, ![1024, 1024]⟩ 1 16 d X)
      (Layout.block ⟨2, ![64, 1024]⟩ ⟨2, ![1024, 1024]⟩ 0 16 d W) i := by
  unfold mm mmPart
  rw [sum_runs]
  refine Finset.sum_congr rfl fun d _ => Finset.sum_congr rfl fun k' _ => ?_
  have hX := idx_cols d (i 0) k' (by decide)
  have hW := idx_rows d k' (i 1) (by decide)
  exact congrArg₂ (· * ·) (congrArg X hX.symm) (congrArg W hW.symm)

/-! ## The GELU -/

/-- The tanh form of the GELU, the cube associated `((c y) y) y`. -/
def gelu (y : EReal) : EReal :=
  (Ideal.ofBits .f32 0x3F000000#32 : EReal) * y
    * ((Ideal.ofBits .f32 0x3F800000#32 : EReal)
        + Ideal.tanh ((Ideal.ofBits .f32 0x3F4C422A#32 : EReal) * (y + (Ideal.ofBits .f32 0x3D372713#32 : EReal) * y * y * y)))

/-- The same with the cube associated `c ((y y) y)`. -/
def geluRef (y : EReal) : EReal :=
  (Ideal.ofBits .f32 0x3F000000#32 : EReal) * y
    * ((Ideal.ofBits .f32 0x3F800000#32 : EReal)
        + Ideal.tanh ((Ideal.ofBits .f32 0x3F4C422A#32 : EReal) * (y + (Ideal.ofBits .f32 0x3D372713#32 : EReal) * ((y * y) * y))))

/-- Multiplication of extended reals is associative, so the two are one function. -/
theorem gelu_eq_geluRef (y : EReal) : gelu y = geluRef y := by
  unfold gelu geluRef
  rw [mul_assoc (Ideal.ofBits .f32 0x3D372713#32 : EReal) y y, mul_assoc (Ideal.ofBits .f32 0x3D372713#32 : EReal) (y * y) y]

/-! ## The order in which a ring of sixteen adds -/

section Ring

variable {M : Type*} [AddCommMonoid M]

/-- The running sum that has reached position `p` after `s` steps in the direction of increasing positions: the
    position's own value plus what its predecessor had a step earlier. -/
def accR (P : Fin 16 → M) : Fin 16 → Nat → M
  | p, 0 => P p
  | p, s + 1 => P p + accR P (p - 1) s

/-- The same in the direction of decreasing positions. -/
def accL (P : Fin 16 → M) : Fin 16 → Nat → M
  | p, 0 => P p
  | p, s + 1 => P p + accL P (p + 1) s

/-- The positions `accR P p s` has gathered: `p, p - 1, …, p - s`. -/
def posR : Fin 16 → Nat → List (Fin 16)
  | p, 0 => [p]
  | p, s + 1 => p :: posR (p - 1) s

/-- The positions `accL P p s` has gathered: `p, p + 1, …, p + s`. -/
def posL : Fin 16 → Nat → List (Fin 16)
  | p, 0 => [p]
  | p, s + 1 => p :: posL (p + 1) s

theorem accR_eq (P : Fin 16 → M) (p : Fin 16) (s : Nat) : accR P p s = ((posR p s).map P).sum := by
  induction s generalizing p with
  | zero => simp [accR, posR]
  | succ s ih => simp [accR, posR, ih]

theorem accL_eq (P : Fin 16 → M) (p : Fin 16) (s : Nat) : accL P p s = ((posL p s).map P).sum := by
  induction s generalizing p with
  | zero => simp [accL, posL]
  | succ s ih => simp [accL, posL, ih]

/-- Position `p`, the seven before it and the eight after it are the sixteen positions, each once. -/
theorem pos_perm : ∀ p : Fin 16, (p :: (posR (p - 1) 6 ++ posL (p + 1) 7)).Perm (List.finRange 16) := by
  decide

/-- THE RING'S TOTAL: the position's own value, the running sum that arrives from one side after six steps and the one
    from the other side after seven are the sum of all sixteen values. -/
theorem ring_total (P : Fin 16 → M) (p : Fin 16) :
    (P p + accR P (p - 1) 6) + accL P (p + 1) 7 = ∑ q : Fin 16, P q := by
  rw [accR_eq, accL_eq, Fin.sum_univ_def, ← ((pos_perm p).map P).sum_eq]
  simp only [List.map_cons, List.map_append, List.sum_cons, List.sum_append, add_assoc]

end Ring

/-- The same for extended reals. -/
theorem ring_total_ereal (P : Fin 16 → EReal) (p : Fin 16) :
    (P p + accR P (p - 1) 6) + accL P (p + 1) 7 = ∑ q : Fin 16, P q := ring_total P p

/-- info: 'Cert.Spec.mm_eq_sum_parts' depends on axioms: [propext, Classical.choice, Quot.sound] -/
#guard_msgs in #print axioms mm_eq_sum_parts
/-- info: 'Cert.Spec.ring_total' depends on axioms: [propext, Classical.choice, Quot.sound] -/
#guard_msgs in #print axioms ring_total

end Cert.Spec

end
-- ==== Proof.RefValue.lean ====
/-
  The reference's result, as one function of its two argument arrays: at every index the GELU of the product.

  The reference multiplies the two `1024 x 1024` arrays, then applies the tanh form of the GELU elementwise, the cube
  associated `c ((y y) y)`. Read at an index, each of its operations is the operation on the extended reals; the
  product is `Cert.Spec.mm`, and the rest is `Cert.Spec.geluRef` of it, which is `Cert.Spec.gelu` of it
  (`Cert.Spec.gelu_eq_geluRef`). Two consequences of the reference's run are stated for the claim: the arguments end
  unchanged (`ref_frame`), and the result ends holding that function of the arguments (`ref_run`).
-/
import proofs.«900799_g7700000000000800_dist_gemm_ar_m1024_k1024_n1024_f32_gelu_v7x_i16_1_alg».proof.Proof.Gen.ReferenceIdeal.Run
import proofs.«900799_g7700000000000800_dist_gemm_ar_m1024_k1024_n1024_f32_gelu_v7x_i16_1_alg».proof.Proof.Gen.ReferenceIdeal.Read
import proofs.«900799_g7700000000000800_dist_gemm_ar_m1024_k1024_n1024_f32_gelu_v7x_i16_1_alg».proof.Proof.Spec

noncomputable section

open scoped BigOperators

namespace Cert.ReferenceIdeal.RefValue

open Cert.ReferenceIdeal Cert.ReferenceIdeal.Gen Idealize.ShloMosaic Idealize.SL.Sem Idealize.ShloMosaic.ValueIdx

/-- The value of the reference: at index `i`, the GELU of the product of the two arguments at `i`. -/
def refFun (x0 x1 : (⟨S1024x1024, .f32⟩ : BufTy).Contents (Elt Ideal)) : (⟨S1024x1024, .f32⟩ : BufTy).Contents (Elt Ideal) :=
  fun i => Cert.Spec.gelu (Cert.Spec.mm x0 x1 i)

/-- The index of the left factor of the product's `k`-th term, by coordinates. -/
theorem lidx_eq (i : S1024x1024.Idx) (k : Fin 1024) : Read.lidx_main_v0 i k = ix2 (i 0) k :=
  funext fun a => Fin.ext (by match a with | ⟨0, _⟩ => rfl | ⟨1, _⟩ => rfl)

/-- The index of the right factor of the product's `k`-th term, by coordinates. -/
theorem ridx_eq (i : S1024x1024.Idx) (k : Fin 1024) : Read.ridx_main_v0 i k = ix2 k (i 1) :=
  funext fun a => Fin.ext (by match a with | ⟨0, _⟩ => rfl | ⟨1, _⟩ => rfl)

/-- The reference's first operation is the product. -/
theorem v0_eq_mm (x0 x1 : (⟨S1024x1024, .f32⟩ : BufTy).Contents (Elt Ideal)) (i : S1024x1024.Idx) :
    Read.val_main_v0 (F := Ideal) x0 x1 i = Cert.Spec.mm x0 x1 i := by
  rw [Read.val_main_v0_apply]
  unfold Cert.Spec.mm
  refine Finset.sum_congr rfl fun k _ => ?_
  rw [lidx_eq, ridx_eq]
  rfl

/-- THE REFERENCE'S RESULT IS THE GELU OF THE PRODUCT, index by index. -/
theorem v13_eq_refFun (x0 x1 : (⟨S1024x1024, .f32⟩ : BufTy).Contents (Elt Ideal)) :
    Read.val_main_v13 (F := Ideal) x0 x1 = refFun x0 x1 := by
  funext i
  unfold refFun
  rw [Read.val_main_v13_apply, Read.val_main_v2_apply, Read.val_main_v12_apply, Read.val_main_v1_apply,
    Read.val_main_cst_apply, Read.val_main_v11_apply, Read.val_main_cst_2_apply, Read.val_main_v10_apply,
    Read.val_main_v9_apply, Read.val_main_v8_apply, Read.val_main_cst_1_apply, Read.val_main_v7_apply,
    Read.val_main_v6_apply, Read.val_main_v5_apply, Read.val_main_cst_0_apply, Read.val_main_v4_apply,
    Read.val_main_v3_apply, v0_eq_mm, Cert.Spec.gelu_eq_geluRef]
  rfl

/-- The reference runs and its two arguments end unchanged. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (Cert.ReferenceIdeal.Value.run (F := Ideal) m g)

/-- The reference runs, its result ends holding the GELU of the product of its arguments, and the arguments end
    unchanged. -/
theorem ref_run (m' : (ℓ : Loc nD τ sig) → Buf (Elt Ideal) ℓ) (g' : Dev nD → PrngReg) :
    θ_run (defs (F := Ideal)) (onTc (τ := τ) (main (F := Ideal))) ⟨m', fun _ => 0, g'⟩ (fun r =>
      r.2.mem (((0 : Dev nD).tc : Thread nD τ).loc main_v13)
          = refFun (m' (((0 : Dev nD).tc : Thread nD τ).loc main_arg0)) (m' (((0 : Dev nD).tc : Thread nD τ).loc main_arg1))
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1)) :=
  (θ_run defs _ _).mono
    (fun _ h => ⟨((h 0).1.trans (Read.val_main_v13_eq _ _)).trans (v13_eq_refFun _ _), (h 0).2.1, (h 0).2.2⟩)
    (Cert.ReferenceIdeal.Value.run (F := Ideal) m' g')

/-- info: 'Cert.ReferenceIdeal.RefValue.ref_run' depends on axioms: [propext, Classical.choice, Quot.sound] -/
#guard_msgs in #print axioms ref_run
/-- info: 'Cert.ReferenceIdeal.RefValue.ref_frame' depends on axioms: [propext, Classical.choice, Quot.sound] -/
#guard_msgs in #print axioms ref_frame

end Cert.ReferenceIdeal.RefValue

end
-- ==== Proof.KernelValue.lean ====
/-
  The value the kernel leaves: on every device the whole result is, index by index, the GELU of the product of the two
  whole arrays.

  Device `c` stages its block of columns of the first array and its block of rows of the second, and its partial product
  `part c` is the product of the two blocks. A strip is sixteen rows of a chunk of sixty-four; the chunk at distance `a`
  from `c`'s ring position `p` starts at row `64 ((p + a) mod 16)`. Fix an element of the result, at row `R` and column
  `l`, and write `P q` for the partial product of the device at position `q` at that element. The running sums the ring
  sends one way and the other are, at that element, the sums `Cert.Spec.accL P` and `Cert.Spec.accR P` of the positions
  gathered so far; the total a device holds for its own chunk is the sum of all sixteen `P q` (`Cert.Spec.ring_total`),
  that is, over the sixteen devices, the whole product (`Cert.Spec.mm_eq_sum_parts`); the GELU of it is what the
  reference computes there.
-/
import proofs.«900799_g7700000000000800_dist_gemm_ar_m1024_k1024_n1024_f32_gelu_v7x_i16_1_alg».proof.Proof.Iface
import proofs.«900799_g7700000000000800_dist_gemm_ar_m1024_k1024_n1024_f32_gelu_v7x_i16_1_alg».proof.Proof.Spec
import proofs.«900799_g7700000000000800_dist_gemm_ar_m1024_k1024_n1024_f32_gelu_v7x_i16_1_alg».proof.Proof.RefValue
import Idealize.ShloMosaic.PureOps.Ideal.Laws
import Idealize.ShloMosaic.Lib.ValueIdx
import Idealize.ShloMosaic.Lib.ValueLayout

noncomputable section

open scoped BigOperators

namespace Cert.KernelIdeal.Hand

open Cert.KernelIdeal Cert.KernelIdeal.Gen
open Idealize.ShloMosaic Idealize.ShloMosaic.TcCoe Idealize.ShloMosaic.ValueIdx

/-! ## The payloads at the extended reals -/

theorem lhs_pay1_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_pay1_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_pay1_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_pay1_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The matrix product of a block of columns with a block of rows, read at an index, is the sum over the sixty-four
    shared coordinates. -/
theorem pay1_apply (x : Vec Ideal S1024x64 .f32) (w : Vec Ideal S64x1024 .f32) (i : S1024x1024.Idx) :
    k0_pay1 (F := Ideal) x w i = Cert.Spec.mmPart x w i := by
  unfold k0_pay1 Cert.Spec.mmPart
  rw [shapeCast_self, shapeCast_self]
  simp only [matmul]
  rw [Ideal.matmul_constant_zero_apply, ← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx i ((ValueIdx.contrEquiv1 dot_S1024x64_S64x1024_S1024x1024_1_0_0_1_n_n 64 rfl rfl).symm k) = ix2 (i 0) k := funext fun a => Fin.ext (by
    match a with
    | ⟨0, _⟩ => exact lhs_pay1_0 _ _
    | ⟨1, _⟩ => exact (lhs_pay1_1 _ _).trans hk)
  have er : dot_S1024x64_S64x1024_S1024x1024_1_0_0_1_n_n.rhsIdx i ((ValueIdx.contrEquiv1 dot_S1024x64_S64x1024_S1024x1024_1_0_0_1_n_n 64 rfl rfl).symm k) = ix2 k (i 1) := funext fun a => Fin.ext (by
    match a with
    | ⟨0, _⟩ => exact (rhs_pay1_0 _ _).trans hk
    | ⟨1, _⟩ => exact rhs_pay1_1 _ _)
  rw [el, er]
  rfl

/-- The kernel's GELU of a strip is, entry by entry, the GELU of the entry. -/
theorem geluS_apply (v : S16x1024.Idx → Elt Ideal .f32) (i : S16x1024.Idx) :
    geluS (F := Ideal) v i = Cert.Spec.gelu (v i) := by
  unfold geluS k0_pay65 k0_pay63 k0_pay64 k0_pay62
  rw [shapeCast_self]
  rfl

/-- The sum of two strips is, entry by entry, the sum of the entries. -/
theorem addS_apply (u v : S16x1024.Idx → Elt Ideal .f32) (i : S16x1024.Idx) :
    addS (F := Ideal) u v i = (show EReal from u i) + (show EReal from v i) := rfl

variable (m : (ℓ : Loc nD τ sig) → Buf (Elt Ideal) ℓ) (ρ : Dev nD → PrngReg)

/-! ## The staged blocks, the partial product and its strips -/

/-- The staged block of the first argument is the device's whole argument buffer. -/
theorem xstg_apply (c : Dev nD) (x : S1024x64.Idx) :
    xstg (F := Ideal) m ρ c x = m ((c : Thread nD τ).loc main_arg0) x := by
  unfold xstg s₀
  rw [View.read_apply]
  have he : (win0_0.blk (0 : Fin 1)).view.emb x = x := by
    funext a; apply Fin.ext
    show 0 * _ + 1 * (x a).val = (x a).val
    omega
  rw [he]; rfl

/-- The staged block of the second argument is the device's whole argument buffer. -/
theorem wstg_apply (c : Dev nD) (x : S64x1024.Idx) :
    wstg (F := Ideal) m ρ c x = m ((c : Thread nD τ).loc main_arg1) x := by
  unfold wstg s₀
  rw [View.read_apply]
  have he : (win0_1.blk (0 : Fin 1)).view.emb x = x := by
    funext a; apply Fin.ext
    show 0 * _ + 1 * (x a).val = (x a).val
    omega
  rw [he]; rfl

/-- Row `r` of strip `j` of the chunk at distance `a` is row `chunkRow c a + 16 j + r` of the partial product. -/
theorem partS_apply (c : Dev nD) (a : ℕ) (j : Fin 4) (r : Fin 16) (l : Fin 1024) :
    partS (F := Ideal) m ρ c a j (ix2 r l)
      = part (F := Ideal) m ρ c (ix2 (⟨chunkRow c a + 16 * j.val + r.val, by have := stripRow_le c a j; omega⟩ : Fin 1024) l) := by
  unfold partS
  rw [View.read_apply]
  have he : (oS c a j).view.emb (ix2 r l) = ix2 (⟨chunkRow c a + 16 * j.val + r.val, by have := stripRow_le c a j; omega⟩ : Fin 1024) l := by
    funext b; apply Fin.ext
    match b with
    | ⟨0, _⟩ => show (chunkRow c a + 16 * j.val) + 1 * r.val = chunkRow c a + 16 * j.val + r.val; omega
    | ⟨1, _⟩ => show 0 + 1 * l.val = l.val; omega
  rw [he]; rfl

/-! ## The ring's sums at one element -/

/-- The partial product of the device at ring position `q`, at row `R` and column `l`. -/
def Pat (R l : Fin 1024) (q : Fin 16) : EReal := part (F := Ideal) m ρ (devAt q) (ix2 R l)

theorem ringPos_rgt_val : ∀ c : Dev nD, (posOf (rgt c)).val = ((posOf c).val + 1) % 16 := by decide
theorem ringPos_lft_val : ∀ c : Dev nD, (posOf (lft c)).val = ((posOf c).val + 15) % 16 := by decide

/-- A strip's entry as the partial product of the device's own position. -/
theorem partS_eq_Pat (c : Dev nD) (a : ℕ) (j : Fin 4) (r : Fin 16) (R l : Fin 1024)
    (hR : R.val = chunkRow c a + 16 * j.val + r.val) :
    partS (F := Ideal) m ρ c a j (ix2 r l) = Pat m ρ R l (posOf c) := by
  rw [partS_apply]
  unfold Pat
  rw [devAt_posOf]
  congr 2
  exact Fin.ext hR.symm

/-- What travels left, at one element: the sum over the positions gathered so far. -/
theorem accL_apply (j : Fin 4) (r : Fin 16) (R l : Fin 1024) :
    ∀ (s : ℕ) (c : Dev nD), R.val = chunkRow c (8 + s) + 16 * j.val + r.val →
      accL (F := Ideal) m ρ s c j (ix2 r l) = Cert.Spec.accL (Pat m ρ R l) (posOf c) s := by
  intro s
  induction s with
  | zero =>
    intro c hR
    show partS (F := Ideal) m ρ c 8 j (ix2 r l) = Pat m ρ R l (posOf c)
    exact partS_eq_Pat m ρ c 8 j r R l hR
  | succ s ih =>
    intro c hR
    show (show EReal from partS (F := Ideal) m ρ c (8 + (s + 1)) j (ix2 r l)) + (show EReal from accL (F := Ideal) m ρ s (rgt c) j (ix2 r l))
      = Pat m ρ R l (posOf c) + Cert.Spec.accL (Pat m ρ R l) (posOf c + 1) s
    rw [partS_eq_Pat m ρ c (8 + (s + 1)) j r R l hR, ih (rgt c) (by
      rw [hR]; unfold chunkRow; rw [ringPos_rgt_val]; omega), posOf_rgt]

/-- What travels right, at one element. -/
theorem accR_apply (j : Fin 4) (r : Fin 16) (R l : Fin 1024) :
    ∀ (s : ℕ) (c : Dev nD), s ≤ 7 → R.val = chunkRow c (7 - s) + 16 * j.val + r.val →
      accR (F := Ideal) m ρ s c j (ix2 r l) = Cert.Spec.accR (Pat m ρ R l) (posOf c) s := by
  intro s
  induction s with
  | zero =>
    intro c _ hR
    show partS (F := Ideal) m ρ c 7 j (ix2 r l) = Pat m ρ R l (posOf c)
    exact partS_eq_Pat m ρ c 7 j r R l hR
  | succ s ih =>
    intro c hs hR
    show (show EReal from partS (F := Ideal) m ρ c (7 - (s + 1)) j (ix2 r l)) + (show EReal from accR (F := Ideal) m ρ s (lft c) j (ix2 r l))
      = Pat m ρ R l (posOf c) + Cert.Spec.accR (Pat m ρ R l) (posOf c - 1) s
    rw [partS_eq_Pat m ρ c (7 - (s + 1)) j r R l hR, ih (lft c) (by omega) (by
      rw [hR]; unfold chunkRow; rw [ringPos_lft_val]; omega), posOf_lft]

/-- THE TOTAL a device holds for its own chunk is, at one element, the sum over all sixteen positions. -/
theorem tot_apply (c : Dev nD) (j : Fin 4) (r : Fin 16) (R l : Fin 1024)
    (hR : R.val = chunkRow c 0 + 16 * j.val + r.val) :
    tot (F := Ideal) m ρ c j (ix2 r l) = ∑ q : Fin 16, Pat m ρ R l q := by
  rw [← Cert.Spec.ring_total_ereal (Pat m ρ R l) (posOf c)]
  show ((show EReal from partS (F := Ideal) m ρ c 0 j (ix2 r l)) + (show EReal from accR (F := Ideal) m ρ 6 (lft c) j (ix2 r l)))
      + (show EReal from accL (F := Ideal) m ρ 7 (rgt c) j (ix2 r l)) = _
  rw [partS_eq_Pat m ρ c 0 j r R l hR,
    accR_apply m ρ j r R l 6 (lft c) (by omega) (by rw [hR]; unfold chunkRow; rw [ringPos_lft_val]; omega),
    accL_apply m ρ j r R l 7 (rgt c) (by rw [hR]; unfold chunkRow; rw [ringPos_rgt_val]; omega),
    posOf_lft, posOf_rgt]

/-! ## From the devices' blocks to the whole product -/

/-- The positions of the ring are the devices, each once. -/
def devEquiv : Fin 16 ≃ Dev nD := ⟨devAt, posOf, posOf_devAt, devAt_posOf⟩

variable (X0 X1 : (⟨2, ![1024, 1024]⟩ : Shape).Idx → EReal)

/-- A device's partial product, when its two argument buffers hold its blocks of the whole arrays. -/
theorem part_apply (c : Dev nD)
    (h0 : m ((c : Thread nD τ).loc main_arg0) = Layout.block ⟨2, ![1024, 64]⟩ ⟨2, ![1024, 1024]⟩ 1 16 c X0)
    (h1 : m ((c : Thread nD τ).loc main_arg1) = Layout.block ⟨2, ![64, 1024]⟩ ⟨2, ![1024, 1024]⟩ 0 16 c X1)
    (i : S1024x1024.Idx) :
    part (F := Ideal) m ρ c i
      = Cert.Spec.mmPart (Layout.block ⟨2, ![1024, 64]⟩ ⟨2, ![1024, 1024]⟩ 1 16 c X0)
          (Layout.block ⟨2, ![64, 1024]⟩ ⟨2, ![1024, 1024]⟩ 0 16 c X1) i := by
  have hx : xstg (F := Ideal) m ρ c = Layout.block ⟨2, ![1024, 64]⟩ ⟨2, ![1024, 1024]⟩ 1 16 c X0 :=
    (funext fun x => xstg_apply m ρ c x).trans h0
  have hw : wstg (F := Ideal) m ρ c = Layout.block ⟨2, ![64, 1024]⟩ ⟨2, ![1024, 1024]⟩ 0 16 c X1 :=
    (funext fun x => wstg_apply m ρ c x).trans h1
  unfold part
  rw [pay1_apply, hx, hw]

/-- The sum over the sixteen positions of the partial products at one element is the whole product there. -/
theorem sum_Pat (R l : Fin 1024)
    (h : ∀ c : Dev nD,
      m ((c : Thread nD τ).loc main_arg0) = Layout.block ⟨2, ![1024, 64]⟩ ⟨2, ![1024, 1024]⟩ 1 16 c X0
      ∧ m ((c : Thread nD τ).loc main_arg1) = Layout.block ⟨2, ![64, 1024]⟩ ⟨2, ![1024, 1024]⟩ 0 16 c X1) :
    ∑ q : Fin 16, Pat m ρ R l q = Cert.Spec.mm X0 X1 (ix2 R l) := by
  rw [Cert.Spec.mm_eq_sum_parts]
  unfold Pat
  rw [← Equiv.sum_comp devEquiv (fun d : Dev nD => Cert.Spec.mmPart (Layout.block ⟨2, ![1024, 64]⟩ ⟨2, ![1024, 1024]⟩ 1 16 d X0)
      (Layout.block ⟨2, ![64, 1024]⟩ ⟨2, ![1024, 1024]⟩ 0 16 d X1) (ix2 R l))]
  refine Finset.sum_congr rfl fun q _ => ?_
  exact part_apply m ρ X0 X1 (devAt q) (h (devAt q)).1 (h (devAt q)).2 (ix2 R l)

/-- THE KERNEL'S RESULT IS THE REFERENCE'S: when every device's two argument buffers hold its blocks of the whole arrays
    `X0` and `X1`, the result every device ends with is, index by index, the GELU of their product. -/
theorem outFinal_eq_refFun
    (h : ∀ c : Dev nD,
      m ((c : Thread nD τ).loc main_arg0) = Layout.block ⟨2, ![1024, 64]⟩ ⟨2, ![1024, 1024]⟩ 1 16 c X0
      ∧ m ((c : Thread nD τ).loc main_arg1) = Layout.block ⟨2, ![64, 1024]⟩ ⟨2, ![1024, 1024]⟩ 0 16 c X1) :
    outFinal (F := Ideal) m ρ = Cert.ReferenceIdeal.RefValue.refFun X0 X1 := by
  funext i
  have hi0 : (i 0).val < 1024 := (i 0).isLt
  have hi1 : (i 1).val < 1024 := (i 1).isLt
  show geluS (F := Ideal) (tot (F := Ideal) m ρ (devAt ⟨(i 0).val / 64 % 16, Nat.mod_lt _ (by decide)⟩) ⟨(i 0).val % 64 / 16 % 4, Nat.mod_lt _ (by decide)⟩)
      (ix2 (⟨(i 0).val % 16, Nat.mod_lt _ (by decide)⟩ : Fin 16) (⟨(i 1).val % 1024, Nat.mod_lt _ (by decide)⟩ : Fin 1024))
    = Cert.Spec.gelu (Cert.Spec.mm X0 X1 i)
  rw [geluS_apply, tot_apply m ρ _ _ _ ⟨(i 0).val, hi0⟩ ⟨(i 1).val % 1024, Nat.mod_lt _ (by decide)⟩ (by
      unfold chunkRow; rw [posOf_devAt]
      show (i 0).val = 64 * (((i 0).val / 64 % 16 + 0) % 16) + 16 * ((i 0).val % 64 / 16 % 4) + (i 0).val % 16
      omega),
    sum_Pat m ρ X0 X1 _ _ h]
  congr 2
  funext a
  match a with
  | ⟨0, _⟩ => exact Fin.ext rfl
  | ⟨1, _⟩ => exact Fin.ext (Nat.mod_eq_of_lt hi1)

/-- info: 'Cert.KernelIdeal.Hand.outFinal_eq_refFun' depends on axioms: [propext, Classical.choice, Quot.sound] -/
#guard_msgs in #print axioms outFinal_eq_refFun

end Cert.KernelIdeal.Hand

end
-- ==== Proof.lean ====
/- The five conjuncts of the claim assembled from the two kernel runs, the kernel's value and the reference's run.
   The kernel's run at each instance ends with every device's result named as a pure term of the arguments and the
   arguments unchanged; each frame is that run with the value dropped, and the algebraic conjunct is the ideal run with
   the result rewritten to the reference's function of the whole arrays. -/
import proofs.«900799_g7700000000000800_dist_gemm_ar_m1024_k1024_n1024_f32_gelu_v7x_i16_1_alg».proof.Defs
import proofs.«900799_g7700000000000800_dist_gemm_ar_m1024_k1024_n1024_f32_gelu_v7x_i16_1_alg».proof.Proof.Gen.Kernel
import proofs.«900799_g7700000000000800_dist_gemm_ar_m1024_k1024_n1024_f32_gelu_v7x_i16_1_alg».proof.Proof.Gen.KernelIdeal
import proofs.«900799_g7700000000000800_dist_gemm_ar_m1024_k1024_n1024_f32_gelu_v7x_i16_1_alg».proof.Proof.Gen.ReferenceIdeal
import proofs.«900799_g7700000000000800_dist_gemm_ar_m1024_k1024_n1024_f32_gelu_v7x_i16_1_alg».proof.Proof.Gen.Pre_finite_inputs_Kernel
import proofs.«900799_g7700000000000800_dist_gemm_ar_m1024_k1024_n1024_f32_gelu_v7x_i16_1_alg».proof.Proof.Gen.Pre_finite_inputs_ReferenceIdeal
import proofs.«900799_g7700000000000800_dist_gemm_ar_m1024_k1024_n1024_f32_gelu_v7x_i16_1_alg».proof.Proof.LaunchK
import proofs.«900799_g7700000000000800_dist_gemm_ar_m1024_k1024_n1024_f32_gelu_v7x_i16_1_alg».proof.Proof.Kit
import proofs.«900799_g7700000000000800_dist_gemm_ar_m1024_k1024_n1024_f32_gelu_v7x_i16_1_alg».proof.Proof.Body
import proofs.«900799_g7700000000000800_dist_gemm_ar_m1024_k1024_n1024_f32_gelu_v7x_i16_1_alg».proof.Proof.Bits.LaunchK
import proofs.«900799_g7700000000000800_dist_gemm_ar_m1024_k1024_n1024_f32_gelu_v7x_i16_1_alg».proof.Proof.Bits.Kit
import proofs.«900799_g7700000000000800_dist_gemm_ar_m1024_k1024_n1024_f32_gelu_v7x_i16_1_alg».proof.Proof.Bits.Body
import proofs.«900799_g7700000000000800_dist_gemm_ar_m1024_k1024_n1024_f32_gelu_v7x_i16_1_alg».proof.Proof.KernelValue
import proofs.«900799_g7700000000000800_dist_gemm_ar_m1024_k1024_n1024_f32_gelu_v7x_i16_1_alg».proof.Proof.RefValue
import Idealize.ShloMosaic.Adequacy
import Idealize.ShloMosaic.Init

noncomputable section

namespace Cert.Proof

open Idealize.ShloMosaic Idealize.SL.Sem

section Inputs

variable (VB : ((ℓ : Loc Cert.Kernel.nD Cert.Kernel.τ Cert.Kernel.sig) → Buf (Elt Bits) ℓ) → (Dev Cert.Kernel.nD → PrngReg)
    → (c : Dev Cert.Kernel.nD) → Buf (Elt Bits) ((c.tc : Thread Cert.Kernel.nD Cert.Kernel.τ).loc Cert.Kernel.main_v1))
variable (runB : ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_v1) = VB m g c
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)))

variable (runI : ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Cert.KernelIdeal.Hand.outFinal (F := Ideal) m g
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)))

include runB runI in
theorem claim_of_runs : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    -- the word-level kernel runs and leaves its arguments: its run with the value dropped
    fun m g _ => (θ_run _ _ _).mono (fun _ h c => (h c).2) (runB m g),
    -- the same at the ideal instance
    fun m g _ => (θ_run _ _ _).mono (fun _ h c => (h c).2) (runI m g),
    -- the reference runs and leaves its arguments
    fun m g _ => Cert.ReferenceIdeal.RefValue.ref_frame m g,
    -- the ideal pass rewrote nothing
    trivial,
    -- both run and the kernel's result on every device is the reference's
    fun m g m' g' _ hblk =>
      ⟨Cert.ReferenceIdeal.RefValue.refFun
          (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1)),
        (θ_run _ _ _).mono
          (fun _ h c => ⟨(h c).1.trans (Cert.KernelIdeal.Hand.outFinal_eq_refFun m g _ _ hblk), (h c).2⟩) (runI m g),
        Cert.ReferenceIdeal.RefValue.ref_run m' g'⟩⟩

end Inputs

/-- The claim: the two runs are the launch theorem at each instance applied to the body obligation of that instance. -/
theorem claim : Cert.Claim :=
  claim_of_runs (fun m g _ => Cert.Kernel.Hand.outFinal (F := Bits) m g)
    (fun m g => Cert.Kernel.Hand.run (F := Bits) m g (fun c =>
      Cert.Kernel.Hand.body_obligation (F := Bits) m g c (fun K Kt W fo fl fr => Cert.Kernel.Hand.sound_body (F := Bits) m g K c Kt W fo fl fr)))
    (fun m g => Cert.KernelIdeal.Hand.run (F := Ideal) m g (fun c =>
      Cert.KernelIdeal.Hand.body_obligation (F := Ideal) m g c (fun K Kt W fo fl fr => Cert.KernelIdeal.Hand.sound_body (F := Ideal) m g K c Kt W fo fl fr)))

end Cert.Proof

end
